-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_arg7 : FVec F S3x128 .f32) (main_arg8 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S3x128x256 : Shape := ⟨3, ![3, 128, 256]⟩
abbrev S1x128x256 : Shape := ⟨3, ![1, 128, 256]⟩
abbrev S128x256 : Shape := ⟨2, ![128, 256]⟩
abbrev S1x128 : Shape := ⟨2, ![1, 128]⟩
abbrev S128 : Shape := ⟨1, ![128]⟩
abbrev S5000x128 : Shape := ⟨2, ![5000, 128]⟩
abbrev S5000x1 : Shape := ⟨2, ![5000, 1]⟩
abbrev S5000x256 : Shape := ⟨2, ![5000, 256]⟩
abbrev S1700000x128 : Shape := ⟨2, ![1700000, 128]⟩
abbrev S2x1x128 : Shape := ⟨3, ![2, 1, 128]⟩
abbrev S1x1x128 : Shape := ⟨3, ![1, 1, 128]⟩
abbrev S2x1024x128 : Shape := ⟨3, ![2, 1024, 128]⟩
abbrev S1000x128 : Shape := ⟨2, ![1000, 128]⟩
abbrev S1000x1 : Shape := ⟨2, ![1000, 1]⟩
abbrev S1x1024x128 : Shape := ⟨3, ![1, 1024, 128]⟩
abbrev S1000x1024 : Shape := ⟨2, ![1000, 1024]⟩
abbrev S1024x128 : Shape := ⟨2, ![1024, 128]⟩

abbrev nBuf : Space → Nat
  | .hbm => 156
  | .vmem => 107
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S100000, .f32⟩
  | 23 => ⟨S100000x1, .f32⟩
  | 24 => ⟨S3x128x256, .f32⟩
  | 25 => ⟨S1x128x256, .f32⟩
  | 26 => ⟨S128x256, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000x128, .f32⟩
  | 41 => ⟨S_, .f32⟩
  | 42 => ⟨S100000x128, .f32⟩
  | 43 => ⟨S1700000x1, .i32⟩
  | 44 => ⟨S100000x128, .f32⟩
  | 45 => ⟨S1x128, .f32⟩
  | 46 => ⟨S128, .f32⟩
  | 47 => ⟨S1x128, .f32⟩
  | 48 => ⟨S2x1x128, .f32⟩
  | 49 => ⟨S100000x128, .f32⟩
  | 50 => ⟨S_, .f32⟩
  | 51 => ⟨S1x128, .f32⟩
  | 52 => ⟨S_, .f32⟩
  | 53 => ⟨S1x128, .f32⟩
  | 54 => ⟨S1x128, .f32⟩
  | 55 => ⟨S2x1x128, .f32⟩
  | 56 => ⟨S_, .f32⟩
  | 57 => ⟨S1x128, .f32⟩
  | 58 => ⟨S_, .f32⟩
  | 59 => ⟨S1x128, .f32⟩
  | 60 => ⟨S1x128, .f32⟩
  | 61 => ⟨S1x128, .f32⟩
  | 62 => ⟨S128, .f32⟩
  | 63 => ⟨S1x128, .f32⟩
  | 64 => ⟨S128, .f32⟩
  | 65 => ⟨S1x128x256, .f32⟩
  | 66 => ⟨S128x256, .f32⟩
  | 67 => ⟨S1x128, .f32⟩
  | 68 => ⟨S128, .f32⟩
  | 69 => ⟨S1x128, .f32⟩
  | 70 => ⟨S1x128, .f32⟩
  | 71 => ⟨S1x128, .f32⟩
  | 72 => ⟨S100000x128, .f32⟩
  | 73 => ⟨S100000x128, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S128, .f32⟩
  | 89 => ⟨S1x128, .f32⟩
  | 90 => ⟨S2x1x128, .f32⟩
  | 91 => ⟨S100000x128, .f32⟩
  | 92 => ⟨S_, .f32⟩
  | 93 => ⟨S1x128, .f32⟩
  | 94 => ⟨S_, .f32⟩
  | 95 => ⟨S1x128, .f32⟩
  | 96 => ⟨S1x128, .f32⟩
  | 97 => ⟨S2x1x128, .f32⟩
  | 98 => ⟨S_, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S128, .f32⟩
  | 105 => ⟨S1x128, .f32⟩
  | 106 => ⟨S128, .f32⟩
  | 107 => ⟨S1x128x256, .f32⟩
  | 108 => ⟨S128x256, .f32⟩
  | 109 => ⟨S1x128, .f32⟩
  | 110 => ⟨S128, .f32⟩
  | 111 => ⟨S1x128, .f32⟩
  | 112 => ⟨S1x128, .f32⟩
  | 113 => ⟨S1x128, .f32⟩
  | 114 => ⟨S100000x128, .f32⟩
  | 115 => ⟨S100000x128, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x128, .f32⟩
  | 125 => ⟨S_, .f32⟩
  | 126 => ⟨S100000x128, .f32⟩
  | 127 => ⟨S1700000x1, .i32⟩
  | _ => ⟨S100000x128, .f32⟩

abbrev hbmTy0_1 (i : Nat) : BufTy := match i % 128 with
  | 0 => ⟨S100000x128, .f32⟩
  | 1 => ⟨S1x128, .f32⟩
  | 2 => ⟨S128, .f32⟩
  | 3 => ⟨S1x128, .f32⟩
  | 4 => ⟨S2x1x128, .f32⟩
  | 5 => ⟨S100000x128, .f32⟩
  | 6 => ⟨S_, .f32⟩
  | 7 => ⟨S1x128, .f32⟩
  | 8 => ⟨S_, .f32⟩
  | 9 => ⟨S1x128, .f32⟩
  | 10 => ⟨S1x128, .f32⟩
  | 11 => ⟨S2x1x128, .f32⟩
  | 12 => ⟨S_, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S1x128, .f32⟩
  | 23 => ⟨S100000x128, .f32⟩
  | 24 => ⟨S100000x1, .i32⟩
  | 25 => ⟨S2x1024x128, .f32⟩
  | 26 => ⟨S_, .f32⟩
  | 27 => ⟨S1024x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S1x128, .f32⟩
  | .local _ .vmem, ⟨17, _⟩ => ⟨S1x1x128, .f32⟩
  | .local _ .vmem, ⟨18, _⟩ => ⟨S1x1x128, .f32⟩
  | .local _ .vmem, ⟨19, _⟩ => ⟨S5000x128, .f32⟩
  | .local _ .vmem, ⟨20, _⟩ => ⟨S5000x128, .f32⟩
  | .local _ .vmem, ⟨21, _⟩ => ⟨S1x1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x256, .f32⟩
  | .local _ .vmem, ⟨35, _⟩ => ⟨S1x128, .f32⟩
  | .local _ .vmem, ⟨36, _⟩ => ⟨S5000x1, .f32⟩
  | .local _ .vmem, ⟨37, _⟩ => ⟨S5000x1, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S1x128, .f32⟩
  | .local _ .vmem, ⟨49, _⟩ => ⟨S1x1x128, .f32⟩
  | .local _ .vmem, ⟨50, _⟩ => ⟨S1x1x128, .f32⟩
  | .local _ .vmem, ⟨51, _⟩ => ⟨S5000x128, .f32⟩
  | .local _ .vmem, ⟨52, _⟩ => ⟨S5000x128, .f32⟩
  | .local _ .vmem, ⟨53, _⟩ => ⟨S1x1x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x1x128, .f32⟩
  | .local _ .vmem, ⟨58, _⟩ => ⟨S1x1x128, .f32⟩
  | .local _ .vmem, ⟨59, _⟩ => ⟨S1x1x128, .f32⟩
  | .local _ .vmem, ⟨60, _⟩ => ⟨S5000x128, .f32⟩
  | .local _ .vmem, ⟨61, _⟩ => ⟨S5000x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S128x256, .f32⟩
  | .local _ .vmem, ⟨67, _⟩ => ⟨S1x128, .f32⟩
  | .local _ .vmem, ⟨68, _⟩ => ⟨S5000x1, .f32⟩
  | .local _ .vmem, ⟨69, _⟩ => ⟨S5000x1, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S5000x1, .f32⟩
  | .local _ .vmem, ⟨79, _⟩ => ⟨S5000x1, .f32⟩
  | .local _ .vmem, ⟨80, _⟩ => ⟨S1x128, .f32⟩
  | .local _ .vmem, ⟨81, _⟩ => ⟨S1x1x128, .f32⟩
  | .local _ .vmem, ⟨82, _⟩ => ⟨S1x1x128, .f32⟩
  | .local _ .vmem, ⟨83, _⟩ => ⟨S5000x128, .f32⟩
  | .local _ .vmem, ⟨84, _⟩ => ⟨S5000x128, .f32⟩
  | .local _ .vmem, ⟨85, _⟩ => ⟨S1x1x128, .f32⟩
  | .local _ .vmem, ⟨86, _⟩ => ⟨S5000x128, .f32⟩
  | .local _ .vmem, ⟨87, _⟩ => ⟨S5000x128, .f32⟩
  | .local _ .vmem, ⟨88, _⟩ => ⟨S1x128, .f32⟩
  | .local _ .vmem, ⟨89, _⟩ => ⟨S1x1x128, .f32⟩
  | .local _ .vmem, ⟨90, _⟩ => ⟨S1x1x128, .f32⟩
  | .local _ .vmem, ⟨91, _⟩ => ⟨S1x1x128, .f32⟩
  | .local _ .vmem, ⟨92, _⟩ => ⟨S5000x128, .f32⟩
  | .local _ .vmem, ⟨93, _⟩ => ⟨S5000x128, .f32⟩
  | .local _ .vmem, ⟨94, _⟩ => ⟨S1x128, .f32⟩
  | .local _ .vmem, ⟨95, _⟩ => ⟨S1x128, .f32⟩
  | .local _ .vmem, ⟨96, _⟩ => ⟨S1x128, .f32⟩
  | .local _ .vmem, ⟨97, _⟩ => ⟨S1x128, .f32⟩
  | .local _ .vmem, ⟨98, _⟩ => ⟨S5000x128, .f32⟩
  | .local _ .vmem, ⟨99, _⟩ => ⟨S5000x128, .f32⟩
  | .local _ .vmem, ⟨100, _⟩ => ⟨S1000x128, .f32⟩
  | .local _ .vmem, ⟨101, _⟩ => ⟨S1000x128, .f32⟩
  | .local _ .vmem, ⟨102, _⟩ => ⟨S1000x1, .i32⟩
  | .local _ .vmem, ⟨103, _⟩ => ⟨S1000x1, .i32⟩
  | .local _ .vmem, ⟨104, _⟩ => ⟨S1x1024x128, .f32⟩
  | .local _ .vmem, ⟨105, _⟩ => ⟨S1x1024x128, .f32⟩
  | .local _ .vmem, ⟨106, _⟩ => ⟨S1x1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev main_cst_3 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev main_c_7 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66_0 : Ref sig .tc := ⟨.hbm, 90, rfl⟩
abbrev main_v66_1 : Ref sig .tc := ⟨.hbm, 91, rfl⟩
abbrev main_cst_10 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85_0 : Ref sig .tc := ⟨.hbm, 114, rfl⟩
abbrev main_v85_1 : Ref sig .tc := ⟨.hbm, 115, rfl⟩
abbrev main_c_14 : Ref sig .tc := ⟨.hbm, 116, rfl⟩
abbrev main_v86 : Ref sig .tc := ⟨.hbm, 117, rfl⟩
abbrev main_v87 : Ref sig .tc := ⟨.hbm, 118, rfl⟩
abbrev main_c_15 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_16 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99_0 : Ref sig .tc := ⟨.hbm, 132, rfl⟩
abbrev main_v99_1 : Ref sig .tc := ⟨.hbm, 133, rfl⟩
abbrev main_cst_17 : Ref sig .tc := ⟨.hbm, 134, rfl⟩
abbrev main_v100 : Ref sig .tc := ⟨.hbm, 135, rfl⟩
abbrev main_cst_18 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_19 : Ref sig .tc := ⟨.hbm, 140, rfl⟩
abbrev main_v104 : Ref sig .tc := ⟨.hbm, 141, rfl⟩
abbrev main_cst_20 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_21 : Ref sig .tc := ⟨.hbm, 154, rfl⟩
abbrev main_v116 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc3_stg8_1 : Ref sig .tc := ⟨.vmem, 39, rfl⟩
abbrev cc3_stg9_0 : Ref sig .tc := ⟨.vmem, 40, rfl⟩
abbrev cc3_stg9_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg4_1 : Ref sig .tc := ⟨.vmem, 50, rfl⟩
abbrev cc4_stg5_0 : Ref sig .tc := ⟨.vmem, 51, rfl⟩
abbrev cc4_stg5_1 : Ref sig .tc := ⟨.vmem, 52, rfl⟩
abbrev cc4_scratch0 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg2_1 : Ref sig .tc := ⟨.vmem, 58, rfl⟩
abbrev cc5_scratch0 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg7_0 : Ref sig .tc := ⟨.vmem, 68, rfl⟩
abbrev cc6_stg7_1 : Ref sig .tc := ⟨.vmem, 69, rfl⟩
abbrev cc6_stg8_0 : Ref sig .tc := ⟨.vmem, 70, rfl⟩
abbrev cc6_stg8_1 : Ref sig .tc := ⟨.vmem, 71, rfl⟩
abbrev cc6_stg9_0 : Ref sig .tc := ⟨.vmem, 72, rfl⟩
abbrev cc6_stg9_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg1_1 : Ref sig .tc := ⟨.vmem, 77, rfl⟩
abbrev cc7_stg2_0 : Ref sig .tc := ⟨.vmem, 78, rfl⟩
abbrev cc7_stg2_1 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg4_1 : Ref sig .tc := ⟨.vmem, 82, rfl⟩
abbrev cc7_stg5_0 : Ref sig .tc := ⟨.vmem, 83, rfl⟩
abbrev cc7_stg5_1 : Ref sig .tc := ⟨.vmem, 84, rfl⟩
abbrev cc7_scratch0 : Ref sig .tc := ⟨.vmem, 85, rfl⟩
abbrev cc8_stg0_0 : Ref sig .tc := ⟨.vmem, 86, rfl⟩
abbrev cc8_stg0_1 : Ref sig .tc := ⟨.vmem, 87, rfl⟩
abbrev cc8_stg1_0 : Ref sig .tc := ⟨.vmem, 88, rfl⟩
abbrev cc8_stg2_0 : Ref sig .tc := ⟨.vmem, 89, rfl⟩
abbrev cc8_stg2_1 : Ref sig .tc := ⟨.vmem, 90, rfl⟩
abbrev cc8_scratch0 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg2_0 : Ref sig .tc := ⟨.vmem, 95, rfl⟩
abbrev cc9_stg3_0 : Ref sig .tc := ⟨.vmem, 96, rfl⟩
abbrev cc9_stg4_0 : Ref sig .tc := ⟨.vmem, 97, rfl⟩
abbrev cc9_stg5_0 : Ref sig .tc := ⟨.vmem, 98, rfl⟩
abbrev cc9_stg5_1 : Ref sig .tc := ⟨.vmem, 99, rfl⟩
abbrev cc10_stg0_0 : Ref sig .tc := ⟨.vmem, 100, rfl⟩
abbrev cc10_stg0_1 : Ref sig .tc := ⟨.vmem, 101, rfl⟩
abbrev cc10_stg1_0 : Ref sig .tc := ⟨.vmem, 102, rfl⟩
abbrev cc10_stg1_1 : Ref sig .tc := ⟨.vmem, 103, rfl⟩
abbrev cc10_stg2_0 : Ref sig .tc := ⟨.vmem, 104, rfl⟩
abbrev cc10_stg2_1 : Ref sig .tc := ⟨.vmem, 105, rfl⟩
abbrev cc10_scratch0 : Ref sig .tc := ⟨.vmem, 106, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc3_sem8_0 : DmaSem sig := 36
abbrev cc3_sem8_1 : DmaSem sig := 37
abbrev cc3_sem9_0 : DmaSem sig := 38
abbrev cc3_sem9_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem4_1 : DmaSem sig := 48
abbrev cc4_sem5_0 : DmaSem sig := 49
abbrev cc4_sem5_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem2_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62
abbrev cc6_sem6_0 : DmaSem sig := 63
abbrev cc6_sem7_0 : DmaSem sig := 64
abbrev cc6_sem7_1 : DmaSem sig := 65
abbrev cc6_sem8_0 : DmaSem sig := 66
abbrev cc6_sem8_1 : DmaSem sig := 67
abbrev cc6_sem9_0 : DmaSem sig := 68
abbrev cc6_sem9_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem2_1 : DmaSem sig := 75
abbrev cc7_sem3_0 : DmaSem sig := 76
abbrev cc7_sem4_0 : DmaSem sig := 77
abbrev cc7_sem4_1 : DmaSem sig := 78
abbrev cc7_sem5_0 : DmaSem sig := 79
abbrev cc7_sem5_1 : DmaSem sig := 80
abbrev cc8_sem0_0 : DmaSem sig := 81
abbrev cc8_sem0_1 : DmaSem sig := 82
abbrev cc8_sem1_0 : DmaSem sig := 83
abbrev cc8_sem2_0 : DmaSem sig := 84
abbrev cc8_sem2_1 : DmaSem sig := 85
abbrev cc9_sem0_0 : DmaSem sig := 86
abbrev cc9_sem0_1 : DmaSem sig := 87
abbrev cc9_sem1_0 : DmaSem sig := 88
abbrev cc9_sem2_0 : DmaSem sig := 89
abbrev cc9_sem3_0 : DmaSem sig := 90
abbrev cc9_sem4_0 : DmaSem sig := 91
abbrev cc9_sem5_0 : DmaSem sig := 92
abbrev cc9_sem5_1 : DmaSem sig := 93
abbrev cc10_sem0_0 : DmaSem sig := 94
abbrev cc10_sem0_1 : DmaSem sig := 95
abbrev cc10_sem1_0 : DmaSem sig := 96
abbrev cc10_sem1_1 : DmaSem sig := 97
abbrev cc10_sem2_0 : DmaSem sig := 98
abbrev cc10_sem2_1 : DmaSem sig := 99

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v25 : BitVec 1 := Scalar.cmpi .eq arg1 c9_i32
  let v26 : BitVec 32 := Scalar.extui v25
  let c0_i32_16 : BitVec 32 := 0#32
  let v27 : BitVec 1 := Scalar.cmpi .ne v26 c0_i32_16
  v27

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 10], ![false, false]⟩

def k2_cond2 (i : grid2.Coords) : BitVec 1 :=
  let arg1 : BitVec 32 := BitVec.ofNat 32 (i 1).val
  let c9_i32 : BitVec 32 := 9#32
  let v18 : BitVec 1 := Scalar.cmpi .eq arg1 c9_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨2, ![2, 10], ![false, false]⟩

def k4_cond2 (i : grid4.Coords) : BitVec 1 :=
  let arg1 : BitVec 32 := BitVec.ofNat 32 (i 1).val
  let c9_i32 : BitVec 32 := 9#32
  let v25 : BitVec 1 := Scalar.cmpi .eq arg1 c9_i32
  let v26 : BitVec 32 := Scalar.extui v25
  let c0_i32_16 : BitVec 32 := 0#32
  let v27 : BitVec 1 := Scalar.cmpi .ne v26 c0_i32_16
  v27

def cc4_transform_0 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x1x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![2, 10], ![false, false]⟩

def k5_cond2 (i : grid5.Coords) : BitVec 1 :=
  let arg1 : BitVec 32 := BitVec.ofNat 32 (i 1).val
  let c9_i32 : BitVec 32 := 9#32
  let v18 : BitVec 1 := Scalar.cmpi .eq arg1 c9_i32
  let v19 : BitVec 32 := Scalar.extui v18
  let c0_i32_10 : BitVec 32 := 0#32
  let v20 : BitVec 1 := Scalar.cmpi .ne v19 c0_i32_10
  v20

def cc5_transform_0 (i : grid5.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1x1x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S5000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S5000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨2, ![2, 10], ![false, false]⟩

def k7_cond2 (i : grid7.Coords) : BitVec 1 :=
  let arg1 : BitVec 32 := BitVec.ofNat 32 (i 1).val
  let c9_i32 : BitVec 32 := 9#32
  let v25 : BitVec 1 := Scalar.cmpi .eq arg1 c9_i32
  let v26 : BitVec 32 := Scalar.extui v25
  let c0_i32_16 : BitVec 32 := 0#32
  let v27 : BitVec 1 := Scalar.cmpi .ne v26 c0_i32_16
  v27

def cc7_transform_0 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc7_transform_1 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc7_transform_2 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_5 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S1x1x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev grid8 : Pipeline.Grid := ⟨2, ![2, 10], ![false, false]⟩

def k8_cond2 (i : grid8.Coords) : BitVec 1 :=
  let arg1 : BitVec 32 := BitVec.ofNat 32 (i 1).val
  let c9_i32 : BitVec 32 := 9#32
  let v18 : BitVec 1 := Scalar.cmpi .eq arg1 c9_i32
  let v19 : BitVec 32 := Scalar.extui v18
  let c0_i32_10 : BitVec 32 := 0#32
  let v20 : BitVec 1 := Scalar.cmpi .ne v19 c0_i32_10
  v20

def cc8_transform_0 (i : grid8.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 2 → Memref sig .tc .vmem S1x1x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨2, ![2, 50], ![false, false]⟩

def k10_cond2 (i : grid10.Coords) : BitVec 1 :=
  let arg1 : BitVec 32 := BitVec.ofNat 32 (i 1).val
  let c49_i32 : BitVec 32 := 49#32
  let v26 : BitVec 1 := Scalar.cmpi .eq arg1 c49_i32
  let v27 : BitVec 32 := Scalar.extui v26
  let c0_i32_11 : BitVec 32 := 0#32
  let v28 : BitVec 1 := Scalar.cmpi .ne v27 c0_i32_11
  v28

def cc10_transform_0 (i : grid10.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc10_transform_1 (i : grid10.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 2 → Memref sig .tc .vmem S1x1024x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  concatenates_S3x128x128_S3x128x128_S3x128x256_d2 : Shape.Concatenates [S3x128x128, S3x128x128] S3x128x256 2
  slices_S3x128x256_S1x128x256_0_0_0 : S3x128x256.Slices ![0, 0, 0] S1x128x256
  shapeCasts_S1x128x256_S128x256 : S1x128x256.ShapeCasts S128x256
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S5000x256_o0_0_S5000x128 : S5000x256.Slices ![0, 0] S5000x128
  slices_S5000x256_o0_128_S5000x128 : S5000x256.Slices ![0, 128] S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S5000x128_S5000x128 : S5000x128.ShapeCasts S5000x128
  shapeCasts_S1x1x128_S1x128 : S1x1x128.ShapeCasts S1x128
  reduces_S5000x128_S128 : S5000x128.Reduces [0] S128
  shapeCasts_S1x128_S1x1x128 : S1x128.ShapeCasts S1x1x128
  reducesTo_S2x1x128_S1x128_d0 : S2x1x128.ReducesTo [0] S1x128
  h_S_ : 0 < S_.numel
  bcast_S_S1x128 : S_.BroadcastsInDim S1x128 (![] : Fin 0 → Fin S1x128.rank)
  slices_S3x128x256_S1x128x256_1_0_0 : S3x128x256.Slices ![1, 0, 0] S1x128x256
  slices_S3x128_S1x128_1_0 : S3x128.Slices ![1, 0] S1x128
  slices_S3x128x256_S1x128x256_2_0_0 : S3x128x256.Slices ![2, 0, 0] S1x128x256
  slices_S3x128_S1x128_2_0 : S3x128.Slices ![2, 0] S1x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1x1024x128 : S1x1024x128.ShapeCasts S1x1024x128
  iota_S1000x1024_d1_w32 : S1000x1024.Iotas .tc 32 [1]
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x1024 : S1000x1.Broadcasts S1000x1024
  natLt_1_32 : 1 < 32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S1x1024x128_S1024x128 : S1x1024x128.ShapeCasts S1024x128
  shapeCasts_S1024x128_S1x1024x128 : S1024x128.ShapeCasts S1x1024x128
  reducesTo_S2x1024x128_S1024x128_d0 : S2x1024x128.ReducesTo [0] S1024x128
  scatter_S100000_S1700000x1_S1700000_n_0_0_1_wf : ScatterDims.WF S100000 S1700000x1 S1700000 [] [0] [0] 1
  dot_S5000x128_S128x256_S5000x256_1_0_0_1_n_n_wf : DotDims.WF S5000x128 S128x256 S5000x256 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1000x1024_S1000x128_S1024x128_0_0_1_1_n_n_wf : DotDims.WF S1000x1024 S1000x128 S1024x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S2x1x128.size a
  hwx1_4 : ∀ i : grid1.Coords, EltTy.bits .f32 = 32 ∨ (Rect.block (s := S2x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S2x1x128.size a
  hwx2_2 : ∀ i : grid2.Coords, EltTy.bits .f32 = 32 ∨ (Rect.block (s := S2x1x128) S1x1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x256.size a ≤ S128x256.size a
  hwx3_5 : ∀ i : grid3.Coords, EltTy.bits .f32 = 32 ∨ (Rect.block (s := S128x256) S128x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S100000x1.size a
  hwx3_7 : ∀ i : grid3.Coords, EltTy.bits .f32 = 32 ∨ (Rect.block (s := S100000x1) S5000x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S100000x128.size a
  hwx3_8 : ∀ i : grid3.Coords, EltTy.bits .f32 = 32 ∨ (Rect.block (s := S100000x128) S5000x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1x128.size a ≤ S2x1x128.size a
  hwx4_4 : ∀ i : grid4.Coords, EltTy.bits .f32 = 32 ∨ (Rect.block (s := S2x1x128) S1x1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1x128.size a ≤ S2x1x128.size a
  hwx5_2 : ∀ i : grid5.Coords, EltTy.bits .f32 = 32 ∨ (Rect.block (s := S2x1x128) S1x1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x256.size a ≤ S128x256.size a
  hwx6_5 : ∀ i : grid6.Coords, EltTy.bits .f32 = 32 ∨ (Rect.block (s := S128x256) S128x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S100000x1.size a
  hwx6_7 : ∀ i : grid6.Coords, EltTy.bits .f32 = 32 ∨ (Rect.block (s := S100000x1) S5000x1.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S5000x128.size a ≤ S100000x128.size a
  hwx6_8 : ∀ i : grid6.Coords, EltTy.bits .f32 = 32 ∨ (Rect.block (s := S100000x128) S5000x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S5000x128.size a ≤ S100000x128.size a
  hwx6_9 : ∀ i : grid6.Coords, EltTy.bits .f32 = 32 ∨ (Rect.block (s := S100000x128) S5000x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x1x128.size a ≤ S2x1x128.size a
  hwx7_4 : ∀ i : grid7.Coords, EltTy.bits .f32 = 32 ∨ (Rect.block (s := S2x1x128) S1x1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x1x128.size a ≤ S2x1x128.size a
  hwx8_2 : ∀ i : grid8.Coords, EltTy.bits .f32 = 32 ∨ (Rect.block (s := S2x1x128) S1x1x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x128.size a ≤ S100000x128.size a
  hwx10_0 : ∀ i : grid10.Coords, EltTy.bits .f32 = 32 ∨ (Rect.block (s := S100000x128) S1000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1000x1.size a ≤ S100000x1.size a
  hwx10_1 : ∀ i : grid10.Coords, EltTy.bits .i32 = 32 ∨ (Rect.block (s := S100000x1) S1000x1.size (cc10_transform_1 i) (hinb10_1 i)).WholeWords (EltTy.packing .i32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x1024x128.size a ≤ S2x1024x128.size a
  hwx10_2 : ∀ i : grid10.Coords, EltTy.bits .f32 = 32 ∨ (Rect.block (s := S2x1024x128) S1x1024x128.size (cc10_transform_2 i) (hinb10_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1000x1024_S1000x128_S1024x128_0_0_1_1_n_n : DotDims S1000x1024 S1000x128 S1024x128 where
  lhsContracting := [0]
  rhsContracting := [0]
  lhsNonContracting := [1]
  rhsNonContracting := [1]
  lhsBatch := []
  rhsBatch := []
  wf := dot_S1000x1024_S1000x128_S1024x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33_0) S1x1x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v33_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun _ => false | ⟨_ + 6, h⟩ => absurd h (Nat.not_lt.2 (Nat.le_add_left _ _))

abbrev win2_0 : Pipeline.Window sig grid2 :=
  Pipeline.Window.ofSpec (Memref.whole main_v33_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x1x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v33_1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S128x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v12) S5000x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v52_0) S5000x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v52_1) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52_1) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66_0) S1x1x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v66_1) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun _ => false | ⟨_ + 6, h⟩ => absurd h (Nat.not_lt.2 (Nat.le_add_left _ _))

abbrev win5_0 : Pipeline.Window sig grid5 :=
  Pipeline.Window.ofSpec (Memref.whole main_v66_1) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x1x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v66_1) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v69) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v73) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v83) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v79) S128x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v84) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v12) S5000x1.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_v85_0) S5000x128.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_v85_1) S5000x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v95) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v85_1) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v98) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v99_0) S1x1x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v99_1) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun i => !(k7_cond2 i == 1#1) | 5 => fun _ => false | ⟨_ + 6, h⟩ => absurd h (Nat.not_lt.2 (Nat.le_add_left _ _))

abbrev win8_0 : Pipeline.Window sig grid8 :=
  Pipeline.Window.ofSpec (Memref.whole main_v99_1) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v102) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v103) S1x1x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v99_1) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v102) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v106) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v111) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v112) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v113) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v113) S1000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v114) S1000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v115) S1x1024x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩
abbrev S1024x128 : Shape := ⟨2, ![1024, 128]⟩
abbrev S100000x1 : Shape := ⟨2, ![100000, 1]⟩

abbrev nBuf : Space → Nat
  | .hbm => 296
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S1700000x1, .f32⟩
  | 43 => ⟨S1x128x128, .f32⟩
  | 44 => ⟨S128x128, .f32⟩
  | 45 => ⟨S100000x128, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S1x128x128, .f32⟩
  | 67 => ⟨S128x128, .f32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .f32⟩
  | 79 => ⟨S128, .f32⟩
  | 80 => ⟨S_, .f32⟩
  | 81 => ⟨S128, .f32⟩
  | 82 => ⟨S128, .f32⟩
  | 83 => ⟨S_, .i32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S100000x128, .f32⟩
  | 91 => ⟨S100000x128, .f32⟩
  | 92 => ⟨S100000x128, .f32⟩
  | 93 => ⟨S_, .f32⟩
  | 94 => ⟨S_, .f32⟩
  | 95 => ⟨S_, .f32⟩
  | 96 => ⟨S_, .f32⟩
  | 97 => ⟨S128, .f32⟩
  | 98 => ⟨S128, .f32⟩
  | 99 => ⟨S128, .f32⟩
  | 100 => ⟨S_, .f32⟩
  | 101 => ⟨S_, .i1⟩
  | 102 => ⟨S_, .f32⟩
  | 103 => ⟨S_, .f32⟩
  | 104 => ⟨S128, .f32⟩
  | 105 => ⟨S128, .f32⟩
  | 106 => ⟨S1x128, .f32⟩
  | 107 => ⟨S128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S128, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S1x128x128, .f32⟩
  | 127 => ⟨S128x128, .f32⟩
  | _ => ⟨S100000x128, .f32⟩

abbrev hbmTy0_1 (i : Nat) : BufTy := match i % 128 with
  | 0 => ⟨S100000x128, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x128, .f32⟩
  | 10 => ⟨S1700000x128, .f32⟩
  | 11 => ⟨S1700000x128, .f32⟩
  | 12 => ⟨S_, .f32⟩
  | 13 => ⟨S100000x128, .f32⟩
  | 14 => ⟨S1700000x1, .i32⟩
  | 15 => ⟨S100000x128, .f32⟩
  | 16 => ⟨S1x128, .f32⟩
  | 17 => ⟨S128, .f32⟩
  | 18 => ⟨S1x128, .f32⟩
  | 19 => ⟨S100000x128, .f32⟩
  | 20 => ⟨S100000x128, .f32⟩
  | 21 => ⟨S1x128x128, .f32⟩
  | 22 => ⟨S128x128, .f32⟩
  | 23 => ⟨S100000x128, .f32⟩
  | 24 => ⟨S1x128, .f32⟩
  | 25 => ⟨S128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S_, .f32⟩
  | 34 => ⟨S128, .f32⟩
  | 35 => ⟨S_, .f32⟩
  | 36 => ⟨S128, .f32⟩
  | 37 => ⟨S128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S100000x128, .f32⟩
  | 46 => ⟨S100000x128, .f32⟩
  | 47 => ⟨S100000x128, .f32⟩
  | 48 => ⟨S_, .f32⟩
  | 49 => ⟨S_, .f32⟩
  | 50 => ⟨S_, .f32⟩
  | 51 => ⟨S_, .f32⟩
  | 52 => ⟨S128, .f32⟩
  | 53 => ⟨S128, .f32⟩
  | 54 => ⟨S128, .f32⟩
  | 55 => ⟨S_, .f32⟩
  | 56 => ⟨S_, .i1⟩
  | 57 => ⟨S_, .f32⟩
  | 58 => ⟨S_, .f32⟩
  | 59 => ⟨S128, .f32⟩
  | 60 => ⟨S128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S1x128x128, .f32⟩
  | 82 => ⟨S128x128, .f32⟩
  | 83 => ⟨S100000x128, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x128, .f32⟩
  | 93 => ⟨S1700000x128, .f32⟩
  | 94 => ⟨S1700000x128, .f32⟩
  | 95 => ⟨S_, .f32⟩
  | 96 => ⟨S100000x128, .f32⟩
  | 97 => ⟨S1700000x1, .i32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S1x128x128, .f32⟩
  | 105 => ⟨S128x128, .f32⟩
  | 106 => ⟨S100000x128, .f32⟩
  | 107 => ⟨S1x128, .f32⟩
  | 108 => ⟨S128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S_, .f32⟩
  | 117 => ⟨S128, .f32⟩
  | 118 => ⟨S_, .f32⟩
  | 119 => ⟨S128, .f32⟩
  | 120 => ⟨S128, .f32⟩
  | 121 => ⟨S_, .i32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S100000x128, .f32⟩

abbrev hbmTy0_2 (i : Nat) : BufTy := match i % 128 with
  | 0 => ⟨S100000x128, .f32⟩
  | 1 => ⟨S100000x128, .f32⟩
  | 2 => ⟨S100000x128, .f32⟩
  | 3 => ⟨S_, .f32⟩
  | 4 => ⟨S_, .f32⟩
  | 5 => ⟨S_, .f32⟩
  | 6 => ⟨S_, .f32⟩
  | 7 => ⟨S128, .f32⟩
  | 8 => ⟨S128, .f32⟩
  | 9 => ⟨S128, .f32⟩
  | 10 => ⟨S_, .f32⟩
  | 11 => ⟨S_, .i1⟩
  | 12 => ⟨S_, .f32⟩
  | 13 => ⟨S_, .f32⟩
  | 14 => ⟨S128, .f32⟩
  | 15 => ⟨S128, .f32⟩
  | 16 => ⟨S1x128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S128, .f32⟩
  | 33 => ⟨S1x128, .f32⟩
  | 34 => ⟨S100000x128, .f32⟩
  | 35 => ⟨S100000x128, .f32⟩
  | 36 => ⟨S_, .f32⟩
  | 37 => ⟨S1024x128, .f32⟩
  | 38 => ⟨S100000x1, .i32⟩
  | 39 => ⟨S1024x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call0_cst : Ref sig .tc := ⟨.hbm, 74, rfl⟩
abbrev main_call0_v0 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_c_9 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_10 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_11 : Ref sig .tc := ⟨.hbm, 129, rfl⟩
abbrev main_v84 : Ref sig .tc := ⟨.hbm, 130, rfl⟩
abbrev main_v85 : Ref sig .tc := ⟨.hbm, 131, rfl⟩
abbrev main_c_12 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_13 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_call2_cst : Ref sig .tc := ⟨.hbm, 157, rfl⟩
abbrev main_call2_v0 : Ref sig .tc := ⟨.hbm, 158, rfl⟩
abbrev main_v109 : Ref sig .tc := ⟨.hbm, 159, rfl⟩
abbrev main_v110 : Ref sig .tc := ⟨.hbm, 160, rfl⟩
abbrev main_cst_14 : Ref sig .tc := ⟨.hbm, 161, rfl⟩
abbrev main_v111 : Ref sig .tc := ⟨.hbm, 162, rfl⟩
abbrev main_cst_15 : Ref sig .tc := ⟨.hbm, 163, rfl⟩
abbrev main_v112 : Ref sig .tc := ⟨.hbm, 164, rfl⟩
abbrev main_v113 : Ref sig .tc := ⟨.hbm, 165, rfl⟩
abbrev main_c_16 : Ref sig .tc := ⟨.hbm, 166, rfl⟩
abbrev main_call3_cst : Ref sig .tc := ⟨.hbm, 167, rfl⟩
abbrev main_call3_v0 : Ref sig .tc := ⟨.hbm, 168, rfl⟩
abbrev main_call3_v1 : Ref sig .tc := ⟨.hbm, 169, rfl⟩
abbrev main_call3_cst_0 : Ref sig .tc := ⟨.hbm, 170, rfl⟩
abbrev main_call3_v2 : Ref sig .tc := ⟨.hbm, 171, rfl⟩
abbrev main_call3_v3 : Ref sig .tc := ⟨.hbm, 172, rfl⟩
abbrev main_call3_v4 : Ref sig .tc := ⟨.hbm, 173, rfl⟩
abbrev main_call3_v5 : Ref sig .tc := ⟨.hbm, 174, rfl⟩
abbrev main_call3_v6 : Ref sig .tc := ⟨.hbm, 175, rfl⟩
abbrev main_call3_v7 : Ref sig .tc := ⟨.hbm, 176, rfl⟩
abbrev main_call3_cst_1 : Ref sig .tc := ⟨.hbm, 177, rfl⟩
abbrev main_call3_v8 : Ref sig .tc := ⟨.hbm, 178, rfl⟩
abbrev main_call3_cst_2 : Ref sig .tc := ⟨.hbm, 179, rfl⟩
abbrev main_call3_v9 : Ref sig .tc := ⟨.hbm, 180, rfl⟩
abbrev main_call3_v10 : Ref sig .tc := ⟨.hbm, 181, rfl⟩
abbrev main_call3_v11 : Ref sig .tc := ⟨.hbm, 182, rfl⟩
abbrev main_call3_cst_3 : Ref sig .tc := ⟨.hbm, 183, rfl⟩
abbrev main_call3_v12 : Ref sig .tc := ⟨.hbm, 184, rfl⟩
abbrev main_call3_cst_4 : Ref sig .tc := ⟨.hbm, 185, rfl⟩
abbrev main_call3_call0_v0 : Ref sig .tc := ⟨.hbm, 186, rfl⟩
abbrev main_call3_call0_v1 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_cst_17 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_c_18 : Ref sig .tc := ⟨.hbm, 212, rfl⟩
abbrev main_v137 : Ref sig .tc := ⟨.hbm, 213, rfl⟩
abbrev main_v138 : Ref sig .tc := ⟨.hbm, 214, rfl⟩
abbrev main_c_19 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_cst_20 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_call4_cst : Ref sig .tc := ⟨.hbm, 240, rfl⟩
abbrev main_call4_v0 : Ref sig .tc := ⟨.hbm, 241, rfl⟩
abbrev main_v162 : Ref sig .tc := ⟨.hbm, 242, rfl⟩
abbrev main_v163 : Ref sig .tc := ⟨.hbm, 243, rfl⟩
abbrev main_cst_21 : Ref sig .tc := ⟨.hbm, 244, rfl⟩
abbrev main_v164 : Ref sig .tc := ⟨.hbm, 245, rfl⟩
abbrev main_cst_22 : Ref sig .tc := ⟨.hbm, 246, rfl⟩
abbrev main_v165 : Ref sig .tc := ⟨.hbm, 247, rfl⟩
abbrev main_v166 : Ref sig .tc := ⟨.hbm, 248, rfl⟩
abbrev main_c_23 : Ref sig .tc := ⟨.hbm, 249, rfl⟩
abbrev main_call5_cst : Ref sig .tc := ⟨.hbm, 250, rfl⟩
abbrev main_call5_v0 : Ref sig .tc := ⟨.hbm, 251, rfl⟩
abbrev main_call5_v1 : Ref sig .tc := ⟨.hbm, 252, rfl⟩
abbrev main_call5_cst_0 : Ref sig .tc := ⟨.hbm, 253, rfl⟩
abbrev main_call5_v2 : Ref sig .tc := ⟨.hbm, 254, rfl⟩
abbrev main_call5_v3 : Ref sig .tc := ⟨.hbm, 255, rfl⟩
abbrev main_call5_v4 : Ref sig .tc := ⟨.hbm, 256, rfl⟩
abbrev main_call5_v5 : Ref sig .tc := ⟨.hbm, 257, rfl⟩
abbrev main_call5_v6 : Ref sig .tc := ⟨.hbm, 258, rfl⟩
abbrev main_call5_v7 : Ref sig .tc := ⟨.hbm, 259, rfl⟩
abbrev main_call5_cst_1 : Ref sig .tc := ⟨.hbm, 260, rfl⟩
abbrev main_call5_v8 : Ref sig .tc := ⟨.hbm, 261, rfl⟩
abbrev main_call5_cst_2 : Ref sig .tc := ⟨.hbm, 262, rfl⟩
abbrev main_call5_v9 : Ref sig .tc := ⟨.hbm, 263, rfl⟩
abbrev main_call5_v10 : Ref sig .tc := ⟨.hbm, 264, rfl⟩
abbrev main_call5_v11 : Ref sig .tc := ⟨.hbm, 265, rfl⟩
abbrev main_call5_cst_3 : Ref sig .tc := ⟨.hbm, 266, rfl⟩
abbrev main_call5_v12 : Ref sig .tc := ⟨.hbm, 267, rfl⟩
abbrev main_call5_cst_4 : Ref sig .tc := ⟨.hbm, 268, rfl⟩
abbrev main_call5_call0_v0 : Ref sig .tc := ⟨.hbm, 269, rfl⟩
abbrev main_call5_call0_v1 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_cst_24 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_cst_25 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1024x128 : S_.BroadcastsInDim S1024x128 (![] : Fin 0 → Fin S1024x128.rank)
  bcast_S100000_S100000x1_0 : S100000.BroadcastsInDim S100000x1 (![0] : Fin 1 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024x128_S100000x1_S100000x128_1_0_0_1_wf : ScatterDims.WF S1024x128 S100000x1 S100000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf

class Facts : Prop extends Facts₀ where

variable [Facts]
-- ==== Proof.KB.F0.lean ====
/-
  Region 0 of the kernel program: the first layer's two products in one matmul. At a grid point the body reads a block
  of 5000 rows of the node features, the 128 x 256 matrix [W | W_res], the residual bias row and the 5000 x 1 column of
  inverse square-root degrees, and leaves, in its two output blocks, (x W) scaled row by row by that column, and
  max (x W_res + b_res, 0). Stated at a parameter V: the buffers' contents when the region is entered.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry array at every point, fetched there or not, for
    any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry array at every point, fetched there or not, for
    any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry array at every point, fetched there or not, for
    any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry array at every point, fetched there or not, for
    any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging block -/

abbrev rX0 : Rect S5000x128 := Rect.unit (s := S5000x128) ![0, 0] S5000x128.size inb_S5000x128_S5000x128_0_0
abbrev rW0 : Rect S128x256 := Rect.unit (s := S128x256) ![0, 0] S128x256.size inb_S128x256_S128x256_0_0
abbrev rB0 : Rect S1x128 := Rect.unit (s := S1x128) ![0, 0] S1x128.size inb_S1x128_S1x128_0_0
abbrev rD0 : Rect S5000x1 := Rect.unit (s := S5000x1) ![0, 0] S5000x1.size inb_S5000x1_S5000x1_0_0

/-! ## What the body leaves in each output block -/

/-- Output window 4 after the body: the rows' products with W, each row scaled by its inverse square-root degree. -/
def out0_4 (x0 : Vec F S5000x128 .f32) (x1 : Vec F S128x256 .f32) (x3 : Vec F S5000x1 .f32) : Vec F S5000x128 .f32 :=
  View.canon [⟨rX0, k0_pay2 (View.ld x0 rX0) (View.ld x1 rW0) (View.ld x3 rD0)⟩]

/-- Output window 5 after the body: the rows' products with W_res plus the bias, clipped below at zero. -/
def out0_5 (x0 : Vec F S5000x128 .f32) (x1 : Vec F S128x256 .f32) (x2 : Vec F S1x128 .f32) : Vec F S5000x128 .f32 :=
  View.canon [⟨rX0, k0_pay3 (View.ld x0 rX0) (View.ld x1 rW0) (View.ld x2 rB0)⟩]

/-- One store of the whole block covers it. -/
theorem cover0 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

/-! ## The body's triple -/

set_option maxHeartbeats 4000000 in
/-- On whole staging memrefs, the inputs' at contents `x0 … x3` and the outputs' at anything, the body runs to the
    continuation with the inputs' as they were and the outputs' at `out0_4`, `out0_5` of the inputs'. -/
theorem sound_kernel0 (c : Dev nD) (E : Set ℕ) (i : grid0.Coords)
    (arg1 : Memref sig .tc .vmem S5000x128 .f32) (harg1 : arg1.IsWhole) (arg2 : Memref sig .tc .vmem S128x256 .f32) (harg2 : arg2.IsWhole)
    (arg3 : Memref sig .tc .vmem S1x128 .f32) (harg3 : arg3.IsWhole) (arg4 : Memref sig .tc .vmem S5000x1 .f32) (harg4 : arg4.IsWhole)
    (arg5 : Memref sig .tc .vmem S5000x128 .f32) (harg5 : arg5.IsWhole) (arg6 : Memref sig .tc .vmem S5000x128 .f32) (harg6 : arg6.IsWhole)
    (x0 : Vec F S5000x128 .f32) (x1 : Vec F S128x256 .f32) (x2 : Vec F S1x128 .f32) (x3 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x3)
            ∗ owns (c : Thread nD τ) arg6 fullShare (out0_5 x0 x1 x2)) -∗ K ⟨⟩))
      ⊢ wp frame (wpE (defs₀ (F := F)) Variants.none c none) E
          (cc0__dual_matmul_kernel i arg1 harg1 arg2 harg2 arg3 harg3 arg4 harg4 arg5 harg5 arg6 harg6) K := by
  simp only [cc0__dual_matmul_kernel_eq_skeleton]; unfold cc0__dual_matmul_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The region's proof data -/

/-- The proof data on core `c`: the arrays as the region finds them; after the body at point `t` each input's buffer at
    its block and the two outputs' at `out0_4`, `out0_5` of the input blocks; the invariant says nothing of the scoped rest;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 3 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 3 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant is the same at every point: what the launch hands the region is it, and it is handed back. -/
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.Kernel.Hand

end
-- ==== Proof.KB.F1Runs.lean ====
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The column sums of a layer's pre-activation, on a grid of 2 x 10 points

Point `(p, j)` takes row block `10 p + j` (5000 rows) of three arrays, writes the block's pre-activation to window 5,
and adds its column sums into a one-row accumulator the kernel keeps between points: zeroed at `j = 0`, copied to
row `p` of window 4 at `j = 9`. What follows is shared by the three kinds of point. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or not
    (unfetched, the block index has not moved since the point that did), for any proof data whose array is the
    region-entry contents and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or not
    (unfetched, the block index has not moved since the point that did), for any proof data whose array is the
    region-entry contents and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or not
    (unfetched, the block index has not moved since the point that did), for any proof data whose array is the
    region-entry contents and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetched it or not
    (unfetched, the block index has not moved since the point that did), for any proof data whose array is the
    region-entry contents and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, in closed form over the grid -/

/-- The first conditional's test: the inner coordinate is 0 (the accumulator is zeroed). -/
abbrev cond1_0 (i : grid1.Coords) : Prop := (Scalar.cmpi .ne (Scalar.extui (Scalar.cmpi .eq (BitVec.ofNat 32 (i 1).val) 0#32)) 0#32) = 1#1
/-- It holds exactly at the first point of each row of ten. -/
theorem hcond1_0 : ∀ t : Fin cfg1.N, cond1_0 (grid1.coords t) ↔ t.val % 10 = 0 :=
  (by decide +kernel : ∀ t : Fin grid1.N, cond1_0 (grid1.coords t) ↔ t.val % 10 = 0)

/-- The last conditional's test: the inner coordinate is 9 (the accumulated sums are copied out). -/
abbrev cond1_1 (i : grid1.Coords) : Prop := k1_cond2 i = 1#1
/-- It holds exactly at the last point of each row of ten. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where window 4 is idle -/

/-- The inputs and window 5 are stored or read at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_5 : ∀ t : Fin cfg1.N, cfg1.idle 5 (grid1.coords t) = false := by decide +kernel
/-- Where the inner coordinate is not 9 the body stores nothing into window 4, and the table says so; -/
theorem idleAt1_4 : ∀ t : Fin cfg1.N, ¬cond1_1 (grid1.coords t) → cfg1.idle 4 (grid1.coords t) = true := by decide +kernel
/-- there its block index is the next point's too, so nothing is written back; -/
theorem noFlush1_4 : ∀ t : Fin cfg1.N, ¬cond1_1 (grid1.coords t) → (cfg1.win 4).flush t = false := by decide +kernel
/-- where it is 9 the body stores the whole row. -/
theorem liveAt1_4 : ∀ t : Fin cfg1.N, cond1_1 (grid1.coords t) → cfg1.idle 4 (grid1.coords t) = false := by decide +kernel

/-! ## The memrefs the body is called on -/

/-- Each window's current staging memref at point `t`, as the pipeline passes it, with its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x128 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S1x1x128 .f32 := Memref.whole cc1_scratch0
/-- The accumulator as a view: its contents are stated through it. -/
abbrev VS1_0 : View sig .tc .vmem S1x1x128 .f32 := scM1_0.view
/-- One staging buffer of each output window, through which the window's contents are stated (a covering list of
    writes reads back the same through any view of the shape). -/
abbrev VO1_4 : View sig .tc .vmem S1x1x128 .f32 := (Memref.whole cc1_stg4_0 : Memref sig .tc .vmem S1x1x128 .f32).view
abbrev VO1_5 : View sig .tc .vmem S5000x128 .f32 := (Memref.whole cc1_stg5_0 : Memref sig .tc .vmem S5000x128 .f32).view

/-- What the launch hands the region, with the accumulator split off as a memref owned at some contents: the other
    scoped buffers stay one unopened conjunct. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.KB.F1RunA.lean ====
import proofs.«417336_j40785009443359_3_alg».proof.Proof.KB.F1Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 0. On whole memrefs, the inputs' at their contents, window 4's at contents it hands
    back untouched (it stores nothing there), window 5's and the accumulator at anything (the accumulator is zeroed
    before it is read), the body runs to a continuation holding the inputs' as they were, window 5's buffer with the
    pre-activation written and the accumulator with the zero row and then the block's column sums written: the lists of
    writes (last first) are the witness the symbolic run of the skeleton finds. -/
noncomputable def kernelRun1_A (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__bn_sum_kernel i arg2 harg2 arg3 harg3 arg4 harg4 arg5 harg5 arg6 harg6 arg7 harg7 arg8 harg8) K } := by
  refine ⟨[], ?_, ?_, fun xi4 E K => ?run⟩
  case run =>
    simp only [cc1__bn_sum_kernel_eq_skeleton]; unfold cc1__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.F1RunB.lean ====
import proofs.«417336_j40785009443359_3_alg».proof.Proof.KB.F1RunA
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE STRICTLY BETWEEN 0 AND 9. On whole memrefs, the inputs' at their contents, window 4's
    at contents it hands back untouched, window 5's at anything, the accumulator at what the point before left
    (`xs0`), the body runs to a continuation holding the inputs' as they were, window 5's buffer with the
    pre-activation written and the accumulator with `xs0` plus the block's column sums written: the lists of writes
    (last first) are the witness the symbolic run of the skeleton finds. -/
noncomputable def kernelRun1_B (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__bn_sum_kernel i arg2 harg2 arg3 harg3 arg4 harg4 arg5 harg5 arg6 harg6 arg7 harg7 arg8 harg8) K } := by
  refine ⟨[], ?_, ?_, fun xi4 E K => ?run⟩
  case run =>
    simp only [cc1__bn_sum_kernel_eq_skeleton]; unfold cc1__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.F1RunC.lean ====
import proofs.«417336_j40785009443359_3_alg».proof.Proof.KB.F1RunB
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 9. On whole memrefs, the inputs' at their contents, both output windows' at anything,
    the accumulator at what the point before left (`xs0`), the body runs to a continuation holding the inputs' as they
    were, window 5's buffer with the pre-activation written, the accumulator with `xs0` plus the block's column sums
    written, and window 4's buffer with that finished row written: the lists of writes (last first) are the witness
    the symbolic run of the skeleton finds. -/
noncomputable def kernelRun1_C (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__bn_sum_kernel i arg2 harg2 arg3 harg3 arg4 harg4 arg5 harg5 arg6 harg6 arg7 harg7 arg8 harg8) K } := by
  refine ⟨?_, ?_, ?_, fun E K => ?run⟩
  case run =>
    simp only [cc1__bn_sum_kernel_eq_skeleton]; unfold cc1__bn_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Hand

end
-- ==== Proof.KB.F1.lean ====
import proofs.«417336_j40785009443359_3_alg».proof.Proof.KB.F1RunC
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # The frame half: what each kind of point leaves, the accumulation over the grid, the proof data -/

/-- Where the inner coordinate is 0 nothing is stored into window 4 and nothing is written back: a placeholder (no writes, read
    back) that no later point and no write-back consults. -/
def out1_A_4 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) : Vec F S1x1x128 .f32 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)

/-- Where the inner coordinate is 0 the writes into window 5 cover its block. -/
theorem cover1_A_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) (y : S5000x128.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S5000x128.size (by sl_kernel_rfl) y

/-- What such a point leaves in window 5's staging buffer: its writes read back. -/
def out1_A_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) : Vec F S5000x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3).2.1)

/-- Where the inner coordinate is 0 the writes into the accumulator cover its one row. -/
theorem scover1_A_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) (y : S1x1x128.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S1x1x128.size (by sl_kernel_rfl) y

/-- What such a point leaves in the accumulator: its writes read back. -/
def sout1_A_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) : Vec F S1x1x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.2.1)

/-- Where the inner coordinate is strictly between 0 and 9 nothing is stored into window 4 and nothing is written back: a placeholder (no writes, read
    back) that no later point and no write-back consults. -/
def out1_B_4 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0).1)

/-- Where the inner coordinate is strictly between 0 and 9 the writes into window 5 cover its block. -/
theorem cover1_B_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun1_B c i arg2 harg2 arg3 harg3 arg4 harg4 arg5 harg5 arg6 harg6 arg7 harg7 arg8 harg8 hc0 hc1 x0 x1 x2 x3 xs0).2.1, y ∈ pc.1.set :=
  View.cover_of_tiledL (kernelRun1_B c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out1_B_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) : Vec F S5000x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 xs0).2.1)

/-- Where the inner coordinate is strictly between 0 and 9 the writes into the accumulator cover its one row. -/
theorem scover1_B_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun1_B c i arg2 harg2 arg3 harg3 arg4 harg4 arg5 harg5 arg6 harg6 arg7 harg7 arg8 harg8 hc0 hc1 x0 x1 x2 x3 xs0).2.2.1, y ∈ pc.1.set :=
  View.cover_of_tiledL (kernelRun1_B c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout1_B_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0).2.2.1)

/-- Where the inner coordinate is 9 the writes into window 4 cover its one row. -/
theorem cover1_C_4 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun1_C c i arg2 harg2 arg3 harg3 arg4 harg4 arg5 harg5 arg6 harg6 arg7 harg7 arg8 harg8 hc0 hc1 x0 x1 x2 x3 xs0).1, y ∈ pc.1.set :=
  View.cover_of_tiledL (kernelRun1_C c i arg2 harg2 arg3 harg3 arg4 harg4 arg5 harg5 arg6 harg6 arg7 harg7 arg8 harg8 hc0 hc1 x0 x1 x2 x3 xs0).1 S1x1x128.size (by sl_kernel_rfl) y

/-- What such a point leaves in window 4's staging buffer: its writes read back. -/
def out1_C_4 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0).1)

/-- Where the inner coordinate is 9 the writes into window 5 cover its block. -/
theorem cover1_C_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun1_C c i arg2 harg2 arg3 harg3 arg4 harg4 arg5 harg5 arg6 harg6 arg7 harg7 arg8 harg8 hc0 hc1 x0 x1 x2 x3 xs0).2.1, y ∈ pc.1.set :=
  View.cover_of_tiledL (kernelRun1_C c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out1_C_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) : Vec F S5000x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 xs0).2.1)

/-- Where the inner coordinate is 9 the writes into the accumulator cover its one row. -/
theorem scover1_C_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun1_C c i arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout1_C_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0).2.2.1)

/-! ## What the outputs and the accumulator hold after each point -/

/-- THE ACCUMULATION. What window 4's and window 5's staging buffers and the accumulator hold after the body at position
    `n` (a triple, in that order): the kind of point the closed forms select at `n`, run at the point's memrefs and input
    blocks, and, where the inner coordinate is not 0, over what position `n - 1` left in the accumulator. Both closed
    forms at once is no point. -/
def outsAt1 (c : Dev nD) : (n : ℕ) → n < cfg1.N → Vec F S1x1x128 .f32 × Vec F S5000x128 .f32 × Vec F S1x1x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 10 = 0 then
      if h1 : (n + 1) % 10 = 9 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 10 = 9 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

/-- `outsAt1` where the inner coordinate is 0: that kind of point's contents (nothing of the position before). -/
theorem outsAt1_A (c : Dev nD) (t : Fin cfg1.N) (h0 : t.val % 10 = 0) (h1 : ¬t.val % 10 = 9) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` where the inner coordinate is strictly between 0 and 9: over what the position before left. -/
theorem outsAt1_B (c : Dev nD) (t : Fin cfg1.N) (h0 : ¬t.val % 10 = 0) (h1 : ¬t.val % 10 = 9) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` where the inner coordinate is 9: over what the position before left. -/
theorem outsAt1_C (c : Dev nD) (t : Fin cfg1.N) (h0 : ¬t.val % 10 = 0) (h1 : t.val % 10 = 9) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer at anything, the generator register at some state); afterwards the accumulator owned at what the position
    before left in it (`outsAt1`'s last component), the other scoped buffers unopened, the register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After position `n`: the accumulator at that position's contents. -/
theorem PhiS1_succ (c : Dev nD) (n : ℕ) (hn : n < cfg1.N) :
    PhiS1 V c (n + 1) hn = iprop(iprop(owns (c : Thread nD τ) scM1_0 fullShare ((outsAt1 V c n hn).2.2) ∗ Pipeline.scopedRestBut (Ix := Unit) (Name := ℕ) (U := UR sig nD τ) (Lvl := ℕ) (Val := Elt F) spec1 c [cc1_scratch0]) ∗ (∃ r, prngReg c r)) := rfl

/-- Before a position that is not the first: the accumulator at what the position before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of this region on core `c`: the arrays as the region finds them; after the body at point `t` each
    input's buffer at its block, window 4's and window 5's at `outsAt1`'s first two components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

/-- The proof data's arrays are the region-entry contents (the definition projected; the contents are never opened). -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the library's obligation, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the two closed forms say which kind of point it is; the
    invariant hands the body the accumulator at what the position before left (at anything before the first point,
    which zeroes it before reading it), the other scoped buffers and the generator register pass through; the run of
    that kind of point applies, and the accumulator comes back at this position's contents because the run's writes
    cover it, as do window 5's and, where the inner coordinate is 9, window 4's; elsewhere window 4's buffer is handed
    back as found. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  by_cases h0 : t.val % 10 = 0
  · by_cases h1 : t.val % 10 = 9
    · exfalso; omega
    · -- the inner coordinate is 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold out1_A_5 sout1_A_0; (try dsimp only)
      by_cases hz : t.val = 0
      · rw [PhiS1_castSucc V c t, PhiS1_zero V c _ _ hz, PhiA1_eq]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover1_A_5 c _ _ _ _ _ _ _ _ _ _ _ _ _ _ _ _ _ _ _ _ _)
      · rw [PhiS1_castSucc V c t, PhiS1_pos V c _ _ hz]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover1_A_5 c _ _ _ _ _ _ _ _ _ _ _ _ _ _ _ _ _ _ _ _ _)
  · by_cases h1 : t.val % 10 = 9
    · -- the inner coordinate is 9
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 5 t = owns (c : Thread nD τ) (ms1_5 t) fullShare ((dat1 V c).after 5 t) from by
        unfold Dat.leavesExact; rw [liveAt1_5 t], after1_5]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 out1_C_5 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    · -- the inner coordinate is strictly between 0 and 9
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold out1_B_5 sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover1_B_5 c _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's named contents are forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ (Pipeline.ΦA spec1 c : sProp 𝕄) :=
  Phi1_out V c _ (by rw [Fin.val_last]; have : cfg1.N = 20 := N_1; omega)

end Cert.Kernel.Hand

end
-- ==== Proof.KB.F2Runs.lean ====
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # The sum-of-squares region: what its three cases share

The grid is 2 x 10; a point t has inner coordinate t.val % 10. The body zeroes the carried accumulator at
inner coordinate 0, adds the column sums of the block's centred squares into it at every point, and copies it
into the output window at inner coordinate 9. -/

/-! ## The windows' blocks -/

/-- Window w's block at point t, read off its array at the contents V the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 5000-row block window's current staging buffer holds its block at every point, for any proof data whose
    array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The mean row's window is fetched once; its staging buffer holds the row at every point all the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "The inner coordinate is 0": the condition under which the body zeroes the accumulator. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "The inner coordinate is 9": the condition under which the body copies the accumulator out. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from inner coordinate 9 the output window is idle and its block is not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At inner coordinate 9 the output window is live. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S1x1x128 .f32 := (Memref.whole cc2_stg2_0 : Memref sig .tc .vmem S1x1x128 .f32).view
/-- Each window's current staging memref at point t, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x128 .f32 := win2_2.stage (cfg2.slots t 2)
abbrev hs2_2 (t : Fin cfg2.N) : (ms2_2 t).IsWhole := hstage2_2 ((cfg2.slots t 2).cast nbuf2_2)
/-- The accumulator: a whole scoped buffer of the kernel's own, carried from point to point. -/
abbrev scM2_0 : Memref sig .tc .vmem S1x1x128 .f32 := Memref.whole cc2_scratch0
abbrev VS2_0 : View sig .tc .vmem S1x1x128 .f32 := scM2_0.view

/-- The region's entry invariant with the accumulator as a memref owned at some contents, the other scoped
    buffers unopened. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.KB.F2RunA.lean ====
import proofs.«417336_j40785009443359_3_alg».proof.Proof.KB.F2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 0 (first condition holds, second fails), on any whole memrefs: the two inputs at
    their contents, the output window's buffer at contents handed back untouched, the accumulator at anything. It
    runs to the continuation holding the inputs and the output buffer as they were and the accumulator with the
    pieces LS0 written (the zero store, then the sum's store); no piece goes to the output window. -/
noncomputable def kernelRun2_A (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond2_0 i) (hc1 : ¬cond2_1 i)
    (x0 : Vec F S5000x128 .f32) (x1 : Vec F S1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__bn_sumsq_kernel i arg2 harg2 arg3 harg3 arg4 harg4 arg5 harg5) K } := by
  refine ⟨[], ?_, fun xi2 E K => ?run⟩
  case run =>
    simp only [cc2__bn_sumsq_kernel_eq_skeleton]; unfold cc2__bn_sumsq_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.F2RunB.lean ====
import proofs.«417336_j40785009443359_3_alg».proof.Proof.KB.F2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinates 1 to 8 (both conditions fail), on any whole memrefs: the two inputs at their
    contents, the output window's buffer at contents handed back untouched, the accumulator at the contents xs0 the
    point before left. It runs to the continuation holding the inputs and the output buffer as they were and the
    accumulator with the pieces LS0 written (the sum's store). -/
noncomputable def kernelRun2_B (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : ¬cond2_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__bn_sumsq_kernel i arg2 harg2 arg3 harg3 arg4 harg4 arg5 harg5) K } := by
  refine ⟨[], ?_, fun xi2 E K => ?run⟩
  case run =>
    simp only [cc2__bn_sumsq_kernel_eq_skeleton]; unfold cc2__bn_sumsq_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.F2RunC.lean ====
import proofs.«417336_j40785009443359_3_alg».proof.Proof.KB.F2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 9 (first condition fails, second holds), on any whole memrefs: the two inputs at
    their contents, the output window's buffer at anything, the accumulator at the contents xs0 the point before
    left. It runs to the continuation holding the inputs as they were, the output buffer with the pieces L2 written
    (the copy of the accumulator) and the accumulator with the pieces LS0 written (the sum's store). -/
noncomputable def kernelRun2_C (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__bn_sumsq_kernel i arg2 harg2 arg3 harg3 arg4 harg4 arg5 harg5) K } := by
  refine ⟨?_, ?_, fun E K => ?run⟩
  case run =>
    simp only [cc2__bn_sumsq_kernel_eq_skeleton]; unfold cc2__bn_sumsq_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.F2.lean ====
import proofs.«417336_j40785009443359_3_alg».proof.Proof.KB.F2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The sum-of-squares region: what each case leaves, point by point, and the body obligation -/

/-! ## What each case leaves in the output window and in the accumulator -/

/-- At inner coordinate 0 nothing is stored into the output window (it is idle there and not written back): a
    placeholder that nothing consults. -/
def out2_A_2 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond2_0 i) (hc1 : ¬cond2_1 i)
    (x0 : Vec F S5000x128 .f32) (x1 : Vec F S1x128 .f32) : Vec F S1x1x128 .f32 :=
  VO2_2.read (Elt F) (VO2_2.writes (Elt F) VO2_2.junk (kernelRun2_A c i arg2 harg2 arg3 harg3 arg4 harg4 arg5 harg5 hc0 hc1 x0 x1).1)

/-- At inner coordinate 0 the pieces stored into the accumulator cover it. -/
theorem scover2_A_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond2_0 i) (hc1 : ¬cond2_1 i)
    (x0 : Vec F S5000x128 .f32) (x1 : Vec F S1x128 .f32) (y : S1x1x128.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1x1x128.size (by sl_kernel_rfl) y

/-- What the accumulator holds after the body at inner coordinate 0: the block's contribution over zero. -/
def sout2_A_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond2_0 i) (hc1 : ¬cond2_1 i)
    (x0 : Vec F S5000x128 .f32) (x1 : Vec F S1x128 .f32) : Vec F S1x1x128 .f32 :=
  VS2_0.read (Elt F) (VS2_0.writes (Elt F) VS2_0.junk (kernelRun2_A c i arg2 harg2 arg3 harg3 arg4 harg4 arg5 harg5 hc0 hc1 x0 x1).2.1)

/-- At inner coordinates 1 to 8 nothing is stored into the output window either: a placeholder again. -/
def out2_B_2 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : ¬cond2_1 i)
    (x0 : Vec F S5000x128 .f32) (x1 : Vec F S1x128 .f32) (xs0 : Vec F S1x1x128 .f32) : Vec F S1x1x128 .f32 :=
  VO2_2.read (Elt F) (VO2_2.writes (Elt F) VO2_2.junk (kernelRun2_B c i arg2 harg2 arg3 harg3 arg4 harg4 arg5 harg5 hc0 hc1 x0 x1 xs0).1)

/-- At inner coordinates 1 to 8 the piece stored into the accumulator covers it. -/
theorem scover2_B_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : ¬cond2_1 i)
    (x0 : Vec F S5000x128 .f32) (x1 : Vec F S1x128 .f32) (xs0 : Vec F S1x1x128 .f32) (y : S1x1x128.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1x1x128.size (by sl_kernel_rfl) y

/-- What the accumulator holds after the body at inner coordinates 1 to 8: the block's contribution over what the
    point before left. -/
def sout2_B_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : ¬cond2_1 i)
    (x0 : Vec F S5000x128 .f32) (x1 : Vec F S1x128 .f32) (xs0 : Vec F S1x1x128 .f32) : Vec F S1x1x128 .f32 :=
  VS2_0.read (Elt F) (VS2_0.writes (Elt F) VS2_0.junk (kernelRun2_B c i arg2 harg2 arg3 harg3 arg4 harg4 arg5 harg5 hc0 hc1 x0 x1 xs0).2.1)

/-- At inner coordinate 9 the piece stored into the output window covers it. -/
theorem cover2_C_2 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) (y : S1x1x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1x1x128.size (by sl_kernel_rfl) y

/-- What the output window's buffer holds after the body at inner coordinate 9: the finished accumulator. -/
def out2_C_2 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) : Vec F S1x1x128 .f32 :=
  VO2_2.read (Elt F) (VO2_2.writes (Elt F) VO2_2.junk (kernelRun2_C c i arg2 harg2 arg3 harg3 arg4 harg4 arg5 harg5 hc0 hc1 x0 x1 xs0).1)

/-- At inner coordinate 9 the piece stored into the accumulator covers it. -/
theorem scover2_C_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) (y : S1x1x128.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x1x128.size (by sl_kernel_rfl) y

/-- What the accumulator holds after the body at inner coordinate 9. -/
def sout2_C_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) : Vec F S1x1x128 .f32 :=
  VS2_0.read (Elt F) (VS2_0.writes (Elt F) VS2_0.junk (kernelRun2_C c i arg2 harg2 arg3 harg3 arg4 harg4 arg5 harg5 hc0 hc1 x0 x1 xs0).2.1)

/-! ## The accumulation, point by point -/

/-- What the output window's buffer and the accumulator hold after the body at position n (the output window
    first, then the accumulator): the case the inner coordinate n % 10 selects, run at the point's memrefs and input
    blocks, the accumulator entering at what position n - 1 left in it (at inner coordinate 0 it is zeroed first, so
    nothing is carried in). -/
def outsAt2 (c : Dev nD) : (n : ℕ) → n < cfg2.N → Vec F S1x1x128 .f32 × Vec F S1x1x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 10 = 0 then
      if h1 : (n + 1) % 10 = 9 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 10 = 9 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- outsAt2 at a point of inner coordinate 0. -/
theorem outsAt2_A (c : Dev nD) (t : Fin cfg2.N) (h0 : t.val % 10 = 0) (h1 : ¬t.val % 10 = 9) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- outsAt2 at a point of inner coordinate 1 to 8: over what the point before left in the accumulator. -/
theorem outsAt2_B (c : Dev nD) (t : Fin cfg2.N) (h0 : ¬t.val % 10 = 0) (h1 : ¬t.val % 10 = 9) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt2 at a point of inner coordinate 9: over what the point before left in the accumulator. -/
theorem outsAt2_C (c : Dev nD) (t : Fin cfg2.N) (h0 : ¬t.val % 10 = 0) (h1 : t.val % 10 = 9) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the region's entry the class's invariant (every scoped buffer that is no staging buffer
    at anything, the generator register at some state); afterwards the accumulator owned at what position n - 1
    left in it, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the region's pipeline on core c: the arrays as the region finds them; after the body at
    point t each input's buffer at its block and the output window's at outsAt2's first component; the invariant
    PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at t.val. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the inner coordinate says which case the point is
    in; the invariant hands the body the accumulator at what the point before left (at anything at the region's
    first point) and takes it back at this point's contents; away from inner coordinate 9 the output window's
    buffer is handed back as found, at inner coordinate 9 it is left at the finished accumulator; the other scoped
    buffers, the generator register and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  by_cases h0 : t.val % 10 = 0
  · by_cases h1 : t.val % 10 = 9
    · exfalso; omega
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 10 = 9
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: the accumulator's named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 20 := N_2; omega)

end Cert.Kernel.Hand

end
-- ==== Proof.KB.F3.lean ====
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The region that normalises a 5000-row block and multiplies it once against two weight
    matrices side by side, at the buffer contents `V` the region is entered with

Twenty grid points, one per 5000-row block of the 100000 rows. Eight inputs: the activations' row block (window 0)
and the inverse-degree column's row block (window 7) move with the point; the mean, variance, scale, shift, weights
and residual bias (windows 1 to 6) are one block each, brought in at the first point and held. Two outputs of a
5000-row block each (windows 8 and 9), each written whole exactly once per point. -/

/-! ## The blocks the windows show -/

/-- What window `w` shows of its array at point `t`, the array being as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the 5000-row block of the activations): whatever proof data has `V`'s array there and a body that leaves the block in
    place, the window's current buffer holds its block at every point — brought in at that point, or still there from
    an earlier one because the block index has not moved since. The window is never cut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the batch mean): whatever proof data has `V`'s array there and a body that leaves the block in
    place, the window's current buffer holds its block at every point — brought in at that point, or still there from
    an earlier one because the block index has not moved since. The window is never cut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the batch variance): whatever proof data has `V`'s array there and a body that leaves the block in
    place, the window's current buffer holds its block at every point — brought in at that point, or still there from
    an earlier one because the block index has not moved since. The window is never cut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (the scale): whatever proof data has `V`'s array there and a body that leaves the block in
    place, the window's current buffer holds its block at every point — brought in at that point, or still there from
    an earlier one because the block index has not moved since. The window is never cut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (the shift): whatever proof data has `V`'s array there and a body that leaves the block in
    place, the window's current buffer holds its block at every point — brought in at that point, or still there from
    an earlier one because the block index has not moved since. The window is never cut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 (the two weight matrices side by side): whatever proof data has `V`'s array there and a body that leaves the block in
    place, the window's current buffer holds its block at every point — brought in at that point, or still there from
    an earlier one because the block index has not moved since. The window is never cut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6 (the residual bias): whatever proof data has `V`'s array there and a body that leaves the block in
    place, the window's current buffer holds its block at every point — brought in at that point, or still there from
    an earlier one because the block index has not moved since. The window is never cut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7 (the 5000-row block of the inverse-degree column): whatever proof data has `V`'s array there and a body that leaves the block in
    place, the window's current buffer holds its block at every point — brought in at that point, or still there from
    an earlier one because the block index has not moved since. The window is never cut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each buffer whole -/

/-- All of a 5000 × 128 buffer. -/
abbrev rows3 : Rect S5000x128 := Rect.unit (s := S5000x128) ![0, 0] S5000x128.size inb_S5000x128_S5000x128_0_0
/-- All of a 1 × 128 buffer. -/
abbrev lane3 : Rect S1x128 := Rect.unit (s := S1x128) ![0, 0] S1x128.size inb_S1x128_S1x128_0_0
/-- All of the 128 × 256 weights buffer. -/
abbrev weights3 : Rect S128x256 := Rect.unit (s := S128x256) ![0, 0] S128x256.size inb_S128x256_S128x256_0_0
/-- All of a 5000 × 1 buffer. -/
abbrev column3 : Rect S5000x1 := Rect.unit (s := S5000x1) ![0, 0] S5000x1.size inb_S5000x1_S5000x1_0_0

/-! ## What the body leaves in the two output buffers -/

/-- Window 8 after the body: the left half of the product, each row scaled by its inverse degree — one store of the
    whole buffer. -/
def out3_8 (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) : Vec F S5000x128 .f32 :=
  View.canon [⟨rows3, k3_pay4 (View.ld x2 lane3) (View.ld x3 lane3) (View.ld x0 rows3) (View.ld x1 lane3) (View.ld x4 lane3) (View.ld x5 weights3) (View.ld x7 column3)⟩]

/-- Window 9 after the body: the right half of the product plus the residual bias, clamped below at zero — one
    store of the whole buffer. -/
def out3_9 (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) : Vec F S5000x128 .f32 :=
  View.canon [⟨rows3, k3_pay1 (k3_pay3 (View.ld x2 lane3) (View.ld x3 lane3) (View.ld x0 rows3) (View.ld x1 lane3) (View.ld x4 lane3) (View.ld x5 weights3) (View.ld x6 lane3)) (Scalar.ofBits .f32 0x00000000#32)⟩]

/-- One store of the whole buffer covers it: every index of window 8's buffer lies in the store's rectangle. -/
theorem cover3_8 (p0 : Vec F S5000x128 .f32) (y : S5000x128.Idx) :
    ∃ pc ∈ ([⟨rows3, p0⟩] : List (View.Piece (Elt F) S5000x128 .f32)), y ∈ pc.1.set :=
  View.cover_of_tiled [⟨rows3, p0⟩] S5000x128.size (by rfl) y

/-- The same of window 9's buffer. -/
theorem cover3_9 (p0 : Vec F S5000x128 .f32) (y : S5000x128.Idx) :
    ∃ pc ∈ ([⟨rows3, p0⟩] : List (View.Piece (Elt F) S5000x128 .f32)), y ∈ pc.1.set :=
  View.cover_of_tiled [⟨rows3, p0⟩] S5000x128.size (by rfl) y

/-! ## The body run on whole buffers -/

set_option maxHeartbeats 4000000 in
/-- The body, called on ten whole buffers — the eight inputs' reading `x0` … `x7`, the two outputs' holding anything —,
    runs to its continuation with the inputs' buffers unchanged and the outputs' reading `out3_8` and `out3_9` of the
    inputs. It is eight whole-buffer loads, a load and a store of window 8's buffer inside the called part, and a load
    and a store of window 9's buffer after it; what each store writes is a function of the eight loads alone. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S5000x1 .f32) (harg8 : arg8.IsWhole) (arg9 : Memref sig .tc .vmem S5000x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7) ∗ owns (c : Thread nD τ) arg10 fullShare (out3_9 x0 x1 x2 x3 x4 x5 x6 x7)) -∗ K ⟨⟩))
      ⊢ wp frame (wpE (defs₀ (F := F)) Variants.none c none) E (cc3__bn_normalize_matmul_kernel i arg1 harg1 arg2 harg2 arg3 harg3 arg4 harg4 arg5 harg5 arg6 harg6 arg7 harg7 arg8 harg8 arg9 harg9 arg10 harg10) K := by
  simp only [cc3__bn_normalize_matmul_kernel_eq_skeleton]; unfold cc3__bn_normalize_matmul_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover3_8 _)
  iexists _; isplitr
  swap; · iexact H9
  ipureintro
  try dsimp only
  exact View.read_writes_eq_canon _ _ _ (cover3_9 _)

/-! ## The proof data of the region's pipeline -/

/-- On core `c`: the arrays as the region finds them; after the body at point `t`, each input's buffer still at its
    block and each output's at `out3_8`, `out3_9` of the eight input blocks; the invariant is the rest of the core's
    memory and its generator register, which the body never touches; nothing is owed; every share is whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the contents the region is entered with. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body's obligation at a point -/

/-- What the body is called with at point `t`: the invariant, what the core owes, and each window's current buffer
    at what the pipeline left in it. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- What it returns: the same invariant and debt, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 1000000 in
/-- The body at any point. The inputs' buffers hold their blocks, so the run on whole buffers applies at those blocks;
    the invariant and the debt pass through unread, the same before and after. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the pipeline asks of the body, at every point. -/
theorem body_obligation3 (c : Dev nD) : BodyObligation (dat3 (F := F) V c) (defs₀ (F := F)) Variants.none () Set.univ := fun t => by
  rw [bigSep_W3, bigSep_W3]
  exact sound_body3 V c t

/-! ## Entering and leaving the region -/

/-- The invariant is the same at every point, so it is what the region is entered with, -/
theorem hin3 (c : Dev nD) : (Pipeline.ΦA spec3 c : sProp 𝕄) ⊢ (dat3 V c).Φ 0 := BIBase.Entails.rfl

/-- and what it is left with. -/
theorem hout3 (c : Dev nD) : (dat3 V c).Φ (Fin.last cfg3.N) ⊢ (Pipeline.ΦA spec3 c : sProp 𝕄) := BIBase.Entails.rfl

end Cert.Kernel.Hand
-- ==== Proof.KB.F4Runs.lean ====
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The column sums of a layer's pre-activation, on a grid of 2 x 10 points

Point `(p, j)` takes row block `10 p + j` (5000 rows) of three arrays, writes the block's pre-activation to window 5,
and adds its column sums into a one-row accumulator the kernel keeps between points: zeroed at `j = 0`, copied to
row `p` of window 4 at `j = 9`. What follows is shared by the three kinds of point. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the point fetched it or not
    (unfetched, the block index has not moved since the point that did), for any proof data whose array is the
    region-entry contents and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the point fetched it or not
    (unfetched, the block index has not moved since the point that did), for any proof data whose array is the
    region-entry contents and whose body leaves the block in place: the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the point fetched it or not
    (unfetched, the block index has not moved since the point that did), for any proof data whose array is the
    region-entry contents and whose body leaves the block in place: the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the point fetched it or not
    (unfetched, the block index has not moved since the point that did), for any proof data whose array is the
    region-entry contents and whose body leaves the block in place: the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditionals, in closed form over the grid -/

/-- The first conditional's test: the inner coordinate is 0 (the accumulator is zeroed). -/
abbrev cond4_0 (i : grid4.Coords) : Prop := (Scalar.cmpi .ne (Scalar.extui (Scalar.cmpi .eq (BitVec.ofNat 32 (i 1).val) 0#32)) 0#32) = 1#1
/-- It holds exactly at the first point of each row of ten. -/
theorem hcond4_0 : ∀ t : Fin cfg4.N, cond4_0 (grid4.coords t) ↔ t.val % 10 = 0 :=
  (by decide +kernel : ∀ t : Fin grid4.N, cond4_0 (grid4.coords t) ↔ t.val % 10 = 0)

/-- The last conditional's test: the inner coordinate is 9 (the accumulated sums are copied out). -/
abbrev cond4_1 (i : grid4.Coords) : Prop := k4_cond2 i = 1#1
/-- It holds exactly at the last point of each row of ten. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where window 4 is idle -/

/-- The inputs and window 5 are stored or read at every point. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_5 : ∀ t : Fin cfg4.N, cfg4.idle 5 (grid4.coords t) = false := by decide +kernel
/-- Where the inner coordinate is not 9 the body stores nothing into window 4, and the table says so; -/
theorem idleAt4_4 : ∀ t : Fin cfg4.N, ¬cond4_1 (grid4.coords t) → cfg4.idle 4 (grid4.coords t) = true := by decide +kernel
/-- there its block index is the next point's too, so nothing is written back; -/
theorem noFlush4_4 : ∀ t : Fin cfg4.N, ¬cond4_1 (grid4.coords t) → (cfg4.win 4).flush t = false := by decide +kernel
/-- where it is 9 the body stores the whole row. -/
theorem liveAt4_4 : ∀ t : Fin cfg4.N, cond4_1 (grid4.coords t) → cfg4.idle 4 (grid4.coords t) = false := by decide +kernel

/-! ## The memrefs the body is called on -/

/-- Each window's current staging memref at point `t`, as the pipeline passes it, with its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
/-- The accumulator: a whole scoped buffer of the kernel's own, passed beside the windows. -/
abbrev scM4_0 : Memref sig .tc .vmem S1x1x128 .f32 := Memref.whole cc4_scratch0
/-- The accumulator as a view: its contents are stated through it. -/
abbrev VS4_0 : View sig .tc .vmem S1x1x128 .f32 := scM4_0.view
/-- One staging buffer of each output window, through which the window's contents are stated (a covering list of
    writes reads back the same through any view of the shape). -/
abbrev VO4_4 : View sig .tc .vmem S1x1x128 .f32 := (Memref.whole cc4_stg4_0 : Memref sig .tc .vmem S1x1x128 .f32).view
abbrev VO4_5 : View sig .tc .vmem S5000x128 .f32 := (Memref.whole cc4_stg5_0 : Memref sig .tc .vmem S5000x128 .f32).view

/-- What the launch hands the region, with the accumulator split off as a memref owned at some contents: the other
    scoped buffers stay one unopened conjunct. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.KB.F4RunA.lean ====
import proofs.«417336_j40785009443359_3_alg».proof.Proof.KB.F4Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 0. On whole memrefs, the inputs' at their contents, window 4's at contents it hands
    back untouched (it stores nothing there), window 5's and the accumulator at anything (the accumulator is zeroed
    before it is read), the body runs to a continuation holding the inputs' as they were, window 5's buffer with the
    pre-activation written and the accumulator with the zero row and then the block's column sums written: the lists of
    writes (last first) are the witness the symbolic run of the skeleton finds. -/
noncomputable def kernelRun4_A (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc4__bn_sum_kernel i arg2 harg2 arg3 harg3 arg4 harg4 arg5 harg5 arg6 harg6 arg7 harg7 arg8 harg8) K } := by
  refine ⟨[], ?_, ?_, fun xi4 E K => ?run⟩
  case run =>
    simp only [cc4__bn_sum_kernel_eq_skeleton]; unfold cc4__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.F4RunB.lean ====
import proofs.«417336_j40785009443359_3_alg».proof.Proof.KB.F4RunA
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE STRICTLY BETWEEN 0 AND 9. On whole memrefs, the inputs' at their contents, window 4's
    at contents it hands back untouched, window 5's at anything, the accumulator at what the point before left
    (`xs0`), the body runs to a continuation holding the inputs' as they were, window 5's buffer with the
    pre-activation written and the accumulator with `xs0` plus the block's column sums written: the lists of writes
    (last first) are the witness the symbolic run of the skeleton finds. -/
noncomputable def kernelRun4_B (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc4__bn_sum_kernel i arg2 harg2 arg3 harg3 arg4 harg4 arg5 harg5 arg6 harg6 arg7 harg7 arg8 harg8) K } := by
  refine ⟨[], ?_, ?_, fun xi4 E K => ?run⟩
  case run =>
    simp only [cc4__bn_sum_kernel_eq_skeleton]; unfold cc4__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.F4RunC.lean ====
import proofs.«417336_j40785009443359_3_alg».proof.Proof.KB.F4RunB
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 9. On whole memrefs, the inputs' at their contents, both output windows' at anything,
    the accumulator at what the point before left (`xs0`), the body runs to a continuation holding the inputs' as they
    were, window 5's buffer with the pre-activation written, the accumulator with `xs0` plus the block's column sums
    written, and window 4's buffer with that finished row written: the lists of writes (last first) are the witness
    the symbolic run of the skeleton finds. -/
noncomputable def kernelRun4_C (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc4__bn_sum_kernel i arg2 harg2 arg3 harg3 arg4 harg4 arg5 harg5 arg6 harg6 arg7 harg7 arg8 harg8) K } := by
  refine ⟨?_, ?_, ?_, fun E K => ?run⟩
  case run =>
    simp only [cc4__bn_sum_kernel_eq_skeleton]; unfold cc4__bn_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Hand

end
-- ==== Proof.KB.F4.lean ====
import proofs.«417336_j40785009443359_3_alg».proof.Proof.KB.F4RunC
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # The frame half: what each kind of point leaves, the accumulation over the grid, the proof data -/

/-- Where the inner coordinate is 0 nothing is stored into window 4 and nothing is written back: a placeholder (no writes, read
    back) that no later point and no write-back consults. -/
def out4_A_4 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) : Vec F S1x1x128 .f32 :=
  VO4_4.read (Elt F) (VO4_4.writes (Elt F) VO4_4.junk (kernelRun4_A c i arg2 harg2 arg3 harg3 arg4 harg4 arg5 harg5 arg6 harg6 arg7 harg7 arg8 harg8 hc0 hc1 x0 x1 x2 x3).1)

/-- Where the inner coordinate is 0 the writes into window 5 cover its block. -/
theorem cover4_A_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) (y : S5000x128.Idx) :
    ∃ pc ∈ (kernelRun4_A c i arg2 harg2 arg3 harg3 arg4 harg4 arg5 harg5 arg6 harg6 arg7 harg7 arg8 harg8 hc0 hc1 x0 x1 x2 x3).2.1, y ∈ pc.1.set :=
  View.cover_of_tiledL (kernelRun4_A c i arg2 harg2 arg3 harg3 arg4 harg4 arg5 harg5 arg6 harg6 arg7 harg7 arg8 harg8 hc0 hc1 x0 x1 x2 x3).2.1 S5000x128.size (by sl_kernel_rfl) y

/-- What such a point leaves in window 5's staging buffer: its writes read back. -/
def out4_A_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) : Vec F S5000x128 .f32 :=
  VO4_5.read (Elt F) (VO4_5.writes (Elt F) VO4_5.junk (kernelRun4_A c i arg2 harg2 arg3 harg3 arg4 harg4 arg5 harg5 arg6 harg6 arg7 harg7 arg8 harg8 hc0 hc1 x0 x1 x2 x3).2.1)

/-- Where the inner coordinate is 0 the writes into the accumulator cover its one row. -/
theorem scover4_A_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) (y : S1x1x128.Idx) :
    ∃ pc ∈ (kernelRun4_A c i arg2 harg2 arg3 harg3 arg4 harg4 arg5 harg5 arg6 harg6 arg7 harg7 arg8 harg8 hc0 hc1 x0 x1 x2 x3).2.2.1, y ∈ pc.1.set :=
  View.cover_of_tiledL (kernelRun4_A c i arg2 harg2 arg3 harg3 arg4 harg4 arg5 harg5 arg6 harg6 arg7 harg7 arg8 harg8 hc0 hc1 x0 x1 x2 x3).2.2.1 S1x1x128.size (by sl_kernel_rfl) y

/-- What such a point leaves in the accumulator: its writes read back. -/
def sout4_A_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) : Vec F S1x1x128 .f32 :=
  VS4_0.read (Elt F) (VS4_0.writes (Elt F) VS4_0.junk (kernelRun4_A c i arg2 harg2 arg3 harg3 arg4 harg4 arg5 harg5 arg6 harg6 arg7 harg7 arg8 harg8 hc0 hc1 x0 x1 x2 x3).2.2.1)

/-- Where the inner coordinate is strictly between 0 and 9 nothing is stored into window 4 and nothing is written back: a placeholder (no writes, read
    back) that no later point and no write-back consults. -/
def out4_B_4 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO4_4.read (Elt F) (VO4_4.writes (Elt F) VO4_4.junk (kernelRun4_B c i arg2 harg2 arg3 harg3 arg4 harg4 arg5 harg5 arg6 harg6 arg7 harg7 arg8 harg8 hc0 hc1 x0 x1 x2 x3 xs0).1)

/-- Where the inner coordinate is strictly between 0 and 9 the writes into window 5 cover its block. -/
theorem cover4_B_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun4_B c i arg2 harg2 arg3 harg3 arg4 harg4 arg5 harg5 arg6 harg6 arg7 harg7 arg8 harg8 hc0 hc1 x0 x1 x2 x3 xs0).2.1, y ∈ pc.1.set :=
  View.cover_of_tiledL (kernelRun4_B c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out4_B_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) : Vec F S5000x128 .f32 :=
  VO4_5.read (Elt F) (VO4_5.writes (Elt F) VO4_5.junk (kernelRun4_B c i arg2 harg2 arg3 harg3 arg4 harg4 arg5 harg5 arg6 harg6 arg7 harg7 arg8 harg8 hc0 hc1 x0 x1 x2 x3 xs0).2.1)

/-- Where the inner coordinate is strictly between 0 and 9 the writes into the accumulator cover its one row. -/
theorem scover4_B_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun4_B c i arg2 harg2 arg3 harg3 arg4 harg4 arg5 harg5 arg6 harg6 arg7 harg7 arg8 harg8 hc0 hc1 x0 x1 x2 x3 xs0).2.2.1, y ∈ pc.1.set :=
  View.cover_of_tiledL (kernelRun4_B c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout4_B_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS4_0.read (Elt F) (VS4_0.writes (Elt F) VS4_0.junk (kernelRun4_B c i arg2 harg2 arg3 harg3 arg4 harg4 arg5 harg5 arg6 harg6 arg7 harg7 arg8 harg8 hc0 hc1 x0 x1 x2 x3 xs0).2.2.1)

/-- Where the inner coordinate is 9 the writes into window 4 cover its one row. -/
theorem cover4_C_4 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun4_C c i arg2 harg2 arg3 harg3 arg4 harg4 arg5 harg5 arg6 harg6 arg7 harg7 arg8 harg8 hc0 hc1 x0 x1 x2 x3 xs0).1, y ∈ pc.1.set :=
  View.cover_of_tiledL (kernelRun4_C c i arg2 harg2 arg3 harg3 arg4 harg4 arg5 harg5 arg6 harg6 arg7 harg7 arg8 harg8 hc0 hc1 x0 x1 x2 x3 xs0).1 S1x1x128.size (by sl_kernel_rfl) y

/-- What such a point leaves in window 4's staging buffer: its writes read back. -/
def out4_C_4 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO4_4.read (Elt F) (VO4_4.writes (Elt F) VO4_4.junk (kernelRun4_C c i arg2 harg2 arg3 harg3 arg4 harg4 arg5 harg5 arg6 harg6 arg7 harg7 arg8 harg8 hc0 hc1 x0 x1 x2 x3 xs0).1)

/-- Where the inner coordinate is 9 the writes into window 5 cover its block. -/
theorem cover4_C_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun4_C c i arg2 harg2 arg3 harg3 arg4 harg4 arg5 harg5 arg6 harg6 arg7 harg7 arg8 harg8 hc0 hc1 x0 x1 x2 x3 xs0).2.1, y ∈ pc.1.set :=
  View.cover_of_tiledL (kernelRun4_C c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out4_C_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) : Vec F S5000x128 .f32 :=
  VO4_5.read (Elt F) (VO4_5.writes (Elt F) VO4_5.junk (kernelRun4_C c i arg2 harg2 arg3 harg3 arg4 harg4 arg5 harg5 arg6 harg6 arg7 harg7 arg8 harg8 hc0 hc1 x0 x1 x2 x3 xs0).2.1)

/-- Where the inner coordinate is 9 the writes into the accumulator cover its one row. -/
theorem scover4_C_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun4_C c i arg2 harg2 arg3 harg3 arg4 harg4 arg5 harg5 arg6 harg6 arg7 harg7 arg8 harg8 hc0 hc1 x0 x1 x2 x3 xs0).2.2.1, y ∈ pc.1.set :=
  View.cover_of_tiledL (kernelRun4_C c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout4_C_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS4_0.read (Elt F) (VS4_0.writes (Elt F) VS4_0.junk (kernelRun4_C c i arg2 harg2 arg3 harg3 arg4 harg4 arg5 harg5 arg6 harg6 arg7 harg7 arg8 harg8 hc0 hc1 x0 x1 x2 x3 xs0).2.2.1)

/-! ## What the outputs and the accumulator hold after each point -/

/-- THE ACCUMULATION. What window 4's and window 5's staging buffers and the accumulator hold after the body at position
    `n` (a triple, in that order): the kind of point the closed forms select at `n`, run at the point's memrefs and input
    blocks, and, where the inner coordinate is not 0, over what position `n - 1` left in the accumulator. Both closed
    forms at once is no point. -/
def outsAt4 (c : Dev nD) : (n : ℕ) → n < cfg4.N → Vec F S1x1x128 .f32 × Vec F S5000x128 .f32 × Vec F S1x1x128 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h0 : (n + 1) % 10 = 0 then
      if h1 : (n + 1) % 10 = 9 then
        False.elim (by omega)
      else
        (out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩), out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩))
    else
      if h1 : (n + 1) % 10 = 9 then
        (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2)
      else
        (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2, out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2)

/-- `outsAt4` where the inner coordinate is 0: that kind of point's contents (nothing of the position before). -/
theorem outsAt4_A (c : Dev nD) (t : Fin cfg4.N) (h0 : t.val % 10 = 0) (h1 : ¬t.val % 10 = 9) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t), out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact (dif_pos h0).trans ((dif_neg h1).trans rfl)

/-- `outsAt4` where the inner coordinate is strictly between 0 and 9: over what the position before left. -/
theorem outsAt4_B (c : Dev nD) (t : Fin cfg4.N) (h0 : ¬t.val % 10 = 0) (h1 : ¬t.val % 10 = 9) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2, out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt4` where the inner coordinate is 9: over what the position before left. -/
theorem outsAt4_C (c : Dev nD) (t : Fin cfg4.N) (h0 : ¬t.val % 10 = 0) (h1 : t.val % 10 = 9) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer at anything, the generator register at some state); afterwards the accumulator owned at what the position
    before left in it (`outsAt4`'s last component), the other scoped buffers unopened, the register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After position `n`: the accumulator at that position's contents. -/
theorem PhiS4_succ (c : Dev nD) (n : ℕ) (hn : n < cfg4.N) :
    PhiS4 V c (n + 1) hn = iprop(iprop(owns (c : Thread nD τ) scM4_0 fullShare ((outsAt4 V c n hn).2.2) ∗ Pipeline.scopedRestBut (Ix := Unit) (Name := ℕ) (U := UR sig nD τ) (Lvl := ℕ) (Val := Elt F) spec4 c [cc4_scratch0]) ∗ (∃ r, prngReg c r)) := rfl

/-- Before a position that is not the first: the accumulator at what the position before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of this region on core `c`: the arrays as the region finds them; after the body at point `t` each
    input's buffer at its block, window 4's and window 5's at `outsAt4`'s first two components; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
  Φ t := PhiS4 V c t.val (Nat.le_of_lt_succ t.isLt)
  q _ := fullShare
  owed _ := 0

/-- The proof data's arrays are the region-entry contents (the definition projected; the contents are never opened). -/
theorem A_eq4 (c : Dev nD) (w : Fin cfg4.W) : (dat4 V c).A w = V c (Pipeline.arrRef spec4 w) := by
  dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t` (the library's obligation, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point. The inputs' memrefs hold their blocks; the two closed forms say which kind of point it is; the
    invariant hands the body the accumulator at what the position before left (at anything before the first point,
    which zeroes it before reading it), the other scoped buffers and the generator register pass through; the run of
    that kind of point applies, and the accumulator comes back at this position's contents because the run's writes
    cover it, as do window 5's and, where the inner coordinate is 9, window 4's; elsewhere window 4's buffer is handed
    back as found. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 10 = 0
  · by_cases h1 : t.val % 10 = 9
    · exfalso; omega
    · -- the inner coordinate is 0
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 4 t (idleAt4_4 t (fun h => h1 ((hcond4_1 t).mp h))) (noFlush4_4 t (fun h => h1 ((hcond4_1 t).mp h)))]
      rw [outsAt4_A V c t h0 h1]
      unfold out4_A_5 sout4_A_0; (try dsimp only)
      by_cases hz : t.val = 0
      · rw [PhiS4_castSucc V c t, PhiS4_zero V c _ _ hz, PhiA4_eq]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover4_A_5 c _ _ _ _ _ _ _ _ _ _ _ _ _ _ _ _ _ _ _ _ _)
      · rw [PhiS4_castSucc V c t, PhiS4_pos V c _ _ hz]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover4_A_5 c _ _ _ _ _ _ _ _ _ _ _ _ _ _ _ _ _ _ _ _ _)
  · by_cases h1 : t.val % 10 = 9
    · -- the inner coordinate is 9
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 5 t = owns (c : Thread nD τ) (ms4_5 t) fullShare ((dat4 V c).after 5 t) from by
        unfold Dat.leavesExact; rw [liveAt4_5 t], after4_5]
      rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_C V c t h0 h1]
      unfold out4_C_4 out4_C_5 sout4_C_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c _ _ _ _ _ _ _ _ _ _ _ _ _ _ _ _ _ _ _ _ _ _)
      unfold owns; iexists _; isplitr
      swap; · iexact H5
      ipureintro; exact View.read_writes_of_cover _ _ _ _ _ (cover4_C_5 c _ _ _ _ _ _ _ _ _ _ _ _ _ _ _ _ _ _ _ _ _ _)
    · -- the inner coordinate is strictly between 0 and 9
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 4 t (idleAt4_4 t (fun h => h1 ((hcond4_1 t).mp h))) (noFlush4_4 t (fun h => h1 ((hcond4_1 t).mp h)))]
      rw [outsAt4_B V c t h0 h1]
      unfold out4_B_5 sout4_B_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover4_B_5 c _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point the invariant gives back what the launch handed over: the accumulator's named contents are forgotten. -/
theorem Phi4_out (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ (Pipeline.ΦA spec4 c : sProp 𝕄) :=
  Phi4_out V c _ (by rw [Fin.val_last]; have : cfg4.N = 20 := N_4; omega)

end Cert.Kernel.Hand

end
-- ==== Proof.KB.F5Runs.lean ====
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # The sum-of-squares region: what its three cases share

The grid is 2 x 10; a point t has inner coordinate t.val % 10. The body zeroes the carried accumulator at
inner coordinate 0, adds the column sums of the block's centred squares into it at every point, and copies it
into the output window at inner coordinate 9. -/

/-! ## The windows' blocks -/

/-- Window w's block at point t, read off its array at the contents V the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The 5000-row block window's current staging buffer holds its block at every point, for any proof data whose
    array is V's and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The mean row's window is fetched once; its staging buffer holds the row at every point all the same. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, in closed form over the grid -/

/-- "The inner coordinate is 0": the condition under which the body zeroes the accumulator. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)

/-- "The inner coordinate is 9": the condition under which the body copies the accumulator out. -/
abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

/-- The two input windows are never idle. -/
theorem liveAt5_0 : ∀ t : Fin cfg5.N, cfg5.idle 0 (grid5.coords t) = false := by decide +kernel
theorem liveAt5_1 : ∀ t : Fin cfg5.N, cfg5.idle 1 (grid5.coords t) = false := by decide +kernel
/-- Away from inner coordinate 9 the output window is idle and its block is not written back. -/
theorem idleAt5_2_A : ∀ t : Fin cfg5.N, cond5_0 (grid5.coords t) → ¬cond5_1 (grid5.coords t) → cfg5.idle 2 (grid5.coords t) = true := by decide +kernel
theorem noFlush5_2_A : ∀ t : Fin cfg5.N, cond5_0 (grid5.coords t) → ¬cond5_1 (grid5.coords t) → (cfg5.win 2).flush t = false := by decide +kernel
theorem idleAt5_2_B : ∀ t : Fin cfg5.N, ¬cond5_0 (grid5.coords t) → ¬cond5_1 (grid5.coords t) → cfg5.idle 2 (grid5.coords t) = true := by decide +kernel
theorem noFlush5_2_B : ∀ t : Fin cfg5.N, ¬cond5_0 (grid5.coords t) → ¬cond5_1 (grid5.coords t) → (cfg5.win 2).flush t = false := by decide +kernel
/-- At inner coordinate 9 the output window is live. -/
theorem liveAt5_2_C : ∀ t : Fin cfg5.N, ¬cond5_0 (grid5.coords t) → cond5_1 (grid5.coords t) → cfg5.idle 2 (grid5.coords t) = false := by decide +kernel

/-! ## The memrefs the body is called with -/

/-- One staging buffer of the output window, through which its contents are stated. -/
abbrev VO5_2 : View sig .tc .vmem S1x1x128 .f32 := (Memref.whole cc5_stg2_0 : Memref sig .tc .vmem S1x1x128 .f32).view
/-- Each window's current staging memref at point t, and its wholeness. -/
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1x128 .f32 := win5_2.stage (cfg5.slots t 2)
abbrev hs5_2 (t : Fin cfg5.N) : (ms5_2 t).IsWhole := hstage5_2 ((cfg5.slots t 2).cast nbuf5_2)
/-- The accumulator: a whole scoped buffer of the kernel's own, carried from point to point. -/
abbrev scM5_0 : Memref sig .tc .vmem S1x1x128 .f32 := Memref.whole cc5_scratch0
abbrev VS5_0 : View sig .tc .vmem S1x1x128 .f32 := scM5_0.view

/-- The region's entry invariant with the accumulator as a memref owned at some contents, the other scoped
    buffers unopened. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.Kernel.Hand

end
-- ==== Proof.KB.F5RunA.lean ====
import proofs.«417336_j40785009443359_3_alg».proof.Proof.KB.F5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 0 (first condition holds, second fails), on any whole memrefs: the two inputs at
    their contents, the output window's buffer at contents handed back untouched, the accumulator at anything. It
    runs to the continuation holding the inputs and the output buffer as they were and the accumulator with the
    pieces LS0 written (the zero store, then the sum's store); no piece goes to the output window. -/
noncomputable def kernelRun5_A (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond5_0 i) (hc1 : ¬cond5_1 i)
    (x0 : Vec F S5000x128 .f32) (x1 : Vec F S1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc5__bn_sumsq_kernel i arg2 harg2 arg3 harg3 arg4 harg4 arg5 harg5) K } := by
  refine ⟨[], ?_, fun xi2 E K => ?run⟩
  case run =>
    simp only [cc5__bn_sumsq_kernel_eq_skeleton]; unfold cc5__bn_sumsq_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.F5RunB.lean ====
import proofs.«417336_j40785009443359_3_alg».proof.Proof.KB.F5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinates 1 to 8 (both conditions fail), on any whole memrefs: the two inputs at their
    contents, the output window's buffer at contents handed back untouched, the accumulator at the contents xs0 the
    point before left. It runs to the continuation holding the inputs and the output buffer as they were and the
    accumulator with the pieces LS0 written (the sum's store). -/
noncomputable def kernelRun5_B (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : ¬cond5_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc5__bn_sumsq_kernel i arg2 harg2 arg3 harg3 arg4 harg4 arg5 harg5) K } := by
  refine ⟨[], ?_, fun xi2 E K => ?run⟩
  case run =>
    simp only [cc5__bn_sumsq_kernel_eq_skeleton]; unfold cc5__bn_sumsq_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.F5RunC.lean ====
import proofs.«417336_j40785009443359_3_alg».proof.Proof.KB.F5RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 9 (first condition fails, second holds), on any whole memrefs: the two inputs at
    their contents, the output window's buffer at anything, the accumulator at the contents xs0 the point before
    left. It runs to the continuation holding the inputs as they were, the output buffer with the pieces L2 written
    (the copy of the accumulator) and the accumulator with the pieces LS0 written (the sum's store). -/
noncomputable def kernelRun5_C (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc5__bn_sumsq_kernel i arg2 harg2 arg3 harg3 arg4 harg4 arg5 harg5) K } := by
  refine ⟨?_, ?_, fun E K => ?run⟩
  case run =>
    simp only [cc5__bn_sumsq_kernel_eq_skeleton]; unfold cc5__bn_sumsq_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.F5.lean ====
import proofs.«417336_j40785009443359_3_alg».proof.Proof.KB.F5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The sum-of-squares region: what each case leaves, point by point, and the body obligation -/

/-! ## What each case leaves in the output window and in the accumulator -/

/-- At inner coordinate 0 nothing is stored into the output window (it is idle there and not written back): a
    placeholder that nothing consults. -/
def out5_A_2 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond5_0 i) (hc1 : ¬cond5_1 i)
    (x0 : Vec F S5000x128 .f32) (x1 : Vec F S1x128 .f32) : Vec F S1x1x128 .f32 :=
  VO5_2.read (Elt F) (VO5_2.writes (Elt F) VO5_2.junk (kernelRun5_A c i arg2 harg2 arg3 harg3 arg4 harg4 arg5 harg5 hc0 hc1 x0 x1).1)

/-- At inner coordinate 0 the pieces stored into the accumulator cover it. -/
theorem scover5_A_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond5_0 i) (hc1 : ¬cond5_1 i)
    (x0 : Vec F S5000x128 .f32) (x1 : Vec F S1x128 .f32) (y : S1x1x128.Idx) :
    ∃ pc ∈ (kernelRun5_A c i arg2 harg2 arg3 harg3 arg4 harg4 arg5 harg5 hc0 hc1 x0 x1).2.1, y ∈ pc.1.set :=
  View.cover_of_tiledL (kernelRun5_A c i arg2 harg2 arg3 harg3 arg4 harg4 arg5 harg5 hc0 hc1 x0 x1).2.1 S1x1x128.size (by sl_kernel_rfl) y

/-- What the accumulator holds after the body at inner coordinate 0: the block's contribution over zero. -/
def sout5_A_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond5_0 i) (hc1 : ¬cond5_1 i)
    (x0 : Vec F S5000x128 .f32) (x1 : Vec F S1x128 .f32) : Vec F S1x1x128 .f32 :=
  VS5_0.read (Elt F) (VS5_0.writes (Elt F) VS5_0.junk (kernelRun5_A c i arg2 harg2 arg3 harg3 arg4 harg4 arg5 harg5 hc0 hc1 x0 x1).2.1)

/-- At inner coordinates 1 to 8 nothing is stored into the output window either: a placeholder again. -/
def out5_B_2 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : ¬cond5_1 i)
    (x0 : Vec F S5000x128 .f32) (x1 : Vec F S1x128 .f32) (xs0 : Vec F S1x1x128 .f32) : Vec F S1x1x128 .f32 :=
  VO5_2.read (Elt F) (VO5_2.writes (Elt F) VO5_2.junk (kernelRun5_B c i arg2 harg2 arg3 harg3 arg4 harg4 arg5 harg5 hc0 hc1 x0 x1 xs0).1)

/-- At inner coordinates 1 to 8 the piece stored into the accumulator covers it. -/
theorem scover5_B_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : ¬cond5_1 i)
    (x0 : Vec F S5000x128 .f32) (x1 : Vec F S1x128 .f32) (xs0 : Vec F S1x1x128 .f32) (y : S1x1x128.Idx) :
    ∃ pc ∈ (kernelRun5_B c i arg2 harg2 arg3 harg3 arg4 harg4 arg5 harg5 hc0 hc1 x0 x1 xs0).2.1, y ∈ pc.1.set :=
  View.cover_of_tiledL (kernelRun5_B c i arg2 harg2 arg3 harg3 arg4 harg4 arg5 harg5 hc0 hc1 x0 x1 xs0).2.1 S1x1x128.size (by sl_kernel_rfl) y

/-- What the accumulator holds after the body at inner coordinates 1 to 8: the block's contribution over what the
    point before left. -/
def sout5_B_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : ¬cond5_1 i)
    (x0 : Vec F S5000x128 .f32) (x1 : Vec F S1x128 .f32) (xs0 : Vec F S1x1x128 .f32) : Vec F S1x1x128 .f32 :=
  VS5_0.read (Elt F) (VS5_0.writes (Elt F) VS5_0.junk (kernelRun5_B c i arg2 harg2 arg3 harg3 arg4 harg4 arg5 harg5 hc0 hc1 x0 x1 xs0).2.1)

/-- At inner coordinate 9 the piece stored into the output window covers it. -/
theorem cover5_C_2 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) (y : S1x1x128.Idx) :
    ∃ pc ∈ (kernelRun5_C c i arg2 harg2 arg3 harg3 arg4 harg4 arg5 harg5 hc0 hc1 x0 x1 xs0).1, y ∈ pc.1.set :=
  View.cover_of_tiledL (kernelRun5_C c i arg2 harg2 arg3 harg3 arg4 harg4 arg5 harg5 hc0 hc1 x0 x1 xs0).1 S1x1x128.size (by sl_kernel_rfl) y

/-- What the output window's buffer holds after the body at inner coordinate 9: the finished accumulator. -/
def out5_C_2 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) : Vec F S1x1x128 .f32 :=
  VO5_2.read (Elt F) (VO5_2.writes (Elt F) VO5_2.junk (kernelRun5_C c i arg2 harg2 arg3 harg3 arg4 harg4 arg5 harg5 hc0 hc1 x0 x1 xs0).1)

/-- At inner coordinate 9 the piece stored into the accumulator covers it. -/
theorem scover5_C_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) (y : S1x1x128.Idx) :
    ∃ pc ∈ (kernelRun5_C c i arg2 harg2 arg3 harg3 arg4 harg4 arg5 harg5 hc0 hc1 x0 x1 xs0).2.1, y ∈ pc.1.set :=
  View.cover_of_tiledL (kernelRun5_C c i arg2 harg2 arg3 harg3 arg4 harg4 arg5 harg5 hc0 hc1 x0 x1 xs0).2.1 S1x1x128.size (by sl_kernel_rfl) y

/-- What the accumulator holds after the body at inner coordinate 9. -/
def sout5_C_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) : Vec F S1x1x128 .f32 :=
  VS5_0.read (Elt F) (VS5_0.writes (Elt F) VS5_0.junk (kernelRun5_C c i arg2 harg2 arg3 harg3 arg4 harg4 arg5 harg5 hc0 hc1 x0 x1 xs0).2.1)

/-! ## The accumulation, point by point -/

/-- What the output window's buffer and the accumulator hold after the body at position n (the output window
    first, then the accumulator): the case the inner coordinate n % 10 selects, run at the point's memrefs and input
    blocks, the accumulator entering at what position n - 1 left in it (at inner coordinate 0 it is zeroed first, so
    nothing is carried in). -/
def outsAt5 (c : Dev nD) : (n : ℕ) → n < cfg5.N → Vec F S1x1x128 .f32 × Vec F S1x1x128 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 10 = 0 then
      if h1 : (n + 1) % 10 = 9 then
        False.elim (by omega)
      else
        (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 10 = 9 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2)
      else
        (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2)

/-- outsAt5 at a point of inner coordinate 0. -/
theorem outsAt5_A (c : Dev nD) (t : Fin cfg5.N) (h0 : t.val % 10 = 0) (h1 : ¬t.val % 10 = 9) :
    outsAt5 V c t.val t.isLt = (out5_A_2 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t), sout5_A_0 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

/-- outsAt5 at a point of inner coordinate 1 to 8: over what the point before left in the accumulator. -/
theorem outsAt5_B (c : Dev nD) (t : Fin cfg5.N) (h0 : ¬t.val % 10 = 0) (h1 : ¬t.val % 10 = 9) :
    outsAt5 V c t.val t.isLt = (out5_B_2 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt5 at a point of inner coordinate 9: over what the point before left in the accumulator. -/
theorem outsAt5_C (c : Dev nD) (t : Fin cfg5.N) (h0 : ¬t.val % 10 = 0) (h1 : t.val % 10 = 9) :
    outsAt5 V c t.val t.isLt = (out5_C_2 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the region's entry the class's invariant (every scoped buffer that is no staging buffer
    at anything, the generator register at some state); afterwards the accumulator owned at what position n - 1
    left in it, the other scoped buffers unopened, the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of the region's pipeline on core c: the arrays as the region finds them; after the body at
    point t each input's buffer at its block and the output window's at outsAt5's first component; the invariant
    PhiS5; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

/-- The invariant at a point's start, restated at t.val. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point. The inputs' memrefs hold their blocks; the inner coordinate says which case the point is
    in; the invariant hands the body the accumulator at what the point before left (at anything at the region's
    first point) and takes it back at this point's contents; away from inner coordinate 9 the output window's
    buffer is handed back as found, at inner coordinate 9 it is left at the finished accumulator; the other scoped
    buffers, the generator register and what the core owes pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 20 := lt_of_lt_of_eq t.isLt (show cfg5.N = 20 from N_5)
  by_cases h0 : t.val % 10 = 0
  · by_cases h1 : t.val % 10 = 9
    · exfalso; omega
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [Dat.leavesExact_idle (dat5 V c) 2 t (idleAt5_2_A t ((hcond5_0 t).mpr h0) (fun h => h1 ((hcond5_1 t).mp h))) (noFlush5_2_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩⟩
        iapply ((kernelRun5_A c (grid5.coords t) _ _ _ _ _ _ _ _ ((hcond5_0 t).mpr h0) (fun h => h1 ((hcond5_1 t).mp h)) (iblk5 V c 0 t) (iblk5 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _)
            iexact HR
          iexact Hg
        isplitl [Ho]; · iexact Ho
        isplitl [H0]; · iexact H0
        isplitl [H1]; · iexact H1
        iexists _; iexact H2
      · rw [PhiS5_castSucc V c t, PhiS5_pos V c _ _ hz]
        iintro ⟨⟨⟨HS0, HR⟩, Hg⟩, Ho, ⟨%d0, H0⟩, ⟨%d1, H1⟩, ⟨%d2, H2⟩⟩
        iapply ((kernelRun5_A c (grid5.coords t) _ _ _ _ _ _ _ _ ((hcond5_0 t).mpr h0) (fun h => h1 ((hcond5_1 t).mp h)) (iblk5 V c 0 t) (iblk5 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 10 = 9
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [show (dat5 V c).leavesExact 2 t = owns (c : Thread nD τ) (ms5_2 t) fullShare ((dat5 V c).after 2 t) from by
          unfold Dat.leavesExact; rw [liveAt5_2_C t (fun h => h0 ((hcond5_0 t).mp h)) ((hcond5_1 t).mpr h1)], after5_2]
      rw [outsAt5_C V c t h0 h1]
      unfold out5_C_2 sout5_C_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩⟩
        iapply ((kernelRun5_C c (grid5.coords t) _ _ _ _ _ _ _ _ (fun h => h0 ((hcond5_0 t).mp h)) ((hcond5_1 t).mpr h1) (iblk5 V c 0 t) (iblk5 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover5_C_2 c _ _ _ _ _ _ _ _ _ _ _ _ _ _)
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [Dat.leavesExact_idle (dat5 V c) 2 t (idleAt5_2_B t (fun h => h0 ((hcond5_0 t).mp h)) (fun h => h1 ((hcond5_1 t).mp h))) (noFlush5_2_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩⟩
        iapply ((kernelRun5_B c (grid5.coords t) _ _ _ _ _ _ _ _ (fun h => h0 ((hcond5_0 t).mp h)) (fun h => h1 ((hcond5_1 t).mp h)) (iblk5 V c 0 t) (iblk5 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After any point the invariant gives the class's back: the accumulator's named contents are forgotten. -/
theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ (Pipeline.ΦA spec5 c : sProp 𝕄) :=
  Phi_out5 V c _ (by rw [Fin.val_last]; have : cfg5.N = 20 := N_5; omega)

end Cert.Kernel.Hand

end
-- ==== Proof.KB.F6.lean ====
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The region that normalises a 5000-row block and multiplies it once against two weight
    matrices side by side, at the buffer contents `V` the region is entered with

Twenty grid points, one per 5000-row block of the 100000 rows. Eight inputs: the activations' row block (window 0)
and the inverse-degree column's row block (window 7) move with the point; the mean, variance, scale, shift, weights
and residual bias (windows 1 to 6) are one block each, brought in at the first point and held. Two outputs of a
5000-row block each (windows 8 and 9), each written whole exactly once per point. -/

/-! ## The blocks the windows show -/

/-- What window `w` shows of its array at point `t`, the array being as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the 5000-row block of the activations): whatever proof data has `V`'s array there and a body that leaves the block in
    place, the window's current buffer holds its block at every point — brought in at that point, or still there from
    an earlier one because the block index has not moved since. The window is never cut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the batch mean): whatever proof data has `V`'s array there and a body that leaves the block in
    place, the window's current buffer holds its block at every point — brought in at that point, or still there from
    an earlier one because the block index has not moved since. The window is never cut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2 (the batch variance): whatever proof data has `V`'s array there and a body that leaves the block in
    place, the window's current buffer holds its block at every point — brought in at that point, or still there from
    an earlier one because the block index has not moved since. The window is never cut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3 (the scale): whatever proof data has `V`'s array there and a body that leaves the block in
    place, the window's current buffer holds its block at every point — brought in at that point, or still there from
    an earlier one because the block index has not moved since. The window is never cut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4 (the shift): whatever proof data has `V`'s array there and a body that leaves the block in
    place, the window's current buffer holds its block at every point — brought in at that point, or still there from
    an earlier one because the block index has not moved since. The window is never cut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5 (the two weight matrices side by side): whatever proof data has `V`'s array there and a body that leaves the block in
    place, the window's current buffer holds its block at every point — brought in at that point, or still there from
    an earlier one because the block index has not moved since. The window is never cut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6 (the residual bias): whatever proof data has `V`'s array there and a body that leaves the block in
    place, the window's current buffer holds its block at every point — brought in at that point, or still there from
    an earlier one because the block index has not moved since. The window is never cut and never idle. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7 (the 5000-row block of the inverse-degree column): whatever proof data has `V`'s array there and a body that leaves the block in
    place, the window's current buffer holds its block at every point — brought in at that point, or still there from
    an earlier one because the block index has not moved since. The window is never cut and never idle. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes: each buffer whole -/

/-- All of a 5000 × 128 buffer. -/
abbrev rows6 : Rect S5000x128 := Rect.unit (s := S5000x128) ![0, 0] S5000x128.size inb_S5000x128_S5000x128_0_0
/-- All of a 1 × 128 buffer. -/
abbrev lane6 : Rect S1x128 := Rect.unit (s := S1x128) ![0, 0] S1x128.size inb_S1x128_S1x128_0_0
/-- All of the 128 × 256 weights buffer. -/
abbrev weights6 : Rect S128x256 := Rect.unit (s := S128x256) ![0, 0] S128x256.size inb_S128x256_S128x256_0_0
/-- All of a 5000 × 1 buffer. -/
abbrev column6 : Rect S5000x1 := Rect.unit (s := S5000x1) ![0, 0] S5000x1.size inb_S5000x1_S5000x1_0_0

/-! ## What the body leaves in the two output buffers -/

/-- Window 8 after the body: the left half of the product, each row scaled by its inverse degree — one store of the
    whole buffer. -/
def out6_8 (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) : Vec F S5000x128 .f32 :=
  View.canon [⟨rows6, k6_pay4 (View.ld x2 lane6) (View.ld x3 lane6) (View.ld x0 rows6) (View.ld x1 lane6) (View.ld x4 lane6) (View.ld x5 weights6) (View.ld x7 column6)⟩]

/-- Window 9 after the body: the right half of the product plus the residual bias, clamped below at zero — one
    store of the whole buffer. -/
def out6_9 (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) : Vec F S5000x128 .f32 :=
  View.canon [⟨rows6, k6_pay1 (k6_pay3 (View.ld x2 lane6) (View.ld x3 lane6) (View.ld x0 rows6) (View.ld x1 lane6) (View.ld x4 lane6) (View.ld x5 weights6) (View.ld x6 lane6)) (Scalar.ofBits .f32 0x00000000#32)⟩]

/-- One store of the whole buffer covers it: every index of window 8's buffer lies in the store's rectangle. -/
theorem cover6_8 (p0 : Vec F S5000x128 .f32) (y : S5000x128.Idx) :
    ∃ pc ∈ ([⟨rows6, p0⟩] : List (View.Piece (Elt F) S5000x128 .f32)), y ∈ pc.1.set :=
  View.cover_of_tiled [⟨rows6, p0⟩] S5000x128.size (by rfl) y

/-- The same of window 9's buffer. -/
theorem cover6_9 (p0 : Vec F S5000x128 .f32) (y : S5000x128.Idx) :
    ∃ pc ∈ ([⟨rows6, p0⟩] : List (View.Piece (Elt F) S5000x128 .f32)), y ∈ pc.1.set :=
  View.cover_of_tiled [⟨rows6, p0⟩] S5000x128.size (by rfl) y

/-! ## The body run on whole buffers -/

set_option maxHeartbeats 4000000 in
/-- The body, called on ten whole buffers — the eight inputs' reading `x0` … `x7`, the two outputs' holding anything —,
    runs to its continuation with the inputs' buffers unchanged and the outputs' reading `out6_8` and `out6_9` of the
    inputs. It is eight whole-buffer loads, a load and a store of window 8's buffer inside the called part, and a load
    and a store of window 9's buffer after it; what each store writes is a function of the eight loads alone. -/
theorem sound_kernel6 (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S5000x1 .f32) (harg8 : arg8.IsWhole) (arg9 : Memref sig .tc .vmem S5000x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out6_8 x0 x1 x2 x3 x4 x5 x6 x7) ∗ owns (c : Thread nD τ) arg10 fullShare (out6_9 x0 x1 x2 x3 x4 x5 x6 x7)) -∗ K ⟨⟩))
      ⊢ wp frame (wpE (defs₀ (F := F)) Variants.none c none) E (cc6__bn_normalize_matmul_kernel i arg1 harg1 arg2 harg2 arg3 harg3 arg4 harg4 arg5 harg5 arg6 harg6 arg7 harg7 arg8 harg8 arg9 harg9 arg10 harg10) K := by
  simp only [cc6__bn_normalize_matmul_kernel_eq_skeleton]; unfold cc6__bn_normalize_matmul_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover6_8 _)
  iexists _; isplitr
  swap; · iexact H9
  ipureintro
  try dsimp only
  exact View.read_writes_eq_canon _ _ _ (cover6_9 _)

/-! ## The proof data of the region's pipeline -/

/-- On core `c`: the arrays as the region finds them; after the body at point `t`, each input's buffer still at its
    block and each output's at `out6_8`, `out6_9` of the eight input blocks; the invariant is the rest of the core's
    memory and its generator register, which the body never touches; nothing is owed; every share is whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
    | ⟨9, _⟩ => out6_9 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

/-- The proof data's arrays are the contents the region is entered with. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) := by dsimp only [dat6]

/-- Each input's current buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-! ## The body's obligation at a point -/

/-- What the body is called with at point `t`: the invariant, what the core owes, and each window's current buffer
    at what the pipeline left in it. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- What it returns: the same invariant and debt, each buffer at what the proof data says the body leaves. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

set_option maxHeartbeats 1000000 in
/-- The body at any point. The inputs' buffers hold their blocks, so the run on whole buffers applies at those blocks;
    the invariant and the debt pass through unread, the same before and after. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the pipeline asks of the body, at every point. -/
theorem body_obligation6 (c : Dev nD) : BodyObligation (dat6 (F := F) V c) (defs₀ (F := F)) Variants.none () Set.univ := fun t => by
  rw [bigSep_W6, bigSep_W6]
  exact sound_body6 V c t

/-! ## Entering and leaving the region -/

/-- The invariant is the same at every point, so it is what the region is entered with, -/
theorem hin6 (c : Dev nD) : (Pipeline.ΦA spec6 c : sProp 𝕄) ⊢ (dat6 V c).Φ 0 := BIBase.Entails.rfl

/-- and what it is left with. -/
theorem hout6 (c : Dev nD) : (dat6 V c).Φ (Fin.last cfg6.N) ⊢ (Pipeline.ΦA spec6 c : sProp 𝕄) := BIBase.Entails.rfl

end Cert.Kernel.Hand
-- ==== Proof.KB.F7Runs.lean ====
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The column sums of a layer's pre-activation, on a grid of 2 x 10 points

Point `(p, j)` takes row block `10 p + j` (5000 rows) of three arrays, writes the block's pre-activation to window 5,
and adds its column sums into a one-row accumulator the kernel keeps between points: zeroed at `j = 0`, copied to
row `p` of window 4 at `j = 9`. What follows is shared by the three kinds of point. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether the point fetched it or not
    (unfetched, the block index has not moved since the point that did), for any proof data whose array is the
    region-entry contents and whose body leaves the block in place: the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether the point fetched it or not
    (unfetched, the block index has not moved since the point that did), for any proof data whose array is the
    region-entry contents and whose body leaves the block in place: the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether the point fetched it or not
    (unfetched, the block index has not moved since the point that did), for any proof data whose array is the
    region-entry contents and whose body leaves the block in place: the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether the point fetched it or not
    (unfetched, the block index has not moved since the point that did), for any proof data whose array is the
    region-entry contents and whose body leaves the block in place: the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditionals, in closed form over the grid -/

/-- The first conditional's test: the inner coordinate is 0 (the accumulator is zeroed). -/
abbrev cond7_0 (i : grid7.Coords) : Prop := (Scalar.cmpi .ne (Scalar.extui (Scalar.cmpi .eq (BitVec.ofNat 32 (i 1).val) 0#32)) 0#32) = 1#1
/-- It holds exactly at the first point of each row of ten. -/
theorem hcond7_0 : ∀ t : Fin cfg7.N, cond7_0 (grid7.coords t) ↔ t.val % 10 = 0 :=
  (by decide +kernel : ∀ t : Fin grid7.N, cond7_0 (grid7.coords t) ↔ t.val % 10 = 0)

/-- The last conditional's test: the inner coordinate is 9 (the accumulated sums are copied out). -/
abbrev cond7_1 (i : grid7.Coords) : Prop := k7_cond2 i = 1#1
/-- It holds exactly at the last point of each row of ten. -/
theorem hcond7_1 : ∀ t : Fin cfg7.N, cond7_1 (grid7.coords t) ↔ t.val % 10 = 9 :=
  (by decide +kernel : ∀ t : Fin grid7.N, cond7_1 (grid7.coords t) ↔ t.val % 10 = 9)

/-! ## Where window 4 is idle -/

/-- The inputs and window 5 are stored or read at every point. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_5 : ∀ t : Fin cfg7.N, cfg7.idle 5 (grid7.coords t) = false := by decide +kernel
/-- Where the inner coordinate is not 9 the body stores nothing into window 4, and the table says so; -/
theorem idleAt7_4 : ∀ t : Fin cfg7.N, ¬cond7_1 (grid7.coords t) → cfg7.idle 4 (grid7.coords t) = true := by decide +kernel
/-- there its block index is the next point's too, so nothing is written back; -/
theorem noFlush7_4 : ∀ t : Fin cfg7.N, ¬cond7_1 (grid7.coords t) → (cfg7.win 4).flush t = false := by decide +kernel
/-- where it is 9 the body stores the whole row. -/
theorem liveAt7_4 : ∀ t : Fin cfg7.N, cond7_1 (grid7.coords t) → cfg7.idle 4 (grid7.coords t) = false := by decide +kernel

/-! ## The memrefs the body is called on -/

/-- Each window's current staging memref at point `t`, as the pipeline passes it, with its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S5000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S5000x128 .f32 := win7_5.stage (cfg7.slots t 5)
abbrev hs7_5 (t : Fin cfg7.N) : (ms7_5 t).IsWhole := hstage7_5 ((cfg7.slots t 5).cast nbuf7_5)
/-- The accumulator: a whole scoped buffer of the kernel's own, passed beside the windows. -/
abbrev scM7_0 : Memref sig .tc .vmem S1x1x128 .f32 := Memref.whole cc7_scratch0
/-- The accumulator as a view: its contents are stated through it. -/
abbrev VS7_0 : View sig .tc .vmem S1x1x128 .f32 := scM7_0.view
/-- One staging buffer of each output window, through which the window's contents are stated (a covering list of
    writes reads back the same through any view of the shape). -/
abbrev VO7_4 : View sig .tc .vmem S1x1x128 .f32 := (Memref.whole cc7_stg4_0 : Memref sig .tc .vmem S1x1x128 .f32).view
abbrev VO7_5 : View sig .tc .vmem S5000x128 .f32 := (Memref.whole cc7_stg5_0 : Memref sig .tc .vmem S5000x128 .f32).view

/-- What the launch hands the region, with the accumulator split off as a memref owned at some contents: the other
    scoped buffers stay one unopened conjunct. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.Kernel.Hand

end
-- ==== Proof.KB.F7RunA.lean ====
import proofs.«417336_j40785009443359_3_alg».proof.Proof.KB.F7Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 0. On whole memrefs, the inputs' at their contents, window 4's at contents it hands
    back untouched (it stores nothing there), window 5's and the accumulator at anything (the accumulator is zeroed
    before it is read), the body runs to a continuation holding the inputs' as they were, window 5's buffer with the
    pre-activation written and the accumulator with the zero row and then the block's column sums written: the lists of
    writes (last first) are the witness the symbolic run of the skeleton finds. -/
noncomputable def kernelRun7_A (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc7__bn_sum_kernel i arg2 harg2 arg3 harg3 arg4 harg4 arg5 harg5 arg6 harg6 arg7 harg7 arg8 harg8) K } := by
  refine ⟨[], ?_, ?_, fun xi4 E K => ?run⟩
  case run =>
    simp only [cc7__bn_sum_kernel_eq_skeleton]; unfold cc7__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.F7RunB.lean ====
import proofs.«417336_j40785009443359_3_alg».proof.Proof.KB.F7RunA
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE STRICTLY BETWEEN 0 AND 9. On whole memrefs, the inputs' at their contents, window 4's
    at contents it hands back untouched, window 5's at anything, the accumulator at what the point before left
    (`xs0`), the body runs to a continuation holding the inputs' as they were, window 5's buffer with the
    pre-activation written and the accumulator with `xs0` plus the block's column sums written: the lists of writes
    (last first) are the witness the symbolic run of the skeleton finds. -/
noncomputable def kernelRun7_B (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc7__bn_sum_kernel i arg2 harg2 arg3 harg3 arg4 harg4 arg5 harg5 arg6 harg6 arg7 harg7 arg8 harg8) K } := by
  refine ⟨[], ?_, ?_, fun xi4 E K => ?run⟩
  case run =>
    simp only [cc7__bn_sum_kernel_eq_skeleton]; unfold cc7__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.F7RunC.lean ====
import proofs.«417336_j40785009443359_3_alg».proof.Proof.KB.F7RunB
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 9. On whole memrefs, the inputs' at their contents, both output windows' at anything,
    the accumulator at what the point before left (`xs0`), the body runs to a continuation holding the inputs' as they
    were, window 5's buffer with the pre-activation written, the accumulator with `xs0` plus the block's column sums
    written, and window 4's buffer with that finished row written: the lists of writes (last first) are the witness
    the symbolic run of the skeleton finds. -/
noncomputable def kernelRun7_C (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc7__bn_sum_kernel i arg2 harg2 arg3 harg3 arg4 harg4 arg5 harg5 arg6 harg6 arg7 harg7 arg8 harg8) K } := by
  refine ⟨?_, ?_, ?_, fun E K => ?run⟩
  case run =>
    simp only [cc7__bn_sum_kernel_eq_skeleton]; unfold cc7__bn_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Hand

end
-- ==== Proof.KB.F7.lean ====
import proofs.«417336_j40785009443359_3_alg».proof.Proof.KB.F7RunC
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # The frame half: what each kind of point leaves, the accumulation over the grid, the proof data -/

/-- Where the inner coordinate is 0 nothing is stored into window 4 and nothing is written back: a placeholder (no writes, read
    back) that no later point and no write-back consults. -/
def out7_A_4 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) : Vec F S1x1x128 .f32 :=
  VO7_4.read (Elt F) (VO7_4.writes (Elt F) VO7_4.junk (kernelRun7_A c i arg2 harg2 arg3 harg3 arg4 harg4 arg5 harg5 arg6 harg6 arg7 harg7 arg8 harg8 hc0 hc1 x0 x1 x2 x3).1)

/-- Where the inner coordinate is 0 the writes into window 5 cover its block. -/
theorem cover7_A_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) (y : S5000x128.Idx) :
    ∃ pc ∈ (kernelRun7_A c i arg2 harg2 arg3 harg3 arg4 harg4 arg5 harg5 arg6 harg6 arg7 harg7 arg8 harg8 hc0 hc1 x0 x1 x2 x3).2.1, y ∈ pc.1.set :=
  View.cover_of_tiledL (kernelRun7_A c i arg2 harg2 arg3 harg3 arg4 harg4 arg5 harg5 arg6 harg6 arg7 harg7 arg8 harg8 hc0 hc1 x0 x1 x2 x3).2.1 S5000x128.size (by sl_kernel_rfl) y

/-- What such a point leaves in window 5's staging buffer: its writes read back. -/
def out7_A_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) : Vec F S5000x128 .f32 :=
  VO7_5.read (Elt F) (VO7_5.writes (Elt F) VO7_5.junk (kernelRun7_A c i arg2 harg2 arg3 harg3 arg4 harg4 arg5 harg5 arg6 harg6 arg7 harg7 arg8 harg8 hc0 hc1 x0 x1 x2 x3).2.1)

/-- Where the inner coordinate is 0 the writes into the accumulator cover its one row. -/
theorem scover7_A_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) (y : S1x1x128.Idx) :
    ∃ pc ∈ (kernelRun7_A c i arg2 harg2 arg3 harg3 arg4 harg4 arg5 harg5 arg6 harg6 arg7 harg7 arg8 harg8 hc0 hc1 x0 x1 x2 x3).2.2.1, y ∈ pc.1.set :=
  View.cover_of_tiledL (kernelRun7_A c i arg2 harg2 arg3 harg3 arg4 harg4 arg5 harg5 arg6 harg6 arg7 harg7 arg8 harg8 hc0 hc1 x0 x1 x2 x3).2.2.1 S1x1x128.size (by sl_kernel_rfl) y

/-- What such a point leaves in the accumulator: its writes read back. -/
def sout7_A_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) : Vec F S1x1x128 .f32 :=
  VS7_0.read (Elt F) (VS7_0.writes (Elt F) VS7_0.junk (kernelRun7_A c i arg2 harg2 arg3 harg3 arg4 harg4 arg5 harg5 arg6 harg6 arg7 harg7 arg8 harg8 hc0 hc1 x0 x1 x2 x3).2.2.1)

/-- Where the inner coordinate is strictly between 0 and 9 nothing is stored into window 4 and nothing is written back: a placeholder (no writes, read
    back) that no later point and no write-back consults. -/
def out7_B_4 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO7_4.read (Elt F) (VO7_4.writes (Elt F) VO7_4.junk (kernelRun7_B c i arg2 harg2 arg3 harg3 arg4 harg4 arg5 harg5 arg6 harg6 arg7 harg7 arg8 harg8 hc0 hc1 x0 x1 x2 x3 xs0).1)

/-- Where the inner coordinate is strictly between 0 and 9 the writes into window 5 cover its block. -/
theorem cover7_B_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun7_B c i arg2 harg2 arg3 harg3 arg4 harg4 arg5 harg5 arg6 harg6 arg7 harg7 arg8 harg8 hc0 hc1 x0 x1 x2 x3 xs0).2.1, y ∈ pc.1.set :=
  View.cover_of_tiledL (kernelRun7_B c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out7_B_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) : Vec F S5000x128 .f32 :=
  VO7_5.read (Elt F) (VO7_5.writes (Elt F) VO7_5.junk (kernelRun7_B c i arg2 harg2 arg3 harg3 arg4 harg4 arg5 harg5 arg6 harg6 arg7 harg7 arg8 harg8 hc0 hc1 x0 x1 x2 x3 xs0).2.1)

/-- Where the inner coordinate is strictly between 0 and 9 the writes into the accumulator cover its one row. -/
theorem scover7_B_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun7_B c i arg2 harg2 arg3 harg3 arg4 harg4 arg5 harg5 arg6 harg6 arg7 harg7 arg8 harg8 hc0 hc1 x0 x1 x2 x3 xs0).2.2.1, y ∈ pc.1.set :=
  View.cover_of_tiledL (kernelRun7_B c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout7_B_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS7_0.read (Elt F) (VS7_0.writes (Elt F) VS7_0.junk (kernelRun7_B c i arg2 harg2 arg3 harg3 arg4 harg4 arg5 harg5 arg6 harg6 arg7 harg7 arg8 harg8 hc0 hc1 x0 x1 x2 x3 xs0).2.2.1)

/-- Where the inner coordinate is 9 the writes into window 4 cover its one row. -/
theorem cover7_C_4 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun7_C c i arg2 harg2 arg3 harg3 arg4 harg4 arg5 harg5 arg6 harg6 arg7 harg7 arg8 harg8 hc0 hc1 x0 x1 x2 x3 xs0).1, y ∈ pc.1.set :=
  View.cover_of_tiledL (kernelRun7_C c i arg2 harg2 arg3 harg3 arg4 harg4 arg5 harg5 arg6 harg6 arg7 harg7 arg8 harg8 hc0 hc1 x0 x1 x2 x3 xs0).1 S1x1x128.size (by sl_kernel_rfl) y

/-- What such a point leaves in window 4's staging buffer: its writes read back. -/
def out7_C_4 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO7_4.read (Elt F) (VO7_4.writes (Elt F) VO7_4.junk (kernelRun7_C c i arg2 harg2 arg3 harg3 arg4 harg4 arg5 harg5 arg6 harg6 arg7 harg7 arg8 harg8 hc0 hc1 x0 x1 x2 x3 xs0).1)

/-- Where the inner coordinate is 9 the writes into window 5 cover its block. -/
theorem cover7_C_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun7_C c i arg2 harg2 arg3 harg3 arg4 harg4 arg5 harg5 arg6 harg6 arg7 harg7 arg8 harg8 hc0 hc1 x0 x1 x2 x3 xs0).2.1, y ∈ pc.1.set :=
  View.cover_of_tiledL (kernelRun7_C c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out7_C_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) : Vec F S5000x128 .f32 :=
  VO7_5.read (Elt F) (VO7_5.writes (Elt F) VO7_5.junk (kernelRun7_C c i arg2 harg2 arg3 harg3 arg4 harg4 arg5 harg5 arg6 harg6 arg7 harg7 arg8 harg8 hc0 hc1 x0 x1 x2 x3 xs0).2.1)

/-- Where the inner coordinate is 9 the writes into the accumulator cover its one row. -/
theorem scover7_C_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun7_C c i arg2 harg2 arg3 harg3 arg4 harg4 arg5 harg5 arg6 harg6 arg7 harg7 arg8 harg8 hc0 hc1 x0 x1 x2 x3 xs0).2.2.1, y ∈ pc.1.set :=
  View.cover_of_tiledL (kernelRun7_C c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout7_C_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS7_0.read (Elt F) (VS7_0.writes (Elt F) VS7_0.junk (kernelRun7_C c i arg2 harg2 arg3 harg3 arg4 harg4 arg5 harg5 arg6 harg6 arg7 harg7 arg8 harg8 hc0 hc1 x0 x1 x2 x3 xs0).2.2.1)

/-! ## What the outputs and the accumulator hold after each point -/

/-- THE ACCUMULATION. What window 4's and window 5's staging buffers and the accumulator hold after the body at position
    `n` (a triple, in that order): the kind of point the closed forms select at `n`, run at the point's memrefs and input
    blocks, and, where the inner coordinate is not 0, over what position `n - 1` left in the accumulator. Both closed
    forms at once is no point. -/
def outsAt7 (c : Dev nD) : (n : ℕ) → n < cfg7.N → Vec F S1x1x128 .f32 × Vec F S5000x128 .f32 × Vec F S1x1x128 .f32
  | 0, hn => (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩))
  | n + 1, hn =>
    if h0 : (n + 1) % 10 = 0 then
      if h1 : (n + 1) % 10 = 9 then
        False.elim (by omega)
      else
        (out7_A_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩), out7_A_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩))
    else
      if h1 : (n + 1) % 10 = 9 then
        (out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2, out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2)
      else
        (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2, out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2)

/-- `outsAt7` where the inner coordinate is 0: that kind of point's contents (nothing of the position before). -/
theorem outsAt7_A (c : Dev nD) (t : Fin cfg7.N) (h0 : t.val % 10 = 0) (h1 : ¬t.val % 10 = 9) :
    outsAt7 V c t.val t.isLt = (out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr h0) (fun h => h1 ((hcond7_1 t).mp h)) (iblk7 V c 0 t) (iblk7 V c 1 t) (iblk7 V c 2 t) (iblk7 V c 3 t), out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr h0) (fun h => h1 ((hcond7_1 t).mp h)) (iblk7 V c 0 t) (iblk7 V c 1 t) (iblk7 V c 2 t) (iblk7 V c 3 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr h0) (fun h => h1 ((hcond7_1 t).mp h)) (iblk7 V c 0 t) (iblk7 V c 1 t) (iblk7 V c 2 t) (iblk7 V c 3 t)) := by
  obtain ⟨n, hn⟩ := t
  cases n with
  | zero => exact rfl
  | succ n => exact (dif_pos h0).trans ((dif_neg h1).trans rfl)

/-- `outsAt7` where the inner coordinate is strictly between 0 and 9: over what the position before left. -/
theorem outsAt7_B (c : Dev nD) (t : Fin cfg7.N) (h0 : ¬t.val % 10 = 0) (h1 : ¬t.val % 10 = 9) :
    outsAt7 V c t.val t.isLt = (out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2, out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt7` where the inner coordinate is 9: over what the position before left. -/
theorem outsAt7_C (c : Dev nD) (t : Fin cfg7.N) (h0 : ¬t.val % 10 = 0) (h1 : t.val % 10 = 9) :
    outsAt7 V c t.val t.isLt = (out7_C_4 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2, out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer at anything, the generator register at some state); afterwards the accumulator owned at what the position
    before left in it (`outsAt7`'s last component), the other scoped buffers unopened, the register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2.2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

/-- After position `n`: the accumulator at that position's contents. -/
theorem PhiS7_succ (c : Dev nD) (n : ℕ) (hn : n < cfg7.N) :
    PhiS7 V c (n + 1) hn = iprop(iprop(owns (c : Thread nD τ) scM7_0 fullShare ((outsAt7 V c n hn).2.2) ∗ Pipeline.scopedRestBut (Ix := Unit) (Name := ℕ) (U := UR sig nD τ) (Lvl := ℕ) (Val := Elt F) spec7 c [cc7_scratch0]) ∗ (∃ r, prngReg c r)) := rfl

/-- Before a position that is not the first: the accumulator at what the position before left. -/
theorem PhiS7_pos (c : Dev nD) (n : ℕ) (h : n ≤ cfg7.N) (hz : n ≠ 0) :
    PhiS7 V c n h = iprop(iprop(owns (c : Thread nD τ) scM7_0 fullShare ((outsAt7 V c (n - 1) (by omega)).2.2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

/-- The proof data of this region on core `c`: the arrays as the region finds them; after the body at point `t` each
    input's buffer at its block, window 4's and window 5's at `outsAt7`'s first two components; the invariant `PhiS7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
  Φ t := PhiS7 V c t.val (Nat.le_of_lt_succ t.isLt)
  q _ := fullShare
  owed _ := 0

/-- The proof data's arrays are the region-entry contents (the definition projected; the contents are never opened). -/
theorem A_eq7 (c : Dev nD) (w : Fin cfg7.W) : (dat7 V c).A w = V c (Pipeline.arrRef spec7 w) := by
  dsimp only [dat7]

/-- The invariant at a point's start, restated at the point's position. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t` (the library's obligation, the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4800000 in
/-- The body at any point. The inputs' memrefs hold their blocks; the two closed forms say which kind of point it is; the
    invariant hands the body the accumulator at what the position before left (at anything before the first point,
    which zeroes it before reading it), the other scoped buffers and the generator register pass through; the run of
    that kind of point applies, and the accumulator comes back at this position's contents because the run's writes
    cover it, as do window 5's and, where the inner coordinate is 9, window 4's; elsewhere window 4's buffer is handed
    back as found. The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  by_cases h0 : t.val % 10 = 0
  · by_cases h1 : t.val % 10 = 9
    · exfalso; omega
    · -- the inner coordinate is 0
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3 t], after7_3]
      rw [show (dat7 V c).leavesExact 5 t = owns (c : Thread nD τ) (ms7_5 t) fullShare ((dat7 V c).after 5 t) from by
        unfold Dat.leavesExact; rw [liveAt7_5 t], after7_5]
      rw [Dat.leavesExact_idle (dat7 V c) 4 t (idleAt7_4 t (fun h => h1 ((hcond7_1 t).mp h))) (noFlush7_4 t (fun h => h1 ((hcond7_1 t).mp h)))]
      rw [outsAt7_A V c t h0 h1]
      unfold out7_A_5 sout7_A_0; (try dsimp only)
      by_cases hz : t.val = 0
      · rw [PhiS7_castSucc V c t, PhiS7_zero V c _ _ hz, PhiA7_eq]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun7_A c (grid7.coords t) _ _ _ _ _ _ _ _ _ _ _ _ _ _ ((hcond7_0 t).mpr h0) (fun h => h1 ((hcond7_1 t).mp h)) (iblk7 V c 0 t) (iblk7 V c 1 t) (iblk7 V c 2 t) (iblk7 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover7_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover7_A_5 c _ _ _ _ _ _ _ _ _ _ _ _ _ _ _ _ _ _ _ _ _)
      · rw [PhiS7_castSucc V c t, PhiS7_pos V c _ _ hz]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun7_A c (grid7.coords t) _ _ _ _ _ _ _ _ _ _ _ _ _ _ ((hcond7_0 t).mpr h0) (fun h => h1 ((hcond7_1 t).mp h)) (iblk7 V c 0 t) (iblk7 V c 1 t) (iblk7 V c 2 t) (iblk7 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover7_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover7_A_5 c _ _ _ _ _ _ _ _ _ _ _ _ _ _ _ _ _ _ _ _ _)
  · by_cases h1 : t.val % 10 = 9
    · -- the inner coordinate is 9
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3 t], after7_3]
      rw [show (dat7 V c).leavesExact 5 t = owns (c : Thread nD τ) (ms7_5 t) fullShare ((dat7 V c).after 5 t) from by
        unfold Dat.leavesExact; rw [liveAt7_5 t], after7_5]
      rw [show (dat7 V c).leavesExact 4 t = owns (c : Thread nD τ) (ms7_4 t) fullShare ((dat7 V c).after 4 t) from by
        unfold Dat.leavesExact; rw [liveAt7_4 t ((hcond7_1 t).mpr h1)], after7_4]
      rw [outsAt7_C V c t h0 h1]
      unfold out7_C_4 out7_C_5 sout7_C_0; (try dsimp only)
      have hz : t.val ≠ 0 := by omega
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun7_C c (grid7.coords t) _ _ _ _ _ _ _ _ _ _ _ _ _ _ (fun h => h0 ((hcond7_0 t).mp h)) ((hcond7_1 t).mpr h1) (iblk7 V c 0 t) (iblk7 V c 1 t) (iblk7 V c 2 t) (iblk7 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_C_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_C_4 c _ _ _ _ _ _ _ _ _ _ _ _ _ _ _ _ _ _ _ _ _ _)
      unfold owns; iexists _; isplitr
      swap; · iexact H5
      ipureintro; exact View.read_writes_of_cover _ _ _ _ _ (cover7_C_5 c _ _ _ _ _ _ _ _ _ _ _ _ _ _ _ _ _ _ _ _ _ _)
    · -- the inner coordinate is strictly between 0 and 9
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3 t], after7_3]
      rw [show (dat7 V c).leavesExact 5 t = owns (c : Thread nD τ) (ms7_5 t) fullShare ((dat7 V c).after 5 t) from by
        unfold Dat.leavesExact; rw [liveAt7_5 t], after7_5]
      rw [Dat.leavesExact_idle (dat7 V c) 4 t (idleAt7_4 t (fun h => h1 ((hcond7_1 t).mp h))) (noFlush7_4 t (fun h => h1 ((hcond7_1 t).mp h)))]
      rw [outsAt7_B V c t h0 h1]
      unfold out7_B_5 sout7_B_0; (try dsimp only)
      have hz : t.val ≠ 0 := by omega
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun7_B c (grid7.coords t) _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) _).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover7_B_5 c _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After any point the invariant gives back what the launch handed over: the accumulator's named contents are forgotten. -/
theorem Phi7_out (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

/-- The same after the last point. -/
theorem hout7 (c : Dev nD) : (dat7 V c).Φ (Fin.last cfg7.N) ⊢ (Pipeline.ΦA spec7 c : sProp 𝕄) :=
  Phi7_out V c _ (by rw [Fin.val_last]; have : cfg7.N = 20 := N_7; omega)

end Cert.Kernel.Hand

end
-- ==== Proof.KB.F8Runs.lean ====
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # The sum-of-squares region: what its three cases share

The grid is 2 x 10; a point t has inner coordinate t.val % 10. The body zeroes the carried accumulator at
inner coordinate 0, adds the column sums of the block's centred squares into it at every point, and copies it
into the output window at inner coordinate 9. -/

/-! ## The windows' blocks -/

/-- Window w's block at point t, read off its array at the contents V the region is entered with. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The 5000-row block window's current staging buffer holds its block at every point, for any proof data whose
    array is V's and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The mean row's window is fetched once; its staging buffer holds the row at every point all the same. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's two conditions, in closed form over the grid -/

/-- "The inner coordinate is 0": the condition under which the body zeroes the accumulator. -/
abbrev cond8_0 (i : grid8.Coords) : Prop := (Scalar.cmpi .ne (Scalar.extui (Scalar.cmpi .eq (BitVec.ofNat 32 (i 1).val) 0#32)) 0#32) = 1#1
theorem hcond8_0 : ∀ t : Fin cfg8.N, cond8_0 (grid8.coords t) ↔ t.val % 10 = 0 :=
  (by decide +kernel : ∀ t : Fin grid8.N, cond8_0 (grid8.coords t) ↔ t.val % 10 = 0)

/-- "The inner coordinate is 9": the condition under which the body copies the accumulator out. -/
abbrev cond8_1 (i : grid8.Coords) : Prop := k8_cond2 i = 1#1
theorem hcond8_1 : ∀ t : Fin cfg8.N, cond8_1 (grid8.coords t) ↔ t.val % 10 = 9 :=
  (by decide +kernel : ∀ t : Fin grid8.N, cond8_1 (grid8.coords t) ↔ t.val % 10 = 9)

/-! ## Where the windows are idle -/

/-- The two input windows are never idle. -/
theorem liveAt8_0 : ∀ t : Fin cfg8.N, cfg8.idle 0 (grid8.coords t) = false := by decide +kernel
theorem liveAt8_1 : ∀ t : Fin cfg8.N, cfg8.idle 1 (grid8.coords t) = false := by decide +kernel
/-- Away from inner coordinate 9 the output window is idle and its block is not written back. -/
theorem idleAt8_2_A : ∀ t : Fin cfg8.N, cond8_0 (grid8.coords t) → ¬cond8_1 (grid8.coords t) → cfg8.idle 2 (grid8.coords t) = true := by decide +kernel
theorem noFlush8_2_A : ∀ t : Fin cfg8.N, cond8_0 (grid8.coords t) → ¬cond8_1 (grid8.coords t) → (cfg8.win 2).flush t = false := by decide +kernel
theorem idleAt8_2_B : ∀ t : Fin cfg8.N, ¬cond8_0 (grid8.coords t) → ¬cond8_1 (grid8.coords t) → cfg8.idle 2 (grid8.coords t) = true := by decide +kernel
theorem noFlush8_2_B : ∀ t : Fin cfg8.N, ¬cond8_0 (grid8.coords t) → ¬cond8_1 (grid8.coords t) → (cfg8.win 2).flush t = false := by decide +kernel
/-- At inner coordinate 9 the output window is live. -/
theorem liveAt8_2_C : ∀ t : Fin cfg8.N, ¬cond8_0 (grid8.coords t) → cond8_1 (grid8.coords t) → cfg8.idle 2 (grid8.coords t) = false := by decide +kernel

/-! ## The memrefs the body is called with -/

/-- One staging buffer of the output window, through which its contents are stated. -/
abbrev VO8_2 : View sig .tc .vmem S1x1x128 .f32 := (Memref.whole cc8_stg2_0 : Memref sig .tc .vmem S1x1x128 .f32).view
/-- Each window's current staging memref at point t, and its wholeness. -/
abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x1x128 .f32 := win8_2.stage (cfg8.slots t 2)
abbrev hs8_2 (t : Fin cfg8.N) : (ms8_2 t).IsWhole := hstage8_2 ((cfg8.slots t 2).cast nbuf8_2)
/-- The accumulator: a whole scoped buffer of the kernel's own, carried from point to point. -/
abbrev scM8_0 : Memref sig .tc .vmem S1x1x128 .f32 := Memref.whole cc8_scratch0
abbrev VS8_0 : View sig .tc .vmem S1x1x128 .f32 := scM8_0.view

/-- The region's entry invariant with the accumulator as a memref owned at some contents, the other scoped
    buffers unopened. -/
theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.Kernel.Hand

end
-- ==== Proof.KB.F8RunA.lean ====
import proofs.«417336_j40785009443359_3_alg».proof.Proof.KB.F8Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 0 (first condition holds, second fails), on any whole memrefs: the two inputs at
    their contents, the output window's buffer at contents handed back untouched, the accumulator at anything. It
    runs to the continuation holding the inputs and the output buffer as they were and the accumulator with the
    pieces LS0 written (the zero store, then the sum's store); no piece goes to the output window. -/
noncomputable def kernelRun8_A (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond8_0 i) (hc1 : ¬cond8_1 i)
    (x0 : Vec F S5000x128 .f32) (x1 : Vec F S1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__bn_sumsq_kernel i arg2 harg2 arg3 harg3 arg4 harg4 arg5 harg5) K } := by
  refine ⟨[], ?_, fun xi2 E K => ?run⟩
  case run =>
    simp only [cc8__bn_sumsq_kernel_eq_skeleton]; unfold cc8__bn_sumsq_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.F8RunB.lean ====
import proofs.«417336_j40785009443359_3_alg».proof.Proof.KB.F8RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinates 1 to 8 (both conditions fail), on any whole memrefs: the two inputs at their
    contents, the output window's buffer at contents handed back untouched, the accumulator at the contents xs0 the
    point before left. It runs to the continuation holding the inputs and the output buffer as they were and the
    accumulator with the pieces LS0 written (the sum's store). -/
noncomputable def kernelRun8_B (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : ¬cond8_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__bn_sumsq_kernel i arg2 harg2 arg3 harg3 arg4 harg4 arg5 harg5) K } := by
  refine ⟨[], ?_, fun xi2 E K => ?run⟩
  case run =>
    simp only [cc8__bn_sumsq_kernel_eq_skeleton]; unfold cc8__bn_sumsq_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.F8RunC.lean ====
import proofs.«417336_j40785009443359_3_alg».proof.Proof.KB.F8RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 9 (first condition fails, second holds), on any whole memrefs: the two inputs at
    their contents, the output window's buffer at anything, the accumulator at the contents xs0 the point before
    left. It runs to the continuation holding the inputs as they were, the output buffer with the pieces L2 written
    (the copy of the accumulator) and the accumulator with the pieces LS0 written (the sum's store). -/
noncomputable def kernelRun8_C (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc8__bn_sumsq_kernel i arg2 harg2 arg3 harg3 arg4 harg4 arg5 harg5) K } := by
  refine ⟨?_, ?_, fun E K => ?run⟩
  case run =>
    simp only [cc8__bn_sumsq_kernel_eq_skeleton]; unfold cc8__bn_sumsq_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.F8.lean ====
import proofs.«417336_j40785009443359_3_alg».proof.Proof.KB.F8RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The sum-of-squares region: what each case leaves, point by point, and the body obligation -/

/-! ## What each case leaves in the output window and in the accumulator -/

/-- At inner coordinate 0 nothing is stored into the output window (it is idle there and not written back): a
    placeholder that nothing consults. -/
def out8_A_2 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond8_0 i) (hc1 : ¬cond8_1 i)
    (x0 : Vec F S5000x128 .f32) (x1 : Vec F S1x128 .f32) : Vec F S1x1x128 .f32 :=
  VO8_2.read (Elt F) (VO8_2.writes (Elt F) VO8_2.junk (kernelRun8_A c i arg2 harg2 arg3 harg3 arg4 harg4 arg5 harg5 hc0 hc1 x0 x1).1)

/-- At inner coordinate 0 the pieces stored into the accumulator cover it. -/
theorem scover8_A_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond8_0 i) (hc1 : ¬cond8_1 i)
    (x0 : Vec F S5000x128 .f32) (x1 : Vec F S1x128 .f32) (y : S1x1x128.Idx) :
    ∃ pc ∈ (kernelRun8_A c i arg2 harg2 arg3 harg3 arg4 harg4 arg5 harg5 hc0 hc1 x0 x1).2.1, y ∈ pc.1.set :=
  View.cover_of_tiledL (kernelRun8_A c i arg2 harg2 arg3 harg3 arg4 harg4 arg5 harg5 hc0 hc1 x0 x1).2.1 S1x1x128.size (by sl_kernel_rfl) y

/-- What the accumulator holds after the body at inner coordinate 0: the block's contribution over zero. -/
def sout8_A_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond8_0 i) (hc1 : ¬cond8_1 i)
    (x0 : Vec F S5000x128 .f32) (x1 : Vec F S1x128 .f32) : Vec F S1x1x128 .f32 :=
  VS8_0.read (Elt F) (VS8_0.writes (Elt F) VS8_0.junk (kernelRun8_A c i arg2 harg2 arg3 harg3 arg4 harg4 arg5 harg5 hc0 hc1 x0 x1).2.1)

/-- At inner coordinates 1 to 8 nothing is stored into the output window either: a placeholder again. -/
def out8_B_2 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : ¬cond8_1 i)
    (x0 : Vec F S5000x128 .f32) (x1 : Vec F S1x128 .f32) (xs0 : Vec F S1x1x128 .f32) : Vec F S1x1x128 .f32 :=
  VO8_2.read (Elt F) (VO8_2.writes (Elt F) VO8_2.junk (kernelRun8_B c i arg2 harg2 arg3 harg3 arg4 harg4 arg5 harg5 hc0 hc1 x0 x1 xs0).1)

/-- At inner coordinates 1 to 8 the piece stored into the accumulator covers it. -/
theorem scover8_B_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : ¬cond8_1 i)
    (x0 : Vec F S5000x128 .f32) (x1 : Vec F S1x128 .f32) (xs0 : Vec F S1x1x128 .f32) (y : S1x1x128.Idx) :
    ∃ pc ∈ (kernelRun8_B c i arg2 harg2 arg3 harg3 arg4 harg4 arg5 harg5 hc0 hc1 x0 x1 xs0).2.1, y ∈ pc.1.set :=
  View.cover_of_tiledL (kernelRun8_B c i arg2 harg2 arg3 harg3 arg4 harg4 arg5 harg5 hc0 hc1 x0 x1 xs0).2.1 S1x1x128.size (by sl_kernel_rfl) y

/-- What the accumulator holds after the body at inner coordinates 1 to 8: the block's contribution over what the
    point before left. -/
def sout8_B_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : ¬cond8_1 i)
    (x0 : Vec F S5000x128 .f32) (x1 : Vec F S1x128 .f32) (xs0 : Vec F S1x1x128 .f32) : Vec F S1x1x128 .f32 :=
  VS8_0.read (Elt F) (VS8_0.writes (Elt F) VS8_0.junk (kernelRun8_B c i arg2 harg2 arg3 harg3 arg4 harg4 arg5 harg5 hc0 hc1 x0 x1 xs0).2.1)

/-- At inner coordinate 9 the piece stored into the output window covers it. -/
theorem cover8_C_2 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) (y : S1x1x128.Idx) :
    ∃ pc ∈ (kernelRun8_C c i arg2 harg2 arg3 harg3 arg4 harg4 arg5 harg5 hc0 hc1 x0 x1 xs0).1, y ∈ pc.1.set :=
  View.cover_of_tiledL (kernelRun8_C c i arg2 harg2 arg3 harg3 arg4 harg4 arg5 harg5 hc0 hc1 x0 x1 xs0).1 S1x1x128.size (by sl_kernel_rfl) y

/-- What the output window's buffer holds after the body at inner coordinate 9: the finished accumulator. -/
def out8_C_2 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) : Vec F S1x1x128 .f32 :=
  VO8_2.read (Elt F) (VO8_2.writes (Elt F) VO8_2.junk (kernelRun8_C c i arg2 harg2 arg3 harg3 arg4 harg4 arg5 harg5 hc0 hc1 x0 x1 xs0).1)

/-- At inner coordinate 9 the piece stored into the accumulator covers it. -/
theorem scover8_C_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) (y : S1x1x128.Idx) :
    ∃ pc ∈ (kernelRun8_C c i arg2 harg2 arg3 harg3 arg4 harg4 arg5 harg5 hc0 hc1 x0 x1 xs0).2.1, y ∈ pc.1.set :=
  View.cover_of_tiledL (kernelRun8_C c i arg2 harg2 arg3 harg3 arg4 harg4 arg5 harg5 hc0 hc1 x0 x1 xs0).2.1 S1x1x128.size (by sl_kernel_rfl) y

/-- What the accumulator holds after the body at inner coordinate 9. -/
def sout8_C_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) : Vec F S1x1x128 .f32 :=
  VS8_0.read (Elt F) (VS8_0.writes (Elt F) VS8_0.junk (kernelRun8_C c i arg2 harg2 arg3 harg3 arg4 harg4 arg5 harg5 hc0 hc1 x0 x1 xs0).2.1)

/-! ## The accumulation, point by point -/

/-- What the output window's buffer and the accumulator hold after the body at position n (the output window
    first, then the accumulator): the case the inner coordinate n % 10 selects, run at the point's memrefs and input
    blocks, the accumulator entering at what position n - 1 left in it (at inner coordinate 0 it is zeroed first, so
    nothing is carried in). -/
def outsAt8 (c : Dev nD) : (n : ℕ) → n < cfg8.N → Vec F S1x1x128 .f32 × Vec F S1x1x128 .f32
  | 0, hn => (out8_A_2 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩))
  | n + 1, hn =>
    if h0 : (n + 1) % 10 = 0 then
      if h1 : (n + 1) % 10 = 9 then
        False.elim (by omega)
      else
        (out8_A_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩))
    else
      if h1 : (n + 1) % 10 = 9 then
        (out8_C_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2)
      else
        (out8_B_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 c n (Nat.lt_of_succ_lt hn)).2)

/-- outsAt8 at a point of inner coordinate 0. -/
theorem outsAt8_A (c : Dev nD) (t : Fin cfg8.N) (h0 : t.val % 10 = 0) (h1 : ¬t.val % 10 = 9) :
    outsAt8 V c t.val t.isLt = (out8_A_2 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t), sout8_A_0 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t)) := by
  obtain ⟨n, hn⟩ := t
  cases n with
  | zero => exact rfl
  | succ n => exact (dif_pos h0).trans ((dif_neg h1).trans rfl)

/-- outsAt8 at a point of inner coordinate 1 to 8: over what the point before left in the accumulator. -/
theorem outsAt8_B (c : Dev nD) (t : Fin cfg8.N) (h0 : ¬t.val % 10 = 0) (h1 : ¬t.val % 10 = 9) :
    outsAt8 V c t.val t.isLt = (out8_B_2 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2, sout8_B_0 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt8 at a point of inner coordinate 9: over what the point before left in the accumulator. -/
theorem outsAt8_C (c : Dev nD) (t : Fin cfg8.N) (h0 : ¬t.val % 10 = 0) (h1 : t.val % 10 = 9) :
    outsAt8 V c t.val t.isLt = (out8_C_2 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2, sout8_C_0 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the region's entry the class's invariant (every scoped buffer that is no staging buffer
    at anything, the generator register at some state); afterwards the accumulator owned at what position n - 1
    left in it, the other scoped buffers unopened, the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2)) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare ((outsAt8 V c n hn).2)) ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2)) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The pipeline's proof data -/

/-- The proof data of the region's pipeline on core c: the arrays as the region finds them; after the body at
    point t each input's buffer at its block and the output window's at outsAt8's first component; the invariant
    PhiS8; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

/-- The invariant at a point's start, restated at t.val. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point. The inputs' memrefs hold their blocks; the inner coordinate says which case the point is
    in; the invariant hands the body the accumulator at what the point before left (at anything at the region's
    first point) and takes it back at this point's contents; away from inner coordinate 9 the output window's
    buffer is handed back as found, at inner coordinate 9 it is left at the finished accumulator; the other scoped
    buffers, the generator register and what the core owes pass through. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 20 := lt_of_lt_of_eq t.isLt (show cfg8.N = 20 from N_8)
  by_cases h0 : t.val % 10 = 0
  · by_cases h1 : t.val % 10 = 9
    · exfalso; omega
    · rw [show (dat8 V c).leavesExact 0 t = owns (c : Thread nD τ) (ms8_0 t) fullShare ((dat8 V c).after 0 t) from by
          unfold Dat.leavesExact; rw [liveAt8_0 t], after8_0]
      rw [show (dat8 V c).leavesExact 1 t = owns (c : Thread nD τ) (ms8_1 t) fullShare ((dat8 V c).after 1 t) from by
          unfold Dat.leavesExact; rw [liveAt8_1 t], after8_1]
      rw [Dat.leavesExact_idle (dat8 V c) 2 t (idleAt8_2_A t ((hcond8_0 t).mpr h0) (fun h => h1 ((hcond8_1 t).mp h))) (noFlush8_2_A t ((hcond8_0 t).mpr h0) (fun h => h1 ((hcond8_1 t).mp h)))]
      rw [outsAt8_A V c t h0 h1]
      unfold sout8_A_0; (try dsimp only)
      by_cases hz : t.val = 0
      · rw [PhiS8_castSucc V c t, PhiS8_zero V c _ _ hz, PhiA8_eq]
        iintro ⟨⟨⟨HS0, HR⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _)
            iexact HR
          iexact Hg
        isplitl [Ho]; · iexact Ho
        isplitl [H0]; · iexact H0
        isplitl [H1]; · iexact H1
        iexists _; iexact H2
      · rw [PhiS8_castSucc V c t, PhiS8_pos V c _ _ hz]
        iintro ⟨⟨⟨HS0, HR⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 10 = 9
    · rw [show (dat8 V c).leavesExact 0 t = owns (c : Thread nD τ) (ms8_0 t) fullShare ((dat8 V c).after 0 t) from by
          unfold Dat.leavesExact; rw [liveAt8_0 t], after8_0]
      rw [show (dat8 V c).leavesExact 1 t = owns (c : Thread nD τ) (ms8_1 t) fullShare ((dat8 V c).after 1 t) from by
          unfold Dat.leavesExact; rw [liveAt8_1 t], after8_1]
      rw [show (dat8 V c).leavesExact 2 t = owns (c : Thread nD τ) (ms8_2 t) fullShare ((dat8 V c).after 2 t) from by
          unfold Dat.leavesExact; rw [liveAt8_2_C t (fun h => h0 ((hcond8_0 t).mp h)) ((hcond8_1 t).mpr h1)], after8_2]
      rw [outsAt8_C V c t h0 h1]
      unfold out8_C_2 sout8_C_0; (try dsimp only)
      by_cases hz : t.val = 0
      · exfalso; omega
      · rw [PhiS8_castSucc V c t, PhiS8_pos V c _ _ hz]
        iintro ⟨⟨⟨HS0, HR⟩, Hg⟩, Ho, ⟨%d0, H0⟩, ⟨%d1, H1⟩, ⟨%d2, H2⟩⟩
        iapply ((kernelRun8_C c (grid8.coords t) _ _ _ _ _ _ _ _ (fun h => h0 ((hcond8_0 t).mp h)) ((hcond8_1 t).mpr h1) (iblk8 V c 0 t) (iblk8 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover8_C_2 c _ _ _ _ _ _ _ _ _ _ _ _ _ _)
    · rw [show (dat8 V c).leavesExact 0 t = owns (c : Thread nD τ) (ms8_0 t) fullShare ((dat8 V c).after 0 t) from by
          unfold Dat.leavesExact; rw [liveAt8_0 t], after8_0]
      rw [show (dat8 V c).leavesExact 1 t = owns (c : Thread nD τ) (ms8_1 t) fullShare ((dat8 V c).after 1 t) from by
          unfold Dat.leavesExact; rw [liveAt8_1 t], after8_1]
      rw [Dat.leavesExact_idle (dat8 V c) 2 t (idleAt8_2_B t (fun h => h0 ((hcond8_0 t).mp h)) (fun h => h1 ((hcond8_1 t).mp h))) (noFlush8_2_B t (fun h => h0 ((hcond8_0 t).mp h)) (fun h => h1 ((hcond8_1 t).mp h)))]
      rw [outsAt8_B V c t h0 h1]
      unfold sout8_B_0; (try dsimp only)
      by_cases hz : t.val = 0
      · exfalso; omega
      · rw [PhiS8_castSucc V c t, PhiS8_pos V c _ _ hz]
        iintro ⟨⟨⟨HS0, HR⟩, Hg⟩, Ho, ⟨%d0, H0⟩, ⟨%d1, H1⟩, ⟨%d2, H2⟩⟩
        iapply ((kernelRun8_B c (grid8.coords t) _ _ _ _ _ _ _ _ (fun h => h0 ((hcond8_0 t).mp h)) (fun h => h1 ((hcond8_1 t).mp h)) (iblk8 V c 0 t) (iblk8 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the region is entered with is the invariant before the first point. -/
theorem hin8 (c : Dev nD) : (Pipeline.ΦA spec8 c : sProp 𝕄) ⊢ (dat8 V c).Φ 0 := by
  rw [show (dat8 V c).Φ 0 = PhiS8 V c 0 (Nat.zero_le _) from rfl, PhiS8_zero V c 0 _ rfl]
  try exact Idealize.SL.BI.Entails.refl _

/-- After any point the invariant gives the class's back: the accumulator's named contents are forgotten. -/
theorem Phi_out8 (c : Dev nD) (t : Fin (cfg8.N + 1)) (ht : t.val ≠ 0) : (dat8 V c).Φ t ⊢ (Pipeline.ΦA spec8 c : sProp 𝕄) := by
  rw [show (dat8 V c).Φ t = PhiS8 V c t.val (Nat.le_of_lt_succ t.isLt) from rfl, PhiS8_pos V c _ _ ht, PhiA8_eq]
  iintro ⟨⟨HS0, HR⟩, Hg⟩
  isplitl [HS0 HR]
  · isplitl [HS0]
    · iexists _; iexact HS0
    iexact HR
  iexact Hg

/-- The same after the last point. -/
theorem hout8 (c : Dev nD) : (dat8 V c).Φ (Fin.last cfg8.N) ⊢ (Pipeline.ΦA spec8 c : sProp 𝕄) :=
  Phi_out8 V c _ (by rw [Fin.val_last]; have : cfg8.N = 20 := N_8; omega)

end Cert.Kernel.Hand

end
-- ==== Proof.KB.F9.lean ====
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The normalising region (the tenth pallas_call of the program, pipeline 9), entered at buffer contents `V`

One control case over a grid of 20 points. Window 0 is the 5000-row block of the activations at the point; windows 1-4
are the four per-feature rows (mean, variance, scale, shift), whose block index never moves; window 5 receives the
normalised block, stored whole once per point. -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The activations' window holds its block at every point, for any proof data whose array is `V`'s and whose body
    leaves the block in place: the window is uncut and never idle, and it is fetched at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The mean row's window holds its block at every point: fetched at the first point only, its block index does not
    move afterwards and the body leaves the buffer as it found it. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The variance row's window, likewise. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The scale row's window, likewise. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- The shift row's window, likewise. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- A per-feature row, whole. -/
abbrev r9_row : Rect S1x128 := Rect.unit (s := S1x128) ![0, 0] S1x128.size inb_S1x128_S1x128_0_0
/-- A 5000-row block, whole. -/
abbrev r9_blk : Rect S5000x128 := Rect.unit (s := S5000x128) ![0, 0] S5000x128.size inb_S5000x128_S5000x128_0_0

/-! ## What the body leaves in the output window's buffer -/

/-- The output window's buffer after the body, from the input windows' blocks (`x0` the activations, `x1` the mean
    row, `x2` the variance row, `x3` the scale row, `x4` the shift row): its one store, of the whole block, whose
    payload is `x3 * (x0 - x1) * rsqrt (x2 + ε) + x4` as the skeleton names it. -/
def out9_5 (x0 : Vec F S5000x128 .f32) (x1 x2 x3 x4 : Vec F S1x128 .f32) : Vec F S5000x128 .f32 :=
  View.canon [⟨r9_blk, k9_pay1 (View.ld x2 r9_row) (View.ld x3 r9_row) (View.ld x0 r9_blk) (View.ld x1 r9_row) (View.ld x4 r9_row)⟩]

/-- The one store is of the whole block, so it covers the buffer. -/
theorem cover9_5 (p0 : Vec F S5000x128 .f32) (y : S5000x128.Idx) :
    ∃ pc ∈ ([⟨r9_blk, p0⟩] : List (View.Piece (Elt F) S5000x128 .f32)), y ∈ pc.1.set :=
  View.cover_of_tiled [⟨r9_blk, p0⟩] S5000x128.size (by rfl) y

/-! ## The body's triple -/

set_option maxHeartbeats 1000000 in
/-- The kernel body on whole staging memrefs, the five inputs' at read contents `x0 … x4` and the output's at anything,
    runs to the continuation holding the inputs' as they were and the output's at `out9_5` of the inputs': the printed
    function is its skeleton of five input loads, one load of the output buffer whose value is dropped, and the one
    store. -/
theorem sound_kernel9 (c : Dev nD) (E : Set ℕ) (i : grid9.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__bn_normalize_kernel i arg1 harg1 arg2 harg2 arg3 harg3 arg4 harg4 arg5 harg5 arg6 harg6) K := by
  simp only [cc9__bn_normalize_kernel_eq_skeleton]; unfold cc9__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of the region on core `c`: the arrays as the region finds them (`V`); after the body at point `t`
    each input's buffer at its block and the output's at `out9_5` of the input blocks; the invariant the scoped rest
    and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and the
    core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's two ends -/

/-- The region is entered with the scoped rest and the generator register, which is the invariant before the first point, -/
theorem hin9 (c : Dev nD) : (Pipeline.ΦA spec9 c : sProp 𝕄) ⊢ (dat9 V c).Φ 0 := .rfl

/-- and left with the invariant after the last, which is the same. -/
theorem hout9 (c : Dev nD) : (dat9 V c).Φ (Fin.last cfg9.N) ⊢ (Pipeline.ΦA spec9 c : sProp 𝕄) := .rfl

end Cert.Kernel.Hand
-- ==== Proof.KB.F10Runs.lean ====
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 10 (the pooling call): what its three runs share, at the entry contents `V` -/

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The feature rows' staging buffer holds the rows' block at every point, for any proof data whose array is the
    entry contents and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The segment ids' staging buffer (32-bit integers) holds the ids' block at every point, likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's two conditions, in closed form over the 2 x 50 grid -/

/-- The first condition: the inner coordinate is 0 (the accumulator is zeroed there). -/
abbrev cond10_0 (i : grid10.Coords) : Prop := (Scalar.cmpi .ne (Scalar.extui (Scalar.cmpi .eq (BitVec.ofNat 32 (i 1).val) 0#32)) 0#32) = 1#1
/-- It holds exactly at the points whose position is a multiple of 50. -/
theorem hcond10_0 : ∀ t : Fin cfg10.N, cond10_0 (grid10.coords t) ↔ t.val % 50 = 0 :=
  (by decide +kernel : ∀ t : Fin grid10.N, cond10_0 (grid10.coords t) ↔ t.val % 50 = 0)

/-- The second condition: the inner coordinate is 49 (the accumulator is copied out there). -/
abbrev cond10_1 (i : grid10.Coords) : Prop := k10_cond2 i = 1#1
/-- It holds exactly at the points whose position is 49 modulo 50. -/
theorem hcond10_1 : ∀ t : Fin cfg10.N, cond10_1 (grid10.coords t) ↔ t.val % 50 = 49 :=
  (by decide +kernel : ∀ t : Fin grid10.N, cond10_1 (grid10.coords t) ↔ t.val % 50 = 49)

/-! ## Where the windows are idle -/

/-- The two inputs are never idle. -/
theorem liveAt10_0 : ∀ t : Fin cfg10.N, cfg10.idle 0 (grid10.coords t) = false := by decide +kernel
theorem liveAt10_1 : ∀ t : Fin cfg10.N, cfg10.idle 1 (grid10.coords t) = false := by decide +kernel
/-- Where the inner coordinate is 0 the output window is idle and is not written back. -/
theorem idleAt10_2_A : ∀ t : Fin cfg10.N, cond10_0 (grid10.coords t) → ¬cond10_1 (grid10.coords t) → cfg10.idle 2 (grid10.coords t) = true := by decide +kernel
theorem noFlush10_2_A : ∀ t : Fin cfg10.N, cond10_0 (grid10.coords t) → ¬cond10_1 (grid10.coords t) → (cfg10.win 2).flush t = false := by decide +kernel
/-- Where it is strictly between 0 and 49, likewise. -/
theorem idleAt10_2_B : ∀ t : Fin cfg10.N, ¬cond10_0 (grid10.coords t) → ¬cond10_1 (grid10.coords t) → cfg10.idle 2 (grid10.coords t) = true := by decide +kernel
theorem noFlush10_2_B : ∀ t : Fin cfg10.N, ¬cond10_0 (grid10.coords t) → ¬cond10_1 (grid10.coords t) → (cfg10.win 2).flush t = false := by decide +kernel
/-- Where it is 49 the output window is live: the body stores the accumulator into it. -/
theorem liveAt10_2_C : ∀ t : Fin cfg10.N, ¬cond10_0 (grid10.coords t) → cond10_1 (grid10.coords t) → cfg10.idle 2 (grid10.coords t) = false := by decide +kernel

/-! ## The memrefs the body is called with -/

/-- One staging buffer of the output window, through which its contents are stated. -/
abbrev VO10_2 : View sig .tc .vmem S1x1024x128 .f32 := (Memref.whole cc10_stg2_0 : Memref sig .tc .vmem S1x1024x128 .f32).view
/-- Each window's current staging memref at point `t`, and its wholeness. -/
abbrev ms10_0 (t : Fin cfg10.N) : Memref sig .tc .vmem S1000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1000x1 .i32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x1024x128 .f32 := win10_2.stage (cfg10.slots t 2)
abbrev hs10_2 (t : Fin cfg10.N) : (ms10_2 t).IsWhole := hstage10_2 ((cfg10.slots t 2).cast nbuf10_2)
/-- The accumulator: a whole scoped buffer of the call's own, passed beside the windows. -/
abbrev scM10_0 : Memref sig .tc .vmem S1x1024x128 .f32 := Memref.whole cc10_scratch0
/-- The accumulator as a view: what it holds is stated through it. -/
abbrev VS10_0 : View sig .tc .vmem S1x1024x128 .f32 := scM10_0.view

/-- The class invariant with the accumulator as a memref owned at some contents, the other scoped buffers unopened,
    and the generator register at some state. -/
theorem PhiA10_eq (c : Dev nD) :
    (Pipeline.ΦA spec10 c : sProp 𝕄)
      = iprop(iprop(iprop((∃ d, owns (c : Thread nD τ) scM10_0 fullShare d)) ∗ Pipeline.scopedRestBut spec10 c [cc10_scratch0]) ∗ (∃ r, prngReg c r)) := by
  unfold Pipeline.ΦA; rw [scopedRest10_split]; simp only [scM10_0, owns_whole]; try rfl

end Cert.Kernel.Hand

end
-- ==== Proof.KB.F10RunA.lean ====
import proofs.«417336_j40785009443359_3_alg».proof.Proof.KB.F10Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The body where the inner coordinate is 0 (first condition holds, second fails): on whole memrefs — the two
    inputs at their contents `x0`, `x1`, the output window at `xi2` (handed back untouched), the accumulator at
    anything — it runs to the continuation holding the inputs and the output window as they were and the accumulator
    with the pieces `LS0` written (the zeroing store, then the accumulating store over it). -/
noncomputable def kernelRun10_A (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : cond10_0 i) (hc1 : ¬cond10_1 i)
    (x0 : Vec F S1000x128 .f32) (x1 : Vec F S1000x1 .i32) :
    Σ' (L2 : List (View.Piece (Elt F) S1x1024x128 .f32)), { LS0 : List (View.Piece (Elt F) S1x1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc10__pool_kernel i arg2 harg2 arg3 harg3 arg4 harg4 arg5 harg5) K } := by
  refine ⟨[], ?_, fun xi2 E K => ?run⟩
  case run =>
    simp only [cc10__pool_kernel_eq_skeleton]; unfold cc10__pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.F10RunB.lean ====
import proofs.«417336_j40785009443359_3_alg».proof.Proof.KB.F10Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The body where the inner coordinate is strictly between 0 and 49 (both conditions fail): on whole memrefs — the
    two inputs at `x0`, `x1`, the output window at `xi2` (handed back untouched), the accumulator at what the point
    before left, `xs0` — it runs to the continuation holding the inputs and the output window as they were and the
    accumulator with the pieces `LS0` written (the accumulating store). -/
noncomputable def kernelRun10_B (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : ¬cond10_1 i)
    (x0 : Vec F S1000x128 .f32) (x1 : Vec F S1000x1 .i32) (xs0 : Vec F S1x1024x128 .f32) :
    Σ' (L2 : List (View.Piece (Elt F) S1x1024x128 .f32)), { LS0 : List (View.Piece (Elt F) S1x1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc10__pool_kernel i arg2 harg2 arg3 harg3 arg4 harg4 arg5 harg5) K } := by
  refine ⟨[], ?_, fun xi2 E K => ?run⟩
  case run =>
    simp only [cc10__pool_kernel_eq_skeleton]; unfold cc10__pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.F10RunC.lean ====
import proofs.«417336_j40785009443359_3_alg».proof.Proof.KB.F10Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The body where the inner coordinate is 49 (first condition fails, second holds): on whole memrefs — the two inputs
    at `x0`, `x1`, the output window at anything, the accumulator at what the point before left, `xs0` — it runs to
    the continuation holding the inputs as they were, the accumulator with the pieces `LS0` written (the accumulating
    store) and the output window with the pieces `L2` written (the accumulator copied out). -/
noncomputable def kernelRun10_C (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) :
    Σ' (L2 : List (View.Piece (Elt F) S1x1024x128 .f32)), { LS0 : List (View.Piece (Elt F) S1x1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc10__pool_kernel i arg2 harg2 arg3 harg3 arg4 harg4 arg5 harg5) K } := by
  refine ⟨?_, ?_, fun E K => ?run⟩
  case run =>
    simp only [cc10__pool_kernel_eq_skeleton]; unfold cc10__pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.F10.lean ====
import proofs.«417336_j40785009443359_3_alg».proof.Proof.KB.F10RunA
import proofs.«417336_j40785009443359_3_alg».proof.Proof.KB.F10RunB
import proofs.«417336_j40785009443359_3_alg».proof.Proof.KB.F10RunC
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 10 (the pooling call), the frame half at the entry contents `V`

The grid is 2 x 50; the accumulator (a scoped buffer of the call's own) is zeroed where the inner coordinate is 0,
added to at every point, and copied to the output window where the inner coordinate is 49. -/

/-! ## What each case leaves in the output window and in the accumulator -/

/-- Inner coordinate 0: nothing is stored into the output window (idle there, not written back): a placeholder. -/
def out10_A_2 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : cond10_0 i) (hc1 : ¬cond10_1 i)
    (x0 : Vec F S1000x128 .f32) (x1 : Vec F S1000x1 .i32) : Vec F S1x1024x128 .f32 :=
  VO10_2.read (Elt F) (VO10_2.writes (Elt F) VO10_2.junk (kernelRun10_A c i arg2 harg2 arg3 harg3 arg4 harg4 arg5 harg5 hc0 hc1 x0 x1).1)

/-- Inner coordinate 0: the accumulator's pieces cover it (each is the whole block). -/
theorem scover10_A_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : cond10_0 i) (hc1 : ¬cond10_1 i)
    (x0 : Vec F S1000x128 .f32) (x1 : Vec F S1000x1 .i32) (y : S1x1024x128.Idx) :
    ∃ pc ∈ (kernelRun10_A c i arg2 harg2 arg3 harg3 arg4 harg4 arg5 harg5 hc0 hc1 x0 x1).2.1, y ∈ pc.1.set :=
  View.cover_of_tiledL (kernelRun10_A c i arg2 harg2 arg3 harg3 arg4 harg4 arg5 harg5 hc0 hc1 x0 x1).2.1 S1x1024x128.size (by sl_kernel_rfl) y

/-- Inner coordinate 0: what the accumulator holds afterwards — its pieces read back. -/
def sout10_A_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : cond10_0 i) (hc1 : ¬cond10_1 i)
    (x0 : Vec F S1000x128 .f32) (x1 : Vec F S1000x1 .i32) : Vec F S1x1024x128 .f32 :=
  VS10_0.read (Elt F) (VS10_0.writes (Elt F) VS10_0.junk (kernelRun10_A c i arg2 harg2 arg3 harg3 arg4 harg4 arg5 harg5 hc0 hc1 x0 x1).2.1)

/-- Inner coordinate strictly between 0 and 49: nothing is stored into the output window: a placeholder. -/
def out10_B_2 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : ¬cond10_1 i)
    (x0 : Vec F S1000x128 .f32) (x1 : Vec F S1000x1 .i32) (xs0 : Vec F S1x1024x128 .f32) : Vec F S1x1024x128 .f32 :=
  VO10_2.read (Elt F) (VO10_2.writes (Elt F) VO10_2.junk (kernelRun10_B c i arg2 harg2 arg3 harg3 arg4 harg4 arg5 harg5 hc0 hc1 x0 x1 xs0).1)

/-- … the accumulator's piece covers it. -/
theorem scover10_B_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : ¬cond10_1 i)
    (x0 : Vec F S1000x128 .f32) (x1 : Vec F S1000x1 .i32) (xs0 : Vec F S1x1024x128 .f32) (y : S1x1024x128.Idx) :
    ∃ pc ∈ (kernelRun10_B c i arg2 harg2 arg3 harg3 arg4 harg4 arg5 harg5 hc0 hc1 x0 x1 xs0).2.1, y ∈ pc.1.set :=
  View.cover_of_tiledL (kernelRun10_B c i arg2 harg2 arg3 harg3 arg4 harg4 arg5 harg5 hc0 hc1 x0 x1 xs0).2.1 S1x1024x128.size (by sl_kernel_rfl) y

/-- … what the accumulator holds afterwards, over what the point before left in it (`xs0`). -/
def sout10_B_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : ¬cond10_1 i)
    (x0 : Vec F S1000x128 .f32) (x1 : Vec F S1000x1 .i32) (xs0 : Vec F S1x1024x128 .f32) : Vec F S1x1024x128 .f32 :=
  VS10_0.read (Elt F) (VS10_0.writes (Elt F) VS10_0.junk (kernelRun10_B c i arg2 harg2 arg3 harg3 arg4 harg4 arg5 harg5 hc0 hc1 x0 x1 xs0).2.1)

/-- Inner coordinate 49: the output window's piece (the accumulator copied out) covers it. -/
theorem cover10_C_2 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) (y : S1x1024x128.Idx) :
    ∃ pc ∈ (kernelRun10_C c i arg2 harg2 arg3 harg3 arg4 harg4 arg5 harg5 hc0 hc1 x0 x1 xs0).1, y ∈ pc.1.set :=
  View.cover_of_tiledL (kernelRun10_C c i arg2 harg2 arg3 harg3 arg4 harg4 arg5 harg5 hc0 hc1 x0 x1 xs0).1 S1x1024x128.size (by sl_kernel_rfl) y

/-- … what the output window's staging buffer holds afterwards. -/
def out10_C_2 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) : Vec F S1x1024x128 .f32 :=
  VO10_2.read (Elt F) (VO10_2.writes (Elt F) VO10_2.junk (kernelRun10_C c i arg2 harg2 arg3 harg3 arg4 harg4 arg5 harg5 hc0 hc1 x0 x1 xs0).1)

/-- … the accumulator's piece covers it. -/
theorem scover10_C_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) (y : S1x1024x128.Idx) :
    ∃ pc ∈ (kernelRun10_C c i arg2 harg2 arg3 harg3 arg4 harg4 arg5 harg5 hc0 hc1 x0 x1 xs0).2.1, y ∈ pc.1.set :=
  View.cover_of_tiledL (kernelRun10_C c i arg2 harg2 arg3 harg3 arg4 harg4 arg5 harg5 hc0 hc1 x0 x1 xs0).2.1 S1x1024x128.size (by sl_kernel_rfl) y

/-- … what the accumulator holds afterwards. -/
def sout10_C_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) : Vec F S1x1024x128 .f32 :=
  VS10_0.read (Elt F) (VS10_0.writes (Elt F) VS10_0.junk (kernelRun10_C c i arg2 harg2 arg3 harg3 arg4 harg4 arg5 harg5 hc0 hc1 x0 x1 xs0).2.1)

/-! ## What the output window and the accumulator hold after each point -/

/-- After the body at position `n`: (the output window's staging buffer, the accumulator). The case is the one the
    closed forms select at `n`, run at the point's memrefs and input blocks; where the inner coordinate is not 0 the
    accumulator enters at what position `n - 1` left in it. -/
def outsAt10 (c : Dev nD) : (n : ℕ) → n < cfg10.N → Vec F S1x1024x128 .f32 × Vec F S1x1024x128 .f32
  | 0, hn => (out10_A_2 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩), sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩))
  | n + 1, hn =>
    if h0 : (n + 1) % 50 = 0 then
      if h1 : (n + 1) % 50 = 49 then
        False.elim (by omega)
      else
        (out10_A_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩), sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩))
    else
      if h1 : (n + 1) % 50 = 49 then
        (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2, sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2)
      else
        (out10_B_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2)

/-- At a point whose position is a multiple of 50: the zeroing case's contents. -/
theorem outsAt10_A (c : Dev nD) (t : Fin cfg10.N) (h0 : t.val % 50 = 0) (h1 : ¬t.val % 50 = 49) :
    outsAt10 V c t.val t.isLt = (out10_A_2 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t), sout10_A_0 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t)) := by
  obtain ⟨n, hn⟩ := t
  cases n with
  | zero => exact rfl
  | succ n => exact (dif_pos h0).trans ((dif_neg h1).trans rfl)

/-- At a point whose position is neither 0 nor 49 modulo 50: the accumulating case's contents, over what the point
    before left. -/
theorem outsAt10_B (c : Dev nD) (t : Fin cfg10.N) (h0 : ¬t.val % 50 = 0) (h1 : ¬t.val % 50 = 49) :
    outsAt10 V c t.val t.isLt = (out10_B_2 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2, sout10_B_0 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point whose position is 49 modulo 50: the copying-out case's contents, over what the point before left. -/
theorem outsAt10_C (c : Dev nD) (t : Fin cfg10.N) (h0 : ¬t.val % 50 = 0) (h1 : t.val % 50 = 49) :
    outsAt10 V c t.val t.isLt = (out10_C_2 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2, sout10_C_0 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant; afterwards the accumulator owned at what the
    point before left in it, the other scoped buffers unopened, the generator register at some state. -/
def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2)) ∗ Pipeline.scopedRestBut spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(iprop(owns (c : Thread nD τ) scM10_0 fullShare ((outsAt10 V c n hn).2)) ∗ Pipeline.scopedRestBut spec10 c [cc10_scratch0]) ∗ (∃ r, prngReg c r)) := rfl

theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2)) ∗ Pipeline.scopedRestBut spec10 c [cc10_scratch0]) ∗ (∃ r, prngReg c r)) := by
  cases n with
  | zero => exact absurd rfl hz
  | succ n => rfl

/-! ## The proof data -/

/-- The arrays as the region finds them; after the body each input's buffer at its block, the output window's at
    `outsAt10`'s first component; the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point: the inputs' memrefs hold their blocks; the closed forms say which case the point is in; the
    invariant hands the body the accumulator (at what the point before left, or at anything) and takes it back at this
    point's contents; the other scoped buffers, the generator register and what the core owes pass through. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 100 := lt_of_lt_of_eq t.isLt (show cfg10.N = 100 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  by_cases h0 : t.val % 50 = 0
  · by_cases h1 : t.val % 50 = 49
    · exfalso; omega
    · have hc0 : cond10_0 (grid10.coords t) := (hcond10_0 t).mpr h0
      have hc1 : ¬cond10_1 (grid10.coords t) := fun h => h1 ((hcond10_1 t).mp h)
      rw [Dat.leavesExact_idle (dat10 V c) 2 t (idleAt10_2_A t hc0 hc1) (noFlush10_2_A t hc0 hc1)]
      rw [outsAt10_A V c t h0 h1]
      unfold sout10_A_0; (try dsimp only)
      by_cases hz : t.val = 0
      · rw [PhiS10_castSucc V c t, PhiS10_zero V c _ _ hz, PhiA10_eq]
        iintro ⟨⟨⟨HS0, Hr⟩, Hg⟩, Ho, ⟨%d0, H0⟩, ⟨%d1, H1⟩, ⟨%d2, H2⟩⟩
        iapply ((kernelRun10_A c (grid10.coords t) (ms10_0 t) (hs10_0 t) (ms10_1 t) (hs10_1 t) (ms10_2 t) (hs10_2 t) scM10_0 (Memref.isWhole_whole _) hc0 hc1 (iblk10 V c 0 t) (iblk10 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover10_A_0 c (grid10.coords t) (ms10_0 t) (hs10_0 t) (ms10_1 t) (hs10_1 t) (ms10_2 t) (hs10_2 t) scM10_0 (Memref.isWhole_whole _) hc0 hc1 (iblk10 V c 0 t) (iblk10 V c 1 t))
            iexact Hr
          iexact Hg
        isplitl [Ho]; · iexact Ho
        isplitl [H0]; · iexact H0
        isplitl [H1]; · iexact H1
        iexists _; iexact H2
      · rw [PhiS10_castSucc V c t, PhiS10_pos V c _ _ hz]
        iintro ⟨⟨⟨HS0, Hr⟩, Hg⟩, Ho, ⟨%d0, H0⟩, ⟨%d1, H1⟩, ⟨%d2, H2⟩⟩
        iapply ((kernelRun10_A c (grid10.coords t) (ms10_0 t) (hs10_0 t) (ms10_1 t) (hs10_1 t) (ms10_2 t) (hs10_2 t) scM10_0 (Memref.isWhole_whole _) hc0 hc1 (iblk10 V c 0 t) (iblk10 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover10_A_0 c (grid10.coords t) (ms10_0 t) (hs10_0 t) (ms10_1 t) (hs10_1 t) (ms10_2 t) (hs10_2 t) scM10_0 (Memref.isWhole_whole _) hc0 hc1 (iblk10 V c 0 t) (iblk10 V c 1 t))
            iexact Hr
          iexact Hg
        isplitl [Ho]; · iexact Ho
        isplitl [H0]; · iexact H0
        isplitl [H1]; · iexact H1
        iexists _; iexact H2
  · have hc0 : ¬cond10_0 (grid10.coords t) := fun h => h0 ((hcond10_0 t).mp h)
    have hz : t.val ≠ 0 := fun e => h0 (by rw [e])
    by_cases h1 : t.val % 50 = 49
    · have hc1 : cond10_1 (grid10.coords t) := (hcond10_1 t).mpr h1
      rw [show (dat10 V c).leavesExact 2 t = owns (c : Thread nD τ) (ms10_2 t) fullShare ((dat10 V c).after 2 t) from by
        unfold Dat.leavesExact; rw [liveAt10_2_C t hc0 hc1], after10_2]
      rw [outsAt10_C V c t h0 h1]
      unfold out10_C_2 sout10_C_0; (try dsimp only)
      rw [PhiS10_castSucc V c t, PhiS10_pos V c _ _ hz]
      iintro ⟨⟨⟨HS0, Hr⟩, Hg⟩, Ho, ⟨%d0, H0⟩, ⟨%d1, H1⟩, ⟨%d2, H2⟩⟩
      iapply ((kernelRun10_C c (grid10.coords t) (ms10_0 t) (hs10_0 t) (ms10_1 t) (hs10_1 t) (ms10_2 t) (hs10_2 t) scM10_0 (Memref.isWhole_whole _) hc0 hc1 (iblk10 V c 0 t) (iblk10 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover10_C_0 c (grid10.coords t) (ms10_0 t) (hs10_0 t) (ms10_1 t) (hs10_1 t) (ms10_2 t) (hs10_2 t) scM10_0 (Memref.isWhole_whole _) hc0 hc1 (iblk10 V c 0 t) (iblk10 V c 1 t) _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_C_2 c (grid10.coords t) (ms10_0 t) (hs10_0 t) (ms10_1 t) (hs10_1 t) (ms10_2 t) (hs10_2 t) scM10_0 (Memref.isWhole_whole _) hc0 hc1 (iblk10 V c 0 t) (iblk10 V c 1 t) _)
    · have hc1 : ¬cond10_1 (grid10.coords t) := fun h => h1 ((hcond10_1 t).mp h)
      rw [Dat.leavesExact_idle (dat10 V c) 2 t (idleAt10_2_B t hc0 hc1) (noFlush10_2_B t hc0 hc1)]
      rw [outsAt10_B V c t h0 h1]
      unfold sout10_B_0; (try dsimp only)
      rw [PhiS10_castSucc V c t, PhiS10_pos V c _ _ hz]
      iintro ⟨⟨⟨HS0, Hr⟩, Hg⟩, Ho, ⟨%d0, H0⟩, ⟨%d1, H1⟩, ⟨%d2, H2⟩⟩
      iapply ((kernelRun10_B c (grid10.coords t) (ms10_0 t) (hs10_0 t) (ms10_1 t) (hs10_1 t) (ms10_2 t) (hs10_2 t) scM10_0 (Memref.isWhole_whole _) hc0 hc1 (iblk10 V c 0 t) (iblk10 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover10_B_0 c (grid10.coords t) (ms10_0 t) (hs10_0 t) (ms10_1 t) (hs10_1 t) (ms10_2 t) (hs10_2 t) scM10_0 (Memref.isWhole_whole _) hc0 hc1 (iblk10 V c 0 t) (iblk10 V c 1 t) _)
          iexact Hr
        iexact Hg
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : (Pipeline.ΦA spec10 c : sProp 𝕄) ⊢ (dat10 V c).Φ 0 := by
  rw [show (dat10 V c).Φ 0 = PhiS10 V c 0 (Nat.zero_le _) from rfl, PhiS10_zero V c 0 _ rfl]
  try exact Idealize.SL.BI.Entails.refl _

/-- After any point the invariant gives the class invariant back: the accumulator's named contents are forgotten. -/
theorem Phi_out10 (c : Dev nD) (t : Fin (cfg10.N + 1)) (ht : t.val ≠ 0) : (dat10 V c).Φ t ⊢ (Pipeline.ΦA spec10 c : sProp 𝕄) := by
  rw [show (dat10 V c).Φ t = PhiS10 V c t.val (Nat.le_of_lt_succ t.isLt) from rfl, PhiS10_pos V c _ _ ht, PhiA10_eq]
  iintro ⟨⟨HS0, Hr⟩, Hg⟩
  isplitl [HS0 Hr]
  · isplitl [HS0]
    · iexists _; iexact HS0
    iexact Hr
  iexact Hg

/-- The same after the last point. -/
theorem hout10 (c : Dev nD) : (dat10 V c).Φ (Fin.last cfg10.N) ⊢ (Pipeline.ΦA spec10 c : sProp 𝕄) :=
  Phi_out10 V c _ (by rw [Fin.val_last]; have : cfg10.N = 100 := N_10; omega)

end Cert.Kernel.Hand

end
-- ==== Proof.KB.Fold.lean ====
/-
  The buffers' contents at every boundary of the kernel program's @main, as a fold from the launch memory: a stretch of
  host operations applies them; a region leaves each of its arrays at what its write-backs make of it and every other
  buffer alone. And the family of the eleven regions' proof data, each at its region's entry contents.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.F0
import proofs.«417336_j40785009443359_3_alg».proof.Proof.KB.F1
import proofs.«417336_j40785009443359_3_alg».proof.Proof.KB.F2
import proofs.«417336_j40785009443359_3_alg».proof.Proof.KB.F3
import proofs.«417336_j40785009443359_3_alg».proof.Proof.KB.F4
import proofs.«417336_j40785009443359_3_alg».proof.Proof.KB.F5
import proofs.«417336_j40785009443359_3_alg».proof.Proof.KB.F6
import proofs.«417336_j40785009443359_3_alg».proof.Proof.KB.F7
import proofs.«417336_j40785009443359_3_alg».proof.Proof.KB.F8
import proofs.«417336_j40785009443359_3_alg».proof.Proof.KB.F9
import proofs.«417336_j40785009443359_3_alg».proof.Proof.KB.F10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers at launch. -/
abbrev W0 : Dev nD → Valuation τ sig (Elt F) := fun c b => (s₀ m ρ).mem ((c : Dev nD), b)

/-- After the host stretch before region 0 (the region's entry contents), -/
abbrev W1 : Dev nD → Valuation τ sig (Elt F) := fun c => StableHlo.after hostOps0 (W0 m ρ c)
/-- the same read at the TensorCore's references (what region 0's proof data take). -/
abbrev Wr1 : (c : Dev nD) → (b : Ref sig .tc) → Buf (Elt F) ((c : Thread nD τ).loc b) := fun c b => W1 m ρ c b
/-- A reference the stretch does not write keeps its contents. -/
theorem W1_of (c : Dev nD) (r : Ref sig .tc) (h : r ∉ Gen.hostOps0_W) :
    W1 m ρ c (Proc.devRef .tc r) = W0 m ρ c (Proc.devRef .tc r) :=
  StableHlo.after_of_writes_sub hostOps0 _ Gen.hostOps0_writes h
/-- At region 0's exit: its arrays at what its write-backs leave (an input as entered, an output the fold of its blocks),
    every other buffer as entered. -/
def W2 (c : Dev nD) : Valuation τ sig (Elt F) :=
  Pipeline.withArrays spec0 c (W1 m ρ c) fun w => (dat0 (Wr1 m ρ) c).arrAt w cfg0.N
theorem W2_arr (c : Dev nD) (w : Fin cfg0.W) :
    W2 m ρ c (Proc.devRef .tc (Pipeline.arrRef spec0 w)) = (dat0 (Wr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Wr2 : (c : Dev nD) → (b : Ref sig .tc) → Buf (Elt F) ((c : Thread nD τ).loc b) := fun c b => W2 m ρ c b
theorem hF0 (c : Dev nD) (w : Fin cfg0.W) : (dat0 (Wr1 m ρ) c).arrAt w cfg0.N = Wr2 m ρ c (Pipeline.arrRef spec0 w) :=
  (W2_arr m ρ c w).symm
theorem hrest0 (c : Dev nD) : ∀ b, b ∉ Finset.univ.image (Pipeline.arrRef spec0) → Wr2 m ρ c b = Wr1 m ρ c b :=
  fun b hb => W2_of_ne m ρ c b fun w e => hb (Finset.mem_image.mpr ⟨w, Finset.mem_univ _, e⟩)

/-- After the host stretch before region 1 (the region's entry contents), -/
abbrev W3 : Dev nD → Valuation τ sig (Elt F) := fun c => StableHlo.after hostOps1 (W2 m ρ c)
/-- the same read at the TensorCore's references (what region 1's proof data take). -/
abbrev Wr3 : (c : Dev nD) → (b : Ref sig .tc) → Buf (Elt F) ((c : Thread nD τ).loc b) := fun c b => W3 m ρ c b
/-- A reference the stretch does not write keeps its contents. -/
theorem W3_of (c : Dev nD) (r : Ref sig .tc) (h : r ∉ Gen.hostOps1_W) :
    W3 m ρ c (Proc.devRef .tc r) = W2 m ρ c (Proc.devRef .tc r) :=
  StableHlo.after_of_writes_sub hostOps1 _ Gen.hostOps1_writes h
/-- At region 1's exit: its arrays at what its write-backs leave (an input as entered, an output the fold of its blocks),
    every other buffer as entered. -/
def W4 (c : Dev nD) : Valuation τ sig (Elt F) :=
  Pipeline.withArrays spec1 c (W3 m ρ c) fun w => (dat1 (Wr3 m ρ) c).arrAt w cfg1.N
theorem W4_arr (c : Dev nD) (w : Fin cfg1.W) :
    W4 m ρ c (Proc.devRef .tc (Pipeline.arrRef spec1 w)) = (dat1 (Wr3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Wr4 : (c : Dev nD) → (b : Ref sig .tc) → Buf (Elt F) ((c : Thread nD τ).loc b) := fun c b => W4 m ρ c b
theorem hF1 (c : Dev nD) (w : Fin cfg1.W) : (dat1 (Wr3 m ρ) c).arrAt w cfg1.N = Wr4 m ρ c (Pipeline.arrRef spec1 w) :=
  (W4_arr m ρ c w).symm
theorem hrest1 (c : Dev nD) : ∀ b, b ∉ Finset.univ.image (Pipeline.arrRef spec1) → Wr4 m ρ c b = Wr3 m ρ c b :=
  fun b hb => W4_of_ne m ρ c b fun w e => hb (Finset.mem_image.mpr ⟨w, Finset.mem_univ _, e⟩)

/-- After the host stretch before region 2 (the region's entry contents), -/
abbrev W5 : Dev nD → Valuation τ sig (Elt F) := fun c => StableHlo.after hostOps2 (W4 m ρ c)
/-- the same read at the TensorCore's references (what region 2's proof data take). -/
abbrev Wr5 : (c : Dev nD) → (b : Ref sig .tc) → Buf (Elt F) ((c : Thread nD τ).loc b) := fun c b => W5 m ρ c b
/-- A reference the stretch does not write keeps its contents. -/
theorem W5_of (c : Dev nD) (r : Ref sig .tc) (h : r ∉ Gen.hostOps2_W) :
    W5 m ρ c (Proc.devRef .tc r) = W4 m ρ c (Proc.devRef .tc r) :=
  StableHlo.after_of_writes_sub hostOps2 _ Gen.hostOps2_writes h
/-- At region 2's exit: its arrays at what its write-backs leave (an input as entered, an output the fold of its blocks),
    every other buffer as entered. -/
def W6 (c : Dev nD) : Valuation τ sig (Elt F) :=
  Pipeline.withArrays spec2 c (W5 m ρ c) fun w => (dat2 (Wr5 m ρ) c).arrAt w cfg2.N
theorem W6_arr (c : Dev nD) (w : Fin cfg2.W) :
    W6 m ρ c (Proc.devRef .tc (Pipeline.arrRef spec2 w)) = (dat2 (Wr5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Wr6 : (c : Dev nD) → (b : Ref sig .tc) → Buf (Elt F) ((c : Thread nD τ).loc b) := fun c b => W6 m ρ c b
theorem hF2 (c : Dev nD) (w : Fin cfg2.W) : (dat2 (Wr5 m ρ) c).arrAt w cfg2.N = Wr6 m ρ c (Pipeline.arrRef spec2 w) :=
  (W6_arr m ρ c w).symm
theorem hrest2 (c : Dev nD) : ∀ b, b ∉ Finset.univ.image (Pipeline.arrRef spec2) → Wr6 m ρ c b = Wr5 m ρ c b :=
  fun b hb => W6_of_ne m ρ c b fun w e => hb (Finset.mem_image.mpr ⟨w, Finset.mem_univ _, e⟩)

/-- After the host stretch before region 3 (the region's entry contents), -/
abbrev W7 : Dev nD → Valuation τ sig (Elt F) := fun c => StableHlo.after hostOps3 (W6 m ρ c)
/-- the same read at the TensorCore's references (what region 3's proof data take). -/
abbrev Wr7 : (c : Dev nD) → (b : Ref sig .tc) → Buf (Elt F) ((c : Thread nD τ).loc b) := fun c b => W7 m ρ c b
/-- A reference the stretch does not write keeps its contents. -/
theorem W7_of (c : Dev nD) (r : Ref sig .tc) (h : r ∉ Gen.hostOps3_W) :
    W7 m ρ c (Proc.devRef .tc r) = W6 m ρ c (Proc.devRef .tc r) :=
  StableHlo.after_of_writes_sub hostOps3 _ Gen.hostOps3_writes h
/-- At region 3's exit: its arrays at what its write-backs leave (an input as entered, an output the fold of its blocks),
    every other buffer as entered. -/
def W8 (c : Dev nD) : Valuation τ sig (Elt F) :=
  Pipeline.withArrays spec3 c (W7 m ρ c) fun w => (dat3 (Wr7 m ρ) c).arrAt w cfg3.N
theorem W8_arr (c : Dev nD) (w : Fin cfg3.W) :
    W8 m ρ c (Proc.devRef .tc (Pipeline.arrRef spec3 w)) = (dat3 (Wr7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Wr8 : (c : Dev nD) → (b : Ref sig .tc) → Buf (Elt F) ((c : Thread nD τ).loc b) := fun c b => W8 m ρ c b
theorem hF3 (c : Dev nD) (w : Fin cfg3.W) : (dat3 (Wr7 m ρ) c).arrAt w cfg3.N = Wr8 m ρ c (Pipeline.arrRef spec3 w) :=
  (W8_arr m ρ c w).symm
theorem hrest3 (c : Dev nD) : ∀ b, b ∉ Finset.univ.image (Pipeline.arrRef spec3) → Wr8 m ρ c b = Wr7 m ρ c b :=
  fun b hb => W8_of_ne m ρ c b fun w e => hb (Finset.mem_image.mpr ⟨w, Finset.mem_univ _, e⟩)

/-- After the host stretch before region 4 (the region's entry contents), -/
abbrev W9 : Dev nD → Valuation τ sig (Elt F) := fun c => StableHlo.after hostOps4 (W8 m ρ c)
/-- the same read at the TensorCore's references (what region 4's proof data take). -/
abbrev Wr9 : (c : Dev nD) → (b : Ref sig .tc) → Buf (Elt F) ((c : Thread nD τ).loc b) := fun c b => W9 m ρ c b
/-- A reference the stretch does not write keeps its contents. -/
theorem W9_of (c : Dev nD) (r : Ref sig .tc) (h : r ∉ Gen.hostOps4_W) :
    W9 m ρ c (Proc.devRef .tc r) = W8 m ρ c (Proc.devRef .tc r) :=
  StableHlo.after_of_writes_sub hostOps4 _ Gen.hostOps4_writes h
/-- At region 4's exit: its arrays at what its write-backs leave (an input as entered, an output the fold of its blocks),
    every other buffer as entered. -/
def W10 (c : Dev nD) : Valuation τ sig (Elt F) :=
  Pipeline.withArrays spec4 c (W9 m ρ c) fun w => (dat4 (Wr9 m ρ) c).arrAt w cfg4.N
theorem W10_arr (c : Dev nD) (w : Fin cfg4.W) :
    W10 m ρ c (Proc.devRef .tc (Pipeline.arrRef spec4 w)) = (dat4 (Wr9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev Wr10 : (c : Dev nD) → (b : Ref sig .tc) → Buf (Elt F) ((c : Thread nD τ).loc b) := fun c b => W10 m ρ c b
theorem hF4 (c : Dev nD) (w : Fin cfg4.W) : (dat4 (Wr9 m ρ) c).arrAt w cfg4.N = Wr10 m ρ c (Pipeline.arrRef spec4 w) :=
  (W10_arr m ρ c w).symm
theorem hrest4 (c : Dev nD) : ∀ b, b ∉ Finset.univ.image (Pipeline.arrRef spec4) → Wr10 m ρ c b = Wr9 m ρ c b :=
  fun b hb => W10_of_ne m ρ c b fun w e => hb (Finset.mem_image.mpr ⟨w, Finset.mem_univ _, e⟩)

/-- After the host stretch before region 5 (the region's entry contents), -/
abbrev W11 : Dev nD → Valuation τ sig (Elt F) := fun c => StableHlo.after hostOps5 (W10 m ρ c)
/-- the same read at the TensorCore's references (what region 5's proof data take). -/
abbrev Wr11 : (c : Dev nD) → (b : Ref sig .tc) → Buf (Elt F) ((c : Thread nD τ).loc b) := fun c b => W11 m ρ c b
/-- A reference the stretch does not write keeps its contents. -/
theorem W11_of (c : Dev nD) (r : Ref sig .tc) (h : r ∉ Gen.hostOps5_W) :
    W11 m ρ c (Proc.devRef .tc r) = W10 m ρ c (Proc.devRef .tc r) :=
  StableHlo.after_of_writes_sub hostOps5 _ Gen.hostOps5_writes h
/-- At region 5's exit: its arrays at what its write-backs leave (an input as entered, an output the fold of its blocks),
    every other buffer as entered. -/
def W12 (c : Dev nD) : Valuation τ sig (Elt F) :=
  Pipeline.withArrays spec5 c (W11 m ρ c) fun w => (dat5 (Wr11 m ρ) c).arrAt w cfg5.N
theorem W12_arr (c : Dev nD) (w : Fin cfg5.W) :
    W12 m ρ c (Proc.devRef .tc (Pipeline.arrRef spec5 w)) = (dat5 (Wr11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev Wr12 : (c : Dev nD) → (b : Ref sig .tc) → Buf (Elt F) ((c : Thread nD τ).loc b) := fun c b => W12 m ρ c b
theorem hF5 (c : Dev nD) (w : Fin cfg5.W) : (dat5 (Wr11 m ρ) c).arrAt w cfg5.N = Wr12 m ρ c (Pipeline.arrRef spec5 w) :=
  (W12_arr m ρ c w).symm
theorem hrest5 (c : Dev nD) : ∀ b, b ∉ Finset.univ.image (Pipeline.arrRef spec5) → Wr12 m ρ c b = Wr11 m ρ c b :=
  fun b hb => W12_of_ne m ρ c b fun w e => hb (Finset.mem_image.mpr ⟨w, Finset.mem_univ _, e⟩)

/-- After the host stretch before region 6 (the region's entry contents), -/
abbrev W13 : Dev nD → Valuation τ sig (Elt F) := fun c => StableHlo.after hostOps6 (W12 m ρ c)
/-- the same read at the TensorCore's references (what region 6's proof data take). -/
abbrev Wr13 : (c : Dev nD) → (b : Ref sig .tc) → Buf (Elt F) ((c : Thread nD τ).loc b) := fun c b => W13 m ρ c b
/-- A reference the stretch does not write keeps its contents. -/
theorem W13_of (c : Dev nD) (r : Ref sig .tc) (h : r ∉ Gen.hostOps6_W) :
    W13 m ρ c (Proc.devRef .tc r) = W12 m ρ c (Proc.devRef .tc r) :=
  StableHlo.after_of_writes_sub hostOps6 _ Gen.hostOps6_writes h
/-- At region 6's exit: its arrays at what its write-backs leave (an input as entered, an output the fold of its blocks),
    every other buffer as entered. -/
def W14 (c : Dev nD) : Valuation τ sig (Elt F) :=
  Pipeline.withArrays spec6 c (W13 m ρ c) fun w => (dat6 (Wr13 m ρ) c).arrAt w cfg6.N
theorem W14_arr (c : Dev nD) (w : Fin cfg6.W) :
    W14 m ρ c (Proc.devRef .tc (Pipeline.arrRef spec6 w)) = (dat6 (Wr13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev Wr14 : (c : Dev nD) → (b : Ref sig .tc) → Buf (Elt F) ((c : Thread nD τ).loc b) := fun c b => W14 m ρ c b
theorem hF6 (c : Dev nD) (w : Fin cfg6.W) : (dat6 (Wr13 m ρ) c).arrAt w cfg6.N = Wr14 m ρ c (Pipeline.arrRef spec6 w) :=
  (W14_arr m ρ c w).symm
theorem hrest6 (c : Dev nD) : ∀ b, b ∉ Finset.univ.image (Pipeline.arrRef spec6) → Wr14 m ρ c b = Wr13 m ρ c b :=
  fun b hb => W14_of_ne m ρ c b fun w e => hb (Finset.mem_image.mpr ⟨w, Finset.mem_univ _, e⟩)

/-- After the host stretch before region 7 (the region's entry contents), -/
abbrev W15 : Dev nD → Valuation τ sig (Elt F) := fun c => StableHlo.after hostOps7 (W14 m ρ c)
/-- the same read at the TensorCore's references (what region 7's proof data take). -/
abbrev Wr15 : (c : Dev nD) → (b : Ref sig .tc) → Buf (Elt F) ((c : Thread nD τ).loc b) := fun c b => W15 m ρ c b
/-- A reference the stretch does not write keeps its contents. -/
theorem W15_of (c : Dev nD) (r : Ref sig .tc) (h : r ∉ Gen.hostOps7_W) :
    W15 m ρ c (Proc.devRef .tc r) = W14 m ρ c (Proc.devRef .tc r) :=
  StableHlo.after_of_writes_sub hostOps7 _ Gen.hostOps7_writes h
/-- At region 7's exit: its arrays at what its write-backs leave (an input as entered, an output the fold of its blocks),
    every other buffer as entered. -/
def W16 (c : Dev nD) : Valuation τ sig (Elt F) :=
  Pipeline.withArrays spec7 c (W15 m ρ c) fun w => (dat7 (Wr15 m ρ) c).arrAt w cfg7.N
theorem W16_arr (c : Dev nD) (w : Fin cfg7.W) :
    W16 m ρ c (Proc.devRef .tc (Pipeline.arrRef spec7 w)) = (dat7 (Wr15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev Wr16 : (c : Dev nD) → (b : Ref sig .tc) → Buf (Elt F) ((c : Thread nD τ).loc b) := fun c b => W16 m ρ c b
theorem hF7 (c : Dev nD) (w : Fin cfg7.W) : (dat7 (Wr15 m ρ) c).arrAt w cfg7.N = Wr16 m ρ c (Pipeline.arrRef spec7 w) :=
  (W16_arr m ρ c w).symm
theorem hrest7 (c : Dev nD) : ∀ b, b ∉ Finset.univ.image (Pipeline.arrRef spec7) → Wr16 m ρ c b = Wr15 m ρ c b :=
  fun b hb => W16_of_ne m ρ c b fun w e => hb (Finset.mem_image.mpr ⟨w, Finset.mem_univ _, e⟩)

/-- After the host stretch before region 8 (the region's entry contents), -/
abbrev W17 : Dev nD → Valuation τ sig (Elt F) := fun c => StableHlo.after hostOps8 (W16 m ρ c)
/-- the same read at the TensorCore's references (what region 8's proof data take). -/
abbrev Wr17 : (c : Dev nD) → (b : Ref sig .tc) → Buf (Elt F) ((c : Thread nD τ).loc b) := fun c b => W17 m ρ c b
/-- A reference the stretch does not write keeps its contents. -/
theorem W17_of (c : Dev nD) (r : Ref sig .tc) (h : r ∉ Gen.hostOps8_W) :
    W17 m ρ c (Proc.devRef .tc r) = W16 m ρ c (Proc.devRef .tc r) :=
  StableHlo.after_of_writes_sub hostOps8 _ Gen.hostOps8_writes h
/-- At region 8's exit: its arrays at what its write-backs leave (an input as entered, an output the fold of its blocks),
    every other buffer as entered. -/
def W18 (c : Dev nD) : Valuation τ sig (Elt F) :=
  Pipeline.withArrays spec8 c (W17 m ρ c) fun w => (dat8 (Wr17 m ρ) c).arrAt w cfg8.N
theorem W18_arr (c : Dev nD) (w : Fin cfg8.W) :
    W18 m ρ c (Proc.devRef .tc (Pipeline.arrRef spec8 w)) = (dat8 (Wr17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev Wr18 : (c : Dev nD) → (b : Ref sig .tc) → Buf (Elt F) ((c : Thread nD τ).loc b) := fun c b => W18 m ρ c b
theorem hF8 (c : Dev nD) (w : Fin cfg8.W) : (dat8 (Wr17 m ρ) c).arrAt w cfg8.N = Wr18 m ρ c (Pipeline.arrRef spec8 w) :=
  (W18_arr m ρ c w).symm
theorem hrest8 (c : Dev nD) : ∀ b, b ∉ Finset.univ.image (Pipeline.arrRef spec8) → Wr18 m ρ c b = Wr17 m ρ c b :=
  fun b hb => W18_of_ne m ρ c b fun w e => hb (Finset.mem_image.mpr ⟨w, Finset.mem_univ _, e⟩)

/-- After the host stretch before region 9 (the region's entry contents), -/
abbrev W19 : Dev nD → Valuation τ sig (Elt F) := fun c => StableHlo.after hostOps9 (W18 m ρ c)
/-- the same read at the TensorCore's references (what region 9's proof data take). -/
abbrev Wr19 : (c : Dev nD) → (b : Ref sig .tc) → Buf (Elt F) ((c : Thread nD τ).loc b) := fun c b => W19 m ρ c b
/-- A reference the stretch does not write keeps its contents. -/
theorem W19_of (c : Dev nD) (r : Ref sig .tc) (h : r ∉ Gen.hostOps9_W) :
    W19 m ρ c (Proc.devRef .tc r) = W18 m ρ c (Proc.devRef .tc r) :=
  StableHlo.after_of_writes_sub hostOps9 _ Gen.hostOps9_writes h
/-- At region 9's exit: its arrays at what its write-backs leave (an input as entered, an output the fold of its blocks),
    every other buffer as entered. -/
def W20 (c : Dev nD) : Valuation τ sig (Elt F) :=
  Pipeline.withArrays spec9 c (W19 m ρ c) fun w => (dat9 (Wr19 m ρ) c).arrAt w cfg9.N
theorem W20_arr (c : Dev nD) (w : Fin cfg9.W) :
    W20 m ρ c (Proc.devRef .tc (Pipeline.arrRef spec9 w)) = (dat9 (Wr19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev Wr20 : (c : Dev nD) → (b : Ref sig .tc) → Buf (Elt F) ((c : Thread nD τ).loc b) := fun c b => W20 m ρ c b
theorem hF9 (c : Dev nD) (w : Fin cfg9.W) : (dat9 (Wr19 m ρ) c).arrAt w cfg9.N = Wr20 m ρ c (Pipeline.arrRef spec9 w) :=
  (W20_arr m ρ c w).symm
theorem hrest9 (c : Dev nD) : ∀ b, b ∉ Finset.univ.image (Pipeline.arrRef spec9) → Wr20 m ρ c b = Wr19 m ρ c b :=
  fun b hb => W20_of_ne m ρ c b fun w e => hb (Finset.mem_image.mpr ⟨w, Finset.mem_univ _, e⟩)

/-- After the host stretch before region 10 (the region's entry contents), -/
abbrev W21 : Dev nD → Valuation τ sig (Elt F) := fun c => StableHlo.after hostOps10 (W20 m ρ c)
/-- the same read at the TensorCore's references (what region 10's proof data take). -/
abbrev Wr21 : (c : Dev nD) → (b : Ref sig .tc) → Buf (Elt F) ((c : Thread nD τ).loc b) := fun c b => W21 m ρ c b
/-- A reference the stretch does not write keeps its contents. -/
theorem W21_of (c : Dev nD) (r : Ref sig .tc) (h : r ∉ Gen.hostOps10_W) :
    W21 m ρ c (Proc.devRef .tc r) = W20 m ρ c (Proc.devRef .tc r) :=
  StableHlo.after_of_writes_sub hostOps10 _ Gen.hostOps10_writes h
/-- At region 10's exit: its arrays at what its write-backs leave (an input as entered, an output the fold of its blocks),
    every other buffer as entered. -/
def W22 (c : Dev nD) : Valuation τ sig (Elt F) :=
  Pipeline.withArrays spec10 c (W21 m ρ c) fun w => (dat10 (Wr21 m ρ) c).arrAt w cfg10.N
theorem W22_arr (c : Dev nD) (w : Fin cfg10.W) :
    W22 m ρ c (Proc.devRef .tc (Pipeline.arrRef spec10 w)) = (dat10 (Wr21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev Wr22 : (c : Dev nD) → (b : Ref sig .tc) → Buf (Elt F) ((c : Thread nD τ).loc b) := fun c b => W22 m ρ c b
theorem hF10 (c : Dev nD) (w : Fin cfg10.W) : (dat10 (Wr21 m ρ) c).arrAt w cfg10.N = Wr22 m ρ c (Pipeline.arrRef spec10 w) :=
  (W22_arr m ρ c w).symm
theorem hrest10 (c : Dev nD) : ∀ b, b ∉ Finset.univ.image (Pipeline.arrRef spec10) → Wr22 m ρ c b = Wr21 m ρ c b :=
  fun b hb => W22_of_ne m ρ c b fun w e => hb (Finset.mem_image.mpr ⟨w, Finset.mem_univ _, e⟩)

/-- After the last host stretch: what @main returns with. -/
abbrev W23 : Dev nD → Valuation τ sig (Elt F) := fun c => StableHlo.after hostOps11 (W22 m ρ c)
theorem W23_of (c : Dev nD) (r : Ref sig .tc) (h : r ∉ Gen.hostOps11_W) :
    W23 m ρ c (Proc.devRef .tc r) = W22 m ρ c (Proc.devRef .tc r) :=
  StableHlo.after_of_writes_sub hostOps11 _ Gen.hostOps11_writes h

/-! ## The proof data family and what rides beside the buffers -/

/-- No pallas_call has a prefetched table. -/
abbrev admH : (p : Fin 11) → (pcfgs (F := F) p).Adm := fun p => (cfgs p).toPCfg_adm
/-- Every region's proof data, each at its region's entry contents: a literal match on the region's number. -/
def pdats : (p : Fin 11) → (c : Dev nD) → Dat τ (Elt F) Unit ℕ (UR sig nD τ) ℕ (Pipeline.pin (pcfgs (F := F)) admH p) c
  | ⟨0, _⟩ => fun c => dat0 (Wr1 m ρ) c
  | ⟨1, _⟩ => fun c => dat1 (Wr3 m ρ) c
  | ⟨2, _⟩ => fun c => dat2 (Wr5 m ρ) c
  | ⟨3, _⟩ => fun c => dat3 (Wr7 m ρ) c
  | ⟨4, _⟩ => fun c => dat4 (Wr9 m ρ) c
  | ⟨5, _⟩ => fun c => dat5 (Wr11 m ρ) c
  | ⟨6, _⟩ => fun c => dat6 (Wr13 m ρ) c
  | ⟨7, _⟩ => fun c => dat7 (Wr15 m ρ) c
  | ⟨8, _⟩ => fun c => dat8 (Wr17 m ρ) c
  | ⟨9, _⟩ => fun c => dat9 (Wr19 m ρ) c
  | ⟨10, _⟩ => fun c => dat10 (Wr21 m ρ) c
abbrev 𝒱H : Variants := Variants.none
/-- No core owes another anything: no level is assigned. -/
abbrev LH : GSem nD τ sig → Finset Unit := fun _ => ∅
abbrev lvH : GSem nD τ sig → Unit → ℕ := fun _ _ => 0
/-- Beside the buffers, through every segment: the core's generator register at some state, and the core owing nothing. -/
abbrev RH (c : Dev nD) : sProp 𝕄 := iprop((∃ r, prngReg c r) ∗ ∃ W, owes (c : Thread nD τ) (0 : CellTallies nD τ sig Unit) W)
/-- A stretch of host operations as a segment, from given contents. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev TlastH (c : Dev nD) : sProp 𝕄 := iprop(StableHlo.held (c : Thread nD τ) (Pipeline.ucRefs τ sig) (W23 m ρ c) ∗ ∃ r, prngReg c r)

end Cert.Kernel.Hand

end
-- ==== Proof.KB.Args.lean ====
/-
  Every argument array reaches the end of the kernel program's @main as launched: no host stretch writes one, and a region
  either does not touch it or stages it as an input, which its write-backs leave alone.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W23_main_arg0 (c : Dev nD) : W23 m ρ c (Proc.devRef .tc main_arg0) = m ((c : Thread nD τ).loc main_arg0) :=
  (W23_of m ρ c main_arg0 (by decide)).trans <|
  (W22_of_ne m ρ c main_arg0 (by decide)).trans <|
  (W21_of m ρ c main_arg0 (by decide)).trans <|
  (W20_of_ne m ρ c main_arg0 (by decide)).trans <|
  (W19_of m ρ c main_arg0 (by decide)).trans <|
  (W18_of_ne m ρ c main_arg0 (by decide)).trans <|
  (W17_of m ρ c main_arg0 (by decide)).trans <|
  (W16_of_ne m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  ((W2_arr m ρ c 0).trans (((dat0 (Wr1 m ρ) c).arrAt_in 0 rfl _).trans (A_eq0 (Wr1 m ρ) c 0))).trans <|
  (W1_of m ρ c main_arg0 (by decide)).trans <|
  rfl

theorem W23_main_arg1 (c : Dev nD) : W23 m ρ c (Proc.devRef .tc main_arg1) = m ((c : Thread nD τ).loc main_arg1) :=
  (W23_of m ρ c main_arg1 (by decide)).trans <|
  (W22_of_ne m ρ c main_arg1 (by decide)).trans <|
  (W21_of m ρ c main_arg1 (by decide)).trans <|
  (W20_of_ne m ρ c main_arg1 (by decide)).trans <|
  (W19_of m ρ c main_arg1 (by decide)).trans <|
  (W18_of_ne m ρ c main_arg1 (by decide)).trans <|
  (W17_of m ρ c main_arg1 (by decide)).trans <|
  (W16_of_ne m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <|
  rfl

theorem W23_main_arg2 (c : Dev nD) : W23 m ρ c (Proc.devRef .tc main_arg2) = m ((c : Thread nD τ).loc main_arg2) :=
  (W23_of m ρ c main_arg2 (by decide)).trans <|
  (W22_of_ne m ρ c main_arg2 (by decide)).trans <|
  (W21_of m ρ c main_arg2 (by decide)).trans <|
  (W20_of_ne m ρ c main_arg2 (by decide)).trans <|
  (W19_of m ρ c main_arg2 (by decide)).trans <|
  (W18_of_ne m ρ c main_arg2 (by decide)).trans <|
  (W17_of m ρ c main_arg2 (by decide)).trans <|
  (W16_of_ne m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <|
  rfl

theorem W23_main_arg3 (c : Dev nD) : W23 m ρ c (Proc.devRef .tc main_arg3) = m ((c : Thread nD τ).loc main_arg3) :=
  (W23_of m ρ c main_arg3 (by decide)).trans <|
  (W22_of_ne m ρ c main_arg3 (by decide)).trans <|
  (W21_of m ρ c main_arg3 (by decide)).trans <|
  (W20_of_ne m ρ c main_arg3 (by decide)).trans <|
  (W19_of m ρ c main_arg3 (by decide)).trans <|
  (W18_of_ne m ρ c main_arg3 (by decide)).trans <|
  (W17_of m ρ c main_arg3 (by decide)).trans <|
  (W16_of_ne m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans <|
  rfl

theorem W23_main_arg4 (c : Dev nD) : W23 m ρ c (Proc.devRef .tc main_arg4) = m ((c : Thread nD τ).loc main_arg4) :=
  (W23_of m ρ c main_arg4 (by decide)).trans <|
  (W22_of_ne m ρ c main_arg4 (by decide)).trans <|
  (W21_of m ρ c main_arg4 (by decide)).trans <|
  (W20_of_ne m ρ c main_arg4 (by decide)).trans <|
  (W19_of m ρ c main_arg4 (by decide)).trans <|
  (W18_of_ne m ρ c main_arg4 (by decide)).trans <|
  (W17_of m ρ c main_arg4 (by decide)).trans <|
  (W16_of_ne m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <|
  rfl

theorem W23_main_arg5 (c : Dev nD) : W23 m ρ c (Proc.devRef .tc main_arg5) = m ((c : Thread nD τ).loc main_arg5) :=
  (W23_of m ρ c main_arg5 (by decide)).trans <|
  (W22_of_ne m ρ c main_arg5 (by decide)).trans <|
  (W21_of m ρ c main_arg5 (by decide)).trans <|
  (W20_of_ne m ρ c main_arg5 (by decide)).trans <|
  (W19_of m ρ c main_arg5 (by decide)).trans <|
  (W18_of_ne m ρ c main_arg5 (by decide)).trans <|
  (W17_of m ρ c main_arg5 (by decide)).trans <|
  (W16_of_ne m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <|
  rfl

theorem W23_main_arg6 (c : Dev nD) : W23 m ρ c (Proc.devRef .tc main_arg6) = m ((c : Thread nD τ).loc main_arg6) :=
  (W23_of m ρ c main_arg6 (by decide)).trans <|
  (W22_of_ne m ρ c main_arg6 (by decide)).trans <|
  (W21_of m ρ c main_arg6 (by decide)).trans <|
  (W20_of_ne m ρ c main_arg6 (by decide)).trans <|
  (W19_of m ρ c main_arg6 (by decide)).trans <|
  (W18_of_ne m ρ c main_arg6 (by decide)).trans <|
  (W17_of m ρ c main_arg6 (by decide)).trans <|
  (W16_of_ne m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <|
  rfl

theorem W23_main_arg7 (c : Dev nD) : W23 m ρ c (Proc.devRef .tc main_arg7) = m ((c : Thread nD τ).loc main_arg7) :=
  (W23_of m ρ c main_arg7 (by decide)).trans <|
  (W22_of_ne m ρ c main_arg7 (by decide)).trans <|
  (W21_of m ρ c main_arg7 (by decide)).trans <|
  (W20_of_ne m ρ c main_arg7 (by decide)).trans <|
  (W19_of m ρ c main_arg7 (by decide)).trans <|
  (W18_of_ne m ρ c main_arg7 (by decide)).trans <|
  (W17_of m ρ c main_arg7 (by decide)).trans <|
  (W16_of_ne m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <|
  rfl

theorem W23_main_arg8 (c : Dev nD) : W23 m ρ c (Proc.devRef .tc main_arg8) = m ((c : Thread nD τ).loc main_arg8) :=
  (W23_of m ρ c main_arg8 (by decide)).trans <|
  (W22_of_ne m ρ c main_arg8 (by decide)).trans <|
  (W21_of m ρ c main_arg8 (by decide)).trans <|
  (W20_of_ne m ρ c main_arg8 (by decide)).trans <|
  (W19_of m ρ c main_arg8 (by decide)).trans <|
  (W18_of_ne m ρ c main_arg8 (by decide)).trans <|
  (W17_of m ρ c main_arg8 (by decide)).trans <|
  (W16_of_ne m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <|
  rfl

end Cert.Kernel.Hand

end
-- ==== Proof.KB.Seg0.lean ====
/-
  Region 0 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 0 over the thread state: entered from every unscoped buffer at the boundary before it, left at the one after.
    Its arrays are split out of the unscoped buffers and put back at the exit contents; the generator register goes into
    the region's invariant and comes back; nothing is owed; the kernel has no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Wr1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Wr1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Wr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m ρ 0 c).Φ 0 from hin0 (Wr1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ (Pipeline.ΦA spec0 c : sProp 𝕄) from hout0 (Wr1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Wr1 m ρ c) (Wr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg1.lean ====
/-
  Region 1 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 1 over the thread state: entered from every unscoped buffer at the boundary before it, left at the one after.
    Its arrays are split out of the unscoped buffers and put back at the exit contents; the generator register goes into
    the region's invariant and comes back; nothing is owed; the kernel has no semaphore of its own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Wr3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (Wr3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Wr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from hin1 (Wr3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ (Pipeline.ΦA spec1 c : sProp 𝕄) from hout1 (Wr3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Wr3 m ρ c) (Wr4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg2.lean ====
/-
  Region 2 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 2 over the thread state: entered from every unscoped buffer at the boundary before it, left at the one after.
    Its arrays are split out of the unscoped buffers and put back at the exit contents; the generator register goes into
    the region's invariant and comes back; nothing is owed; the kernel has no semaphore of its own. -/
def reg2 : Pipeline.RegionSeg (pcfgs (F := F)) admH (pdats m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Wr5 m ρ) c).loose
  hwaits := Pipeline.hwaits_of_owed_zero _ _ _ _ LH lvH 2 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec2 c (Wr5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (Wr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec2 c : sProp 𝕄) ⊢ (pdats m ρ 2 c).Φ 0 from hin2 (Wr5 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ (Pipeline.ΦA spec2 c : sProp 𝕄) from hout2 (Wr5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (Wr5 m ρ c) (Wr6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg3.lean ====
/-
  Region 3 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 3 over the thread state: entered from every unscoped buffer at the boundary before it, left at the one after.
    Its arrays are split out of the unscoped buffers and put back at the exit contents; the generator register goes into
    the region's invariant and comes back; nothing is owed; the kernel has no semaphore of its own. -/
def reg3 : Pipeline.RegionSeg (pcfgs (F := F)) admH (pdats m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Wr7 m ρ) c).loose
  hwaits := Pipeline.hwaits_of_owed_zero _ _ _ _ LH lvH 3 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec3 c (Wr7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (Wr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec3 c : sProp 𝕄) ⊢ (pdats m ρ 3 c).Φ 0 from hin3 (Wr7 m ρ) c)
    unfold Pipeline.ΦA
    iintro ⟨Hp, -, Hr⟩
    isplitl [Hr]; · iexact Hr
    iexact Hp
  hout c := by
    rw [Pipeline.ownSems0_none]
    refine BIBase.Entails.trans (show (pdats m ρ 3 c).Φ (Fin.last _) ⊢ (Pipeline.ΦA spec3 c : sProp 𝕄) from hout3 (Wr7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (Wr7 m ρ c) (Wr8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg4.lean ====
/-
  Region 4 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 4 over the thread state: entered from every unscoped buffer at the boundary before it, left at the one after.
    Its arrays are split out of the unscoped buffers and put back at the exit contents; the generator register goes into
    the region's invariant and comes back; nothing is owed; the kernel has no semaphore of its own. -/
def reg4 : Pipeline.RegionSeg (pcfgs (F := F)) admH (pdats m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Wr9 m ρ) c).loose
  hwaits := Pipeline.hwaits_of_owed_zero _ _ _ _ LH lvH 4 fun _ _ => rfl
  pre c := iprop(StableHlo.held (c : Thread nD τ) (Pipeline.ucRefs τ sig) (W9 m ρ c) ∗ RH c)
  post c := iprop(StableHlo.held (c : Thread nD τ) (Pipeline.ucRefs τ sig) (W10 m ρ c) ∗ RH c)
  X c := iprop(∃ r, prngReg c r)
  Y c := iprop(∃ r, prngReg c r)
  Z c := Pipeline.unscopedRest (Ix := Unit) (Name := ℕ) (U := UR sig nD τ) (Lvl := ℕ) spec4 c (Wr9 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (Wr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec4 c : sProp 𝕄) ⊢ (pdats m ρ 4 c).Φ 0 from hin4 (Wr9 m ρ) c)
    unfold Pipeline.ΦA
    iintro ⟨Hp, -, Hr⟩
    isplitl [Hr]; · iexact Hr
    iexact Hp
  hout c := by
    rw [Pipeline.ownSems0_none]
    refine BIBase.Entails.trans (show (pdats m ρ 4 c).Φ (Fin.last _) ⊢ (Pipeline.ΦA spec4 c : sProp 𝕄) from hout4 (Wr9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (Wr9 m ρ c) (Wr10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg5.lean ====
/-
  Region 5 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 5 over the thread state: entered from every unscoped buffer at the boundary before it, left at the one after.
    Its arrays are split out of the unscoped buffers and put back at the exit contents; the generator register goes into
    the region's invariant and comes back; nothing is owed; the kernel has no semaphore of its own. -/
def reg5 : Pipeline.RegionSeg (pcfgs (F := F)) admH (pdats m ρ) () defs₀ 𝒱H LH lvH 5 where
  win := launch5.win.to₀
  block_pos := launch5.block_pos
  stage_whole := launch5.stage_whole
  K := PEmpty
  osem k := k.elim
  ho := Pipeline.OwnSemFacts.none _
  hbody c := (body_obligation5 (Wr11 m ρ) c).loose
  hwaits := Pipeline.hwaits_of_owed_zero _ _ _ _ LH lvH 5 fun _ _ => rfl
  pre c := iprop(StableHlo.held (c : Thread nD τ) (Pipeline.ucRefs τ sig) (W11 m ρ c) ∗ RH c)
  post c := iprop(StableHlo.held (c : Thread nD τ) (Pipeline.ucRefs τ sig) (W12 m ρ c) ∗ RH c)
  X c := iprop(∃ r, prngReg c r)
  Y c := iprop(∃ r, prngReg c r)
  Z c := Pipeline.unscopedRest (Ix := Unit) (Name := ℕ) (U := UR sig nD τ) (Lvl := ℕ) spec5 c (Wr11 m ρ c)
  hentry c := by
    rw [Pipeline.ownSems0_none]
    have hsplit := Pipeline.arrays_of_unscopedBufs (p := 5) (pcfgs (F := F)) admH (pdats m ρ) launch5.win launch5.arr_whole c
      ((pdats m ρ 5 c).share_full fun _ => rfl) (Wr11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec5 c : sProp 𝕄) ⊢ (pdats m ρ 5 c).Φ 0 from hin5 (Wr11 m ρ) c)
    unfold Pipeline.ΦA
    iintro ⟨Hp, -, Hr⟩
    isplitl [Hr]; · iexact Hr
    iexact Hp
  hout c := by
    rw [Pipeline.ownSems0_none]
    refine BIBase.Entails.trans (show (pdats m ρ 5 c).Φ (Fin.last _) ⊢ (Pipeline.ΦA spec5 c : sProp 𝕄) from hout5 (Wr11 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m ρ) ((pdats m ρ 5 c).share_full fun _ => rfl)
      (Wr11 m ρ c) (Wr12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg6.lean ====
/-
  Region 6 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 6 over the thread state: entered from every unscoped buffer at the boundary before it, left at the one after.
    Its arrays are split out of the unscoped buffers and put back at the exit contents; the generator register goes into
    the region's invariant and comes back; nothing is owed; the kernel has no semaphore of its own. -/
def reg6 : Pipeline.RegionSeg (pcfgs (F := F)) admH (pdats m ρ) () defs₀ 𝒱H LH lvH 6 where
  win := launch6.win.to₀
  block_pos := launch6.block_pos
  stage_whole := launch6.stage_whole
  K := PEmpty
  osem k := k.elim
  ho := Pipeline.OwnSemFacts.none _
  hbody c := (body_obligation6 (Wr13 m ρ) c).loose
  hwaits := Pipeline.hwaits_of_owed_zero _ _ _ _ LH lvH 6 fun _ _ => rfl
  pre c := iprop(StableHlo.held (c : Thread nD τ) (Pipeline.ucRefs τ sig) (W13 m ρ c) ∗ RH c)
  post c := iprop(StableHlo.held (c : Thread nD τ) (Pipeline.ucRefs τ sig) (W14 m ρ c) ∗ RH c)
  X c := iprop(∃ r, prngReg c r)
  Y c := iprop(∃ r, prngReg c r)
  Z c := Pipeline.unscopedRest (Ix := Unit) (Name := ℕ) (U := UR sig nD τ) (Lvl := ℕ) spec6 c (Wr13 m ρ c)
  hentry c := by
    rw [Pipeline.ownSems0_none]
    have hsplit := Pipeline.arrays_of_unscopedBufs (p := 6) (pcfgs (F := F)) admH (pdats m ρ) launch6.win launch6.arr_whole c
      ((pdats m ρ 6 c).share_full fun _ => rfl) (Wr13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec6 c : sProp 𝕄) ⊢ (pdats m ρ 6 c).Φ 0 from hin6 (Wr13 m ρ) c)
    unfold Pipeline.ΦA
    iintro ⟨Hp, -, Hr⟩
    isplitl [Hr]; · iexact Hr
    iexact Hp
  hout c := by
    rw [Pipeline.ownSems0_none]
    refine BIBase.Entails.trans (show (pdats m ρ 6 c).Φ (Fin.last _) ⊢ (Pipeline.ΦA spec6 c : sProp 𝕄) from hout6 (Wr13 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdats m ρ) ((pdats m ρ 6 c).share_full fun _ => rfl)
      (Wr13 m ρ c) (Wr14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg7.lean ====
/-
  Region 7 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 7 over the thread state: entered from every unscoped buffer at the boundary before it, left at the one after.
    Its arrays are split out of the unscoped buffers and put back at the exit contents; the generator register goes into
    the region's invariant and comes back; nothing is owed; the kernel has no semaphore of its own. -/
def reg7 : Pipeline.RegionSeg (pcfgs (F := F)) admH (pdats m ρ) () defs₀ 𝒱H LH lvH 7 where
  win := launch7.win.to₀
  block_pos := launch7.block_pos
  stage_whole := launch7.stage_whole
  K := PEmpty
  osem k := k.elim
  ho := Pipeline.OwnSemFacts.none _
  hbody c := (body_obligation7 (Wr15 m ρ) c).loose
  hwaits := Pipeline.hwaits_of_owed_zero _ _ _ _ LH lvH 7 fun _ _ => rfl
  pre c := iprop(StableHlo.held (c : Thread nD τ) (Pipeline.ucRefs τ sig) (W15 m ρ c) ∗ RH c)
  post c := iprop(StableHlo.held (c : Thread nD τ) (Pipeline.ucRefs τ sig) (W16 m ρ c) ∗ RH c)
  X c := iprop(∃ r, prngReg c r)
  Y c := iprop(∃ r, prngReg c r)
  Z c := Pipeline.unscopedRest (Ix := Unit) (Name := ℕ) (U := UR sig nD τ) (Lvl := ℕ) spec7 c (Wr15 m ρ c)
  hentry c := by
    rw [Pipeline.ownSems0_none]
    have hsplit := Pipeline.arrays_of_unscopedBufs (p := 7) (pcfgs (F := F)) admH (pdats m ρ) launch7.win launch7.arr_whole c
      ((pdats m ρ 7 c).share_full fun _ => rfl) (Wr15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec7 c : sProp 𝕄) ⊢ (pdats m ρ 7 c).Φ 0 from hin7 (Wr15 m ρ) c)
    unfold Pipeline.ΦA
    iintro ⟨Hp, -, Hr⟩
    isplitl [Hr]; · iexact Hr
    iexact Hp
  hout c := by
    rw [Pipeline.ownSems0_none]
    refine BIBase.Entails.trans (show (pdats m ρ 7 c).Φ (Fin.last _) ⊢ (Pipeline.ΦA spec7 c : sProp 𝕄) from hout7 (Wr15 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdats m ρ) ((pdats m ρ 7 c).share_full fun _ => rfl)
      (Wr15 m ρ c) (Wr16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg8.lean ====
/-
  Region 8 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 8 over the thread state: entered from every unscoped buffer at the boundary before it, left at the one after.
    Its arrays are split out of the unscoped buffers and put back at the exit contents; the generator register goes into
    the region's invariant and comes back; nothing is owed; the kernel has no semaphore of its own. -/
def reg8 : Pipeline.RegionSeg (pcfgs (F := F)) admH (pdats m ρ) () defs₀ 𝒱H LH lvH 8 where
  win := launch8.win.to₀
  block_pos := launch8.block_pos
  stage_whole := launch8.stage_whole
  K := PEmpty
  osem k := k.elim
  ho := Pipeline.OwnSemFacts.none _
  hbody c := (body_obligation8 (Wr17 m ρ) c).loose
  hwaits := Pipeline.hwaits_of_owed_zero _ _ _ _ LH lvH 8 fun _ _ => rfl
  pre c := iprop(StableHlo.held (c : Thread nD τ) (Pipeline.ucRefs τ sig) (W17 m ρ c) ∗ RH c)
  post c := iprop(StableHlo.held (c : Thread nD τ) (Pipeline.ucRefs τ sig) (W18 m ρ c) ∗ RH c)
  X c := iprop(∃ r, prngReg c r)
  Y c := iprop(∃ r, prngReg c r)
  Z c := Pipeline.unscopedRest (Ix := Unit) (Name := ℕ) (U := UR sig nD τ) (Lvl := ℕ) spec8 c (Wr17 m ρ c)
  hentry c := by
    rw [Pipeline.ownSems0_none]
    have hsplit := Pipeline.arrays_of_unscopedBufs (p := 8) (pcfgs (F := F)) admH (pdats m ρ) launch8.win launch8.arr_whole c
      ((pdats m ρ 8 c).share_full fun _ => rfl) (Wr17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec8 c : sProp 𝕄) ⊢ (pdats m ρ 8 c).Φ 0 from hin8 (Wr17 m ρ) c)
    unfold Pipeline.ΦA
    iintro ⟨Hp, -, Hr⟩
    isplitl [Hr]; · iexact Hr
    iexact Hp
  hout c := by
    rw [Pipeline.ownSems0_none]
    refine BIBase.Entails.trans (show (pdats m ρ 8 c).Φ (Fin.last _) ⊢ (Pipeline.ΦA spec8 c : sProp 𝕄) from hout8 (Wr17 m ρ) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := UR sig nD τ) (Lvl := ℕ)
      launch8.win launch8.arr_whole c (pdats m ρ) ((pdats m ρ 8 c).share_full fun _ => rfl)
      (Wr17 m ρ c) (Wr18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg9.lean ====
/-
  Region 9 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 9 over the thread state: entered from every unscoped buffer at the boundary before it, left at the one after.
    Its arrays are split out of the unscoped buffers and put back at the exit contents; the generator register goes into
    the region's invariant and comes back; nothing is owed; the kernel has no semaphore of its own. -/
def reg9 : Pipeline.RegionSeg (pcfgs (F := F)) admH (pdats m ρ) () defs₀ 𝒱H LH lvH 9 where
  win := launch9.win.to₀
  block_pos := launch9.block_pos
  stage_whole := launch9.stage_whole
  K := PEmpty
  osem k := k.elim
  ho := Pipeline.OwnSemFacts.none _
  hbody c := (body_obligation9 (Wr19 m ρ) c).loose
  hwaits := Pipeline.hwaits_of_owed_zero _ _ _ _ LH lvH 9 fun _ _ => rfl
  pre c := iprop(StableHlo.held (c : Thread nD τ) (Pipeline.ucRefs τ sig) (W19 m ρ c) ∗ RH c)
  post c := iprop(StableHlo.held (c : Thread nD τ) (Pipeline.ucRefs τ sig) (W20 m ρ c) ∗ RH c)
  X c := iprop(∃ r, prngReg c r)
  Y c := iprop(∃ r, prngReg c r)
  Z c := Pipeline.unscopedRest (Ix := Unit) (Name := ℕ) (U := UR sig nD τ) (Lvl := ℕ) spec9 c (Wr19 m ρ c)
  hentry c := by
    rw [Pipeline.ownSems0_none]
    have hsplit := Pipeline.arrays_of_unscopedBufs (p := 9) (pcfgs (F := F)) admH (pdats m ρ) launch9.win launch9.arr_whole c
      ((pdats m ρ 9 c).share_full fun _ => rfl) (Wr19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec9 c : sProp 𝕄) ⊢ (pdats m ρ 9 c).Φ 0 from hin9 (Wr19 m ρ) c)
    unfold Pipeline.ΦA
    iintro ⟨Hp, -, Hr⟩
    isplitl [Hr]; · iexact Hr
    iexact Hp
  hout c := by
    rw [Pipeline.ownSems0_none]
    refine BIBase.Entails.trans (show (pdats m ρ 9 c).Φ (Fin.last _) ⊢ (Pipeline.ΦA spec9 c : sProp 𝕄) from hout9 (Wr19 m ρ) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) admH (Ix := Unit) (Name := ℕ) (U := UR sig nD τ) (Lvl := ℕ)
      launch9.win launch9.arr_whole c (pdats m ρ) ((pdats m ρ 9 c).share_full fun _ => rfl)
      (Wr19 m ρ c) (Wr20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg10.lean ====
/-
  Region 10 of the kernel program as a segment of @main.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 10 over the thread state: entered from every unscoped buffer at the boundary before it, left at the one after.
    Its arrays are split out of the unscoped buffers and put back at the exit contents; the generator register goes into
    the region's invariant and comes back; nothing is owed; the kernel has no semaphore of its own. -/
def reg10 : Pipeline.RegionSeg (pcfgs (F := F)) admH (pdats m ρ) () defs₀ 𝒱H LH lvH 10 where
  win := launch10.win.to₀
  block_pos := launch10.block_pos
  stage_whole := launch10.stage_whole
  K := PEmpty
  osem k := k.elim
  ho := Pipeline.OwnSemFacts.none _
  hbody c := (body_obligation10 (Wr21 m ρ) c).loose
  hwaits := Pipeline.hwaits_of_owed_zero _ _ _ _ LH lvH 10 fun _ _ => rfl
  pre c := iprop(StableHlo.held (c : Thread nD τ) (Pipeline.ucRefs τ sig) (W21 m ρ c) ∗ RH c)
  post c := iprop(StableHlo.held (c : Thread nD τ) (Pipeline.ucRefs τ sig) (W22 m ρ c) ∗ RH c)
  X c := iprop(∃ r, prngReg c r)
  Y c := iprop(∃ r, prngReg c r)
  Z c := Pipeline.unscopedRest (Ix := Unit) (Name := ℕ) (U := UR sig nD τ) (Lvl := ℕ) spec10 c (Wr21 m ρ c)
  hentry c := by
    rw [Pipeline.ownSems0_none]
    have hsplit := Pipeline.arrays_of_unscopedBufs (p := 10) (pcfgs (F := F)) admH (pdats m ρ) launch10.win launch10.arr_whole c
      ((pdats m ρ 10 c).share_full fun _ => rfl) (Wr21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec10 c : sProp 𝕄) ⊢ (pdats m ρ 10 c).Φ 0 from hin10 (Wr21 m ρ) c)
    unfold Pipeline.ΦA
    iintro ⟨Hp, -, Hr⟩
    isplitl [Hr]; · iexact Hr
    iexact Hp
  hout c := by
    rw [Pipeline.ownSems0_none]
    refine BIBase.Entails.trans (show (pdats m ρ 10 c).Φ (Fin.last _) ⊢ (Pipeline.ΦA spec10 c : sProp 𝕄) from hout10 (Wr21 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) admH (Ix := Unit) (Name := ℕ) (U := UR sig nD τ) (Lvl := ℕ)
      launch10.win launch10.arr_whole c (pdats m ρ) ((pdats m ρ 10 c).share_full fun _ => rfl)
      (Wr21 m ρ c) (Wr22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Asm.lean ====
/-
  The kernel program's run: @main as twelve stretches of host operations around eleven regions, launched from any memory
  with zero counters. Every weakly fair execution ends, nothing faulting, with every unscoped buffer at the last
  boundary's contents; the argument arrays among them are as launched.
-/
import proofs.«417336_j40785009443359_3_alg».proof.Proof.Gen.Kernel.Launch
import proofs.«417336_j40785009443359_3_alg».proof.Proof.Gen.Kernel.Skeleton
import proofs.«417336_j40785009443359_3_alg».proof.Proof.Gen.Kernel.Points
import proofs.«417336_j40785009443359_3_alg».proof.Proof.Gen.Kernel.Regions
import proofs.«417336_j40785009443359_3_alg».proof.Proof.KB.Fold
import proofs.«417336_j40785009443359_3_alg».proof.Proof.KB.Args
import proofs.«417336_j40785009443359_3_alg».proof.Proof.KB.Seg0
import proofs.«417336_j40785009443359_3_alg».proof.Proof.KB.Seg1
import proofs.«417336_j40785009443359_3_alg».proof.Proof.KB.Seg2
import proofs.«417336_j40785009443359_3_alg».proof.Proof.KB.Seg3
import proofs.«417336_j40785009443359_3_alg».proof.Proof.KB.Seg4
import proofs.«417336_j40785009443359_3_alg».proof.Proof.KB.Seg5
import proofs.«417336_j40785009443359_3_alg».proof.Proof.KB.Seg6
import proofs.«417336_j40785009443359_3_alg».proof.Proof.KB.Seg7
import proofs.«417336_j40785009443359_3_alg».proof.Proof.KB.Seg8
import proofs.«417336_j40785009443359_3_alg».proof.Proof.KB.Seg9
import proofs.«417336_j40785009443359_3_alg».proof.Proof.KB.Seg10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 23 segments in order. -/
abbrev segsH : List (Pipeline.Seg (pcfgs (F := F)) admH (pdats m ρ) () defs₀ 𝒱H LH lvH) :=
  [ .host (hsegH hostOps0 hostOps0_sub Gen.hostOps0_fresh (W0 m ρ)),
    .region (reg0 m ρ),
    .host (hsegH hostOps1 hostOps1_sub Gen.hostOps1_fresh (W2 m ρ)),
    .region (reg1 m ρ),
    .host (hsegH hostOps2 hostOps2_sub Gen.hostOps2_fresh (W4 m ρ)),
    .region (reg2 m ρ),
    .host (hsegH hostOps3 hostOps3_sub Gen.hostOps3_fresh (W6 m ρ)),
    .region (reg3 m ρ),
    .host (hsegH hostOps4 hostOps4_sub Gen.hostOps4_fresh (W8 m ρ)),
    .region (reg4 m ρ),
    .host (hsegH hostOps5 hostOps5_sub Gen.hostOps5_fresh (W10 m ρ)),
    .region (reg5 m ρ),
    .host (hsegH hostOps6 hostOps6_sub Gen.hostOps6_fresh (W12 m ρ)),
    .region (reg6 m ρ),
    .host (hsegH hostOps7 hostOps7_sub Gen.hostOps7_fresh (W14 m ρ)),
    .region (reg7 m ρ),
    .host (hsegH hostOps8 hostOps8_sub Gen.hostOps8_fresh (W16 m ρ)),
    .region (reg8 m ρ),
    .host (hsegH hostOps9 hostOps9_sub Gen.hostOps9_fresh (W18 m ρ)),
    .region (reg9 m ρ),
    .host (hsegH hostOps10 hostOps10_sub Gen.hostOps10_fresh (W20 m ρ)),
    .region (reg10 m ρ),
    .host (hsegH hostOps11 hostOps11_sub Gen.hostOps11_fresh (W22 m ρ)) ]

/-- @main is the run of the segments: both are the chain of the same 23 items, a segment's program being its stretch's
    line of operations or its region's call. -/
theorem main_runH (c : Dev nD) : main (F := F) c = Pipeline.Seg.run (segsH m ρ) := by
  rewrite [main_chain c, Pipeline.Seg.run_eq_chain,
    show (segsH m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10,
      Prog.lift (.customCall (Pipeline.entry 10) ()),
      StableHlo.seq hostOps11 ] from rfl]
  rfl

set_option backward.isDefEq.respectTransparency.types false in
/-- THE RUN: from any memory with zero counters every weakly fair execution of @main on the TensorCores terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) admH (pdats m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TlastH m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W23 m ρ c) ∗ RH c)
          ⊢ iprop(TlastH m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h => h)

/-- THE FRAME, at any instance: the argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_ucH main_arg0 (by decide))).trans (W23_main_arg0 m ρ c), (h c _ (mem_ucH main_arg1 (by decide))).trans (W23_main_arg1 m ρ c), (h c _ (mem_ucH main_arg2 (by decide))).trans (W23_main_arg2 m ρ c), (h c _ (mem_ucH main_arg3 (by decide))).trans (W23_main_arg3 m ρ c), (h c _ (mem_ucH main_arg4 (by decide))).trans (W23_main_arg4 m ρ c), (h c _ (mem_ucH main_arg5 (by decide))).trans (W23_main_arg5 m ρ c), (h c _ (mem_ucH main_arg6 (by decide))).trans (W23_main_arg6 m ρ c), (h c _ (mem_ucH main_arg7 (by decide))).trans (W23_main_arg7 m ρ c), (h c _ (mem_ucH main_arg8 (by decide))).trans (W23_main_arg8 m ρ c)⟩) (run_all m ρ)

end Cert.Kernel.Hand

end
-- ==== Proof.KI.F0.lean ====
/-
  Region 0 of the kernel program: the first layer's two products in one matmul. At a grid point the body reads a block
  of 5000 rows of the node features, the 128 x 256 matrix [W | W_res], the residual bias row and the 5000 x 1 column of
  inverse square-root degrees, and leaves, in its two output blocks, (x W) scaled row by row by that column, and
  max (x W_res + b_res, 0). Stated at a parameter V: the buffers' contents when the region is entered.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry array at every point, fetched there or not, for
    any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry array at every point, fetched there or not, for
    any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry array at every point, fetched there or not, for
    any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry array at every point, fetched there or not, for
    any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging block -/

abbrev rX0 : Rect S5000x128 := Rect.unit (s := S5000x128) ![0, 0] S5000x128.size inb_S5000x128_S5000x128_0_0
abbrev rW0 : Rect S128x256 := Rect.unit (s := S128x256) ![0, 0] S128x256.size inb_S128x256_S128x256_0_0
abbrev rB0 : Rect S1x128 := Rect.unit (s := S1x128) ![0, 0] S1x128.size inb_S1x128_S1x128_0_0
abbrev rD0 : Rect S5000x1 := Rect.unit (s := S5000x1) ![0, 0] S5000x1.size inb_S5000x1_S5000x1_0_0

/-! ## What the body leaves in each output block -/

/-- Output window 4 after the body: the rows' products with W, each row scaled by its inverse square-root degree. -/
def out0_4 (x0 : Vec F S5000x128 .f32) (x1 : Vec F S128x256 .f32) (x3 : Vec F S5000x1 .f32) : Vec F S5000x128 .f32 :=
  View.canon [⟨rX0, k0_pay2 (View.ld x0 rX0) (View.ld x1 rW0) (View.ld x3 rD0)⟩]

/-- Output window 5 after the body: the rows' products with W_res plus the bias, clipped below at zero. -/
def out0_5 (x0 : Vec F S5000x128 .f32) (x1 : Vec F S128x256 .f32) (x2 : Vec F S1x128 .f32) : Vec F S5000x128 .f32 :=
  View.canon [⟨rX0, k0_pay3 (View.ld x0 rX0) (View.ld x1 rW0) (View.ld x2 rB0)⟩]

/-- One store of the whole block covers it. -/
theorem cover0 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

/-! ## The body's triple -/

set_option maxHeartbeats 4000000 in
/-- On whole staging memrefs, the inputs' at contents `x0 … x3` and the outputs' at anything, the body runs to the
    continuation with the inputs' as they were and the outputs' at `out0_4`, `out0_5` of the inputs'. -/
theorem sound_kernel0 (c : Dev nD) (E : Set ℕ) (i : grid0.Coords)
    (arg1 : Memref sig .tc .vmem S5000x128 .f32) (harg1 : arg1.IsWhole) (arg2 : Memref sig .tc .vmem S128x256 .f32) (harg2 : arg2.IsWhole)
    (arg3 : Memref sig .tc .vmem S1x128 .f32) (harg3 : arg3.IsWhole) (arg4 : Memref sig .tc .vmem S5000x1 .f32) (harg4 : arg4.IsWhole)
    (arg5 : Memref sig .tc .vmem S5000x128 .f32) (harg5 : arg5.IsWhole) (arg6 : Memref sig .tc .vmem S5000x128 .f32) (harg6 : arg6.IsWhole)
    (x0 : Vec F S5000x128 .f32) (x1 : Vec F S128x256 .f32) (x2 : Vec F S1x128 .f32) (x3 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x3)
            ∗ owns (c : Thread nD τ) arg6 fullShare (out0_5 x0 x1 x2)) -∗ K ⟨⟩))
      ⊢ wp frame (wpE (defs₀ (F := F)) Variants.none c none) E
          (cc0__dual_matmul_kernel i arg1 harg1 arg2 harg2 arg3 harg3 arg4 harg4 arg5 harg5 arg6 harg6) K := by
  simp only [cc0__dual_matmul_kernel_eq_skeleton]; unfold cc0__dual_matmul_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The region's proof data -/

/-- The proof data on core `c`: the arrays as the region finds them; after the body at point `t` each input's buffer at
    its block and the two outputs' at `out0_4`, `out0_5` of the input blocks; the invariant says nothing of the scoped rest;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 3 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 3 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant is the same at every point: what the launch hands the region is it, and it is handed back. -/
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.KernelIdeal.Hand

end
-- ==== Proof.KI.F1Runs.lean ====
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The column sums of a layer's pre-activation, on a grid of 2 x 10 points

Point `(p, j)` takes row block `10 p + j` (5000 rows) of three arrays, writes the block's pre-activation to window 5,
and adds its column sums into a one-row accumulator the kernel keeps between points: zeroed at `j = 0`, copied to
row `p` of window 4 at `j = 9`. What follows is shared by the three kinds of point. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or not
    (unfetched, the block index has not moved since the point that did), for any proof data whose array is the
    region-entry contents and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or not
    (unfetched, the block index has not moved since the point that did), for any proof data whose array is the
    region-entry contents and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or not
    (unfetched, the block index has not moved since the point that did), for any proof data whose array is the
    region-entry contents and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetched it or not
    (unfetched, the block index has not moved since the point that did), for any proof data whose array is the
    region-entry contents and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, in closed form over the grid -/

/-- The first conditional's test: the inner coordinate is 0 (the accumulator is zeroed). -/
abbrev cond1_0 (i : grid1.Coords) : Prop := (Scalar.cmpi .ne (Scalar.extui (Scalar.cmpi .eq (BitVec.ofNat 32 (i 1).val) 0#32)) 0#32) = 1#1
/-- It holds exactly at the first point of each row of ten. -/
theorem hcond1_0 : ∀ t : Fin cfg1.N, cond1_0 (grid1.coords t) ↔ t.val % 10 = 0 :=
  (by decide +kernel : ∀ t : Fin grid1.N, cond1_0 (grid1.coords t) ↔ t.val % 10 = 0)

/-- The last conditional's test: the inner coordinate is 9 (the accumulated sums are copied out). -/
abbrev cond1_1 (i : grid1.Coords) : Prop := k1_cond2 i = 1#1
/-- It holds exactly at the last point of each row of ten. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where window 4 is idle -/

/-- The inputs and window 5 are stored or read at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_5 : ∀ t : Fin cfg1.N, cfg1.idle 5 (grid1.coords t) = false := by decide +kernel
/-- Where the inner coordinate is not 9 the body stores nothing into window 4, and the table says so; -/
theorem idleAt1_4 : ∀ t : Fin cfg1.N, ¬cond1_1 (grid1.coords t) → cfg1.idle 4 (grid1.coords t) = true := by decide +kernel
/-- there its block index is the next point's too, so nothing is written back; -/
theorem noFlush1_4 : ∀ t : Fin cfg1.N, ¬cond1_1 (grid1.coords t) → (cfg1.win 4).flush t = false := by decide +kernel
/-- where it is 9 the body stores the whole row. -/
theorem liveAt1_4 : ∀ t : Fin cfg1.N, cond1_1 (grid1.coords t) → cfg1.idle 4 (grid1.coords t) = false := by decide +kernel

/-! ## The memrefs the body is called on -/

/-- Each window's current staging memref at point `t`, as the pipeline passes it, with its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x128 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S1x1x128 .f32 := Memref.whole cc1_scratch0
/-- The accumulator as a view: its contents are stated through it. -/
abbrev VS1_0 : View sig .tc .vmem S1x1x128 .f32 := scM1_0.view
/-- One staging buffer of each output window, through which the window's contents are stated (a covering list of
    writes reads back the same through any view of the shape). -/
abbrev VO1_4 : View sig .tc .vmem S1x1x128 .f32 := (Memref.whole cc1_stg4_0 : Memref sig .tc .vmem S1x1x128 .f32).view
abbrev VO1_5 : View sig .tc .vmem S5000x128 .f32 := (Memref.whole cc1_stg5_0 : Memref sig .tc .vmem S5000x128 .f32).view

/-- What the launch hands the region, with the accumulator split off as a memref owned at some contents: the other
    scoped buffers stay one unopened conjunct. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.F1RunA.lean ====
import proofs.«417336_j40785009443359_3_alg».proof.Proof.KI.F1Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 0. On whole memrefs, the inputs' at their contents, window 4's at contents it hands
    back untouched (it stores nothing there), window 5's and the accumulator at anything (the accumulator is zeroed
    before it is read), the body runs to a continuation holding the inputs' as they were, window 5's buffer with the
    pre-activation written and the accumulator with the zero row and then the block's column sums written: the lists of
    writes (last first) are the witness the symbolic run of the skeleton finds. -/
noncomputable def kernelRun1_A (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__bn_sum_kernel i arg2 harg2 arg3 harg3 arg4 harg4 arg5 harg5 arg6 harg6 arg7 harg7 arg8 harg8) K } := by
  refine ⟨[], ?_, ?_, fun xi4 E K => ?run⟩
  case run =>
    simp only [cc1__bn_sum_kernel_eq_skeleton]; unfold cc1__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.F1RunB.lean ====
import proofs.«417336_j40785009443359_3_alg».proof.Proof.KI.F1RunA
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE STRICTLY BETWEEN 0 AND 9. On whole memrefs, the inputs' at their contents, window 4's
    at contents it hands back untouched, window 5's at anything, the accumulator at what the point before left
    (`xs0`), the body runs to a continuation holding the inputs' as they were, window 5's buffer with the
    pre-activation written and the accumulator with `xs0` plus the block's column sums written: the lists of writes
    (last first) are the witness the symbolic run of the skeleton finds. -/
noncomputable def kernelRun1_B (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__bn_sum_kernel i arg2 harg2 arg3 harg3 arg4 harg4 arg5 harg5 arg6 harg6 arg7 harg7 arg8 harg8) K } := by
  refine ⟨[], ?_, ?_, fun xi4 E K => ?run⟩
  case run =>
    simp only [cc1__bn_sum_kernel_eq_skeleton]; unfold cc1__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.F1RunC.lean ====
import proofs.«417336_j40785009443359_3_alg».proof.Proof.KI.F1RunB
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 9. On whole memrefs, the inputs' at their contents, both output windows' at anything,
    the accumulator at what the point before left (`xs0`), the body runs to a continuation holding the inputs' as they
    were, window 5's buffer with the pre-activation written, the accumulator with `xs0` plus the block's column sums
    written, and window 4's buffer with that finished row written: the lists of writes (last first) are the witness
    the symbolic run of the skeleton finds. -/
noncomputable def kernelRun1_C (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__bn_sum_kernel i arg2 harg2 arg3 harg3 arg4 harg4 arg5 harg5 arg6 harg6 arg7 harg7 arg8 harg8) K } := by
  refine ⟨?_, ?_, ?_, fun E K => ?run⟩
  case run =>
    simp only [cc1__bn_sum_kernel_eq_skeleton]; unfold cc1__bn_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Hand

end
-- ==== Proof.KI.F1.lean ====
import proofs.«417336_j40785009443359_3_alg».proof.Proof.KI.F1RunC
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # The frame half: what each kind of point leaves, the accumulation over the grid, the proof data -/

/-- Where the inner coordinate is 0 nothing is stored into window 4 and nothing is written back: a placeholder (no writes, read
    back) that no later point and no write-back consults. -/
def out1_A_4 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) : Vec F S1x1x128 .f32 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)

/-- Where the inner coordinate is 0 the writes into window 5 cover its block. -/
theorem cover1_A_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) (y : S5000x128.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S5000x128.size (by sl_kernel_rfl) y

/-- What such a point leaves in window 5's staging buffer: its writes read back. -/
def out1_A_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) : Vec F S5000x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3).2.1)

/-- Where the inner coordinate is 0 the writes into the accumulator cover its one row. -/
theorem scover1_A_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) (y : S1x1x128.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S1x1x128.size (by sl_kernel_rfl) y

/-- What such a point leaves in the accumulator: its writes read back. -/
def sout1_A_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) : Vec F S1x1x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.2.1)

/-- Where the inner coordinate is strictly between 0 and 9 nothing is stored into window 4 and nothing is written back: a placeholder (no writes, read
    back) that no later point and no write-back consults. -/
def out1_B_4 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0).1)

/-- Where the inner coordinate is strictly between 0 and 9 the writes into window 5 cover its block. -/
theorem cover1_B_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun1_B c i arg2 harg2 arg3 harg3 arg4 harg4 arg5 harg5 arg6 harg6 arg7 harg7 arg8 harg8 hc0 hc1 x0 x1 x2 x3 xs0).2.1, y ∈ pc.1.set :=
  View.cover_of_tiledL (kernelRun1_B c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out1_B_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) : Vec F S5000x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 xs0).2.1)

/-- Where the inner coordinate is strictly between 0 and 9 the writes into the accumulator cover its one row. -/
theorem scover1_B_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun1_B c i arg2 harg2 arg3 harg3 arg4 harg4 arg5 harg5 arg6 harg6 arg7 harg7 arg8 harg8 hc0 hc1 x0 x1 x2 x3 xs0).2.2.1, y ∈ pc.1.set :=
  View.cover_of_tiledL (kernelRun1_B c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout1_B_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0).2.2.1)

/-- Where the inner coordinate is 9 the writes into window 4 cover its one row. -/
theorem cover1_C_4 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun1_C c i arg2 harg2 arg3 harg3 arg4 harg4 arg5 harg5 arg6 harg6 arg7 harg7 arg8 harg8 hc0 hc1 x0 x1 x2 x3 xs0).1, y ∈ pc.1.set :=
  View.cover_of_tiledL (kernelRun1_C c i arg2 harg2 arg3 harg3 arg4 harg4 arg5 harg5 arg6 harg6 arg7 harg7 arg8 harg8 hc0 hc1 x0 x1 x2 x3 xs0).1 S1x1x128.size (by sl_kernel_rfl) y

/-- What such a point leaves in window 4's staging buffer: its writes read back. -/
def out1_C_4 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0).1)

/-- Where the inner coordinate is 9 the writes into window 5 cover its block. -/
theorem cover1_C_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun1_C c i arg2 harg2 arg3 harg3 arg4 harg4 arg5 harg5 arg6 harg6 arg7 harg7 arg8 harg8 hc0 hc1 x0 x1 x2 x3 xs0).2.1, y ∈ pc.1.set :=
  View.cover_of_tiledL (kernelRun1_C c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out1_C_5 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) : Vec F S5000x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 xs0).2.1)

/-- Where the inner coordinate is 9 the writes into the accumulator cover its one row. -/
theorem scover1_C_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun1_C c i arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout1_C_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0).2.2.1)

/-! ## What the outputs and the accumulator hold after each point -/

/-- THE ACCUMULATION. What window 4's and window 5's staging buffers and the accumulator hold after the body at position
    `n` (a triple, in that order): the kind of point the closed forms select at `n`, run at the point's memrefs and input
    blocks, and, where the inner coordinate is not 0, over what position `n - 1` left in the accumulator. Both closed
    forms at once is no point. -/
def outsAt1 (c : Dev nD) : (n : ℕ) → n < cfg1.N → Vec F S1x1x128 .f32 × Vec F S5000x128 .f32 × Vec F S1x1x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 10 = 0 then
      if h1 : (n + 1) % 10 = 9 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 10 = 9 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

/-- `outsAt1` where the inner coordinate is 0: that kind of point's contents (nothing of the position before). -/
theorem outsAt1_A (c : Dev nD) (t : Fin cfg1.N) (h0 : t.val % 10 = 0) (h1 : ¬t.val % 10 = 9) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` where the inner coordinate is strictly between 0 and 9: over what the position before left. -/
theorem outsAt1_B (c : Dev nD) (t : Fin cfg1.N) (h0 : ¬t.val % 10 = 0) (h1 : ¬t.val % 10 = 9) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` where the inner coordinate is 9: over what the position before left. -/
theorem outsAt1_C (c : Dev nD) (t : Fin cfg1.N) (h0 : ¬t.val % 10 = 0) (h1 : t.val % 10 = 9) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer at anything, the generator register at some state); afterwards the accumulator owned at what the position
    before left in it (`outsAt1`'s last component), the other scoped buffers unopened, the register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After position `n`: the accumulator at that position's contents. -/
theorem PhiS1_succ (c : Dev nD) (n : ℕ) (hn : n < cfg1.N) :
    PhiS1 V c (n + 1) hn = iprop(iprop(owns (c : Thread nD τ) scM1_0 fullShare ((outsAt1 V c n hn).2.2) ∗ Pipeline.scopedRestBut (Ix := Unit) (Name := ℕ) (U := UR sig nD τ) (Lvl := ℕ) (Val := Elt F) spec1 c [cc1_scratch0]) ∗ (∃ r, prngReg c r)) := rfl

/-- Before a position that is not the first: the accumulator at what the position before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of this region on core `c`: the arrays as the region finds them; after the body at point `t` each
    input's buffer at its block, window 4's and window 5's at `outsAt1`'s first two components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

/-- The proof data's arrays are the region-entry contents (the definition projected; the contents are never opened). -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the library's obligation, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the two closed forms say which kind of point it is; the
    invariant hands the body the accumulator at what the position before left (at anything before the first point,
    which zeroes it before reading it), the other scoped buffers and the generator register pass through; the run of
    that kind of point applies, and the accumulator comes back at this position's contents because the run's writes
    cover it, as do window 5's and, where the inner coordinate is 9, window 4's; elsewhere window 4's buffer is handed
    back as found. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  by_cases h0 : t.val % 10 = 0
  · by_cases h1 : t.val % 10 = 9
    · exfalso; omega
    · -- the inner coordinate is 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold out1_A_5 sout1_A_0; (try dsimp only)
      by_cases hz : t.val = 0
      · rw [PhiS1_castSucc V c t, PhiS1_zero V c _ _ hz, PhiA1_eq]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover1_A_5 c _ _ _ _ _ _ _ _ _ _ _ _ _ _ _ _ _ _ _ _ _)
      · rw [PhiS1_castSucc V c t, PhiS1_pos V c _ _ hz]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover1_A_5 c _ _ _ _ _ _ _ _ _ _ _ _ _ _ _ _ _ _ _ _ _)
  · by_cases h1 : t.val % 10 = 9
    · -- the inner coordinate is 9
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 5 t = owns (c : Thread nD τ) (ms1_5 t) fullShare ((dat1 V c).after 5 t) from by
        unfold Dat.leavesExact; rw [liveAt1_5 t], after1_5]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 out1_C_5 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    · -- the inner coordinate is strictly between 0 and 9
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold out1_B_5 sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover1_B_5 c _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's named contents are forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ (Pipeline.ΦA spec1 c : sProp 𝕄) :=
  Phi1_out V c _ (by rw [Fin.val_last]; have : cfg1.N = 20 := N_1; omega)

end Cert.KernelIdeal.Hand

end
-- ==== Proof.KI.F2Runs.lean ====
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # The sum-of-squares region: what its three cases share

The grid is 2 x 10; a point t has inner coordinate t.val % 10. The body zeroes the carried accumulator at
inner coordinate 0, adds the column sums of the block's centred squares into it at every point, and copies it
into the output window at inner coordinate 9. -/

/-! ## The windows' blocks -/

/-- Window w's block at point t, read off its array at the contents V the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 5000-row block window's current staging buffer holds its block at every point, for any proof data whose
    array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The mean row's window is fetched once; its staging buffer holds the row at every point all the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "The inner coordinate is 0": the condition under which the body zeroes the accumulator. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "The inner coordinate is 9": the condition under which the body copies the accumulator out. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from inner coordinate 9 the output window is idle and its block is not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At inner coordinate 9 the output window is live. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S1x1x128 .f32 := (Memref.whole cc2_stg2_0 : Memref sig .tc .vmem S1x1x128 .f32).view
/-- Each window's current staging memref at point t, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x128 .f32 := win2_2.stage (cfg2.slots t 2)
abbrev hs2_2 (t : Fin cfg2.N) : (ms2_2 t).IsWhole := hstage2_2 ((cfg2.slots t 2).cast nbuf2_2)
/-- The accumulator: a whole scoped buffer of the kernel's own, carried from point to point. -/
abbrev scM2_0 : Memref sig .tc .vmem S1x1x128 .f32 := Memref.whole cc2_scratch0
abbrev VS2_0 : View sig .tc .vmem S1x1x128 .f32 := scM2_0.view

/-- The region's entry invariant with the accumulator as a memref owned at some contents, the other scoped
    buffers unopened. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.F2RunA.lean ====
import proofs.«417336_j40785009443359_3_alg».proof.Proof.KI.F2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 0 (first condition holds, second fails), on any whole memrefs: the two inputs at
    their contents, the output window's buffer at contents handed back untouched, the accumulator at anything. It
    runs to the continuation holding the inputs and the output buffer as they were and the accumulator with the
    pieces LS0 written (the zero store, then the sum's store); no piece goes to the output window. -/
noncomputable def kernelRun2_A (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond2_0 i) (hc1 : ¬cond2_1 i)
    (x0 : Vec F S5000x128 .f32) (x1 : Vec F S1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__bn_sumsq_kernel i arg2 harg2 arg3 harg3 arg4 harg4 arg5 harg5) K } := by
  refine ⟨[], ?_, fun xi2 E K => ?run⟩
  case run =>
    simp only [cc2__bn_sumsq_kernel_eq_skeleton]; unfold cc2__bn_sumsq_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.F2RunB.lean ====
import proofs.«417336_j40785009443359_3_alg».proof.Proof.KI.F2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinates 1 to 8 (both conditions fail), on any whole memrefs: the two inputs at their
    contents, the output window's buffer at contents handed back untouched, the accumulator at the contents xs0 the
    point before left. It runs to the continuation holding the inputs and the output buffer as they were and the
    accumulator with the pieces LS0 written (the sum's store). -/
noncomputable def kernelRun2_B (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : ¬cond2_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__bn_sumsq_kernel i arg2 harg2 arg3 harg3 arg4 harg4 arg5 harg5) K } := by
  refine ⟨[], ?_, fun xi2 E K => ?run⟩
  case run =>
    simp only [cc2__bn_sumsq_kernel_eq_skeleton]; unfold cc2__bn_sumsq_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.F2RunC.lean ====
import proofs.«417336_j40785009443359_3_alg».proof.Proof.KI.F2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 9 (first condition fails, second holds), on any whole memrefs: the two inputs at
    their contents, the output window's buffer at anything, the accumulator at the contents xs0 the point before
    left. It runs to the continuation holding the inputs as they were, the output buffer with the pieces L2 written
    (the copy of the accumulator) and the accumulator with the pieces LS0 written (the sum's store). -/
noncomputable def kernelRun2_C (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__bn_sumsq_kernel i arg2 harg2 arg3 harg3 arg4 harg4 arg5 harg5) K } := by
  refine ⟨?_, ?_, fun E K => ?run⟩
  case run =>
    simp only [cc2__bn_sumsq_kernel_eq_skeleton]; unfold cc2__bn_sumsq_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.F2.lean ====
import proofs.«417336_j40785009443359_3_alg».proof.Proof.KI.F2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The sum-of-squares region: what each case leaves, point by point, and the body obligation -/

/-! ## What each case leaves in the output window and in the accumulator -/

/-- At inner coordinate 0 nothing is stored into the output window (it is idle there and not written back): a
    placeholder that nothing consults. -/
def out2_A_2 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond2_0 i) (hc1 : ¬cond2_1 i)
    (x0 : Vec F S5000x128 .f32) (x1 : Vec F S1x128 .f32) : Vec F S1x1x128 .f32 :=
  VO2_2.read (Elt F) (VO2_2.writes (Elt F) VO2_2.junk (kernelRun2_A c i arg2 harg2 arg3 harg3 arg4 harg4 arg5 harg5 hc0 hc1 x0 x1).1)

/-- At inner coordinate 0 the pieces stored into the accumulator cover it. -/
theorem scover2_A_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond2_0 i) (hc1 : ¬cond2_1 i)
    (x0 : Vec F S5000x128 .f32) (x1 : Vec F S1x128 .f32) (y : S1x1x128.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1x1x128.size (by sl_kernel_rfl) y

/-- What the accumulator holds after the body at inner coordinate 0: the block's contribution over zero. -/
def sout2_A_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond2_0 i) (hc1 : ¬cond2_1 i)
    (x0 : Vec F S5000x128 .f32) (x1 : Vec F S1x128 .f32) : Vec F S1x1x128 .f32 :=
  VS2_0.read (Elt F) (VS2_0.writes (Elt F) VS2_0.junk (kernelRun2_A c i arg2 harg2 arg3 harg3 arg4 harg4 arg5 harg5 hc0 hc1 x0 x1).2.1)

/-- At inner coordinates 1 to 8 nothing is stored into the output window either: a placeholder again. -/
def out2_B_2 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : ¬cond2_1 i)
    (x0 : Vec F S5000x128 .f32) (x1 : Vec F S1x128 .f32) (xs0 : Vec F S1x1x128 .f32) : Vec F S1x1x128 .f32 :=
  VO2_2.read (Elt F) (VO2_2.writes (Elt F) VO2_2.junk (kernelRun2_B c i arg2 harg2 arg3 harg3 arg4 harg4 arg5 harg5 hc0 hc1 x0 x1 xs0).1)

/-- At inner coordinates 1 to 8 the piece stored into the accumulator covers it. -/
theorem scover2_B_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : ¬cond2_1 i)
    (x0 : Vec F S5000x128 .f32) (x1 : Vec F S1x128 .f32) (xs0 : Vec F S1x1x128 .f32) (y : S1x1x128.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1x1x128.size (by sl_kernel_rfl) y

/-- What the accumulator holds after the body at inner coordinates 1 to 8: the block's contribution over what the
    point before left. -/
def sout2_B_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : ¬cond2_1 i)
    (x0 : Vec F S5000x128 .f32) (x1 : Vec F S1x128 .f32) (xs0 : Vec F S1x1x128 .f32) : Vec F S1x1x128 .f32 :=
  VS2_0.read (Elt F) (VS2_0.writes (Elt F) VS2_0.junk (kernelRun2_B c i arg2 harg2 arg3 harg3 arg4 harg4 arg5 harg5 hc0 hc1 x0 x1 xs0).2.1)

/-- At inner coordinate 9 the piece stored into the output window covers it. -/
theorem cover2_C_2 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) (y : S1x1x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1x1x128.size (by sl_kernel_rfl) y

/-- What the output window's buffer holds after the body at inner coordinate 9: the finished accumulator. -/
def out2_C_2 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) : Vec F S1x1x128 .f32 :=
  VO2_2.read (Elt F) (VO2_2.writes (Elt F) VO2_2.junk (kernelRun2_C c i arg2 harg2 arg3 harg3 arg4 harg4 arg5 harg5 hc0 hc1 x0 x1 xs0).1)

/-- At inner coordinate 9 the piece stored into the accumulator covers it. -/
theorem scover2_C_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) (y : S1x1x128.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x1x128.size (by sl_kernel_rfl) y

/-- What the accumulator holds after the body at inner coordinate 9. -/
def sout2_C_0 (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) : Vec F S1x1x128 .f32 :=
  VS2_0.read (Elt F) (VS2_0.writes (Elt F) VS2_0.junk (kernelRun2_C c i arg2 harg2 arg3 harg3 arg4 harg4 arg5 harg5 hc0 hc1 x0 x1 xs0).2.1)

/-! ## The accumulation, point by point -/

/-- What the output window's buffer and the accumulator hold after the body at position n (the output window
    first, then the accumulator): the case the inner coordinate n % 10 selects, run at the point's memrefs and input
    blocks, the accumulator entering at what position n - 1 left in it (at inner coordinate 0 it is zeroed first, so
    nothing is carried in). -/
def outsAt2 (c : Dev nD) : (n : ℕ) → n < cfg2.N → Vec F S1x1x128 .f32 × Vec F S1x1x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 10 = 0 then
      if h1 : (n + 1) % 10 = 9 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 10 = 9 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- outsAt2 at a point of inner coordinate 0. -/
theorem outsAt2_A (c : Dev nD) (t : Fin cfg2.N) (h0 : t.val % 10 = 0) (h1 : ¬t.val % 10 = 9) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- outsAt2 at a point of inner coordinate 1 to 8: over what the point before left in the accumulator. -/
theorem outsAt2_B (c : Dev nD) (t : Fin cfg2.N) (h0 : ¬t.val % 10 = 0) (h1 : ¬t.val % 10 = 9) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt2 at a point of inner coordinate 9: over what the point before left in the accumulator. -/
theorem outsAt2_C (c : Dev nD) (t : Fin cfg2.N) (h0 : ¬t.val % 10 = 0) (h1 : t.val % 10 = 9) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the region's entry the class's invariant (every scoped buffer that is no staging buffer
    at anything, the generator register at some state); afterwards the accumulator owned at what position n - 1
    left in it, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the region's pipeline on core c: the arrays as the region finds them; after the body at
    point t each input's buffer at its block and the output window's at outsAt2's first component; the invariant
    PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at t.val. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the inner coordinate says which case the point is
    in; the invariant hands the body the accumulator at what the point before left (at anything at the region's
    first point) and takes it back at this point's contents; away from inner coordinate 9 the output window's
    buffer is handed back as found, at inner coordinate 9 it is left at the finished accumulator; the other scoped
    buffers, the generator register and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  by_cases h0 : t.val % 10 = 0
  · by_cases h1 : t.val % 10 = 9
    · exfalso; omega
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 10 = 9
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: the accumulator's named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 20 := N_2; omega)

end Cert.KernelIdeal.Hand

end
-- ==== Proof.KI.F3.lean ====
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The region that normalises a 5000-row block and multiplies it once against two weight
    matrices side by side, at the buffer contents `V` the region is entered with

Twenty grid points, one per 5000-row block of the 100000 rows. Eight inputs: the activations' row block (window 0)
and the inverse-degree column's row block (window 7) move with the point; the mean, variance, scale, shift, weights
and residual bias (windows 1 to 6) are one block each, brought in at the first point and held. Two outputs of a
5000-row block each (windows 8 and 9), each written whole exactly once per point. -/

/-! ## The blocks the windows show -/

/-- What window `w` shows of its array at point `t`, the array being as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the 5000-row block of the activations): whatever proof data has `V`'s array there and a body that leaves the block in
    place, the window's current buffer holds its block at every point — brought in at that point, or still there from
    an earlier one because the block index has not moved since. The window is never cut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the batch mean): whatever proof data has `V`'s array there and a body that leaves the block in
    place, the window's current buffer holds its block at every point — brought in at that point, or still there from
    an earlier one because the block index has not moved since. The window is never cut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the batch variance): whatever proof data has `V`'s array there and a body that leaves the block in
    place, the window's current buffer holds its block at every point — brought in at that point, or still there from
    an earlier one because the block index has not moved since. The window is never cut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (the scale): whatever proof data has `V`'s array there and a body that leaves the block in
    place, the window's current buffer holds its block at every point — brought in at that point, or still there from
    an earlier one because the block index has not moved since. The window is never cut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (the shift): whatever proof data has `V`'s array there and a body that leaves the block in
    place, the window's current buffer holds its block at every point — brought in at that point, or still there from
    an earlier one because the block index has not moved since. The window is never cut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 (the two weight matrices side by side): whatever proof data has `V`'s array there and a body that leaves the block in
    place, the window's current buffer holds its block at every point — brought in at that point, or still there from
    an earlier one because the block index has not moved since. The window is never cut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6 (the residual bias): whatever proof data has `V`'s array there and a body that leaves the block in
    place, the window's current buffer holds its block at every point — brought in at that point, or still there from
    an earlier one because the block index has not moved since. The window is never cut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7 (the 5000-row block of the inverse-degree column): whatever proof data has `V`'s array there and a body that leaves the block in
    place, the window's current buffer holds its block at every point — brought in at that point, or still there from
    an earlier one because the block index has not moved since. The window is never cut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each buffer whole -/

/-- All of a 5000 × 128 buffer. -/
abbrev rows3 : Rect S5000x128 := Rect.unit (s := S5000x128) ![0, 0] S5000x128.size inb_S5000x128_S5000x128_0_0
/-- All of a 1 × 128 buffer. -/
abbrev lane3 : Rect S1x128 := Rect.unit (s := S1x128) ![0, 0] S1x128.size inb_S1x128_S1x128_0_0
/-- All of the 128 × 256 weights buffer. -/
abbrev weights3 : Rect S128x256 := Rect.unit (s := S128x256) ![0, 0] S128x256.size inb_S128x256_S128x256_0_0
/-- All of a 5000 × 1 buffer. -/
abbrev column3 : Rect S5000x1 := Rect.unit (s := S5000x1) ![0, 0] S5000x1.size inb_S5000x1_S5000x1_0_0

/-! ## What the body leaves in the two output buffers -/

/-- Window 8 after the body: the left half of the product, each row scaled by its inverse degree — one store of the
    whole buffer. -/
def out3_8 (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) : Vec F S5000x128 .f32 :=
  View.canon [⟨rows3, k3_pay4 (View.ld x2 lane3) (View.ld x3 lane3) (View.ld x0 rows3) (View.ld x1 lane3) (View.ld x4 lane3) (View.ld x5 weights3) (View.ld x7 column3)⟩]

/-- Window 9 after the body: the right half of the product plus the residual bias, clamped below at zero — one
    store of the whole buffer. -/
def out3_9 (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) : Vec F S5000x128 .f32 :=
  View.canon [⟨rows3, k3_pay1 (k3_pay3 (View.ld x2 lane3) (View.ld x3 lane3) (View.ld x0 rows3) (View.ld x1 lane3) (View.ld x4 lane3) (View.ld x5 weights3) (View.ld x6 lane3)) (Scalar.ofBits .f32 0x00000000#32)⟩]

/-- One store of the whole buffer covers it: every index of window 8's buffer lies in the store's rectangle. -/
theorem cover3_8 (p0 : Vec F S5000x128 .f32) (y : S5000x128.Idx) :
    ∃ pc ∈ ([⟨rows3, p0⟩] : List (View.Piece (Elt F) S5000x128 .f32)), y ∈ pc.1.set :=
  View.cover_of_tiled [⟨rows3, p0⟩] S5000x128.size (by rfl) y

/-- The same of window 9's buffer. -/
theorem cover3_9 (p0 : Vec F S5000x128 .f32) (y : S5000x128.Idx) :
    ∃ pc ∈ ([⟨rows3, p0⟩] : List (View.Piece (Elt F) S5000x128 .f32)), y ∈ pc.1.set :=
  View.cover_of_tiled [⟨rows3, p0⟩] S5000x128.size (by rfl) y

/-! ## The body run on whole buffers -/

set_option maxHeartbeats 4000000 in
/-- The body, called on ten whole buffers — the eight inputs' reading `x0` … `x7`, the two outputs' holding anything —,
    runs to its continuation with the inputs' buffers unchanged and the outputs' reading `out3_8` and `out3_9` of the
    inputs. It is eight whole-buffer loads, a load and a store of window 8's buffer inside the called part, and a load
    and a store of window 9's buffer after it; what each store writes is a function of the eight loads alone. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S5000x1 .f32) (harg8 : arg8.IsWhole) (arg9 : Memref sig .tc .vmem S5000x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7) ∗ owns (c : Thread nD τ) arg10 fullShare (out3_9 x0 x1 x2 x3 x4 x5 x6 x7)) -∗ K ⟨⟩))
      ⊢ wp frame (wpE (defs₀ (F := F)) Variants.none c none) E (cc3__bn_normalize_matmul_kernel i arg1 harg1 arg2 harg2 arg3 harg3 arg4 harg4 arg5 harg5 arg6 harg6 arg7 harg7 arg8 harg8 arg9 harg9 arg10 harg10) K := by
  simp only [cc3__bn_normalize_matmul_kernel_eq_skeleton]; unfold cc3__bn_normalize_matmul_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover3_8 _)
  iexists _; isplitr
  swap; · iexact H9
  ipureintro
  try dsimp only
  exact View.read_writes_eq_canon _ _ _ (cover3_9 _)

/-! ## The proof data of the region's pipeline -/

/-- On core `c`: the arrays as the region finds them; after the body at point `t`, each input's buffer still at its
    block and each output's at `out3_8`, `out3_9` of the eight input blocks; the invariant is the rest of the core's
    memory and its generator register, which the body never touches; nothing is owed; every share is whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the contents the region is entered with. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body's obligation at a point -/

/-- What the body is called with at point `t`: the invariant, what the core owes, and each window's current buffer
    at what the pipeline left in it. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- What it returns: the same invariant and debt, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 1000000 in
/-- The body at any point. The inputs' buffers hold their blocks, so the run on whole buffers applies at those blocks;
    the invariant and the debt pass through unread, the same before and after. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the pipeline asks of the body, at every point. -/
theorem body_obligation3 (c : Dev nD) : BodyObligation (dat3 (F := F) V c) (defs₀ (F := F)) Variants.none () Set.univ := fun t => by
  rw [bigSep_W3, bigSep_W3]
  exact sound_body3 V c t

/-! ## Entering and leaving the region -/

/-- The invariant is the same at every point, so it is what the region is entered with, -/
theorem hin3 (c : Dev nD) : (Pipeline.ΦA spec3 c : sProp 𝕄) ⊢ (dat3 V c).Φ 0 := BIBase.Entails.rfl

/-- and what it is left with. -/
theorem hout3 (c : Dev nD) : (dat3 V c).Φ (Fin.last cfg3.N) ⊢ (Pipeline.ΦA spec3 c : sProp 𝕄) := BIBase.Entails.rfl

end Cert.KernelIdeal.Hand
-- ==== Proof.KI.F4Runs.lean ====
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The column sums of a layer's pre-activation, on a grid of 2 x 10 points

Point `(p, j)` takes row block `10 p + j` (5000 rows) of three arrays, writes the block's pre-activation to window 5,
and adds its column sums into a one-row accumulator the kernel keeps between points: zeroed at `j = 0`, copied to
row `p` of window 4 at `j = 9`. What follows is shared by the three kinds of point. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the point fetched it or not
    (unfetched, the block index has not moved since the point that did), for any proof data whose array is the
    region-entry contents and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the point fetched it or not
    (unfetched, the block index has not moved since the point that did), for any proof data whose array is the
    region-entry contents and whose body leaves the block in place: the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the point fetched it or not
    (unfetched, the block index has not moved since the point that did), for any proof data whose array is the
    region-entry contents and whose body leaves the block in place: the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the point fetched it or not
    (unfetched, the block index has not moved since the point that did), for any proof data whose array is the
    region-entry contents and whose body leaves the block in place: the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditionals, in closed form over the grid -/

/-- The first conditional's test: the inner coordinate is 0 (the accumulator is zeroed). -/
abbrev cond4_0 (i : grid4.Coords) : Prop := (Scalar.cmpi .ne (Scalar.extui (Scalar.cmpi .eq (BitVec.ofNat 32 (i 1).val) 0#32)) 0#32) = 1#1
/-- It holds exactly at the first point of each row of ten. -/
theorem hcond4_0 : ∀ t : Fin cfg4.N, cond4_0 (grid4.coords t) ↔ t.val % 10 = 0 :=
  (by decide +kernel : ∀ t : Fin grid4.N, cond4_0 (grid4.coords t) ↔ t.val % 10 = 0)

/-- The last conditional's test: the inner coordinate is 9 (the accumulated sums are copied out). -/
abbrev cond4_1 (i : grid4.Coords) : Prop := k4_cond2 i = 1#1
/-- It holds exactly at the last point of each row of ten. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where window 4 is idle -/

/-- The inputs and window 5 are stored or read at every point. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_5 : ∀ t : Fin cfg4.N, cfg4.idle 5 (grid4.coords t) = false := by decide +kernel
/-- Where the inner coordinate is not 9 the body stores nothing into window 4, and the table says so; -/
theorem idleAt4_4 : ∀ t : Fin cfg4.N, ¬cond4_1 (grid4.coords t) → cfg4.idle 4 (grid4.coords t) = true := by decide +kernel
/-- there its block index is the next point's too, so nothing is written back; -/
theorem noFlush4_4 : ∀ t : Fin cfg4.N, ¬cond4_1 (grid4.coords t) → (cfg4.win 4).flush t = false := by decide +kernel
/-- where it is 9 the body stores the whole row. -/
theorem liveAt4_4 : ∀ t : Fin cfg4.N, cond4_1 (grid4.coords t) → cfg4.idle 4 (grid4.coords t) = false := by decide +kernel

/-! ## The memrefs the body is called on -/

/-- Each window's current staging memref at point `t`, as the pipeline passes it, with its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
/-- The accumulator: a whole scoped buffer of the kernel's own, passed beside the windows. -/
abbrev scM4_0 : Memref sig .tc .vmem S1x1x128 .f32 := Memref.whole cc4_scratch0
/-- The accumulator as a view: its contents are stated through it. -/
abbrev VS4_0 : View sig .tc .vmem S1x1x128 .f32 := scM4_0.view
/-- One staging buffer of each output window, through which the window's contents are stated (a covering list of
    writes reads back the same through any view of the shape). -/
abbrev VO4_4 : View sig .tc .vmem S1x1x128 .f32 := (Memref.whole cc4_stg4_0 : Memref sig .tc .vmem S1x1x128 .f32).view
abbrev VO4_5 : View sig .tc .vmem S5000x128 .f32 := (Memref.whole cc4_stg5_0 : Memref sig .tc .vmem S5000x128 .f32).view

/-- What the launch hands the region, with the accumulator split off as a memref owned at some contents: the other
    scoped buffers stay one unopened conjunct. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.F4RunA.lean ====
import proofs.«417336_j40785009443359_3_alg».proof.Proof.KI.F4Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 0. On whole memrefs, the inputs' at their contents, window 4's at contents it hands
    back untouched (it stores nothing there), window 5's and the accumulator at anything (the accumulator is zeroed
    before it is read), the body runs to a continuation holding the inputs' as they were, window 5's buffer with the
    pre-activation written and the accumulator with the zero row and then the block's column sums written: the lists of
    writes (last first) are the witness the symbolic run of the skeleton finds. -/
noncomputable def kernelRun4_A (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc4__bn_sum_kernel i arg2 harg2 arg3 harg3 arg4 harg4 arg5 harg5 arg6 harg6 arg7 harg7 arg8 harg8) K } := by
  refine ⟨[], ?_, ?_, fun xi4 E K => ?run⟩
  case run =>
    simp only [cc4__bn_sum_kernel_eq_skeleton]; unfold cc4__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.F4RunB.lean ====
import proofs.«417336_j40785009443359_3_alg».proof.Proof.KI.F4RunA
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE STRICTLY BETWEEN 0 AND 9. On whole memrefs, the inputs' at their contents, window 4's
    at contents it hands back untouched, window 5's at anything, the accumulator at what the point before left
    (`xs0`), the body runs to a continuation holding the inputs' as they were, window 5's buffer with the
    pre-activation written and the accumulator with `xs0` plus the block's column sums written: the lists of writes
    (last first) are the witness the symbolic run of the skeleton finds. -/
noncomputable def kernelRun4_B (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc4__bn_sum_kernel i arg2 harg2 arg3 harg3 arg4 harg4 arg5 harg5 arg6 harg6 arg7 harg7 arg8 harg8) K } := by
  refine ⟨[], ?_, ?_, fun xi4 E K => ?run⟩
  case run =>
    simp only [cc4__bn_sum_kernel_eq_skeleton]; unfold cc4__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.F4RunC.lean ====
import proofs.«417336_j40785009443359_3_alg».proof.Proof.KI.F4RunB
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 9. On whole memrefs, the inputs' at their contents, both output windows' at anything,
    the accumulator at what the point before left (`xs0`), the body runs to a continuation holding the inputs' as they
    were, window 5's buffer with the pre-activation written, the accumulator with `xs0` plus the block's column sums
    written, and window 4's buffer with that finished row written: the lists of writes (last first) are the witness
    the symbolic run of the skeleton finds. -/
noncomputable def kernelRun4_C (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc4__bn_sum_kernel i arg2 harg2 arg3 harg3 arg4 harg4 arg5 harg5 arg6 harg6 arg7 harg7 arg8 harg8) K } := by
  refine ⟨?_, ?_, ?_, fun E K => ?run⟩
  case run =>
    simp only [cc4__bn_sum_kernel_eq_skeleton]; unfold cc4__bn_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Hand

end
-- ==== Proof.KI.F4.lean ====
import proofs.«417336_j40785009443359_3_alg».proof.Proof.KI.F4RunC
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # The frame half: what each kind of point leaves, the accumulation over the grid, the proof data -/

/-- Where the inner coordinate is 0 nothing is stored into window 4 and nothing is written back: a placeholder (no writes, read
    back) that no later point and no write-back consults. -/
def out4_A_4 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) : Vec F S1x1x128 .f32 :=
  VO4_4.read (Elt F) (VO4_4.writes (Elt F) VO4_4.junk (kernelRun4_A c i arg2 harg2 arg3 harg3 arg4 harg4 arg5 harg5 arg6 harg6 arg7 harg7 arg8 harg8 hc0 hc1 x0 x1 x2 x3).1)

/-- Where the inner coordinate is 0 the writes into window 5 cover its block. -/
theorem cover4_A_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) (y : S5000x128.Idx) :
    ∃ pc ∈ (kernelRun4_A c i arg2 harg2 arg3 harg3 arg4 harg4 arg5 harg5 arg6 harg6 arg7 harg7 arg8 harg8 hc0 hc1 x0 x1 x2 x3).2.1, y ∈ pc.1.set :=
  View.cover_of_tiledL (kernelRun4_A c i arg2 harg2 arg3 harg3 arg4 harg4 arg5 harg5 arg6 harg6 arg7 harg7 arg8 harg8 hc0 hc1 x0 x1 x2 x3).2.1 S5000x128.size (by sl_kernel_rfl) y

/-- What such a point leaves in window 5's staging buffer: its writes read back. -/
def out4_A_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) : Vec F S5000x128 .f32 :=
  VO4_5.read (Elt F) (VO4_5.writes (Elt F) VO4_5.junk (kernelRun4_A c i arg2 harg2 arg3 harg3 arg4 harg4 arg5 harg5 arg6 harg6 arg7 harg7 arg8 harg8 hc0 hc1 x0 x1 x2 x3).2.1)

/-- Where the inner coordinate is 0 the writes into the accumulator cover its one row. -/
theorem scover4_A_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) (y : S1x1x128.Idx) :
    ∃ pc ∈ (kernelRun4_A c i arg2 harg2 arg3 harg3 arg4 harg4 arg5 harg5 arg6 harg6 arg7 harg7 arg8 harg8 hc0 hc1 x0 x1 x2 x3).2.2.1, y ∈ pc.1.set :=
  View.cover_of_tiledL (kernelRun4_A c i arg2 harg2 arg3 harg3 arg4 harg4 arg5 harg5 arg6 harg6 arg7 harg7 arg8 harg8 hc0 hc1 x0 x1 x2 x3).2.2.1 S1x1x128.size (by sl_kernel_rfl) y

/-- What such a point leaves in the accumulator: its writes read back. -/
def sout4_A_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) : Vec F S1x1x128 .f32 :=
  VS4_0.read (Elt F) (VS4_0.writes (Elt F) VS4_0.junk (kernelRun4_A c i arg2 harg2 arg3 harg3 arg4 harg4 arg5 harg5 arg6 harg6 arg7 harg7 arg8 harg8 hc0 hc1 x0 x1 x2 x3).2.2.1)

/-- Where the inner coordinate is strictly between 0 and 9 nothing is stored into window 4 and nothing is written back: a placeholder (no writes, read
    back) that no later point and no write-back consults. -/
def out4_B_4 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO4_4.read (Elt F) (VO4_4.writes (Elt F) VO4_4.junk (kernelRun4_B c i arg2 harg2 arg3 harg3 arg4 harg4 arg5 harg5 arg6 harg6 arg7 harg7 arg8 harg8 hc0 hc1 x0 x1 x2 x3 xs0).1)

/-- Where the inner coordinate is strictly between 0 and 9 the writes into window 5 cover its block. -/
theorem cover4_B_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun4_B c i arg2 harg2 arg3 harg3 arg4 harg4 arg5 harg5 arg6 harg6 arg7 harg7 arg8 harg8 hc0 hc1 x0 x1 x2 x3 xs0).2.1, y ∈ pc.1.set :=
  View.cover_of_tiledL (kernelRun4_B c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out4_B_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) : Vec F S5000x128 .f32 :=
  VO4_5.read (Elt F) (VO4_5.writes (Elt F) VO4_5.junk (kernelRun4_B c i arg2 harg2 arg3 harg3 arg4 harg4 arg5 harg5 arg6 harg6 arg7 harg7 arg8 harg8 hc0 hc1 x0 x1 x2 x3 xs0).2.1)

/-- Where the inner coordinate is strictly between 0 and 9 the writes into the accumulator cover its one row. -/
theorem scover4_B_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun4_B c i arg2 harg2 arg3 harg3 arg4 harg4 arg5 harg5 arg6 harg6 arg7 harg7 arg8 harg8 hc0 hc1 x0 x1 x2 x3 xs0).2.2.1, y ∈ pc.1.set :=
  View.cover_of_tiledL (kernelRun4_B c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout4_B_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS4_0.read (Elt F) (VS4_0.writes (Elt F) VS4_0.junk (kernelRun4_B c i arg2 harg2 arg3 harg3 arg4 harg4 arg5 harg5 arg6 harg6 arg7 harg7 arg8 harg8 hc0 hc1 x0 x1 x2 x3 xs0).2.2.1)

/-- Where the inner coordinate is 9 the writes into window 4 cover its one row. -/
theorem cover4_C_4 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun4_C c i arg2 harg2 arg3 harg3 arg4 harg4 arg5 harg5 arg6 harg6 arg7 harg7 arg8 harg8 hc0 hc1 x0 x1 x2 x3 xs0).1, y ∈ pc.1.set :=
  View.cover_of_tiledL (kernelRun4_C c i arg2 harg2 arg3 harg3 arg4 harg4 arg5 harg5 arg6 harg6 arg7 harg7 arg8 harg8 hc0 hc1 x0 x1 x2 x3 xs0).1 S1x1x128.size (by sl_kernel_rfl) y

/-- What such a point leaves in window 4's staging buffer: its writes read back. -/
def out4_C_4 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO4_4.read (Elt F) (VO4_4.writes (Elt F) VO4_4.junk (kernelRun4_C c i arg2 harg2 arg3 harg3 arg4 harg4 arg5 harg5 arg6 harg6 arg7 harg7 arg8 harg8 hc0 hc1 x0 x1 x2 x3 xs0).1)

/-- Where the inner coordinate is 9 the writes into window 5 cover its block. -/
theorem cover4_C_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun4_C c i arg2 harg2 arg3 harg3 arg4 harg4 arg5 harg5 arg6 harg6 arg7 harg7 arg8 harg8 hc0 hc1 x0 x1 x2 x3 xs0).2.1, y ∈ pc.1.set :=
  View.cover_of_tiledL (kernelRun4_C c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out4_C_5 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) : Vec F S5000x128 .f32 :=
  VO4_5.read (Elt F) (VO4_5.writes (Elt F) VO4_5.junk (kernelRun4_C c i arg2 harg2 arg3 harg3 arg4 harg4 arg5 harg5 arg6 harg6 arg7 harg7 arg8 harg8 hc0 hc1 x0 x1 x2 x3 xs0).2.1)

/-- Where the inner coordinate is 9 the writes into the accumulator cover its one row. -/
theorem scover4_C_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun4_C c i arg2 harg2 arg3 harg3 arg4 harg4 arg5 harg5 arg6 harg6 arg7 harg7 arg8 harg8 hc0 hc1 x0 x1 x2 x3 xs0).2.2.1, y ∈ pc.1.set :=
  View.cover_of_tiledL (kernelRun4_C c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout4_C_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS4_0.read (Elt F) (VS4_0.writes (Elt F) VS4_0.junk (kernelRun4_C c i arg2 harg2 arg3 harg3 arg4 harg4 arg5 harg5 arg6 harg6 arg7 harg7 arg8 harg8 hc0 hc1 x0 x1 x2 x3 xs0).2.2.1)

/-! ## What the outputs and the accumulator hold after each point -/

/-- THE ACCUMULATION. What window 4's and window 5's staging buffers and the accumulator hold after the body at position
    `n` (a triple, in that order): the kind of point the closed forms select at `n`, run at the point's memrefs and input
    blocks, and, where the inner coordinate is not 0, over what position `n - 1` left in the accumulator. Both closed
    forms at once is no point. -/
def outsAt4 (c : Dev nD) : (n : ℕ) → n < cfg4.N → Vec F S1x1x128 .f32 × Vec F S5000x128 .f32 × Vec F S1x1x128 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h0 : (n + 1) % 10 = 0 then
      if h1 : (n + 1) % 10 = 9 then
        False.elim (by omega)
      else
        (out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩), out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩))
    else
      if h1 : (n + 1) % 10 = 9 then
        (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2)
      else
        (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2, out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2)

/-- `outsAt4` where the inner coordinate is 0: that kind of point's contents (nothing of the position before). -/
theorem outsAt4_A (c : Dev nD) (t : Fin cfg4.N) (h0 : t.val % 10 = 0) (h1 : ¬t.val % 10 = 9) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t), out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact (dif_pos h0).trans ((dif_neg h1).trans rfl)

/-- `outsAt4` where the inner coordinate is strictly between 0 and 9: over what the position before left. -/
theorem outsAt4_B (c : Dev nD) (t : Fin cfg4.N) (h0 : ¬t.val % 10 = 0) (h1 : ¬t.val % 10 = 9) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2, out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt4` where the inner coordinate is 9: over what the position before left. -/
theorem outsAt4_C (c : Dev nD) (t : Fin cfg4.N) (h0 : ¬t.val % 10 = 0) (h1 : t.val % 10 = 9) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer at anything, the generator register at some state); afterwards the accumulator owned at what the position
    before left in it (`outsAt4`'s last component), the other scoped buffers unopened, the register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After position `n`: the accumulator at that position's contents. -/
theorem PhiS4_succ (c : Dev nD) (n : ℕ) (hn : n < cfg4.N) :
    PhiS4 V c (n + 1) hn = iprop(iprop(owns (c : Thread nD τ) scM4_0 fullShare ((outsAt4 V c n hn).2.2) ∗ Pipeline.scopedRestBut (Ix := Unit) (Name := ℕ) (U := UR sig nD τ) (Lvl := ℕ) (Val := Elt F) spec4 c [cc4_scratch0]) ∗ (∃ r, prngReg c r)) := rfl

/-- Before a position that is not the first: the accumulator at what the position before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of this region on core `c`: the arrays as the region finds them; after the body at point `t` each
    input's buffer at its block, window 4's and window 5's at `outsAt4`'s first two components; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
  Φ t := PhiS4 V c t.val (Nat.le_of_lt_succ t.isLt)
  q _ := fullShare
  owed _ := 0

/-- The proof data's arrays are the region-entry contents (the definition projected; the contents are never opened). -/
theorem A_eq4 (c : Dev nD) (w : Fin cfg4.W) : (dat4 V c).A w = V c (Pipeline.arrRef spec4 w) := by
  dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t` (the library's obligation, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point. The inputs' memrefs hold their blocks; the two closed forms say which kind of point it is; the
    invariant hands the body the accumulator at what the position before left (at anything before the first point,
    which zeroes it before reading it), the other scoped buffers and the generator register pass through; the run of
    that kind of point applies, and the accumulator comes back at this position's contents because the run's writes
    cover it, as do window 5's and, where the inner coordinate is 9, window 4's; elsewhere window 4's buffer is handed
    back as found. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 10 = 0
  · by_cases h1 : t.val % 10 = 9
    · exfalso; omega
    · -- the inner coordinate is 0
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 4 t (idleAt4_4 t (fun h => h1 ((hcond4_1 t).mp h))) (noFlush4_4 t (fun h => h1 ((hcond4_1 t).mp h)))]
      rw [outsAt4_A V c t h0 h1]
      unfold out4_A_5 sout4_A_0; (try dsimp only)
      by_cases hz : t.val = 0
      · rw [PhiS4_castSucc V c t, PhiS4_zero V c _ _ hz, PhiA4_eq]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover4_A_5 c _ _ _ _ _ _ _ _ _ _ _ _ _ _ _ _ _ _ _ _ _)
      · rw [PhiS4_castSucc V c t, PhiS4_pos V c _ _ hz]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover4_A_5 c _ _ _ _ _ _ _ _ _ _ _ _ _ _ _ _ _ _ _ _ _)
  · by_cases h1 : t.val % 10 = 9
    · -- the inner coordinate is 9
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 5 t = owns (c : Thread nD τ) (ms4_5 t) fullShare ((dat4 V c).after 5 t) from by
        unfold Dat.leavesExact; rw [liveAt4_5 t], after4_5]
      rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_C V c t h0 h1]
      unfold out4_C_4 out4_C_5 sout4_C_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c _ _ _ _ _ _ _ _ _ _ _ _ _ _ _ _ _ _ _ _ _ _)
      unfold owns; iexists _; isplitr
      swap; · iexact H5
      ipureintro; exact View.read_writes_of_cover _ _ _ _ _ (cover4_C_5 c _ _ _ _ _ _ _ _ _ _ _ _ _ _ _ _ _ _ _ _ _ _)
    · -- the inner coordinate is strictly between 0 and 9
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 4 t (idleAt4_4 t (fun h => h1 ((hcond4_1 t).mp h))) (noFlush4_4 t (fun h => h1 ((hcond4_1 t).mp h)))]
      rw [outsAt4_B V c t h0 h1]
      unfold out4_B_5 sout4_B_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover4_B_5 c _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point the invariant gives back what the launch handed over: the accumulator's named contents are forgotten. -/
theorem Phi4_out (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ (Pipeline.ΦA spec4 c : sProp 𝕄) :=
  Phi4_out V c _ (by rw [Fin.val_last]; have : cfg4.N = 20 := N_4; omega)

end Cert.KernelIdeal.Hand

end
-- ==== Proof.KI.F5Runs.lean ====
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # The sum-of-squares region: what its three cases share

The grid is 2 x 10; a point t has inner coordinate t.val % 10. The body zeroes the carried accumulator at
inner coordinate 0, adds the column sums of the block's centred squares into it at every point, and copies it
into the output window at inner coordinate 9. -/

/-! ## The windows' blocks -/

/-- Window w's block at point t, read off its array at the contents V the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The 5000-row block window's current staging buffer holds its block at every point, for any proof data whose
    array is V's and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The mean row's window is fetched once; its staging buffer holds the row at every point all the same. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, in closed form over the grid -/

/-- "The inner coordinate is 0": the condition under which the body zeroes the accumulator. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)

/-- "The inner coordinate is 9": the condition under which the body copies the accumulator out. -/
abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

/-- The two input windows are never idle. -/
theorem liveAt5_0 : ∀ t : Fin cfg5.N, cfg5.idle 0 (grid5.coords t) = false := by decide +kernel
theorem liveAt5_1 : ∀ t : Fin cfg5.N, cfg5.idle 1 (grid5.coords t) = false := by decide +kernel
/-- Away from inner coordinate 9 the output window is idle and its block is not written back. -/
theorem idleAt5_2_A : ∀ t : Fin cfg5.N, cond5_0 (grid5.coords t) → ¬cond5_1 (grid5.coords t) → cfg5.idle 2 (grid5.coords t) = true := by decide +kernel
theorem noFlush5_2_A : ∀ t : Fin cfg5.N, cond5_0 (grid5.coords t) → ¬cond5_1 (grid5.coords t) → (cfg5.win 2).flush t = false := by decide +kernel
theorem idleAt5_2_B : ∀ t : Fin cfg5.N, ¬cond5_0 (grid5.coords t) → ¬cond5_1 (grid5.coords t) → cfg5.idle 2 (grid5.coords t) = true := by decide +kernel
theorem noFlush5_2_B : ∀ t : Fin cfg5.N, ¬cond5_0 (grid5.coords t) → ¬cond5_1 (grid5.coords t) → (cfg5.win 2).flush t = false := by decide +kernel
/-- At inner coordinate 9 the output window is live. -/
theorem liveAt5_2_C : ∀ t : Fin cfg5.N, ¬cond5_0 (grid5.coords t) → cond5_1 (grid5.coords t) → cfg5.idle 2 (grid5.coords t) = false := by decide +kernel

/-! ## The memrefs the body is called with -/

/-- One staging buffer of the output window, through which its contents are stated. -/
abbrev VO5_2 : View sig .tc .vmem S1x1x128 .f32 := (Memref.whole cc5_stg2_0 : Memref sig .tc .vmem S1x1x128 .f32).view
/-- Each window's current staging memref at point t, and its wholeness. -/
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1x128 .f32 := win5_2.stage (cfg5.slots t 2)
abbrev hs5_2 (t : Fin cfg5.N) : (ms5_2 t).IsWhole := hstage5_2 ((cfg5.slots t 2).cast nbuf5_2)
/-- The accumulator: a whole scoped buffer of the kernel's own, carried from point to point. -/
abbrev scM5_0 : Memref sig .tc .vmem S1x1x128 .f32 := Memref.whole cc5_scratch0
abbrev VS5_0 : View sig .tc .vmem S1x1x128 .f32 := scM5_0.view

/-- The region's entry invariant with the accumulator as a memref owned at some contents, the other scoped
    buffers unopened. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.KernelIdeal.Hand

end
-- ==== Proof.KI.F5RunA.lean ====
import proofs.«417336_j40785009443359_3_alg».proof.Proof.KI.F5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 0 (first condition holds, second fails), on any whole memrefs: the two inputs at
    their contents, the output window's buffer at contents handed back untouched, the accumulator at anything. It
    runs to the continuation holding the inputs and the output buffer as they were and the accumulator with the
    pieces LS0 written (the zero store, then the sum's store); no piece goes to the output window. -/
noncomputable def kernelRun5_A (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond5_0 i) (hc1 : ¬cond5_1 i)
    (x0 : Vec F S5000x128 .f32) (x1 : Vec F S1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc5__bn_sumsq_kernel i arg2 harg2 arg3 harg3 arg4 harg4 arg5 harg5) K } := by
  refine ⟨[], ?_, fun xi2 E K => ?run⟩
  case run =>
    simp only [cc5__bn_sumsq_kernel_eq_skeleton]; unfold cc5__bn_sumsq_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.F5RunB.lean ====
import proofs.«417336_j40785009443359_3_alg».proof.Proof.KI.F5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinates 1 to 8 (both conditions fail), on any whole memrefs: the two inputs at their
    contents, the output window's buffer at contents handed back untouched, the accumulator at the contents xs0 the
    point before left. It runs to the continuation holding the inputs and the output buffer as they were and the
    accumulator with the pieces LS0 written (the sum's store). -/
noncomputable def kernelRun5_B (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : ¬cond5_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc5__bn_sumsq_kernel i arg2 harg2 arg3 harg3 arg4 harg4 arg5 harg5) K } := by
  refine ⟨[], ?_, fun xi2 E K => ?run⟩
  case run =>
    simp only [cc5__bn_sumsq_kernel_eq_skeleton]; unfold cc5__bn_sumsq_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.F5RunC.lean ====
import proofs.«417336_j40785009443359_3_alg».proof.Proof.KI.F5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 9 (first condition fails, second holds), on any whole memrefs: the two inputs at
    their contents, the output window's buffer at anything, the accumulator at the contents xs0 the point before
    left. It runs to the continuation holding the inputs as they were, the output buffer with the pieces L2 written
    (the copy of the accumulator) and the accumulator with the pieces LS0 written (the sum's store). -/
noncomputable def kernelRun5_C (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc5__bn_sumsq_kernel i arg2 harg2 arg3 harg3 arg4 harg4 arg5 harg5) K } := by
  refine ⟨?_, ?_, fun E K => ?run⟩
  case run =>
    simp only [cc5__bn_sumsq_kernel_eq_skeleton]; unfold cc5__bn_sumsq_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.F5.lean ====
import proofs.«417336_j40785009443359_3_alg».proof.Proof.KI.F5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The sum-of-squares region: what each case leaves, point by point, and the body obligation -/

/-! ## What each case leaves in the output window and in the accumulator -/

/-- At inner coordinate 0 nothing is stored into the output window (it is idle there and not written back): a
    placeholder that nothing consults. -/
def out5_A_2 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond5_0 i) (hc1 : ¬cond5_1 i)
    (x0 : Vec F S5000x128 .f32) (x1 : Vec F S1x128 .f32) : Vec F S1x1x128 .f32 :=
  VO5_2.read (Elt F) (VO5_2.writes (Elt F) VO5_2.junk (kernelRun5_A c i arg2 harg2 arg3 harg3 arg4 harg4 arg5 harg5 hc0 hc1 x0 x1).1)

/-- At inner coordinate 0 the pieces stored into the accumulator cover it. -/
theorem scover5_A_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond5_0 i) (hc1 : ¬cond5_1 i)
    (x0 : Vec F S5000x128 .f32) (x1 : Vec F S1x128 .f32) (y : S1x1x128.Idx) :
    ∃ pc ∈ (kernelRun5_A c i arg2 harg2 arg3 harg3 arg4 harg4 arg5 harg5 hc0 hc1 x0 x1).2.1, y ∈ pc.1.set :=
  View.cover_of_tiledL (kernelRun5_A c i arg2 harg2 arg3 harg3 arg4 harg4 arg5 harg5 hc0 hc1 x0 x1).2.1 S1x1x128.size (by sl_kernel_rfl) y

/-- What the accumulator holds after the body at inner coordinate 0: the block's contribution over zero. -/
def sout5_A_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond5_0 i) (hc1 : ¬cond5_1 i)
    (x0 : Vec F S5000x128 .f32) (x1 : Vec F S1x128 .f32) : Vec F S1x1x128 .f32 :=
  VS5_0.read (Elt F) (VS5_0.writes (Elt F) VS5_0.junk (kernelRun5_A c i arg2 harg2 arg3 harg3 arg4 harg4 arg5 harg5 hc0 hc1 x0 x1).2.1)

/-- At inner coordinates 1 to 8 nothing is stored into the output window either: a placeholder again. -/
def out5_B_2 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : ¬cond5_1 i)
    (x0 : Vec F S5000x128 .f32) (x1 : Vec F S1x128 .f32) (xs0 : Vec F S1x1x128 .f32) : Vec F S1x1x128 .f32 :=
  VO5_2.read (Elt F) (VO5_2.writes (Elt F) VO5_2.junk (kernelRun5_B c i arg2 harg2 arg3 harg3 arg4 harg4 arg5 harg5 hc0 hc1 x0 x1 xs0).1)

/-- At inner coordinates 1 to 8 the piece stored into the accumulator covers it. -/
theorem scover5_B_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : ¬cond5_1 i)
    (x0 : Vec F S5000x128 .f32) (x1 : Vec F S1x128 .f32) (xs0 : Vec F S1x1x128 .f32) (y : S1x1x128.Idx) :
    ∃ pc ∈ (kernelRun5_B c i arg2 harg2 arg3 harg3 arg4 harg4 arg5 harg5 hc0 hc1 x0 x1 xs0).2.1, y ∈ pc.1.set :=
  View.cover_of_tiledL (kernelRun5_B c i arg2 harg2 arg3 harg3 arg4 harg4 arg5 harg5 hc0 hc1 x0 x1 xs0).2.1 S1x1x128.size (by sl_kernel_rfl) y

/-- What the accumulator holds after the body at inner coordinates 1 to 8: the block's contribution over what the
    point before left. -/
def sout5_B_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : ¬cond5_1 i)
    (x0 : Vec F S5000x128 .f32) (x1 : Vec F S1x128 .f32) (xs0 : Vec F S1x1x128 .f32) : Vec F S1x1x128 .f32 :=
  VS5_0.read (Elt F) (VS5_0.writes (Elt F) VS5_0.junk (kernelRun5_B c i arg2 harg2 arg3 harg3 arg4 harg4 arg5 harg5 hc0 hc1 x0 x1 xs0).2.1)

/-- At inner coordinate 9 the piece stored into the output window covers it. -/
theorem cover5_C_2 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) (y : S1x1x128.Idx) :
    ∃ pc ∈ (kernelRun5_C c i arg2 harg2 arg3 harg3 arg4 harg4 arg5 harg5 hc0 hc1 x0 x1 xs0).1, y ∈ pc.1.set :=
  View.cover_of_tiledL (kernelRun5_C c i arg2 harg2 arg3 harg3 arg4 harg4 arg5 harg5 hc0 hc1 x0 x1 xs0).1 S1x1x128.size (by sl_kernel_rfl) y

/-- What the output window's buffer holds after the body at inner coordinate 9: the finished accumulator. -/
def out5_C_2 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) : Vec F S1x1x128 .f32 :=
  VO5_2.read (Elt F) (VO5_2.writes (Elt F) VO5_2.junk (kernelRun5_C c i arg2 harg2 arg3 harg3 arg4 harg4 arg5 harg5 hc0 hc1 x0 x1 xs0).1)

/-- At inner coordinate 9 the piece stored into the accumulator covers it. -/
theorem scover5_C_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) (y : S1x1x128.Idx) :
    ∃ pc ∈ (kernelRun5_C c i arg2 harg2 arg3 harg3 arg4 harg4 arg5 harg5 hc0 hc1 x0 x1 xs0).2.1, y ∈ pc.1.set :=
  View.cover_of_tiledL (kernelRun5_C c i arg2 harg2 arg3 harg3 arg4 harg4 arg5 harg5 hc0 hc1 x0 x1 xs0).2.1 S1x1x128.size (by sl_kernel_rfl) y

/-- What the accumulator holds after the body at inner coordinate 9. -/
def sout5_C_0 (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) : Vec F S1x1x128 .f32 :=
  VS5_0.read (Elt F) (VS5_0.writes (Elt F) VS5_0.junk (kernelRun5_C c i arg2 harg2 arg3 harg3 arg4 harg4 arg5 harg5 hc0 hc1 x0 x1 xs0).2.1)

/-! ## The accumulation, point by point -/

/-- What the output window's buffer and the accumulator hold after the body at position n (the output window
    first, then the accumulator): the case the inner coordinate n % 10 selects, run at the point's memrefs and input
    blocks, the accumulator entering at what position n - 1 left in it (at inner coordinate 0 it is zeroed first, so
    nothing is carried in). -/
def outsAt5 (c : Dev nD) : (n : ℕ) → n < cfg5.N → Vec F S1x1x128 .f32 × Vec F S1x1x128 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 10 = 0 then
      if h1 : (n + 1) % 10 = 9 then
        False.elim (by omega)
      else
        (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 10 = 9 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2)
      else
        (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2)

/-- outsAt5 at a point of inner coordinate 0. -/
theorem outsAt5_A (c : Dev nD) (t : Fin cfg5.N) (h0 : t.val % 10 = 0) (h1 : ¬t.val % 10 = 9) :
    outsAt5 V c t.val t.isLt = (out5_A_2 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t), sout5_A_0 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

/-- outsAt5 at a point of inner coordinate 1 to 8: over what the point before left in the accumulator. -/
theorem outsAt5_B (c : Dev nD) (t : Fin cfg5.N) (h0 : ¬t.val % 10 = 0) (h1 : ¬t.val % 10 = 9) :
    outsAt5 V c t.val t.isLt = (out5_B_2 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt5 at a point of inner coordinate 9: over what the point before left in the accumulator. -/
theorem outsAt5_C (c : Dev nD) (t : Fin cfg5.N) (h0 : ¬t.val % 10 = 0) (h1 : t.val % 10 = 9) :
    outsAt5 V c t.val t.isLt = (out5_C_2 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the region's entry the class's invariant (every scoped buffer that is no staging buffer
    at anything, the generator register at some state); afterwards the accumulator owned at what position n - 1
    left in it, the other scoped buffers unopened, the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of the region's pipeline on core c: the arrays as the region finds them; after the body at
    point t each input's buffer at its block and the output window's at outsAt5's first component; the invariant
    PhiS5; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

/-- The invariant at a point's start, restated at t.val. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point. The inputs' memrefs hold their blocks; the inner coordinate says which case the point is
    in; the invariant hands the body the accumulator at what the point before left (at anything at the region's
    first point) and takes it back at this point's contents; away from inner coordinate 9 the output window's
    buffer is handed back as found, at inner coordinate 9 it is left at the finished accumulator; the other scoped
    buffers, the generator register and what the core owes pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 20 := lt_of_lt_of_eq t.isLt (show cfg5.N = 20 from N_5)
  by_cases h0 : t.val % 10 = 0
  · by_cases h1 : t.val % 10 = 9
    · exfalso; omega
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [Dat.leavesExact_idle (dat5 V c) 2 t (idleAt5_2_A t ((hcond5_0 t).mpr h0) (fun h => h1 ((hcond5_1 t).mp h))) (noFlush5_2_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩⟩
        iapply ((kernelRun5_A c (grid5.coords t) _ _ _ _ _ _ _ _ ((hcond5_0 t).mpr h0) (fun h => h1 ((hcond5_1 t).mp h)) (iblk5 V c 0 t) (iblk5 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _)
            iexact HR
          iexact Hg
        isplitl [Ho]; · iexact Ho
        isplitl [H0]; · iexact H0
        isplitl [H1]; · iexact H1
        iexists _; iexact H2
      · rw [PhiS5_castSucc V c t, PhiS5_pos V c _ _ hz]
        iintro ⟨⟨⟨HS0, HR⟩, Hg⟩, Ho, ⟨%d0, H0⟩, ⟨%d1, H1⟩, ⟨%d2, H2⟩⟩
        iapply ((kernelRun5_A c (grid5.coords t) _ _ _ _ _ _ _ _ ((hcond5_0 t).mpr h0) (fun h => h1 ((hcond5_1 t).mp h)) (iblk5 V c 0 t) (iblk5 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 10 = 9
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [show (dat5 V c).leavesExact 2 t = owns (c : Thread nD τ) (ms5_2 t) fullShare ((dat5 V c).after 2 t) from by
          unfold Dat.leavesExact; rw [liveAt5_2_C t (fun h => h0 ((hcond5_0 t).mp h)) ((hcond5_1 t).mpr h1)], after5_2]
      rw [outsAt5_C V c t h0 h1]
      unfold out5_C_2 sout5_C_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩⟩
        iapply ((kernelRun5_C c (grid5.coords t) _ _ _ _ _ _ _ _ (fun h => h0 ((hcond5_0 t).mp h)) ((hcond5_1 t).mpr h1) (iblk5 V c 0 t) (iblk5 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover5_C_2 c _ _ _ _ _ _ _ _ _ _ _ _ _ _)
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [Dat.leavesExact_idle (dat5 V c) 2 t (idleAt5_2_B t (fun h => h0 ((hcond5_0 t).mp h)) (fun h => h1 ((hcond5_1 t).mp h))) (noFlush5_2_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩⟩
        iapply ((kernelRun5_B c (grid5.coords t) _ _ _ _ _ _ _ _ (fun h => h0 ((hcond5_0 t).mp h)) (fun h => h1 ((hcond5_1 t).mp h)) (iblk5 V c 0 t) (iblk5 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After any point the invariant gives the class's back: the accumulator's named contents are forgotten. -/
theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ (Pipeline.ΦA spec5 c : sProp 𝕄) :=
  Phi_out5 V c _ (by rw [Fin.val_last]; have : cfg5.N = 20 := N_5; omega)

end Cert.KernelIdeal.Hand

end
-- ==== Proof.KI.F6.lean ====
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The region that normalises a 5000-row block and multiplies it once against two weight
    matrices side by side, at the buffer contents `V` the region is entered with

Twenty grid points, one per 5000-row block of the 100000 rows. Eight inputs: the activations' row block (window 0)
and the inverse-degree column's row block (window 7) move with the point; the mean, variance, scale, shift, weights
and residual bias (windows 1 to 6) are one block each, brought in at the first point and held. Two outputs of a
5000-row block each (windows 8 and 9), each written whole exactly once per point. -/

/-! ## The blocks the windows show -/

/-- What window `w` shows of its array at point `t`, the array being as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the 5000-row block of the activations): whatever proof data has `V`'s array there and a body that leaves the block in
    place, the window's current buffer holds its block at every point — brought in at that point, or still there from
    an earlier one because the block index has not moved since. The window is never cut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the batch mean): whatever proof data has `V`'s array there and a body that leaves the block in
    place, the window's current buffer holds its block at every point — brought in at that point, or still there from
    an earlier one because the block index has not moved since. The window is never cut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2 (the batch variance): whatever proof data has `V`'s array there and a body that leaves the block in
    place, the window's current buffer holds its block at every point — brought in at that point, or still there from
    an earlier one because the block index has not moved since. The window is never cut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3 (the scale): whatever proof data has `V`'s array there and a body that leaves the block in
    place, the window's current buffer holds its block at every point — brought in at that point, or still there from
    an earlier one because the block index has not moved since. The window is never cut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4 (the shift): whatever proof data has `V`'s array there and a body that leaves the block in
    place, the window's current buffer holds its block at every point — brought in at that point, or still there from
    an earlier one because the block index has not moved since. The window is never cut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5 (the two weight matrices side by side): whatever proof data has `V`'s array there and a body that leaves the block in
    place, the window's current buffer holds its block at every point — brought in at that point, or still there from
    an earlier one because the block index has not moved since. The window is never cut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6 (the residual bias): whatever proof data has `V`'s array there and a body that leaves the block in
    place, the window's current buffer holds its block at every point — brought in at that point, or still there from
    an earlier one because the block index has not moved since. The window is never cut and never idle. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7 (the 5000-row block of the inverse-degree column): whatever proof data has `V`'s array there and a body that leaves the block in
    place, the window's current buffer holds its block at every point — brought in at that point, or still there from
    an earlier one because the block index has not moved since. The window is never cut and never idle. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes: each buffer whole -/

/-- All of a 5000 × 128 buffer. -/
abbrev rows6 : Rect S5000x128 := Rect.unit (s := S5000x128) ![0, 0] S5000x128.size inb_S5000x128_S5000x128_0_0
/-- All of a 1 × 128 buffer. -/
abbrev lane6 : Rect S1x128 := Rect.unit (s := S1x128) ![0, 0] S1x128.size inb_S1x128_S1x128_0_0
/-- All of the 128 × 256 weights buffer. -/
abbrev weights6 : Rect S128x256 := Rect.unit (s := S128x256) ![0, 0] S128x256.size inb_S128x256_S128x256_0_0
/-- All of a 5000 × 1 buffer. -/
abbrev column6 : Rect S5000x1 := Rect.unit (s := S5000x1) ![0, 0] S5000x1.size inb_S5000x1_S5000x1_0_0

/-! ## What the body leaves in the two output buffers -/

/-- Window 8 after the body: the left half of the product, each row scaled by its inverse degree — one store of the
    whole buffer. -/
def out6_8 (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) : Vec F S5000x128 .f32 :=
  View.canon [⟨rows6, k6_pay4 (View.ld x2 lane6) (View.ld x3 lane6) (View.ld x0 rows6) (View.ld x1 lane6) (View.ld x4 lane6) (View.ld x5 weights6) (View.ld x7 column6)⟩]

/-- Window 9 after the body: the right half of the product plus the residual bias, clamped below at zero — one
    store of the whole buffer. -/
def out6_9 (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) : Vec F S5000x128 .f32 :=
  View.canon [⟨rows6, k6_pay1 (k6_pay3 (View.ld x2 lane6) (View.ld x3 lane6) (View.ld x0 rows6) (View.ld x1 lane6) (View.ld x4 lane6) (View.ld x5 weights6) (View.ld x6 lane6)) (Scalar.ofBits .f32 0x00000000#32)⟩]

/-- One store of the whole buffer covers it: every index of window 8's buffer lies in the store's rectangle. -/
theorem cover6_8 (p0 : Vec F S5000x128 .f32) (y : S5000x128.Idx) :
    ∃ pc ∈ ([⟨rows6, p0⟩] : List (View.Piece (Elt F) S5000x128 .f32)), y ∈ pc.1.set :=
  View.cover_of_tiled [⟨rows6, p0⟩] S5000x128.size (by rfl) y

/-- The same of window 9's buffer. -/
theorem cover6_9 (p0 : Vec F S5000x128 .f32) (y : S5000x128.Idx) :
    ∃ pc ∈ ([⟨rows6, p0⟩] : List (View.Piece (Elt F) S5000x128 .f32)), y ∈ pc.1.set :=
  View.cover_of_tiled [⟨rows6, p0⟩] S5000x128.size (by rfl) y

/-! ## The body run on whole buffers -/

set_option maxHeartbeats 4000000 in
/-- The body, called on ten whole buffers — the eight inputs' reading `x0` … `x7`, the two outputs' holding anything —,
    runs to its continuation with the inputs' buffers unchanged and the outputs' reading `out6_8` and `out6_9` of the
    inputs. It is eight whole-buffer loads, a load and a store of window 8's buffer inside the called part, and a load
    and a store of window 9's buffer after it; what each store writes is a function of the eight loads alone. -/
theorem sound_kernel6 (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S5000x1 .f32) (harg8 : arg8.IsWhole) (arg9 : Memref sig .tc .vmem S5000x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S128x256 .f32) (x6 : Vec F S1x128 .f32) (x7 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out6_8 x0 x1 x2 x3 x4 x5 x6 x7) ∗ owns (c : Thread nD τ) arg10 fullShare (out6_9 x0 x1 x2 x3 x4 x5 x6 x7)) -∗ K ⟨⟩))
      ⊢ wp frame (wpE (defs₀ (F := F)) Variants.none c none) E (cc6__bn_normalize_matmul_kernel i arg1 harg1 arg2 harg2 arg3 harg3 arg4 harg4 arg5 harg5 arg6 harg6 arg7 harg7 arg8 harg8 arg9 harg9 arg10 harg10) K := by
  simp only [cc6__bn_normalize_matmul_kernel_eq_skeleton]; unfold cc6__bn_normalize_matmul_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover6_8 _)
  iexists _; isplitr
  swap; · iexact H9
  ipureintro
  try dsimp only
  exact View.read_writes_eq_canon _ _ _ (cover6_9 _)

/-! ## The proof data of the region's pipeline -/

/-- On core `c`: the arrays as the region finds them; after the body at point `t`, each input's buffer still at its
    block and each output's at `out6_8`, `out6_9` of the eight input blocks; the invariant is the rest of the core's
    memory and its generator register, which the body never touches; nothing is owed; every share is whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
    | ⟨9, _⟩ => out6_9 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

/-- The proof data's arrays are the contents the region is entered with. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) := by dsimp only [dat6]

/-- Each input's current buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-! ## The body's obligation at a point -/

/-- What the body is called with at point `t`: the invariant, what the core owes, and each window's current buffer
    at what the pipeline left in it. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- What it returns: the same invariant and debt, each buffer at what the proof data says the body leaves. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

set_option maxHeartbeats 1000000 in
/-- The body at any point. The inputs' buffers hold their blocks, so the run on whole buffers applies at those blocks;
    the invariant and the debt pass through unread, the same before and after. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the pipeline asks of the body, at every point. -/
theorem body_obligation6 (c : Dev nD) : BodyObligation (dat6 (F := F) V c) (defs₀ (F := F)) Variants.none () Set.univ := fun t => by
  rw [bigSep_W6, bigSep_W6]
  exact sound_body6 V c t

/-! ## Entering and leaving the region -/

/-- The invariant is the same at every point, so it is what the region is entered with, -/
theorem hin6 (c : Dev nD) : (Pipeline.ΦA spec6 c : sProp 𝕄) ⊢ (dat6 V c).Φ 0 := BIBase.Entails.rfl

/-- and what it is left with. -/
theorem hout6 (c : Dev nD) : (dat6 V c).Φ (Fin.last cfg6.N) ⊢ (Pipeline.ΦA spec6 c : sProp 𝕄) := BIBase.Entails.rfl

end Cert.KernelIdeal.Hand
-- ==== Proof.KI.F7Runs.lean ====
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The column sums of a layer's pre-activation, on a grid of 2 x 10 points

Point `(p, j)` takes row block `10 p + j` (5000 rows) of three arrays, writes the block's pre-activation to window 5,
and adds its column sums into a one-row accumulator the kernel keeps between points: zeroed at `j = 0`, copied to
row `p` of window 4 at `j = 9`. What follows is shared by the three kinds of point. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether the point fetched it or not
    (unfetched, the block index has not moved since the point that did), for any proof data whose array is the
    region-entry contents and whose body leaves the block in place: the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether the point fetched it or not
    (unfetched, the block index has not moved since the point that did), for any proof data whose array is the
    region-entry contents and whose body leaves the block in place: the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether the point fetched it or not
    (unfetched, the block index has not moved since the point that did), for any proof data whose array is the
    region-entry contents and whose body leaves the block in place: the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether the point fetched it or not
    (unfetched, the block index has not moved since the point that did), for any proof data whose array is the
    region-entry contents and whose body leaves the block in place: the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditionals, in closed form over the grid -/

/-- The first conditional's test: the inner coordinate is 0 (the accumulator is zeroed). -/
abbrev cond7_0 (i : grid7.Coords) : Prop := (Scalar.cmpi .ne (Scalar.extui (Scalar.cmpi .eq (BitVec.ofNat 32 (i 1).val) 0#32)) 0#32) = 1#1
/-- It holds exactly at the first point of each row of ten. -/
theorem hcond7_0 : ∀ t : Fin cfg7.N, cond7_0 (grid7.coords t) ↔ t.val % 10 = 0 :=
  (by decide +kernel : ∀ t : Fin grid7.N, cond7_0 (grid7.coords t) ↔ t.val % 10 = 0)

/-- The last conditional's test: the inner coordinate is 9 (the accumulated sums are copied out). -/
abbrev cond7_1 (i : grid7.Coords) : Prop := k7_cond2 i = 1#1
/-- It holds exactly at the last point of each row of ten. -/
theorem hcond7_1 : ∀ t : Fin cfg7.N, cond7_1 (grid7.coords t) ↔ t.val % 10 = 9 :=
  (by decide +kernel : ∀ t : Fin grid7.N, cond7_1 (grid7.coords t) ↔ t.val % 10 = 9)

/-! ## Where window 4 is idle -/

/-- The inputs and window 5 are stored or read at every point. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_5 : ∀ t : Fin cfg7.N, cfg7.idle 5 (grid7.coords t) = false := by decide +kernel
/-- Where the inner coordinate is not 9 the body stores nothing into window 4, and the table says so; -/
theorem idleAt7_4 : ∀ t : Fin cfg7.N, ¬cond7_1 (grid7.coords t) → cfg7.idle 4 (grid7.coords t) = true := by decide +kernel
/-- there its block index is the next point's too, so nothing is written back; -/
theorem noFlush7_4 : ∀ t : Fin cfg7.N, ¬cond7_1 (grid7.coords t) → (cfg7.win 4).flush t = false := by decide +kernel
/-- where it is 9 the body stores the whole row. -/
theorem liveAt7_4 : ∀ t : Fin cfg7.N, cond7_1 (grid7.coords t) → cfg7.idle 4 (grid7.coords t) = false := by decide +kernel

/-! ## The memrefs the body is called on -/

/-- Each window's current staging memref at point `t`, as the pipeline passes it, with its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S5000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S5000x128 .f32 := win7_5.stage (cfg7.slots t 5)
abbrev hs7_5 (t : Fin cfg7.N) : (ms7_5 t).IsWhole := hstage7_5 ((cfg7.slots t 5).cast nbuf7_5)
/-- The accumulator: a whole scoped buffer of the kernel's own, passed beside the windows. -/
abbrev scM7_0 : Memref sig .tc .vmem S1x1x128 .f32 := Memref.whole cc7_scratch0
/-- The accumulator as a view: its contents are stated through it. -/
abbrev VS7_0 : View sig .tc .vmem S1x1x128 .f32 := scM7_0.view
/-- One staging buffer of each output window, through which the window's contents are stated (a covering list of
    writes reads back the same through any view of the shape). -/
abbrev VO7_4 : View sig .tc .vmem S1x1x128 .f32 := (Memref.whole cc7_stg4_0 : Memref sig .tc .vmem S1x1x128 .f32).view
abbrev VO7_5 : View sig .tc .vmem S5000x128 .f32 := (Memref.whole cc7_stg5_0 : Memref sig .tc .vmem S5000x128 .f32).view

/-- What the launch hands the region, with the accumulator split off as a memref owned at some contents: the other
    scoped buffers stay one unopened conjunct. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.KernelIdeal.Hand

end
-- ==== Proof.KI.F7RunA.lean ====
import proofs.«417336_j40785009443359_3_alg».proof.Proof.KI.F7Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 0. On whole memrefs, the inputs' at their contents, window 4's at contents it hands
    back untouched (it stores nothing there), window 5's and the accumulator at anything (the accumulator is zeroed
    before it is read), the body runs to a continuation holding the inputs' as they were, window 5's buffer with the
    pre-activation written and the accumulator with the zero row and then the block's column sums written: the lists of
    writes (last first) are the witness the symbolic run of the skeleton finds. -/
noncomputable def kernelRun7_A (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc7__bn_sum_kernel i arg2 harg2 arg3 harg3 arg4 harg4 arg5 harg5 arg6 harg6 arg7 harg7 arg8 harg8) K } := by
  refine ⟨[], ?_, ?_, fun xi4 E K => ?run⟩
  case run =>
    simp only [cc7__bn_sum_kernel_eq_skeleton]; unfold cc7__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.F7RunB.lean ====
import proofs.«417336_j40785009443359_3_alg».proof.Proof.KI.F7RunA
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE STRICTLY BETWEEN 0 AND 9. On whole memrefs, the inputs' at their contents, window 4's
    at contents it hands back untouched, window 5's at anything, the accumulator at what the point before left
    (`xs0`), the body runs to a continuation holding the inputs' as they were, window 5's buffer with the
    pre-activation written and the accumulator with `xs0` plus the block's column sums written: the lists of writes
    (last first) are the witness the symbolic run of the skeleton finds. -/
noncomputable def kernelRun7_B (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc7__bn_sum_kernel i arg2 harg2 arg3 harg3 arg4 harg4 arg5 harg5 arg6 harg6 arg7 harg7 arg8 harg8) K } := by
  refine ⟨[], ?_, ?_, fun xi4 E K => ?run⟩
  case run =>
    simp only [cc7__bn_sum_kernel_eq_skeleton]; unfold cc7__bn_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.F7RunC.lean ====
import proofs.«417336_j40785009443359_3_alg».proof.Proof.KI.F7RunB
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

-- (the run's proof term is large: closing the definition walks it past the default budget)
set_option maxHeartbeats 1000000 in
/-- A POINT WITH INNER COORDINATE 9. On whole memrefs, the inputs' at their contents, both output windows' at anything,
    the accumulator at what the point before left (`xs0`), the body runs to a continuation holding the inputs' as they
    were, window 5's buffer with the pre-activation written, the accumulator with `xs0` plus the block's column sums
    written, and window 4's buffer with that finished row written: the lists of writes (last first) are the witness
    the symbolic run of the skeleton finds. -/
noncomputable def kernelRun7_C (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) :
    Σ' (L4 : List (View.Piece (Elt F) S1x1x128 .f32)) (L5 : List (View.Piece (Elt F) S5000x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc7__bn_sum_kernel i arg2 harg2 arg3 harg3 arg4 harg4 arg5 harg5 arg6 harg6 arg7 harg7 arg8 harg8) K } := by
  refine ⟨?_, ?_, ?_, fun E K => ?run⟩
  case run =>
    simp only [cc7__bn_sum_kernel_eq_skeleton]; unfold cc7__bn_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Hand

end
-- ==== Proof.KI.F7.lean ====
import proofs.«417336_j40785009443359_3_alg».proof.Proof.KI.F7RunC
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # The frame half: what each kind of point leaves, the accumulation over the grid, the proof data -/

/-- Where the inner coordinate is 0 nothing is stored into window 4 and nothing is written back: a placeholder (no writes, read
    back) that no later point and no write-back consults. -/
def out7_A_4 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) : Vec F S1x1x128 .f32 :=
  VO7_4.read (Elt F) (VO7_4.writes (Elt F) VO7_4.junk (kernelRun7_A c i arg2 harg2 arg3 harg3 arg4 harg4 arg5 harg5 arg6 harg6 arg7 harg7 arg8 harg8 hc0 hc1 x0 x1 x2 x3).1)

/-- Where the inner coordinate is 0 the writes into window 5 cover its block. -/
theorem cover7_A_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) (y : S5000x128.Idx) :
    ∃ pc ∈ (kernelRun7_A c i arg2 harg2 arg3 harg3 arg4 harg4 arg5 harg5 arg6 harg6 arg7 harg7 arg8 harg8 hc0 hc1 x0 x1 x2 x3).2.1, y ∈ pc.1.set :=
  View.cover_of_tiledL (kernelRun7_A c i arg2 harg2 arg3 harg3 arg4 harg4 arg5 harg5 arg6 harg6 arg7 harg7 arg8 harg8 hc0 hc1 x0 x1 x2 x3).2.1 S5000x128.size (by sl_kernel_rfl) y

/-- What such a point leaves in window 5's staging buffer: its writes read back. -/
def out7_A_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) : Vec F S5000x128 .f32 :=
  VO7_5.read (Elt F) (VO7_5.writes (Elt F) VO7_5.junk (kernelRun7_A c i arg2 harg2 arg3 harg3 arg4 harg4 arg5 harg5 arg6 harg6 arg7 harg7 arg8 harg8 hc0 hc1 x0 x1 x2 x3).2.1)

/-- Where the inner coordinate is 0 the writes into the accumulator cover its one row. -/
theorem scover7_A_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) (y : S1x1x128.Idx) :
    ∃ pc ∈ (kernelRun7_A c i arg2 harg2 arg3 harg3 arg4 harg4 arg5 harg5 arg6 harg6 arg7 harg7 arg8 harg8 hc0 hc1 x0 x1 x2 x3).2.2.1, y ∈ pc.1.set :=
  View.cover_of_tiledL (kernelRun7_A c i arg2 harg2 arg3 harg3 arg4 harg4 arg5 harg5 arg6 harg6 arg7 harg7 arg8 harg8 hc0 hc1 x0 x1 x2 x3).2.2.1 S1x1x128.size (by sl_kernel_rfl) y

/-- What such a point leaves in the accumulator: its writes read back. -/
def sout7_A_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) : Vec F S1x1x128 .f32 :=
  VS7_0.read (Elt F) (VS7_0.writes (Elt F) VS7_0.junk (kernelRun7_A c i arg2 harg2 arg3 harg3 arg4 harg4 arg5 harg5 arg6 harg6 arg7 harg7 arg8 harg8 hc0 hc1 x0 x1 x2 x3).2.2.1)

/-- Where the inner coordinate is strictly between 0 and 9 nothing is stored into window 4 and nothing is written back: a placeholder (no writes, read
    back) that no later point and no write-back consults. -/
def out7_B_4 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO7_4.read (Elt F) (VO7_4.writes (Elt F) VO7_4.junk (kernelRun7_B c i arg2 harg2 arg3 harg3 arg4 harg4 arg5 harg5 arg6 harg6 arg7 harg7 arg8 harg8 hc0 hc1 x0 x1 x2 x3 xs0).1)

/-- Where the inner coordinate is strictly between 0 and 9 the writes into window 5 cover its block. -/
theorem cover7_B_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun7_B c i arg2 harg2 arg3 harg3 arg4 harg4 arg5 harg5 arg6 harg6 arg7 harg7 arg8 harg8 hc0 hc1 x0 x1 x2 x3 xs0).2.1, y ∈ pc.1.set :=
  View.cover_of_tiledL (kernelRun7_B c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out7_B_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) : Vec F S5000x128 .f32 :=
  VO7_5.read (Elt F) (VO7_5.writes (Elt F) VO7_5.junk (kernelRun7_B c i arg2 harg2 arg3 harg3 arg4 harg4 arg5 harg5 arg6 harg6 arg7 harg7 arg8 harg8 hc0 hc1 x0 x1 x2 x3 xs0).2.1)

/-- Where the inner coordinate is strictly between 0 and 9 the writes into the accumulator cover its one row. -/
theorem scover7_B_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun7_B c i arg2 harg2 arg3 harg3 arg4 harg4 arg5 harg5 arg6 harg6 arg7 harg7 arg8 harg8 hc0 hc1 x0 x1 x2 x3 xs0).2.2.1, y ∈ pc.1.set :=
  View.cover_of_tiledL (kernelRun7_B c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout7_B_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS7_0.read (Elt F) (VS7_0.writes (Elt F) VS7_0.junk (kernelRun7_B c i arg2 harg2 arg3 harg3 arg4 harg4 arg5 harg5 arg6 harg6 arg7 harg7 arg8 harg8 hc0 hc1 x0 x1 x2 x3 xs0).2.2.1)

/-- Where the inner coordinate is 9 the writes into window 4 cover its one row. -/
theorem cover7_C_4 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun7_C c i arg2 harg2 arg3 harg3 arg4 harg4 arg5 harg5 arg6 harg6 arg7 harg7 arg8 harg8 hc0 hc1 x0 x1 x2 x3 xs0).1, y ∈ pc.1.set :=
  View.cover_of_tiledL (kernelRun7_C c i arg2 harg2 arg3 harg3 arg4 harg4 arg5 harg5 arg6 harg6 arg7 harg7 arg8 harg8 hc0 hc1 x0 x1 x2 x3 xs0).1 S1x1x128.size (by sl_kernel_rfl) y

/-- What such a point leaves in window 4's staging buffer: its writes read back. -/
def out7_C_4 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) : Vec F S1x1x128 .f32 :=
  VO7_4.read (Elt F) (VO7_4.writes (Elt F) VO7_4.junk (kernelRun7_C c i arg2 harg2 arg3 harg3 arg4 harg4 arg5 harg5 arg6 harg6 arg7 harg7 arg8 harg8 hc0 hc1 x0 x1 x2 x3 xs0).1)

/-- Where the inner coordinate is 9 the writes into window 5 cover its block. -/
theorem cover7_C_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) (y : S5000x128.Idx) :
    ∃ pc ∈ (kernelRun7_C c i arg2 harg2 arg3 harg3 arg4 harg4 arg5 harg5 arg6 harg6 arg7 harg7 arg8 harg8 hc0 hc1 x0 x1 x2 x3 xs0).2.1, y ∈ pc.1.set :=
  View.cover_of_tiledL (kernelRun7_C c i arg2 harg2 arg3 harg3 arg4 harg4 arg5 harg5 arg6 harg6 arg7 harg7 arg8 harg8 hc0 hc1 x0 x1 x2 x3 xs0).2.1 S5000x128.size (by sl_kernel_rfl) y

/-- What such a point leaves in window 5's staging buffer: its writes read back. -/
def out7_C_5 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) : Vec F S5000x128 .f32 :=
  VO7_5.read (Elt F) (VO7_5.writes (Elt F) VO7_5.junk (kernelRun7_C c i arg2 harg2 arg3 harg3 arg4 harg4 arg5 harg5 arg6 harg6 arg7 harg7 arg8 harg8 hc0 hc1 x0 x1 x2 x3 xs0).2.1)

/-- Where the inner coordinate is 9 the writes into the accumulator cover its one row. -/
theorem scover7_C_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) (y : S1x1x128.Idx) :
    ∃ pc ∈ (kernelRun7_C c i arg2 harg2 arg3 harg3 arg4 harg4 arg5 harg5 arg6 harg6 arg7 harg7 arg8 harg8 hc0 hc1 x0 x1 x2 x3 xs0).2.2.1, y ∈ pc.1.set :=
  View.cover_of_tiledL (kernelRun7_C c i arg2 harg2 arg3 harg3 arg4 harg4 arg5 harg5 arg6 harg6 arg7 harg7 arg8 harg8 hc0 hc1 x0 x1 x2 x3 xs0).2.2.1 S1x1x128.size (by sl_kernel_rfl) y

/-- What such a point leaves in the accumulator: its writes read back. -/
def sout7_C_0 (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) : Vec F S1x1x128 .f32 :=
  VS7_0.read (Elt F) (VS7_0.writes (Elt F) VS7_0.junk (kernelRun7_C c i arg2 harg2 arg3 harg3 arg4 harg4 arg5 harg5 arg6 harg6 arg7 harg7 arg8 harg8 hc0 hc1 x0 x1 x2 x3 xs0).2.2.1)

/-! ## What the outputs and the accumulator hold after each point -/

/-- THE ACCUMULATION. What window 4's and window 5's staging buffers and the accumulator hold after the body at position
    `n` (a triple, in that order): the kind of point the closed forms select at `n`, run at the point's memrefs and input
    blocks, and, where the inner coordinate is not 0, over what position `n - 1` left in the accumulator. Both closed
    forms at once is no point. -/
def outsAt7 (c : Dev nD) : (n : ℕ) → n < cfg7.N → Vec F S1x1x128 .f32 × Vec F S5000x128 .f32 × Vec F S1x1x128 .f32
  | 0, hn => (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩))
  | n + 1, hn =>
    if h0 : (n + 1) % 10 = 0 then
      if h1 : (n + 1) % 10 = 9 then
        False.elim (by omega)
      else
        (out7_A_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩), out7_A_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩))
    else
      if h1 : (n + 1) % 10 = 9 then
        (out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2, out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2)
      else
        (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2, out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2)

/-- `outsAt7` where the inner coordinate is 0: that kind of point's contents (nothing of the position before). -/
theorem outsAt7_A (c : Dev nD) (t : Fin cfg7.N) (h0 : t.val % 10 = 0) (h1 : ¬t.val % 10 = 9) :
    outsAt7 V c t.val t.isLt = (out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr h0) (fun h => h1 ((hcond7_1 t).mp h)) (iblk7 V c 0 t) (iblk7 V c 1 t) (iblk7 V c 2 t) (iblk7 V c 3 t), out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr h0) (fun h => h1 ((hcond7_1 t).mp h)) (iblk7 V c 0 t) (iblk7 V c 1 t) (iblk7 V c 2 t) (iblk7 V c 3 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr h0) (fun h => h1 ((hcond7_1 t).mp h)) (iblk7 V c 0 t) (iblk7 V c 1 t) (iblk7 V c 2 t) (iblk7 V c 3 t)) := by
  obtain ⟨n, hn⟩ := t
  cases n with
  | zero => exact rfl
  | succ n => exact (dif_pos h0).trans ((dif_neg h1).trans rfl)

/-- `outsAt7` where the inner coordinate is strictly between 0 and 9: over what the position before left. -/
theorem outsAt7_B (c : Dev nD) (t : Fin cfg7.N) (h0 : ¬t.val % 10 = 0) (h1 : ¬t.val % 10 = 9) :
    outsAt7 V c t.val t.isLt = (out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2, out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt7` where the inner coordinate is 9: over what the position before left. -/
theorem outsAt7_C (c : Dev nD) (t : Fin cfg7.N) (h0 : ¬t.val % 10 = 0) (h1 : t.val % 10 = 9) :
    outsAt7 V c t.val t.isLt = (out7_C_4 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2, out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer at anything, the generator register at some state); afterwards the accumulator owned at what the position
    before left in it (`outsAt7`'s last component), the other scoped buffers unopened, the register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2.2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

/-- After position `n`: the accumulator at that position's contents. -/
theorem PhiS7_succ (c : Dev nD) (n : ℕ) (hn : n < cfg7.N) :
    PhiS7 V c (n + 1) hn = iprop(iprop(owns (c : Thread nD τ) scM7_0 fullShare ((outsAt7 V c n hn).2.2) ∗ Pipeline.scopedRestBut (Ix := Unit) (Name := ℕ) (U := UR sig nD τ) (Lvl := ℕ) (Val := Elt F) spec7 c [cc7_scratch0]) ∗ (∃ r, prngReg c r)) := rfl

/-- Before a position that is not the first: the accumulator at what the position before left. -/
theorem PhiS7_pos (c : Dev nD) (n : ℕ) (h : n ≤ cfg7.N) (hz : n ≠ 0) :
    PhiS7 V c n h = iprop(iprop(owns (c : Thread nD τ) scM7_0 fullShare ((outsAt7 V c (n - 1) (by omega)).2.2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

/-- The proof data of this region on core `c`: the arrays as the region finds them; after the body at point `t` each
    input's buffer at its block, window 4's and window 5's at `outsAt7`'s first two components; the invariant `PhiS7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
  Φ t := PhiS7 V c t.val (Nat.le_of_lt_succ t.isLt)
  q _ := fullShare
  owed _ := 0

/-- The proof data's arrays are the region-entry contents (the definition projected; the contents are never opened). -/
theorem A_eq7 (c : Dev nD) (w : Fin cfg7.W) : (dat7 V c).A w = V c (Pipeline.arrRef spec7 w) := by
  dsimp only [dat7]

/-- The invariant at a point's start, restated at the point's position. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t` (the library's obligation, the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4800000 in
/-- The body at any point. The inputs' memrefs hold their blocks; the two closed forms say which kind of point it is; the
    invariant hands the body the accumulator at what the position before left (at anything before the first point,
    which zeroes it before reading it), the other scoped buffers and the generator register pass through; the run of
    that kind of point applies, and the accumulator comes back at this position's contents because the run's writes
    cover it, as do window 5's and, where the inner coordinate is 9, window 4's; elsewhere window 4's buffer is handed
    back as found. The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  by_cases h0 : t.val % 10 = 0
  · by_cases h1 : t.val % 10 = 9
    · exfalso; omega
    · -- the inner coordinate is 0
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3 t], after7_3]
      rw [show (dat7 V c).leavesExact 5 t = owns (c : Thread nD τ) (ms7_5 t) fullShare ((dat7 V c).after 5 t) from by
        unfold Dat.leavesExact; rw [liveAt7_5 t], after7_5]
      rw [Dat.leavesExact_idle (dat7 V c) 4 t (idleAt7_4 t (fun h => h1 ((hcond7_1 t).mp h))) (noFlush7_4 t (fun h => h1 ((hcond7_1 t).mp h)))]
      rw [outsAt7_A V c t h0 h1]
      unfold out7_A_5 sout7_A_0; (try dsimp only)
      by_cases hz : t.val = 0
      · rw [PhiS7_castSucc V c t, PhiS7_zero V c _ _ hz, PhiA7_eq]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun7_A c (grid7.coords t) _ _ _ _ _ _ _ _ _ _ _ _ _ _ ((hcond7_0 t).mpr h0) (fun h => h1 ((hcond7_1 t).mp h)) (iblk7 V c 0 t) (iblk7 V c 1 t) (iblk7 V c 2 t) (iblk7 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover7_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover7_A_5 c _ _ _ _ _ _ _ _ _ _ _ _ _ _ _ _ _ _ _ _ _)
      · rw [PhiS7_castSucc V c t, PhiS7_pos V c _ _ hz]
        · iintro ⟨⟨⟨HS0, HR⟩, Hg⟩, Ho, ⟨%d0, H0⟩, ⟨%d1, H1⟩, ⟨%d2, H2⟩, ⟨%d3, H3⟩, ⟨%d4, H4⟩, ⟨%d5, H5⟩⟩
          iapply ((kernelRun7_A c (grid7.coords t) _ _ _ _ _ _ _ _ _ _ _ _ _ _ ((hcond7_0 t).mpr h0) (fun h => h1 ((hcond7_1 t).mp h)) (iblk7 V c 0 t) (iblk7 V c 1 t) (iblk7 V c 2 t) (iblk7 V c 3 t)).2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          iintro ⟨H0, H1, H2, H3, H4, ⟨%e5, H5⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover7_A_0 c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexists _; iexact H4
          unfold owns; iexists _; isplitr
          swap; · iexact H5
          ipureintro; exact View.read_writes_of_cover _ _ _ _ _ (cover7_A_5 c _ _ _ _ _ _ _ _ _ _ _ _ _ _ _ _ _ _ _ _ _)
  · by_cases h1 : t.val % 10 = 9
    · -- the inner coordinate is 9
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3 t], after7_3]
      rw [show (dat7 V c).leavesExact 5 t = owns (c : Thread nD τ) (ms7_5 t) fullShare ((dat7 V c).after 5 t) from by
        unfold Dat.leavesExact; rw [liveAt7_5 t], after7_5]
      rw [show (dat7 V c).leavesExact 4 t = owns (c : Thread nD τ) (ms7_4 t) fullShare ((dat7 V c).after 4 t) from by
        unfold Dat.leavesExact; rw [liveAt7_4 t ((hcond7_1 t).mpr h1)], after7_4]
      rw [outsAt7_C V c t h0 h1]
      unfold out7_C_4 out7_C_5 sout7_C_0; (try dsimp only)
      have hz : t.val ≠ 0 := by omega
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun7_C c (grid7.coords t) _ _ _ _ _ _ _ _ _ _ _ _ _ _ (fun h => h0 ((hcond7_0 t).mp h)) ((hcond7_1 t).mpr h1) (iblk7 V c 0 t) (iblk7 V c 1 t) (iblk7 V c 2 t) (iblk7 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_C_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_C_4 c _ _ _ _ _ _ _ _ _ _ _ _ _ _ _ _ _ _ _ _ _ _)
      unfold owns; iexists _; isplitr
      swap; · iexact H5
      ipureintro; exact View.read_writes_of_cover _ _ _ _ _ (cover7_C_5 c _ _ _ _ _ _ _ _ _ _ _ _ _ _ _ _ _ _ _ _ _ _)
    · -- the inner coordinate is strictly between 0 and 9
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3 t], after7_3]
      rw [show (dat7 V c).leavesExact 5 t = owns (c : Thread nD τ) (ms7_5 t) fullShare ((dat7 V c).after 5 t) from by
        unfold Dat.leavesExact; rw [liveAt7_5 t], after7_5]
      rw [Dat.leavesExact_idle (dat7 V c) 4 t (idleAt7_4 t (fun h => h1 ((hcond7_1 t).mp h))) (noFlush7_4 t (fun h => h1 ((hcond7_1 t).mp h)))]
      rw [outsAt7_B V c t h0 h1]
      unfold out7_B_5 sout7_B_0; (try dsimp only)
      have hz : t.val ≠ 0 := by omega
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun7_B c (grid7.coords t) _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) _).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover7_B_5 c _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After any point the invariant gives back what the launch handed over: the accumulator's named contents are forgotten. -/
theorem Phi7_out (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

/-- The same after the last point. -/
theorem hout7 (c : Dev nD) : (dat7 V c).Φ (Fin.last cfg7.N) ⊢ (Pipeline.ΦA spec7 c : sProp 𝕄) :=
  Phi7_out V c _ (by rw [Fin.val_last]; have : cfg7.N = 20 := N_7; omega)

end Cert.KernelIdeal.Hand

end
-- ==== Proof.KI.F8Runs.lean ====
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # The sum-of-squares region: what its three cases share

The grid is 2 x 10; a point t has inner coordinate t.val % 10. The body zeroes the carried accumulator at
inner coordinate 0, adds the column sums of the block's centred squares into it at every point, and copies it
into the output window at inner coordinate 9. -/

/-! ## The windows' blocks -/

/-- Window w's block at point t, read off its array at the contents V the region is entered with. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The 5000-row block window's current staging buffer holds its block at every point, for any proof data whose
    array is V's and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The mean row's window is fetched once; its staging buffer holds the row at every point all the same. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's two conditions, in closed form over the grid -/

/-- "The inner coordinate is 0": the condition under which the body zeroes the accumulator. -/
abbrev cond8_0 (i : grid8.Coords) : Prop := (Scalar.cmpi .ne (Scalar.extui (Scalar.cmpi .eq (BitVec.ofNat 32 (i 1).val) 0#32)) 0#32) = 1#1
theorem hcond8_0 : ∀ t : Fin cfg8.N, cond8_0 (grid8.coords t) ↔ t.val % 10 = 0 :=
  (by decide +kernel : ∀ t : Fin grid8.N, cond8_0 (grid8.coords t) ↔ t.val % 10 = 0)

/-- "The inner coordinate is 9": the condition under which the body copies the accumulator out. -/
abbrev cond8_1 (i : grid8.Coords) : Prop := k8_cond2 i = 1#1
theorem hcond8_1 : ∀ t : Fin cfg8.N, cond8_1 (grid8.coords t) ↔ t.val % 10 = 9 :=
  (by decide +kernel : ∀ t : Fin grid8.N, cond8_1 (grid8.coords t) ↔ t.val % 10 = 9)

/-! ## Where the windows are idle -/

/-- The two input windows are never idle. -/
theorem liveAt8_0 : ∀ t : Fin cfg8.N, cfg8.idle 0 (grid8.coords t) = false := by decide +kernel
theorem liveAt8_1 : ∀ t : Fin cfg8.N, cfg8.idle 1 (grid8.coords t) = false := by decide +kernel
/-- Away from inner coordinate 9 the output window is idle and its block is not written back. -/
theorem idleAt8_2_A : ∀ t : Fin cfg8.N, cond8_0 (grid8.coords t) → ¬cond8_1 (grid8.coords t) → cfg8.idle 2 (grid8.coords t) = true := by decide +kernel
theorem noFlush8_2_A : ∀ t : Fin cfg8.N, cond8_0 (grid8.coords t) → ¬cond8_1 (grid8.coords t) → (cfg8.win 2).flush t = false := by decide +kernel
theorem idleAt8_2_B : ∀ t : Fin cfg8.N, ¬cond8_0 (grid8.coords t) → ¬cond8_1 (grid8.coords t) → cfg8.idle 2 (grid8.coords t) = true := by decide +kernel
theorem noFlush8_2_B : ∀ t : Fin cfg8.N, ¬cond8_0 (grid8.coords t) → ¬cond8_1 (grid8.coords t) → (cfg8.win 2).flush t = false := by decide +kernel
/-- At inner coordinate 9 the output window is live. -/
theorem liveAt8_2_C : ∀ t : Fin cfg8.N, ¬cond8_0 (grid8.coords t) → cond8_1 (grid8.coords t) → cfg8.idle 2 (grid8.coords t) = false := by decide +kernel

/-! ## The memrefs the body is called with -/

/-- One staging buffer of the output window, through which its contents are stated. -/
abbrev VO8_2 : View sig .tc .vmem S1x1x128 .f32 := (Memref.whole cc8_stg2_0 : Memref sig .tc .vmem S1x1x128 .f32).view
/-- Each window's current staging memref at point t, and its wholeness. -/
abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x1x128 .f32 := win8_2.stage (cfg8.slots t 2)
abbrev hs8_2 (t : Fin cfg8.N) : (ms8_2 t).IsWhole := hstage8_2 ((cfg8.slots t 2).cast nbuf8_2)
/-- The accumulator: a whole scoped buffer of the kernel's own, carried from point to point. -/
abbrev scM8_0 : Memref sig .tc .vmem S1x1x128 .f32 := Memref.whole cc8_scratch0
abbrev VS8_0 : View sig .tc .vmem S1x1x128 .f32 := scM8_0.view

/-- The region's entry invariant with the accumulator as a memref owned at some contents, the other scoped
    buffers unopened. -/
theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.KernelIdeal.Hand

end
-- ==== Proof.KI.F8RunA.lean ====
import proofs.«417336_j40785009443359_3_alg».proof.Proof.KI.F8Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 0 (first condition holds, second fails), on any whole memrefs: the two inputs at
    their contents, the output window's buffer at contents handed back untouched, the accumulator at anything. It
    runs to the continuation holding the inputs and the output buffer as they were and the accumulator with the
    pieces LS0 written (the zero store, then the sum's store); no piece goes to the output window. -/
noncomputable def kernelRun8_A (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond8_0 i) (hc1 : ¬cond8_1 i)
    (x0 : Vec F S5000x128 .f32) (x1 : Vec F S1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__bn_sumsq_kernel i arg2 harg2 arg3 harg3 arg4 harg4 arg5 harg5) K } := by
  refine ⟨[], ?_, fun xi2 E K => ?run⟩
  case run =>
    simp only [cc8__bn_sumsq_kernel_eq_skeleton]; unfold cc8__bn_sumsq_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.F8RunB.lean ====
import proofs.«417336_j40785009443359_3_alg».proof.Proof.KI.F8RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinates 1 to 8 (both conditions fail), on any whole memrefs: the two inputs at their
    contents, the output window's buffer at contents handed back untouched, the accumulator at the contents xs0 the
    point before left. It runs to the continuation holding the inputs and the output buffer as they were and the
    accumulator with the pieces LS0 written (the sum's store). -/
noncomputable def kernelRun8_B (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : ¬cond8_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__bn_sumsq_kernel i arg2 harg2 arg3 harg3 arg4 harg4 arg5 harg5) K } := by
  refine ⟨[], ?_, fun xi2 E K => ?run⟩
  case run =>
    simp only [cc8__bn_sumsq_kernel_eq_skeleton]; unfold cc8__bn_sumsq_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.F8RunC.lean ====
import proofs.«417336_j40785009443359_3_alg».proof.Proof.KI.F8RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at inner coordinate 9 (first condition fails, second holds), on any whole memrefs: the two inputs at
    their contents, the output window's buffer at anything, the accumulator at the contents xs0 the point before
    left. It runs to the continuation holding the inputs as they were, the output buffer with the pieces L2 written
    (the copy of the accumulator) and the accumulator with the pieces LS0 written (the sum's store). -/
noncomputable def kernelRun8_C (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) :
    Σ' (L2 : List (View.Piece (Elt F) S1x1x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc8__bn_sumsq_kernel i arg2 harg2 arg3 harg3 arg4 harg4 arg5 harg5) K } := by
  refine ⟨?_, ?_, fun E K => ?run⟩
  case run =>
    simp only [cc8__bn_sumsq_kernel_eq_skeleton]; unfold cc8__bn_sumsq_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.F8.lean ====
import proofs.«417336_j40785009443359_3_alg».proof.Proof.KI.F8RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The sum-of-squares region: what each case leaves, point by point, and the body obligation -/

/-! ## What each case leaves in the output window and in the accumulator -/

/-- At inner coordinate 0 nothing is stored into the output window (it is idle there and not written back): a
    placeholder that nothing consults. -/
def out8_A_2 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond8_0 i) (hc1 : ¬cond8_1 i)
    (x0 : Vec F S5000x128 .f32) (x1 : Vec F S1x128 .f32) : Vec F S1x1x128 .f32 :=
  VO8_2.read (Elt F) (VO8_2.writes (Elt F) VO8_2.junk (kernelRun8_A c i arg2 harg2 arg3 harg3 arg4 harg4 arg5 harg5 hc0 hc1 x0 x1).1)

/-- At inner coordinate 0 the pieces stored into the accumulator cover it. -/
theorem scover8_A_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond8_0 i) (hc1 : ¬cond8_1 i)
    (x0 : Vec F S5000x128 .f32) (x1 : Vec F S1x128 .f32) (y : S1x1x128.Idx) :
    ∃ pc ∈ (kernelRun8_A c i arg2 harg2 arg3 harg3 arg4 harg4 arg5 harg5 hc0 hc1 x0 x1).2.1, y ∈ pc.1.set :=
  View.cover_of_tiledL (kernelRun8_A c i arg2 harg2 arg3 harg3 arg4 harg4 arg5 harg5 hc0 hc1 x0 x1).2.1 S1x1x128.size (by sl_kernel_rfl) y

/-- What the accumulator holds after the body at inner coordinate 0: the block's contribution over zero. -/
def sout8_A_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond8_0 i) (hc1 : ¬cond8_1 i)
    (x0 : Vec F S5000x128 .f32) (x1 : Vec F S1x128 .f32) : Vec F S1x1x128 .f32 :=
  VS8_0.read (Elt F) (VS8_0.writes (Elt F) VS8_0.junk (kernelRun8_A c i arg2 harg2 arg3 harg3 arg4 harg4 arg5 harg5 hc0 hc1 x0 x1).2.1)

/-- At inner coordinates 1 to 8 nothing is stored into the output window either: a placeholder again. -/
def out8_B_2 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : ¬cond8_1 i)
    (x0 : Vec F S5000x128 .f32) (x1 : Vec F S1x128 .f32) (xs0 : Vec F S1x1x128 .f32) : Vec F S1x1x128 .f32 :=
  VO8_2.read (Elt F) (VO8_2.writes (Elt F) VO8_2.junk (kernelRun8_B c i arg2 harg2 arg3 harg3 arg4 harg4 arg5 harg5 hc0 hc1 x0 x1 xs0).1)

/-- At inner coordinates 1 to 8 the piece stored into the accumulator covers it. -/
theorem scover8_B_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : ¬cond8_1 i)
    (x0 : Vec F S5000x128 .f32) (x1 : Vec F S1x128 .f32) (xs0 : Vec F S1x1x128 .f32) (y : S1x1x128.Idx) :
    ∃ pc ∈ (kernelRun8_B c i arg2 harg2 arg3 harg3 arg4 harg4 arg5 harg5 hc0 hc1 x0 x1 xs0).2.1, y ∈ pc.1.set :=
  View.cover_of_tiledL (kernelRun8_B c i arg2 harg2 arg3 harg3 arg4 harg4 arg5 harg5 hc0 hc1 x0 x1 xs0).2.1 S1x1x128.size (by sl_kernel_rfl) y

/-- What the accumulator holds after the body at inner coordinates 1 to 8: the block's contribution over what the
    point before left. -/
def sout8_B_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : ¬cond8_1 i)
    (x0 : Vec F S5000x128 .f32) (x1 : Vec F S1x128 .f32) (xs0 : Vec F S1x1x128 .f32) : Vec F S1x1x128 .f32 :=
  VS8_0.read (Elt F) (VS8_0.writes (Elt F) VS8_0.junk (kernelRun8_B c i arg2 harg2 arg3 harg3 arg4 harg4 arg5 harg5 hc0 hc1 x0 x1 xs0).2.1)

/-- At inner coordinate 9 the piece stored into the output window covers it. -/
theorem cover8_C_2 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) (y : S1x1x128.Idx) :
    ∃ pc ∈ (kernelRun8_C c i arg2 harg2 arg3 harg3 arg4 harg4 arg5 harg5 hc0 hc1 x0 x1 xs0).1, y ∈ pc.1.set :=
  View.cover_of_tiledL (kernelRun8_C c i arg2 harg2 arg3 harg3 arg4 harg4 arg5 harg5 hc0 hc1 x0 x1 xs0).1 S1x1x128.size (by sl_kernel_rfl) y

/-- What the output window's buffer holds after the body at inner coordinate 9: the finished accumulator. -/
def out8_C_2 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) : Vec F S1x1x128 .f32 :=
  VO8_2.read (Elt F) (VO8_2.writes (Elt F) VO8_2.junk (kernelRun8_C c i arg2 harg2 arg3 harg3 arg4 harg4 arg5 harg5 hc0 hc1 x0 x1 xs0).1)

/-- At inner coordinate 9 the piece stored into the accumulator covers it. -/
theorem scover8_C_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) (y : S1x1x128.Idx) :
    ∃ pc ∈ (kernelRun8_C c i arg2 harg2 arg3 harg3 arg4 harg4 arg5 harg5 hc0 hc1 x0 x1 xs0).2.1, y ∈ pc.1.set :=
  View.cover_of_tiledL (kernelRun8_C c i arg2 harg2 arg3 harg3 arg4 harg4 arg5 harg5 hc0 hc1 x0 x1 xs0).2.1 S1x1x128.size (by sl_kernel_rfl) y

/-- What the accumulator holds after the body at inner coordinate 9. -/
def sout8_C_0 (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) : Vec F S1x1x128 .f32 :=
  VS8_0.read (Elt F) (VS8_0.writes (Elt F) VS8_0.junk (kernelRun8_C c i arg2 harg2 arg3 harg3 arg4 harg4 arg5 harg5 hc0 hc1 x0 x1 xs0).2.1)

/-! ## The accumulation, point by point -/

/-- What the output window's buffer and the accumulator hold after the body at position n (the output window
    first, then the accumulator): the case the inner coordinate n % 10 selects, run at the point's memrefs and input
    blocks, the accumulator entering at what position n - 1 left in it (at inner coordinate 0 it is zeroed first, so
    nothing is carried in). -/
def outsAt8 (c : Dev nD) : (n : ℕ) → n < cfg8.N → Vec F S1x1x128 .f32 × Vec F S1x1x128 .f32
  | 0, hn => (out8_A_2 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩))
  | n + 1, hn =>
    if h0 : (n + 1) % 10 = 0 then
      if h1 : (n + 1) % 10 = 9 then
        False.elim (by omega)
      else
        (out8_A_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩))
    else
      if h1 : (n + 1) % 10 = 9 then
        (out8_C_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2)
      else
        (out8_B_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 c n (Nat.lt_of_succ_lt hn)).2)

/-- outsAt8 at a point of inner coordinate 0. -/
theorem outsAt8_A (c : Dev nD) (t : Fin cfg8.N) (h0 : t.val % 10 = 0) (h1 : ¬t.val % 10 = 9) :
    outsAt8 V c t.val t.isLt = (out8_A_2 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t), sout8_A_0 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t)) := by
  obtain ⟨n, hn⟩ := t
  cases n with
  | zero => exact rfl
  | succ n => exact (dif_pos h0).trans ((dif_neg h1).trans rfl)

/-- outsAt8 at a point of inner coordinate 1 to 8: over what the point before left in the accumulator. -/
theorem outsAt8_B (c : Dev nD) (t : Fin cfg8.N) (h0 : ¬t.val % 10 = 0) (h1 : ¬t.val % 10 = 9) :
    outsAt8 V c t.val t.isLt = (out8_B_2 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2, sout8_B_0 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt8 at a point of inner coordinate 9: over what the point before left in the accumulator. -/
theorem outsAt8_C (c : Dev nD) (t : Fin cfg8.N) (h0 : ¬t.val % 10 = 0) (h1 : t.val % 10 = 9) :
    outsAt8 V c t.val t.isLt = (out8_C_2 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2, sout8_C_0 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the region's entry the class's invariant (every scoped buffer that is no staging buffer
    at anything, the generator register at some state); afterwards the accumulator owned at what position n - 1
    left in it, the other scoped buffers unopened, the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2)) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare ((outsAt8 V c n hn).2)) ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2)) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The pipeline's proof data -/

/-- The proof data of the region's pipeline on core c: the arrays as the region finds them; after the body at
    point t each input's buffer at its block and the output window's at outsAt8's first component; the invariant
    PhiS8; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

/-- The invariant at a point's start, restated at t.val. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point. The inputs' memrefs hold their blocks; the inner coordinate says which case the point is
    in; the invariant hands the body the accumulator at what the point before left (at anything at the region's
    first point) and takes it back at this point's contents; away from inner coordinate 9 the output window's
    buffer is handed back as found, at inner coordinate 9 it is left at the finished accumulator; the other scoped
    buffers, the generator register and what the core owes pass through. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 20 := lt_of_lt_of_eq t.isLt (show cfg8.N = 20 from N_8)
  by_cases h0 : t.val % 10 = 0
  · by_cases h1 : t.val % 10 = 9
    · exfalso; omega
    · rw [show (dat8 V c).leavesExact 0 t = owns (c : Thread nD τ) (ms8_0 t) fullShare ((dat8 V c).after 0 t) from by
          unfold Dat.leavesExact; rw [liveAt8_0 t], after8_0]
      rw [show (dat8 V c).leavesExact 1 t = owns (c : Thread nD τ) (ms8_1 t) fullShare ((dat8 V c).after 1 t) from by
          unfold Dat.leavesExact; rw [liveAt8_1 t], after8_1]
      rw [Dat.leavesExact_idle (dat8 V c) 2 t (idleAt8_2_A t ((hcond8_0 t).mpr h0) (fun h => h1 ((hcond8_1 t).mp h))) (noFlush8_2_A t ((hcond8_0 t).mpr h0) (fun h => h1 ((hcond8_1 t).mp h)))]
      rw [outsAt8_A V c t h0 h1]
      unfold sout8_A_0; (try dsimp only)
      by_cases hz : t.val = 0
      · rw [PhiS8_castSucc V c t, PhiS8_zero V c _ _ hz, PhiA8_eq]
        iintro ⟨⟨⟨HS0, HR⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _)
            iexact HR
          iexact Hg
        isplitl [Ho]; · iexact Ho
        isplitl [H0]; · iexact H0
        isplitl [H1]; · iexact H1
        iexists _; iexact H2
      · rw [PhiS8_castSucc V c t, PhiS8_pos V c _ _ hz]
        iintro ⟨⟨⟨HS0, HR⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 10 = 9
    · rw [show (dat8 V c).leavesExact 0 t = owns (c : Thread nD τ) (ms8_0 t) fullShare ((dat8 V c).after 0 t) from by
          unfold Dat.leavesExact; rw [liveAt8_0 t], after8_0]
      rw [show (dat8 V c).leavesExact 1 t = owns (c : Thread nD τ) (ms8_1 t) fullShare ((dat8 V c).after 1 t) from by
          unfold Dat.leavesExact; rw [liveAt8_1 t], after8_1]
      rw [show (dat8 V c).leavesExact 2 t = owns (c : Thread nD τ) (ms8_2 t) fullShare ((dat8 V c).after 2 t) from by
          unfold Dat.leavesExact; rw [liveAt8_2_C t (fun h => h0 ((hcond8_0 t).mp h)) ((hcond8_1 t).mpr h1)], after8_2]
      rw [outsAt8_C V c t h0 h1]
      unfold out8_C_2 sout8_C_0; (try dsimp only)
      by_cases hz : t.val = 0
      · exfalso; omega
      · rw [PhiS8_castSucc V c t, PhiS8_pos V c _ _ hz]
        iintro ⟨⟨⟨HS0, HR⟩, Hg⟩, Ho, ⟨%d0, H0⟩, ⟨%d1, H1⟩, ⟨%d2, H2⟩⟩
        iapply ((kernelRun8_C c (grid8.coords t) _ _ _ _ _ _ _ _ (fun h => h0 ((hcond8_0 t).mp h)) ((hcond8_1 t).mpr h1) (iblk8 V c 0 t) (iblk8 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover8_C_2 c _ _ _ _ _ _ _ _ _ _ _ _ _ _)
    · rw [show (dat8 V c).leavesExact 0 t = owns (c : Thread nD τ) (ms8_0 t) fullShare ((dat8 V c).after 0 t) from by
          unfold Dat.leavesExact; rw [liveAt8_0 t], after8_0]
      rw [show (dat8 V c).leavesExact 1 t = owns (c : Thread nD τ) (ms8_1 t) fullShare ((dat8 V c).after 1 t) from by
          unfold Dat.leavesExact; rw [liveAt8_1 t], after8_1]
      rw [Dat.leavesExact_idle (dat8 V c) 2 t (idleAt8_2_B t (fun h => h0 ((hcond8_0 t).mp h)) (fun h => h1 ((hcond8_1 t).mp h))) (noFlush8_2_B t (fun h => h0 ((hcond8_0 t).mp h)) (fun h => h1 ((hcond8_1 t).mp h)))]
      rw [outsAt8_B V c t h0 h1]
      unfold sout8_B_0; (try dsimp only)
      by_cases hz : t.val = 0
      · exfalso; omega
      · rw [PhiS8_castSucc V c t, PhiS8_pos V c _ _ hz]
        iintro ⟨⟨⟨HS0, HR⟩, Hg⟩, Ho, ⟨%d0, H0⟩, ⟨%d1, H1⟩, ⟨%d2, H2⟩⟩
        iapply ((kernelRun8_B c (grid8.coords t) _ _ _ _ _ _ _ _ (fun h => h0 ((hcond8_0 t).mp h)) (fun h => h1 ((hcond8_1 t).mp h)) (iblk8 V c 0 t) (iblk8 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the region is entered with is the invariant before the first point. -/
theorem hin8 (c : Dev nD) : (Pipeline.ΦA spec8 c : sProp 𝕄) ⊢ (dat8 V c).Φ 0 := by
  rw [show (dat8 V c).Φ 0 = PhiS8 V c 0 (Nat.zero_le _) from rfl, PhiS8_zero V c 0 _ rfl]
  try exact Idealize.SL.BI.Entails.refl _

/-- After any point the invariant gives the class's back: the accumulator's named contents are forgotten. -/
theorem Phi_out8 (c : Dev nD) (t : Fin (cfg8.N + 1)) (ht : t.val ≠ 0) : (dat8 V c).Φ t ⊢ (Pipeline.ΦA spec8 c : sProp 𝕄) := by
  rw [show (dat8 V c).Φ t = PhiS8 V c t.val (Nat.le_of_lt_succ t.isLt) from rfl, PhiS8_pos V c _ _ ht, PhiA8_eq]
  iintro ⟨⟨HS0, HR⟩, Hg⟩
  isplitl [HS0 HR]
  · isplitl [HS0]
    · iexists _; iexact HS0
    iexact HR
  iexact Hg

/-- The same after the last point. -/
theorem hout8 (c : Dev nD) : (dat8 V c).Φ (Fin.last cfg8.N) ⊢ (Pipeline.ΦA spec8 c : sProp 𝕄) :=
  Phi_out8 V c _ (by rw [Fin.val_last]; have : cfg8.N = 20 := N_8; omega)

end Cert.KernelIdeal.Hand

end
-- ==== Proof.KI.F9.lean ====
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The normalising region (the tenth pallas_call of the program, pipeline 9), entered at buffer contents `V`

One control case over a grid of 20 points. Window 0 is the 5000-row block of the activations at the point; windows 1-4
are the four per-feature rows (mean, variance, scale, shift), whose block index never moves; window 5 receives the
normalised block, stored whole once per point. -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The activations' window holds its block at every point, for any proof data whose array is `V`'s and whose body
    leaves the block in place: the window is uncut and never idle, and it is fetched at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The mean row's window holds its block at every point: fetched at the first point only, its block index does not
    move afterwards and the body leaves the buffer as it found it. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The variance row's window, likewise. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The scale row's window, likewise. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- The shift row's window, likewise. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- A per-feature row, whole. -/
abbrev r9_row : Rect S1x128 := Rect.unit (s := S1x128) ![0, 0] S1x128.size inb_S1x128_S1x128_0_0
/-- A 5000-row block, whole. -/
abbrev r9_blk : Rect S5000x128 := Rect.unit (s := S5000x128) ![0, 0] S5000x128.size inb_S5000x128_S5000x128_0_0

/-! ## What the body leaves in the output window's buffer -/

/-- The output window's buffer after the body, from the input windows' blocks (`x0` the activations, `x1` the mean
    row, `x2` the variance row, `x3` the scale row, `x4` the shift row): its one store, of the whole block, whose
    payload is `x3 * (x0 - x1) * rsqrt (x2 + ε) + x4` as the skeleton names it. -/
def out9_5 (x0 : Vec F S5000x128 .f32) (x1 x2 x3 x4 : Vec F S1x128 .f32) : Vec F S5000x128 .f32 :=
  View.canon [⟨r9_blk, k9_pay1 (View.ld x2 r9_row) (View.ld x3 r9_row) (View.ld x0 r9_blk) (View.ld x1 r9_row) (View.ld x4 r9_row)⟩]

/-- The one store is of the whole block, so it covers the buffer. -/
theorem cover9_5 (p0 : Vec F S5000x128 .f32) (y : S5000x128.Idx) :
    ∃ pc ∈ ([⟨r9_blk, p0⟩] : List (View.Piece (Elt F) S5000x128 .f32)), y ∈ pc.1.set :=
  View.cover_of_tiled [⟨r9_blk, p0⟩] S5000x128.size (by rfl) y

/-! ## The body's triple -/

set_option maxHeartbeats 1000000 in
/-- The kernel body on whole staging memrefs, the five inputs' at read contents `x0 … x4` and the output's at anything,
    runs to the continuation holding the inputs' as they were and the output's at `out9_5` of the inputs': the printed
    function is its skeleton of five input loads, one load of the output buffer whose value is dropped, and the one
    store. -/
theorem sound_kernel9 (c : Dev nD) (E : Set ℕ) (i : grid9.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__bn_normalize_kernel i arg1 harg1 arg2 harg2 arg3 harg3 arg4 harg4 arg5 harg5 arg6 harg6) K := by
  simp only [cc9__bn_normalize_kernel_eq_skeleton]; unfold cc9__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of the region on core `c`: the arrays as the region finds them (`V`); after the body at point `t`
    each input's buffer at its block and the output's at `out9_5` of the input blocks; the invariant the scoped rest
    and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and the
    core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's two ends -/

/-- The region is entered with the scoped rest and the generator register, which is the invariant before the first point, -/
theorem hin9 (c : Dev nD) : (Pipeline.ΦA spec9 c : sProp 𝕄) ⊢ (dat9 V c).Φ 0 := .rfl

/-- and left with the invariant after the last, which is the same. -/
theorem hout9 (c : Dev nD) : (dat9 V c).Φ (Fin.last cfg9.N) ⊢ (Pipeline.ΦA spec9 c : sProp 𝕄) := .rfl

end Cert.KernelIdeal.Hand
-- ==== Proof.KI.F10Runs.lean ====
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 10 (the pooling call): what its three runs share, at the entry contents `V` -/

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The feature rows' staging buffer holds the rows' block at every point, for any proof data whose array is the
    entry contents and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The segment ids' staging buffer (32-bit integers) holds the ids' block at every point, likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's two conditions, in closed form over the 2 x 50 grid -/

/-- The first condition: the inner coordinate is 0 (the accumulator is zeroed there). -/
abbrev cond10_0 (i : grid10.Coords) : Prop := (Scalar.cmpi .ne (Scalar.extui (Scalar.cmpi .eq (BitVec.ofNat 32 (i 1).val) 0#32)) 0#32) = 1#1
/-- It holds exactly at the points whose position is a multiple of 50. -/
theorem hcond10_0 : ∀ t : Fin cfg10.N, cond10_0 (grid10.coords t) ↔ t.val % 50 = 0 :=
  (by decide +kernel : ∀ t : Fin grid10.N, cond10_0 (grid10.coords t) ↔ t.val % 50 = 0)

/-- The second condition: the inner coordinate is 49 (the accumulator is copied out there). -/
abbrev cond10_1 (i : grid10.Coords) : Prop := k10_cond2 i = 1#1
/-- It holds exactly at the points whose position is 49 modulo 50. -/
theorem hcond10_1 : ∀ t : Fin cfg10.N, cond10_1 (grid10.coords t) ↔ t.val % 50 = 49 :=
  (by decide +kernel : ∀ t : Fin grid10.N, cond10_1 (grid10.coords t) ↔ t.val % 50 = 49)

/-! ## Where the windows are idle -/

/-- The two inputs are never idle. -/
theorem liveAt10_0 : ∀ t : Fin cfg10.N, cfg10.idle 0 (grid10.coords t) = false := by decide +kernel
theorem liveAt10_1 : ∀ t : Fin cfg10.N, cfg10.idle 1 (grid10.coords t) = false := by decide +kernel
/-- Where the inner coordinate is 0 the output window is idle and is not written back. -/
theorem idleAt10_2_A : ∀ t : Fin cfg10.N, cond10_0 (grid10.coords t) → ¬cond10_1 (grid10.coords t) → cfg10.idle 2 (grid10.coords t) = true := by decide +kernel
theorem noFlush10_2_A : ∀ t : Fin cfg10.N, cond10_0 (grid10.coords t) → ¬cond10_1 (grid10.coords t) → (cfg10.win 2).flush t = false := by decide +kernel
/-- Where it is strictly between 0 and 49, likewise. -/
theorem idleAt10_2_B : ∀ t : Fin cfg10.N, ¬cond10_0 (grid10.coords t) → ¬cond10_1 (grid10.coords t) → cfg10.idle 2 (grid10.coords t) = true := by decide +kernel
theorem noFlush10_2_B : ∀ t : Fin cfg10.N, ¬cond10_0 (grid10.coords t) → ¬cond10_1 (grid10.coords t) → (cfg10.win 2).flush t = false := by decide +kernel
/-- Where it is 49 the output window is live: the body stores the accumulator into it. -/
theorem liveAt10_2_C : ∀ t : Fin cfg10.N, ¬cond10_0 (grid10.coords t) → cond10_1 (grid10.coords t) → cfg10.idle 2 (grid10.coords t) = false := by decide +kernel

/-! ## The memrefs the body is called with -/

/-- One staging buffer of the output window, through which its contents are stated. -/
abbrev VO10_2 : View sig .tc .vmem S1x1024x128 .f32 := (Memref.whole cc10_stg2_0 : Memref sig .tc .vmem S1x1024x128 .f32).view
/-- Each window's current staging memref at point `t`, and its wholeness. -/
abbrev ms10_0 (t : Fin cfg10.N) : Memref sig .tc .vmem S1000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1000x1 .i32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x1024x128 .f32 := win10_2.stage (cfg10.slots t 2)
abbrev hs10_2 (t : Fin cfg10.N) : (ms10_2 t).IsWhole := hstage10_2 ((cfg10.slots t 2).cast nbuf10_2)
/-- The accumulator: a whole scoped buffer of the call's own, passed beside the windows. -/
abbrev scM10_0 : Memref sig .tc .vmem S1x1024x128 .f32 := Memref.whole cc10_scratch0
/-- The accumulator as a view: what it holds is stated through it. -/
abbrev VS10_0 : View sig .tc .vmem S1x1024x128 .f32 := scM10_0.view

/-- The class invariant with the accumulator as a memref owned at some contents, the other scoped buffers unopened,
    and the generator register at some state. -/
theorem PhiA10_eq (c : Dev nD) :
    (Pipeline.ΦA spec10 c : sProp 𝕄)
      = iprop(iprop(iprop((∃ d, owns (c : Thread nD τ) scM10_0 fullShare d)) ∗ Pipeline.scopedRestBut spec10 c [cc10_scratch0]) ∗ (∃ r, prngReg c r)) := by
  unfold Pipeline.ΦA; rw [scopedRest10_split]; simp only [scM10_0, owns_whole]; try rfl

end Cert.KernelIdeal.Hand

end
-- ==== Proof.KI.F10RunA.lean ====
import proofs.«417336_j40785009443359_3_alg».proof.Proof.KI.F10Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The body where the inner coordinate is 0 (first condition holds, second fails): on whole memrefs — the two
    inputs at their contents `x0`, `x1`, the output window at `xi2` (handed back untouched), the accumulator at
    anything — it runs to the continuation holding the inputs and the output window as they were and the accumulator
    with the pieces `LS0` written (the zeroing store, then the accumulating store over it). -/
noncomputable def kernelRun10_A (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : cond10_0 i) (hc1 : ¬cond10_1 i)
    (x0 : Vec F S1000x128 .f32) (x1 : Vec F S1000x1 .i32) :
    Σ' (L2 : List (View.Piece (Elt F) S1x1024x128 .f32)), { LS0 : List (View.Piece (Elt F) S1x1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc10__pool_kernel i arg2 harg2 arg3 harg3 arg4 harg4 arg5 harg5) K } := by
  refine ⟨[], ?_, fun xi2 E K => ?run⟩
  case run =>
    simp only [cc10__pool_kernel_eq_skeleton]; unfold cc10__pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.F10RunB.lean ====
import proofs.«417336_j40785009443359_3_alg».proof.Proof.KI.F10Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The body where the inner coordinate is strictly between 0 and 49 (both conditions fail): on whole memrefs — the
    two inputs at `x0`, `x1`, the output window at `xi2` (handed back untouched), the accumulator at what the point
    before left, `xs0` — it runs to the continuation holding the inputs and the output window as they were and the
    accumulator with the pieces `LS0` written (the accumulating store). -/
noncomputable def kernelRun10_B (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : ¬cond10_1 i)
    (x0 : Vec F S1000x128 .f32) (x1 : Vec F S1000x1 .i32) (xs0 : Vec F S1x1024x128 .f32) :
    Σ' (L2 : List (View.Piece (Elt F) S1x1024x128 .f32)), { LS0 : List (View.Piece (Elt F) S1x1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc10__pool_kernel i arg2 harg2 arg3 harg3 arg4 harg4 arg5 harg5) K } := by
  refine ⟨[], ?_, fun xi2 E K => ?run⟩
  case run =>
    simp only [cc10__pool_kernel_eq_skeleton]; unfold cc10__pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.F10RunC.lean ====
import proofs.«417336_j40785009443359_3_alg».proof.Proof.KI.F10Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The body where the inner coordinate is 49 (first condition fails, second holds): on whole memrefs — the two inputs
    at `x0`, `x1`, the output window at anything, the accumulator at what the point before left, `xs0` — it runs to
    the continuation holding the inputs as they were, the accumulator with the pieces `LS0` written (the accumulating
    store) and the output window with the pieces `L2` written (the accumulator copied out). -/
noncomputable def kernelRun10_C (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) :
    Σ' (L2 : List (View.Piece (Elt F) S1x1024x128 .f32)), { LS0 : List (View.Piece (Elt F) S1x1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc10__pool_kernel i arg2 harg2 arg3 harg3 arg4 harg4 arg5 harg5) K } := by
  refine ⟨?_, ?_, fun E K => ?run⟩
  case run =>
    simp only [cc10__pool_kernel_eq_skeleton]; unfold cc10__pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.F10.lean ====
import proofs.«417336_j40785009443359_3_alg».proof.Proof.KI.F10RunA
import proofs.«417336_j40785009443359_3_alg».proof.Proof.KI.F10RunB
import proofs.«417336_j40785009443359_3_alg».proof.Proof.KI.F10RunC
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 10 (the pooling call), the frame half at the entry contents `V`

The grid is 2 x 50; the accumulator (a scoped buffer of the call's own) is zeroed where the inner coordinate is 0,
added to at every point, and copied to the output window where the inner coordinate is 49. -/

/-! ## What each case leaves in the output window and in the accumulator -/

/-- Inner coordinate 0: nothing is stored into the output window (idle there, not written back): a placeholder. -/
def out10_A_2 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : cond10_0 i) (hc1 : ¬cond10_1 i)
    (x0 : Vec F S1000x128 .f32) (x1 : Vec F S1000x1 .i32) : Vec F S1x1024x128 .f32 :=
  VO10_2.read (Elt F) (VO10_2.writes (Elt F) VO10_2.junk (kernelRun10_A c i arg2 harg2 arg3 harg3 arg4 harg4 arg5 harg5 hc0 hc1 x0 x1).1)

/-- Inner coordinate 0: the accumulator's pieces cover it (each is the whole block). -/
theorem scover10_A_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : cond10_0 i) (hc1 : ¬cond10_1 i)
    (x0 : Vec F S1000x128 .f32) (x1 : Vec F S1000x1 .i32) (y : S1x1024x128.Idx) :
    ∃ pc ∈ (kernelRun10_A c i arg2 harg2 arg3 harg3 arg4 harg4 arg5 harg5 hc0 hc1 x0 x1).2.1, y ∈ pc.1.set :=
  View.cover_of_tiledL (kernelRun10_A c i arg2 harg2 arg3 harg3 arg4 harg4 arg5 harg5 hc0 hc1 x0 x1).2.1 S1x1024x128.size (by sl_kernel_rfl) y

/-- Inner coordinate 0: what the accumulator holds afterwards — its pieces read back. -/
def sout10_A_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : cond10_0 i) (hc1 : ¬cond10_1 i)
    (x0 : Vec F S1000x128 .f32) (x1 : Vec F S1000x1 .i32) : Vec F S1x1024x128 .f32 :=
  VS10_0.read (Elt F) (VS10_0.writes (Elt F) VS10_0.junk (kernelRun10_A c i arg2 harg2 arg3 harg3 arg4 harg4 arg5 harg5 hc0 hc1 x0 x1).2.1)

/-- Inner coordinate strictly between 0 and 49: nothing is stored into the output window: a placeholder. -/
def out10_B_2 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : ¬cond10_1 i)
    (x0 : Vec F S1000x128 .f32) (x1 : Vec F S1000x1 .i32) (xs0 : Vec F S1x1024x128 .f32) : Vec F S1x1024x128 .f32 :=
  VO10_2.read (Elt F) (VO10_2.writes (Elt F) VO10_2.junk (kernelRun10_B c i arg2 harg2 arg3 harg3 arg4 harg4 arg5 harg5 hc0 hc1 x0 x1 xs0).1)

/-- … the accumulator's piece covers it. -/
theorem scover10_B_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : ¬cond10_1 i)
    (x0 : Vec F S1000x128 .f32) (x1 : Vec F S1000x1 .i32) (xs0 : Vec F S1x1024x128 .f32) (y : S1x1024x128.Idx) :
    ∃ pc ∈ (kernelRun10_B c i arg2 harg2 arg3 harg3 arg4 harg4 arg5 harg5 hc0 hc1 x0 x1 xs0).2.1, y ∈ pc.1.set :=
  View.cover_of_tiledL (kernelRun10_B c i arg2 harg2 arg3 harg3 arg4 harg4 arg5 harg5 hc0 hc1 x0 x1 xs0).2.1 S1x1024x128.size (by sl_kernel_rfl) y

/-- … what the accumulator holds afterwards, over what the point before left in it (`xs0`). -/
def sout10_B_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : ¬cond10_1 i)
    (x0 : Vec F S1000x128 .f32) (x1 : Vec F S1000x1 .i32) (xs0 : Vec F S1x1024x128 .f32) : Vec F S1x1024x128 .f32 :=
  VS10_0.read (Elt F) (VS10_0.writes (Elt F) VS10_0.junk (kernelRun10_B c i arg2 harg2 arg3 harg3 arg4 harg4 arg5 harg5 hc0 hc1 x0 x1 xs0).2.1)

/-- Inner coordinate 49: the output window's piece (the accumulator copied out) covers it. -/
theorem cover10_C_2 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) (y : S1x1024x128.Idx) :
    ∃ pc ∈ (kernelRun10_C c i arg2 harg2 arg3 harg3 arg4 harg4 arg5 harg5 hc0 hc1 x0 x1 xs0).1, y ∈ pc.1.set :=
  View.cover_of_tiledL (kernelRun10_C c i arg2 harg2 arg3 harg3 arg4 harg4 arg5 harg5 hc0 hc1 x0 x1 xs0).1 S1x1024x128.size (by sl_kernel_rfl) y

/-- … what the output window's staging buffer holds afterwards. -/
def out10_C_2 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) : Vec F S1x1024x128 .f32 :=
  VO10_2.read (Elt F) (VO10_2.writes (Elt F) VO10_2.junk (kernelRun10_C c i arg2 harg2 arg3 harg3 arg4 harg4 arg5 harg5 hc0 hc1 x0 x1 xs0).1)

/-- … the accumulator's piece covers it. -/
theorem scover10_C_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) (y : S1x1024x128.Idx) :
    ∃ pc ∈ (kernelRun10_C c i arg2 harg2 arg3 harg3 arg4 harg4 arg5 harg5 hc0 hc1 x0 x1 xs0).2.1, y ∈ pc.1.set :=
  View.cover_of_tiledL (kernelRun10_C c i arg2 harg2 arg3 harg3 arg4 harg4 arg5 harg5 hc0 hc1 x0 x1 xs0).2.1 S1x1024x128.size (by sl_kernel_rfl) y

/-- … what the accumulator holds afterwards. -/
def sout10_C_0 (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) : Vec F S1x1024x128 .f32 :=
  VS10_0.read (Elt F) (VS10_0.writes (Elt F) VS10_0.junk (kernelRun10_C c i arg2 harg2 arg3 harg3 arg4 harg4 arg5 harg5 hc0 hc1 x0 x1 xs0).2.1)

/-! ## What the output window and the accumulator hold after each point -/

/-- After the body at position `n`: (the output window's staging buffer, the accumulator). The case is the one the
    closed forms select at `n`, run at the point's memrefs and input blocks; where the inner coordinate is not 0 the
    accumulator enters at what position `n - 1` left in it. -/
def outsAt10 (c : Dev nD) : (n : ℕ) → n < cfg10.N → Vec F S1x1024x128 .f32 × Vec F S1x1024x128 .f32
  | 0, hn => (out10_A_2 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩), sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩))
  | n + 1, hn =>
    if h0 : (n + 1) % 50 = 0 then
      if h1 : (n + 1) % 50 = 49 then
        False.elim (by omega)
      else
        (out10_A_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩), sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩))
    else
      if h1 : (n + 1) % 50 = 49 then
        (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2, sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2)
      else
        (out10_B_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2)

/-- At a point whose position is a multiple of 50: the zeroing case's contents. -/
theorem outsAt10_A (c : Dev nD) (t : Fin cfg10.N) (h0 : t.val % 50 = 0) (h1 : ¬t.val % 50 = 49) :
    outsAt10 V c t.val t.isLt = (out10_A_2 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t), sout10_A_0 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t)) := by
  obtain ⟨n, hn⟩ := t
  cases n with
  | zero => exact rfl
  | succ n => exact (dif_pos h0).trans ((dif_neg h1).trans rfl)

/-- At a point whose position is neither 0 nor 49 modulo 50: the accumulating case's contents, over what the point
    before left. -/
theorem outsAt10_B (c : Dev nD) (t : Fin cfg10.N) (h0 : ¬t.val % 50 = 0) (h1 : ¬t.val % 50 = 49) :
    outsAt10 V c t.val t.isLt = (out10_B_2 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2, sout10_B_0 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point whose position is 49 modulo 50: the copying-out case's contents, over what the point before left. -/
theorem outsAt10_C (c : Dev nD) (t : Fin cfg10.N) (h0 : ¬t.val % 50 = 0) (h1 : t.val % 50 = 49) :
    outsAt10 V c t.val t.isLt = (out10_C_2 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2, sout10_C_0 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant; afterwards the accumulator owned at what the
    point before left in it, the other scoped buffers unopened, the generator register at some state. -/
def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2)) ∗ Pipeline.scopedRestBut spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(iprop(owns (c : Thread nD τ) scM10_0 fullShare ((outsAt10 V c n hn).2)) ∗ Pipeline.scopedRestBut spec10 c [cc10_scratch0]) ∗ (∃ r, prngReg c r)) := rfl

theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2)) ∗ Pipeline.scopedRestBut spec10 c [cc10_scratch0]) ∗ (∃ r, prngReg c r)) := by
  cases n with
  | zero => exact absurd rfl hz
  | succ n => rfl

/-! ## The proof data -/

/-- The arrays as the region finds them; after the body each input's buffer at its block, the output window's at
    `outsAt10`'s first component; the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point: the inputs' memrefs hold their blocks; the closed forms say which case the point is in; the
    invariant hands the body the accumulator (at what the point before left, or at anything) and takes it back at this
    point's contents; the other scoped buffers, the generator register and what the core owes pass through. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 100 := lt_of_lt_of_eq t.isLt (show cfg10.N = 100 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  by_cases h0 : t.val % 50 = 0
  · by_cases h1 : t.val % 50 = 49
    · exfalso; omega
    · have hc0 : cond10_0 (grid10.coords t) := (hcond10_0 t).mpr h0
      have hc1 : ¬cond10_1 (grid10.coords t) := fun h => h1 ((hcond10_1 t).mp h)
      rw [Dat.leavesExact_idle (dat10 V c) 2 t (idleAt10_2_A t hc0 hc1) (noFlush10_2_A t hc0 hc1)]
      rw [outsAt10_A V c t h0 h1]
      unfold sout10_A_0; (try dsimp only)
      by_cases hz : t.val = 0
      · rw [PhiS10_castSucc V c t, PhiS10_zero V c _ _ hz, PhiA10_eq]
        iintro ⟨⟨⟨HS0, Hr⟩, Hg⟩, Ho, ⟨%d0, H0⟩, ⟨%d1, H1⟩, ⟨%d2, H2⟩⟩
        iapply ((kernelRun10_A c (grid10.coords t) (ms10_0 t) (hs10_0 t) (ms10_1 t) (hs10_1 t) (ms10_2 t) (hs10_2 t) scM10_0 (Memref.isWhole_whole _) hc0 hc1 (iblk10 V c 0 t) (iblk10 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover10_A_0 c (grid10.coords t) (ms10_0 t) (hs10_0 t) (ms10_1 t) (hs10_1 t) (ms10_2 t) (hs10_2 t) scM10_0 (Memref.isWhole_whole _) hc0 hc1 (iblk10 V c 0 t) (iblk10 V c 1 t))
            iexact Hr
          iexact Hg
        isplitl [Ho]; · iexact Ho
        isplitl [H0]; · iexact H0
        isplitl [H1]; · iexact H1
        iexists _; iexact H2
      · rw [PhiS10_castSucc V c t, PhiS10_pos V c _ _ hz]
        iintro ⟨⟨⟨HS0, Hr⟩, Hg⟩, Ho, ⟨%d0, H0⟩, ⟨%d1, H1⟩, ⟨%d2, H2⟩⟩
        iapply ((kernelRun10_A c (grid10.coords t) (ms10_0 t) (hs10_0 t) (ms10_1 t) (hs10_1 t) (ms10_2 t) (hs10_2 t) scM10_0 (Memref.isWhole_whole _) hc0 hc1 (iblk10 V c 0 t) (iblk10 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover10_A_0 c (grid10.coords t) (ms10_0 t) (hs10_0 t) (ms10_1 t) (hs10_1 t) (ms10_2 t) (hs10_2 t) scM10_0 (Memref.isWhole_whole _) hc0 hc1 (iblk10 V c 0 t) (iblk10 V c 1 t))
            iexact Hr
          iexact Hg
        isplitl [Ho]; · iexact Ho
        isplitl [H0]; · iexact H0
        isplitl [H1]; · iexact H1
        iexists _; iexact H2
  · have hc0 : ¬cond10_0 (grid10.coords t) := fun h => h0 ((hcond10_0 t).mp h)
    have hz : t.val ≠ 0 := fun e => h0 (by rw [e])
    by_cases h1 : t.val % 50 = 49
    · have hc1 : cond10_1 (grid10.coords t) := (hcond10_1 t).mpr h1
      rw [show (dat10 V c).leavesExact 2 t = owns (c : Thread nD τ) (ms10_2 t) fullShare ((dat10 V c).after 2 t) from by
        unfold Dat.leavesExact; rw [liveAt10_2_C t hc0 hc1], after10_2]
      rw [outsAt10_C V c t h0 h1]
      unfold out10_C_2 sout10_C_0; (try dsimp only)
      rw [PhiS10_castSucc V c t, PhiS10_pos V c _ _ hz]
      iintro ⟨⟨⟨HS0, Hr⟩, Hg⟩, Ho, ⟨%d0, H0⟩, ⟨%d1, H1⟩, ⟨%d2, H2⟩⟩
      iapply ((kernelRun10_C c (grid10.coords t) (ms10_0 t) (hs10_0 t) (ms10_1 t) (hs10_1 t) (ms10_2 t) (hs10_2 t) scM10_0 (Memref.isWhole_whole _) hc0 hc1 (iblk10 V c 0 t) (iblk10 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover10_C_0 c (grid10.coords t) (ms10_0 t) (hs10_0 t) (ms10_1 t) (hs10_1 t) (ms10_2 t) (hs10_2 t) scM10_0 (Memref.isWhole_whole _) hc0 hc1 (iblk10 V c 0 t) (iblk10 V c 1 t) _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_C_2 c (grid10.coords t) (ms10_0 t) (hs10_0 t) (ms10_1 t) (hs10_1 t) (ms10_2 t) (hs10_2 t) scM10_0 (Memref.isWhole_whole _) hc0 hc1 (iblk10 V c 0 t) (iblk10 V c 1 t) _)
    · have hc1 : ¬cond10_1 (grid10.coords t) := fun h => h1 ((hcond10_1 t).mp h)
      rw [Dat.leavesExact_idle (dat10 V c) 2 t (idleAt10_2_B t hc0 hc1) (noFlush10_2_B t hc0 hc1)]
      rw [outsAt10_B V c t h0 h1]
      unfold sout10_B_0; (try dsimp only)
      rw [PhiS10_castSucc V c t, PhiS10_pos V c _ _ hz]
      iintro ⟨⟨⟨HS0, Hr⟩, Hg⟩, Ho, ⟨%d0, H0⟩, ⟨%d1, H1⟩, ⟨%d2, H2⟩⟩
      iapply ((kernelRun10_B c (grid10.coords t) (ms10_0 t) (hs10_0 t) (ms10_1 t) (hs10_1 t) (ms10_2 t) (hs10_2 t) scM10_0 (Memref.isWhole_whole _) hc0 hc1 (iblk10 V c 0 t) (iblk10 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover10_B_0 c (grid10.coords t) (ms10_0 t) (hs10_0 t) (ms10_1 t) (hs10_1 t) (ms10_2 t) (hs10_2 t) scM10_0 (Memref.isWhole_whole _) hc0 hc1 (iblk10 V c 0 t) (iblk10 V c 1 t) _)
          iexact Hr
        iexact Hg
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : (Pipeline.ΦA spec10 c : sProp 𝕄) ⊢ (dat10 V c).Φ 0 := by
  rw [show (dat10 V c).Φ 0 = PhiS10 V c 0 (Nat.zero_le _) from rfl, PhiS10_zero V c 0 _ rfl]
  try exact Idealize.SL.BI.Entails.refl _

/-- After any point the invariant gives the class invariant back: the accumulator's named contents are forgotten. -/
theorem Phi_out10 (c : Dev nD) (t : Fin (cfg10.N + 1)) (ht : t.val ≠ 0) : (dat10 V c).Φ t ⊢ (Pipeline.ΦA spec10 c : sProp 𝕄) := by
  rw [show (dat10 V c).Φ t = PhiS10 V c t.val (Nat.le_of_lt_succ t.isLt) from rfl, PhiS10_pos V c _ _ ht, PhiA10_eq]
  iintro ⟨⟨HS0, Hr⟩, Hg⟩
  isplitl [HS0 Hr]
  · isplitl [HS0]
    · iexists _; iexact HS0
    iexact Hr
  iexact Hg

/-- The same after the last point. -/
theorem hout10 (c : Dev nD) : (dat10 V c).Φ (Fin.last cfg10.N) ⊢ (Pipeline.ΦA spec10 c : sProp 𝕄) :=
  Phi_out10 V c _ (by rw [Fin.val_last]; have : cfg10.N = 100 := N_10; omega)

end Cert.KernelIdeal.Hand

end
-- ==== Proof.KI.Fold.lean ====
/-
  The buffers' contents at every boundary of the kernel program's @main, as a fold from the launch memory: a stretch of
  host operations applies them; a region leaves each of its arrays at what its write-backs make of it and every other
  buffer alone. And the family of the eleven regions' proof data, each at its region's entry contents.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.F0
import proofs.«417336_j40785009443359_3_alg».proof.Proof.KI.F1
import proofs.«417336_j40785009443359_3_alg».proof.Proof.KI.F2
import proofs.«417336_j40785009443359_3_alg».proof.Proof.KI.F3
import proofs.«417336_j40785009443359_3_alg».proof.Proof.KI.F4
import proofs.«417336_j40785009443359_3_alg».proof.Proof.KI.F5
import proofs.«417336_j40785009443359_3_alg».proof.Proof.KI.F6
import proofs.«417336_j40785009443359_3_alg».proof.Proof.KI.F7
import proofs.«417336_j40785009443359_3_alg».proof.Proof.KI.F8
import proofs.«417336_j40785009443359_3_alg».proof.Proof.KI.F9
import proofs.«417336_j40785009443359_3_alg».proof.Proof.KI.F10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers at launch. -/
abbrev W0 : Dev nD → Valuation τ sig (Elt F) := fun c b => (s₀ m ρ).mem ((c : Dev nD), b)

/-- After the host stretch before region 0 (the region's entry contents), -/
abbrev W1 : Dev nD → Valuation τ sig (Elt F) := fun c => StableHlo.after hostOps0 (W0 m ρ c)
/-- the same read at the TensorCore's references (what region 0's proof data take). -/
abbrev Wr1 : (c : Dev nD) → (b : Ref sig .tc) → Buf (Elt F) ((c : Thread nD τ).loc b) := fun c b => W1 m ρ c b
/-- A reference the stretch does not write keeps its contents. -/
theorem W1_of (c : Dev nD) (r : Ref sig .tc) (h : r ∉ Gen.hostOps0_W) :
    W1 m ρ c (Proc.devRef .tc r) = W0 m ρ c (Proc.devRef .tc r) :=
  StableHlo.after_of_writes_sub hostOps0 _ Gen.hostOps0_writes h
/-- At region 0's exit: its arrays at what its write-backs leave (an input as entered, an output the fold of its blocks),
    every other buffer as entered. -/
def W2 (c : Dev nD) : Valuation τ sig (Elt F) :=
  Pipeline.withArrays spec0 c (W1 m ρ c) fun w => (dat0 (Wr1 m ρ) c).arrAt w cfg0.N
theorem W2_arr (c : Dev nD) (w : Fin cfg0.W) :
    W2 m ρ c (Proc.devRef .tc (Pipeline.arrRef spec0 w)) = (dat0 (Wr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Wr2 : (c : Dev nD) → (b : Ref sig .tc) → Buf (Elt F) ((c : Thread nD τ).loc b) := fun c b => W2 m ρ c b
theorem hF0 (c : Dev nD) (w : Fin cfg0.W) : (dat0 (Wr1 m ρ) c).arrAt w cfg0.N = Wr2 m ρ c (Pipeline.arrRef spec0 w) :=
  (W2_arr m ρ c w).symm
theorem hrest0 (c : Dev nD) : ∀ b, b ∉ Finset.univ.image (Pipeline.arrRef spec0) → Wr2 m ρ c b = Wr1 m ρ c b :=
  fun b hb => W2_of_ne m ρ c b fun w e => hb (Finset.mem_image.mpr ⟨w, Finset.mem_univ _, e⟩)

/-- After the host stretch before region 1 (the region's entry contents), -/
abbrev W3 : Dev nD → Valuation τ sig (Elt F) := fun c => StableHlo.after hostOps1 (W2 m ρ c)
/-- the same read at the TensorCore's references (what region 1's proof data take). -/
abbrev Wr3 : (c : Dev nD) → (b : Ref sig .tc) → Buf (Elt F) ((c : Thread nD τ).loc b) := fun c b => W3 m ρ c b
/-- A reference the stretch does not write keeps its contents. -/
theorem W3_of (c : Dev nD) (r : Ref sig .tc) (h : r ∉ Gen.hostOps1_W) :
    W3 m ρ c (Proc.devRef .tc r) = W2 m ρ c (Proc.devRef .tc r) :=
  StableHlo.after_of_writes_sub hostOps1 _ Gen.hostOps1_writes h
/-- At region 1's exit: its arrays at what its write-backs leave (an input as entered, an output the fold of its blocks),
    every other buffer as entered. -/
def W4 (c : Dev nD) : Valuation τ sig (Elt F) :=
  Pipeline.withArrays spec1 c (W3 m ρ c) fun w => (dat1 (Wr3 m ρ) c).arrAt w cfg1.N
theorem W4_arr (c : Dev nD) (w : Fin cfg1.W) :
    W4 m ρ c (Proc.devRef .tc (Pipeline.arrRef spec1 w)) = (dat1 (Wr3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Wr4 : (c : Dev nD) → (b : Ref sig .tc) → Buf (Elt F) ((c : Thread nD τ).loc b) := fun c b => W4 m ρ c b
theorem hF1 (c : Dev nD) (w : Fin cfg1.W) : (dat1 (Wr3 m ρ) c).arrAt w cfg1.N = Wr4 m ρ c (Pipeline.arrRef spec1 w) :=
  (W4_arr m ρ c w).symm
theorem hrest1 (c : Dev nD) : ∀ b, b ∉ Finset.univ.image (Pipeline.arrRef spec1) → Wr4 m ρ c b = Wr3 m ρ c b :=
  fun b hb => W4_of_ne m ρ c b fun w e => hb (Finset.mem_image.mpr ⟨w, Finset.mem_univ _, e⟩)

/-- After the host stretch before region 2 (the region's entry contents), -/
abbrev W5 : Dev nD → Valuation τ sig (Elt F) := fun c => StableHlo.after hostOps2 (W4 m ρ c)
/-- the same read at the TensorCore's references (what region 2's proof data take). -/
abbrev Wr5 : (c : Dev nD) → (b : Ref sig .tc) → Buf (Elt F) ((c : Thread nD τ).loc b) := fun c b => W5 m ρ c b
/-- A reference the stretch does not write keeps its contents. -/
theorem W5_of (c : Dev nD) (r : Ref sig .tc) (h : r ∉ Gen.hostOps2_W) :
    W5 m ρ c (Proc.devRef .tc r) = W4 m ρ c (Proc.devRef .tc r) :=
  StableHlo.after_of_writes_sub hostOps2 _ Gen.hostOps2_writes h
/-- At region 2's exit: its arrays at what its write-backs leave (an input as entered, an output the fold of its blocks),
    every other buffer as entered. -/
def W6 (c : Dev nD) : Valuation τ sig (Elt F) :=
  Pipeline.withArrays spec2 c (W5 m ρ c) fun w => (dat2 (Wr5 m ρ) c).arrAt w cfg2.N
theorem W6_arr (c : Dev nD) (w : Fin cfg2.W) :
    W6 m ρ c (Proc.devRef .tc (Pipeline.arrRef spec2 w)) = (dat2 (Wr5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Wr6 : (c : Dev nD) → (b : Ref sig .tc) → Buf (Elt F) ((c : Thread nD τ).loc b) := fun c b => W6 m ρ c b
theorem hF2 (c : Dev nD) (w : Fin cfg2.W) : (dat2 (Wr5 m ρ) c).arrAt w cfg2.N = Wr6 m ρ c (Pipeline.arrRef spec2 w) :=
  (W6_arr m ρ c w).symm
theorem hrest2 (c : Dev nD) : ∀ b, b ∉ Finset.univ.image (Pipeline.arrRef spec2) → Wr6 m ρ c b = Wr5 m ρ c b :=
  fun b hb => W6_of_ne m ρ c b fun w e => hb (Finset.mem_image.mpr ⟨w, Finset.mem_univ _, e⟩)

/-- After the host stretch before region 3 (the region's entry contents), -/
abbrev W7 : Dev nD → Valuation τ sig (Elt F) := fun c => StableHlo.after hostOps3 (W6 m ρ c)
/-- the same read at the TensorCore's references (what region 3's proof data take). -/
abbrev Wr7 : (c : Dev nD) → (b : Ref sig .tc) → Buf (Elt F) ((c : Thread nD τ).loc b) := fun c b => W7 m ρ c b
/-- A reference the stretch does not write keeps its contents. -/
theorem W7_of (c : Dev nD) (r : Ref sig .tc) (h : r ∉ Gen.hostOps3_W) :
    W7 m ρ c (Proc.devRef .tc r) = W6 m ρ c (Proc.devRef .tc r) :=
  StableHlo.after_of_writes_sub hostOps3 _ Gen.hostOps3_writes h
/-- At region 3's exit: its arrays at what its write-backs leave (an input as entered, an output the fold of its blocks),
    every other buffer as entered. -/
def W8 (c : Dev nD) : Valuation τ sig (Elt F) :=
  Pipeline.withArrays spec3 c (W7 m ρ c) fun w => (dat3 (Wr7 m ρ) c).arrAt w cfg3.N
theorem W8_arr (c : Dev nD) (w : Fin cfg3.W) :
    W8 m ρ c (Proc.devRef .tc (Pipeline.arrRef spec3 w)) = (dat3 (Wr7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Wr8 : (c : Dev nD) → (b : Ref sig .tc) → Buf (Elt F) ((c : Thread nD τ).loc b) := fun c b => W8 m ρ c b
theorem hF3 (c : Dev nD) (w : Fin cfg3.W) : (dat3 (Wr7 m ρ) c).arrAt w cfg3.N = Wr8 m ρ c (Pipeline.arrRef spec3 w) :=
  (W8_arr m ρ c w).symm
theorem hrest3 (c : Dev nD) : ∀ b, b ∉ Finset.univ.image (Pipeline.arrRef spec3) → Wr8 m ρ c b = Wr7 m ρ c b :=
  fun b hb => W8_of_ne m ρ c b fun w e => hb (Finset.mem_image.mpr ⟨w, Finset.mem_univ _, e⟩)

/-- After the host stretch before region 4 (the region's entry contents), -/
abbrev W9 : Dev nD → Valuation τ sig (Elt F) := fun c => StableHlo.after hostOps4 (W8 m ρ c)
/-- the same read at the TensorCore's references (what region 4's proof data take). -/
abbrev Wr9 : (c : Dev nD) → (b : Ref sig .tc) → Buf (Elt F) ((c : Thread nD τ).loc b) := fun c b => W9 m ρ c b
/-- A reference the stretch does not write keeps its contents. -/
theorem W9_of (c : Dev nD) (r : Ref sig .tc) (h : r ∉ Gen.hostOps4_W) :
    W9 m ρ c (Proc.devRef .tc r) = W8 m ρ c (Proc.devRef .tc r) :=
  StableHlo.after_of_writes_sub hostOps4 _ Gen.hostOps4_writes h
/-- At region 4's exit: its arrays at what its write-backs leave (an input as entered, an output the fold of its blocks),
    every other buffer as entered. -/
def W10 (c : Dev nD) : Valuation τ sig (Elt F) :=
  Pipeline.withArrays spec4 c (W9 m ρ c) fun w => (dat4 (Wr9 m ρ) c).arrAt w cfg4.N
theorem W10_arr (c : Dev nD) (w : Fin cfg4.W) :
    W10 m ρ c (Proc.devRef .tc (Pipeline.arrRef spec4 w)) = (dat4 (Wr9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev Wr10 : (c : Dev nD) → (b : Ref sig .tc) → Buf (Elt F) ((c : Thread nD τ).loc b) := fun c b => W10 m ρ c b
theorem hF4 (c : Dev nD) (w : Fin cfg4.W) : (dat4 (Wr9 m ρ) c).arrAt w cfg4.N = Wr10 m ρ c (Pipeline.arrRef spec4 w) :=
  (W10_arr m ρ c w).symm
theorem hrest4 (c : Dev nD) : ∀ b, b ∉ Finset.univ.image (Pipeline.arrRef spec4) → Wr10 m ρ c b = Wr9 m ρ c b :=
  fun b hb => W10_of_ne m ρ c b fun w e => hb (Finset.mem_image.mpr ⟨w, Finset.mem_univ _, e⟩)

/-- After the host stretch before region 5 (the region's entry contents), -/
abbrev W11 : Dev nD → Valuation τ sig (Elt F) := fun c => StableHlo.after hostOps5 (W10 m ρ c)
/-- the same read at the TensorCore's references (what region 5's proof data take). -/
abbrev Wr11 : (c : Dev nD) → (b : Ref sig .tc) → Buf (Elt F) ((c : Thread nD τ).loc b) := fun c b => W11 m ρ c b
/-- A reference the stretch does not write keeps its contents. -/
theorem W11_of (c : Dev nD) (r : Ref sig .tc) (h : r ∉ Gen.hostOps5_W) :
    W11 m ρ c (Proc.devRef .tc r) = W10 m ρ c (Proc.devRef .tc r) :=
  StableHlo.after_of_writes_sub hostOps5 _ Gen.hostOps5_writes h
/-- At region 5's exit: its arrays at what its write-backs leave (an input as entered, an output the fold of its blocks),
    every other buffer as entered. -/
def W12 (c : Dev nD) : Valuation τ sig (Elt F) :=
  Pipeline.withArrays spec5 c (W11 m ρ c) fun w => (dat5 (Wr11 m ρ) c).arrAt w cfg5.N
theorem W12_arr (c : Dev nD) (w : Fin cfg5.W) :
    W12 m ρ c (Proc.devRef .tc (Pipeline.arrRef spec5 w)) = (dat5 (Wr11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev Wr12 : (c : Dev nD) → (b : Ref sig .tc) → Buf (Elt F) ((c : Thread nD τ).loc b) := fun c b => W12 m ρ c b
theorem hF5 (c : Dev nD) (w : Fin cfg5.W) : (dat5 (Wr11 m ρ) c).arrAt w cfg5.N = Wr12 m ρ c (Pipeline.arrRef spec5 w) :=
  (W12_arr m ρ c w).symm
theorem hrest5 (c : Dev nD) : ∀ b, b ∉ Finset.univ.image (Pipeline.arrRef spec5) → Wr12 m ρ c b = Wr11 m ρ c b :=
  fun b hb => W12_of_ne m ρ c b fun w e => hb (Finset.mem_image.mpr ⟨w, Finset.mem_univ _, e⟩)

/-- After the host stretch before region 6 (the region's entry contents), -/
abbrev W13 : Dev nD → Valuation τ sig (Elt F) := fun c => StableHlo.after hostOps6 (W12 m ρ c)
/-- the same read at the TensorCore's references (what region 6's proof data take). -/
abbrev Wr13 : (c : Dev nD) → (b : Ref sig .tc) → Buf (Elt F) ((c : Thread nD τ).loc b) := fun c b => W13 m ρ c b
/-- A reference the stretch does not write keeps its contents. -/
theorem W13_of (c : Dev nD) (r : Ref sig .tc) (h : r ∉ Gen.hostOps6_W) :
    W13 m ρ c (Proc.devRef .tc r) = W12 m ρ c (Proc.devRef .tc r) :=
  StableHlo.after_of_writes_sub hostOps6 _ Gen.hostOps6_writes h
/-- At region 6's exit: its arrays at what its write-backs leave (an input as entered, an output the fold of its blocks),
    every other buffer as entered. -/
def W14 (c : Dev nD) : Valuation τ sig (Elt F) :=
  Pipeline.withArrays spec6 c (W13 m ρ c) fun w => (dat6 (Wr13 m ρ) c).arrAt w cfg6.N
theorem W14_arr (c : Dev nD) (w : Fin cfg6.W) :
    W14 m ρ c (Proc.devRef .tc (Pipeline.arrRef spec6 w)) = (dat6 (Wr13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev Wr14 : (c : Dev nD) → (b : Ref sig .tc) → Buf (Elt F) ((c : Thread nD τ).loc b) := fun c b => W14 m ρ c b
theorem hF6 (c : Dev nD) (w : Fin cfg6.W) : (dat6 (Wr13 m ρ) c).arrAt w cfg6.N = Wr14 m ρ c (Pipeline.arrRef spec6 w) :=
  (W14_arr m ρ c w).symm
theorem hrest6 (c : Dev nD) : ∀ b, b ∉ Finset.univ.image (Pipeline.arrRef spec6) → Wr14 m ρ c b = Wr13 m ρ c b :=
  fun b hb => W14_of_ne m ρ c b fun w e => hb (Finset.mem_image.mpr ⟨w, Finset.mem_univ _, e⟩)

/-- After the host stretch before region 7 (the region's entry contents), -/
abbrev W15 : Dev nD → Valuation τ sig (Elt F) := fun c => StableHlo.after hostOps7 (W14 m ρ c)
/-- the same read at the TensorCore's references (what region 7's proof data take). -/
abbrev Wr15 : (c : Dev nD) → (b : Ref sig .tc) → Buf (Elt F) ((c : Thread nD τ).loc b) := fun c b => W15 m ρ c b
/-- A reference the stretch does not write keeps its contents. -/
theorem W15_of (c : Dev nD) (r : Ref sig .tc) (h : r ∉ Gen.hostOps7_W) :
    W15 m ρ c (Proc.devRef .tc r) = W14 m ρ c (Proc.devRef .tc r) :=
  StableHlo.after_of_writes_sub hostOps7 _ Gen.hostOps7_writes h
/-- At region 7's exit: its arrays at what its write-backs leave (an input as entered, an output the fold of its blocks),
    every other buffer as entered. -/
def W16 (c : Dev nD) : Valuation τ sig (Elt F) :=
  Pipeline.withArrays spec7 c (W15 m ρ c) fun w => (dat7 (Wr15 m ρ) c).arrAt w cfg7.N
theorem W16_arr (c : Dev nD) (w : Fin cfg7.W) :
    W16 m ρ c (Proc.devRef .tc (Pipeline.arrRef spec7 w)) = (dat7 (Wr15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev Wr16 : (c : Dev nD) → (b : Ref sig .tc) → Buf (Elt F) ((c : Thread nD τ).loc b) := fun c b => W16 m ρ c b
theorem hF7 (c : Dev nD) (w : Fin cfg7.W) : (dat7 (Wr15 m ρ) c).arrAt w cfg7.N = Wr16 m ρ c (Pipeline.arrRef spec7 w) :=
  (W16_arr m ρ c w).symm
theorem hrest7 (c : Dev nD) : ∀ b, b ∉ Finset.univ.image (Pipeline.arrRef spec7) → Wr16 m ρ c b = Wr15 m ρ c b :=
  fun b hb => W16_of_ne m ρ c b fun w e => hb (Finset.mem_image.mpr ⟨w, Finset.mem_univ _, e⟩)

/-- After the host stretch before region 8 (the region's entry contents), -/
abbrev W17 : Dev nD → Valuation τ sig (Elt F) := fun c => StableHlo.after hostOps8 (W16 m ρ c)
/-- the same read at the TensorCore's references (what region 8's proof data take). -/
abbrev Wr17 : (c : Dev nD) → (b : Ref sig .tc) → Buf (Elt F) ((c : Thread nD τ).loc b) := fun c b => W17 m ρ c b
/-- A reference the stretch does not write keeps its contents. -/
theorem W17_of (c : Dev nD) (r : Ref sig .tc) (h : r ∉ Gen.hostOps8_W) :
    W17 m ρ c (Proc.devRef .tc r) = W16 m ρ c (Proc.devRef .tc r) :=
  StableHlo.after_of_writes_sub hostOps8 _ Gen.hostOps8_writes h
/-- At region 8's exit: its arrays at what its write-backs leave (an input as entered, an output the fold of its blocks),
    every other buffer as entered. -/
def W18 (c : Dev nD) : Valuation τ sig (Elt F) :=
  Pipeline.withArrays spec8 c (W17 m ρ c) fun w => (dat8 (Wr17 m ρ) c).arrAt w cfg8.N
theorem W18_arr (c : Dev nD) (w : Fin cfg8.W) :
    W18 m ρ c (Proc.devRef .tc (Pipeline.arrRef spec8 w)) = (dat8 (Wr17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev Wr18 : (c : Dev nD) → (b : Ref sig .tc) → Buf (Elt F) ((c : Thread nD τ).loc b) := fun c b => W18 m ρ c b
theorem hF8 (c : Dev nD) (w : Fin cfg8.W) : (dat8 (Wr17 m ρ) c).arrAt w cfg8.N = Wr18 m ρ c (Pipeline.arrRef spec8 w) :=
  (W18_arr m ρ c w).symm
theorem hrest8 (c : Dev nD) : ∀ b, b ∉ Finset.univ.image (Pipeline.arrRef spec8) → Wr18 m ρ c b = Wr17 m ρ c b :=
  fun b hb => W18_of_ne m ρ c b fun w e => hb (Finset.mem_image.mpr ⟨w, Finset.mem_univ _, e⟩)

/-- After the host stretch before region 9 (the region's entry contents), -/
abbrev W19 : Dev nD → Valuation τ sig (Elt F) := fun c => StableHlo.after hostOps9 (W18 m ρ c)
/-- the same read at the TensorCore's references (what region 9's proof data take). -/
abbrev Wr19 : (c : Dev nD) → (b : Ref sig .tc) → Buf (Elt F) ((c : Thread nD τ).loc b) := fun c b => W19 m ρ c b
/-- A reference the stretch does not write keeps its contents. -/
theorem W19_of (c : Dev nD) (r : Ref sig .tc) (h : r ∉ Gen.hostOps9_W) :
    W19 m ρ c (Proc.devRef .tc r) = W18 m ρ c (Proc.devRef .tc r) :=
  StableHlo.after_of_writes_sub hostOps9 _ Gen.hostOps9_writes h
/-- At region 9's exit: its arrays at what its write-backs leave (an input as entered, an output the fold of its blocks),
    every other buffer as entered. -/
def W20 (c : Dev nD) : Valuation τ sig (Elt F) :=
  Pipeline.withArrays spec9 c (W19 m ρ c) fun w => (dat9 (Wr19 m ρ) c).arrAt w cfg9.N
theorem W20_arr (c : Dev nD) (w : Fin cfg9.W) :
    W20 m ρ c (Proc.devRef .tc (Pipeline.arrRef spec9 w)) = (dat9 (Wr19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev Wr20 : (c : Dev nD) → (b : Ref sig .tc) → Buf (Elt F) ((c : Thread nD τ).loc b) := fun c b => W20 m ρ c b
theorem hF9 (c : Dev nD) (w : Fin cfg9.W) : (dat9 (Wr19 m ρ) c).arrAt w cfg9.N = Wr20 m ρ c (Pipeline.arrRef spec9 w) :=
  (W20_arr m ρ c w).symm
theorem hrest9 (c : Dev nD) : ∀ b, b ∉ Finset.univ.image (Pipeline.arrRef spec9) → Wr20 m ρ c b = Wr19 m ρ c b :=
  fun b hb => W20_of_ne m ρ c b fun w e => hb (Finset.mem_image.mpr ⟨w, Finset.mem_univ _, e⟩)

/-- After the host stretch before region 10 (the region's entry contents), -/
abbrev W21 : Dev nD → Valuation τ sig (Elt F) := fun c => StableHlo.after hostOps10 (W20 m ρ c)
/-- the same read at the TensorCore's references (what region 10's proof data take). -/
abbrev Wr21 : (c : Dev nD) → (b : Ref sig .tc) → Buf (Elt F) ((c : Thread nD τ).loc b) := fun c b => W21 m ρ c b
/-- A reference the stretch does not write keeps its contents. -/
theorem W21_of (c : Dev nD) (r : Ref sig .tc) (h : r ∉ Gen.hostOps10_W) :
    W21 m ρ c (Proc.devRef .tc r) = W20 m ρ c (Proc.devRef .tc r) :=
  StableHlo.after_of_writes_sub hostOps10 _ Gen.hostOps10_writes h
/-- At region 10's exit: its arrays at what its write-backs leave (an input as entered, an output the fold of its blocks),
    every other buffer as entered. -/
def W22 (c : Dev nD) : Valuation τ sig (Elt F) :=
  Pipeline.withArrays spec10 c (W21 m ρ c) fun w => (dat10 (Wr21 m ρ) c).arrAt w cfg10.N
theorem W22_arr (c : Dev nD) (w : Fin cfg10.W) :
    W22 m ρ c (Proc.devRef .tc (Pipeline.arrRef spec10 w)) = (dat10 (Wr21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev Wr22 : (c : Dev nD) → (b : Ref sig .tc) → Buf (Elt F) ((c : Thread nD τ).loc b) := fun c b => W22 m ρ c b
theorem hF10 (c : Dev nD) (w : Fin cfg10.W) : (dat10 (Wr21 m ρ) c).arrAt w cfg10.N = Wr22 m ρ c (Pipeline.arrRef spec10 w) :=
  (W22_arr m ρ c w).symm
theorem hrest10 (c : Dev nD) : ∀ b, b ∉ Finset.univ.image (Pipeline.arrRef spec10) → Wr22 m ρ c b = Wr21 m ρ c b :=
  fun b hb => W22_of_ne m ρ c b fun w e => hb (Finset.mem_image.mpr ⟨w, Finset.mem_univ _, e⟩)

/-- After the last host stretch: what @main returns with. -/
abbrev W23 : Dev nD → Valuation τ sig (Elt F) := fun c => StableHlo.after hostOps11 (W22 m ρ c)
theorem W23_of (c : Dev nD) (r : Ref sig .tc) (h : r ∉ Gen.hostOps11_W) :
    W23 m ρ c (Proc.devRef .tc r) = W22 m ρ c (Proc.devRef .tc r) :=
  StableHlo.after_of_writes_sub hostOps11 _ Gen.hostOps11_writes h

/-! ## The proof data family and what rides beside the buffers -/

/-- No pallas_call has a prefetched table. -/
abbrev admH : (p : Fin 11) → (pcfgs (F := F) p).Adm := fun p => (cfgs p).toPCfg_adm
/-- Every region's proof data, each at its region's entry contents: a literal match on the region's number. -/
def pdats : (p : Fin 11) → (c : Dev nD) → Dat τ (Elt F) Unit ℕ (UR sig nD τ) ℕ (Pipeline.pin (pcfgs (F := F)) admH p) c
  | ⟨0, _⟩ => fun c => dat0 (Wr1 m ρ) c
  | ⟨1, _⟩ => fun c => dat1 (Wr3 m ρ) c
  | ⟨2, _⟩ => fun c => dat2 (Wr5 m ρ) c
  | ⟨3, _⟩ => fun c => dat3 (Wr7 m ρ) c
  | ⟨4, _⟩ => fun c => dat4 (Wr9 m ρ) c
  | ⟨5, _⟩ => fun c => dat5 (Wr11 m ρ) c
  | ⟨6, _⟩ => fun c => dat6 (Wr13 m ρ) c
  | ⟨7, _⟩ => fun c => dat7 (Wr15 m ρ) c
  | ⟨8, _⟩ => fun c => dat8 (Wr17 m ρ) c
  | ⟨9, _⟩ => fun c => dat9 (Wr19 m ρ) c
  | ⟨10, _⟩ => fun c => dat10 (Wr21 m ρ) c
abbrev 𝒱H : Variants := Variants.none
/-- No core owes another anything: no level is assigned. -/
abbrev LH : GSem nD τ sig → Finset Unit := fun _ => ∅
abbrev lvH : GSem nD τ sig → Unit → ℕ := fun _ _ => 0
/-- Beside the buffers, through every segment: the core's generator register at some state, and the core owing nothing. -/
abbrev RH (c : Dev nD) : sProp 𝕄 := iprop((∃ r, prngReg c r) ∗ ∃ W, owes (c : Thread nD τ) (0 : CellTallies nD τ sig Unit) W)
/-- A stretch of host operations as a segment, from given contents. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev TlastH (c : Dev nD) : sProp 𝕄 := iprop(StableHlo.held (c : Thread nD τ) (Pipeline.ucRefs τ sig) (W23 m ρ c) ∗ ∃ r, prngReg c r)

end Cert.KernelIdeal.Hand

end
-- ==== Proof.KI.Args.lean ====
/-
  Every argument array reaches the end of the kernel program's @main as launched: no host stretch writes one, and a region
  either does not touch it or stages it as an input, which its write-backs leave alone.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W23_main_arg0 (c : Dev nD) : W23 m ρ c (Proc.devRef .tc main_arg0) = m ((c : Thread nD τ).loc main_arg0) :=
  (W23_of m ρ c main_arg0 (by decide)).trans <|
  (W22_of_ne m ρ c main_arg0 (by decide)).trans <|
  (W21_of m ρ c main_arg0 (by decide)).trans <|
  (W20_of_ne m ρ c main_arg0 (by decide)).trans <|
  (W19_of m ρ c main_arg0 (by decide)).trans <|
  (W18_of_ne m ρ c main_arg0 (by decide)).trans <|
  (W17_of m ρ c main_arg0 (by decide)).trans <|
  (W16_of_ne m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  ((W2_arr m ρ c 0).trans (((dat0 (Wr1 m ρ) c).arrAt_in 0 rfl _).trans (A_eq0 (Wr1 m ρ) c 0))).trans <|
  (W1_of m ρ c main_arg0 (by decide)).trans <|
  rfl

theorem W23_main_arg1 (c : Dev nD) : W23 m ρ c (Proc.devRef .tc main_arg1) = m ((c : Thread nD τ).loc main_arg1) :=
  (W23_of m ρ c main_arg1 (by decide)).trans <|
  (W22_of_ne m ρ c main_arg1 (by decide)).trans <|
  (W21_of m ρ c main_arg1 (by decide)).trans <|
  (W20_of_ne m ρ c main_arg1 (by decide)).trans <|
  (W19_of m ρ c main_arg1 (by decide)).trans <|
  (W18_of_ne m ρ c main_arg1 (by decide)).trans <|
  (W17_of m ρ c main_arg1 (by decide)).trans <|
  (W16_of_ne m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <|
  rfl

theorem W23_main_arg2 (c : Dev nD) : W23 m ρ c (Proc.devRef .tc main_arg2) = m ((c : Thread nD τ).loc main_arg2) :=
  (W23_of m ρ c main_arg2 (by decide)).trans <|
  (W22_of_ne m ρ c main_arg2 (by decide)).trans <|
  (W21_of m ρ c main_arg2 (by decide)).trans <|
  (W20_of_ne m ρ c main_arg2 (by decide)).trans <|
  (W19_of m ρ c main_arg2 (by decide)).trans <|
  (W18_of_ne m ρ c main_arg2 (by decide)).trans <|
  (W17_of m ρ c main_arg2 (by decide)).trans <|
  (W16_of_ne m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <|
  rfl

theorem W23_main_arg3 (c : Dev nD) : W23 m ρ c (Proc.devRef .tc main_arg3) = m ((c : Thread nD τ).loc main_arg3) :=
  (W23_of m ρ c main_arg3 (by decide)).trans <|
  (W22_of_ne m ρ c main_arg3 (by decide)).trans <|
  (W21_of m ρ c main_arg3 (by decide)).trans <|
  (W20_of_ne m ρ c main_arg3 (by decide)).trans <|
  (W19_of m ρ c main_arg3 (by decide)).trans <|
  (W18_of_ne m ρ c main_arg3 (by decide)).trans <|
  (W17_of m ρ c main_arg3 (by decide)).trans <|
  (W16_of_ne m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans <|
  rfl

theorem W23_main_arg4 (c : Dev nD) : W23 m ρ c (Proc.devRef .tc main_arg4) = m ((c : Thread nD τ).loc main_arg4) :=
  (W23_of m ρ c main_arg4 (by decide)).trans <|
  (W22_of_ne m ρ c main_arg4 (by decide)).trans <|
  (W21_of m ρ c main_arg4 (by decide)).trans <|
  (W20_of_ne m ρ c main_arg4 (by decide)).trans <|
  (W19_of m ρ c main_arg4 (by decide)).trans <|
  (W18_of_ne m ρ c main_arg4 (by decide)).trans <|
  (W17_of m ρ c main_arg4 (by decide)).trans <|
  (W16_of_ne m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <|
  rfl

theorem W23_main_arg5 (c : Dev nD) : W23 m ρ c (Proc.devRef .tc main_arg5) = m ((c : Thread nD τ).loc main_arg5) :=
  (W23_of m ρ c main_arg5 (by decide)).trans <|
  (W22_of_ne m ρ c main_arg5 (by decide)).trans <|
  (W21_of m ρ c main_arg5 (by decide)).trans <|
  (W20_of_ne m ρ c main_arg5 (by decide)).trans <|
  (W19_of m ρ c main_arg5 (by decide)).trans <|
  (W18_of_ne m ρ c main_arg5 (by decide)).trans <|
  (W17_of m ρ c main_arg5 (by decide)).trans <|
  (W16_of_ne m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <|
  rfl

theorem W23_main_arg6 (c : Dev nD) : W23 m ρ c (Proc.devRef .tc main_arg6) = m ((c : Thread nD τ).loc main_arg6) :=
  (W23_of m ρ c main_arg6 (by decide)).trans <|
  (W22_of_ne m ρ c main_arg6 (by decide)).trans <|
  (W21_of m ρ c main_arg6 (by decide)).trans <|
  (W20_of_ne m ρ c main_arg6 (by decide)).trans <|
  (W19_of m ρ c main_arg6 (by decide)).trans <|
  (W18_of_ne m ρ c main_arg6 (by decide)).trans <|
  (W17_of m ρ c main_arg6 (by decide)).trans <|
  (W16_of_ne m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <|
  rfl

theorem W23_main_arg7 (c : Dev nD) : W23 m ρ c (Proc.devRef .tc main_arg7) = m ((c : Thread nD τ).loc main_arg7) :=
  (W23_of m ρ c main_arg7 (by decide)).trans <|
  (W22_of_ne m ρ c main_arg7 (by decide)).trans <|
  (W21_of m ρ c main_arg7 (by decide)).trans <|
  (W20_of_ne m ρ c main_arg7 (by decide)).trans <|
  (W19_of m ρ c main_arg7 (by decide)).trans <|
  (W18_of_ne m ρ c main_arg7 (by decide)).trans <|
  (W17_of m ρ c main_arg7 (by decide)).trans <|
  (W16_of_ne m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <|
  rfl

theorem W23_main_arg8 (c : Dev nD) : W23 m ρ c (Proc.devRef .tc main_arg8) = m ((c : Thread nD τ).loc main_arg8) :=
  (W23_of m ρ c main_arg8 (by decide)).trans <|
  (W22_of_ne m ρ c main_arg8 (by decide)).trans <|
  (W21_of m ρ c main_arg8 (by decide)).trans <|
  (W20_of_ne m ρ c main_arg8 (by decide)).trans <|
  (W19_of m ρ c main_arg8 (by decide)).trans <|
  (W18_of_ne m ρ c main_arg8 (by decide)).trans <|
  (W17_of m ρ c main_arg8 (by decide)).trans <|
  (W16_of_ne m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <|
  rfl

end Cert.KernelIdeal.Hand

end
-- ==== Proof.KI.Seg0.lean ====
/-
  Region 0 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 0 over the thread state: entered from every unscoped buffer at the boundary before it, left at the one after.
    Its arrays are split out of the unscoped buffers and put back at the exit contents; the generator register goes into
    the region's invariant and comes back; nothing is owed; the kernel has no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Wr1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Wr1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Wr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m ρ 0 c).Φ 0 from hin0 (Wr1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ (Pipeline.ΦA spec0 c : sProp 𝕄) from hout0 (Wr1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Wr1 m ρ c) (Wr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 1 over the thread state: entered from every unscoped buffer at the boundary before it, left at the one after.
    Its arrays are split out of the unscoped buffers and put back at the exit contents; the generator register goes into
    the region's invariant and comes back; nothing is owed; the kernel has no semaphore of its own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Wr3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (Wr3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Wr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from hin1 (Wr3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ (Pipeline.ΦA spec1 c : sProp 𝕄) from hout1 (Wr3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Wr3 m ρ c) (Wr4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 2 over the thread state: entered from every unscoped buffer at the boundary before it, left at the one after.
    Its arrays are split out of the unscoped buffers and put back at the exit contents; the generator register goes into
    the region's invariant and comes back; nothing is owed; the kernel has no semaphore of its own. -/
def reg2 : Pipeline.RegionSeg (pcfgs (F := F)) admH (pdats m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Wr5 m ρ) c).loose
  hwaits := Pipeline.hwaits_of_owed_zero _ _ _ _ LH lvH 2 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec2 c (Wr5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (Wr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec2 c : sProp 𝕄) ⊢ (pdats m ρ 2 c).Φ 0 from hin2 (Wr5 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ (Pipeline.ΦA spec2 c : sProp 𝕄) from hout2 (Wr5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (Wr5 m ρ c) (Wr6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 3 over the thread state: entered from every unscoped buffer at the boundary before it, left at the one after.
    Its arrays are split out of the unscoped buffers and put back at the exit contents; the generator register goes into
    the region's invariant and comes back; nothing is owed; the kernel has no semaphore of its own. -/
def reg3 : Pipeline.RegionSeg (pcfgs (F := F)) admH (pdats m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Wr7 m ρ) c).loose
  hwaits := Pipeline.hwaits_of_owed_zero _ _ _ _ LH lvH 3 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec3 c (Wr7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (Wr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec3 c : sProp 𝕄) ⊢ (pdats m ρ 3 c).Φ 0 from hin3 (Wr7 m ρ) c)
    unfold Pipeline.ΦA
    iintro ⟨Hp, -, Hr⟩
    isplitl [Hr]; · iexact Hr
    iexact Hp
  hout c := by
    rw [Pipeline.ownSems0_none]
    refine BIBase.Entails.trans (show (pdats m ρ 3 c).Φ (Fin.last _) ⊢ (Pipeline.ΦA spec3 c : sProp 𝕄) from hout3 (Wr7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (Wr7 m ρ c) (Wr8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 4 over the thread state: entered from every unscoped buffer at the boundary before it, left at the one after.
    Its arrays are split out of the unscoped buffers and put back at the exit contents; the generator register goes into
    the region's invariant and comes back; nothing is owed; the kernel has no semaphore of its own. -/
def reg4 : Pipeline.RegionSeg (pcfgs (F := F)) admH (pdats m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Wr9 m ρ) c).loose
  hwaits := Pipeline.hwaits_of_owed_zero _ _ _ _ LH lvH 4 fun _ _ => rfl
  pre c := iprop(StableHlo.held (c : Thread nD τ) (Pipeline.ucRefs τ sig) (W9 m ρ c) ∗ RH c)
  post c := iprop(StableHlo.held (c : Thread nD τ) (Pipeline.ucRefs τ sig) (W10 m ρ c) ∗ RH c)
  X c := iprop(∃ r, prngReg c r)
  Y c := iprop(∃ r, prngReg c r)
  Z c := Pipeline.unscopedRest (Ix := Unit) (Name := ℕ) (U := UR sig nD τ) (Lvl := ℕ) spec4 c (Wr9 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (Wr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec4 c : sProp 𝕄) ⊢ (pdats m ρ 4 c).Φ 0 from hin4 (Wr9 m ρ) c)
    unfold Pipeline.ΦA
    iintro ⟨Hp, -, Hr⟩
    isplitl [Hr]; · iexact Hr
    iexact Hp
  hout c := by
    rw [Pipeline.ownSems0_none]
    refine BIBase.Entails.trans (show (pdats m ρ 4 c).Φ (Fin.last _) ⊢ (Pipeline.ΦA spec4 c : sProp 𝕄) from hout4 (Wr9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (Wr9 m ρ c) (Wr10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/-
  Region 5 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 5 over the thread state: entered from every unscoped buffer at the boundary before it, left at the one after.
    Its arrays are split out of the unscoped buffers and put back at the exit contents; the generator register goes into
    the region's invariant and comes back; nothing is owed; the kernel has no semaphore of its own. -/
def reg5 : Pipeline.RegionSeg (pcfgs (F := F)) admH (pdats m ρ) () defs₀ 𝒱H LH lvH 5 where
  win := launch5.win.to₀
  block_pos := launch5.block_pos
  stage_whole := launch5.stage_whole
  K := PEmpty
  osem k := k.elim
  ho := Pipeline.OwnSemFacts.none _
  hbody c := (body_obligation5 (Wr11 m ρ) c).loose
  hwaits := Pipeline.hwaits_of_owed_zero _ _ _ _ LH lvH 5 fun _ _ => rfl
  pre c := iprop(StableHlo.held (c : Thread nD τ) (Pipeline.ucRefs τ sig) (W11 m ρ c) ∗ RH c)
  post c := iprop(StableHlo.held (c : Thread nD τ) (Pipeline.ucRefs τ sig) (W12 m ρ c) ∗ RH c)
  X c := iprop(∃ r, prngReg c r)
  Y c := iprop(∃ r, prngReg c r)
  Z c := Pipeline.unscopedRest (Ix := Unit) (Name := ℕ) (U := UR sig nD τ) (Lvl := ℕ) spec5 c (Wr11 m ρ c)
  hentry c := by
    rw [Pipeline.ownSems0_none]
    have hsplit := Pipeline.arrays_of_unscopedBufs (p := 5) (pcfgs (F := F)) admH (pdats m ρ) launch5.win launch5.arr_whole c
      ((pdats m ρ 5 c).share_full fun _ => rfl) (Wr11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec5 c : sProp 𝕄) ⊢ (pdats m ρ 5 c).Φ 0 from hin5 (Wr11 m ρ) c)
    unfold Pipeline.ΦA
    iintro ⟨Hp, -, Hr⟩
    isplitl [Hr]; · iexact Hr
    iexact Hp
  hout c := by
    rw [Pipeline.ownSems0_none]
    refine BIBase.Entails.trans (show (pdats m ρ 5 c).Φ (Fin.last _) ⊢ (Pipeline.ΦA spec5 c : sProp 𝕄) from hout5 (Wr11 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m ρ) ((pdats m ρ 5 c).share_full fun _ => rfl)
      (Wr11 m ρ c) (Wr12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/-
  Region 6 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 6 over the thread state: entered from every unscoped buffer at the boundary before it, left at the one after.
    Its arrays are split out of the unscoped buffers and put back at the exit contents; the generator register goes into
    the region's invariant and comes back; nothing is owed; the kernel has no semaphore of its own. -/
def reg6 : Pipeline.RegionSeg (pcfgs (F := F)) admH (pdats m ρ) () defs₀ 𝒱H LH lvH 6 where
  win := launch6.win.to₀
  block_pos := launch6.block_pos
  stage_whole := launch6.stage_whole
  K := PEmpty
  osem k := k.elim
  ho := Pipeline.OwnSemFacts.none _
  hbody c := (body_obligation6 (Wr13 m ρ) c).loose
  hwaits := Pipeline.hwaits_of_owed_zero _ _ _ _ LH lvH 6 fun _ _ => rfl
  pre c := iprop(StableHlo.held (c : Thread nD τ) (Pipeline.ucRefs τ sig) (W13 m ρ c) ∗ RH c)
  post c := iprop(StableHlo.held (c : Thread nD τ) (Pipeline.ucRefs τ sig) (W14 m ρ c) ∗ RH c)
  X c := iprop(∃ r, prngReg c r)
  Y c := iprop(∃ r, prngReg c r)
  Z c := Pipeline.unscopedRest (Ix := Unit) (Name := ℕ) (U := UR sig nD τ) (Lvl := ℕ) spec6 c (Wr13 m ρ c)
  hentry c := by
    rw [Pipeline.ownSems0_none]
    have hsplit := Pipeline.arrays_of_unscopedBufs (p := 6) (pcfgs (F := F)) admH (pdats m ρ) launch6.win launch6.arr_whole c
      ((pdats m ρ 6 c).share_full fun _ => rfl) (Wr13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec6 c : sProp 𝕄) ⊢ (pdats m ρ 6 c).Φ 0 from hin6 (Wr13 m ρ) c)
    unfold Pipeline.ΦA
    iintro ⟨Hp, -, Hr⟩
    isplitl [Hr]; · iexact Hr
    iexact Hp
  hout c := by
    rw [Pipeline.ownSems0_none]
    refine BIBase.Entails.trans (show (pdats m ρ 6 c).Φ (Fin.last _) ⊢ (Pipeline.ΦA spec6 c : sProp 𝕄) from hout6 (Wr13 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdats m ρ) ((pdats m ρ 6 c).share_full fun _ => rfl)
      (Wr13 m ρ c) (Wr14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
/-
  Region 7 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 7 over the thread state: entered from every unscoped buffer at the boundary before it, left at the one after.
    Its arrays are split out of the unscoped buffers and put back at the exit contents; the generator register goes into
    the region's invariant and comes back; nothing is owed; the kernel has no semaphore of its own. -/
def reg7 : Pipeline.RegionSeg (pcfgs (F := F)) admH (pdats m ρ) () defs₀ 𝒱H LH lvH 7 where
  win := launch7.win.to₀
  block_pos := launch7.block_pos
  stage_whole := launch7.stage_whole
  K := PEmpty
  osem k := k.elim
  ho := Pipeline.OwnSemFacts.none _
  hbody c := (body_obligation7 (Wr15 m ρ) c).loose
  hwaits := Pipeline.hwaits_of_owed_zero _ _ _ _ LH lvH 7 fun _ _ => rfl
  pre c := iprop(StableHlo.held (c : Thread nD τ) (Pipeline.ucRefs τ sig) (W15 m ρ c) ∗ RH c)
  post c := iprop(StableHlo.held (c : Thread nD τ) (Pipeline.ucRefs τ sig) (W16 m ρ c) ∗ RH c)
  X c := iprop(∃ r, prngReg c r)
  Y c := iprop(∃ r, prngReg c r)
  Z c := Pipeline.unscopedRest (Ix := Unit) (Name := ℕ) (U := UR sig nD τ) (Lvl := ℕ) spec7 c (Wr15 m ρ c)
  hentry c := by
    rw [Pipeline.ownSems0_none]
    have hsplit := Pipeline.arrays_of_unscopedBufs (p := 7) (pcfgs (F := F)) admH (pdats m ρ) launch7.win launch7.arr_whole c
      ((pdats m ρ 7 c).share_full fun _ => rfl) (Wr15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec7 c : sProp 𝕄) ⊢ (pdats m ρ 7 c).Φ 0 from hin7 (Wr15 m ρ) c)
    unfold Pipeline.ΦA
    iintro ⟨Hp, -, Hr⟩
    isplitl [Hr]; · iexact Hr
    iexact Hp
  hout c := by
    rw [Pipeline.ownSems0_none]
    refine BIBase.Entails.trans (show (pdats m ρ 7 c).Φ (Fin.last _) ⊢ (Pipeline.ΦA spec7 c : sProp 𝕄) from hout7 (Wr15 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdats m ρ) ((pdats m ρ 7 c).share_full fun _ => rfl)
      (Wr15 m ρ c) (Wr16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
/-
  Region 8 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 8 over the thread state: entered from every unscoped buffer at the boundary before it, left at the one after.
    Its arrays are split out of the unscoped buffers and put back at the exit contents; the generator register goes into
    the region's invariant and comes back; nothing is owed; the kernel has no semaphore of its own. -/
def reg8 : Pipeline.RegionSeg (pcfgs (F := F)) admH (pdats m ρ) () defs₀ 𝒱H LH lvH 8 where
  win := launch8.win.to₀
  block_pos := launch8.block_pos
  stage_whole := launch8.stage_whole
  K := PEmpty
  osem k := k.elim
  ho := Pipeline.OwnSemFacts.none _
  hbody c := (body_obligation8 (Wr17 m ρ) c).loose
  hwaits := Pipeline.hwaits_of_owed_zero _ _ _ _ LH lvH 8 fun _ _ => rfl
  pre c := iprop(StableHlo.held (c : Thread nD τ) (Pipeline.ucRefs τ sig) (W17 m ρ c) ∗ RH c)
  post c := iprop(StableHlo.held (c : Thread nD τ) (Pipeline.ucRefs τ sig) (W18 m ρ c) ∗ RH c)
  X c := iprop(∃ r, prngReg c r)
  Y c := iprop(∃ r, prngReg c r)
  Z c := Pipeline.unscopedRest (Ix := Unit) (Name := ℕ) (U := UR sig nD τ) (Lvl := ℕ) spec8 c (Wr17 m ρ c)
  hentry c := by
    rw [Pipeline.ownSems0_none]
    have hsplit := Pipeline.arrays_of_unscopedBufs (p := 8) (pcfgs (F := F)) admH (pdats m ρ) launch8.win launch8.arr_whole c
      ((pdats m ρ 8 c).share_full fun _ => rfl) (Wr17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec8 c : sProp 𝕄) ⊢ (pdats m ρ 8 c).Φ 0 from hin8 (Wr17 m ρ) c)
    unfold Pipeline.ΦA
    iintro ⟨Hp, -, Hr⟩
    isplitl [Hr]; · iexact Hr
    iexact Hp
  hout c := by
    rw [Pipeline.ownSems0_none]
    refine BIBase.Entails.trans (show (pdats m ρ 8 c).Φ (Fin.last _) ⊢ (Pipeline.ΦA spec8 c : sProp 𝕄) from hout8 (Wr17 m ρ) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := UR sig nD τ) (Lvl := ℕ)
      launch8.win launch8.arr_whole c (pdats m ρ) ((pdats m ρ 8 c).share_full fun _ => rfl)
      (Wr17 m ρ c) (Wr18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg9.lean ====
/-
  Region 9 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 9 over the thread state: entered from every unscoped buffer at the boundary before it, left at the one after.
    Its arrays are split out of the unscoped buffers and put back at the exit contents; the generator register goes into
    the region's invariant and comes back; nothing is owed; the kernel has no semaphore of its own. -/
def reg9 : Pipeline.RegionSeg (pcfgs (F := F)) admH (pdats m ρ) () defs₀ 𝒱H LH lvH 9 where
  win := launch9.win.to₀
  block_pos := launch9.block_pos
  stage_whole := launch9.stage_whole
  K := PEmpty
  osem k := k.elim
  ho := Pipeline.OwnSemFacts.none _
  hbody c := (body_obligation9 (Wr19 m ρ) c).loose
  hwaits := Pipeline.hwaits_of_owed_zero _ _ _ _ LH lvH 9 fun _ _ => rfl
  pre c := iprop(StableHlo.held (c : Thread nD τ) (Pipeline.ucRefs τ sig) (W19 m ρ c) ∗ RH c)
  post c := iprop(StableHlo.held (c : Thread nD τ) (Pipeline.ucRefs τ sig) (W20 m ρ c) ∗ RH c)
  X c := iprop(∃ r, prngReg c r)
  Y c := iprop(∃ r, prngReg c r)
  Z c := Pipeline.unscopedRest (Ix := Unit) (Name := ℕ) (U := UR sig nD τ) (Lvl := ℕ) spec9 c (Wr19 m ρ c)
  hentry c := by
    rw [Pipeline.ownSems0_none]
    have hsplit := Pipeline.arrays_of_unscopedBufs (p := 9) (pcfgs (F := F)) admH (pdats m ρ) launch9.win launch9.arr_whole c
      ((pdats m ρ 9 c).share_full fun _ => rfl) (Wr19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec9 c : sProp 𝕄) ⊢ (pdats m ρ 9 c).Φ 0 from hin9 (Wr19 m ρ) c)
    unfold Pipeline.ΦA
    iintro ⟨Hp, -, Hr⟩
    isplitl [Hr]; · iexact Hr
    iexact Hp
  hout c := by
    rw [Pipeline.ownSems0_none]
    refine BIBase.Entails.trans (show (pdats m ρ 9 c).Φ (Fin.last _) ⊢ (Pipeline.ΦA spec9 c : sProp 𝕄) from hout9 (Wr19 m ρ) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) admH (Ix := Unit) (Name := ℕ) (U := UR sig nD τ) (Lvl := ℕ)
      launch9.win launch9.arr_whole c (pdats m ρ) ((pdats m ρ 9 c).share_full fun _ => rfl)
      (Wr19 m ρ c) (Wr20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg10.lean ====
/-
  Region 10 of the kernel program as a segment of @main.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Region 10 over the thread state: entered from every unscoped buffer at the boundary before it, left at the one after.
    Its arrays are split out of the unscoped buffers and put back at the exit contents; the generator register goes into
    the region's invariant and comes back; nothing is owed; the kernel has no semaphore of its own. -/
def reg10 : Pipeline.RegionSeg (pcfgs (F := F)) admH (pdats m ρ) () defs₀ 𝒱H LH lvH 10 where
  win := launch10.win.to₀
  block_pos := launch10.block_pos
  stage_whole := launch10.stage_whole
  K := PEmpty
  osem k := k.elim
  ho := Pipeline.OwnSemFacts.none _
  hbody c := (body_obligation10 (Wr21 m ρ) c).loose
  hwaits := Pipeline.hwaits_of_owed_zero _ _ _ _ LH lvH 10 fun _ _ => rfl
  pre c := iprop(StableHlo.held (c : Thread nD τ) (Pipeline.ucRefs τ sig) (W21 m ρ c) ∗ RH c)
  post c := iprop(StableHlo.held (c : Thread nD τ) (Pipeline.ucRefs τ sig) (W22 m ρ c) ∗ RH c)
  X c := iprop(∃ r, prngReg c r)
  Y c := iprop(∃ r, prngReg c r)
  Z c := Pipeline.unscopedRest (Ix := Unit) (Name := ℕ) (U := UR sig nD τ) (Lvl := ℕ) spec10 c (Wr21 m ρ c)
  hentry c := by
    rw [Pipeline.ownSems0_none]
    have hsplit := Pipeline.arrays_of_unscopedBufs (p := 10) (pcfgs (F := F)) admH (pdats m ρ) launch10.win launch10.arr_whole c
      ((pdats m ρ 10 c).share_full fun _ => rfl) (Wr21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec10 c : sProp 𝕄) ⊢ (pdats m ρ 10 c).Φ 0 from hin10 (Wr21 m ρ) c)
    unfold Pipeline.ΦA
    iintro ⟨Hp, -, Hr⟩
    isplitl [Hr]; · iexact Hr
    iexact Hp
  hout c := by
    rw [Pipeline.ownSems0_none]
    refine BIBase.Entails.trans (show (pdats m ρ 10 c).Φ (Fin.last _) ⊢ (Pipeline.ΦA spec10 c : sProp 𝕄) from hout10 (Wr21 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) admH (Ix := Unit) (Name := ℕ) (U := UR sig nD τ) (Lvl := ℕ)
      launch10.win launch10.arr_whole c (pdats m ρ) ((pdats m ρ 10 c).share_full fun _ => rfl)
      (Wr21 m ρ c) (Wr22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.lean ====
/-
  The kernel program's run: @main as twelve stretches of host operations around eleven regions, launched from any memory
  with zero counters. Every weakly fair execution ends, nothing faulting, with every unscoped buffer at the last
  boundary's contents; the argument arrays among them are as launched.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import proofs.«417336_j40785009443359_3_alg».proof.Proof.KI.Args
import proofs.«417336_j40785009443359_3_alg».proof.Proof.KI.Seg0
import proofs.«417336_j40785009443359_3_alg».proof.Proof.KI.Seg1
import proofs.«417336_j40785009443359_3_alg».proof.Proof.KI.Seg2
import proofs.«417336_j40785009443359_3_alg».proof.Proof.KI.Seg3
import proofs.«417336_j40785009443359_3_alg».proof.Proof.KI.Seg4
import proofs.«417336_j40785009443359_3_alg».proof.Proof.KI.Seg5
import proofs.«417336_j40785009443359_3_alg».proof.Proof.KI.Seg6
import proofs.«417336_j40785009443359_3_alg».proof.Proof.KI.Seg7
import proofs.«417336_j40785009443359_3_alg».proof.Proof.KI.Seg8
import proofs.«417336_j40785009443359_3_alg».proof.Proof.KI.Seg9
import proofs.«417336_j40785009443359_3_alg».proof.Proof.KI.Seg10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 23 segments in order. -/
abbrev segsH : List (Pipeline.Seg (pcfgs (F := F)) admH (pdats m ρ) () defs₀ 𝒱H LH lvH) :=
  [ .host (hsegH hostOps0 hostOps0_sub Gen.hostOps0_fresh (W0 m ρ)),
    .region (reg0 m ρ),
    .host (hsegH hostOps1 hostOps1_sub Gen.hostOps1_fresh (W2 m ρ)),
    .region (reg1 m ρ),
    .host (hsegH hostOps2 hostOps2_sub Gen.hostOps2_fresh (W4 m ρ)),
    .region (reg2 m ρ),
    .host (hsegH hostOps3 hostOps3_sub Gen.hostOps3_fresh (W6 m ρ)),
    .region (reg3 m ρ),
    .host (hsegH hostOps4 hostOps4_sub Gen.hostOps4_fresh (W8 m ρ)),
    .region (reg4 m ρ),
    .host (hsegH hostOps5 hostOps5_sub Gen.hostOps5_fresh (W10 m ρ)),
    .region (reg5 m ρ),
    .host (hsegH hostOps6 hostOps6_sub Gen.hostOps6_fresh (W12 m ρ)),
    .region (reg6 m ρ),
    .host (hsegH hostOps7 hostOps7_sub Gen.hostOps7_fresh (W14 m ρ)),
    .region (reg7 m ρ),
    .host (hsegH hostOps8 hostOps8_sub Gen.hostOps8_fresh (W16 m ρ)),
    .region (reg8 m ρ),
    .host (hsegH hostOps9 hostOps9_sub Gen.hostOps9_fresh (W18 m ρ)),
    .region (reg9 m ρ),
    .host (hsegH hostOps10 hostOps10_sub Gen.hostOps10_fresh (W20 m ρ)),
    .region (reg10 m ρ),
    .host (hsegH hostOps11 hostOps11_sub Gen.hostOps11_fresh (W22 m ρ)) ]

/-- @main is the run of the segments: both are the chain of the same 23 items, a segment's program being its stretch's
    line of operations or its region's call. -/
theorem main_runH (c : Dev nD) : main (F := F) c = Pipeline.Seg.run (segsH m ρ) := by
  rewrite [main_chain c, Pipeline.Seg.run_eq_chain,
    show (segsH m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10,
      Prog.lift (.customCall (Pipeline.entry 10) ()),
      StableHlo.seq hostOps11 ] from rfl]
  rfl

set_option backward.isDefEq.respectTransparency.types false in
/-- THE RUN: from any memory with zero counters every weakly fair execution of @main on the TensorCores terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) admH (pdats m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TlastH m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W23 m ρ c) ∗ RH c)
          ⊢ iprop(TlastH m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h => h)

/-- THE FRAME, at any instance: the argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_ucH main_arg0 (by decide))).trans (W23_main_arg0 m ρ c), (h c _ (mem_ucH main_arg1 (by decide))).trans (W23_main_arg1 m ρ c), (h c _ (mem_ucH main_arg2 (by decide))).trans (W23_main_arg2 m ρ c), (h c _ (mem_ucH main_arg3 (by decide))).trans (W23_main_arg3 m ρ c), (h c _ (mem_ucH main_arg4 (by decide))).trans (W23_main_arg4 m ρ c), (h c _ (mem_ucH main_arg5 (by decide))).trans (W23_main_arg5 m ρ c), (h c _ (mem_ucH main_arg6 (by decide))).trans (W23_main_arg6 m ρ c), (h c _ (mem_ucH main_arg7 (by decide))).trans (W23_main_arg7 m ρ c), (h c _ (mem_ucH main_arg8 (by decide))).trans (W23_main_arg8 m ρ c)⟩) (run_all m ρ)

end Cert.KernelIdeal.Hand

end
-- ==== Proof.KI.RefSpec.lean ====
import proofs.«417336_j40785009443359_3_alg».proof.Proof.Gen.ReferenceIdeal

noncomputable section

namespace Cert.ReferenceIdeal.Hand

open Cert.ReferenceIdeal Cert.ReferenceIdeal.Gen Idealize.ShloMosaic

variable {F : FTy → Type} [FloatOps F]

/-! ## The reference's result as a function of its nine argument arrays

A three-layer graph convolution over `N = 100000` nodes and `E = 1600000` edges with a self loop at every node,
each layer followed by a residual branch and a batch normalisation over the nodes, then a sum of the node rows
per graph. Every stage is the composed term of the printed operations that compute it. -/

/-- Row `off 0` of the edge table as a flat array, then the node numbers `0 … N−1`: one end of every edge,
    followed by the same end of every self loop. -/
def refEnds (off : Fin 2 → Nat) (h : S2x1600000.Slices off S1x1600000) (a1 : IVec S2x1600000 32) : IVec S1700000 32 :=
  concatenate S1700000 0 [⟨S1600000, shapeCast S1600000 (extractStridedSlice S1x1600000 off a1 h) shapeCasts_S1x1600000_S1600000⟩, ⟨S100000, iotaInDim S100000 32 0⟩] concatenates_S1600000_S100000_S1700000_d0

/-- The sources of the edges and self loops. -/
def refSrc (a1 : IVec S2x1600000 32) : IVec S1700000 32 := refEnds ![0, 0] slices_S2x1600000_S1x1600000_0_0 a1
/-- The destinations of the edges and self loops. -/
def refDst (a1 : IVec S2x1600000 32) : IVec S1700000 32 := refEnds ![1, 0] slices_S2x1600000_S1x1600000_1_0 a1

/-- An index array as the column a gather reads rows by: a negative index counted from the end (`i + N`), any
    other index itself. -/
def refWrapCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The column of source rows the gathers read. -/
def refSrcIdx (a1 : IVec S2x1600000 32) : IVec S1700000x1 32 := refWrapCol (refSrc a1)
/-- The column of destination rows the normalisation's gather reads. -/
def refDstGatherIdx (a1 : IVec S2x1600000 32) : IVec S1700000x1 32 := refWrapCol (refDst a1)
/-- The column of destination rows the scatter-adds write (not wrapped). -/
def refDstIdx (a1 : IVec S2x1600000 32) : IVec S1700000x1 32 :=
  broadcastInDim S1700000x1 ![0] bcast_S1700000_S1700000x1_0 (refDst a1)

/-- The in-degree of every node, self loop included: ones summed into the destination rows. -/
def refDeg (a1 : IVec S2x1600000 32) : FVec F S100000 .f32 :=
  Host.scatterAdd (F := F) scatter_S100000_S1700000x1_S1700000_n_0_0_1
    (broadcastInDim S100000 ![] bcast_S_S100000 (constant (F := F) S_ .f32 0x00000000#32)) (refDstIdx a1)
    (broadcastInDim S1700000 ![] bcast_S_S1700000 (constant (F := F) S_ .f32 0x3F800000#32))

/-- `1 / √deg`. -/
def refDinv (a1 : IVec S2x1600000 32) : FVec F S100000 .f32 := Host.rsqrt (F := F) (refDeg (F := F) a1)

/-- The weight of every edge and self loop, `dinv[src] · dinv[dst]`, as a column. -/
def refNorm (a1 : IVec S2x1600000 32) : FVec F S1700000x1 .f32 :=
  broadcastInDim S1700000x1 ![0] bcast_S1700000_S1700000x1_0
    (mulf (Host.gather gather_S100000_S1700000x1_S1700000_n_0_n_n_0_1_1 (refDinv (F := F) a1) (refSrcIdx a1))
      (Host.gather gather_S100000_S1700000x1_S1700000_n_0_n_n_0_1_1 (refDinv (F := F) a1) (refDstGatherIdx a1)))

/-- One layer's matrix out of a stack of three. -/
def refMat (off : Fin 3 → Nat) (h : S3x128x128.Slices off S1x128x128) (a : FVec F S3x128x128 .f32) : FVec F S128x128 .f32 :=
  shapeCast S128x128 (extractStridedSlice S1x128x128 off a h) shapeCasts_S1x128x128_S128x128
/-- One layer's feature vector out of a stack of three. -/
def refRow (off : Fin 2 → Nat) (h : S3x128.Slices off S1x128) (a : FVec F S3x128 .f32) : FVec F S128 .f32 :=
  shapeCast S128 (extractStridedSlice S1x128 off a h) shapeCasts_S1x128_S128
/-- A feature vector laid along every node's row. -/
def refRows (b : FVec F S128 .f32) : FVec F S100000x128 .f32 :=
  broadcastInDim S100000x128 ![0, 1] bcast_S1x128_S100000x128_0_1 (broadcastInDim S1x128 ![1] bcast_S128_S1x128_1 b)

/-- The convolution: the rows of `x · W` at the sources, each scaled by its edge's weight, summed into the
    destination rows, plus the bias. -/
def refConv (x : FVec F S100000x128 .f32) (W : FVec F S128x128 .f32) (b : FVec F S128 .f32)
    (srcIdx dstIdx : IVec S1700000x1 32) (norm : FVec F S1700000x1 .f32) : FVec F S100000x128 .f32 :=
  addf (Host.scatterAdd (F := F) scatter_S100000x128_S1700000x1_S1700000x128_1_0_0_1
      (broadcastInDim S100000x128 ![] bcast_S_S100000x128 (constant (F := F) S_ .f32 0x00000000#32)) dstIdx
      (mulf (Host.gather gather_S100000x128_S1700000x1_S1700000x128_1_0_n_n_0_1_1128 (Host.dotGeneral (F := F) dot_S100000x128_S128x128_S100000x128_1_0_0_1_n_n none x W) srcIdx)
        (broadcastInDim S1700000x128 ![0, 1] bcast_S1700000x1_S1700000x128_0_1 norm)))
    (refRows b)

/-- The residual branch: `max (x · rW + rb) 0`. -/
def refResid (x : FVec F S100000x128 .f32) (rW : FVec F S128x128 .f32) (rb : FVec F S128 .f32) : FVec F S100000x128 .f32 :=
  maximumf (addf (Host.dotGeneral (F := F) dot_S100000x128_S128x128_S100000x128_1_0_0_1_n_n none x rW) (refRows rb))
    (broadcastInDim S100000x128 ![] bcast_S_S100000x128 (constant (F := F) S_ .f32 0x00000000#32))

/-- What a layer normalises: convolution plus residual branch. -/
def refPreNorm (x : FVec F S100000x128 .f32) (W : FVec F S128x128 .f32) (b : FVec F S128 .f32) (rW : FVec F S128x128 .f32)
    (rb : FVec F S128 .f32) (srcIdx dstIdx : IVec S1700000x1 32) (norm : FVec F S1700000x1 .f32) : FVec F S100000x128 .f32 :=
  addf (refConv x W b srcIdx dstIdx norm) (refResid x rW rb)

/-- The mean of every feature over the nodes. -/
def refMean (h : FVec F S100000x128 .f32) : FVec F S128 .f32 :=
  Host.divf (F := F) (Host.reduceAdd (F := F) h (constant (F := F) S_ .f32 0x00000000#32) reducesTo_S100000x128_S128_d0 h_S_)
    (broadcastInDim S128 ![] bcast_S_S128 (constant (F := F) S_ .f32 0x47C35000#32))

/-- Every entry less its feature's mean, the mean taken as the variance's own computation takes it (a row
    `[1, 128]` of sums divided by a row of `N`s). -/
def refCentered (h : FVec F S100000x128 .f32) : FVec F S100000x128 .f32 :=
  subf h (broadcastInDim S100000x128 ![0, 1] bcast_S1x128_S100000x128_0_1
    (Host.divf (F := F) (broadcastInDim S1x128 ![1] bcast_S128_S1x128_1 (Host.reduceAdd (F := F) h (constant (F := F) S_ .f32 0x00000000#32) reducesTo_S100000x128_S128_d0 h_S_))
      (broadcastInDim S1x128 ![] bcast_S_S1x128 (constant (F := F) S_ .f32 0x47C35000#32))))

/-- The variance's divisor, `N − 0` (the correction term converted from the integer `0`). -/
def refCount : FVec F S_ .f32 := subf (constant (F := F) S_ .f32 0x47C35000#32) (sitofp (F := F) .f32 (constantI S_ 32 0#32))

/-- The (biased) variance of every feature over the nodes: the sum of squared centered entries over the divisor
    where the divisor is positive, elsewhere the not-a-number word. -/
def refVar (h : FVec F S100000x128 .f32) : FVec F S128 .f32 :=
  select (broadcastInDim S128 ![] bcast_S_S128 (cmpf .ogt (refCount (F := F)) (constant (F := F) S_ .f32 0x00000000#32)))
    (Host.divf (F := F) (Host.reduceAdd (F := F) (mulf (refCentered h) (refCentered h)) (constant (F := F) S_ .f32 0x00000000#32) reducesTo_S100000x128_S128_d0 h_S_)
      (broadcastInDim S128 ![] bcast_S_S128 (refCount (F := F))))
    (broadcastInDim S128 ![] bcast_S_S128 (id (constant (F := F) S_ .f32 0x7FC00000#32)))

/-- Batch normalisation over the nodes: `γ · (h − mean) · (1 / √(var + ε)) + β`. -/
def refBN (h : FVec F S100000x128 .f32) (gamma beta : FVec F S128 .f32) : FVec F S100000x128 .f32 :=
  addf (mulf (mulf (refRows gamma) (subf h (refRows (refMean h))))
      (refRows (Host.rsqrt (F := F) (addf (refVar h) (broadcastInDim S128 ![] bcast_S_S128 (constant (F := F) S_ .f32 0x3727C5AC#32))))))
    (refRows beta)

/-- One layer: the node features `x`, the layer's weights and the graph's index columns and edge weights to the
    next node features. -/
def refLayer (x : FVec F S100000x128 .f32) (W : FVec F S128x128 .f32) (b : FVec F S128 .f32) (rW : FVec F S128x128 .f32)
    (rb gamma beta : FVec F S128 .f32) (srcIdx dstIdx : IVec S1700000x1 32) (norm : FVec F S1700000x1 .f32) :
    FVec F S100000x128 .f32 :=
  refBN (refPreNorm x W b rW rb srcIdx dstIdx norm) gamma beta

/-- The sum of the node rows of every graph: rows summed at their graph's number. -/
def refPool (x : FVec F S100000x128 .f32) (a2 : IVec S100000 32) : FVec F S1024x128 .f32 :=
  Host.scatterAdd (F := F) scatter_S1024x128_S100000x1_S100000x128_1_0_0_1
    (broadcastInDim S1024x128 ![] bcast_S_S1024x128 (constant (F := F) S_ .f32 0x00000000#32))
    (broadcastInDim S100000x1 ![0] bcast_S100000_S100000x1_0 a2) x

/-- Layer `r` applied to `x`: the weights are row `r` of each stack. -/
def refLayerAt (o3 : Fin 3 → Nat) (o2 : Fin 2 → Nat) (h3 : S3x128x128.Slices o3 S1x128x128) (h2 : S3x128.Slices o2 S1x128)
    (x : FVec F S100000x128 .f32) (a1 : IVec S2x1600000 32) (a3 : FVec F S3x128x128 .f32) (a4 : FVec F S3x128 .f32)
    (a5 : FVec F S3x128x128 .f32) (a6 a7 a8 : FVec F S3x128 .f32) : FVec F S100000x128 .f32 :=
  refLayer x (refMat o3 h3 a3) (refRow o2 h2 a4) (refMat o3 h3 a5) (refRow o2 h2 a6) (refRow o2 h2 a7) (refRow o2 h2 a8)
    (refSrcIdx a1) (refDstIdx a1) (refNorm (F := F) a1)

/-- The reference's result: three layers, then the pooling. -/
def refOut (a0 : FVec F S100000x128 .f32) (a1 : IVec S2x1600000 32) (a2 : IVec S100000 32) (a3 : FVec F S3x128x128 .f32)
    (a4 : FVec F S3x128 .f32) (a5 : FVec F S3x128x128 .f32) (a6 a7 a8 : FVec F S3x128 .f32) : FVec F S1024x128 .f32 :=
  refPool
    (refLayerAt ![2, 0, 0] ![2, 0] slices_S3x128x128_S1x128x128_2_0_0 slices_S3x128_S1x128_2_0
      (refLayerAt ![1, 0, 0] ![1, 0] slices_S3x128x128_S1x128x128_1_0_0 slices_S3x128_S1x128_1_0
        (refLayerAt ![0, 0, 0] ![0, 0] slices_S3x128x128_S1x128x128_0_0_0 slices_S3x128_S1x128_0_0 a0 a1 a3 a4 a5 a6 a7 a8)
        a1 a3 a4 a5 a6 a7 a8)
      a1 a3 a4 a5 a6 a7 a8)
    a2

end Cert.ReferenceIdeal.Hand

end
-- ==== Proof.KI.RefOpsPre.lean ====
import proofs.«417336_j40785009443359_3_alg».proof.Proof.KI.RefSpec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Before the layers: the edge ends with the self loops, the degrees, and the edge weights -/

/-- The edge ends, the degree's scatter-add and inverse root, and the edge weights. -/
def opsPre : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1700000 ![] bcast_S_S1700000 : (⟨S_, .i32⟩ : BufTy).Contents (Elt F) → (⟨S1700000, .i32⟩ : BufTy).Contents (Elt F)),
    binary main_v5 main_v12 main_v13 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v14 (broadcastInDim S1700000 ![] bcast_S_S1700000 : (⟨S_, .i32⟩ : BufTy).Contents (Elt F) → (⟨S1700000, .i32⟩ : BufTy).Contents (Elt F)),
    binary main_v5 main_v14 main_v15 (addi : (⟨S1700000, .i32⟩ : BufTy).Contents (Elt F) → (⟨S1700000, .i32⟩ : BufTy).Contents (Elt F) → (⟨S1700000, .i32⟩ : BufTy).Contents (Elt F)),
    ternary main_v13 main_v15 main_v5 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v16 main_v17 (broadcastInDim S1700000x1 ![0] bcast_S1700000_S1700000x1_0 : (⟨S1700000, .i32⟩ : BufTy).Contents (Elt F) → (⟨S1700000x1, .i32⟩ : BufTy).Contents (Elt F)),
    binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v19 (broadcastInDim S1700000 ![] bcast_S_S1700000 : (⟨S_, .i32⟩ : BufTy).Contents (Elt F) → (⟨S1700000, .i32⟩ : BufTy).Contents (Elt F)),
    binary main_v6 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v18 main_v25 main_v26 (mulf : (⟨S1700000, .f32⟩ : BufTy).Contents (Elt F) → (⟨S1700000, .f32⟩ : BufTy).Contents (Elt F) → (⟨S1700000, .f32⟩ : BufTy).Contents (Elt F)),
    unary main_v26 main_v27 (broadcastInDim S1700000x1 ![0] bcast_S1700000_S1700000x1_0 : (⟨S1700000, .f32⟩ : BufTy).Contents (Elt F) → (⟨S1700000x1, .f32⟩ : BufTy).Contents (Elt F)) ]

/-- The buffers these operations write. -/
abbrev opsPre_W : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27]

set_option maxRecDepth 8192 in
theorem opsPre_writes : (opsPre : List (HloOp τ sig (Elt F))).Forall fun op => op.writes ⊆ (opsPre_W.map (Proc.devRef (τ := τ) .tc)).toFinset := by
  simp only [opsPre, List.Forall]
  exact ⟨(by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide))⟩

/-- A buffer these operations do not write keeps its contents through them. -/
theorem opsPre_keep (V : Valuation τ sig (Elt F)) {r : Ref sig .tc} (h : r ∉ opsPre_W) :
    after opsPre V (no_index (Proc.devRef .tc r)) = V (Proc.devRef .tc r) :=
  after_of_writes_sub opsPre V opsPre_writes h

set_option maxRecDepth 8192 in
theorem opsPre_sub : (opsPre : List (HloOp τ sig (Elt F))).Forall fun op => op.bufs ⊆ tcRefs τ sig := by
  unfold opsPre
  exact ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩

set_option maxRecDepth 8192 in
theorem opsPre_fresh : ∀ op ∈ (opsPre : List (HloOp τ sig (Elt F))), op.fresh = ∅ := by
  unfold opsPre
  intro _ h
  (repeat (cases h with | head => rfl | tail _ h => ?_))
  exact nomatch h

set_option maxRecDepth 8192 in
set_option maxHeartbeats 4000000 in
/-- The sources. -/
theorem opsPre_v5 (V : Valuation τ sig (Elt F)) :
    after opsPre V (no_index (Proc.devRef .tc main_v5)) = refSrc (V (Proc.devRef .tc main_arg1)) := by
  simp only [opsPre]
  after_results_simp
  rfl

set_option maxRecDepth 8192 in
set_option maxHeartbeats 4000000 in
/-- The destinations. -/
theorem opsPre_v6 (V : Valuation τ sig (Elt F)) :
    after opsPre V (no_index (Proc.devRef .tc main_v6)) = refDst (V (Proc.devRef .tc main_arg1)) := by
  simp only [opsPre]
  after_results_simp
  rfl

set_option maxRecDepth 8192 in
set_option maxHeartbeats 4000000 in
/-- The edge weights. -/
theorem opsPre_v27 (V : Valuation τ sig (Elt F)) :
    after opsPre V (no_index (Proc.devRef .tc main_v27)) = refNorm (F := F) (V (Proc.devRef .tc main_arg1)) := by
  simp only [opsPre]
  after_results_simp
  rfl

end Cert.ReferenceIdeal.Hand

end
-- ==== Proof.KI.RefOpsL0.lean ====
import proofs.«417336_j40785009443359_3_alg».proof.Proof.KI.RefSpec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Layer 0: its operations in three stretches, and what each leaves -/

/-- Layer 0's convolution and the product of the residual branch: from the node features in `main_arg0`. -/
def opsA0 : List (HloOp τ sig (Elt F)) :=
  [ unary main_arg3 main_v28 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v28 main_v29 rfl shapeCasts_S1x128x128_S128x128,
    binary main_arg0 main_v29 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_4 (constantI S_ 32 0#32),
    unary main_c_4 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v38 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v38 main_v39 (mulf : (⟨S1700000x128, .f32⟩ : BufTy).Contents (Elt F) → (⟨S1700000x128, .f32⟩ : BufTy).Contents (Elt F) → (⟨S1700000x128, .f32⟩ : BufTy).Contents (Elt F)),
    nullary main_cst_6 (constant S_ .f32 0x00000000#32),
    unary main_cst_6 main_v40 (broadcastInDim S100000x128 ![] bcast_S_S100000x128 : (⟨S_, .f32⟩ : BufTy).Contents (Elt F) → (⟨S100000x128, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v43 ((extractStridedSlice S1x128 ![0, 0] · slices_S3x128_S1x128_0_0) : (⟨S3x128, .f32⟩ : BufTy).Contents (Elt F) → (⟨S1x128, .f32⟩ : BufTy).Contents (Elt F)),
    reshape main_v43 main_v44 rfl shapeCasts_S1x128_S128,
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v42 main_v46 main_v47 (addf : (⟨S100000x128, .f32⟩ : BufTy).Contents (Elt F) → (⟨S100000x128, .f32⟩ : BufTy).Contents (Elt F) → (⟨S100000x128, .f32⟩ : BufTy).Contents (Elt F)),
    unary main_arg5 main_v48 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v48 main_v49 rfl shapeCasts_S1x128x128_S128x128,
    binary main_arg0 main_v49 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers these operations write. -/
abbrev opsA0_W : List (Ref sig .tc) := [main_v28, main_v29, main_v30, main_c_4, main_v31, main_v32, main_c_5, main_v33, main_v34, main_v35, main_v36, main_v37, main_v38, main_v39, main_cst_6, main_v40, main_v41, main_v42, main_v43, main_v44, main_v45, main_v46, main_v47, main_v48, main_v49, main_v50]

set_option maxRecDepth 8192 in
theorem opsA0_writes : (opsA0 : List (HloOp τ sig (Elt F))).Forall fun op => op.writes ⊆ (opsA0_W.map (Proc.devRef (τ := τ) .tc)).toFinset := by
  simp only [opsA0, List.Forall]
  exact ⟨(by simp only [unary_writes, Finset.singleton_subset_iff, List.mem_toFinset]; exact List.mem_map_of_mem (by decide)),
    (by simp only [reshape_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [binary_writes, Finset.singleton_subset_iff, List.mem_toFinset]; exact List.mem_map_of_mem (by decide))⟩

/-- A buffer these operations do not write keeps its contents through them. -/
theorem opsA0_keep (V : Valuation τ sig (Elt F)) {r : Ref sig .tc} (h : r ∉ opsA0_W) :
    after opsA0 V (no_index (Proc.devRef .tc r)) = V (Proc.devRef .tc r) :=
  after_of_writes_sub opsA0 V opsA0_writes h

set_option maxRecDepth 8192 in
theorem opsA0_sub : (opsA0 : List (HloOp τ sig (Elt F))).Forall fun op => op.bufs ⊆ tcRefs τ sig := by
  unfold opsA0
  exact ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub ..⟩

set_option maxRecDepth 8192 in
theorem opsA0_fresh : ∀ op ∈ (opsA0 : List (HloOp τ sig (Elt F))), op.fresh = ∅ := by
  unfold opsA0
  intro _ h
  (repeat (cases h with | head => rfl | tail _ h => ?_))
  exact nomatch h

set_option maxRecDepth 8192 in
set_option maxHeartbeats 4000000 in
/-- The convolution of the features the stretch starts from. -/
theorem opsA0_v47 (V : Valuation τ sig (Elt F)) :
    after opsA0 V (no_index (Proc.devRef .tc main_v47)) = refConv (V (Proc.devRef .tc main_arg0)) (refMat ![0, 0, 0] slices_S3x128x128_S1x128x128_0_0_0 (V (Proc.devRef .tc main_arg3))) (refRow ![0, 0] slices_S3x128_S1x128_0_0 (V (Proc.devRef .tc main_arg4))) (refWrapCol (V (Proc.devRef .tc main_v5))) (broadcastInDim S1700000x1 ![0] bcast_S1700000_S1700000x1_0 (V (Proc.devRef .tc main_v6))) (V (Proc.devRef .tc main_v27)) := by
  simp only [opsA0]
  after_results_simp
  rfl

set_option maxRecDepth 8192 in
set_option maxHeartbeats 4000000 in
/-- The features times the residual branch's matrix. -/
theorem opsA0_v50 (V : Valuation τ sig (Elt F)) :
    after opsA0 V (no_index (Proc.devRef .tc main_v50)) = Host.dotGeneral (F := F) dot_S100000x128_S128x128_S100000x128_1_0_0_1_n_n none (V (Proc.devRef .tc main_arg0)) (refMat ![0, 0, 0] slices_S3x128x128_S1x128x128_0_0_0 (V (Proc.devRef .tc main_arg5))) := by
  simp only [opsA0]
  after_results_simp
  rfl

/-- Layer 0's residual branch added to its convolution. -/
def opsB0 : List (HloOp τ sig (Elt F)) :=
  [ unary main_arg6 main_v51 ((extractStridedSlice S1x128 ![0, 0] · slices_S3x128_S1x128_0_0) : (⟨S3x128, .f32⟩ : BufTy).Contents (Elt F) → (⟨S1x128, .f32⟩ : BufTy).Contents (Elt F)),
    reshape main_v51 main_v52 rfl shapeCasts_S1x128_S128,
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v50 main_v54 main_v55 (addf : (⟨S100000x128, .f32⟩ : BufTy).Contents (Elt F) → (⟨S100000x128, .f32⟩ : BufTy).Contents (Elt F) → (⟨S100000x128, .f32⟩ : BufTy).Contents (Elt F)),
    nullary main_call0_cst (constant S_ .f32 0x00000000#32),
    unary main_call0_cst main_call0_v0 (broadcastInDim S100000x128 ![] bcast_S_S100000x128 : (⟨S_, .f32⟩ : BufTy).Contents (Elt F) → (⟨S100000x128, .f32⟩ : BufTy).Contents (Elt F)),
    binary main_v55 main_call0_v0 main_v56 (maximumf : (⟨S100000x128, .f32⟩ : BufTy).Contents (Elt F) → (⟨S100000x128, .f32⟩ : BufTy).Contents (Elt F) → (⟨S100000x128, .f32⟩ : BufTy).Contents (Elt F)),
    binary main_v47 main_v56 main_v57 (addf : (⟨S100000x128, .f32⟩ : BufTy).Contents (Elt F) → (⟨S100000x128, .f32⟩ : BufTy).Contents (Elt F) → (⟨S100000x128, .f32⟩ : BufTy).Contents (Elt F)) ]

/-- The buffers these operations write. -/
abbrev opsB0_W : List (Ref sig .tc) := [main_v51, main_v52, main_v53, main_v54, main_v55, main_call0_cst, main_call0_v0, main_v56, main_v57]

set_option maxRecDepth 8192 in
theorem opsB0_writes : (opsB0 : List (HloOp τ sig (Elt F))).Forall fun op => op.writes ⊆ (opsB0_W.map (Proc.devRef (τ := τ) .tc)).toFinset := by
  simp only [opsB0, List.Forall]
  exact ⟨(by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [binary_writes, Finset.singleton_subset_iff, List.mem_toFinset]; exact List.mem_map_of_mem (by decide))⟩

/-- A buffer these operations do not write keeps its contents through them. -/
theorem opsB0_keep (V : Valuation τ sig (Elt F)) {r : Ref sig .tc} (h : r ∉ opsB0_W) :
    after opsB0 V (no_index (Proc.devRef .tc r)) = V (Proc.devRef .tc r) :=
  after_of_writes_sub opsB0 V opsB0_writes h

set_option maxRecDepth 8192 in
theorem opsB0_sub : (opsB0 : List (HloOp τ sig (Elt F))).Forall fun op => op.bufs ⊆ tcRefs τ sig := by
  unfold opsB0
  exact ⟨unary_bufs_sub .., reshape_bufs_sub .., unary_bufs_sub .., unary_bufs_sub .., binary_bufs_sub .., nullary_bufs_sub .., unary_bufs_sub .., binary_bufs_sub .., binary_bufs_sub ..⟩

set_option maxRecDepth 8192 in
theorem opsB0_fresh : ∀ op ∈ (opsB0 : List (HloOp τ sig (Elt F))), op.fresh = ∅ := by
  unfold opsB0
  intro _ h
  (repeat (cases h with | head => rfl | tail _ h => ?_))
  exact nomatch h

set_option maxRecDepth 8192 in
set_option maxHeartbeats 4000000 in
/-- Convolution plus the rectified residual branch. -/
theorem opsB0_v57 (V : Valuation τ sig (Elt F)) :
    after opsB0 V (no_index (Proc.devRef .tc main_v57)) = addf (V (Proc.devRef .tc main_v47)) (maximumf (addf (V (Proc.devRef .tc main_v50)) (refRows (refRow ![0, 0] slices_S3x128_S1x128_0_0 (V (Proc.devRef .tc main_arg6))))) (broadcastInDim S100000x128 ![] bcast_S_S100000x128 (constant (F := F) S_ .f32 0x00000000#32))) := by
  simp only [opsB0]
  after_results_simp
  rfl

/-- Layer 0's batch normalisation: mean, variance, and the normalised features. -/
def opsC0 : List (HloOp τ sig (Elt F)) :=
  [ nullary main_cst_7 (constant S_ .f32 0x00000000#32),
    binary main_v57 main_cst_7 main_v58 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_8 (constant S_ .f32 0x47C35000#32),
    unary main_cst_8 main_v59 (broadcastInDim S128 ![] bcast_S_S128 : (⟨S_, .f32⟩ : BufTy).Contents (Elt F) → (⟨S128, .f32⟩ : BufTy).Contents (Elt F)),
    binary main_v58 main_v59 main_v60 (Host.divf : (⟨S128, .f32⟩ : BufTy).Contents (Elt F) → (⟨S128, .f32⟩ : BufTy).Contents (Elt F) → (⟨S128, .f32⟩ : BufTy).Contents (Elt F)),
    nullary main_c_9 (constantI S_ 32 0#32),
    nullary main_call1_cst (constant S_ .f32 0x00000000#32),
    binary main_v57 main_call1_cst main_call1_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call1_v0 main_call1_v1 (broadcastInDim S1x128 ![1] bcast_S128_S1x128_1 : (⟨S128, .f32⟩ : BufTy).Contents (Elt F) → (⟨S1x128, .f32⟩ : BufTy).Contents (Elt F)),
    nullary main_call1_cst_0 (constant S_ .f32 0x47C35000#32),
    unary main_call1_cst_0 main_call1_v2 (broadcastInDim S1x128 ![] bcast_S_S1x128 : (⟨S_, .f32⟩ : BufTy).Contents (Elt F) → (⟨S1x128, .f32⟩ : BufTy).Contents (Elt F)),
    binary main_call1_v1 main_call1_v2 main_call1_v3 (Host.divf : (⟨S1x128, .f32⟩ : BufTy).Contents (Elt F) → (⟨S1x128, .f32⟩ : BufTy).Contents (Elt F) → (⟨S1x128, .f32⟩ : BufTy).Contents (Elt F)),
    unary main_call1_v3 main_call1_v4 (broadcastInDim S100000x128 ![0, 1] bcast_S1x128_S100000x128_0_1 : (⟨S1x128, .f32⟩ : BufTy).Contents (Elt F) → (⟨S100000x128, .f32⟩ : BufTy).Contents (Elt F)),
    binary main_v57 main_call1_v4 main_call1_v5 (subf : (⟨S100000x128, .f32⟩ : BufTy).Contents (Elt F) → (⟨S100000x128, .f32⟩ : BufTy).Contents (Elt F) → (⟨S100000x128, .f32⟩ : BufTy).Contents (Elt F)),
    binary main_call1_v5 main_call1_v5 main_call1_v6 (mulf : (⟨S100000x128, .f32⟩ : BufTy).Contents (Elt F) → (⟨S100000x128, .f32⟩ : BufTy).Contents (Elt F) → (⟨S100000x128, .f32⟩ : BufTy).Contents (Elt F)),
    unary main_c_9 main_call1_v7 (sitofp .f32 : (⟨S_, .i32⟩ : BufTy).Contents (Elt F) → (⟨S_, .f32⟩ : BufTy).Contents (Elt F)),
    nullary main_call1_cst_1 (constant S_ .f32 0x47C35000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call1_v8 main_call1_v10 (broadcastInDim S128 ![] bcast_S_S128 : (⟨S_, .f32⟩ : BufTy).Contents (Elt F) → (⟨S128, .f32⟩ : BufTy).Contents (Elt F)),
    binary main_call1_v9 main_call1_v10 main_call1_v11 (Host.divf : (⟨S128, .f32⟩ : BufTy).Contents (Elt F) → (⟨S128, .f32⟩ : BufTy).Contents (Elt F) → (⟨S128, .f32⟩ : BufTy).Contents (Elt F)),
    nullary main_call1_cst_3 (constant S_ .f32 0x00000000#32),
    binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 (broadcastInDim S128 ![] bcast_S_S128 : (⟨S_, .f32⟩ : BufTy).Contents (Elt F) → (⟨S128, .f32⟩ : BufTy).Contents (Elt F)),
    ternary main_call1_v12 main_call1_v11 main_call1_call0_v1 main_v61 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_arg7 main_v62 ((extractStridedSlice S1x128 ![0, 0] · slices_S3x128_S1x128_0_0) : (⟨S3x128, .f32⟩ : BufTy).Contents (Elt F) → (⟨S1x128, .f32⟩ : BufTy).Contents (Elt F)),
    reshape main_v62 main_v63 rfl shapeCasts_S1x128_S128,
    unary main_v60 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v57 main_v65 main_v66 (subf : (⟨S100000x128, .f32⟩ : BufTy).Contents (Elt F) → (⟨S100000x128, .f32⟩ : BufTy).Contents (Elt F) → (⟨S100000x128, .f32⟩ : BufTy).Contents (Elt F)),
    unary main_v63 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v68 main_v66 main_v69 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v70 (broadcastInDim S128 ![] bcast_S_S128 : (⟨S_, .f32⟩ : BufTy).Contents (Elt F) → (⟨S128, .f32⟩ : BufTy).Contents (Elt F)),
    binary main_v61 main_v70 main_v71 (addf : (⟨S128, .f32⟩ : BufTy).Contents (Elt F) → (⟨S128, .f32⟩ : BufTy).Contents (Elt F) → (⟨S128, .f32⟩ : BufTy).Contents (Elt F)),
    unary main_v71 main_v72 (Host.rsqrt : (⟨S128, .f32⟩ : BufTy).Contents (Elt F) → (⟨S128, .f32⟩ : BufTy).Contents (Elt F)),
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v69 main_v74 main_v75 (mulf : (⟨S100000x128, .f32⟩ : BufTy).Contents (Elt F) → (⟨S100000x128, .f32⟩ : BufTy).Contents (Elt F) → (⟨S100000x128, .f32⟩ : BufTy).Contents (Elt F)),
    unary main_arg8 main_v76 ((extractStridedSlice S1x128 ![0, 0] · slices_S3x128_S1x128_0_0) : (⟨S3x128, .f32⟩ : BufTy).Contents (Elt F) → (⟨S1x128, .f32⟩ : BufTy).Contents (Elt F)),
    reshape main_v76 main_v77 rfl shapeCasts_S1x128_S128,
    unary main_v77 main_v78 (broadcastInDim S1x128 ![1] bcast_S128_S1x128_1 : (⟨S128, .f32⟩ : BufTy).Contents (Elt F) → (⟨S1x128, .f32⟩ : BufTy).Contents (Elt F)),
    unary main_v78 main_v79 (broadcastInDim S100000x128 ![0, 1] bcast_S1x128_S100000x128_0_1 : (⟨S1x128, .f32⟩ : BufTy).Contents (Elt F) → (⟨S100000x128, .f32⟩ : BufTy).Contents (Elt F)),
    binary main_v75 main_v79 main_v80 (addf : (⟨S100000x128, .f32⟩ : BufTy).Contents (Elt F) → (⟨S100000x128, .f32⟩ : BufTy).Contents (Elt F) → (⟨S100000x128, .f32⟩ : BufTy).Contents (Elt F)) ]

/-- The buffers these operations write. -/
abbrev opsC0_W : List (Ref sig .tc) := [main_cst_7, main_v58, main_cst_8, main_v59, main_v60, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v61, main_v62, main_v63, main_v64, main_v65, main_v66, main_v67, main_v68, main_v69, main_cst_10, main_v70, main_v71, main_v72, main_v73, main_v74, main_v75, main_v76, main_v77, main_v78, main_v79, main_v80]

set_option maxRecDepth 8192 in
theorem opsC0_writes : (opsC0 : List (HloOp τ sig (Elt F))).Forall fun op => op.writes ⊆ (opsC0_W.map (Proc.devRef (τ := τ) .tc)).toFinset := by
  simp only [opsC0, List.Forall]
  exact ⟨(by simp only [nullary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide))⟩

/-- A buffer these operations do not write keeps its contents through them. -/
theorem opsC0_keep (V : Valuation τ sig (Elt F)) {r : Ref sig .tc} (h : r ∉ opsC0_W) :
    after opsC0 V (no_index (Proc.devRef .tc r)) = V (Proc.devRef .tc r) :=
  after_of_writes_sub opsC0 V opsC0_writes h

set_option maxRecDepth 8192 in
theorem opsC0_sub : (opsC0 : List (HloOp τ sig (Elt F))).Forall fun op => op.bufs ⊆ tcRefs τ sig := by
  unfold opsC0
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩

set_option maxRecDepth 8192 in
theorem opsC0_fresh : ∀ op ∈ (opsC0 : List (HloOp τ sig (Elt F))), op.fresh = ∅ := by
  unfold opsC0
  intro _ h
  (repeat (cases h with | head => rfl | tail _ h => ?_))
  exact nomatch h

set_option maxRecDepth 8192 in
set_option maxHeartbeats 4000000 in
/-- The batch normalisation of what the stretch starts from. -/
theorem opsC0_v80 (V : Valuation τ sig (Elt F)) :
    after opsC0 V (no_index (Proc.devRef .tc main_v80)) = refBN (V (Proc.devRef .tc main_v57)) (refRow ![0, 0] slices_S3x128_S1x128_0_0 (V (Proc.devRef .tc main_arg7))) (refRow ![0, 0] slices_S3x128_S1x128_0_0 (V (Proc.devRef .tc main_arg8))) := by
  simp only [opsC0]
  after_results_simp
  rfl

end Cert.ReferenceIdeal.Hand

end
-- ==== Proof.KI.RefOpsL1.lean ====
import proofs.«417336_j40785009443359_3_alg».proof.Proof.KI.RefSpec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Layer 1: its operations in three stretches, and what each leaves -/

/-- Layer 1's convolution and the product of the residual branch: from the node features in `main_v80`. -/
def opsA1 : List (HloOp τ sig (Elt F)) :=
  [ unary main_arg3 main_v81 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v81 main_v82 rfl shapeCasts_S1x128x128_S128x128,
    binary main_v80 main_v82 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_11 (constantI S_ 32 0#32),
    unary main_c_11 main_v84 (broadcastInDim S1700000 ![] bcast_S_S1700000 : (⟨S_, .i32⟩ : BufTy).Contents (Elt F) → (⟨S1700000, .i32⟩ : BufTy).Contents (Elt F)),
    binary main_v5 main_v84 main_v85 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v86 (broadcastInDim S1700000 ![] bcast_S_S1700000 : (⟨S_, .i32⟩ : BufTy).Contents (Elt F) → (⟨S1700000, .i32⟩ : BufTy).Contents (Elt F)),
    binary main_v5 main_v86 main_v87 (addi : (⟨S1700000, .i32⟩ : BufTy).Contents (Elt F) → (⟨S1700000, .i32⟩ : BufTy).Contents (Elt F) → (⟨S1700000, .i32⟩ : BufTy).Contents (Elt F)),
    ternary main_v85 main_v87 main_v5 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v88 main_v89 (broadcastInDim S1700000x1 ![0] bcast_S1700000_S1700000x1_0 : (⟨S1700000, .i32⟩ : BufTy).Contents (Elt F) → (⟨S1700000x1, .i32⟩ : BufTy).Contents (Elt F)),
    binary main_v83 main_v89 main_v90 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v91 (broadcastInDim S1700000x128 ![0, 1] bcast_S1700000x1_S1700000x128_0_1 : (⟨S1700000x1, .f32⟩ : BufTy).Contents (Elt F) → (⟨S1700000x128, .f32⟩ : BufTy).Contents (Elt F)),
    binary main_v90 main_v91 main_v92 (mulf : (⟨S1700000x128, .f32⟩ : BufTy).Contents (Elt F) → (⟨S1700000x128, .f32⟩ : BufTy).Contents (Elt F) → (⟨S1700000x128, .f32⟩ : BufTy).Contents (Elt F)),
    nullary main_cst_13 (constant S_ .f32 0x00000000#32),
    unary main_cst_13 main_v93 (broadcastInDim S100000x128 ![] bcast_S_S100000x128 : (⟨S_, .f32⟩ : BufTy).Contents (Elt F) → (⟨S100000x128, .f32⟩ : BufTy).Contents (Elt F)),
    unary main_v6 main_v94 (broadcastInDim S1700000x1 ![0] bcast_S1700000_S1700000x1_0 : (⟨S1700000, .i32⟩ : BufTy).Contents (Elt F) → (⟨S1700000x1, .i32⟩ : BufTy).Contents (Elt F)),
    ternary main_v93 main_v94 main_v92 main_v95 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v96 ((extractStridedSlice S1x128 ![1, 0] · slices_S3x128_S1x128_1_0) : (⟨S3x128, .f32⟩ : BufTy).Contents (Elt F) → (⟨S1x128, .f32⟩ : BufTy).Contents (Elt F)),
    reshape main_v96 main_v97 rfl shapeCasts_S1x128_S128,
    unary main_v97 main_v98 (broadcastInDim S1x128 ![1] bcast_S128_S1x128_1 : (⟨S128, .f32⟩ : BufTy).Contents (Elt F) → (⟨S1x128, .f32⟩ : BufTy).Contents (Elt F)),
    unary main_v98 main_v99 (broadcastInDim S100000x128 ![0, 1] bcast_S1x128_S100000x128_0_1 : (⟨S1x128, .f32⟩ : BufTy).Contents (Elt F) → (⟨S100000x128, .f32⟩ : BufTy).Contents (Elt F)),
    binary main_v95 main_v99 main_v100 (addf : (⟨S100000x128, .f32⟩ : BufTy).Contents (Elt F) → (⟨S100000x128, .f32⟩ : BufTy).Contents (Elt F) → (⟨S100000x128, .f32⟩ : BufTy).Contents (Elt F)),
    unary main_arg5 main_v101 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v101 main_v102 rfl shapeCasts_S1x128x128_S128x128,
    binary main_v80 main_v102 main_v103 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers these operations write. -/
abbrev opsA1_W : List (Ref sig .tc) := [main_v81, main_v82, main_v83, main_c_11, main_v84, main_v85, main_c_12, main_v86, main_v87, main_v88, main_v89, main_v90, main_v91, main_v92, main_cst_13, main_v93, main_v94, main_v95, main_v96, main_v97, main_v98, main_v99, main_v100, main_v101, main_v102, main_v103]

set_option maxRecDepth 8192 in
theorem opsA1_writes : (opsA1 : List (HloOp τ sig (Elt F))).Forall fun op => op.writes ⊆ (opsA1_W.map (Proc.devRef (τ := τ) .tc)).toFinset := by
  simp only [opsA1, List.Forall]
  exact ⟨(by simp only [unary_writes, Finset.singleton_subset_iff, List.mem_toFinset]; exact List.mem_map_of_mem (by decide)),
    (by simp only [reshape_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [binary_writes, Finset.singleton_subset_iff, List.mem_toFinset]; exact List.mem_map_of_mem (by decide))⟩

/-- A buffer these operations do not write keeps its contents through them. -/
theorem opsA1_keep (V : Valuation τ sig (Elt F)) {r : Ref sig .tc} (h : r ∉ opsA1_W) :
    after opsA1 V (no_index (Proc.devRef .tc r)) = V (Proc.devRef .tc r) :=
  after_of_writes_sub opsA1 V opsA1_writes h

set_option maxRecDepth 8192 in
theorem opsA1_sub : (opsA1 : List (HloOp τ sig (Elt F))).Forall fun op => op.bufs ⊆ tcRefs τ sig := by
  unfold opsA1
  exact ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub ..⟩

set_option maxRecDepth 8192 in
theorem opsA1_fresh : ∀ op ∈ (opsA1 : List (HloOp τ sig (Elt F))), op.fresh = ∅ := by
  unfold opsA1
  intro _ h
  (repeat (cases h with | head => rfl | tail _ h => ?_))
  exact nomatch h

set_option maxRecDepth 8192 in
set_option maxHeartbeats 4000000 in
/-- The convolution of the features the stretch starts from. -/
theorem opsA1_v100 (V : Valuation τ sig (Elt F)) :
    after opsA1 V (no_index (Proc.devRef .tc main_v100)) = refConv (V (Proc.devRef .tc main_v80)) (refMat ![1, 0, 0] slices_S3x128x128_S1x128x128_1_0_0 (V (Proc.devRef .tc main_arg3))) (refRow ![1, 0] slices_S3x128_S1x128_1_0 (V (Proc.devRef .tc main_arg4))) (refWrapCol (V (Proc.devRef .tc main_v5))) (broadcastInDim S1700000x1 ![0] bcast_S1700000_S1700000x1_0 (V (Proc.devRef .tc main_v6))) (V (Proc.devRef .tc main_v27)) := by
  simp only [opsA1]
  after_results_simp
  rfl

set_option maxRecDepth 8192 in
set_option maxHeartbeats 4000000 in
/-- The features times the residual branch's matrix. -/
theorem opsA1_v103 (V : Valuation τ sig (Elt F)) :
    after opsA1 V (no_index (Proc.devRef .tc main_v103)) = Host.dotGeneral (F := F) dot_S100000x128_S128x128_S100000x128_1_0_0_1_n_n none (V (Proc.devRef .tc main_v80)) (refMat ![1, 0, 0] slices_S3x128x128_S1x128x128_1_0_0 (V (Proc.devRef .tc main_arg5))) := by
  simp only [opsA1]
  after_results_simp
  rfl

/-- Layer 1's residual branch added to its convolution. -/
def opsB1 : List (HloOp τ sig (Elt F)) :=
  [ unary main_arg6 main_v104 ((extractStridedSlice S1x128 ![1, 0] · slices_S3x128_S1x128_1_0) : (⟨S3x128, .f32⟩ : BufTy).Contents (Elt F) → (⟨S1x128, .f32⟩ : BufTy).Contents (Elt F)),
    reshape main_v104 main_v105 rfl shapeCasts_S1x128_S128,
    unary main_v105 main_v106 (broadcastInDim S1x128 ![1] bcast_S128_S1x128_1 : (⟨S128, .f32⟩ : BufTy).Contents (Elt F) → (⟨S1x128, .f32⟩ : BufTy).Contents (Elt F)),
    unary main_v106 main_v107 (broadcastInDim S100000x128 ![0, 1] bcast_S1x128_S100000x128_0_1 : (⟨S1x128, .f32⟩ : BufTy).Contents (Elt F) → (⟨S100000x128, .f32⟩ : BufTy).Contents (Elt F)),
    binary main_v103 main_v107 main_v108 (addf : (⟨S100000x128, .f32⟩ : BufTy).Contents (Elt F) → (⟨S100000x128, .f32⟩ : BufTy).Contents (Elt F) → (⟨S100000x128, .f32⟩ : BufTy).Contents (Elt F)),
    nullary main_call2_cst (constant S_ .f32 0x00000000#32),
    unary main_call2_cst main_call2_v0 (broadcastInDim S100000x128 ![] bcast_S_S100000x128 : (⟨S_, .f32⟩ : BufTy).Contents (Elt F) → (⟨S100000x128, .f32⟩ : BufTy).Contents (Elt F)),
    binary main_v108 main_call2_v0 main_v109 (maximumf : (⟨S100000x128, .f32⟩ : BufTy).Contents (Elt F) → (⟨S100000x128, .f32⟩ : BufTy).Contents (Elt F) → (⟨S100000x128, .f32⟩ : BufTy).Contents (Elt F)),
    binary main_v100 main_v109 main_v110 (addf : (⟨S100000x128, .f32⟩ : BufTy).Contents (Elt F) → (⟨S100000x128, .f32⟩ : BufTy).Contents (Elt F) → (⟨S100000x128, .f32⟩ : BufTy).Contents (Elt F)) ]

/-- The buffers these operations write. -/
abbrev opsB1_W : List (Ref sig .tc) := [main_v104, main_v105, main_v106, main_v107, main_v108, main_call2_cst, main_call2_v0, main_v109, main_v110]

set_option maxRecDepth 8192 in
theorem opsB1_writes : (opsB1 : List (HloOp τ sig (Elt F))).Forall fun op => op.writes ⊆ (opsB1_W.map (Proc.devRef (τ := τ) .tc)).toFinset := by
  simp only [opsB1, List.Forall]
  exact ⟨(by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [binary_writes, Finset.singleton_subset_iff, List.mem_toFinset]; exact List.mem_map_of_mem (by decide))⟩

/-- A buffer these operations do not write keeps its contents through them. -/
theorem opsB1_keep (V : Valuation τ sig (Elt F)) {r : Ref sig .tc} (h : r ∉ opsB1_W) :
    after opsB1 V (no_index (Proc.devRef .tc r)) = V (Proc.devRef .tc r) :=
  after_of_writes_sub opsB1 V opsB1_writes h

set_option maxRecDepth 8192 in
theorem opsB1_sub : (opsB1 : List (HloOp τ sig (Elt F))).Forall fun op => op.bufs ⊆ tcRefs τ sig := by
  unfold opsB1
  exact ⟨unary_bufs_sub .., reshape_bufs_sub .., unary_bufs_sub .., unary_bufs_sub .., binary_bufs_sub .., nullary_bufs_sub .., unary_bufs_sub .., binary_bufs_sub .., binary_bufs_sub ..⟩

set_option maxRecDepth 8192 in
theorem opsB1_fresh : ∀ op ∈ (opsB1 : List (HloOp τ sig (Elt F))), op.fresh = ∅ := by
  unfold opsB1
  intro _ h
  (repeat (cases h with | head => rfl | tail _ h => ?_))
  exact nomatch h

set_option maxRecDepth 8192 in
set_option maxHeartbeats 4000000 in
/-- Convolution plus the rectified residual branch. -/
theorem opsB1_v110 (V : Valuation τ sig (Elt F)) :
    after opsB1 V (no_index (Proc.devRef .tc main_v110)) = addf (V (Proc.devRef .tc main_v100)) (maximumf (addf (V (Proc.devRef .tc main_v103)) (refRows (refRow ![1, 0] slices_S3x128_S1x128_1_0 (V (Proc.devRef .tc main_arg6))))) (broadcastInDim S100000x128 ![] bcast_S_S100000x128 (constant (F := F) S_ .f32 0x00000000#32))) := by
  simp only [opsB1]
  after_results_simp
  rfl

/-- Layer 1's batch normalisation: mean, variance, and the normalised features. -/
def opsC1 : List (HloOp τ sig (Elt F)) :=
  [ nullary main_cst_14 (constant S_ .f32 0x00000000#32),
    binary main_v110 main_cst_14 main_v111 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_15 (constant S_ .f32 0x47C35000#32),
    unary main_cst_15 main_v112 (broadcastInDim S128 ![] bcast_S_S128 : (⟨S_, .f32⟩ : BufTy).Contents (Elt F) → (⟨S128, .f32⟩ : BufTy).Contents (Elt F)),
    binary main_v111 main_v112 main_v113 (Host.divf : (⟨S128, .f32⟩ : BufTy).Contents (Elt F) → (⟨S128, .f32⟩ : BufTy).Contents (Elt F) → (⟨S128, .f32⟩ : BufTy).Contents (Elt F)),
    nullary main_c_16 (constantI S_ 32 0#32),
    nullary main_call3_cst (constant S_ .f32 0x00000000#32),
    binary main_v110 main_call3_cst main_call3_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call3_v0 main_call3_v1 (broadcastInDim S1x128 ![1] bcast_S128_S1x128_1 : (⟨S128, .f32⟩ : BufTy).Contents (Elt F) → (⟨S1x128, .f32⟩ : BufTy).Contents (Elt F)),
    nullary main_call3_cst_0 (constant S_ .f32 0x47C35000#32),
    unary main_call3_cst_0 main_call3_v2 (broadcastInDim S1x128 ![] bcast_S_S1x128 : (⟨S_, .f32⟩ : BufTy).Contents (Elt F) → (⟨S1x128, .f32⟩ : BufTy).Contents (Elt F)),
    binary main_call3_v1 main_call3_v2 main_call3_v3 (Host.divf : (⟨S1x128, .f32⟩ : BufTy).Contents (Elt F) → (⟨S1x128, .f32⟩ : BufTy).Contents (Elt F) → (⟨S1x128, .f32⟩ : BufTy).Contents (Elt F)),
    unary main_call3_v3 main_call3_v4 (broadcastInDim S100000x128 ![0, 1] bcast_S1x128_S100000x128_0_1 : (⟨S1x128, .f32⟩ : BufTy).Contents (Elt F) → (⟨S100000x128, .f32⟩ : BufTy).Contents (Elt F)),
    binary main_v110 main_call3_v4 main_call3_v5 (subf : (⟨S100000x128, .f32⟩ : BufTy).Contents (Elt F) → (⟨S100000x128, .f32⟩ : BufTy).Contents (Elt F) → (⟨S100000x128, .f32⟩ : BufTy).Contents (Elt F)),
    binary main_call3_v5 main_call3_v5 main_call3_v6 (mulf : (⟨S100000x128, .f32⟩ : BufTy).Contents (Elt F) → (⟨S100000x128, .f32⟩ : BufTy).Contents (Elt F) → (⟨S100000x128, .f32⟩ : BufTy).Contents (Elt F)),
    unary main_c_16 main_call3_v7 (sitofp .f32 : (⟨S_, .i32⟩ : BufTy).Contents (Elt F) → (⟨S_, .f32⟩ : BufTy).Contents (Elt F)),
    nullary main_call3_cst_1 (constant S_ .f32 0x47C35000#32),
    binary main_call3_cst_1 main_call3_v7 main_call3_v8 (subf : (⟨S_, .f32⟩ : BufTy).Contents (Elt F) → (⟨S_, .f32⟩ : BufTy).Contents (Elt F) → (⟨S_, .f32⟩ : BufTy).Contents (Elt F)),
    nullary main_call3_cst_2 (constant S_ .f32 0x00000000#32),
    binary main_call3_v6 main_call3_cst_2 main_call3_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call3_v8 main_call3_v10 (broadcastInDim S128 ![] bcast_S_S128 : (⟨S_, .f32⟩ : BufTy).Contents (Elt F) → (⟨S128, .f32⟩ : BufTy).Contents (Elt F)),
    binary main_call3_v9 main_call3_v10 main_call3_v11 (Host.divf : (⟨S128, .f32⟩ : BufTy).Contents (Elt F) → (⟨S128, .f32⟩ : BufTy).Contents (Elt F) → (⟨S128, .f32⟩ : BufTy).Contents (Elt F)),
    nullary main_call3_cst_3 (constant S_ .f32 0x00000000#32),
    binary main_call3_v8 main_call3_cst_3 main_call3_v12 (cmpf .ogt : (⟨S_, .f32⟩ : BufTy).Contents (Elt F) → (⟨S_, .f32⟩ : BufTy).Contents (Elt F) → (⟨S_, .i1⟩ : BufTy).Contents (Elt F)),
    nullary main_call3_cst_4 (constant S_ .f32 0x7FC00000#32),
    unary main_call3_cst_4 main_call3_call0_v0 (id : (⟨S_, .f32⟩ : BufTy).Contents (Elt F) → (⟨S_, .f32⟩ : BufTy).Contents (Elt F)),
    unary main_call3_call0_v0 main_call3_call0_v1 (broadcastInDim S128 ![] bcast_S_S128 : (⟨S_, .f32⟩ : BufTy).Contents (Elt F) → (⟨S128, .f32⟩ : BufTy).Contents (Elt F)),
    ternary main_call3_v12 main_call3_v11 main_call3_call0_v1 main_v114 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_arg7 main_v115 ((extractStridedSlice S1x128 ![1, 0] · slices_S3x128_S1x128_1_0) : (⟨S3x128, .f32⟩ : BufTy).Contents (Elt F) → (⟨S1x128, .f32⟩ : BufTy).Contents (Elt F)),
    reshape main_v115 main_v116 rfl shapeCasts_S1x128_S128,
    unary main_v113 main_v117 (broadcastInDim S1x128 ![1] bcast_S128_S1x128_1 : (⟨S128, .f32⟩ : BufTy).Contents (Elt F) → (⟨S1x128, .f32⟩ : BufTy).Contents (Elt F)),
    unary main_v117 main_v118 (broadcastInDim S100000x128 ![0, 1] bcast_S1x128_S100000x128_0_1 : (⟨S1x128, .f32⟩ : BufTy).Contents (Elt F) → (⟨S100000x128, .f32⟩ : BufTy).Contents (Elt F)),
    binary main_v110 main_v118 main_v119 (subf : (⟨S100000x128, .f32⟩ : BufTy).Contents (Elt F) → (⟨S100000x128, .f32⟩ : BufTy).Contents (Elt F) → (⟨S100000x128, .f32⟩ : BufTy).Contents (Elt F)),
    unary main_v116 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v121 main_v119 main_v122 (mulf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x3727C5AC#32),
    unary main_cst_17 main_v123 (broadcastInDim S128 ![] bcast_S_S128 : (⟨S_, .f32⟩ : BufTy).Contents (Elt F) → (⟨S128, .f32⟩ : BufTy).Contents (Elt F)),
    binary main_v114 main_v123 main_v124 (addf : (⟨S128, .f32⟩ : BufTy).Contents (Elt F) → (⟨S128, .f32⟩ : BufTy).Contents (Elt F) → (⟨S128, .f32⟩ : BufTy).Contents (Elt F)),
    unary main_v124 main_v125 (Host.rsqrt : (⟨S128, .f32⟩ : BufTy).Contents (Elt F) → (⟨S128, .f32⟩ : BufTy).Contents (Elt F)),
    unary main_v125 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v122 main_v127 main_v128 (mulf : (⟨S100000x128, .f32⟩ : BufTy).Contents (Elt F) → (⟨S100000x128, .f32⟩ : BufTy).Contents (Elt F) → (⟨S100000x128, .f32⟩ : BufTy).Contents (Elt F)),
    unary main_arg8 main_v129 ((extractStridedSlice S1x128 ![1, 0] · slices_S3x128_S1x128_1_0) : (⟨S3x128, .f32⟩ : BufTy).Contents (Elt F) → (⟨S1x128, .f32⟩ : BufTy).Contents (Elt F)),
    reshape main_v129 main_v130 rfl shapeCasts_S1x128_S128,
    unary main_v130 main_v131 (broadcastInDim S1x128 ![1] bcast_S128_S1x128_1 : (⟨S128, .f32⟩ : BufTy).Contents (Elt F) → (⟨S1x128, .f32⟩ : BufTy).Contents (Elt F)),
    unary main_v131 main_v132 (broadcastInDim S100000x128 ![0, 1] bcast_S1x128_S100000x128_0_1 : (⟨S1x128, .f32⟩ : BufTy).Contents (Elt F) → (⟨S100000x128, .f32⟩ : BufTy).Contents (Elt F)),
    binary main_v128 main_v132 main_v133 (addf : (⟨S100000x128, .f32⟩ : BufTy).Contents (Elt F) → (⟨S100000x128, .f32⟩ : BufTy).Contents (Elt F) → (⟨S100000x128, .f32⟩ : BufTy).Contents (Elt F)) ]

/-- The buffers these operations write. -/
abbrev opsC1_W : List (Ref sig .tc) := [main_cst_14, main_v111, main_cst_15, main_v112, main_v113, main_c_16, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v114, main_v115, main_v116, main_v117, main_v118, main_v119, main_v120, main_v121, main_v122, main_cst_17, main_v123, main_v124, main_v125, main_v126, main_v127, main_v128, main_v129, main_v130, main_v131, main_v132, main_v133]

set_option maxRecDepth 8192 in
theorem opsC1_writes : (opsC1 : List (HloOp τ sig (Elt F))).Forall fun op => op.writes ⊆ (opsC1_W.map (Proc.devRef (τ := τ) .tc)).toFinset := by
  simp only [opsC1, List.Forall]
  exact ⟨(by simp only [nullary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide))⟩

/-- A buffer these operations do not write keeps its contents through them. -/
theorem opsC1_keep (V : Valuation τ sig (Elt F)) {r : Ref sig .tc} (h : r ∉ opsC1_W) :
    after opsC1 V (no_index (Proc.devRef .tc r)) = V (Proc.devRef .tc r) :=
  after_of_writes_sub opsC1 V opsC1_writes h

set_option maxRecDepth 8192 in
theorem opsC1_sub : (opsC1 : List (HloOp τ sig (Elt F))).Forall fun op => op.bufs ⊆ tcRefs τ sig := by
  unfold opsC1
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩

set_option maxRecDepth 8192 in
theorem opsC1_fresh : ∀ op ∈ (opsC1 : List (HloOp τ sig (Elt F))), op.fresh = ∅ := by
  unfold opsC1
  intro _ h
  (repeat (cases h with | head => rfl | tail _ h => ?_))
  exact nomatch h

set_option maxRecDepth 8192 in
set_option maxHeartbeats 4000000 in
/-- The batch normalisation of what the stretch starts from. -/
theorem opsC1_v133 (V : Valuation τ sig (Elt F)) :
    after opsC1 V (no_index (Proc.devRef .tc main_v133)) = refBN (V (Proc.devRef .tc main_v110)) (refRow ![1, 0] slices_S3x128_S1x128_1_0 (V (Proc.devRef .tc main_arg7))) (refRow ![1, 0] slices_S3x128_S1x128_1_0 (V (Proc.devRef .tc main_arg8))) := by
  simp only [opsC1]
  after_results_simp
  rfl

end Cert.ReferenceIdeal.Hand

end
-- ==== Proof.KI.RefOpsL2.lean ====
import proofs.«417336_j40785009443359_3_alg».proof.Proof.KI.RefSpec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Layer 2: its operations in three stretches, and what each leaves -/

/-- Layer 2's convolution and the product of the residual branch: from the node features in `main_v133`. -/
def opsA2 : List (HloOp τ sig (Elt F)) :=
  [ unary main_arg3 main_v134 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v134 main_v135 rfl shapeCasts_S1x128x128_S128x128,
    binary main_v133 main_v135 main_v136 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_18 (constantI S_ 32 0#32),
    unary main_c_18 main_v137 (broadcastInDim S1700000 ![] bcast_S_S1700000 : (⟨S_, .i32⟩ : BufTy).Contents (Elt F) → (⟨S1700000, .i32⟩ : BufTy).Contents (Elt F)),
    binary main_v5 main_v137 main_v138 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v139 (broadcastInDim S1700000 ![] bcast_S_S1700000 : (⟨S_, .i32⟩ : BufTy).Contents (Elt F) → (⟨S1700000, .i32⟩ : BufTy).Contents (Elt F)),
    binary main_v5 main_v139 main_v140 (addi : (⟨S1700000, .i32⟩ : BufTy).Contents (Elt F) → (⟨S1700000, .i32⟩ : BufTy).Contents (Elt F) → (⟨S1700000, .i32⟩ : BufTy).Contents (Elt F)),
    ternary main_v138 main_v140 main_v5 main_v141 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v141 main_v142 (broadcastInDim S1700000x1 ![0] bcast_S1700000_S1700000x1_0 : (⟨S1700000, .i32⟩ : BufTy).Contents (Elt F) → (⟨S1700000x1, .i32⟩ : BufTy).Contents (Elt F)),
    binary main_v136 main_v142 main_v143 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v144 (broadcastInDim S1700000x128 ![0, 1] bcast_S1700000x1_S1700000x128_0_1 : (⟨S1700000x1, .f32⟩ : BufTy).Contents (Elt F) → (⟨S1700000x128, .f32⟩ : BufTy).Contents (Elt F)),
    binary main_v143 main_v144 main_v145 (mulf : (⟨S1700000x128, .f32⟩ : BufTy).Contents (Elt F) → (⟨S1700000x128, .f32⟩ : BufTy).Contents (Elt F) → (⟨S1700000x128, .f32⟩ : BufTy).Contents (Elt F)),
    nullary main_cst_20 (constant S_ .f32 0x00000000#32),
    unary main_cst_20 main_v146 (broadcastInDim S100000x128 ![] bcast_S_S100000x128 : (⟨S_, .f32⟩ : BufTy).Contents (Elt F) → (⟨S100000x128, .f32⟩ : BufTy).Contents (Elt F)),
    unary main_v6 main_v147 (broadcastInDim S1700000x1 ![0] bcast_S1700000_S1700000x1_0 : (⟨S1700000, .i32⟩ : BufTy).Contents (Elt F) → (⟨S1700000x1, .i32⟩ : BufTy).Contents (Elt F)),
    ternary main_v146 main_v147 main_v145 main_v148 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v149 ((extractStridedSlice S1x128 ![2, 0] · slices_S3x128_S1x128_2_0) : (⟨S3x128, .f32⟩ : BufTy).Contents (Elt F) → (⟨S1x128, .f32⟩ : BufTy).Contents (Elt F)),
    reshape main_v149 main_v150 rfl shapeCasts_S1x128_S128,
    unary main_v150 main_v151 (broadcastInDim S1x128 ![1] bcast_S128_S1x128_1 : (⟨S128, .f32⟩ : BufTy).Contents (Elt F) → (⟨S1x128, .f32⟩ : BufTy).Contents (Elt F)),
    unary main_v151 main_v152 (broadcastInDim S100000x128 ![0, 1] bcast_S1x128_S100000x128_0_1 : (⟨S1x128, .f32⟩ : BufTy).Contents (Elt F) → (⟨S100000x128, .f32⟩ : BufTy).Contents (Elt F)),
    binary main_v148 main_v152 main_v153 (addf : (⟨S100000x128, .f32⟩ : BufTy).Contents (Elt F) → (⟨S100000x128, .f32⟩ : BufTy).Contents (Elt F) → (⟨S100000x128, .f32⟩ : BufTy).Contents (Elt F)),
    unary main_arg5 main_v154 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v154 main_v155 rfl shapeCasts_S1x128x128_S128x128,
    binary main_v133 main_v155 main_v156 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers these operations write. -/
abbrev opsA2_W : List (Ref sig .tc) := [main_v134, main_v135, main_v136, main_c_18, main_v137, main_v138, main_c_19, main_v139, main_v140, main_v141, main_v142, main_v143, main_v144, main_v145, main_cst_20, main_v146, main_v147, main_v148, main_v149, main_v150, main_v151, main_v152, main_v153, main_v154, main_v155, main_v156]

set_option maxRecDepth 8192 in
theorem opsA2_writes : (opsA2 : List (HloOp τ sig (Elt F))).Forall fun op => op.writes ⊆ (opsA2_W.map (Proc.devRef (τ := τ) .tc)).toFinset := by
  simp only [opsA2, List.Forall]
  exact ⟨(by simp only [unary_writes, Finset.singleton_subset_iff, List.mem_toFinset]; exact List.mem_map_of_mem (by decide)),
    (by simp only [reshape_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [binary_writes, Finset.singleton_subset_iff, List.mem_toFinset]; exact List.mem_map_of_mem (by decide))⟩

/-- A buffer these operations do not write keeps its contents through them. -/
theorem opsA2_keep (V : Valuation τ sig (Elt F)) {r : Ref sig .tc} (h : r ∉ opsA2_W) :
    after opsA2 V (no_index (Proc.devRef .tc r)) = V (Proc.devRef .tc r) :=
  after_of_writes_sub opsA2 V opsA2_writes h

set_option maxRecDepth 8192 in
theorem opsA2_sub : (opsA2 : List (HloOp τ sig (Elt F))).Forall fun op => op.bufs ⊆ tcRefs τ sig := by
  unfold opsA2
  exact ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub ..⟩

set_option maxRecDepth 8192 in
theorem opsA2_fresh : ∀ op ∈ (opsA2 : List (HloOp τ sig (Elt F))), op.fresh = ∅ := by
  unfold opsA2
  intro _ h
  (repeat (cases h with | head => rfl | tail _ h => ?_))
  exact nomatch h

set_option maxRecDepth 8192 in
set_option maxHeartbeats 4000000 in
/-- The convolution of the features the stretch starts from. -/
theorem opsA2_v153 (V : Valuation τ sig (Elt F)) :
    after opsA2 V (no_index (Proc.devRef .tc main_v153)) = refConv (V (Proc.devRef .tc main_v133)) (refMat ![2, 0, 0] slices_S3x128x128_S1x128x128_2_0_0 (V (Proc.devRef .tc main_arg3))) (refRow ![2, 0] slices_S3x128_S1x128_2_0 (V (Proc.devRef .tc main_arg4))) (refWrapCol (V (Proc.devRef .tc main_v5))) (broadcastInDim S1700000x1 ![0] bcast_S1700000_S1700000x1_0 (V (Proc.devRef .tc main_v6))) (V (Proc.devRef .tc main_v27)) := by
  simp only [opsA2]
  after_results_simp
  rfl

set_option maxRecDepth 8192 in
set_option maxHeartbeats 4000000 in
/-- The features times the residual branch's matrix. -/
theorem opsA2_v156 (V : Valuation τ sig (Elt F)) :
    after opsA2 V (no_index (Proc.devRef .tc main_v156)) = Host.dotGeneral (F := F) dot_S100000x128_S128x128_S100000x128_1_0_0_1_n_n none (V (Proc.devRef .tc main_v133)) (refMat ![2, 0, 0] slices_S3x128x128_S1x128x128_2_0_0 (V (Proc.devRef .tc main_arg5))) := by
  simp only [opsA2]
  after_results_simp
  rfl

/-- Layer 2's residual branch added to its convolution. -/
def opsB2 : List (HloOp τ sig (Elt F)) :=
  [ unary main_arg6 main_v157 ((extractStridedSlice S1x128 ![2, 0] · slices_S3x128_S1x128_2_0) : (⟨S3x128, .f32⟩ : BufTy).Contents (Elt F) → (⟨S1x128, .f32⟩ : BufTy).Contents (Elt F)),
    reshape main_v157 main_v158 rfl shapeCasts_S1x128_S128,
    unary main_v158 main_v159 (broadcastInDim S1x128 ![1] bcast_S128_S1x128_1 : (⟨S128, .f32⟩ : BufTy).Contents (Elt F) → (⟨S1x128, .f32⟩ : BufTy).Contents (Elt F)),
    unary main_v159 main_v160 (broadcastInDim S100000x128 ![0, 1] bcast_S1x128_S100000x128_0_1 : (⟨S1x128, .f32⟩ : BufTy).Contents (Elt F) → (⟨S100000x128, .f32⟩ : BufTy).Contents (Elt F)),
    binary main_v156 main_v160 main_v161 (addf : (⟨S100000x128, .f32⟩ : BufTy).Contents (Elt F) → (⟨S100000x128, .f32⟩ : BufTy).Contents (Elt F) → (⟨S100000x128, .f32⟩ : BufTy).Contents (Elt F)),
    nullary main_call4_cst (constant S_ .f32 0x00000000#32),
    unary main_call4_cst main_call4_v0 (broadcastInDim S100000x128 ![] bcast_S_S100000x128 : (⟨S_, .f32⟩ : BufTy).Contents (Elt F) → (⟨S100000x128, .f32⟩ : BufTy).Contents (Elt F)),
    binary main_v161 main_call4_v0 main_v162 (maximumf : (⟨S100000x128, .f32⟩ : BufTy).Contents (Elt F) → (⟨S100000x128, .f32⟩ : BufTy).Contents (Elt F) → (⟨S100000x128, .f32⟩ : BufTy).Contents (Elt F)),
    binary main_v153 main_v162 main_v163 (addf : (⟨S100000x128, .f32⟩ : BufTy).Contents (Elt F) → (⟨S100000x128, .f32⟩ : BufTy).Contents (Elt F) → (⟨S100000x128, .f32⟩ : BufTy).Contents (Elt F)) ]

/-- The buffers these operations write. -/
abbrev opsB2_W : List (Ref sig .tc) := [main_v157, main_v158, main_v159, main_v160, main_v161, main_call4_cst, main_call4_v0, main_v162, main_v163]

set_option maxRecDepth 8192 in
theorem opsB2_writes : (opsB2 : List (HloOp τ sig (Elt F))).Forall fun op => op.writes ⊆ (opsB2_W.map (Proc.devRef (τ := τ) .tc)).toFinset := by
  simp only [opsB2, List.Forall]
  exact ⟨(by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [binary_writes, Finset.singleton_subset_iff, List.mem_toFinset]; exact List.mem_map_of_mem (by decide))⟩

/-- A buffer these operations do not write keeps its contents through them. -/
theorem opsB2_keep (V : Valuation τ sig (Elt F)) {r : Ref sig .tc} (h : r ∉ opsB2_W) :
    after opsB2 V (no_index (Proc.devRef .tc r)) = V (Proc.devRef .tc r) :=
  after_of_writes_sub opsB2 V opsB2_writes h

set_option maxRecDepth 8192 in
theorem opsB2_sub : (opsB2 : List (HloOp τ sig (Elt F))).Forall fun op => op.bufs ⊆ tcRefs τ sig := by
  unfold opsB2
  exact ⟨unary_bufs_sub .., reshape_bufs_sub .., unary_bufs_sub .., unary_bufs_sub .., binary_bufs_sub .., nullary_bufs_sub .., unary_bufs_sub .., binary_bufs_sub .., binary_bufs_sub ..⟩

set_option maxRecDepth 8192 in
theorem opsB2_fresh : ∀ op ∈ (opsB2 : List (HloOp τ sig (Elt F))), op.fresh = ∅ := by
  unfold opsB2
  intro _ h
  (repeat (cases h with | head => rfl | tail _ h => ?_))
  exact nomatch h

set_option maxRecDepth 8192 in
set_option maxHeartbeats 4000000 in
/-- Convolution plus the rectified residual branch. -/
theorem opsB2_v163 (V : Valuation τ sig (Elt F)) :
    after opsB2 V (no_index (Proc.devRef .tc main_v163)) = addf (V (Proc.devRef .tc main_v153)) (maximumf (addf (V (Proc.devRef .tc main_v156)) (refRows (refRow ![2, 0] slices_S3x128_S1x128_2_0 (V (Proc.devRef .tc main_arg6))))) (broadcastInDim S100000x128 ![] bcast_S_S100000x128 (constant (F := F) S_ .f32 0x00000000#32))) := by
  simp only [opsB2]
  after_results_simp
  rfl

/-- Layer 2's batch normalisation: mean, variance, and the normalised features. -/
def opsC2 : List (HloOp τ sig (Elt F)) :=
  [ nullary main_cst_21 (constant S_ .f32 0x00000000#32),
    binary main_v163 main_cst_21 main_v164 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_22 (constant S_ .f32 0x47C35000#32),
    unary main_cst_22 main_v165 (broadcastInDim S128 ![] bcast_S_S128 : (⟨S_, .f32⟩ : BufTy).Contents (Elt F) → (⟨S128, .f32⟩ : BufTy).Contents (Elt F)),
    binary main_v164 main_v165 main_v166 (Host.divf : (⟨S128, .f32⟩ : BufTy).Contents (Elt F) → (⟨S128, .f32⟩ : BufTy).Contents (Elt F) → (⟨S128, .f32⟩ : BufTy).Contents (Elt F)),
    nullary main_c_23 (constantI S_ 32 0#32),
    nullary main_call5_cst (constant S_ .f32 0x00000000#32),
    binary main_v163 main_call5_cst main_call5_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call5_v0 main_call5_v1 (broadcastInDim S1x128 ![1] bcast_S128_S1x128_1 : (⟨S128, .f32⟩ : BufTy).Contents (Elt F) → (⟨S1x128, .f32⟩ : BufTy).Contents (Elt F)),
    nullary main_call5_cst_0 (constant S_ .f32 0x47C35000#32),
    unary main_call5_cst_0 main_call5_v2 (broadcastInDim S1x128 ![] bcast_S_S1x128 : (⟨S_, .f32⟩ : BufTy).Contents (Elt F) → (⟨S1x128, .f32⟩ : BufTy).Contents (Elt F)),
    binary main_call5_v1 main_call5_v2 main_call5_v3 (Host.divf : (⟨S1x128, .f32⟩ : BufTy).Contents (Elt F) → (⟨S1x128, .f32⟩ : BufTy).Contents (Elt F) → (⟨S1x128, .f32⟩ : BufTy).Contents (Elt F)),
    unary main_call5_v3 main_call5_v4 (broadcastInDim S100000x128 ![0, 1] bcast_S1x128_S100000x128_0_1 : (⟨S1x128, .f32⟩ : BufTy).Contents (Elt F) → (⟨S100000x128, .f32⟩ : BufTy).Contents (Elt F)),
    binary main_v163 main_call5_v4 main_call5_v5 (subf : (⟨S100000x128, .f32⟩ : BufTy).Contents (Elt F) → (⟨S100000x128, .f32⟩ : BufTy).Contents (Elt F) → (⟨S100000x128, .f32⟩ : BufTy).Contents (Elt F)),
    binary main_call5_v5 main_call5_v5 main_call5_v6 (mulf : (⟨S100000x128, .f32⟩ : BufTy).Contents (Elt F) → (⟨S100000x128, .f32⟩ : BufTy).Contents (Elt F) → (⟨S100000x128, .f32⟩ : BufTy).Contents (Elt F)),
    unary main_c_23 main_call5_v7 (sitofp .f32 : (⟨S_, .i32⟩ : BufTy).Contents (Elt F) → (⟨S_, .f32⟩ : BufTy).Contents (Elt F)),
    nullary main_call5_cst_1 (constant S_ .f32 0x47C35000#32),
    binary main_call5_cst_1 main_call5_v7 main_call5_v8 (subf : (⟨S_, .f32⟩ : BufTy).Contents (Elt F) → (⟨S_, .f32⟩ : BufTy).Contents (Elt F) → (⟨S_, .f32⟩ : BufTy).Contents (Elt F)),
    nullary main_call5_cst_2 (constant S_ .f32 0x00000000#32),
    binary main_call5_v6 main_call5_cst_2 main_call5_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call5_v8 main_call5_v10 (broadcastInDim S128 ![] bcast_S_S128 : (⟨S_, .f32⟩ : BufTy).Contents (Elt F) → (⟨S128, .f32⟩ : BufTy).Contents (Elt F)),
    binary main_call5_v9 main_call5_v10 main_call5_v11 (Host.divf : (⟨S128, .f32⟩ : BufTy).Contents (Elt F) → (⟨S128, .f32⟩ : BufTy).Contents (Elt F) → (⟨S128, .f32⟩ : BufTy).Contents (Elt F)),
    nullary main_call5_cst_3 (constant S_ .f32 0x00000000#32),
    binary main_call5_v8 main_call5_cst_3 main_call5_v12 (cmpf .ogt : (⟨S_, .f32⟩ : BufTy).Contents (Elt F) → (⟨S_, .f32⟩ : BufTy).Contents (Elt F) → (⟨S_, .i1⟩ : BufTy).Contents (Elt F)),
    nullary main_call5_cst_4 (constant S_ .f32 0x7FC00000#32),
    unary main_call5_cst_4 main_call5_call0_v0 (id : (⟨S_, .f32⟩ : BufTy).Contents (Elt F) → (⟨S_, .f32⟩ : BufTy).Contents (Elt F)),
    unary main_call5_call0_v0 main_call5_call0_v1 (broadcastInDim S128 ![] bcast_S_S128 : (⟨S_, .f32⟩ : BufTy).Contents (Elt F) → (⟨S128, .f32⟩ : BufTy).Contents (Elt F)),
    ternary main_call5_v12 main_call5_v11 main_call5_call0_v1 main_v167 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_arg7 main_v168 ((extractStridedSlice S1x128 ![2, 0] · slices_S3x128_S1x128_2_0) : (⟨S3x128, .f32⟩ : BufTy).Contents (Elt F) → (⟨S1x128, .f32⟩ : BufTy).Contents (Elt F)),
    reshape main_v168 main_v169 rfl shapeCasts_S1x128_S128,
    unary main_v166 main_v170 (broadcastInDim S1x128 ![1] bcast_S128_S1x128_1 : (⟨S128, .f32⟩ : BufTy).Contents (Elt F) → (⟨S1x128, .f32⟩ : BufTy).Contents (Elt F)),
    unary main_v170 main_v171 (broadcastInDim S100000x128 ![0, 1] bcast_S1x128_S100000x128_0_1 : (⟨S1x128, .f32⟩ : BufTy).Contents (Elt F) → (⟨S100000x128, .f32⟩ : BufTy).Contents (Elt F)),
    binary main_v163 main_v171 main_v172 (subf : (⟨S100000x128, .f32⟩ : BufTy).Contents (Elt F) → (⟨S100000x128, .f32⟩ : BufTy).Contents (Elt F) → (⟨S100000x128, .f32⟩ : BufTy).Contents (Elt F)),
    unary main_v169 main_v173 (broadcastInDim S1x128 ![1] bcast_S128_S1x128_1 : (⟨S128, .f32⟩ : BufTy).Contents (Elt F) → (⟨S1x128, .f32⟩ : BufTy).Contents (Elt F)),
    unary main_v173 main_v174 (broadcastInDim S100000x128 ![0, 1] bcast_S1x128_S100000x128_0_1 : (⟨S1x128, .f32⟩ : BufTy).Contents (Elt F) → (⟨S100000x128, .f32⟩ : BufTy).Contents (Elt F)),
    binary main_v174 main_v172 main_v175 (mulf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x3727C5AC#32),
    unary main_cst_24 main_v176 (broadcastInDim S128 ![] bcast_S_S128 : (⟨S_, .f32⟩ : BufTy).Contents (Elt F) → (⟨S128, .f32⟩ : BufTy).Contents (Elt F)),
    binary main_v167 main_v176 main_v177 (addf : (⟨S128, .f32⟩ : BufTy).Contents (Elt F) → (⟨S128, .f32⟩ : BufTy).Contents (Elt F) → (⟨S128, .f32⟩ : BufTy).Contents (Elt F)),
    unary main_v177 main_v178 (Host.rsqrt : (⟨S128, .f32⟩ : BufTy).Contents (Elt F) → (⟨S128, .f32⟩ : BufTy).Contents (Elt F)),
    unary main_v178 main_v179 (broadcastInDim S1x128 ![1] bcast_S128_S1x128_1 : (⟨S128, .f32⟩ : BufTy).Contents (Elt F) → (⟨S1x128, .f32⟩ : BufTy).Contents (Elt F)),
    unary main_v179 main_v180 (broadcastInDim S100000x128 ![0, 1] bcast_S1x128_S100000x128_0_1 : (⟨S1x128, .f32⟩ : BufTy).Contents (Elt F) → (⟨S100000x128, .f32⟩ : BufTy).Contents (Elt F)),
    binary main_v175 main_v180 main_v181 (mulf : (⟨S100000x128, .f32⟩ : BufTy).Contents (Elt F) → (⟨S100000x128, .f32⟩ : BufTy).Contents (Elt F) → (⟨S100000x128, .f32⟩ : BufTy).Contents (Elt F)),
    unary main_arg8 main_v182 ((extractStridedSlice S1x128 ![2, 0] · slices_S3x128_S1x128_2_0) : (⟨S3x128, .f32⟩ : BufTy).Contents (Elt F) → (⟨S1x128, .f32⟩ : BufTy).Contents (Elt F)),
    reshape main_v182 main_v183 rfl shapeCasts_S1x128_S128,
    unary main_v183 main_v184 (broadcastInDim S1x128 ![1] bcast_S128_S1x128_1 : (⟨S128, .f32⟩ : BufTy).Contents (Elt F) → (⟨S1x128, .f32⟩ : BufTy).Contents (Elt F)),
    unary main_v184 main_v185 (broadcastInDim S100000x128 ![0, 1] bcast_S1x128_S100000x128_0_1 : (⟨S1x128, .f32⟩ : BufTy).Contents (Elt F) → (⟨S100000x128, .f32⟩ : BufTy).Contents (Elt F)),
    binary main_v181 main_v185 main_v186 (addf : (⟨S100000x128, .f32⟩ : BufTy).Contents (Elt F) → (⟨S100000x128, .f32⟩ : BufTy).Contents (Elt F) → (⟨S100000x128, .f32⟩ : BufTy).Contents (Elt F)) ]

/-- The buffers these operations write. -/
abbrev opsC2_W : List (Ref sig .tc) := [main_cst_21, main_v164, main_cst_22, main_v165, main_v166, main_c_23, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v167, main_v168, main_v169, main_v170, main_v171, main_v172, main_v173, main_v174, main_v175, main_cst_24, main_v176, main_v177, main_v178, main_v179, main_v180, main_v181, main_v182, main_v183, main_v184, main_v185, main_v186]

set_option maxRecDepth 8192 in
theorem opsC2_writes : (opsC2 : List (HloOp τ sig (Elt F))).Forall fun op => op.writes ⊆ (opsC2_W.map (Proc.devRef (τ := τ) .tc)).toFinset := by
  simp only [opsC2, List.Forall]
  exact ⟨(by simp only [nullary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [ternary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [nullary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide)),
    (by simp only [unary_writes, Finset.singleton_subset_iff, List.mem_toFinset]; exact List.mem_map_of_mem (by decide)),
    (by simp only [reshape_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [binary_writes, Finset.singleton_subset_iff, List.mem_toFinset]; exact List.mem_map_of_mem (by decide))⟩

/-- A buffer these operations do not write keeps its contents through them. -/
theorem opsC2_keep (V : Valuation τ sig (Elt F)) {r : Ref sig .tc} (h : r ∉ opsC2_W) :
    after opsC2 V (no_index (Proc.devRef .tc r)) = V (Proc.devRef .tc r) :=
  after_of_writes_sub opsC2 V opsC2_writes h

set_option maxRecDepth 8192 in
theorem opsC2_sub : (opsC2 : List (HloOp τ sig (Elt F))).Forall fun op => op.bufs ⊆ tcRefs τ sig := by
  unfold opsC2
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩

set_option maxRecDepth 8192 in
theorem opsC2_fresh : ∀ op ∈ (opsC2 : List (HloOp τ sig (Elt F))), op.fresh = ∅ := by
  unfold opsC2
  intro _ h
  (repeat (cases h with | head => rfl | tail _ h => ?_))
  exact nomatch h

set_option maxRecDepth 8192 in
set_option maxHeartbeats 4000000 in
/-- The batch normalisation of what the stretch starts from. -/
theorem opsC2_v186 (V : Valuation τ sig (Elt F)) :
    after opsC2 V (no_index (Proc.devRef .tc main_v186)) = refBN (V (Proc.devRef .tc main_v163)) (refRow ![2, 0] slices_S3x128_S1x128_2_0 (V (Proc.devRef .tc main_arg7))) (refRow ![2, 0] slices_S3x128_S1x128_2_0 (V (Proc.devRef .tc main_arg8))) := by
  simp only [opsC2]
  after_results_simp
  rfl

end Cert.ReferenceIdeal.Hand

end
-- ==== Proof.KI.RefOpsPool.lean ====
import proofs.«417336_j40785009443359_3_alg».proof.Proof.KI.RefSpec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## After the layers: the sum of the node rows per graph -/

/-- The pooling scatter-add. -/
def opsPool : List (HloOp τ sig (Elt F)) :=
  [ nullary main_cst_25 (constant S_ .f32 0x00000000#32),
    unary main_cst_25 main_v187 (broadcastInDim S1024x128 ![] bcast_S_S1024x128 : (⟨S_, .f32⟩ : BufTy).Contents (Elt F) → (⟨S1024x128, .f32⟩ : BufTy).Contents (Elt F)),
    unary main_arg2 main_v188 (broadcastInDim S100000x1 ![0] bcast_S100000_S100000x1_0 : (⟨S100000, .i32⟩ : BufTy).Contents (Elt F) → (⟨S100000x1, .i32⟩ : BufTy).Contents (Elt F)),
    ternary main_v187 main_v188 main_v186 main_v189 ((fun x i u => Host.scatterAdd scatter_S1024x128_S100000x1_S100000x128_1_0_0_1 x i u) : (⟨S1024x128, .f32⟩ : BufTy).Contents (Elt F) → (⟨S100000x1, .i32⟩ : BufTy).Contents (Elt F) → (⟨S100000x128, .f32⟩ : BufTy).Contents (Elt F) → (⟨S1024x128, .f32⟩ : BufTy).Contents (Elt F)) ]

/-- The buffers these operations write. -/
abbrev opsPool_W : List (Ref sig .tc) := [main_cst_25, main_v187, main_v188, main_v189]

set_option maxRecDepth 8192 in
theorem opsPool_writes : (opsPool : List (HloOp τ sig (Elt F))).Forall fun op => op.writes ⊆ (opsPool_W.map (Proc.devRef (τ := τ) .tc)).toFinset := by
  simp only [opsPool, List.Forall]
  exact ⟨(by simp only [nullary_writes, Finset.singleton_subset_iff, List.mem_toFinset]; exact List.mem_map_of_mem (by decide)),
    (by simp only [unary_writes, Finset.singleton_subset_iff, List.mem_toFinset]; exact List.mem_map_of_mem (by decide)),
    (by simp only [unary_writes, Finset.singleton_subset_iff, List.mem_toFinset]; exact List.mem_map_of_mem (by decide)),
    (by simp only [ternary_writes, Finset.singleton_subset_iff, List.mem_toFinset]; exact List.mem_map_of_mem (by decide))⟩

/-- A buffer these operations do not write keeps its contents through them. -/
theorem opsPool_keep (V : Valuation τ sig (Elt F)) {r : Ref sig .tc} (h : r ∉ opsPool_W) :
    after opsPool V (no_index (Proc.devRef .tc r)) = V (Proc.devRef .tc r) :=
  after_of_writes_sub opsPool V opsPool_writes h

set_option maxRecDepth 8192 in
theorem opsPool_sub : (opsPool : List (HloOp τ sig (Elt F))).Forall fun op => op.bufs ⊆ tcRefs τ sig := by
  unfold opsPool
  exact ⟨nullary_bufs_sub .., unary_bufs_sub .., unary_bufs_sub .., ternary_bufs_sub ..⟩

set_option maxRecDepth 8192 in
theorem opsPool_fresh : ∀ op ∈ (opsPool : List (HloOp τ sig (Elt F))), op.fresh = ∅ := by
  unfold opsPool
  intro _ h
  (repeat (cases h with | head => rfl | tail _ h => ?_))
  exact nomatch h

set_option maxRecDepth 8192 in
set_option maxHeartbeats 4000000 in
/-- The rows summed at their graph's number. -/
theorem opsPool_v189 (V : Valuation τ sig (Elt F)) :
    after opsPool V (no_index (Proc.devRef .tc main_v189)) = refPool (V (Proc.devRef .tc main_v186)) (V (Proc.devRef .tc main_arg2)) := by
  simp only [opsPool]
  after_results_simp
  rfl

end Cert.ReferenceIdeal.Hand

end
-- ==== Proof.KI.RefRun.lean ====
import proofs.«417336_j40785009443359_3_alg».proof.Defs
import proofs.«417336_j40785009443359_3_alg».proof.Proof.Gen.Pre_finite_inputs
import proofs.«417336_j40785009443359_3_alg».proof.Proof.KI.RefOpsPre
import proofs.«417336_j40785009443359_3_alg».proof.Proof.KI.RefOpsL0
import proofs.«417336_j40785009443359_3_alg».proof.Proof.KI.RefOpsL1
import proofs.«417336_j40785009443359_3_alg».proof.Proof.KI.RefOpsL2
import proofs.«417336_j40785009443359_3_alg».proof.Proof.KI.RefOpsPool
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The reference program's run

@main is a straight line of 287 host operations once its calls are unfolded at their sites: the stretches of the
five sibling modules, in order. Each stretch's result is read in its own module; here the stretches are joined. -/

/-- @main's operations, in order. -/
def ops : List (HloOp τ sig (Elt F)) :=
  opsPre ++ (opsA0 ++ (opsB0 ++ (opsC0 ++ (opsA1 ++ (opsB1 ++ (opsC1 ++ (opsA2 ++ (opsB2 ++ (opsC2 ++ (opsPool))))))))))

/-- The buffers after two lists of operations run one after the other. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

set_option maxRecDepth 16384 in
set_option maxHeartbeats 4000000 in
/-- The printed window 0 of @main is its stretches, the functions it calls unfolded where they are called. -/
theorem main_part0_eq (c : Dev nD) : main_part0 (F := F) c = seq (opsPre ++ (opsA0)) := rfl
set_option maxRecDepth 16384 in
set_option maxHeartbeats 4000000 in
/-- The printed window 1 of @main is its stretches, the functions it calls unfolded where they are called. -/
theorem main_part1_eq (c : Dev nD) : main_part1 (F := F) c = seq (opsB0 ++ (opsC0 ++ (opsA1))) := rfl
set_option maxRecDepth 16384 in
set_option maxHeartbeats 4000000 in
/-- The printed window 2 of @main is its stretches, the functions it calls unfolded where they are called. -/
theorem main_part2_eq (c : Dev nD) : main_part2 (F := F) c = seq (opsB1 ++ (opsC1 ++ (opsA2))) := rfl
set_option maxRecDepth 16384 in
set_option maxHeartbeats 4000000 in
/-- The printed window 3 of @main is its stretches, the functions it calls unfolded where they are called. -/
theorem main_part3_eq (c : Dev nD) : main_part3 (F := F) c = seq (opsB2 ++ (opsC2 ++ (opsPool))) := rfl

set_option maxRecDepth 16384 in
theorem main_eq (c : Dev nD) : main (F := F) c = seq ops := by
  simp only [main, ops, seq_append, main_part0_eq, main_part1_eq, main_part2_eq, main_part3_eq, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp opsPre_sub op h, List.forall_iff_forall_mem.mp opsA0_sub op h, List.forall_iff_forall_mem.mp opsB0_sub op h, List.forall_iff_forall_mem.mp opsC0_sub op h, List.forall_iff_forall_mem.mp opsA1_sub op h, List.forall_iff_forall_mem.mp opsB1_sub op h, List.forall_iff_forall_mem.mp opsC1_sub op h, List.forall_iff_forall_mem.mp opsA2_sub op h, List.forall_iff_forall_mem.mp opsB2_sub op h, List.forall_iff_forall_mem.mp opsC2_sub op h, List.forall_iff_forall_mem.mp opsPool_sub op h]

theorem ops_fresh : ∀ op ∈ (ops : List (HloOp τ sig (Elt F))), op.fresh = ∅ := fun op h => by
  simp only [ops, List.mem_append] at h
  rcases h with h | h | h | h | h | h | h | h | h | h | h
  exacts [opsPre_fresh op h, opsA0_fresh op h, opsB0_fresh op h, opsC0_fresh op h, opsA1_fresh op h, opsB1_fresh op h, opsC1_fresh op h, opsA2_fresh op h, opsB2_fresh op h, opsC2_fresh op h, opsPool_fresh op h]

set_option maxRecDepth 16384 in
set_option maxHeartbeats 4000000 in
/-- The result buffer after the whole line: each stretch's reading, joined, is the three layers and the pooling. -/
theorem out_eq (V : Valuation τ sig (Elt F)) :
    after ops V (Proc.devRef .tc main_v189)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp (disch := decide) only [ops, after_concat, opsPool_v189, opsC2_v186, opsB2_v163, opsA2_v153, opsA2_v156, opsC1_v133, opsB1_v110, opsA1_v100, opsA1_v103, opsC0_v80, opsB0_v57, opsA0_v47, opsA0_v50, opsPre_v5, opsPre_v6, opsPre_v27,
    opsPre_keep, opsA0_keep, opsB0_keep, opsC0_keep, opsA1_keep, opsB1_keep, opsC1_keep, opsA2_keep, opsB2_keep, opsC2_keep, opsPool_keep]
  unfold refOut refLayerAt refLayer refPreNorm refResid refSrcIdx refDstIdx
  rfl

/-- No operation writes an argument. -/
theorem arg_keep (V : Valuation τ sig (Elt F)) {r : Ref sig .tc}
    (h : r ∉ opsPre_W ∧ r ∉ opsA0_W ∧ r ∉ opsB0_W ∧ r ∉ opsC0_W ∧ r ∉ opsA1_W ∧ r ∉ opsB1_W ∧ r ∉ opsC1_W ∧ r ∉ opsA2_W ∧ r ∉ opsB2_W ∧ r ∉ opsC2_W ∧ r ∉ opsPool_W) :
    after ops V (Proc.devRef .tc r) = V (Proc.devRef .tc r) := by
  obtain ⟨h0, h1, h2, h3, h4, h5, h6, h7, h8, h9, h10⟩ := h
  simp only [ops, after_concat]
  rw [opsPool_keep _ h10, opsC2_keep _ h9, opsB2_keep _ h8, opsA2_keep _ h7, opsC1_keep _ h6, opsB1_keep _ h5, opsA1_keep _ h4, opsC0_keep _ h3, opsB0_keep _ h2, opsA0_keep _ h1, opsPre_keep _ h0]

/-- On every device, for any float values, from any memory with zero counters: every weakly fair execution of
    @main terminates with the result at `refOut` of the arguments and the arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v189) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v189).trans (out_eq (launchContents m c)),
      (h c main_arg0).trans (arg_keep (launchContents m c) (by decide)),
      (h c main_arg1).trans (arg_keep (launchContents m c) (by decide)),
      (h c main_arg2).trans (arg_keep (launchContents m c) (by decide)),
      (h c main_arg3).trans (arg_keep (launchContents m c) (by decide)),
      (h c main_arg4).trans (arg_keep (launchContents m c) (by decide)),
      (h c main_arg5).trans (arg_keep (launchContents m c) (by decide)),
      (h c main_arg6).trans (arg_keep (launchContents m c) (by decide)),
      (h c main_arg7).trans (arg_keep (launchContents m c) (by decide)),
      (h c main_arg8).trans (arg_keep (launchContents m c) (by decide))⟩)
    (run_seq scopedRefs_eq scopedSems_eq defs main (fun _ => ops) main_eq (fun _ => ops_sub) m ρ (fun _ => ops_fresh))

/-- The reference runs and leaves its arguments unchanged. -/
theorem frame_ri : Cert.frame_ReferenceIdeal := fun m ρ _ =>
  (θ_run Cert.ReferenceIdeal.defs _ _).mono (fun _ h c => (h c).2) (run (F := Ideal) m ρ)

end Cert.ReferenceIdeal.Hand

end
-- ==== Proof.KI.V0.lean ====
/-
  Region 0 of the kernel program, read as values on the extended reals. At a grid point t the body holds rows
  5000 t … 5000 t + 4999 of the node features x, the whole 128 x 256 matrix [W | W_res], the residual bias row and the same
  rows of the column of inverse square-root degrees. The block product into the zero accumulator is, entry by entry, the
  sum over the 128 contracted coordinates; its left half, scaled row by row by the degree column, is the first output's
  block, and its right half plus the bias, clipped below at zero, is the second's. The twenty blocks tile the
  100000 rows, so after the region each output array is one function of the three arrays it was computed from.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417336_j40785009443359_3_alg».proof.Proof.KI.F0
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The two results as functions of the arrays, entry by entry -/

/-- The first result at row `p`, column `q`: row `p` of `x` times column `q` of `[W | W_res]` (a column of `W`), scaled by
    the row's inverse square-root degree. -/
def G0_4 (x : S100000x128.Idx → EReal) (wc : S128x256.Idx → EReal) (dv : S100000x1.Idx → EReal) : S100000x128.Idx → EReal :=
  fun i => (∑ k : Fin 128, x (ix2 (i 0 : Fin 100000) k) * wc (ix2 k (⟨(i 1).val, lt_trans (idx2_lt1 i) (by decide)⟩ : Fin 256)))
    * dv (ix2 (i 0 : Fin 100000) (0 : Fin 1))

/-- The second result at row `p`, column `q`: row `p` of `x` times column `128 + q` of `[W | W_res]` (a column of `W_res`),
    plus the bias at `q`, clipped below at zero. -/
def G0_5 (x : S100000x128.Idx → EReal) (wc : S128x256.Idx → EReal) (rb : S1x128.Idx → EReal) : S100000x128.Idx → EReal :=
  fun i => max ((∑ k : Fin 128, x (ix2 (i 0 : Fin 100000) k)
      * wc (ix2 k (⟨128 + (i 1).val, by have := idx2_lt1 i; omega⟩ : Fin 256))) + rb (ix2 (0 : Fin 1) (i 1 : Fin 128))) 0

theorem G0_4_apply (x : S100000x128.Idx → EReal) (wc : S128x256.Idx → EReal) (dv : S100000x1.Idx → EReal) (p : Fin 100000) (q : Fin 128) :
    G0_4 x wc dv (ix2 p q)
      = (∑ k : Fin 128, x (ix2 p k) * wc (ix2 k (⟨q.val, by omega⟩ : Fin 256))) * dv (ix2 p (0 : Fin 1)) := rfl

theorem G0_5_apply (x : S100000x128.Idx → EReal) (wc : S128x256.Idx → EReal) (rb : S1x128.Idx → EReal) (p : Fin 100000) (q : Fin 128) :
    G0_5 x wc rb (ix2 p q)
      = max ((∑ k : Fin 128, x (ix2 p k) * wc (ix2 k (⟨128 + q.val, by omega⟩ : Fin 256))) + rb (ix2 (0 : Fin 1) q)) 0 := rfl

namespace V0

/-! ## The product at an index -/

theorem lhs_axis0 (j : S5000x256.Idx) (k : dot_S5000x128_S128x256_S5000x256_1_0_0_1_n_n.contr.Idx) :
    ((dot_S5000x128_S128x256_S5000x256_1_0_0_1_n_n.lhsIdx j k) 0).val = (j 0).val := by
  simp [DotDims.lhsIdx, dot_S5000x128_S128x256_S5000x256_1_0_0_1_n_n]; rfl

theorem lhs_axis1 (j : S5000x256.Idx) (k : dot_S5000x128_S128x256_S5000x256_1_0_0_1_n_n.contr.Idx) :
    ((dot_S5000x128_S128x256_S5000x256_1_0_0_1_n_n.lhsIdx j k) 1).val = (k ⟨0, by decide⟩).val :=
  dot_S5000x128_S128x256_S5000x256_1_0_0_1_n_n.lhsIdx_val_of_single (cl := 1) rfl j k

theorem rhs_axis0 (j : S5000x256.Idx) (k : dot_S5000x128_S128x256_S5000x256_1_0_0_1_n_n.contr.Idx) :
    ((dot_S5000x128_S128x256_S5000x256_1_0_0_1_n_n.rhsIdx j k) 0).val = (k ⟨0, by decide⟩).val :=
  dot_S5000x128_S128x256_S5000x256_1_0_0_1_n_n.rhsIdx_val_of_single (cr := 0) rfl j k

theorem rhs_axis1 (j : S5000x256.Idx) (k : dot_S5000x128_S128x256_S5000x256_1_0_0_1_n_n.contr.Idx) :
    ((dot_S5000x128_S128x256_S5000x256_1_0_0_1_n_n.rhsIdx j k) 1).val = (j 1).val := by
  simp [DotDims.rhsIdx, dot_S5000x128_S128x256_S5000x256_1_0_0_1_n_n]; rfl

/-- The block product into the zero accumulator, at row `p` and column `q`: the sum over the 128 contracted
    coordinates of the products of the row's and the column's entries. -/
theorem matmul_at (a : FVec Ideal S5000x128 .bf16) (b : FVec Ideal S128x256 .bf16) (p : Fin 5000) (q : Fin 256) :
    FloatOps.matmul dot_S5000x128_S128x256_S5000x256_1_0_0_1_n_n none a b (constant (F := Ideal) S5000x256 .f32 0x00000000#32) (ix2 p q)
      = ∑ k : Fin 128, a (ix2 p k) * b (ix2 k q) := by
  rw [Ideal.matmul_constant_zero_apply,
    ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have hl : dot_S5000x128_S128x256_S5000x256_1_0_0_1_n_n.lhsIdx (ix2 p q)
      ((contrEquiv1 dot_S5000x128_S128x256_S5000x256_1_0_0_1_n_n 128 rfl rfl).symm k) = ix2 p k := by
    funext ax; apply Fin.ext
    match ax with
    | ⟨0, _⟩ => exact lhs_axis0 _ _
    | ⟨1, _⟩ => exact (lhs_axis1 _ _).trans hk
  have hr : dot_S5000x128_S128x256_S5000x256_1_0_0_1_n_n.rhsIdx (ix2 p q)
      ((contrEquiv1 dot_S5000x128_S128x256_S5000x256_1_0_0_1_n_n 128 rfl rfl).symm k) = ix2 k q := by
    funext ax; apply Fin.ext
    match ax with
    | ⟨0, _⟩ => exact (rhs_axis0 _ _).trans hk
    | ⟨1, _⟩ => exact rhs_axis1 _ _
  rw [hl, hr]

/-! ## The body's payloads at an index -/

theorem zero_offsets : (![0, 0] : Fin 2 → Nat) = fun _ => 0 := funext fun a => by fin_cases a <;> rfl

/-- A column broadcast along the rows' entries reads, at `(p, c)`, the column at `p`. -/
theorem broadcast_col_at {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block product at row `p`, column `q` of the 256: the formats' changes are the identity on the extended reals. -/
theorem pay1_apply (x : S5000x128.Idx → EReal) (w : S128x256.Idx → EReal) (p : Fin 5000) (q : Fin 256) :
    k0_pay1 (F := Ideal) x w (ix2 p q) = ∑ k : Fin 128, x (ix2 p k) * w (ix2 k q) := by
  unfold k0_pay1
  refine (matmul_at _ _ p q).trans ?_
  refine Finset.sum_congr rfl fun k _ => ?_
  exact congrArg (fun z : EReal => x (ix2 p k) * z) (congrFun (shapeCast_self w shapeCasts_S128x256_S128x256) (ix2 k q))

/-- The first output's payload at row `p`, column `q`: the left half of the product, times the degree column at `p`. -/
theorem pay2_apply (x : S5000x128.Idx → EReal) (w : S128x256.Idx → EReal) (d : S5000x1.Idx → EReal) (p : Fin 5000) (q : Fin 128) :
    k0_pay2 (F := Ideal) x w d (ix2 p q)
      = (∑ k : Fin 128, x (ix2 p k) * w (ix2 k (⟨q.val, by omega⟩ : Fin 256))) * d (ix2 p (0 : Fin 1)) := by
  unfold k0_pay2
  refine (mulf_apply _ _ _).trans ?_
  refine congrArg₂ (fun u z : EReal => u * z) ?_ ?_
  · exact (slice2_axis1_apply 0 (k0_pay1 (F := Ideal) x w) slices_S5000x256_o0_0_S5000x128 p q (⟨q.val, by omega⟩ : Fin 256)
      (Nat.zero_add _).symm).trans (pay1_apply x w p _)
  · exact (broadcast_col_at _ broadcasts_S5000x1_S5000x128 p q).trans
      (congrFun (shapeCast_self d shapeCasts_S5000x1_S5000x1) (ix2 p (0 : Fin 1)))

/-- The second output's payload at row `p`, column `q`: the right half of the product plus the bias at `q`, clipped below
    at zero. -/
theorem pay3_apply (x : S5000x128.Idx → EReal) (w : S128x256.Idx → EReal) (b : S1x128.Idx → EReal) (p : Fin 5000) (q : Fin 128) :
    k0_pay3 (F := Ideal) x w b (ix2 p q)
      = max ((∑ k : Fin 128, x (ix2 p k) * w (ix2 k (⟨128 + q.val, by omega⟩ : Fin 256))) + b (ix2 (0 : Fin 1) q)) 0 := by
  unfold k0_pay3
  refine (maximumf_apply _ _ _).trans ?_
  refine congrArg₂ (fun u z : EReal => max u z) ?_ ?_
  · refine (addf_apply _ _ _).trans ?_
    refine congrArg₂ (fun u z : EReal => u + z) ?_ ?_
    · exact (slice2_axis1_apply 128 (k0_pay1 (F := Ideal) x w) slices_S5000x256_o0_128_S5000x128 p q (⟨128 + q.val, by omega⟩ : Fin 256)
        rfl).trans (pay1_apply x w p _)
    · exact (broadcastTo_1b_ab_apply _ broadcasts_S1x128_S5000x128 p q).trans
        (congrFun (shapeCast_self b shapeCasts_S1x128_S1x128) (ix2 (0 : Fin 1) q))
  · exact Ideal.ofBits_zero_f32

end V0

variable (V : (c : Dev nD) → (b : Ref sig .tc) → Buf (Elt Ideal) ((c : Thread nD τ).loc b))

namespace V0

/-! ## The blocks at a point -/

theorem point_lt (t : Fin cfg0.N) : t.val < 20 := lt_of_lt_of_eq t.isLt N_0

/-- Rows `5000 b … 5000 b + 4999` of an array of 100000 rows. -/
def rowBlock (n : ℕ) (A : (⟨2, ![100000, n]⟩ : Shape).Idx → EReal) (b : ℕ) (hb : b < 20) : (⟨2, ![5000, n]⟩ : Shape).Idx → EReal :=
  fun y => A (ix2 (⟨b * 5000 + (y 0).val, by have := idx2_lt0 y; omega⟩ : Fin 100000) (y 1 : Fin n))

/-- The printed index maps, decided over the grid: the row-blocked windows are at block `(t, 0)`, the whole ones at `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Window 0's block at point `t` is rows `5000 t …` of the node features. -/
theorem iblk0_0_eq (c : Dev nD) (t : Fin cfg0.N) : iblk0 V c 0 t = rowBlock 128 (V c main_arg0) t.val (point_lt t) := by
  obtain ⟨e0, e1, -⟩ := index_facts t
  funext y
  show V c main_arg0 (((cfg0.win 0).blk t).view.emb y)
    = V c main_arg0 (ix2 (⟨t.val * 5000 + (y 0).val, by have := point_lt t; have := idx2_lt0 (n0 := 5000) (n1 := 128) y; omega⟩ : Fin 100000) (y 1 : Fin 128))
  refine congrArg (V c main_arg0) (funext fun a => Fin.ext ?_)
  match a with
  | ⟨0, _⟩ => show win0_0.index t (0 : Fin 2) * 5000 + 1 * (y 0).val = t.val * 5000 + (y 0).val; omega
  | ⟨1, _⟩ => show win0_0.index t (1 : Fin 2) * 128 + 1 * (y 1).val = (y 1).val; omega

/-- Window 1's block at every point is the whole matrix `[W | W_res]`. -/
theorem iblk0_1_eq (c : Dev nD) (t : Fin cfg0.N) : iblk0 V c 1 t = (V c main_v15 : S128x256.Idx → EReal) := by
  obtain ⟨-, -, e0, e1, -⟩ := index_facts t
  funext y
  show V c main_v15 (((cfg0.win 1).blk t).view.emb y) = V c main_v15 y
  refine congrArg (V c main_v15) (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Window 2's block at every point is the whole bias row. -/
theorem iblk0_2_eq (c : Dev nD) (t : Fin cfg0.N) : iblk0 V c 2 t = (V c main_v18 : S1x128.Idx → EReal) := by
  obtain ⟨-, -, -, -, e0, e1, -⟩ := index_facts t
  funext y
  show V c main_v18 (((cfg0.win 2).blk t).view.emb y) = V c main_v18 y
  refine congrArg (V c main_v18) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3's block at point `t` is rows `5000 t …` of the degree column. -/
theorem iblk0_3_eq (c : Dev nD) (t : Fin cfg0.N) : iblk0 V c 3 t = rowBlock 1 (V c main_v12) t.val (point_lt t) := by
  obtain ⟨-, -, -, -, -, -, e0, e1, -⟩ := index_facts t
  funext y
  show V c main_v12 (((cfg0.win 3).blk t).view.emb y)
    = V c main_v12 (ix2 (⟨t.val * 5000 + (y 0).val, by have := point_lt t; have := idx2_lt0 (n0 := 5000) (n1 := 1) y; omega⟩ : Fin 100000) (y 1 : Fin 1))
  refine congrArg (V c main_v12) (funext fun a => Fin.ext ?_)
  match a with
  | ⟨0, _⟩ => show win0_3.index t (0 : Fin 2) * 5000 + 1 * (y 0).val = t.val * 5000 + (y 0).val; omega
  | ⟨1, _⟩ => show win0_3.index t (1 : Fin 2) * 1 + 1 * (y 1).val = (y 1).val; omega

/-- One whole-block store at offset zero leaves its payload; the loads read whole blocks. -/
theorem out0_4_eq (x0 : S5000x128.Idx → EReal) (x1 : S128x256.Idx → EReal) (x3 : S5000x1.Idx → EReal) :
    out0_4 (F := Ideal) x0 x1 x3 = k0_pay2 (F := Ideal) x0 x1 x3 := by
  unfold out0_4
  rw [View.canon_unit_zero zero_offsets]
  simp only [View.ld_unit_zero (S := S5000x128) zero_offsets, View.ld_unit_zero (S := S128x256) zero_offsets, View.ld_unit_zero (S := S5000x1) zero_offsets]

theorem out0_5_eq (x0 : S5000x128.Idx → EReal) (x1 : S128x256.Idx → EReal) (x2 : S1x128.Idx → EReal) :
    out0_5 (F := Ideal) x0 x1 x2 = k0_pay3 (F := Ideal) x0 x1 x2 := by
  unfold out0_5
  rw [View.canon_unit_zero zero_offsets]
  simp only [View.ld_unit_zero (S := S5000x128) zero_offsets, View.ld_unit_zero (S := S128x256) zero_offsets, View.ld_unit_zero (S := S1x128) zero_offsets]

/-- The first output's payload on block `b`'s rows is the first result there: entry `(r, q)` of the block is entry
    `(5000 b + r, q)` of the array. -/
theorem block0_4 (X : S100000x128.Idx → EReal) (W : S128x256.Idx → EReal) (D : S100000x1.Idx → EReal) (b : ℕ) (hb : b < 20)
    (y : S5000x128.Idx) (i : S100000x128.Idx) (h0 : (i 0).val = b * 5000 + (y 0).val) (h1 : (i 1).val = (y 1).val) :
    k0_pay2 (F := Ideal) (rowBlock 128 X b hb) W (rowBlock 1 D b hb) y = G0_4 X W D i := by
  obtain ⟨p, q, rfl⟩ : ∃ (p : Fin 5000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have hlt : b * 5000 + p.val < 100000 := by have := p.isLt; omega
  have ep : p' = (⟨b * 5000 + p.val, hlt⟩ : Fin 100000) := Fin.ext h0
  have eq' : q' = q := Fin.ext h1
  subst ep; subst eq'
  rw [pay2_apply, G0_4_apply]
  rfl

/-- The second output's payload on block `b`'s rows is the second result there. -/
theorem block0_5 (X : S100000x128.Idx → EReal) (W : S128x256.Idx → EReal) (B : S1x128.Idx → EReal) (b : ℕ) (hb : b < 20)
    (y : S5000x128.Idx) (i : S100000x128.Idx) (h0 : (i 0).val = b * 5000 + (y 0).val) (h1 : (i 1).val = (y 1).val) :
    k0_pay3 (F := Ideal) (rowBlock 128 X b hb) W B y = G0_5 X W B i := by
  obtain ⟨p, q, rfl⟩ : ∃ (p : Fin 5000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have hlt : b * 5000 + p.val < 100000 := by have := p.isLt; omega
  have ep : p' = (⟨b * 5000 + p.val, hlt⟩ : Fin 100000) := Fin.ext h0
  have eq' : q' = q := Fin.ext h1
  subst ep; subst eq'
  rw [pay3_apply, G0_5_apply]
  rfl

/-! ## From blocks to the arrays -/

/-- What point `t` writes back to the first output is block `t` of the first result of the arrays as the region finds them. -/
theorem flushed0_4 (c : Dev nD) (t : Fin cfg0.N) :
    (dat0 V c).flushed 4 t
      = ((cfg0.win 4).blk t).view.read (Elt Ideal) (G0_4 (V c main_arg0) (V c main_v15) (V c main_v12)) := by
  show (cfg0.win 4).cut (grid0.coords t) ((dat0 V c).after 4 t) = _
  rw [after0_4, iblk0_0_eq V c t, iblk0_1_eq V c t, iblk0_3_eq V c t, out0_4_eq]
  obtain ⟨-, -, -, -, -, -, -, -, e0, e1, -⟩ := index_facts t
  funext j
  refine block0_4 (V c main_arg0) (V c main_v15) (V c main_v12) t.val (point_lt t)
    ((cfg0.win 4).xinj (grid0.coords t) j) (((cfg0.win 4).blk t).view.emb j) ?_ ?_
  · show win0_4.index t (0 : Fin 2) * 5000 + 1 * (j 0).val = t.val * 5000 + (j 0).val; omega
  · show win0_4.index t (1 : Fin 2) * 128 + 1 * (j 1).val = (j 1).val; omega

/-- What point `t` writes back to the second output is block `t` of the second result. -/
theorem flushed0_5 (c : Dev nD) (t : Fin cfg0.N) :
    (dat0 V c).flushed 5 t
      = ((cfg0.win 5).blk t).view.read (Elt Ideal) (G0_5 (V c main_arg0) (V c main_v15) (V c main_v18)) := by
  show (cfg0.win 5).cut (grid0.coords t) ((dat0 V c).after 5 t) = _
  rw [after0_5, iblk0_0_eq V c t, iblk0_1_eq V c t, iblk0_2_eq V c t, out0_5_eq]
  obtain ⟨-, -, -, -, -, -, -, -, -, -, e0, e1⟩ := index_facts t
  funext j
  refine block0_5 (V c main_arg0) (V c main_v15) (V c main_v18) t.val (point_lt t)
    ((cfg0.win 5).xinj (grid0.coords t) j) (((cfg0.win 5).blk t).view.emb j) ?_ ?_
  · show win0_5.index t (0 : Fin 2) * 5000 + 1 * (j 0).val = t.val * 5000 + (j 0).val; omega
  · show win0_5.index t (1 : Fin 2) * 128 + 1 * (j 1).val = (j 1).val; omega

/-- An index of the first output is in point `t`'s block iff each coordinate is in the block's range on its axis. -/
theorem mem_blk0_4 (t : Fin cfg0.N) (i : S100000x128.Idx) :
    i ∈ ((cfg0.win 4).blk t).view.set
      ↔ ∀ a : Fin 2, win0_4.index t a * S5000x128.size a ≤ (i a).val ∧ (i a).val < win0_4.index t a * S5000x128.size a + S5000x128.size a := by
  show i ∈ ((View.whole main_v19_0).slice (win0_4.rect t)).set ↔ _
  rw [View.set_slice_whole, Rect.mem_set_unit]
  exact Iff.rfl

theorem mem_blk0_5 (t : Fin cfg0.N) (i : S100000x128.Idx) :
    i ∈ ((cfg0.win 5).blk t).view.set
      ↔ ∀ a : Fin 2, win0_5.index t a * S5000x128.size a ≤ (i a).val ∧ (i a).val < win0_5.index t a * S5000x128.size a + S5000x128.size a := by
  show i ∈ ((View.whole main_v19_1).slice (win0_5.rect t)).set ↔ _
  rw [View.set_slice_whole, Rect.mem_set_unit]
  exact Iff.rfl

/-- Row `r` of the first output is in the block of point `r / 5000`, which writes back. -/
theorem cover0_4 (i : S100000x128.Idx) : ∃ t : Fin cfg0.N, (cfg0.win 4).flush t = true ∧ i ∈ ((cfg0.win 4).blk t).view.set := by
  have hi0 : (i 0).val < 100000 := idx2_lt0 i
  have hi1 : (i 1).val < 128 := idx2_lt1 i
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, -, -, e0, e1, -⟩ := index_facts t
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

theorem cover0_5 (i : S100000x128.Idx) : ∃ t : Fin cfg0.N, (cfg0.win 5).flush t = true ∧ i ∈ ((cfg0.win 5).blk t).view.set := by
  have hi0 : (i 0).val < 100000 := idx2_lt0 i
  have hi1 : (i 1).val < 128 := idx2_lt1 i
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, -, -, -, -, e0, e1⟩ := index_facts t
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end V0

open V0

/-! ## The two output arrays after the region -/

/-- The first output array after the last point: `(x W)` scaled row by row by the degree column, entry by entry. -/
theorem final0_4 (c : Dev nD) :
    (dat0 (F := Ideal) V c).arrAt 4 cfg0.N = G0_4 (V c main_arg0) (V c main_v15) (V c main_v12) :=
  (dat0 V c).arrAt_eq_of_cover 4 (G0_4 (V c main_arg0) (V c main_v15) (V c main_v12)) (fun t _ => flushed0_4 V c t) cover0_4

/-- The second output array after the last point: `max (x W_res + b_res, 0)`, entry by entry. -/
theorem final0_5 (c : Dev nD) :
    (dat0 (F := Ideal) V c).arrAt 5 cfg0.N = G0_5 (V c main_arg0) (V c main_v15) (V c main_v18) :=
  (dat0 V c).arrAt_eq_of_cover 5 (G0_5 (V c main_arg0) (V c main_v15) (V c main_v18)) (fun t _ => flushed0_5 V c t) cover0_5

end Cert.KernelIdeal.Hand

end
-- ==== Proof.KI.V1.lean ====
import proofs.«417336_j40785009443359_3_alg».proof.Proof.KI.F1
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
open Idealize.ShloMosaic.ValueIdx
open scoped BigOperators

/-! # The value half: what the two output arrays of the column-sum region end at, at the extended reals -/

/-! ## What each kind of point leaves, in closed form (at any float instance) -/

/-- The zero offsets of a whole-buffer access, at ranks 2 and 3. -/
theorem hz1_2 : (![0, 0] : Fin 2 → Nat) = fun _ => 0 := funext fun a => by fin_cases a <;> rfl
theorem hz1_3 : (![0, 0, 0] : Fin 3 → Nat) = fun _ => 0 := funext fun a => by fin_cases a <;> rfl

/-- Where the inner coordinate is 0, window 5 is left holding the pre-activation of the point's blocks. -/
theorem out1_A_5_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) :
    out1_A_5 c i arg2 harg2 arg3 harg3 arg4 harg4 arg5 harg5 arg6 harg6 arg7 harg7 arg8 harg8 hc0 hc1 x0 x1 x2 x3 = k1_pay2 x2 x0 x3 x1 := by
  unfold out1_A_5
  rw [View.read_writes_eq_canon _ _ _ (cover1_A_5 c i arg2 harg2 arg3 harg3 arg4 harg4 arg5 harg5 arg6 harg6 arg7 harg7 arg8 harg8 hc0 hc1 x0 x1 x2 x3)]
  unfold kernelRun1_A
  dsimp only
  try sl_unfold_words
  rw [View.canon_unit_zero (S := S5000x128) hz1_2]
  simp only [View.readAt_eq_ld, harg2.read_unread, harg3.read_unread, harg4.read_unread, harg5.read_unread, harg8.read_unread,
    View.ld_unit_zero (S := S5000x128) hz1_2, View.ld_unit_zero (S := S5000x1) hz1_2, View.ld_unit_zero (S := S1x128) hz1_2,
    View.ld_unit_zero (S := S1x1x128) hz1_3, View.readCov_unit_zero (S := S1x1x128) _ hz1_3]

/-- Where the inner coordinate is strictly between 0 and 9, window 5 is left holding the pre-activation of the point's blocks. -/
theorem out1_B_5_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) :
    out1_B_5 c i arg2 harg2 arg3 harg3 arg4 harg4 arg5 harg5 arg6 harg6 arg7 harg7 arg8 harg8 hc0 hc1 x0 x1 x2 x3 xs0 = k1_pay2 x2 x0 x3 x1 := by
  unfold out1_B_5
  rw [View.read_writes_eq_canon _ _ _ (cover1_B_5 c i arg2 harg2 arg3 harg3 arg4 harg4 arg5 harg5 arg6 harg6 arg7 harg7 arg8 harg8 hc0 hc1 x0 x1 x2 x3 xs0)]
  unfold kernelRun1_B
  dsimp only
  try sl_unfold_words
  rw [View.canon_unit_zero (S := S5000x128) hz1_2]
  simp only [View.readAt_eq_ld, harg2.read_unread, harg3.read_unread, harg4.read_unread, harg5.read_unread, harg8.read_unread,
    View.ld_unit_zero (S := S5000x128) hz1_2, View.ld_unit_zero (S := S5000x1) hz1_2, View.ld_unit_zero (S := S1x128) hz1_2,
    View.ld_unit_zero (S := S1x1x128) hz1_3, View.readCov_unit_zero (S := S1x1x128) _ hz1_3]

/-- Where the inner coordinate is 9, window 5 is left holding the pre-activation of the point's blocks. -/
theorem out1_C_5_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) :
    out1_C_5 c i arg2 harg2 arg3 harg3 arg4 harg4 arg5 harg5 arg6 harg6 arg7 harg7 arg8 harg8 hc0 hc1 x0 x1 x2 x3 xs0 = k1_pay2 x2 x0 x3 x1 := by
  unfold out1_C_5
  rw [View.read_writes_eq_canon _ _ _ (cover1_C_5 c i arg2 harg2 arg3 harg3 arg4 harg4 arg5 harg5 arg6 harg6 arg7 harg7 arg8 harg8 hc0 hc1 x0 x1 x2 x3 xs0)]
  unfold kernelRun1_C
  dsimp only
  try sl_unfold_words
  rw [View.canon_unit_zero (S := S5000x128) hz1_2]
  simp only [View.readAt_eq_ld, harg2.read_unread, harg3.read_unread, harg4.read_unread, harg5.read_unread, harg8.read_unread,
    View.ld_unit_zero (S := S5000x128) hz1_2, View.ld_unit_zero (S := S5000x1) hz1_2, View.ld_unit_zero (S := S1x128) hz1_2,
    View.ld_unit_zero (S := S1x1x128) hz1_3, View.readCov_unit_zero (S := S1x1x128) _ hz1_3]

/-- Where the inner coordinate is 0 the accumulator is left holding the zero row plus the block's column sums: the later of its two whole-row stores wins, and it read the zero row the earlier one had just stored. -/
theorem sout1_A_0_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond1_0 i) (hc1 : ¬cond1_1 i)
    (x0 : Vec F S5000x128 .f32) (x1 : Vec F S5000x128 .f32) (x2 : Vec F S5000x1 .f32) (x3 : Vec F S1x128 .f32) :
    sout1_A_0 c i arg2 harg2 arg3 harg3 arg4 harg4 arg5 harg5 arg6 harg6 arg7 harg7 arg8 harg8 hc0 hc1 x0 x1 x2 x3 = k1_pay3 x2 x0 x3 x1 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3)]
  unfold kernelRun1_A
  dsimp only
  try sl_unfold_words
  rw [View.canon_cons_unit_zero (S := S1x1x128) hz1_3]
  simp only [View.readAt_eq_ld, harg2.read_unread, harg3.read_unread, harg4.read_unread, harg5.read_unread, harg8.read_unread,
    View.ld_unit_zero (S := S5000x128) hz1_2, View.ld_unit_zero (S := S5000x1) hz1_2, View.ld_unit_zero (S := S1x128) hz1_2,
    View.ld_unit_zero (S := S1x1x128) hz1_3, View.readCov_unit_zero (S := S1x1x128) _ hz1_3]

/-- Where the inner coordinate is strictly between 0 and 9 the accumulator is left holding what it held plus the block's column sums. -/
theorem sout1_B_0_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x1x128 .f32) :
    sout1_B_0 c i arg2 harg2 arg3 harg3 arg4 harg4 arg5 harg5 arg6 harg6 arg7 harg7 arg8 harg8 hc0 hc1 x0 x1 x2 x3 xs0 = k1_pay3 x2 x0 x3 x1 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 xs0)]
  unfold kernelRun1_B
  dsimp only
  try sl_unfold_words
  rw [View.canon_unit_zero (S := S1x1x128) hz1_3]
  simp only [View.readAt_eq_ld, harg2.read_unread, harg3.read_unread, harg4.read_unread, harg5.read_unread, harg8.read_unread,
    View.ld_unit_zero (S := S5000x128) hz1_2, View.ld_unit_zero (S := S5000x1) hz1_2, View.ld_unit_zero (S := S1x128) hz1_2,
    View.ld_unit_zero (S := S1x1x128) hz1_3, View.readCov_unit_zero (S := S1x1x128) _ hz1_3]

/-- Where the inner coordinate is 9 likewise; -/
theorem sout1_C_0_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) :
    sout1_C_0 c i arg2 harg2 arg3 harg3 arg4 harg4 arg5 harg5 arg6 harg6 arg7 harg7 arg8 harg8 hc0 hc1 x0 x1 x2 x3 xs0 = k1_pay3 x2 x0 x3 x1 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 xs0)]
  unfold kernelRun1_C
  dsimp only
  try sl_unfold_words
  rw [View.canon_unit_zero (S := S1x1x128) hz1_3]
  simp only [View.readAt_eq_ld, harg2.read_unread, harg3.read_unread, harg4.read_unread, harg5.read_unread, harg8.read_unread,
    View.ld_unit_zero (S := S5000x128) hz1_2, View.ld_unit_zero (S := S5000x1) hz1_2, View.ld_unit_zero (S := S1x128) hz1_2,
    View.ld_unit_zero (S := S1x1x128) hz1_3, View.readCov_unit_zero (S := S1x1x128) _ hz1_3]

/-- and window 4 is left holding that same row: the body copies the accumulator it has just updated. -/
theorem out1_C_4_eq (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x1x128 .f32) :
    out1_C_4 c i arg2 harg2 arg3 harg3 arg4 harg4 arg5 harg5 arg6 harg6 arg7 harg7 arg8 harg8 hc0 hc1 x0 x1 x2 x3 xs0 = k1_pay3 x2 x0 x3 x1 xs0 := by
  unfold out1_C_4
  rw [View.read_writes_eq_canon _ _ _ (cover1_C_4 c i arg2 harg2 arg3 harg3 arg4 harg4 arg5 harg5 arg6 harg6 arg7 harg7 arg8 harg8 hc0 hc1 x0 x1 x2 x3 xs0)]
  unfold kernelRun1_C
  dsimp only
  try sl_unfold_words
  rw [View.canon_unit_zero (S := S1x1x128) hz1_3]
  simp only [View.readAt_eq_ld, harg2.read_unread, harg3.read_unread, harg4.read_unread, harg5.read_unread, harg8.read_unread,
    View.ld_unit_zero (S := S5000x128) hz1_2, View.ld_unit_zero (S := S5000x1) hz1_2, View.ld_unit_zero (S := S1x128) hz1_2,
    View.ld_unit_zero (S := S1x1x128) hz1_3, View.readCov_unit_zero (S := S1x1x128) _ hz1_3]

/-! ## The payloads at an index, at the extended reals -/

section AtIdeal

/-- The pre-activation of a block at row `r`, column `q`: the row's scale times the aggregate, plus the column's bias,
    plus the residual (in this association). -/
theorem pay1_2_apply (x2 : S5000x1.Idx → EReal) (x0 : S5000x128.Idx → EReal) (x3 : S1x128.Idx → EReal) (x1 : S5000x128.Idx → EReal)
    (r : Fin 5000) (q : Fin 128) :
    k1_pay2 (F := Ideal) x2 x0 x3 x1 (ix2 r q) = x2 (ix2 r (0 : Fin 1)) * x0 (ix2 r q) + x3 (ix2 (0 : Fin 1) q) + x1 (ix2 r q) := by
  unfold k1_pay2
  have e2 : broadcastTo S5000x128 (shapeCast S5000x1 x2 shapeCasts_S5000x1_S5000x1) broadcasts_S5000x1_S5000x128 (ix2 r q) = x2 (ix2 r (0 : Fin 1)) :=
    (broadcastTo_apply _ broadcasts_S5000x1_S5000x128 (ix2 r q) (ix2 r (0 : Fin 1)) (fun a => by
      match a with
      | ⟨0, _⟩ => rfl
      | ⟨1, _⟩ => rfl)).trans (congrFun (shapeCast_self x2 shapeCasts_S5000x1_S5000x1) _)
  have e3 : broadcastTo S5000x128 (shapeCast S1x128 x3 shapeCasts_S1x128_S1x128) broadcasts_S1x128_S5000x128 (ix2 r q) = x3 (ix2 (0 : Fin 1) q) :=
    (broadcastTo_apply _ broadcasts_S1x128_S5000x128 (ix2 r q) (ix2 (0 : Fin 1) q) (fun a => by
      match a with
      | ⟨0, _⟩ => rfl
      | ⟨1, _⟩ => rfl)).trans (congrFun (shapeCast_self x3 shapeCasts_S1x128_S1x128) _)
  have e0 : shapeCast S5000x128 x0 shapeCasts_S5000x128_S5000x128 (ix2 r q) = x0 (ix2 r q) := congrFun (shapeCast_self x0 _) _
  have e1 : shapeCast S5000x128 x1 shapeCasts_S5000x128_S5000x128 (ix2 r q) = x1 (ix2 r q) := congrFun (shapeCast_self x1 _) _
  show broadcastTo S5000x128 (shapeCast S5000x1 x2 shapeCasts_S5000x1_S5000x1) broadcasts_S5000x1_S5000x128 (ix2 r q)
        * shapeCast S5000x128 x0 shapeCasts_S5000x128_S5000x128 (ix2 r q)
      + broadcastTo S5000x128 (shapeCast S1x128 x3 shapeCasts_S1x128_S1x128) broadcasts_S1x128_S5000x128 (ix2 r q)
      + shapeCast S5000x128 x1 shapeCasts_S5000x128_S5000x128 (ix2 r q) = _
  rw [e2, e3, e0, e1]

/-- The row the first conditional stores is zero. -/
theorem pay1_1_apply (q : Fin 128) : (k1_pay1 (F := Ideal)) (ix3 (0 : Fin 1) (0 : Fin 1) q) = 0 := by
  unfold k1_pay1
  show (Ideal.ofBits .f32 0x00000000#32 : EReal) = 0
  exact Ideal.ofBits_zero_f32

/-- A sum over the 5000 rows of a block, column `q`: the lane reduction over axis 0 read at the extended reals. -/
theorem laneSum1 (y : S5000x128.Idx → EReal) (hφ : FKind.Formats .f32) (hacc : (0x00000000#32 : BitVec 32) = FKind.add.neutral .f32 hφ) (q : Fin 128) :
    multiReduction (F := Ideal) (φ := .f32) .add [0] S128 y 0x00000000#32 reduces_S5000x128_S128 hφ hacc (ix1 q) = ∑ r : Fin 5000, y (ix2 r q) := by
  refine (Ideal.multiReduction_add_single y 0x00000000#32 reduces_S5000x128_S128 hφ hacc (ix1 q)).trans ?_
  show ∑ r : Fin 5000, y (reduces_S5000x128_S128.lift (ix1 q) r) = ∑ r : Fin 5000, y (ix2 r q)
  refine Finset.sum_congr rfl fun r _ => congrArg y (funext fun a => Fin.ext ?_)
  match a with
  | ⟨0, _⟩ => rfl
  | ⟨1, _⟩ => rfl

/-- The accumulator's update at column `q`: what it held there plus the block's column sum. -/
theorem pay1_3_apply (x2 : S5000x1.Idx → EReal) (x0 : S5000x128.Idx → EReal) (x3 : S1x128.Idx → EReal) (x1 : S5000x128.Idx → EReal)
    (xs : S1x1x128.Idx → EReal) (q : Fin 128) :
    k1_pay3 (F := Ideal) x2 x0 x3 x1 xs (ix3 (0 : Fin 1) (0 : Fin 1) q)
      = xs (ix3 (0 : Fin 1) (0 : Fin 1) q) + ∑ r : Fin 5000, k1_pay2 (F := Ideal) x2 x0 x3 x1 (ix2 r q) := by
  unfold k1_pay3
  refine (shapeCast_apply _ shapeCasts_S1x128_S1x1x128 (ix3 (0 : Fin 1) (0 : Fin 1) q) (ix2 (0 : Fin 1) q) (by
    rw [Shape.rowMajor_val_two, Shape.rowMajor_val_three]
    show 0 * 128 + q.val = (0 * 1 + 0) * 128 + q.val
    omega)).trans ?_
  have ea : shapeCast S1x128 xs shapeCasts_S1x1x128_S1x128 (ix2 (0 : Fin 1) q) = xs (ix3 (0 : Fin 1) (0 : Fin 1) q) :=
    shapeCast_apply xs shapeCasts_S1x1x128_S1x128 (ix2 (0 : Fin 1) q) (ix3 (0 : Fin 1) (0 : Fin 1) q) (by
      rw [Shape.rowMajor_val_two, Shape.rowMajor_val_three]
      show (0 * 1 + 0) * 128 + q.val = 0 * 128 + q.val
      omega)
  have eb : shapeCast S1x128 (multiReduction (F := Ideal) (φ := .f32) .add [0] S128 (k1_pay2 (F := Ideal) x2 x0 x3 x1) 0x00000000#32 reduces_S5000x128_S128 (.inl rfl) rfl)
        shapeCasts_S128_S1x128 (ix2 (0 : Fin 1) q)
      = ∑ r : Fin 5000, k1_pay2 (F := Ideal) x2 x0 x3 x1 (ix2 r q) :=
    (shapeCast_apply _ shapeCasts_S128_S1x128 (ix2 (0 : Fin 1) q) (ix1 q) (by
      rw [Shape.rowMajor_val_two, Shape.rowMajor_val_one]
      show q.val = 0 * 128 + q.val
      omega)).trans (laneSum1 _ _ _ q)
  exact congrArg₂ (· + ·) ea eb

end AtIdeal

/-! ## The functions the two output arrays end at -/

/-- The pre-activation, index by index: row `p`'s scale times the aggregate, plus column `q`'s bias, plus the residual. -/
def G1_5 (agg res : S100000x128.Idx → EReal) (dv : S100000x1.Idx → EReal) (bs : S1x128.Idx → EReal) : S100000x128.Idx → EReal :=
  fun i => dv (ix2 (i 0 : Fin 100000) (0 : Fin 1)) * agg (ix2 (i 0 : Fin 100000) (i 1 : Fin 128))
    + bs (ix2 (0 : Fin 1) (i 1 : Fin 128)) + res (ix2 (i 0 : Fin 100000) (i 1 : Fin 128))

theorem G1_5_apply (agg res : S100000x128.Idx → EReal) (dv : S100000x1.Idx → EReal) (bs : S1x128.Idx → EReal) (p : Fin 100000) (q : Fin 128) :
    G1_5 agg res dv bs (ix2 p q) = dv (ix2 p (0 : Fin 1)) * agg (ix2 p q) + bs (ix2 (0 : Fin 1) q) + res (ix2 p q) := rfl

/-- Column `q`'s sum of the pre-activation over the 50000 rows of half `s`: ten blocks of 5000 rows. -/
def colSum1 (agg res : S100000x128.Idx → EReal) (dv : S100000x1.Idx → EReal) (bs : S1x128.Idx → EReal) (s : Fin 2) (q : Fin 128) : EReal :=
  ∑ j : Fin 10, ∑ r : Fin 5000, G1_5 agg res dv bs (ix2 (⟨(s.val * 10 + j.val) * 5000 + r.val, by omega⟩ : Fin 100000) q)

/-- The column sums, one row per half. -/
def G1_4 (agg res : S100000x128.Idx → EReal) (dv : S100000x1.Idx → EReal) (bs : S1x128.Idx → EReal) : S2x1x128.Idx → EReal :=
  fun i => colSum1 agg res dv bs (i 0 : Fin 2) (i 2 : Fin 128)

theorem G1_4_apply (agg res : S100000x128.Idx → EReal) (dv : S100000x1.Idx → EReal) (bs : S1x128.Idx → EReal) (s : Fin 2) (q : Fin 128) :
    G1_4 agg res dv bs (ix3 s (0 : Fin 1) q)
      = ∑ j : Fin 10, ∑ r : Fin 5000, G1_5 agg res dv bs (ix2 (⟨(s.val * 10 + j.val) * 5000 + r.val, by omega⟩ : Fin 100000) q) := rfl

/-! ## The input arrays and their blocks, at their literal types -/

variable (V : (c : Dev nD) → (b : Ref sig .tc) → Buf (Elt Ideal) ((c : Thread nD τ).loc b))

/-- The four input arrays as the region finds them. -/
abbrev arrIn1_0 (c : Dev nD) : S100000x128.Idx → EReal := V c (Pipeline.arrRef spec1 0)
abbrev arrIn1_1 (c : Dev nD) : S100000x128.Idx → EReal := V c (Pipeline.arrRef spec1 1)
abbrev arrIn1_2 (c : Dev nD) : S100000x1.Idx → EReal := V c (Pipeline.arrRef spec1 2)
abbrev arrIn1_3 (c : Dev nD) : S1x128.Idx → EReal := V c (Pipeline.arrRef spec1 3)
/-- Their blocks at point `t`. -/
abbrev blk1_0 (c : Dev nD) (t : Fin cfg1.N) : S5000x128.Idx → EReal := iblk1 V c 0 t
abbrev blk1_1 (c : Dev nD) (t : Fin cfg1.N) : S5000x128.Idx → EReal := iblk1 V c 1 t
abbrev blk1_2 (c : Dev nD) (t : Fin cfg1.N) : S5000x1.Idx → EReal := iblk1 V c 2 t
abbrev blk1_3 (c : Dev nD) (t : Fin cfg1.N) : S1x128.Idx → EReal := iblk1 V c 3 t

/-- The index maps over the grid: point `t` takes row block `t` of the three big inputs and of window 5, the one block of
    the bias, and row `t / 10` of window 4. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 3) = t.val / 10 ∧ win1_4.index t (1 : Fin 3) = 0 ∧ win1_4.index t (2 : Fin 3) = 0
    ∧ win1_5.index t (0 : Fin 2) = t.val ∧ win1_5.index t (1 : Fin 2) = 0 :=
  (by decide +kernel : ∀ t : Fin grid1.N, _)

/-- Block `t` of a big input, at row `r` and column `q`, is the array at row `5000 t + r`. -/
theorem blk1_0_apply (c : Dev nD) (t : Fin cfg1.N) (r : Fin 5000) (q : Fin 128) :
    blk1_0 V c t (ix2 r q) = arrIn1_0 V c (ix2 (⟨t.val * 5000 + r.val, by have := lt_of_lt_of_eq t.isLt (show cfg1.N = 20 from N_1); omega⟩ : Fin 100000) q) := by
  obtain ⟨e00, e01, -⟩ := idx_facts1 t
  show arrIn1_0 V c (((cfg1.win 0).blk t).view.emb (ix2 r q)) = _
  refine congrArg (arrIn1_0 V c) (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * q.val = q.val; omega

theorem blk1_1_apply (c : Dev nD) (t : Fin cfg1.N) (r : Fin 5000) (q : Fin 128) :
    blk1_1 V c t (ix2 r q) = arrIn1_1 V c (ix2 (⟨t.val * 5000 + r.val, by have := lt_of_lt_of_eq t.isLt (show cfg1.N = 20 from N_1); omega⟩ : Fin 100000) q) := by
  obtain ⟨-, -, e10, e11, -⟩ := idx_facts1 t
  show arrIn1_1 V c (((cfg1.win 1).blk t).view.emb (ix2 r q)) = _
  refine congrArg (arrIn1_1 V c) (funext fun a => Fin.ext ?_)
  match a with
  | ⟨0, _⟩ => show win1_1.index t (0 : Fin 2) * 5000 + 1 * r.val = t.val * 5000 + r.val; omega
  | ⟨1, _⟩ => show win1_1.index t (1 : Fin 2) * 128 + 1 * q.val = q.val; omega

/-- The scale column likewise; -/
theorem blk1_2_apply (c : Dev nD) (t : Fin cfg1.N) (r : Fin 5000) :
    blk1_2 V c t (ix2 r (0 : Fin 1)) = arrIn1_2 V c (ix2 (⟨t.val * 5000 + r.val, by have := lt_of_lt_of_eq t.isLt (show cfg1.N = 20 from N_1); omega⟩ : Fin 100000) (0 : Fin 1)) := by
  obtain ⟨-, -, -, -, e20, e21, -⟩ := idx_facts1 t
  show arrIn1_2 V c (((cfg1.win 2).blk t).view.emb (ix2 r (0 : Fin 1))) = _
  refine congrArg (arrIn1_2 V c) (funext fun a => Fin.ext ?_)
  match a with
  | ⟨0, _⟩ => show win1_2.index t (0 : Fin 2) * 5000 + 1 * r.val = t.val * 5000 + r.val; omega
  | ⟨1, _⟩ => show win1_2.index t (1 : Fin 2) * 1 + 1 * (0 : Fin 1).val = (0 : Fin 1).val; omega

/-- and the bias row is its one block at every point. -/
theorem blk1_3_apply (c : Dev nD) (t : Fin cfg1.N) (q : Fin 128) :
    blk1_3 V c t (ix2 (0 : Fin 1) q) = arrIn1_3 V c (ix2 (0 : Fin 1) q) := by
  obtain ⟨-, -, -, -, -, -, e30, e31, -⟩ := idx_facts1 t
  show arrIn1_3 V c (((cfg1.win 3).blk t).view.emb (ix2 (0 : Fin 1) q)) = _
  refine congrArg (arrIn1_3 V c) (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

/-- So the pre-activation of point `t`'s blocks at row `r`, column `q` is the array function at row `5000 t + r`. -/
theorem pay1_2_blk (c : Dev nD) (t : Fin cfg1.N) (r : Fin 5000) (q : Fin 128) :
    k1_pay2 (F := Ideal) (blk1_2 V c t) (blk1_0 V c t) (blk1_3 V c t) (blk1_1 V c t) (ix2 r q)
      = G1_5 (arrIn1_0 V c) (arrIn1_1 V c) (arrIn1_2 V c) (arrIn1_3 V c) (ix2 (⟨t.val * 5000 + r.val, by have := lt_of_lt_of_eq t.isLt (show cfg1.N = 20 from N_1); omega⟩ : Fin 100000) q) := by
  refine (pay1_2_apply (blk1_2 V c t) (blk1_0 V c t) (blk1_3 V c t) (blk1_1 V c t) r q).trans ?_
  rw [blk1_0_apply V c t r q, blk1_1_apply V c t r q, blk1_2_apply V c t r, blk1_3_apply V c t q]
  exact (G1_5_apply (arrIn1_0 V c) (arrIn1_1 V c) (arrIn1_2 V c) (arrIn1_3 V c) _ q).symm

/-! ## Window 5: every point writes its block of the pre-activation -/

/-- What any point leaves in window 5's buffer: the pre-activation of its blocks. -/
theorem out1_5_at (c : Dev nD) (t : Fin cfg1.N) :
    (outsAt1 V c t.val t.isLt).2.1 = k1_pay2 (F := Ideal) (blk1_2 V c t) (blk1_0 V c t) (blk1_3 V c t) (blk1_1 V c t) := by
  have hN : t.val < 20 := lt_of_lt_of_eq t.isLt (show cfg1.N = 20 from N_1)
  by_cases h0 : t.val % 10 = 0
  · by_cases h1 : t.val % 10 = 9
    · exfalso; omega
    · rw [outsAt1_A V c t h0 h1]; dsimp only
      exact out1_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)
  · by_cases h1 : t.val % 10 = 9
    · rw [outsAt1_C V c t h0 h1]; dsimp only
      exact out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2
    · rw [outsAt1_B V c t h0 h1]; dsimp only
      exact out1_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2

/-- What point `t` writes back to window 5 is block `t` of the pre-activation of the arrays. -/
theorem flushed1_5_eq (c : Dev nD) (t : Fin cfg1.N) :
    (dat1 V c).flushed 5 t = ((cfg1.win 5).blk t).view.read (Elt Ideal) (G1_5 (arrIn1_0 V c) (arrIn1_1 V c) (arrIn1_2 V c) (arrIn1_3 V c)) := by
  have hN : t.val < 20 := lt_of_lt_of_eq t.isLt (show cfg1.N = 20 from N_1)
  obtain ⟨e00, e01, e10, e11, e20, e21, e30, e31, e40, e41, e42, e50, e51⟩ := idx_facts1 t
  show (cfg1.win 5).cut (grid1.coords t) ((dat1 V c).after 5 t) = _
  rw [after1_5, out1_5_at V c t]
  funext y
  obtain ⟨r, q, rfl⟩ : ∃ (r : Fin 5000) (q : Fin 128), y = ix2 r q := ⟨y 0, y 1, eq_ix2 y⟩
  show k1_pay2 (F := Ideal) (blk1_2 V c t) (blk1_0 V c t) (blk1_3 V c t) (blk1_1 V c t) (ix2 r q) = G1_5 (arrIn1_0 V c) (arrIn1_1 V c) (arrIn1_2 V c) (arrIn1_3 V c) (((cfg1.win 5).blk t).view.emb (ix2 r q))
  have hemb : ((cfg1.win 5).blk t).view.emb (ix2 r q) = ix2 (⟨t.val * 5000 + r.val, by omega⟩ : Fin 100000) q := by
    funext a; apply Fin.ext
    match a with
    | ⟨0, _⟩ => show win1_5.index t (0 : Fin 2) * 5000 + 1 * r.val = t.val * 5000 + r.val; omega
    | ⟨1, _⟩ => show win1_5.index t (1 : Fin 2) * 128 + 1 * q.val = q.val; omega
  rw [hemb]
  exact pay1_2_blk V c t r q

/-- An index of window 5's array is in point `t`'s block iff each coordinate is in the block's range on its axis. -/
theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Row `p` of window 5's array is in the block of point `p / 5000`, which writes it back. -/
theorem covered1_5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e42, e50, e51⟩ := idx_facts1 t
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE PRE-ACTIVATION ARRAY after the region: every row was written by the point whose block holds it. -/
theorem final1_5 (c : Dev nD) :
    (dat1 (F := Ideal) V c).arrAt 5 cfg1.N = G1_5 (V c (Pipeline.arrRef spec1 0)) (V c (Pipeline.arrRef spec1 1)) (V c (Pipeline.arrRef spec1 2)) (V c (Pipeline.arrRef spec1 3)) :=
  (dat1 V c).arrAt_eq_of_cover 5 (G1_5 (arrIn1_0 V c) (arrIn1_1 V c) (arrIn1_2 V c) (arrIn1_3 V c)) (fun t _ => flushed1_5_eq V c t) (fun i => covered1_5 i)

/-! ## Window 4: the accumulator over a row of ten points, written back at the tenth -/

/-- Column `q`'s sum over the 5000 rows of block `n` of the pre-activation (zero beyond the grid's twenty blocks). -/
def bsum1 (c : Dev nD) (n : ℕ) (q : Fin 128) : EReal :=
  if h : n < 20 then ∑ r : Fin 5000, G1_5 (arrIn1_0 V c) (arrIn1_1 V c) (arrIn1_2 V c) (arrIn1_3 V c) (ix2 (⟨n * 5000 + r.val, by omega⟩ : Fin 100000) q) else 0

/-- The column sum of point `t`'s blocks is block `t`'s. -/
theorem blockSum1 (c : Dev nD) (t : Fin cfg1.N) (q : Fin 128) :
    ∑ r : Fin 5000, k1_pay2 (F := Ideal) (blk1_2 V c t) (blk1_0 V c t) (blk1_3 V c t) (blk1_1 V c t) (ix2 r q) = bsum1 V c t.val q := by
  have hN : t.val < 20 := lt_of_lt_of_eq t.isLt (show cfg1.N = 20 from N_1)
  unfold bsum1
  rw [dif_pos hN]
  exact Finset.sum_congr rfl fun r _ => pay1_2_blk V c t r q

/-- Where the inner coordinate is 0 the accumulator restarts: zero plus the block's column sum. -/
theorem acc1_first (c : Dev nD) (t : Fin cfg1.N) (h0 : t.val % 10 = 0) (q : Fin 128) :
    (outsAt1 V c t.val t.isLt).2.2 (ix3 (0 : Fin 1) (0 : Fin 1) q) = bsum1 V c t.val q := by
  have h1 : ¬t.val % 10 = 9 := by omega
  rw [outsAt1_A V c t h0 h1]; dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t)) (ix3 (0 : Fin 1) (0 : Fin 1) q)).trans ?_
  refine (pay1_3_apply (blk1_2 V c t) (blk1_0 V c t) (blk1_3 V c t) (blk1_1 V c t) (k1_pay1 (F := Ideal)) q).trans ?_
  rw [pay1_1_apply q, zero_add]
  exact blockSum1 V c t q

/-- Elsewhere it adds the block's column sum to what the position before left. -/
theorem acc1_next (c : Dev nD) (t : Fin cfg1.N) (h0 : ¬t.val % 10 = 0) (q : Fin 128) :
    (outsAt1 V c t.val t.isLt).2.2 (ix3 (0 : Fin 1) (0 : Fin 1) q) = (outsAt1 V c (t.val - 1) (Nat.lt_of_le_of_lt (Nat.sub_le _ _) t.isLt)).2.2 (ix3 (0 : Fin 1) (0 : Fin 1) q) + bsum1 V c t.val q := by
  by_cases h1 : t.val % 10 = 9
  · rw [outsAt1_C V c t h0 h1]; dsimp only
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) (ix3 (0 : Fin 1) (0 : Fin 1) q)).trans ?_
    refine (pay1_3_apply (blk1_2 V c t) (blk1_0 V c t) (blk1_3 V c t) (blk1_1 V c t) (outsAt1 V c (t.val - 1) (Nat.lt_of_le_of_lt (Nat.sub_le _ _) t.isLt)).2.2 q).trans ?_
    rw [blockSum1 V c t q]
  · rw [outsAt1_B V c t h0 h1]; dsimp only
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) (ix3 (0 : Fin 1) (0 : Fin 1) q)).trans ?_
    refine (pay1_3_apply (blk1_2 V c t) (blk1_0 V c t) (blk1_3 V c t) (blk1_1 V c t) (outsAt1 V c (t.val - 1) (Nat.lt_of_le_of_lt (Nat.sub_le _ _) t.isLt)).2.2 q).trans ?_
    rw [blockSum1 V c t q]

/-- THE ACCUMULATOR after position `n`: the column sums of the blocks of its row of ten, from the row's first up to `n`. -/
theorem acc1_eq (c : Dev nD) : ∀ (n : ℕ) (hn : n < cfg1.N) (q : Fin 128),
    (outsAt1 V c n hn).2.2 (ix3 (0 : Fin 1) (0 : Fin 1) q) = ∑ j ∈ Finset.range (n % 10 + 1), bsum1 V c (n / 10 * 10 + j) q := by
  intro n
  induction n with
  | zero =>
    intro hn q
    refine (acc1_first V c ⟨0, hn⟩ rfl q).trans ?_
    show bsum1 V c 0 q = ∑ j ∈ Finset.range 1, bsum1 V c (0 + j) q
    rw [Finset.sum_range_one]
  | succ n ih =>
    intro hn q
    have hN : n + 1 < 20 := lt_of_lt_of_eq hn (show cfg1.N = 20 from N_1)
    by_cases h0 : (n + 1) % 10 = 0
    · refine (acc1_first V c ⟨n + 1, hn⟩ h0 q).trans ?_
      show bsum1 V c (n + 1) q = _
      have e1 : (n + 1) % 10 + 1 = 1 := by omega
      have e2 : (n + 1) / 10 * 10 + 0 = n + 1 := by omega
      rw [e1, Finset.sum_range_one, e2]
    · refine (acc1_next V c ⟨n + 1, hn⟩ h0 q).trans ?_
      show (outsAt1 V c n (Nat.lt_of_succ_lt hn)).2.2 (ix3 (0 : Fin 1) (0 : Fin 1) q) + bsum1 V c (n + 1) q = _
      rw [ih (Nat.lt_of_succ_lt hn) q]
      have e1 : (n + 1) % 10 + 1 = (n % 10 + 1) + 1 := by omega
      have e2 : (n + 1) / 10 = n / 10 := by omega
      have e3 : n / 10 * 10 + (n % 10 + 1) = n + 1 := by omega
      rw [e1, e2, Finset.sum_range_succ (fun j => bsum1 V c (n / 10 * 10 + j) q) (n % 10 + 1), e3]

/-- What the tenth point of a row writes back to window 4 is that half's row of column sums. -/
theorem flushed1_4_eq (c : Dev nD) (t : Fin cfg1.N) (hf : (cfg1.win 4).flush t = true) :
    (dat1 V c).flushed 4 t = ((cfg1.win 4).blk t).view.read (Elt Ideal) (G1_4 (arrIn1_0 V c) (arrIn1_1 V c) (arrIn1_2 V c) (arrIn1_3 V c)) := by
  have hN : t.val < 20 := lt_of_lt_of_eq t.isLt (show cfg1.N = 20 from N_1)
  have h1 : t.val % 10 = 9 := (flush1_4 t).mp hf
  have h0 : ¬t.val % 10 = 0 := by omega
  obtain ⟨e00, e01, e10, e11, e20, e21, e30, e31, e40, e41, e42, e50, e51⟩ := idx_facts1 t
  show (cfg1.win 4).cut (grid1.coords t) ((dat1 V c).after 4 t) = _
  rw [after1_4]
  have hrow : (outsAt1 V c t.val t.isLt).1 = (outsAt1 V c t.val t.isLt).2.2 := by
    rw [outsAt1_C V c t h0 h1]; dsimp only
    exact (out1_C_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2).trans
      (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2).symm
  rw [hrow]
  funext y
  obtain ⟨a0, a1, q, rfl⟩ : ∃ (a0 : Fin 1) (a1 : Fin 1) (q : Fin 128), y = ix3 a0 a1 q := ⟨y 0, y 1, y 2, eq_ix3 y⟩
  obtain rfl : a0 = 0 := Subsingleton.elim _ _
  obtain rfl : a1 = 0 := Subsingleton.elim _ _
  show (outsAt1 V c t.val t.isLt).2.2 (ix3 (0 : Fin 1) (0 : Fin 1) q) = G1_4 (arrIn1_0 V c) (arrIn1_1 V c) (arrIn1_2 V c) (arrIn1_3 V c) (((cfg1.win 4).blk t).view.emb (ix3 (0 : Fin 1) (0 : Fin 1) q))
  have hemb : ((cfg1.win 4).blk t).view.emb (ix3 (0 : Fin 1) (0 : Fin 1) q) = ix3 (⟨t.val / 10, by omega⟩ : Fin 2) (0 : Fin 1) q := by
    funext a; apply Fin.ext
    match a with
    | ⟨0, _⟩ => show win1_4.index t (0 : Fin 3) * 1 + 1 * 0 = t.val / 10; omega
    | ⟨1, _⟩ => show win1_4.index t (1 : Fin 3) * 1 + 1 * 0 = 0; omega
    | ⟨2, _⟩ => show win1_4.index t (2 : Fin 3) * 128 + 1 * q.val = q.val; omega
  rw [hemb, acc1_eq V c t.val t.isLt q, G1_4_apply]
  have e9 : t.val % 10 + 1 = 10 := by omega
  rw [e9, Finset.sum_range]
  refine Finset.sum_congr rfl fun j _ => ?_
  exact (dif_pos (show t.val / 10 * 10 + j.val < 20 by omega)).trans rfl

/-- An index of window 4's array is in point `t`'s block iff each coordinate is in the block's range on its axis. -/
theorem mem_blk1_4 (t : Fin cfg1.N) (i : S2x1x128.Idx) :
    i ∈ ((cfg1.win 4).blk t).view.set ↔ ∀ a : Fin 3, win1_4.index t a * S1x1x128.size a ≤ (i a).val ∧ (i a).val < win1_4.index t a * S1x1x128.size a + S1x1x128.size a := by
  show i ∈ ((View.whole (Pipeline.arrRef spec1 4)).slice (win1_4.rect t)).set ↔ _
  rw [View.set_slice_whole, Rect.mem_set_unit]
  exact Iff.rfl

/-- Row `s` of window 4's array is the block of the tenth point of half `s`, which writes it back. -/
theorem covered1_4 (i : S2x1x128.Idx) : ∃ t : Fin cfg1.N, (cfg1.win 4).flush t = true ∧ i ∈ ((cfg1.win 4).blk t).view.set := by
  have hi0 : (i 0).val < 2 := (i 0).isLt
  have hi1 : (i 1).val < 1 := (i 1).isLt
  have hi2 : (i 2).val < 128 := (i 2).isLt
  have hN : cfg1.N = 20 := N_1
  obtain ⟨t, ht⟩ : ∃ t : Fin cfg1.N, t.val = (i 0).val * 10 + 9 := ⟨⟨(i 0).val * 10 + 9, by rw [hN]; omega⟩, rfl⟩
  obtain ⟨e00, e01, e10, e11, e20, e21, e30, e31, e40, e41, e42, e50, e51⟩ := idx_facts1 t
  refine ⟨t, (flush1_4 t).mpr (by omega), ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1 ≤ (i 1).val ∧ (i 1).val < win1_4.index t (1 : Fin 3) * 1 + 1; omega
  | ⟨2, _⟩ => show win1_4.index t (2 : Fin 3) * 128 ≤ (i 2).val ∧ (i 2).val < win1_4.index t (2 : Fin 3) * 128 + 128; omega

/-- THE COLUMN-SUM ARRAY after the region: row `s` is what the tenth point of half `s` wrote. -/
theorem final1_4 (c : Dev nD) :
    (dat1 (F := Ideal) V c).arrAt 4 cfg1.N = G1_4 (V c (Pipeline.arrRef spec1 0)) (V c (Pipeline.arrRef spec1 1)) (V c (Pipeline.arrRef spec1 2)) (V c (Pipeline.arrRef spec1 3)) :=
  (dat1 V c).arrAt_eq_of_cover 4 (G1_4 (arrIn1_0 V c) (arrIn1_1 V c) (arrIn1_2 V c) (arrIn1_3 V c)) (fun t hf => flushed1_4_eq V c t hf) (fun i => covered1_4 i)

end Cert.KernelIdeal.Hand

end
-- ==== Proof.KI.V2.lean ====
import proofs.«417336_j40785009443359_3_alg».proof.Proof.KI.F2
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The sum-of-squares region: its value at the extended reals

At inner coordinate 0 the accumulator is zeroed; every point adds, column by column, the squares of its 5000 rows
minus the mean row; the point of inner coordinate 9 copies the accumulator out. So row s of the result holds, per
column, the sum over the 50000 rows of half s of the squared distance to the mean. -/

/-! ## What each case's found pieces are: the printed payloads of the point's blocks -/

section Pieces
variable {F : FTy → Type} [FloatOps F]

theorem offs2_zero3 : (![0, 0, 0] : Fin 3 → Nat) = fun _ => 0 := funext fun a => by fin_cases a <;> rfl
theorem offs2_zero2 : (![0, 0] : Fin 2 → Nat) = fun _ => 0 := funext fun a => by fin_cases a <;> rfl

/-- At inner coordinate 0 the accumulator ends at the sum's payload over the zeroing payload. -/
theorem sout2_A_0_eq (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond2_0 i) (hc1 : ¬cond2_1 i)
    (x0 : Vec F S5000x128 .f32) (x1 : Vec F S1x128 .f32) :
    sout2_A_0 c i arg2 harg2 arg3 harg3 arg4 harg4 arg5 harg5 hc0 hc1 x0 x1 = k2_pay2 x0 x1 (k2_pay1 (F := F)) := by
  unfold sout2_A_0
  rw [View.read_writes_eq_canon _ _ _ (scover2_A_0 c i arg2 harg2 arg3 harg3 arg4 harg4 arg5 harg5 hc0 hc1 x0 x1)]
  unfold kernelRun2_A
  dsimp only
  try sl_unfold_words
  rw [View.canon_cons_unit_zero (S := S1x1x128) offs2_zero3]
  simp only [View.readAt_eq_ld, harg2.read_unread, harg3.read_unread, harg5.read_unread, View.ld_unit_zero (S := S5000x128) offs2_zero2, View.ld_unit_zero (S := S1x128) offs2_zero2, View.ld_unit_zero (S := S1x1x128) offs2_zero3, View.readCov_unit_zero (S := S1x1x128) _ offs2_zero3]

/-- At inner coordinates 1 to 8 the accumulator ends at the sum's payload over what it held. -/
theorem sout2_B_0_eq (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : ¬cond2_1 i)
    (x0 : Vec F S5000x128 .f32) (x1 : Vec F S1x128 .f32) (xs0 : Vec F S1x1x128 .f32) :
    sout2_B_0 c i arg2 harg2 arg3 harg3 arg4 harg4 arg5 harg5 hc0 hc1 x0 x1 xs0 = k2_pay2 x0 x1 xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  try sl_unfold_words
  rw [View.canon_unit_zero offs2_zero3]
  simp only [View.readAt_eq_ld, harg2.read_unread, harg3.read_unread, harg5.read_unread, View.ld_unit_zero (S := S5000x128) offs2_zero2, View.ld_unit_zero (S := S1x128) offs2_zero2, View.ld_unit_zero (S := S1x1x128) offs2_zero3, View.readCov_unit_zero (S := S1x1x128) _ offs2_zero3]

/-- At inner coordinate 9 likewise, -/
theorem sout2_C_0_eq (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) :
    sout2_C_0 c i arg2 harg2 arg3 harg3 arg4 harg4 arg5 harg5 hc0 hc1 x0 x1 xs0 = k2_pay2 x0 x1 xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  try sl_unfold_words
  rw [View.canon_unit_zero offs2_zero3]
  simp only [View.readAt_eq_ld, harg2.read_unread, harg3.read_unread, harg5.read_unread, View.ld_unit_zero (S := S5000x128) offs2_zero2, View.ld_unit_zero (S := S1x128) offs2_zero2, View.ld_unit_zero (S := S1x1x128) offs2_zero3, View.readCov_unit_zero (S := S1x1x128) _ offs2_zero3]

/-- and the output window's buffer ends at the same contents: the accumulator copied out. -/
theorem out2_C_2_eq (c : Dev nD) (i : grid2.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond2_0 i) (hc1 : cond2_1 i)
    (x0 : Vec F S5000x128 .f32) (x1 : Vec F S1x128 .f32) (xs0 : Vec F S1x1x128 .f32) :
    out2_C_2 c i arg2 harg2 arg3 harg3 arg4 harg4 arg5 harg5 hc0 hc1 x0 x1 xs0 = k2_pay2 x0 x1 xs0 := by
  unfold out2_C_2
  rw [View.read_writes_eq_canon _ _ _ (cover2_C_2 c i arg2 harg2 arg3 harg3 arg4 harg4 arg5 harg5 hc0 hc1 x0 x1 xs0)]
  unfold kernelRun2_C
  dsimp only
  try sl_unfold_words
  rw [View.canon_unit_zero offs2_zero3, View.readCov_unit_zero (S := S1x1x128) _ offs2_zero3]
  simp only [View.readAt_eq_ld, harg2.read_unread, harg3.read_unread, harg5.read_unread, View.ld_unit_zero (S := S5000x128) offs2_zero2, View.ld_unit_zero (S := S1x128) offs2_zero2, View.ld_unit_zero (S := S1x1x128) offs2_zero3, View.readCov_unit_zero (S := S1x1x128) _ offs2_zero3]

end Pieces

/-! ## The payloads at an index, at the extended reals -/

/-- The zeroing payload is zero at every index. -/
theorem k2_pay1_apply (y : S1x1x128.Idx) : k2_pay1 (F := Ideal) y = 0 := by
  unfold k2_pay1
  refine (congrFun (shapeCast_self _ _) y).trans ?_
  exact Ideal.ofBits_zero_f32

/-- The sum's payload, spelled as one term. -/
theorem k2_pay2_eq (v3 : S5000x128.Idx → EReal) (v5 : S1x128.Idx → EReal) (v9 : S1x1x128.Idx → EReal) :
    k2_pay2 (F := Ideal) v3 v5 v9
      = shapeCast S1x1x128 (addf (shapeCast S1x128 v9 shapeCasts_S1x1x128_S1x128)
          (shapeCast S1x128 (multiReduction (F := Ideal) .add [0] S128
            (mulf (subf (shapeCast S5000x128 v3 shapeCasts_S5000x128_S5000x128) (broadcastTo S5000x128 (shapeCast S1x128 v5 shapeCasts_S1x128_S1x128) broadcasts_S1x128_S5000x128))
                  (subf (shapeCast S5000x128 v3 shapeCasts_S5000x128_S5000x128) (broadcastTo S5000x128 (shapeCast S1x128 v5 shapeCasts_S1x128_S1x128) broadcasts_S1x128_S5000x128)))
            0x00000000#32 reduces_S5000x128_S128 (.inl rfl) rfl) shapeCasts_S128_S1x128)) shapeCasts_S1x128_S1x1x128 := rfl

/-- Row r, column q of the 5000-row block is what the column's reduction meets at its r-th step. -/
theorem lift2_rows (q : Fin 128) (r : Fin 5000) :
    (reduces_S5000x128_S128 : S5000x128.Reduces [0] S128).lift (ix1 q) r = ix2 r q := by
  funext a; apply Fin.ext
  fin_cases a <;> rfl

/-- The sum's payload at column q: what the accumulator held there plus the column's sum, over the block's 5000
    rows, of the squared distance to the mean row. -/
theorem k2_pay2_apply (x0 : S5000x128.Idx → EReal) (x1 : S1x128.Idx → EReal) (xs : S1x1x128.Idx → EReal) (q : Fin 128) :
    k2_pay2 (F := Ideal) x0 x1 xs (ix3 (0 : Fin 1) (0 : Fin 1) q)
      = xs (ix3 (0 : Fin 1) (0 : Fin 1) q) + ∑ r : Fin 5000, (x0 (ix2 r q) - x1 (ix2 (0 : Fin 1) q)) * (x0 (ix2 r q) - x1 (ix2 (0 : Fin 1) q)) := by
  rw [k2_pay2_eq]
  refine (shapeCast_ab_1ab_apply _ _ (0 : Fin 1) (0 : Fin 1) q).trans ?_
  refine congrArg₂ (· + ·) (shapeCast_1ab_ab_apply xs _ (0 : Fin 1) q) ?_
  refine (shapeCast_a_1a_apply _ _ (0 : Fin 1) q).trans ?_
  refine (Ideal.multiReduction_add_single _ _ _ _ _ (ix1 q)).trans ?_
  refine Finset.sum_congr rfl fun r _ => ?_
  have e4 : shapeCast S5000x128 x0 shapeCasts_S5000x128_S5000x128 (ix2 r q) = x0 (ix2 r q) := congrFun (shapeCast_self x0 _) _
  have e7 : broadcastTo S5000x128 (shapeCast S1x128 x1 shapeCasts_S1x128_S1x128) broadcasts_S1x128_S5000x128 (ix2 r q) = x1 (ix2 (0 : Fin 1) q) :=
    (broadcastTo_1b_ab_apply _ _ r q).trans (congrFun (shapeCast_self x1 _) _)
  have hsub : subf (F := Ideal) (φ := .f32) (shapeCast S5000x128 x0 shapeCasts_S5000x128_S5000x128) (broadcastTo S5000x128 (shapeCast S1x128 x1 shapeCasts_S1x128_S1x128) broadcasts_S1x128_S5000x128)
      ((reduces_S5000x128_S128 : S5000x128.Reduces [0] S128).lift (ix1 q) r) = x0 (ix2 r q) - x1 (ix2 (0 : Fin 1) q) := by
    rw [lift2_rows q r]
    exact congrArg₂ (· - ·) e4 e7
  exact congrArg₂ (· * ·) hsub hsub

/-! ## The blocks as rows of the arrays -/

variable (V : (c : Dev nD) → (b : Ref sig .tc) → Buf (Elt Ideal) ((c : Thread nD τ).loc b))

/-- The activations and the mean row as the region finds them, and a point's blocks of them, at their literal types. -/
abbrev hArr2 (c : Dev nD) : S100000x128.Idx → EReal := V c (Pipeline.arrRef spec2 0)
abbrev meanArr2 (c : Dev nD) : S1x128.Idx → EReal := V c (Pipeline.arrRef spec2 1)
abbrev hBlk2 (c : Dev nD) (t : Fin cfg2.N) : S5000x128.Idx → EReal := iblk2 V c 0 t
abbrev meanBlk2 (c : Dev nD) (t : Fin cfg2.N) : S1x128.Idx → EReal := iblk2 V c 1 t

/-- The index maps over the grid: point t reads row block t of the activations and the whole mean row, and writes
    row t / 10 of the result. -/
theorem idx2_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 3) = t.val / 10 ∧ win2_2.index t (1 : Fin 3) = 0 ∧ win2_2.index t (2 : Fin 3) = 0 :=
  (by decide +kernel : ∀ t : Fin grid2.N, _)

/-- Row r of point t's block is row 5000 t + r of the activations. -/
theorem hBlk2_apply (c : Dev nD) (t : Fin cfg2.N) (r : Fin 5000) (q : Fin 128) (hrow : t.val * 5000 + r.val < 100000) :
    hBlk2 V c t (ix2 r q) = hArr2 V c (ix2 (⟨t.val * 5000 + r.val, hrow⟩ : Fin 100000) q) := by
  obtain ⟨e0, e1, -⟩ := idx2_facts t
  unfold hBlk2 iblk2
  rw [View.read_apply]
  show V c (Pipeline.arrRef spec2 0) _ = V c (Pipeline.arrRef spec2 0) _
  congr 1
  funext a; apply Fin.ext
  match a with
  | ⟨0, _⟩ => show win2_0.index t (0 : Fin 2) * 5000 + 1 * r.val = t.val * 5000 + r.val; rw [e0]; omega
  | ⟨1, _⟩ => show win2_0.index t (1 : Fin 2) * 128 + 1 * q.val = q.val; rw [e1]; omega

/-- Every point's mean block is the mean row. -/
theorem meanBlk2_apply (c : Dev nD) (t : Fin cfg2.N) (q : Fin 128) :
    meanBlk2 V c t (ix2 (0 : Fin 1) q) = meanArr2 V c (ix2 (0 : Fin 1) q) := by
  obtain ⟨-, -, e2, e3, -⟩ := idx2_facts t
  unfold meanBlk2 iblk2
  rw [View.read_apply]
  show V c (Pipeline.arrRef spec2 1) _ = V c (Pipeline.arrRef spec2 1) _
  congr 1
  funext a; apply Fin.ext
  match a with
  | ⟨0, _⟩ => show win2_1.index t (0 : Fin 2) * 1 + 1 * ((0 : Fin 1) : ℕ) = ((0 : Fin 1) : ℕ); rw [e2]; simp
  | ⟨1, _⟩ => show win2_1.index t (1 : Fin 2) * 128 + 1 * q.val = q.val; rw [e3]; omega

/-! ## The accumulation over the points -/

/-- The accumulator after position n, at its literal type. -/
abbrev accAt2 (c : Dev nD) (n : ℕ) (hn : n < cfg2.N) : S1x1x128.Idx → EReal := (outsAt2 V c n hn).2
/-- The output window's buffer after position n, at its literal type. -/
abbrev outAt2 (c : Dev nD) (n : ℕ) (hn : n < cfg2.N) : S1x1x128.Idx → EReal := (outsAt2 V c n hn).1

/-- Row n of the activations at column q (zero past the last row, which nothing reads). -/
def actRow2 (c : Dev nD) (n : ℕ) (q : Fin 128) : EReal := if h : n < 100000 then hArr2 V c (ix2 (⟨n, h⟩ : Fin 100000) q) else 0

/-- Block b's contribution at column q: the squared distances to the mean of its 5000 rows, summed. -/
def blockSq2 (c : Dev nD) (b : ℕ) (q : Fin 128) : EReal :=
  ∑ r : Fin 5000, (actRow2 V c (b * 5000 + r.val) q - meanArr2 V c (ix2 (0 : Fin 1) q)) * (actRow2 V c (b * 5000 + r.val) q - meanArr2 V c (ix2 (0 : Fin 1) q))

/-- What a point adds to the accumulator is its block's contribution. -/
theorem blockSq2_of_blocks (c : Dev nD) (t : Fin cfg2.N) (q : Fin 128) :
    (∑ r : Fin 5000, (hBlk2 V c t (ix2 r q) - meanBlk2 V c t (ix2 (0 : Fin 1) q)) * (hBlk2 V c t (ix2 r q) - meanBlk2 V c t (ix2 (0 : Fin 1) q))) = blockSq2 V c t.val q := by
  have hN : t.val < 20 := lt_of_lt_of_eq t.isLt (show cfg2.N = 20 from N_2)
  unfold blockSq2
  refine Finset.sum_congr rfl fun r _ => ?_
  have hr : t.val * 5000 + r.val < 100000 := by have := r.isLt; omega
  rw [hBlk2_apply V c t r q hr, meanBlk2_apply V c t q]
  unfold actRow2; rw [dif_pos hr]

/-- At inner coordinate 0 the accumulator ends at the point's contribution alone. -/
theorem acc2_first (c : Dev nD) (t : Fin cfg2.N) (h0 : t.val % 10 = 0) (q : Fin 128) :
    accAt2 V c t.val t.isLt (ix3 (0 : Fin 1) (0 : Fin 1) q) = blockSq2 V c t.val q := by
  have h1 : ¬t.val % 10 = 9 := by omega
  unfold accAt2
  rw [outsAt2_A V c t h0 h1]; dsimp only
  refine (congrFun (sout2_A_0_eq (F := Ideal) c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (hBlk2 V c t) (meanBlk2 V c t)) (ix3 (0 : Fin 1) (0 : Fin 1) q)).trans ?_
  refine (k2_pay2_apply (hBlk2 V c t) (meanBlk2 V c t) (k2_pay1 (F := Ideal)) q).trans ?_
  rw [k2_pay1_apply, zero_add]
  exact blockSq2_of_blocks V c t q

/-- At the other inner coordinates it ends at what the point before left plus the point's contribution, -/
theorem acc2_step (c : Dev nD) (t : Fin cfg2.N) (h0 : ¬t.val % 10 = 0) (q : Fin 128) :
    accAt2 V c t.val t.isLt (ix3 (0 : Fin 1) (0 : Fin 1) q) = accAt2 V c (t.val - 1) (Nat.lt_of_le_of_lt (Nat.sub_le _ _) t.isLt) (ix3 (0 : Fin 1) (0 : Fin 1) q) + blockSq2 V c t.val q := by
  unfold accAt2
  by_cases h1 : t.val % 10 = 9
  · rw [outsAt2_C V c t h0 h1]; dsimp only
    refine (congrFun (sout2_C_0_eq (F := Ideal) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (hBlk2 V c t) (meanBlk2 V c t) (accAt2 V c (t.val - 1) (Nat.lt_of_le_of_lt (Nat.sub_le _ _) t.isLt))) (ix3 (0 : Fin 1) (0 : Fin 1) q)).trans ?_
    refine (k2_pay2_apply (hBlk2 V c t) (meanBlk2 V c t) (accAt2 V c (t.val - 1) (Nat.lt_of_le_of_lt (Nat.sub_le _ _) t.isLt)) q).trans ?_
    exact congrArg (fun z => accAt2 V c (t.val - 1) (Nat.lt_of_le_of_lt (Nat.sub_le _ _) t.isLt) (ix3 (0 : Fin 1) (0 : Fin 1) q) + z) (blockSq2_of_blocks V c t q)
  · rw [outsAt2_B V c t h0 h1]; dsimp only
    refine (congrFun (sout2_B_0_eq (F := Ideal) c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (hBlk2 V c t) (meanBlk2 V c t) (accAt2 V c (t.val - 1) (Nat.lt_of_le_of_lt (Nat.sub_le _ _) t.isLt))) (ix3 (0 : Fin 1) (0 : Fin 1) q)).trans ?_
    refine (k2_pay2_apply (hBlk2 V c t) (meanBlk2 V c t) (accAt2 V c (t.val - 1) (Nat.lt_of_le_of_lt (Nat.sub_le _ _) t.isLt)) q).trans ?_
    exact congrArg (fun z => accAt2 V c (t.val - 1) (Nat.lt_of_le_of_lt (Nat.sub_le _ _) t.isLt) (ix3 (0 : Fin 1) (0 : Fin 1) q) + z) (blockSq2_of_blocks V c t q)

/-- and at inner coordinate 9 the output window's buffer ends at the same. -/
theorem out2_last_step (c : Dev nD) (t : Fin cfg2.N) (h9 : t.val % 10 = 9) (q : Fin 128) :
    outAt2 V c t.val t.isLt (ix3 (0 : Fin 1) (0 : Fin 1) q) = accAt2 V c (t.val - 1) (Nat.lt_of_le_of_lt (Nat.sub_le _ _) t.isLt) (ix3 (0 : Fin 1) (0 : Fin 1) q) + blockSq2 V c t.val q := by
  have h0 : ¬t.val % 10 = 0 := by omega
  unfold outAt2 accAt2
  rw [outsAt2_C V c t h0 h9]; dsimp only
  refine (congrFun (out2_C_2_eq (F := Ideal) c (grid2.coords t) (ms2_0 t) (hs2_0 t) (ms2_1 t) (hs2_1 t) (ms2_2 t) (hs2_2 t) scM2_0 (Memref.isWhole_whole _) (fun h => h0 ((hcond2_0 t).mp h)) ((hcond2_1 t).mpr h9) (hBlk2 V c t) (meanBlk2 V c t) (accAt2 V c (t.val - 1) (Nat.lt_of_le_of_lt (Nat.sub_le _ _) t.isLt))) (ix3 (0 : Fin 1) (0 : Fin 1) q)).trans ?_
  refine (k2_pay2_apply (hBlk2 V c t) (meanBlk2 V c t) (accAt2 V c (t.val - 1) (Nat.lt_of_le_of_lt (Nat.sub_le _ _) t.isLt)) q).trans ?_
  exact congrArg (fun z => accAt2 V c (t.val - 1) (Nat.lt_of_le_of_lt (Nat.sub_le _ _) t.isLt) (ix3 (0 : Fin 1) (0 : Fin 1) q) + z) (blockSq2_of_blocks V c t q)

/-- THE ACCUMULATOR after position n: the contributions of the blocks from the last multiple of 10 up to n. -/
theorem acc2_eq (c : Dev nD) (n : ℕ) : ∀ (hn : n < cfg2.N) (q : Fin 128),
    accAt2 V c n hn (ix3 (0 : Fin 1) (0 : Fin 1) q) = ∑ j ∈ Finset.range (n % 10 + 1), blockSq2 V c (n - n % 10 + j) q := by
  induction n with
  | zero =>
    intro hn q
    refine (acc2_first V c ⟨0, hn⟩ rfl q).trans ?_
    show blockSq2 V c 0 q = ∑ j ∈ Finset.range 1, blockSq2 V c (0 - 0 % 10 + j) q
    rw [Finset.sum_range_one]
  | succ n ih =>
    intro hn q
    by_cases h0 : (n + 1) % 10 = 0
    · refine (acc2_first V c ⟨n + 1, hn⟩ h0 q).trans ?_
      show blockSq2 V c (n + 1) q = ∑ j ∈ Finset.range ((n + 1) % 10 + 1), blockSq2 V c (n + 1 - (n + 1) % 10 + j) q
      rw [h0, Finset.sum_range_one, Nat.sub_zero, Nat.add_zero]
    · refine (acc2_step V c ⟨n + 1, hn⟩ h0 q).trans ?_
      show accAt2 V c n (Nat.lt_of_succ_lt hn) (ix3 (0 : Fin 1) (0 : Fin 1) q) + blockSq2 V c (n + 1) q = _
      rw [ih (Nat.lt_of_succ_lt hn) q]
      have e1 : (n + 1) % 10 = n % 10 + 1 := by omega
      have e2 : n + 1 - (n + 1) % 10 = n - n % 10 := by omega
      have e3 : n - n % 10 + (n % 10 + 1) = n + 1 := by omega
      rw [e2, e1, Finset.sum_range_succ _ (n % 10 + 1), e3]

/-- THE OUTPUT WINDOW'S BUFFER after a point of inner coordinate 9: the ten contributions of its half. -/
theorem out2_last (c : Dev nD) (t : Fin cfg2.N) (h9 : t.val % 10 = 9) (q : Fin 128) :
    outAt2 V c t.val t.isLt (ix3 (0 : Fin 1) (0 : Fin 1) q) = ∑ j ∈ Finset.range 10, blockSq2 V c (t.val / 10 * 10 + j) q := by
  rw [out2_last_step V c t h9 q, acc2_eq V c (t.val - 1) (Nat.lt_of_le_of_lt (Nat.sub_le _ _) t.isLt) q]
  have e1 : (t.val - 1) % 10 + 1 = 9 := by omega
  have e2 : t.val - 1 - (t.val - 1) % 10 = t.val / 10 * 10 := by omega
  have e3 : t.val / 10 * 10 + 9 = t.val := by omega
  rw [e1, e2, Finset.sum_range_succ _ 9, e3]

/-! ## The result array -/

/-- Row s, column q of the result: over the ten blocks of half s and their 5000 rows each, the squared distance of
    the activation to the mean, summed. -/
def G2_2row (h : S100000x128.Idx → EReal) (mean : S1x128.Idx → EReal) (s : Fin 2) (q : Fin 128) : EReal :=
  ∑ j : Fin 10, ∑ r : Fin 5000, (h (ix2 (⟨(s.val * 10 + j.val) * 5000 + r.val, by omega⟩ : Fin 100000) q) - mean (ix2 (0 : Fin 1) q)) * (h (ix2 (⟨(s.val * 10 + j.val) * 5000 + r.val, by omega⟩ : Fin 100000) q) - mean (ix2 (0 : Fin 1) q))

/-- The result array as one function of the activations and the mean row. -/
def G2_2 (h : S100000x128.Idx → EReal) (mean : S1x128.Idx → EReal) : S2x1x128.Idx → EReal :=
  fun i => G2_2row h mean (i 0) (i 2)

theorem G2_2_apply (h : S100000x128.Idx → EReal) (mean : S1x128.Idx → EReal) (s : Fin 2) (q : Fin 128) :
    G2_2 h mean (ix3 s (0 : Fin 1) q) = ∑ j : Fin 10, ∑ r : Fin 5000, (h (ix2 (⟨(s.val * 10 + j.val) * 5000 + r.val, by omega⟩ : Fin 100000) q) - mean (ix2 (0 : Fin 1) q)) * (h (ix2 (⟨(s.val * 10 + j.val) * 5000 + r.val, by omega⟩ : Fin 100000) q) - mean (ix2 (0 : Fin 1) q)) := rfl

/-- The ten contributions of half s are row s of the result. -/
theorem G2_2_of_blocks (c : Dev nD) (s : Fin 2) (q : Fin 128) :
    (∑ j ∈ Finset.range 10, blockSq2 V c (s.val * 10 + j) q) = G2_2 (hArr2 V c) (meanArr2 V c) (ix3 s (0 : Fin 1) q) := by
  rw [G2_2_apply, Finset.sum_range (fun j => blockSq2 V c (s.val * 10 + j) q)]
  refine Finset.sum_congr rfl fun j _ => ?_
  unfold blockSq2
  refine Finset.sum_congr rfl fun r _ => ?_
  have hr : (s.val * 10 + j.val) * 5000 + r.val < 100000 := by omega
  unfold actRow2; rw [dif_pos hr]

/-- WHAT A POINT OF INNER COORDINATE 9 WRITES BACK is its block of the result. -/
theorem flushed2_2_eq (c : Dev nD) (t : Fin cfg2.N) (hf : (cfg2.win 2).flush t = true) :
    (dat2 (F := Ideal) V c).flushed 2 t = ((cfg2.win 2).blk t).view.read (Elt Ideal) (G2_2 (V c (Pipeline.arrRef spec2 0)) (V c (Pipeline.arrRef spec2 1))) := by
  have h9 : t.val % 10 = 9 := (flush2_2 t).mp hf
  have hN : t.val < 20 := lt_of_lt_of_eq t.isLt (show cfg2.N = 20 from N_2)
  obtain ⟨-, -, -, -, e4, e5, e6⟩ := idx2_facts t
  show (cfg2.win 2).cut (grid2.coords t) ((dat2 (F := Ideal) V c).after 2 t) = _
  rw [after2_2]
  funext j
  revert j
  show ∀ j : S1x1x128.Idx, outAt2 V c t.val t.isLt j = ((cfg2.win 2).blk t).view.read (Elt Ideal) (G2_2 (V c (Pipeline.arrRef spec2 0)) (V c (Pipeline.arrRef spec2 1))) j
  intro j
  obtain ⟨u, i, q, rfl⟩ : ∃ (u : Fin 1) (i : Fin 1) (q : Fin 128), j = ix3 u i q := ⟨j 0, j 1, j 2, eq_ix3 j⟩
  obtain rfl : u = 0 := Subsingleton.elim _ _
  obtain rfl : i = 0 := Subsingleton.elim _ _
  rw [View.read_apply]
  show outAt2 V c t.val t.isLt (ix3 (0 : Fin 1) (0 : Fin 1) q) = G2_2 (hArr2 V c) (meanArr2 V c) (((cfg2.win 2).blk t).view.emb (ix3 (0 : Fin 1) (0 : Fin 1) q))
  have hemb : ((cfg2.win 2).blk t).view.emb (ix3 (0 : Fin 1) (0 : Fin 1) q) = ix3 (⟨t.val / 10, by omega⟩ : Fin 2) (0 : Fin 1) q := by
    funext a; apply Fin.ext
    match a with
    | ⟨0, _⟩ => show win2_2.index t (0 : Fin 3) * 1 + 1 * ((0 : Fin 1) : ℕ) = t.val / 10; rw [e4]; simp
    | ⟨1, _⟩ => show win2_2.index t (1 : Fin 3) * 1 + 1 * ((0 : Fin 1) : ℕ) = ((0 : Fin 1) : ℕ); rw [e5]; simp
    | ⟨2, _⟩ => show win2_2.index t (2 : Fin 3) * 128 + 1 * q.val = q.val; rw [e6]; omega
  rw [hemb, out2_last V c t h9 q]
  exact G2_2_of_blocks V c (⟨t.val / 10, by omega⟩ : Fin 2) q

/-- An index of the result is in point t's block iff each coordinate is in the block's range on its axis. -/
theorem mem_blk2_2 (t : Fin cfg2.N) (i : S2x1x128.Idx) :
    i ∈ ((cfg2.win 2).blk t).view.set ↔ ∀ a : Fin 3, win2_2.index t a * S1x1x128.size a ≤ (i a).val ∧ (i a).val < win2_2.index t a * S1x1x128.size a + S1x1x128.size a := by
  show i ∈ ((View.whole (Pipeline.arrRef spec2 2)).slice (win2_2.rect t)).set ↔ _
  rw [View.set_slice_whole, Rect.mem_set_unit]
  exact Iff.rfl

/-- THE RESULT ARRAY after the region: the two points of inner coordinate 9 write its two rows. -/
theorem final2_2 (c : Dev nD) : (dat2 (F := Ideal) V c).arrAt 2 cfg2.N = G2_2 (V c (Pipeline.arrRef spec2 0)) (V c (Pipeline.arrRef spec2 1)) :=
  (dat2 (F := Ideal) V c).arrAt_eq_of_cover 2 (G2_2 (V c (Pipeline.arrRef spec2 0)) (V c (Pipeline.arrRef spec2 1))) (flushed2_2_eq V c) fun i => by
    have hi0 : (i 0).val < 2 := (i 0).isLt
    have hi1 : (i 1).val < 1 := (i 1).isLt
    have hi2 : (i 2).val < 128 := (i 2).isLt
    have hlt : (i 0).val * 10 + 9 < cfg2.N := by rw [show cfg2.N = 20 from N_2]; omega
    obtain ⟨-, -, -, -, e4, e5, e6⟩ := idx2_facts ⟨(i 0).val * 10 + 9, hlt⟩
    refine ⟨⟨(i 0).val * 10 + 9, hlt⟩, (flush2_2 _).mpr (by show ((i 0).val * 10 + 9) % 10 = 9; omega), ?_⟩
    rw [mem_blk2_2]
    intro a
    match a with
    | ⟨0, _⟩ =>
      show win2_2.index ⟨(i 0).val * 10 + 9, hlt⟩ (0 : Fin 3) * 1 ≤ (i 0).val ∧ (i 0).val < win2_2.index ⟨(i 0).val * 10 + 9, hlt⟩ (0 : Fin 3) * 1 + 1
      rw [e4]
      show ((i 0).val * 10 + 9) / 10 * 1 ≤ (i 0).val ∧ (i 0).val < ((i 0).val * 10 + 9) / 10 * 1 + 1
      omega
    | ⟨1, _⟩ =>
      show win2_2.index ⟨(i 0).val * 10 + 9, hlt⟩ (1 : Fin 3) * 1 ≤ (i 1).val ∧ (i 1).val < win2_2.index ⟨(i 0).val * 10 + 9, hlt⟩ (1 : Fin 3) * 1 + 1
      rw [e5]
      omega
    | ⟨2, _⟩ =>
      show win2_2.index ⟨(i 0).val * 10 + 9, hlt⟩ (2 : Fin 3) * 128 ≤ (i 2).val ∧ (i 2).val < win2_2.index ⟨(i 0).val * 10 + 9, hlt⟩ (2 : Fin 3) * 128 + 128
      rw [e6]
      omega

end Cert.KernelIdeal.Hand

end
-- ==== Proof.KI.V3Pay.lean ====
import proofs.«417336_j40785009443359_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Hand
open Cert.KernelIdeal Cert.KernelIdeal.Gen
open Idealize.ShloMosaic Idealize.ShloMosaic.ValueIdx
open scoped BigOperators

/-! # The normalise-and-multiply body at one element, on the extended reals

The body normalises a 5000 × 128 block of activations column by column, multiplies it by a 128 × 256 matrix (two
128 × 128 weight matrices side by side), and writes the left half of the product scaled row by row, and the right
half plus a bias, clamped below at zero. Here each stored value is read at a row `p` and a column `q` as a sum over
the 128 contracted columns. No rounding is left at the extended reals: the narrowing to the short format is the
identity, and the product into a zero accumulator is the plain sum. -/

/-- The left half's column `q` among the product's 256 columns. -/
def leftCol3 (q : Fin 128) : Fin 256 := ⟨q.val, by omega⟩
/-- The right half's column `q` among the product's 256 columns. -/
def rightCol3 (q : Fin 128) : Fin 256 := ⟨128 + q.val, by omega⟩

/-- The normalised activation at row `p`, column `k` of a block: scale × (activation − mean) × 1/√(variance + ε),
    plus shift, associated as the body associates it. -/
def normed3 (var gamma : Vec Ideal S1x128 .f32) (h : Vec Ideal S5000x128 .f32) (mean beta : Vec Ideal S1x128 .f32)
    (p : Fin 5000) (k : Fin 128) : EReal :=
  gamma (ix2 0 k) * (h (ix2 p k) - mean (ix2 0 k)) * Ideal.rsqrt (var (ix2 0 k) + Ideal.ofBits .f32 0x3727C5AC#32) + beta (ix2 0 k)

/-! ## The layout operations of the body at an element -/

/-- A 1 × 128 row spread over 5000 rows reads, at row `p` and column `k`, the row's column `k`. -/
theorem laneSpread3 (x : FVec Ideal S1x128 .f32) (p : Fin 5000) (k : Fin 128) :
    broadcastTo S5000x128 x broadcasts_S1x128_S5000x128 (ix2 p k) = x (ix2 0 k) :=
  broadcastTo_apply x broadcasts_S1x128_S5000x128 (ix2 p k) (ix2 0 k) (fun a => by
    match a with
    | ⟨0, _⟩ => rfl
    | ⟨1, _⟩ => rfl)

/-- A 5000 × 1 column spread over 128 columns reads, at row `p` and column `q`, the column's row `p`. -/
theorem columnSpread3 (x : FVec Ideal S5000x1 .f32) (p : Fin 5000) (q : Fin 128) :
    broadcastTo S5000x128 x broadcasts_S5000x1_S5000x128 (ix2 p q) = x (ix2 p 0) :=
  broadcastTo_apply x broadcasts_S5000x1_S5000x128 (ix2 p q) (ix2 p 0) (fun a => by
    match a with
    | ⟨0, _⟩ => rfl
    | ⟨1, _⟩ => rfl)

/-- The left 128 columns cut from a 5000 × 256 array: column `q` of the cut is column `q` of the array. -/
theorem leftHalf3 (x : FVec Ideal S5000x256 .f32) (p : Fin 5000) (q : Fin 128) :
    extractStridedSlice S5000x128 ![0, 0] x slices_S5000x256_o0_0_S5000x128 (ix2 p q) = x (ix2 p (leftCol3 q)) :=
  extractStridedSlice_apply ![0, 0] x slices_S5000x256_o0_0_S5000x128 (ix2 p q) (ix2 p (leftCol3 q)) (fun a => by
    match a with
    | ⟨0, _⟩ => exact (Nat.zero_add _).symm
    | ⟨1, _⟩ => exact (Nat.zero_add _).symm)

/-- The right 128 columns: column `q` of the cut is column `128 + q` of the array. -/
theorem rightHalf3 (x : FVec Ideal S5000x256 .f32) (p : Fin 5000) (q : Fin 128) :
    extractStridedSlice S5000x128 ![0, 128] x slices_S5000x256_o0_128_S5000x128 (ix2 p q) = x (ix2 p (rightCol3 q)) :=
  extractStridedSlice_apply ![0, 128] x slices_S5000x256_o0_128_S5000x128 (ix2 p q) (ix2 p (rightCol3 q)) (fun a => by
    match a with
    | ⟨0, _⟩ => exact (Nat.zero_add _).symm
    | ⟨1, _⟩ => rfl)

/-- The reciprocal square root of a row, element by element. -/
theorem rsqrtLane3 (x : FVec Ideal S1x128 .f32) (i : S1x128.Idx) : rsqrt x i = Ideal.rsqrt (x i) := rfl

/-! ## The two operands of the product -/

/-- The product's left operand: the normalised block, narrowed to the short format. -/
abbrev lhs3 (var gamma : Vec Ideal S1x128 .f32) (h : Vec Ideal S5000x128 .f32) (mean beta : Vec Ideal S1x128 .f32) : FVec Ideal S5000x128 .bf16 :=
  truncf .bf16
    (addf
      (mulf
        (mulf (broadcastTo S5000x128 (shapeCast S1x128 gamma shapeCasts_S1x128_S1x128) broadcasts_S1x128_S5000x128)
          (subf (shapeCast S5000x128 h shapeCasts_S5000x128_S5000x128)
            (broadcastTo S5000x128 (shapeCast S1x128 mean shapeCasts_S1x128_S1x128) broadcasts_S1x128_S5000x128)))
        (broadcastTo S5000x128
          (rsqrt (addf (shapeCast S1x128 var shapeCasts_S1x128_S1x128) (broadcast S1x128 (Scalar.ofBits .f32 0x3727C5AC#32))))
          broadcasts_S1x128_S5000x128))
      (broadcastTo S5000x128 (shapeCast S1x128 beta shapeCasts_S1x128_S1x128) broadcasts_S1x128_S5000x128))
    bitsLt_bf16_f32

/-- The product's right operand: the weights, narrowed to the short format. -/
abbrev rhs3 (w : Vec Ideal S128x256 .f32) : FVec Ideal S128x256 .bf16 :=
  truncf .bf16 (shapeCast S128x256 w shapeCasts_S128x256_S128x256) bitsLt_bf16_f32

/-- The left operand at row `p`, column `k` is the normalised activation there. -/
theorem lhs3_apply (var gamma : Vec Ideal S1x128 .f32) (h : Vec Ideal S5000x128 .f32) (mean beta : Vec Ideal S1x128 .f32)
    (p : Fin 5000) (k : Fin 128) : lhs3 var gamma h mean beta (ix2 p k) = normed3 var gamma h mean beta p k := by
  unfold normed3
  simp only [lhs3, truncf_apply, addf_apply, mulf_apply, subf_apply, laneSpread3, rsqrtLane3, broadcast_apply,
    shapeCast_self] <;> rfl

/-- The right operand at row `k`, column `r` is the weight there. -/
theorem rhs3_apply (w : Vec Ideal S128x256 .f32) (k : Fin 128) (r : Fin 256) : rhs3 w (ix2 k r) = w (ix2 k r) := by
  simp only [rhs3, truncf_apply, shapeCast_self]

/-! ## The product's two operand indices

It contracts the left operand's columns against the right operand's rows: at result row `p`, result column `r` and
contracted position `k`, the left operand is read at (`p`, `k`) and the right one at (`k`, `r`). -/

theorem lhsRow3 (j : S5000x256.Idx) (k : dot_S5000x128_S128x256_S5000x256_1_0_0_1_n_n.contr.Idx) :
    (dot_S5000x128_S128x256_S5000x256_1_0_0_1_n_n.lhsIdx j k 0).val = (j 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

theorem lhsContracted3 (j : S5000x256.Idx) (k : dot_S5000x128_S128x256_S5000x256_1_0_0_1_n_n.contr.Idx) :
    (dot_S5000x128_S128x256_S5000x256_1_0_0_1_n_n.lhsIdx j k 1).val = (k ⟨0, by decide⟩).val :=
  DotDims.lhsIdx_val_of_single (d := dot_S5000x128_S128x256_S5000x256_1_0_0_1_n_n) (cl := 1) rfl j k

theorem rhsContracted3 (j : S5000x256.Idx) (k : dot_S5000x128_S128x256_S5000x256_1_0_0_1_n_n.contr.Idx) :
    (dot_S5000x128_S128x256_S5000x256_1_0_0_1_n_n.rhsIdx j k 0).val = (k ⟨0, by decide⟩).val :=
  DotDims.rhsIdx_val_of_single (d := dot_S5000x128_S128x256_S5000x256_1_0_0_1_n_n) (cr := 0) rfl j k

theorem rhsColumn3 (j : S5000x256.Idx) (k : dot_S5000x128_S128x256_S5000x256_1_0_0_1_n_n.contr.Idx) :
    (dot_S5000x128_S128x256_S5000x256_1_0_0_1_n_n.rhsIdx j k 1).val = (j 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-! ## The product and the two stored values at an element -/

/-- The product at row `p`, column `r`: the sum over the 128 contracted columns of the normalised activation
    times the weight. -/
theorem product3_apply (var gamma : Vec Ideal S1x128 .f32) (h : Vec Ideal S5000x128 .f32) (mean beta : Vec Ideal S1x128 .f32)
    (w : Vec Ideal S128x256 .f32) (p : Fin 5000) (r : Fin 256) :
    k3_pay2 var gamma h mean beta w (ix2 p r) = ∑ k : Fin 128, normed3 var gamma h mean beta p k * w (ix2 k r) := by
  show FloatOps.matmul dot_S5000x128_S128x256_S5000x256_1_0_0_1_n_n none (lhs3 var gamma h mean beta) (rhs3 w)
    (constant S5000x256 .f32 0x00000000#32) (ix2 p r) = _
  refine (Ideal.matmul_constant_zero_apply dot_S5000x128_S128x256_S5000x256_1_0_0_1_n_n none _ _ (ix2 p r)).trans ?_
  refine (Equiv.sum_comp (contrEquiv1 dot_S5000x128_S128x256_S5000x256_1_0_0_1_n_n 128 rfl rfl).symm _).symm.trans ?_
  refine Finset.sum_congr rfl fun k _ => ?_
  have hl : dot_S5000x128_S128x256_S5000x256_1_0_0_1_n_n.lhsIdx (ix2 p r)
      ((contrEquiv1 dot_S5000x128_S128x256_S5000x256_1_0_0_1_n_n 128 rfl rfl).symm k) = ix2 p k :=
    funext fun a => Fin.ext (by
      match a with
      | ⟨0, _⟩ => exact lhsRow3 _ _
      | ⟨1, _⟩ => exact (lhsContracted3 _ _).trans (contrEquiv1_symm_val dot_S5000x128_S128x256_S5000x256_1_0_0_1_n_n 128 rfl rfl k))
  have hr : dot_S5000x128_S128x256_S5000x256_1_0_0_1_n_n.rhsIdx (ix2 p r)
      ((contrEquiv1 dot_S5000x128_S128x256_S5000x256_1_0_0_1_n_n 128 rfl rfl).symm k) = ix2 k r :=
    funext fun a => Fin.ext (by
      match a with
      | ⟨0, _⟩ => exact (rhsContracted3 _ _).trans (contrEquiv1_symm_val dot_S5000x128_S128x256_S5000x256_1_0_0_1_n_n 128 rfl rfl k)
      | ⟨1, _⟩ => exact rhsColumn3 _ _)
  exact congrArg₂ (· * ·)
    ((congrArg (lhs3 var gamma h mean beta) hl).trans (lhs3_apply var gamma h mean beta p k))
    ((congrArg (rhs3 w) hr).trans (rhs3_apply w k r))

/-- What is stored in the first output at row `p`, column `q`: the product's left half there, times the row's
    inverse degree. -/
theorem scaled3_apply (var gamma : Vec Ideal S1x128 .f32) (h : Vec Ideal S5000x128 .f32) (mean beta : Vec Ideal S1x128 .f32)
    (w : Vec Ideal S128x256 .f32) (dinv : Vec Ideal S5000x1 .f32) (p : Fin 5000) (q : Fin 128) :
    k3_pay4 var gamma h mean beta w dinv (ix2 p q)
      = (∑ k : Fin 128, normed3 var gamma h mean beta p k * w (ix2 k (leftCol3 q))) * dinv (ix2 p 0) := by
  show extractStridedSlice S5000x128 ![0, 0] (k3_pay2 var gamma h mean beta w) slices_S5000x256_o0_0_S5000x128 (ix2 p q)
      * broadcastTo S5000x128 (shapeCast S5000x1 dinv shapeCasts_S5000x1_S5000x1) broadcasts_S5000x1_S5000x128 (ix2 p q) = _
  refine congrArg₂ (· * ·) ((leftHalf3 _ p q).trans (product3_apply var gamma h mean beta w p (leftCol3 q))) ?_
  refine (columnSpread3 _ p q).trans ?_
  exact congrFun (shapeCast_self dinv shapeCasts_S5000x1_S5000x1) (ix2 p 0)

/-- What is stored in the second output at row `p`, column `q`: the product's right half there plus the bias,
    or zero if that is negative. -/
theorem clamped3_apply (var gamma : Vec Ideal S1x128 .f32) (h : Vec Ideal S5000x128 .f32) (mean beta : Vec Ideal S1x128 .f32)
    (w : Vec Ideal S128x256 .f32) (bias : Vec Ideal S1x128 .f32) (p : Fin 5000) (q : Fin 128) :
    k3_pay1 (k3_pay3 var gamma h mean beta w bias) (Scalar.ofBits .f32 0x00000000#32) (ix2 p q)
      = max ((∑ k : Fin 128, normed3 var gamma h mean beta p k * w (ix2 k (rightCol3 q))) + bias (ix2 0 q)) 0 := by
  show max (extractStridedSlice S5000x128 ![0, 128] (k3_pay2 var gamma h mean beta w) slices_S5000x256_o0_128_S5000x128 (ix2 p q)
      + broadcastTo S5000x128 (shapeCast S1x128 bias shapeCasts_S1x128_S1x128) broadcasts_S1x128_S5000x128 (ix2 p q))
      (Ideal.ofBits .f32 0x00000000#32) = _
  refine congrArg₂ max (congrArg₂ (· + ·) ((rightHalf3 _ p q).trans (product3_apply var gamma h mean beta w p (rightCol3 q))) ?_)
    Ideal.ofBits_zero_f32
  refine (laneSpread3 _ p q).trans ?_
  exact congrFun (shapeCast_self bias shapeCasts_S1x128_S1x128) (ix2 0 q)

end Cert.KernelIdeal.Hand
-- ==== Proof.KI.V3.lean ====
import proofs.«417336_j40785009443359_3_alg».proof.Proof.KI.F3
import proofs.«417336_j40785009443359_3_alg».proof.Proof.KI.V3Pay
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
variable (V : (c : Dev nD) → (b : Ref sig .tc) → Buf (Elt Ideal) ((c : Thread nD τ).loc b))

/-! # The normalise-and-multiply region on the extended reals: its two output arrays as functions of the input arrays

Over the twenty points the region writes every 5000-row block of its two 100000 × 128 outputs exactly once. Each row
of the first is the normalised activations' row times the left weight matrix, scaled by the row's inverse degree;
each row of the second is the normalised row times the right weight matrix plus the bias, clamped below at zero. -/

/-! ## The specification, element by element -/

/-- The normalised activations at row `p`, column `q`: scale × (activation − mean) × 1/√(variance + ε) + shift, with
    ε the single-precision constant nearest 10⁻⁵, associated ((scale · (h − mean)) · 1/√(var + ε)) + shift. -/
def G3_xnAt (h : S100000x128.Idx → EReal) (mean var gamma beta : S1x128.Idx → EReal) (p : Fin 100000) (q : Fin 128) : EReal :=
  gamma (ix2 (0 : Fin 1) q) * (h (ix2 p q) - mean (ix2 (0 : Fin 1) q)) * Ideal.rsqrt (var (ix2 (0 : Fin 1) q) + Ideal.ofBits .f32 0x3727C5AC#32) + beta (ix2 (0 : Fin 1) q)

/-- The normalised activations as an array. -/
def G3_xn (h : S100000x128.Idx → EReal) (mean var gamma beta : S1x128.Idx → EReal) : S100000x128.Idx → EReal :=
  fun i => G3_xnAt h mean var gamma beta (i 0) (i 1)

/-- The first output at row `p`, column `q`: the normalised row `p` against column `q` of the weights' left half,
    times the row's inverse degree. -/
def G3_8At (h : S100000x128.Idx → EReal) (mean var gamma beta : S1x128.Idx → EReal) (wc : S128x256.Idx → EReal)
    (dv : S100000x1.Idx → EReal) (p : Fin 100000) (q : Fin 128) : EReal :=
  (∑ k : Fin 128, G3_xn h mean var gamma beta (ix2 p k) * wc (ix2 k (leftCol3 q))) * dv (ix2 p (0 : Fin 1))

/-- The first output as an array. -/
def G3_8 (h : S100000x128.Idx → EReal) (mean var gamma beta : S1x128.Idx → EReal) (wc : S128x256.Idx → EReal)
    (dv : S100000x1.Idx → EReal) : S100000x128.Idx → EReal :=
  fun i => G3_8At h mean var gamma beta wc dv (i 0) (i 1)

/-- The second output at row `p`, column `q`: the normalised row `p` against column `128 + q` of the weights, plus
    the bias at `q`, or zero if that is negative. -/
def G3_9At (h : S100000x128.Idx → EReal) (mean var gamma beta : S1x128.Idx → EReal) (wc : S128x256.Idx → EReal)
    (rb : S1x128.Idx → EReal) (p : Fin 100000) (q : Fin 128) : EReal :=
  max ((∑ k : Fin 128, G3_xn h mean var gamma beta (ix2 p k) * wc (ix2 k (rightCol3 q))) + rb (ix2 (0 : Fin 1) q)) 0

/-- The second output as an array. -/
def G3_9 (h : S100000x128.Idx → EReal) (mean var gamma beta : S1x128.Idx → EReal) (wc : S128x256.Idx → EReal)
    (rb : S1x128.Idx → EReal) : S100000x128.Idx → EReal :=
  fun i => G3_9At h mean var gamma beta wc rb (i 0) (i 1)

/-! ## The specification at row `p`, column `q` -/

theorem G3_xn_apply (h : S100000x128.Idx → EReal) (mean var gamma beta : S1x128.Idx → EReal) (p : Fin 100000) (q : Fin 128) :
    G3_xn h mean var gamma beta (ix2 p q)
      = gamma (ix2 (0 : Fin 1) q) * (h (ix2 p q) - mean (ix2 (0 : Fin 1) q))
          * Ideal.rsqrt (var (ix2 (0 : Fin 1) q) + Ideal.ofBits .f32 0x3727C5AC#32) + beta (ix2 (0 : Fin 1) q) := rfl

theorem G3_8_apply (h : S100000x128.Idx → EReal) (mean var gamma beta : S1x128.Idx → EReal) (wc : S128x256.Idx → EReal)
    (dv : S100000x1.Idx → EReal) (p : Fin 100000) (q : Fin 128) :
    G3_8 h mean var gamma beta wc dv (ix2 p q)
      = (∑ k : Fin 128, G3_xn h mean var gamma beta (ix2 p k) * wc (ix2 k (⟨q.val, by omega⟩ : Fin 256))) * dv (ix2 p (0 : Fin 1)) := rfl

theorem G3_9_apply (h : S100000x128.Idx → EReal) (mean var gamma beta : S1x128.Idx → EReal) (wc : S128x256.Idx → EReal)
    (rb : S1x128.Idx → EReal) (p : Fin 100000) (q : Fin 128) :
    G3_9 h mean var gamma beta wc rb (ix2 p q)
      = max ((∑ k : Fin 128, G3_xn h mean var gamma beta (ix2 p k) * wc (ix2 k (⟨128 + q.val, by omega⟩ : Fin 256))) + rb (ix2 (0 : Fin 1) q)) 0 := rfl

/-! ## From a block's elements to the arrays' elements, over plain functions

Whatever the blocks are, if each element the body reads of a block is the named element of an array, then what the
body stores at row `p`, column `q` of the block is the specification at row `P`, column `q` of the array. -/

theorem normed3_congr (var gamma : Vec Ideal S1x128 .f32) (h : Vec Ideal S5000x128 .f32) (mean beta : Vec Ideal S1x128 .f32)
    (H : S100000x128.Idx → EReal) (Mean Var Gamma Beta : S1x128.Idx → EReal) (p : Fin 5000) (P : Fin 100000) (k : Fin 128)
    (h0 : h (ix2 p k) = H (ix2 P k)) (h1 : mean (ix2 (0 : Fin 1) k) = Mean (ix2 (0 : Fin 1) k))
    (h2 : var (ix2 (0 : Fin 1) k) = Var (ix2 (0 : Fin 1) k)) (h3 : gamma (ix2 (0 : Fin 1) k) = Gamma (ix2 (0 : Fin 1) k))
    (h4 : beta (ix2 (0 : Fin 1) k) = Beta (ix2 (0 : Fin 1) k)) :
    normed3 var gamma h mean beta p k = G3_xn H Mean Var Gamma Beta (ix2 P k) := by
  show gamma (ix2 (0 : Fin 1) k) * (h (ix2 p k) - mean (ix2 (0 : Fin 1) k))
      * Ideal.rsqrt (var (ix2 (0 : Fin 1) k) + Ideal.ofBits .f32 0x3727C5AC#32) + beta (ix2 (0 : Fin 1) k)
    = Gamma (ix2 (0 : Fin 1) k) * (H (ix2 P k) - Mean (ix2 (0 : Fin 1) k))
      * Ideal.rsqrt (Var (ix2 (0 : Fin 1) k) + Ideal.ofBits .f32 0x3727C5AC#32) + Beta (ix2 (0 : Fin 1) k)
  rw [h0, h1, h2, h3, h4]

theorem scaled3_blk (var gamma : Vec Ideal S1x128 .f32) (h : Vec Ideal S5000x128 .f32) (mean beta : Vec Ideal S1x128 .f32)
    (w : Vec Ideal S128x256 .f32) (dinv : Vec Ideal S5000x1 .f32)
    (H : S100000x128.Idx → EReal) (Mean Var Gamma Beta : S1x128.Idx → EReal) (Wc : S128x256.Idx → EReal) (Dv : S100000x1.Idx → EReal)
    (p : Fin 5000) (P : Fin 100000) (q : Fin 128)
    (h0 : ∀ k : Fin 128, h (ix2 p k) = H (ix2 P k)) (h1 : ∀ k : Fin 128, mean (ix2 (0 : Fin 1) k) = Mean (ix2 (0 : Fin 1) k))
    (h2 : ∀ k : Fin 128, var (ix2 (0 : Fin 1) k) = Var (ix2 (0 : Fin 1) k))
    (h3 : ∀ k : Fin 128, gamma (ix2 (0 : Fin 1) k) = Gamma (ix2 (0 : Fin 1) k))
    (h4 : ∀ k : Fin 128, beta (ix2 (0 : Fin 1) k) = Beta (ix2 (0 : Fin 1) k))
    (h5 : ∀ (k : Fin 128) (r : Fin 256), w (ix2 k r) = Wc (ix2 k r))
    (h7 : dinv (ix2 p (0 : Fin 1)) = Dv (ix2 P (0 : Fin 1))) :
    k3_pay4 var gamma h mean beta w dinv (ix2 p q) = G3_8 H Mean Var Gamma Beta Wc Dv (ix2 P q) := by
  refine (scaled3_apply var gamma h mean beta w dinv p q).trans ?_
  show _ = (∑ k : Fin 128, G3_xn H Mean Var Gamma Beta (ix2 P k) * Wc (ix2 k (leftCol3 q))) * Dv (ix2 P (0 : Fin 1))
  exact congrArg₂ (· * ·)
    (Finset.sum_congr rfl fun k _ => congrArg₂ (· * ·)
      (normed3_congr var gamma h mean beta H Mean Var Gamma Beta p P k (h0 k) (h1 k) (h2 k) (h3 k) (h4 k)) (h5 k (leftCol3 q)))
    h7

theorem clamped3_blk (var gamma : Vec Ideal S1x128 .f32) (h : Vec Ideal S5000x128 .f32) (mean beta : Vec Ideal S1x128 .f32)
    (w : Vec Ideal S128x256 .f32) (bias : Vec Ideal S1x128 .f32)
    (H : S100000x128.Idx → EReal) (Mean Var Gamma Beta : S1x128.Idx → EReal) (Wc : S128x256.Idx → EReal) (Rb : S1x128.Idx → EReal)
    (p : Fin 5000) (P : Fin 100000) (q : Fin 128)
    (h0 : ∀ k : Fin 128, h (ix2 p k) = H (ix2 P k)) (h1 : ∀ k : Fin 128, mean (ix2 (0 : Fin 1) k) = Mean (ix2 (0 : Fin 1) k))
    (h2 : ∀ k : Fin 128, var (ix2 (0 : Fin 1) k) = Var (ix2 (0 : Fin 1) k))
    (h3 : ∀ k : Fin 128, gamma (ix2 (0 : Fin 1) k) = Gamma (ix2 (0 : Fin 1) k))
    (h4 : ∀ k : Fin 128, beta (ix2 (0 : Fin 1) k) = Beta (ix2 (0 : Fin 1) k))
    (h5 : ∀ (k : Fin 128) (r : Fin 256), w (ix2 k r) = Wc (ix2 k r))
    (h6 : bias (ix2 (0 : Fin 1) q) = Rb (ix2 (0 : Fin 1) q)) :
    k3_pay1 (k3_pay3 var gamma h mean beta w bias) (Scalar.ofBits .f32 0x00000000#32) (ix2 p q)
      = G3_9 H Mean Var Gamma Beta Wc Rb (ix2 P q) := by
  refine (clamped3_apply var gamma h mean beta w bias p q).trans ?_
  show _ = max ((∑ k : Fin 128, G3_xn H Mean Var Gamma Beta (ix2 P k) * Wc (ix2 k (rightCol3 q))) + Rb (ix2 (0 : Fin 1) q)) 0
  exact congrArg₂ max
    (congrArg₂ (· + ·)
      (Finset.sum_congr rfl fun k _ => congrArg₂ (· * ·)
        (normed3_congr var gamma h mean beta H Mean Var Gamma Beta p P k (h0 k) (h1 k) (h2 k) (h3 k) (h4 k)) (h5 k (rightCol3 q)))
      h6)
    rfl

/-! ## The index maps over the grid -/

/-- The four windows that move with the point are at block row `t`, block column 0. -/
theorem idx3_moving : ∀ t : Fin cfg3.N,
    win3_0.index t (0 : Fin 2) = t.val ∧ win3_0.index t (1 : Fin 2) = 0
    ∧ win3_7.index t (0 : Fin 2) = t.val ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0 :=
  (by decide +kernel : ∀ t : Fin grid3.N, _)

/-- The six windows that are held stay at block (0, 0). -/
theorem idx3_held : ∀ t : Fin cfg3.N,
    win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- There are twenty points, -/
theorem point3_lt : ∀ t : Fin cfg3.N, t.val < 20 :=
  (by decide +kernel : ∀ t : Fin grid3.N, t.val < 20)

/-- one for each of the twenty blocks of rows. -/
theorem point3_onto : ∀ b : Fin 20, ∃ t : Fin cfg3.N, t.val = b.val :=
  (by decide +kernel : ∀ b : Fin 20, ∃ t : Fin grid3.N, t.val = b.val)

/-- Row `p` of point `t`'s block is row `5000 t + p` of the array. -/
def row3 (t : Fin cfg3.N) (p : Fin 5000) : Fin 100000 :=
  ⟨t.val * 5000 + p.val, by have := point3_lt t; have := p.isLt; omega⟩

/-! ## Where each window's block sits in its array -/

theorem emb3_0 (t : Fin cfg3.N) (p : Fin 5000) (k : Fin 128) :
    ((cfg3.win 0).blk t).view.emb (ix2 p k) = ix2 (row3 t p) k := by
  obtain ⟨e0, e1, -⟩ := idx3_moving t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

theorem emb3_7 (t : Fin cfg3.N) (p : Fin 5000) :
    ((cfg3.win 7).blk t).view.emb (ix2 p (0 : Fin 1)) = ix2 (row3 t p) (0 : Fin 1) := by
  obtain ⟨-, -, e0, e1, -⟩ := idx3_moving t
  funext a; apply Fin.ext
  match a with
  | ⟨0, _⟩ => show win3_7.index t (0 : Fin 2) * 5000 + 1 * p.val = t.val * 5000 + p.val; omega
  | ⟨1, _⟩ => show win3_7.index t (1 : Fin 2) * 1 + 1 * 0 = 0; omega

theorem emb3_8 (t : Fin cfg3.N) (p : Fin 5000) (q : Fin 128) :
    ((cfg3.win 8).blk t).view.emb (ix2 p q) = ix2 (row3 t p) q := by
  obtain ⟨-, -, -, -, e0, e1, -⟩ := idx3_moving t
  funext a; apply Fin.ext
  match a with
  | ⟨0, _⟩ => show win3_8.index t (0 : Fin 2) * 5000 + 1 * p.val = t.val * 5000 + p.val; omega
  | ⟨1, _⟩ => show win3_8.index t (1 : Fin 2) * 128 + 1 * q.val = q.val; omega

theorem emb3_9 (t : Fin cfg3.N) (p : Fin 5000) (q : Fin 128) :
    ((cfg3.win 9).blk t).view.emb (ix2 p q) = ix2 (row3 t p) q := by
  obtain ⟨-, -, -, -, -, -, e0, e1⟩ := idx3_moving t
  funext a; apply Fin.ext
  match a with
  | ⟨0, _⟩ => show win3_9.index t (0 : Fin 2) * 5000 + 1 * p.val = t.val * 5000 + p.val; omega
  | ⟨1, _⟩ => show win3_9.index t (1 : Fin 2) * 128 + 1 * q.val = q.val; omega

theorem emb3_1 (t : Fin cfg3.N) (k : Fin 128) :
    ((cfg3.win 1).blk t).view.emb (ix2 (0 : Fin 1) k) = ix2 (0 : Fin 1) k := by
  obtain ⟨e0, e1, -⟩ := idx3_held t
  funext a; apply Fin.ext
  match a with
  | ⟨0, _⟩ => show win3_1.index t (0 : Fin 2) * 1 + 1 * 0 = 0; omega
  | ⟨1, _⟩ => show win3_1.index t (1 : Fin 2) * 128 + 1 * k.val = k.val; omega

theorem emb3_2 (t : Fin cfg3.N) (k : Fin 128) :
    ((cfg3.win 2).blk t).view.emb (ix2 (0 : Fin 1) k) = ix2 (0 : Fin 1) k := by
  obtain ⟨-, -, e0, e1, -⟩ := idx3_held t
  funext a; apply Fin.ext
  match a with
  | ⟨0, _⟩ => show win3_2.index t (0 : Fin 2) * 1 + 1 * 0 = 0; omega
  | ⟨1, _⟩ => show win3_2.index t (1 : Fin 2) * 128 + 1 * k.val = k.val; omega

theorem emb3_3 (t : Fin cfg3.N) (k : Fin 128) :
    ((cfg3.win 3).blk t).view.emb (ix2 (0 : Fin 1) k) = ix2 (0 : Fin 1) k := by
  obtain ⟨-, -, -, -, e0, e1, -⟩ := idx3_held t
  funext a; apply Fin.ext
  match a with
  | ⟨0, _⟩ => show win3_3.index t (0 : Fin 2) * 1 + 1 * 0 = 0; omega
  | ⟨1, _⟩ => show win3_3.index t (1 : Fin 2) * 128 + 1 * k.val = k.val; omega

theorem emb3_4 (t : Fin cfg3.N) (k : Fin 128) :
    ((cfg3.win 4).blk t).view.emb (ix2 (0 : Fin 1) k) = ix2 (0 : Fin 1) k := by
  obtain ⟨-, -, -, -, -, -, e0, e1, -⟩ := idx3_held t
  funext a; apply Fin.ext
  match a with
  | ⟨0, _⟩ => show win3_4.index t (0 : Fin 2) * 1 + 1 * 0 = 0; omega
  | ⟨1, _⟩ => show win3_4.index t (1 : Fin 2) * 128 + 1 * k.val = k.val; omega

theorem emb3_6 (t : Fin cfg3.N) (k : Fin 128) :
    ((cfg3.win 6).blk t).view.emb (ix2 (0 : Fin 1) k) = ix2 (0 : Fin 1) k := by
  obtain ⟨-, -, -, -, -, -, -, -, -, -, e0, e1⟩ := idx3_held t
  funext a; apply Fin.ext
  match a with
  | ⟨0, _⟩ => show win3_6.index t (0 : Fin 2) * 1 + 1 * 0 = 0; omega
  | ⟨1, _⟩ => show win3_6.index t (1 : Fin 2) * 128 + 1 * k.val = k.val; omega

theorem emb3_5 (t : Fin cfg3.N) (k : Fin 128) (r : Fin 256) :
    ((cfg3.win 5).blk t).view.emb (ix2 k r) = ix2 k r := by
  obtain ⟨-, -, -, -, -, -, -, -, e0, e1, -⟩ := idx3_held t
  funext a; apply Fin.ext
  match a with
  | ⟨0, _⟩ => show win3_5.index t (0 : Fin 2) * 128 + 1 * k.val = k.val; omega
  | ⟨1, _⟩ => show win3_5.index t (1 : Fin 2) * 256 + 1 * r.val = r.val; omega

/-! ## The input blocks read off the arrays -/

theorem blk3_0 (c : Dev nD) (t : Fin cfg3.N) (p : Fin 5000) (k : Fin 128) :
    iblk3 V c 0 t (ix2 p k) = V c (Pipeline.arrRef spec3 0) (ix2 (row3 t p) k) :=
  congrArg (V c (Pipeline.arrRef spec3 0)) (emb3_0 t p k)

theorem blk3_1 (c : Dev nD) (t : Fin cfg3.N) (k : Fin 128) :
    iblk3 V c 1 t (ix2 (0 : Fin 1) k) = V c (Pipeline.arrRef spec3 1) (ix2 (0 : Fin 1) k) :=
  congrArg (V c (Pipeline.arrRef spec3 1)) (emb3_1 t k)

theorem blk3_2 (c : Dev nD) (t : Fin cfg3.N) (k : Fin 128) :
    iblk3 V c 2 t (ix2 (0 : Fin 1) k) = V c (Pipeline.arrRef spec3 2) (ix2 (0 : Fin 1) k) :=
  congrArg (V c (Pipeline.arrRef spec3 2)) (emb3_2 t k)

theorem blk3_3 (c : Dev nD) (t : Fin cfg3.N) (k : Fin 128) :
    iblk3 V c 3 t (ix2 (0 : Fin 1) k) = V c (Pipeline.arrRef spec3 3) (ix2 (0 : Fin 1) k) :=
  congrArg (V c (Pipeline.arrRef spec3 3)) (emb3_3 t k)

theorem blk3_4 (c : Dev nD) (t : Fin cfg3.N) (k : Fin 128) :
    iblk3 V c 4 t (ix2 (0 : Fin 1) k) = V c (Pipeline.arrRef spec3 4) (ix2 (0 : Fin 1) k) :=
  congrArg (V c (Pipeline.arrRef spec3 4)) (emb3_4 t k)

theorem blk3_6 (c : Dev nD) (t : Fin cfg3.N) (k : Fin 128) :
    iblk3 V c 6 t (ix2 (0 : Fin 1) k) = V c (Pipeline.arrRef spec3 6) (ix2 (0 : Fin 1) k) :=
  congrArg (V c (Pipeline.arrRef spec3 6)) (emb3_6 t k)

theorem blk3_5 (c : Dev nD) (t : Fin cfg3.N) (k : Fin 128) (r : Fin 256) :
    iblk3 V c 5 t (ix2 k r) = V c (Pipeline.arrRef spec3 5) (ix2 k r) :=
  congrArg (V c (Pipeline.arrRef spec3 5)) (emb3_5 t k r)

theorem blk3_7 (c : Dev nD) (t : Fin cfg3.N) (p : Fin 5000) :
    iblk3 V c 7 t (ix2 p (0 : Fin 1)) = V c (Pipeline.arrRef spec3 7) (ix2 (row3 t p) (0 : Fin 1)) :=
  congrArg (V c (Pipeline.arrRef spec3 7)) (emb3_7 t p)

/-! ## What a point writes back -/

theorem zeroOffset3 : (![0, 0] : Fin 2 → Nat) = fun _ => 0 := funext fun a => by fin_cases a <;> rfl

set_option maxHeartbeats 400000 in
/-- Point `t` writes to the first output its block of `G3_8` of the input arrays. -/
theorem flushed3_8_eq (c : Dev nD) (t : Fin cfg3.N) :
    (dat3 (F := Ideal) V c).flushed 8 t = ((cfg3.win 8).blk t).view.read (Elt Ideal) (G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 7))) := by
  show (cfg3.win 8).cut (grid3.coords t) ((dat3 (F := Ideal) V c).after 8 t) = _
  rw [after3_8]
  unfold out3_8
  rw [View.canon_unit_zero zeroOffset3]
  simp only [View.ld_unit_zero (S := S5000x128) zeroOffset3, View.ld_unit_zero (S := S1x128) zeroOffset3,
    View.ld_unit_zero (S := S128x256) zeroOffset3, View.ld_unit_zero (S := S5000x1) zeroOffset3]
  funext j
  obtain ⟨p, q, rfl⟩ : ∃ (p : Fin 5000) (q : Fin 128), j = ix2 p q := ⟨j 0, j 1, eq_ix2 j⟩
  show k3_pay4 (iblk3 V c 2 t) (iblk3 V c 3 t) (iblk3 V c 0 t) (iblk3 V c 1 t) (iblk3 V c 4 t) (iblk3 V c 5 t) (iblk3 V c 7 t) (ix2 p q)
    = G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 7)) (((cfg3.win 8).blk t).view.emb (ix2 p q))
  refine Eq.trans ?_ (congrArg (G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 7))) (emb3_8 t p q)).symm
  exact scaled3_blk (iblk3 V c 2 t) (iblk3 V c 3 t) (iblk3 V c 0 t) (iblk3 V c 1 t) (iblk3 V c 4 t) (iblk3 V c 5 t) (iblk3 V c 7 t)
    (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 7))
    p (row3 t p) q (fun k => blk3_0 V c t p k) (fun k => blk3_1 V c t k) (fun k => blk3_2 V c t k) (fun k => blk3_3 V c t k)
    (fun k => blk3_4 V c t k) (fun k r => blk3_5 V c t k r) (blk3_7 V c t p)

set_option maxHeartbeats 400000 in
/-- Point `t` writes to the second output its block of `G3_9` of the input arrays. -/
theorem flushed3_9_eq (c : Dev nD) (t : Fin cfg3.N) :
    (dat3 (F := Ideal) V c).flushed 9 t = ((cfg3.win 9).blk t).view.read (Elt Ideal) (G3_9 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 9).cut (grid3.coords t) ((dat3 (F := Ideal) V c).after 9 t) = _
  rw [after3_9]
  unfold out3_9
  rw [View.canon_unit_zero zeroOffset3]
  simp only [View.ld_unit_zero (S := S5000x128) zeroOffset3, View.ld_unit_zero (S := S1x128) zeroOffset3,
    View.ld_unit_zero (S := S128x256) zeroOffset3]
  funext j
  obtain ⟨p, q, rfl⟩ : ∃ (p : Fin 5000) (q : Fin 128), j = ix2 p q := ⟨j 0, j 1, eq_ix2 j⟩
  show k3_pay1 (k3_pay3 (iblk3 V c 2 t) (iblk3 V c 3 t) (iblk3 V c 0 t) (iblk3 V c 1 t) (iblk3 V c 4 t) (iblk3 V c 5 t) (iblk3 V c 6 t)) (Scalar.ofBits .f32 0x00000000#32) (ix2 p q)
    = G3_9 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (((cfg3.win 9).blk t).view.emb (ix2 p q))
  refine Eq.trans ?_ (congrArg (G3_9 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) (emb3_9 t p q)).symm
  exact clamped3_blk (iblk3 V c 2 t) (iblk3 V c 3 t) (iblk3 V c 0 t) (iblk3 V c 1 t) (iblk3 V c 4 t) (iblk3 V c 5 t) (iblk3 V c 6 t)
    (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))
    p (row3 t p) q (fun k => blk3_0 V c t p k) (fun k => blk3_1 V c t k) (fun k => blk3_2 V c t k) (fun k => blk3_3 V c t k)
    (fun k => blk3_4 V c t k) (fun k r => blk3_5 V c t k r) (blk3_6 V c t q)

/-! ## The blocks fill the arrays -/

theorem mem_blk3_8 (t : Fin cfg3.N) (i : S100000x128.Idx) :
    i ∈ ((cfg3.win 8).blk t).view.set ↔ ∀ a : Fin 2, win3_8.index t a * S5000x128.size a ≤ (i a).val ∧ (i a).val < win3_8.index t a * S5000x128.size a + S5000x128.size a := by
  show i ∈ ((View.whole (Pipeline.arrRef spec3 8)).slice (win3_8.rect t)).set ↔ _
  rw [View.set_slice_whole, Rect.mem_set_unit]
  exact Iff.rfl

theorem mem_blk3_9 (t : Fin cfg3.N) (i : S100000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole (Pipeline.arrRef spec3 9)).slice (win3_9.rect t)).set ↔ _
  rw [View.set_slice_whole, Rect.mem_set_unit]
  exact Iff.rfl

/-- Row `r` of the first output lies in the block of point `r / 5000`. -/
theorem covered3_8 (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  obtain ⟨t, ht⟩ := point3_onto ⟨(i 0).val / 5000, by omega⟩
  have ht' : t.val = (i 0).val / 5000 := ht
  obtain ⟨-, -, -, -, e0, e1, -⟩ := idx3_moving t
  refine ⟨t, flush3_8 t, ?_⟩
  rw [mem_blk3_8]
  intro a
  match a with
  | ⟨0, _⟩ => show win3_8.index t (0 : Fin 2) * 5000 ≤ (i 0).val ∧ (i 0).val < win3_8.index t (0 : Fin 2) * 5000 + 5000; omega
  | ⟨1, _⟩ => show win3_8.index t (1 : Fin 2) * 128 ≤ (i 1).val ∧ (i 1).val < win3_8.index t (1 : Fin 2) * 128 + 128; omega

/-- The same of the second output. -/
theorem covered3_9 (i : S100000x128.Idx) :
    ∃ t : Fin cfg3.N, (cfg3.win 9).flush t = true ∧ i ∈ ((cfg3.win 9).blk t).view.set := by
  have hi0 : (i 0).val < 100000 := (i 0).isLt
  have hi1 : (i 1).val < 128 := (i 1).isLt
  obtain ⟨t, ht⟩ := point3_onto ⟨(i 0).val / 5000, by omega⟩
  have ht' : t.val = (i 0).val / 5000 := ht
  obtain ⟨-, -, -, -, -, -, e0, e1⟩ := idx3_moving t
  refine ⟨t, flush3_9 t, ?_⟩
  rw [mem_blk3_9]
  intro a
  match a with
  | ⟨0, _⟩ => show win3_9.index t (0 : Fin 2) * 5000 ≤ (i 0).val ∧ (i 0).val < win3_9.index t (0 : Fin 2) * 5000 + 5000; omega
  | ⟨1, _⟩ => show win3_9.index t (1 : Fin 2) * 128 ≤ (i 1).val ∧ (i 1).val < win3_9.index t (1 : Fin 2) * 128 + 128; omega

/-! ## The two arrays when the region is left -/

/-- After the last point the first output holds `G3_8` of the seven arrays it depends on, as the region found them. -/
theorem final3_8 (c : Dev nD) :
    (dat3 (F := Ideal) V c).arrAt 8 cfg3.N = G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 7)) :=
  (dat3 (F := Ideal) V c).arrAt_eq_of_cover 8 (G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 7)))
    (fun t _ => flushed3_8_eq V c t) covered3_8

/-- After the last point the second output holds `G3_9` of the seven arrays it depends on. -/
theorem final3_9 (c : Dev nD) :
    (dat3 (F := Ideal) V c).arrAt 9 cfg3.N = G3_9 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (dat3 (F := Ideal) V c).arrAt_eq_of_cover 9 (G3_9 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)))
    (fun t _ => flushed3_9_eq V c t) covered3_9

end Cert.KernelIdeal.Hand
-- ==== Proof.KI.V4.lean ====
import proofs.«417336_j40785009443359_3_alg».proof.Proof.KI.F4
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
open Idealize.ShloMosaic.ValueIdx
open scoped BigOperators

/-! # The value half: what the two output arrays of the column-sum region end at, at the extended reals -/

/-! ## What each kind of point leaves, in closed form (at any float instance) -/

/-- The zero offsets of a whole-buffer access, at ranks 2 and 3. -/
theorem hz4_2 : (![0, 0] : Fin 2 → Nat) = fun _ => 0 := funext fun a => by fin_cases a <;> rfl
theorem hz4_3 : (![0, 0, 0] : Fin 3 → Nat) = fun _ => 0 := funext fun a => by fin_cases a <;> rfl

/-- Where the inner coordinate is 0, window 5 is left holding the pre-activation of the point's blocks. -/
theorem out4_A_5_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) :
    out4_A_5 c i arg2 harg2 arg3 harg3 arg4 harg4 arg5 harg5 arg6 harg6 arg7 harg7 arg8 harg8 hc0 hc1 x0 x1 x2 x3 = k4_pay2 x2 x0 x3 x1 := by
  unfold out4_A_5
  rw [View.read_writes_eq_canon _ _ _ (cover4_A_5 c i arg2 harg2 arg3 harg3 arg4 harg4 arg5 harg5 arg6 harg6 arg7 harg7 arg8 harg8 hc0 hc1 x0 x1 x2 x3)]
  unfold kernelRun4_A
  dsimp only
  try sl_unfold_words
  rw [View.canon_unit_zero (S := S5000x128) hz4_2]
  simp only [View.readAt_eq_ld, harg2.read_unread, harg3.read_unread, harg4.read_unread, harg5.read_unread, harg8.read_unread,
    View.ld_unit_zero (S := S5000x128) hz4_2, View.ld_unit_zero (S := S5000x1) hz4_2, View.ld_unit_zero (S := S1x128) hz4_2,
    View.ld_unit_zero (S := S1x1x128) hz4_3, View.readCov_unit_zero (S := S1x1x128) _ hz4_3]

/-- Where the inner coordinate is strictly between 0 and 9, window 5 is left holding the pre-activation of the point's blocks. -/
theorem out4_B_5_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) :
    out4_B_5 c i arg2 harg2 arg3 harg3 arg4 harg4 arg5 harg5 arg6 harg6 arg7 harg7 arg8 harg8 hc0 hc1 x0 x1 x2 x3 xs0 = k4_pay2 x2 x0 x3 x1 := by
  unfold out4_B_5
  rw [View.read_writes_eq_canon _ _ _ (cover4_B_5 c i arg2 harg2 arg3 harg3 arg4 harg4 arg5 harg5 arg6 harg6 arg7 harg7 arg8 harg8 hc0 hc1 x0 x1 x2 x3 xs0)]
  unfold kernelRun4_B
  dsimp only
  try sl_unfold_words
  rw [View.canon_unit_zero (S := S5000x128) hz4_2]
  simp only [View.readAt_eq_ld, harg2.read_unread, harg3.read_unread, harg4.read_unread, harg5.read_unread, harg8.read_unread,
    View.ld_unit_zero (S := S5000x128) hz4_2, View.ld_unit_zero (S := S5000x1) hz4_2, View.ld_unit_zero (S := S1x128) hz4_2,
    View.ld_unit_zero (S := S1x1x128) hz4_3, View.readCov_unit_zero (S := S1x1x128) _ hz4_3]

/-- Where the inner coordinate is 9, window 5 is left holding the pre-activation of the point's blocks. -/
theorem out4_C_5_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) :
    out4_C_5 c i arg2 harg2 arg3 harg3 arg4 harg4 arg5 harg5 arg6 harg6 arg7 harg7 arg8 harg8 hc0 hc1 x0 x1 x2 x3 xs0 = k4_pay2 x2 x0 x3 x1 := by
  unfold out4_C_5
  rw [View.read_writes_eq_canon _ _ _ (cover4_C_5 c i arg2 harg2 arg3 harg3 arg4 harg4 arg5 harg5 arg6 harg6 arg7 harg7 arg8 harg8 hc0 hc1 x0 x1 x2 x3 xs0)]
  unfold kernelRun4_C
  dsimp only
  try sl_unfold_words
  rw [View.canon_unit_zero (S := S5000x128) hz4_2]
  simp only [View.readAt_eq_ld, harg2.read_unread, harg3.read_unread, harg4.read_unread, harg5.read_unread, harg8.read_unread,
    View.ld_unit_zero (S := S5000x128) hz4_2, View.ld_unit_zero (S := S5000x1) hz4_2, View.ld_unit_zero (S := S1x128) hz4_2,
    View.ld_unit_zero (S := S1x1x128) hz4_3, View.readCov_unit_zero (S := S1x1x128) _ hz4_3]

/-- Where the inner coordinate is 0 the accumulator is left holding the zero row plus the block's column sums: the later of its two whole-row stores wins, and it read the zero row the earlier one had just stored. -/
theorem sout4_A_0_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond4_0 i) (hc1 : ¬cond4_1 i)
    (x0 : Vec F S5000x128 .f32) (x1 : Vec F S5000x128 .f32) (x2 : Vec F S5000x1 .f32) (x3 : Vec F S1x128 .f32) :
    sout4_A_0 c i arg2 harg2 arg3 harg3 arg4 harg4 arg5 harg5 arg6 harg6 arg7 harg7 arg8 harg8 hc0 hc1 x0 x1 x2 x3 = k4_pay3 x2 x0 x3 x1 (k4_pay1 (F := F)) := by
  unfold sout4_A_0
  rw [View.read_writes_eq_canon _ _ _ (scover4_A_0 c i arg2 harg2 arg3 harg3 arg4 harg4 arg5 harg5 arg6 harg6 arg7 harg7 arg8 harg8 hc0 hc1 x0 x1 x2 x3)]
  unfold kernelRun4_A
  dsimp only
  try sl_unfold_words
  rw [View.canon_cons_unit_zero (S := S1x1x128) hz4_3]
  simp only [View.readAt_eq_ld, harg2.read_unread, harg3.read_unread, harg4.read_unread, harg5.read_unread, harg8.read_unread,
    View.ld_unit_zero (S := S5000x128) hz4_2, View.ld_unit_zero (S := S5000x1) hz4_2, View.ld_unit_zero (S := S1x128) hz4_2,
    View.ld_unit_zero (S := S1x1x128) hz4_3, View.readCov_unit_zero (S := S1x1x128) _ hz4_3]

/-- Where the inner coordinate is strictly between 0 and 9 the accumulator is left holding what it held plus the block's column sums. -/
theorem sout4_B_0_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : ¬cond4_1 i)
    (x0 : Vec F S5000x128 .f32) (x1 : Vec F S5000x128 .f32) (x2 : Vec F S5000x1 .f32) (x3 : Vec F S1x128 .f32) (xs0 : Vec F S1x1x128 .f32) :
    sout4_B_0 c i arg2 harg2 arg3 harg3 arg4 harg4 arg5 harg5 arg6 harg6 arg7 harg7 arg8 harg8 hc0 hc1 x0 x1 x2 x3 xs0 = k4_pay3 x2 x0 x3 x1 xs0 := by
  unfold sout4_B_0
  rw [View.read_writes_eq_canon _ _ _ (scover4_B_0 c i arg2 harg2 arg3 harg3 arg4 harg4 arg5 harg5 arg6 harg6 arg7 harg7 arg8 harg8 hc0 hc1 x0 x1 x2 x3 xs0)]
  unfold kernelRun4_B
  dsimp only
  try sl_unfold_words
  rw [View.canon_unit_zero (S := S1x1x128) hz4_3]
  simp only [View.readAt_eq_ld, harg2.read_unread, harg3.read_unread, harg4.read_unread, harg5.read_unread, harg8.read_unread,
    View.ld_unit_zero (S := S5000x128) hz4_2, View.ld_unit_zero (S := S5000x1) hz4_2, View.ld_unit_zero (S := S1x128) hz4_2,
    View.ld_unit_zero (S := S1x1x128) hz4_3, View.readCov_unit_zero (S := S1x1x128) _ hz4_3]

/-- Where the inner coordinate is 9 likewise; -/
theorem sout4_C_0_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) :
    sout4_C_0 c i arg2 harg2 arg3 harg3 arg4 harg4 arg5 harg5 arg6 harg6 arg7 harg7 arg8 harg8 hc0 hc1 x0 x1 x2 x3 xs0 = k4_pay3 x2 x0 x3 x1 xs0 := by
  unfold sout4_C_0
  rw [View.read_writes_eq_canon _ _ _ (scover4_C_0 c i arg2 harg2 arg3 harg3 arg4 harg4 arg5 harg5 arg6 harg6 arg7 harg7 arg8 harg8 hc0 hc1 x0 x1 x2 x3 xs0)]
  unfold kernelRun4_C
  dsimp only
  try sl_unfold_words
  rw [View.canon_unit_zero (S := S1x1x128) hz4_3]
  simp only [View.readAt_eq_ld, harg2.read_unread, harg3.read_unread, harg4.read_unread, harg5.read_unread, harg8.read_unread,
    View.ld_unit_zero (S := S5000x128) hz4_2, View.ld_unit_zero (S := S5000x1) hz4_2, View.ld_unit_zero (S := S1x128) hz4_2,
    View.ld_unit_zero (S := S1x1x128) hz4_3, View.readCov_unit_zero (S := S1x1x128) _ hz4_3]

/-- and window 4 is left holding that same row: the body copies the accumulator it has just updated. -/
theorem out4_C_4_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond4_0 i) (hc1 : cond4_1 i)
    (x0 : Vec F S5000x128 .f32) (x1 : Vec F S5000x128 .f32) (x2 : Vec F S5000x1 .f32) (x3 : Vec F S1x128 .f32) (xs0 : Vec F S1x1x128 .f32) :
    out4_C_4 c i arg2 harg2 arg3 harg3 arg4 harg4 arg5 harg5 arg6 harg6 arg7 harg7 arg8 harg8 hc0 hc1 x0 x1 x2 x3 xs0 = k4_pay3 x2 x0 x3 x1 xs0 := by
  unfold out4_C_4
  rw [View.read_writes_eq_canon _ _ _ (cover4_C_4 c i arg2 harg2 arg3 harg3 arg4 harg4 arg5 harg5 arg6 harg6 arg7 harg7 arg8 harg8 hc0 hc1 x0 x1 x2 x3 xs0)]
  unfold kernelRun4_C
  dsimp only
  try sl_unfold_words
  rw [View.canon_unit_zero (S := S1x1x128) hz4_3]
  simp only [View.readAt_eq_ld, harg2.read_unread, harg3.read_unread, harg4.read_unread, harg5.read_unread, harg8.read_unread,
    View.ld_unit_zero (S := S5000x128) hz4_2, View.ld_unit_zero (S := S5000x1) hz4_2, View.ld_unit_zero (S := S1x128) hz4_2,
    View.ld_unit_zero (S := S1x1x128) hz4_3, View.readCov_unit_zero (S := S1x1x128) _ hz4_3]

/-! ## The payloads at an index, at the extended reals -/

section AtIdeal

/-- The pre-activation of a block at row `r`, column `q`: the row's scale times the aggregate, plus the column's bias,
    plus the residual (in this association). -/
theorem pay4_2_apply (x2 : S5000x1.Idx → EReal) (x0 : S5000x128.Idx → EReal) (x3 : S1x128.Idx → EReal) (x1 : S5000x128.Idx → EReal)
    (r : Fin 5000) (q : Fin 128) :
    k4_pay2 (F := Ideal) x2 x0 x3 x1 (ix2 r q) = x2 (ix2 r (0 : Fin 1)) * x0 (ix2 r q) + x3 (ix2 (0 : Fin 1) q) + x1 (ix2 r q) := by
  unfold k4_pay2
  have e2 : broadcastTo S5000x128 (shapeCast S5000x1 x2 shapeCasts_S5000x1_S5000x1) broadcasts_S5000x1_S5000x128 (ix2 r q) = x2 (ix2 r (0 : Fin 1)) :=
    (broadcastTo_apply _ broadcasts_S5000x1_S5000x128 (ix2 r q) (ix2 r (0 : Fin 1)) (fun a => by
      match a with
      | ⟨0, _⟩ => rfl
      | ⟨1, _⟩ => rfl)).trans (congrFun (shapeCast_self x2 shapeCasts_S5000x1_S5000x1) _)
  have e3 : broadcastTo S5000x128 (shapeCast S1x128 x3 shapeCasts_S1x128_S1x128) broadcasts_S1x128_S5000x128 (ix2 r q) = x3 (ix2 (0 : Fin 1) q) :=
    (broadcastTo_apply _ broadcasts_S1x128_S5000x128 (ix2 r q) (ix2 (0 : Fin 1) q) (fun a => by
      match a with
      | ⟨0, _⟩ => rfl
      | ⟨1, _⟩ => rfl)).trans (congrFun (shapeCast_self x3 shapeCasts_S1x128_S1x128) _)
  have e0 : shapeCast S5000x128 x0 shapeCasts_S5000x128_S5000x128 (ix2 r q) = x0 (ix2 r q) := congrFun (shapeCast_self x0 _) _
  have e1 : shapeCast S5000x128 x1 shapeCasts_S5000x128_S5000x128 (ix2 r q) = x1 (ix2 r q) := congrFun (shapeCast_self x1 _) _
  show broadcastTo S5000x128 (shapeCast S5000x1 x2 shapeCasts_S5000x1_S5000x1) broadcasts_S5000x1_S5000x128 (ix2 r q)
        * shapeCast S5000x128 x0 shapeCasts_S5000x128_S5000x128 (ix2 r q)
      + broadcastTo S5000x128 (shapeCast S1x128 x3 shapeCasts_S1x128_S1x128) broadcasts_S1x128_S5000x128 (ix2 r q)
      + shapeCast S5000x128 x1 shapeCasts_S5000x128_S5000x128 (ix2 r q) = _
  rw [e2, e3, e0, e1]

/-- The row the first conditional stores is zero. -/
theorem pay4_1_apply (q : Fin 128) : (k4_pay1 (F := Ideal)) (ix3 (0 : Fin 1) (0 : Fin 1) q) = 0 := by
  unfold k4_pay1
  show (Ideal.ofBits .f32 0x00000000#32 : EReal) = 0
  exact Ideal.ofBits_zero_f32

/-- A sum over the 5000 rows of a block, column `q`: the lane reduction over axis 0 read at the extended reals. -/
theorem laneSum4 (y : S5000x128.Idx → EReal) (hφ : FKind.Formats .f32) (hacc : (0x00000000#32 : BitVec 32) = FKind.add.neutral .f32 hφ) (q : Fin 128) :
    multiReduction (F := Ideal) (φ := .f32) .add [0] S128 y 0x00000000#32 reduces_S5000x128_S128 hφ hacc (ix1 q) = ∑ r : Fin 5000, y (ix2 r q) := by
  refine (Ideal.multiReduction_add_single y 0x00000000#32 reduces_S5000x128_S128 hφ hacc (ix1 q)).trans ?_
  show ∑ r : Fin 5000, y (reduces_S5000x128_S128.lift (ix1 q) r) = ∑ r : Fin 5000, y (ix2 r q)
  refine Finset.sum_congr rfl fun r _ => congrArg y (funext fun a => Fin.ext ?_)
  match a with
  | ⟨0, _⟩ => rfl
  | ⟨1, _⟩ => rfl

/-- The accumulator's update at column `q`: what it held there plus the block's column sum. -/
theorem pay4_3_apply (x2 : S5000x1.Idx → EReal) (x0 : S5000x128.Idx → EReal) (x3 : S1x128.Idx → EReal) (x1 : S5000x128.Idx → EReal)
    (xs : S1x1x128.Idx → EReal) (q : Fin 128) :
    k4_pay3 (F := Ideal) x2 x0 x3 x1 xs (ix3 (0 : Fin 1) (0 : Fin 1) q)
      = xs (ix3 (0 : Fin 1) (0 : Fin 1) q) + ∑ r : Fin 5000, k4_pay2 (F := Ideal) x2 x0 x3 x1 (ix2 r q) := by
  unfold k4_pay3
  refine (shapeCast_apply _ shapeCasts_S1x128_S1x1x128 (ix3 (0 : Fin 1) (0 : Fin 1) q) (ix2 (0 : Fin 1) q) (by
    rw [Shape.rowMajor_val_two, Shape.rowMajor_val_three]
    show 0 * 128 + q.val = (0 * 1 + 0) * 128 + q.val
    omega)).trans ?_
  have ea : shapeCast S1x128 xs shapeCasts_S1x1x128_S1x128 (ix2 (0 : Fin 1) q) = xs (ix3 (0 : Fin 1) (0 : Fin 1) q) :=
    shapeCast_apply xs shapeCasts_S1x1x128_S1x128 (ix2 (0 : Fin 1) q) (ix3 (0 : Fin 1) (0 : Fin 1) q) (by
      rw [Shape.rowMajor_val_two, Shape.rowMajor_val_three]
      show (0 * 1 + 0) * 128 + q.val = 0 * 128 + q.val
      omega)
  have eb : shapeCast S1x128 (multiReduction (F := Ideal) (φ := .f32) .add [0] S128 (k4_pay2 (F := Ideal) x2 x0 x3 x1) 0x00000000#32 reduces_S5000x128_S128 (.inl rfl) rfl)
        shapeCasts_S128_S1x128 (ix2 (0 : Fin 1) q)
      = ∑ r : Fin 5000, k4_pay2 (F := Ideal) x2 x0 x3 x1 (ix2 r q) :=
    (shapeCast_apply _ shapeCasts_S128_S1x128 (ix2 (0 : Fin 1) q) (ix1 q) (by
      rw [Shape.rowMajor_val_two, Shape.rowMajor_val_one]
      show q.val = 0 * 128 + q.val
      omega)).trans (laneSum4 _ _ _ q)
  exact congrArg₂ (· + ·) ea eb

end AtIdeal

/-! ## The functions the two output arrays end at -/

/-- The pre-activation, index by index: row `p`'s scale times the aggregate, plus column `q`'s bias, plus the residual. -/
def G4_5 (agg res : S100000x128.Idx → EReal) (dv : S100000x1.Idx → EReal) (bs : S1x128.Idx → EReal) : S100000x128.Idx → EReal :=
  fun i => dv (ix2 (i 0 : Fin 100000) (0 : Fin 1)) * agg (ix2 (i 0 : Fin 100000) (i 1 : Fin 128))
    + bs (ix2 (0 : Fin 1) (i 1 : Fin 128)) + res (ix2 (i 0 : Fin 100000) (i 1 : Fin 128))

theorem G4_5_apply (agg res : S100000x128.Idx → EReal) (dv : S100000x1.Idx → EReal) (bs : S1x128.Idx → EReal) (p : Fin 100000) (q : Fin 128) :
    G4_5 agg res dv bs (ix2 p q) = dv (ix2 p (0 : Fin 1)) * agg (ix2 p q) + bs (ix2 (0 : Fin 1) q) + res (ix2 p q) := rfl

/-- Column `q`'s sum of the pre-activation over the 50000 rows of half `s`: ten blocks of 5000 rows. -/
def colSum4 (agg res : S100000x128.Idx → EReal) (dv : S100000x1.Idx → EReal) (bs : S1x128.Idx → EReal) (s : Fin 2) (q : Fin 128) : EReal :=
  ∑ j : Fin 10, ∑ r : Fin 5000, G4_5 agg res dv bs (ix2 (⟨(s.val * 10 + j.val) * 5000 + r.val, by omega⟩ : Fin 100000) q)

/-- The column sums, one row per half. -/
def G4_4 (agg res : S100000x128.Idx → EReal) (dv : S100000x1.Idx → EReal) (bs : S1x128.Idx → EReal) : S2x1x128.Idx → EReal :=
  fun i => colSum4 agg res dv bs (i 0 : Fin 2) (i 2 : Fin 128)

theorem G4_4_apply (agg res : S100000x128.Idx → EReal) (dv : S100000x1.Idx → EReal) (bs : S1x128.Idx → EReal) (s : Fin 2) (q : Fin 128) :
    G4_4 agg res dv bs (ix3 s (0 : Fin 1) q)
      = ∑ j : Fin 10, ∑ r : Fin 5000, G4_5 agg res dv bs (ix2 (⟨(s.val * 10 + j.val) * 5000 + r.val, by omega⟩ : Fin 100000) q) := rfl

/-! ## The input arrays and their blocks, at their literal types -/

variable (V : (c : Dev nD) → (b : Ref sig .tc) → Buf (Elt Ideal) ((c : Thread nD τ).loc b))

/-- The four input arrays as the region finds them. -/
abbrev arrIn4_0 (c : Dev nD) : S100000x128.Idx → EReal := V c (Pipeline.arrRef spec4 0)
abbrev arrIn4_1 (c : Dev nD) : S100000x128.Idx → EReal := V c (Pipeline.arrRef spec4 1)
abbrev arrIn4_2 (c : Dev nD) : S100000x1.Idx → EReal := V c (Pipeline.arrRef spec4 2)
abbrev arrIn4_3 (c : Dev nD) : S1x128.Idx → EReal := V c (Pipeline.arrRef spec4 3)
/-- Their blocks at point `t`. -/
abbrev blk4_0 (c : Dev nD) (t : Fin cfg4.N) : S5000x128.Idx → EReal := iblk4 V c 0 t
abbrev blk4_1 (c : Dev nD) (t : Fin cfg4.N) : S5000x128.Idx → EReal := iblk4 V c 1 t
abbrev blk4_2 (c : Dev nD) (t : Fin cfg4.N) : S5000x1.Idx → EReal := iblk4 V c 2 t
abbrev blk4_3 (c : Dev nD) (t : Fin cfg4.N) : S1x128.Idx → EReal := iblk4 V c 3 t

/-- The index maps over the grid: point `t` takes row block `t` of the three big inputs and of window 5, the one block of
    the bias, and row `t / 10` of window 4. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 3) = t.val / 10 ∧ win4_4.index t (1 : Fin 3) = 0 ∧ win4_4.index t (2 : Fin 3) = 0
    ∧ win4_5.index t (0 : Fin 2) = t.val ∧ win4_5.index t (1 : Fin 2) = 0 :=
  (by decide +kernel : ∀ t : Fin grid4.N, _)

/-- Block `t` of a big input, at row `r` and column `q`, is the array at row `5000 t + r`. -/
theorem blk4_0_apply (c : Dev nD) (t : Fin cfg4.N) (r : Fin 5000) (q : Fin 128) :
    blk4_0 V c t (ix2 r q) = arrIn4_0 V c (ix2 (⟨t.val * 5000 + r.val, by have := lt_of_lt_of_eq t.isLt (show cfg4.N = 20 from N_4); omega⟩ : Fin 100000) q) := by
  obtain ⟨e00, e01, -⟩ := idx_facts4 t
  show arrIn4_0 V c (((cfg4.win 0).blk t).view.emb (ix2 r q)) = _
  refine congrArg (arrIn4_0 V c) (funext fun a => Fin.ext ?_)
  match a with
  | ⟨0, _⟩ => show win4_0.index t (0 : Fin 2) * 5000 + 1 * r.val = t.val * 5000 + r.val; omega
  | ⟨1, _⟩ => show win4_0.index t (1 : Fin 2) * 128 + 1 * q.val = q.val; omega

theorem blk4_1_apply (c : Dev nD) (t : Fin cfg4.N) (r : Fin 5000) (q : Fin 128) :
    blk4_1 V c t (ix2 r q) = arrIn4_1 V c (ix2 (⟨t.val * 5000 + r.val, by have := lt_of_lt_of_eq t.isLt (show cfg4.N = 20 from N_4); omega⟩ : Fin 100000) q) := by
  obtain ⟨-, -, e10, e11, -⟩ := idx_facts4 t
  show arrIn4_1 V c (((cfg4.win 1).blk t).view.emb (ix2 r q)) = _
  refine congrArg (arrIn4_1 V c) (funext fun a => Fin.ext ?_)
  match a with
  | ⟨0, _⟩ => show win4_1.index t (0 : Fin 2) * 5000 + 1 * r.val = t.val * 5000 + r.val; omega
  | ⟨1, _⟩ => show win4_1.index t (1 : Fin 2) * 128 + 1 * q.val = q.val; omega

/-- The scale column likewise; -/
theorem blk4_2_apply (c : Dev nD) (t : Fin cfg4.N) (r : Fin 5000) :
    blk4_2 V c t (ix2 r (0 : Fin 1)) = arrIn4_2 V c (ix2 (⟨t.val * 5000 + r.val, by have := lt_of_lt_of_eq t.isLt (show cfg4.N = 20 from N_4); omega⟩ : Fin 100000) (0 : Fin 1)) := by
  obtain ⟨-, -, -, -, e20, e21, -⟩ := idx_facts4 t
  show arrIn4_2 V c (((cfg4.win 2).blk t).view.emb (ix2 r (0 : Fin 1))) = _
  refine congrArg (arrIn4_2 V c) (funext fun a => Fin.ext ?_)
  match a with
  | ⟨0, _⟩ => show win4_2.index t (0 : Fin 2) * 5000 + 1 * r.val = t.val * 5000 + r.val; omega
  | ⟨1, _⟩ => show win4_2.index t (1 : Fin 2) * 1 + 1 * (0 : Fin 1).val = (0 : Fin 1).val; omega

/-- and the bias row is its one block at every point. -/
theorem blk4_3_apply (c : Dev nD) (t : Fin cfg4.N) (q : Fin 128) :
    blk4_3 V c t (ix2 (0 : Fin 1) q) = arrIn4_3 V c (ix2 (0 : Fin 1) q) := by
  obtain ⟨-, -, -, -, -, -, e30, e31, -⟩ := idx_facts4 t
  show arrIn4_3 V c (((cfg4.win 3).blk t).view.emb (ix2 (0 : Fin 1) q)) = _
  refine congrArg (arrIn4_3 V c) (funext fun a => Fin.ext ?_)
  match a with
  | ⟨0, _⟩ => show win4_3.index t (0 : Fin 2) * 1 + 1 * (0 : Fin 1).val = (0 : Fin 1).val; omega
  | ⟨1, _⟩ => show win4_3.index t (1 : Fin 2) * 128 + 1 * q.val = q.val; omega

/-- So the pre-activation of point `t`'s blocks at row `r`, column `q` is the array function at row `5000 t + r`. -/
theorem pay4_2_blk (c : Dev nD) (t : Fin cfg4.N) (r : Fin 5000) (q : Fin 128) :
    k4_pay2 (F := Ideal) (blk4_2 V c t) (blk4_0 V c t) (blk4_3 V c t) (blk4_1 V c t) (ix2 r q)
      = G4_5 (arrIn4_0 V c) (arrIn4_1 V c) (arrIn4_2 V c) (arrIn4_3 V c) (ix2 (⟨t.val * 5000 + r.val, by have := lt_of_lt_of_eq t.isLt (show cfg4.N = 20 from N_4); omega⟩ : Fin 100000) q) := by
  refine (pay4_2_apply (blk4_2 V c t) (blk4_0 V c t) (blk4_3 V c t) (blk4_1 V c t) r q).trans ?_
  rw [blk4_0_apply V c t r q, blk4_1_apply V c t r q, blk4_2_apply V c t r, blk4_3_apply V c t q]
  exact (G4_5_apply (arrIn4_0 V c) (arrIn4_1 V c) (arrIn4_2 V c) (arrIn4_3 V c) _ q).symm

/-! ## Window 5: every point writes its block of the pre-activation -/

/-- What any point leaves in window 5's buffer: the pre-activation of its blocks. -/
theorem out4_5_at (c : Dev nD) (t : Fin cfg4.N) :
    (outsAt4 V c t.val t.isLt).2.1 = k4_pay2 (F := Ideal) (blk4_2 V c t) (blk4_0 V c t) (blk4_3 V c t) (blk4_1 V c t) := by
  have hN : t.val < 20 := lt_of_lt_of_eq t.isLt (show cfg4.N = 20 from N_4)
  by_cases h0 : t.val % 10 = 0
  · by_cases h1 : t.val % 10 = 9
    · exfalso; omega
    · rw [outsAt4_A V c t h0 h1]; dsimp only
      exact out4_A_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t)
  · by_cases h1 : t.val % 10 = 9
    · rw [outsAt4_C V c t h0 h1]; dsimp only
      exact out4_C_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2
    · rw [outsAt4_B V c t h0 h1]; dsimp only
      exact out4_B_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2

/-- What point `t` writes back to window 5 is block `t` of the pre-activation of the arrays. -/
theorem flushed4_5_eq (c : Dev nD) (t : Fin cfg4.N) :
    (dat4 V c).flushed 5 t = ((cfg4.win 5).blk t).view.read (Elt Ideal) (G4_5 (arrIn4_0 V c) (arrIn4_1 V c) (arrIn4_2 V c) (arrIn4_3 V c)) := by
  have hN : t.val < 20 := lt_of_lt_of_eq t.isLt (show cfg4.N = 20 from N_4)
  obtain ⟨e00, e01, e10, e11, e20, e21, e30, e31, e40, e41, e42, e50, e51⟩ := idx_facts4 t
  show (cfg4.win 5).cut (grid4.coords t) ((dat4 V c).after 5 t) = _
  rw [after4_5, out4_5_at V c t]
  funext y
  obtain ⟨r, q, rfl⟩ : ∃ (r : Fin 5000) (q : Fin 128), y = ix2 r q := ⟨y 0, y 1, eq_ix2 y⟩
  show k4_pay2 (F := Ideal) (blk4_2 V c t) (blk4_0 V c t) (blk4_3 V c t) (blk4_1 V c t) (ix2 r q) = G4_5 (arrIn4_0 V c) (arrIn4_1 V c) (arrIn4_2 V c) (arrIn4_3 V c) (((cfg4.win 5).blk t).view.emb (ix2 r q))
  have hemb : ((cfg4.win 5).blk t).view.emb (ix2 r q) = ix2 (⟨t.val * 5000 + r.val, by omega⟩ : Fin 100000) q := by
    funext a; apply Fin.ext
    match a with
    | ⟨0, _⟩ => show win4_5.index t (0 : Fin 2) * 5000 + 1 * r.val = t.val * 5000 + r.val; omega
    | ⟨1, _⟩ => show win4_5.index t (1 : Fin 2) * 128 + 1 * q.val = q.val; omega
  rw [hemb]
  exact pay4_2_blk V c t r q

/-- An index of window 5's array is in point `t`'s block iff each coordinate is in the block's range on its axis. -/
theorem mem_blk4_5 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole (Pipeline.arrRef spec4 5)).slice (win4_5.rect t)).set ↔ _
  rw [View.set_slice_whole, Rect.mem_set_unit]
  exact Iff.rfl

/-- Row `p` of window 5's array is in the block of point `p / 5000`, which writes it back. -/
theorem covered4_5 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨e00, e01, e10, e11, e20, e21, e30, e31, e40, e41, e42, e50, e51⟩ := idx_facts4 t
  refine ⟨t, flush4_5 t, ?_⟩
  rw [mem_blk4_5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- THE PRE-ACTIVATION ARRAY after the region: every row was written by the point whose block holds it. -/
theorem final4_5 (c : Dev nD) :
    (dat4 (F := Ideal) V c).arrAt 5 cfg4.N = G4_5 (V c (Pipeline.arrRef spec4 0)) (V c (Pipeline.arrRef spec4 1)) (V c (Pipeline.arrRef spec4 2)) (V c (Pipeline.arrRef spec4 3)) :=
  (dat4 V c).arrAt_eq_of_cover 5 (G4_5 (arrIn4_0 V c) (arrIn4_1 V c) (arrIn4_2 V c) (arrIn4_3 V c)) (fun t _ => flushed4_5_eq V c t) (fun i => covered4_5 i)

/-! ## Window 4: the accumulator over a row of ten points, written back at the tenth -/

/-- Column `q`'s sum over the 5000 rows of block `n` of the pre-activation (zero beyond the grid's twenty blocks). -/
def bsum4 (c : Dev nD) (n : ℕ) (q : Fin 128) : EReal :=
  if h : n < 20 then ∑ r : Fin 5000, G4_5 (arrIn4_0 V c) (arrIn4_1 V c) (arrIn4_2 V c) (arrIn4_3 V c) (ix2 (⟨n * 5000 + r.val, by omega⟩ : Fin 100000) q) else 0

/-- The column sum of point `t`'s blocks is block `t`'s. -/
theorem blockSum4 (c : Dev nD) (t : Fin cfg4.N) (q : Fin 128) :
    ∑ r : Fin 5000, k4_pay2 (F := Ideal) (blk4_2 V c t) (blk4_0 V c t) (blk4_3 V c t) (blk4_1 V c t) (ix2 r q) = bsum4 V c t.val q := by
  have hN : t.val < 20 := lt_of_lt_of_eq t.isLt (show cfg4.N = 20 from N_4)
  unfold bsum4
  rw [dif_pos hN]
  exact Finset.sum_congr rfl fun r _ => pay4_2_blk V c t r q

/-- Where the inner coordinate is 0 the accumulator restarts: zero plus the block's column sum. -/
theorem acc4_first (c : Dev nD) (t : Fin cfg4.N) (h0 : t.val % 10 = 0) (q : Fin 128) :
    (outsAt4 V c t.val t.isLt).2.2 (ix3 (0 : Fin 1) (0 : Fin 1) q) = bsum4 V c t.val q := by
  have h1 : ¬t.val % 10 = 9 := by omega
  rw [outsAt4_A V c t h0 h1]; dsimp only
  refine (congrFun (sout4_A_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t)) (ix3 (0 : Fin 1) (0 : Fin 1) q)).trans ?_
  refine (pay4_3_apply (blk4_2 V c t) (blk4_0 V c t) (blk4_3 V c t) (blk4_1 V c t) (k4_pay1 (F := Ideal)) q).trans ?_
  rw [pay4_1_apply q, zero_add]
  exact blockSum4 V c t q

/-- Elsewhere it adds the block's column sum to what the position before left. -/
theorem acc4_next (c : Dev nD) (t : Fin cfg4.N) (h0 : ¬t.val % 10 = 0) (q : Fin 128) :
    (outsAt4 V c t.val t.isLt).2.2 (ix3 (0 : Fin 1) (0 : Fin 1) q) = (outsAt4 V c (t.val - 1) (Nat.lt_of_le_of_lt (Nat.sub_le _ _) t.isLt)).2.2 (ix3 (0 : Fin 1) (0 : Fin 1) q) + bsum4 V c t.val q := by
  by_cases h1 : t.val % 10 = 9
  · rw [outsAt4_C V c t h0 h1]; dsimp only
    refine (congrFun (sout4_C_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2) (ix3 (0 : Fin 1) (0 : Fin 1) q)).trans ?_
    refine (pay4_3_apply (blk4_2 V c t) (blk4_0 V c t) (blk4_3 V c t) (blk4_1 V c t) (outsAt4 V c (t.val - 1) (Nat.lt_of_le_of_lt (Nat.sub_le _ _) t.isLt)).2.2 q).trans ?_
    rw [blockSum4 V c t q]
  · rw [outsAt4_B V c t h0 h1]; dsimp only
    refine (congrFun (sout4_B_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2) (ix3 (0 : Fin 1) (0 : Fin 1) q)).trans ?_
    refine (pay4_3_apply (blk4_2 V c t) (blk4_0 V c t) (blk4_3 V c t) (blk4_1 V c t) (outsAt4 V c (t.val - 1) (Nat.lt_of_le_of_lt (Nat.sub_le _ _) t.isLt)).2.2 q).trans ?_
    rw [blockSum4 V c t q]

/-- THE ACCUMULATOR after position `n`: the column sums of the blocks of its row of ten, from the row's first up to `n`. -/
theorem acc4_eq (c : Dev nD) : ∀ (n : ℕ) (hn : n < cfg4.N) (q : Fin 128),
    (outsAt4 V c n hn).2.2 (ix3 (0 : Fin 1) (0 : Fin 1) q) = ∑ j ∈ Finset.range (n % 10 + 1), bsum4 V c (n / 10 * 10 + j) q := by
  intro n
  induction n with
  | zero =>
    intro hn q
    refine (acc4_first V c ⟨0, hn⟩ rfl q).trans ?_
    show bsum4 V c 0 q = ∑ j ∈ Finset.range 1, bsum4 V c (0 + j) q
    rw [Finset.sum_range_one]
  | succ n ih =>
    intro hn q
    have hN : n + 1 < 20 := lt_of_lt_of_eq hn (show cfg4.N = 20 from N_4)
    by_cases h0 : (n + 1) % 10 = 0
    · refine (acc4_first V c ⟨n + 1, hn⟩ h0 q).trans ?_
      show bsum4 V c (n + 1) q = _
      have e1 : (n + 1) % 10 + 1 = 1 := by omega
      have e2 : (n + 1) / 10 * 10 + 0 = n + 1 := by omega
      rw [e1, Finset.sum_range_one, e2]
    · refine (acc4_next V c ⟨n + 1, hn⟩ h0 q).trans ?_
      show (outsAt4 V c n (Nat.lt_of_succ_lt hn)).2.2 (ix3 (0 : Fin 1) (0 : Fin 1) q) + bsum4 V c (n + 1) q = _
      rw [ih (Nat.lt_of_succ_lt hn) q]
      have e1 : (n + 1) % 10 + 1 = (n % 10 + 1) + 1 := by omega
      have e2 : (n + 1) / 10 = n / 10 := by omega
      have e3 : n / 10 * 10 + (n % 10 + 1) = n + 1 := by omega
      rw [e1, e2, Finset.sum_range_succ (fun j => bsum4 V c (n / 10 * 10 + j) q) (n % 10 + 1), e3]

/-- What the tenth point of a row writes back to window 4 is that half's row of column sums. -/
theorem flushed4_4_eq (c : Dev nD) (t : Fin cfg4.N) (hf : (cfg4.win 4).flush t = true) :
    (dat4 V c).flushed 4 t = ((cfg4.win 4).blk t).view.read (Elt Ideal) (G4_4 (arrIn4_0 V c) (arrIn4_1 V c) (arrIn4_2 V c) (arrIn4_3 V c)) := by
  have hN : t.val < 20 := lt_of_lt_of_eq t.isLt (show cfg4.N = 20 from N_4)
  have h1 : t.val % 10 = 9 := (flush4_4 t).mp hf
  have h0 : ¬t.val % 10 = 0 := by omega
  obtain ⟨e00, e01, e10, e11, e20, e21, e30, e31, e40, e41, e42, e50, e51⟩ := idx_facts4 t
  show (cfg4.win 4).cut (grid4.coords t) ((dat4 V c).after 4 t) = _
  rw [after4_4]
  have hrow : (outsAt4 V c t.val t.isLt).1 = (outsAt4 V c t.val t.isLt).2.2 := by
    rw [outsAt4_C V c t h0 h1]; dsimp only
    exact (out4_C_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2).trans
      (sout4_C_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2).symm
  rw [hrow]
  funext y
  obtain ⟨a0, a1, q, rfl⟩ : ∃ (a0 : Fin 1) (a1 : Fin 1) (q : Fin 128), y = ix3 a0 a1 q := ⟨y 0, y 1, y 2, eq_ix3 y⟩
  obtain rfl : a0 = 0 := Subsingleton.elim _ _
  obtain rfl : a1 = 0 := Subsingleton.elim _ _
  show (outsAt4 V c t.val t.isLt).2.2 (ix3 (0 : Fin 1) (0 : Fin 1) q) = G4_4 (arrIn4_0 V c) (arrIn4_1 V c) (arrIn4_2 V c) (arrIn4_3 V c) (((cfg4.win 4).blk t).view.emb (ix3 (0 : Fin 1) (0 : Fin 1) q))
  have hemb : ((cfg4.win 4).blk t).view.emb (ix3 (0 : Fin 1) (0 : Fin 1) q) = ix3 (⟨t.val / 10, by omega⟩ : Fin 2) (0 : Fin 1) q := by
    funext a; apply Fin.ext
    match a with
    | ⟨0, _⟩ => show win4_4.index t (0 : Fin 3) * 1 + 1 * 0 = t.val / 10; omega
    | ⟨1, _⟩ => show win4_4.index t (1 : Fin 3) * 1 + 1 * 0 = 0; omega
    | ⟨2, _⟩ => show win4_4.index t (2 : Fin 3) * 128 + 1 * q.val = q.val; omega
  rw [hemb, acc4_eq V c t.val t.isLt q, G4_4_apply]
  have e9 : t.val % 10 + 1 = 10 := by omega
  rw [e9, Finset.sum_range]
  refine Finset.sum_congr rfl fun j _ => ?_
  exact (dif_pos (show t.val / 10 * 10 + j.val < 20 by omega)).trans rfl

/-- An index of window 4's array is in point `t`'s block iff each coordinate is in the block's range on its axis. -/
theorem mem_blk4_4 (t : Fin cfg4.N) (i : S2x1x128.Idx) :
    i ∈ ((cfg4.win 4).blk t).view.set ↔ ∀ a : Fin 3, win4_4.index t a * S1x1x128.size a ≤ (i a).val ∧ (i a).val < win4_4.index t a * S1x1x128.size a + S1x1x128.size a := by
  show i ∈ ((View.whole (Pipeline.arrRef spec4 4)).slice (win4_4.rect t)).set ↔ _
  rw [View.set_slice_whole, Rect.mem_set_unit]
  exact Iff.rfl

/-- Row `s` of window 4's array is the block of the tenth point of half `s`, which writes it back. -/
theorem covered4_4 (i : S2x1x128.Idx) : ∃ t : Fin cfg4.N, (cfg4.win 4).flush t = true ∧ i ∈ ((cfg4.win 4).blk t).view.set := by
  have hi0 : (i 0).val < 2 := (i 0).isLt
  have hi1 : (i 1).val < 1 := (i 1).isLt
  have hi2 : (i 2).val < 128 := (i 2).isLt
  have hN : cfg4.N = 20 := N_4
  obtain ⟨t, ht⟩ : ∃ t : Fin cfg4.N, t.val = (i 0).val * 10 + 9 := ⟨⟨(i 0).val * 10 + 9, by rw [hN]; omega⟩, rfl⟩
  obtain ⟨e00, e01, e10, e11, e20, e21, e30, e31, e40, e41, e42, e50, e51⟩ := idx_facts4 t
  refine ⟨t, (flush4_4 t).mpr (by omega), ?_⟩
  rw [mem_blk4_4]
  intro a
  match a with
  | ⟨0, _⟩ => show win4_4.index t (0 : Fin 3) * 1 ≤ (i 0).val ∧ (i 0).val < win4_4.index t (0 : Fin 3) * 1 + 1; omega
  | ⟨1, _⟩ => show win4_4.index t (1 : Fin 3) * 1 ≤ (i 1).val ∧ (i 1).val < win4_4.index t (1 : Fin 3) * 1 + 1; omega
  | ⟨2, _⟩ => show win4_4.index t (2 : Fin 3) * 128 ≤ (i 2).val ∧ (i 2).val < win4_4.index t (2 : Fin 3) * 128 + 128; omega

/-- THE COLUMN-SUM ARRAY after the region: row `s` is what the tenth point of half `s` wrote. -/
theorem final4_4 (c : Dev nD) :
    (dat4 (F := Ideal) V c).arrAt 4 cfg4.N = G4_4 (V c (Pipeline.arrRef spec4 0)) (V c (Pipeline.arrRef spec4 1)) (V c (Pipeline.arrRef spec4 2)) (V c (Pipeline.arrRef spec4 3)) :=
  (dat4 V c).arrAt_eq_of_cover 4 (G4_4 (arrIn4_0 V c) (arrIn4_1 V c) (arrIn4_2 V c) (arrIn4_3 V c)) (fun t hf => flushed4_4_eq V c t hf) (fun i => covered4_4 i)

end Cert.KernelIdeal.Hand

end
-- ==== Proof.KI.V5.lean ====
import proofs.«417336_j40785009443359_3_alg».proof.Proof.KI.F5
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The sum-of-squares region: its value at the extended reals

At inner coordinate 0 the accumulator is zeroed; every point adds, column by column, the squares of its 5000 rows
minus the mean row; the point of inner coordinate 9 copies the accumulator out. So row s of the result holds, per
column, the sum over the 50000 rows of half s of the squared distance to the mean. -/

/-! ## What each case's found pieces are: the printed payloads of the point's blocks -/

section Pieces
variable {F : FTy → Type} [FloatOps F]

theorem offs5_zero3 : (![0, 0, 0] : Fin 3 → Nat) = fun _ => 0 := funext fun a => by fin_cases a <;> rfl
theorem offs5_zero2 : (![0, 0] : Fin 2 → Nat) = fun _ => 0 := funext fun a => by fin_cases a <;> rfl

/-- At inner coordinate 0 the accumulator ends at the sum's payload over the zeroing payload. -/
theorem sout5_A_0_eq (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond5_0 i) (hc1 : ¬cond5_1 i)
    (x0 : Vec F S5000x128 .f32) (x1 : Vec F S1x128 .f32) :
    sout5_A_0 c i arg2 harg2 arg3 harg3 arg4 harg4 arg5 harg5 hc0 hc1 x0 x1 = k5_pay2 x0 x1 (k5_pay1 (F := F)) := by
  unfold sout5_A_0
  rw [View.read_writes_eq_canon _ _ _ (scover5_A_0 c i arg2 harg2 arg3 harg3 arg4 harg4 arg5 harg5 hc0 hc1 x0 x1)]
  unfold kernelRun5_A
  dsimp only
  try sl_unfold_words
  rw [View.canon_cons_unit_zero (S := S1x1x128) offs5_zero3]
  simp only [View.readAt_eq_ld, harg2.read_unread, harg3.read_unread, harg5.read_unread, View.ld_unit_zero (S := S5000x128) offs5_zero2, View.ld_unit_zero (S := S1x128) offs5_zero2, View.ld_unit_zero (S := S1x1x128) offs5_zero3, View.readCov_unit_zero (S := S1x1x128) _ offs5_zero3]

/-- At inner coordinates 1 to 8 the accumulator ends at the sum's payload over what it held. -/
theorem sout5_B_0_eq (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : ¬cond5_1 i)
    (x0 : Vec F S5000x128 .f32) (x1 : Vec F S1x128 .f32) (xs0 : Vec F S1x1x128 .f32) :
    sout5_B_0 c i arg2 harg2 arg3 harg3 arg4 harg4 arg5 harg5 hc0 hc1 x0 x1 xs0 = k5_pay2 x0 x1 xs0 := by
  unfold sout5_B_0
  rw [View.read_writes_eq_canon _ _ _ (scover5_B_0 c i arg2 harg2 arg3 harg3 arg4 harg4 arg5 harg5 hc0 hc1 x0 x1 xs0)]
  unfold kernelRun5_B
  dsimp only
  try sl_unfold_words
  rw [View.canon_unit_zero offs5_zero3]
  simp only [View.readAt_eq_ld, harg2.read_unread, harg3.read_unread, harg5.read_unread, View.ld_unit_zero (S := S5000x128) offs5_zero2, View.ld_unit_zero (S := S1x128) offs5_zero2, View.ld_unit_zero (S := S1x1x128) offs5_zero3, View.readCov_unit_zero (S := S1x1x128) _ offs5_zero3]

/-- At inner coordinate 9 likewise, -/
theorem sout5_C_0_eq (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) :
    sout5_C_0 c i arg2 harg2 arg3 harg3 arg4 harg4 arg5 harg5 hc0 hc1 x0 x1 xs0 = k5_pay2 x0 x1 xs0 := by
  unfold sout5_C_0
  rw [View.read_writes_eq_canon _ _ _ (scover5_C_0 c i arg2 harg2 arg3 harg3 arg4 harg4 arg5 harg5 hc0 hc1 x0 x1 xs0)]
  unfold kernelRun5_C
  dsimp only
  try sl_unfold_words
  rw [View.canon_unit_zero offs5_zero3]
  simp only [View.readAt_eq_ld, harg2.read_unread, harg3.read_unread, harg5.read_unread, View.ld_unit_zero (S := S5000x128) offs5_zero2, View.ld_unit_zero (S := S1x128) offs5_zero2, View.ld_unit_zero (S := S1x1x128) offs5_zero3, View.readCov_unit_zero (S := S1x1x128) _ offs5_zero3]

/-- and the output window's buffer ends at the same contents: the accumulator copied out. -/
theorem out5_C_2_eq (c : Dev nD) (i : grid5.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond5_0 i) (hc1 : cond5_1 i)
    (x0 : Vec F S5000x128 .f32) (x1 : Vec F S1x128 .f32) (xs0 : Vec F S1x1x128 .f32) :
    out5_C_2 c i arg2 harg2 arg3 harg3 arg4 harg4 arg5 harg5 hc0 hc1 x0 x1 xs0 = k5_pay2 x0 x1 xs0 := by
  unfold out5_C_2
  rw [View.read_writes_eq_canon _ _ _ (cover5_C_2 c i arg2 harg2 arg3 harg3 arg4 harg4 arg5 harg5 hc0 hc1 x0 x1 xs0)]
  unfold kernelRun5_C
  dsimp only
  try sl_unfold_words
  rw [View.canon_unit_zero offs5_zero3, View.readCov_unit_zero (S := S1x1x128) _ offs5_zero3]
  simp only [View.readAt_eq_ld, harg2.read_unread, harg3.read_unread, harg5.read_unread, View.ld_unit_zero (S := S5000x128) offs5_zero2, View.ld_unit_zero (S := S1x128) offs5_zero2, View.ld_unit_zero (S := S1x1x128) offs5_zero3, View.readCov_unit_zero (S := S1x1x128) _ offs5_zero3]

end Pieces

/-! ## The payloads at an index, at the extended reals -/

/-- The zeroing payload is zero at every index. -/
theorem k5_pay1_apply (y : S1x1x128.Idx) : k5_pay1 (F := Ideal) y = 0 := by
  unfold k5_pay1
  refine (congrFun (shapeCast_self _ _) y).trans ?_
  exact Ideal.ofBits_zero_f32

/-- The sum's payload, spelled as one term. -/
theorem k5_pay2_eq (v3 : S5000x128.Idx → EReal) (v5 : S1x128.Idx → EReal) (v9 : S1x1x128.Idx → EReal) :
    k5_pay2 (F := Ideal) v3 v5 v9
      = shapeCast S1x1x128 (addf (shapeCast S1x128 v9 shapeCasts_S1x1x128_S1x128)
          (shapeCast S1x128 (multiReduction (F := Ideal) .add [0] S128
            (mulf (subf (shapeCast S5000x128 v3 shapeCasts_S5000x128_S5000x128) (broadcastTo S5000x128 (shapeCast S1x128 v5 shapeCasts_S1x128_S1x128) broadcasts_S1x128_S5000x128))
                  (subf (shapeCast S5000x128 v3 shapeCasts_S5000x128_S5000x128) (broadcastTo S5000x128 (shapeCast S1x128 v5 shapeCasts_S1x128_S1x128) broadcasts_S1x128_S5000x128)))
            0x00000000#32 reduces_S5000x128_S128 (.inl rfl) rfl) shapeCasts_S128_S1x128)) shapeCasts_S1x128_S1x1x128 := rfl

/-- Row r, column q of the 5000-row block is what the column's reduction meets at its r-th step. -/
theorem lift5_rows (q : Fin 128) (r : Fin 5000) :
    (reduces_S5000x128_S128 : S5000x128.Reduces [0] S128).lift (ix1 q) r = ix2 r q := by
  funext a; apply Fin.ext
  fin_cases a <;> rfl

/-- The sum's payload at column q: what the accumulator held there plus the column's sum, over the block's 5000
    rows, of the squared distance to the mean row. -/
theorem k5_pay2_apply (x0 : S5000x128.Idx → EReal) (x1 : S1x128.Idx → EReal) (xs : S1x1x128.Idx → EReal) (q : Fin 128) :
    k5_pay2 (F := Ideal) x0 x1 xs (ix3 (0 : Fin 1) (0 : Fin 1) q)
      = xs (ix3 (0 : Fin 1) (0 : Fin 1) q) + ∑ r : Fin 5000, (x0 (ix2 r q) - x1 (ix2 (0 : Fin 1) q)) * (x0 (ix2 r q) - x1 (ix2 (0 : Fin 1) q)) := by
  rw [k5_pay2_eq]
  refine (shapeCast_ab_1ab_apply _ _ (0 : Fin 1) (0 : Fin 1) q).trans ?_
  refine congrArg₂ (· + ·) (shapeCast_1ab_ab_apply xs _ (0 : Fin 1) q) ?_
  refine (shapeCast_a_1a_apply _ _ (0 : Fin 1) q).trans ?_
  refine (Ideal.multiReduction_add_single _ _ _ _ _ (ix1 q)).trans ?_
  refine Finset.sum_congr rfl fun r _ => ?_
  have e4 : shapeCast S5000x128 x0 shapeCasts_S5000x128_S5000x128 (ix2 r q) = x0 (ix2 r q) := congrFun (shapeCast_self x0 _) _
  have e7 : broadcastTo S5000x128 (shapeCast S1x128 x1 shapeCasts_S1x128_S1x128) broadcasts_S1x128_S5000x128 (ix2 r q) = x1 (ix2 (0 : Fin 1) q) :=
    (broadcastTo_1b_ab_apply _ _ r q).trans (congrFun (shapeCast_self x1 _) _)
  have hsub : subf (F := Ideal) (φ := .f32) (shapeCast S5000x128 x0 shapeCasts_S5000x128_S5000x128) (broadcastTo S5000x128 (shapeCast S1x128 x1 shapeCasts_S1x128_S1x128) broadcasts_S1x128_S5000x128)
      ((reduces_S5000x128_S128 : S5000x128.Reduces [0] S128).lift (ix1 q) r) = x0 (ix2 r q) - x1 (ix2 (0 : Fin 1) q) := by
    rw [lift5_rows q r]
    exact congrArg₂ (· - ·) e4 e7
  exact congrArg₂ (· * ·) hsub hsub

/-! ## The blocks as rows of the arrays -/

variable (V : (c : Dev nD) → (b : Ref sig .tc) → Buf (Elt Ideal) ((c : Thread nD τ).loc b))

/-- The activations and the mean row as the region finds them, and a point's blocks of them, at their literal types. -/
abbrev hArr5 (c : Dev nD) : S100000x128.Idx → EReal := V c (Pipeline.arrRef spec5 0)
abbrev meanArr5 (c : Dev nD) : S1x128.Idx → EReal := V c (Pipeline.arrRef spec5 1)
abbrev hBlk5 (c : Dev nD) (t : Fin cfg5.N) : S5000x128.Idx → EReal := iblk5 V c 0 t
abbrev meanBlk5 (c : Dev nD) (t : Fin cfg5.N) : S1x128.Idx → EReal := iblk5 V c 1 t

/-- The index maps over the grid: point t reads row block t of the activations and the whole mean row, and writes
    row t / 10 of the result. -/
theorem idx5_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 3) = t.val / 10 ∧ win5_2.index t (1 : Fin 3) = 0 ∧ win5_2.index t (2 : Fin 3) = 0 :=
  (by decide +kernel : ∀ t : Fin grid5.N, _)

/-- Row r of point t's block is row 5000 t + r of the activations. -/
theorem hBlk5_apply (c : Dev nD) (t : Fin cfg5.N) (r : Fin 5000) (q : Fin 128) (hrow : t.val * 5000 + r.val < 100000) :
    hBlk5 V c t (ix2 r q) = hArr5 V c (ix2 (⟨t.val * 5000 + r.val, hrow⟩ : Fin 100000) q) := by
  obtain ⟨e0, e1, -⟩ := idx5_facts t
  unfold hBlk5 iblk5
  rw [View.read_apply]
  show V c (Pipeline.arrRef spec5 0) _ = V c (Pipeline.arrRef spec5 0) _
  congr 1
  funext a; apply Fin.ext
  match a with
  | ⟨0, _⟩ => show win5_0.index t (0 : Fin 2) * 5000 + 1 * r.val = t.val * 5000 + r.val; rw [e0]; omega
  | ⟨1, _⟩ => show win5_0.index t (1 : Fin 2) * 128 + 1 * q.val = q.val; rw [e1]; omega

/-- Every point's mean block is the mean row. -/
theorem meanBlk5_apply (c : Dev nD) (t : Fin cfg5.N) (q : Fin 128) :
    meanBlk5 V c t (ix2 (0 : Fin 1) q) = meanArr5 V c (ix2 (0 : Fin 1) q) := by
  obtain ⟨-, -, e2, e3, -⟩ := idx5_facts t
  unfold meanBlk5 iblk5
  rw [View.read_apply]
  show V c (Pipeline.arrRef spec5 1) _ = V c (Pipeline.arrRef spec5 1) _
  congr 1
  funext a; apply Fin.ext
  match a with
  | ⟨0, _⟩ => show win5_1.index t (0 : Fin 2) * 1 + 1 * ((0 : Fin 1) : ℕ) = ((0 : Fin 1) : ℕ); rw [e2]; simp
  | ⟨1, _⟩ => show win5_1.index t (1 : Fin 2) * 128 + 1 * q.val = q.val; rw [e3]; omega

/-! ## The accumulation over the points -/

/-- The accumulator after position n, at its literal type. -/
abbrev accAt5 (c : Dev nD) (n : ℕ) (hn : n < cfg5.N) : S1x1x128.Idx → EReal := (outsAt5 V c n hn).2
/-- The output window's buffer after position n, at its literal type. -/
abbrev outAt5 (c : Dev nD) (n : ℕ) (hn : n < cfg5.N) : S1x1x128.Idx → EReal := (outsAt5 V c n hn).1

/-- Row n of the activations at column q (zero past the last row, which nothing reads). -/
def actRow5 (c : Dev nD) (n : ℕ) (q : Fin 128) : EReal := if h : n < 100000 then hArr5 V c (ix2 (⟨n, h⟩ : Fin 100000) q) else 0

/-- Block b's contribution at column q: the squared distances to the mean of its 5000 rows, summed. -/
def blockSq5 (c : Dev nD) (b : ℕ) (q : Fin 128) : EReal :=
  ∑ r : Fin 5000, (actRow5 V c (b * 5000 + r.val) q - meanArr5 V c (ix2 (0 : Fin 1) q)) * (actRow5 V c (b * 5000 + r.val) q - meanArr5 V c (ix2 (0 : Fin 1) q))

/-- What a point adds to the accumulator is its block's contribution. -/
theorem blockSq5_of_blocks (c : Dev nD) (t : Fin cfg5.N) (q : Fin 128) :
    (∑ r : Fin 5000, (hBlk5 V c t (ix2 r q) - meanBlk5 V c t (ix2 (0 : Fin 1) q)) * (hBlk5 V c t (ix2 r q) - meanBlk5 V c t (ix2 (0 : Fin 1) q))) = blockSq5 V c t.val q := by
  have hN : t.val < 20 := lt_of_lt_of_eq t.isLt (show cfg5.N = 20 from N_5)
  unfold blockSq5
  refine Finset.sum_congr rfl fun r _ => ?_
  have hr : t.val * 5000 + r.val < 100000 := by have := r.isLt; omega
  rw [hBlk5_apply V c t r q hr, meanBlk5_apply V c t q]
  unfold actRow5; rw [dif_pos hr]

/-- At inner coordinate 0 the accumulator ends at the point's contribution alone. -/
theorem acc5_first (c : Dev nD) (t : Fin cfg5.N) (h0 : t.val % 10 = 0) (q : Fin 128) :
    accAt5 V c t.val t.isLt (ix3 (0 : Fin 1) (0 : Fin 1) q) = blockSq5 V c t.val q := by
  have h1 : ¬t.val % 10 = 9 := by omega
  unfold accAt5
  rw [outsAt5_A V c t h0 h1]; dsimp only
  refine (congrFun (sout5_A_0_eq (F := Ideal) c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (hBlk5 V c t) (meanBlk5 V c t)) (ix3 (0 : Fin 1) (0 : Fin 1) q)).trans ?_
  refine (k5_pay2_apply (hBlk5 V c t) (meanBlk5 V c t) (k5_pay1 (F := Ideal)) q).trans ?_
  rw [k5_pay1_apply, zero_add]
  exact blockSq5_of_blocks V c t q

/-- At the other inner coordinates it ends at what the point before left plus the point's contribution, -/
theorem acc5_step (c : Dev nD) (t : Fin cfg5.N) (h0 : ¬t.val % 10 = 0) (q : Fin 128) :
    accAt5 V c t.val t.isLt (ix3 (0 : Fin 1) (0 : Fin 1) q) = accAt5 V c (t.val - 1) (Nat.lt_of_le_of_lt (Nat.sub_le _ _) t.isLt) (ix3 (0 : Fin 1) (0 : Fin 1) q) + blockSq5 V c t.val q := by
  unfold accAt5
  by_cases h1 : t.val % 10 = 9
  · rw [outsAt5_C V c t h0 h1]; dsimp only
    refine (congrFun (sout5_C_0_eq (F := Ideal) c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (hBlk5 V c t) (meanBlk5 V c t) (accAt5 V c (t.val - 1) (Nat.lt_of_le_of_lt (Nat.sub_le _ _) t.isLt))) (ix3 (0 : Fin 1) (0 : Fin 1) q)).trans ?_
    refine (k5_pay2_apply (hBlk5 V c t) (meanBlk5 V c t) (accAt5 V c (t.val - 1) (Nat.lt_of_le_of_lt (Nat.sub_le _ _) t.isLt)) q).trans ?_
    exact congrArg (fun z => accAt5 V c (t.val - 1) (Nat.lt_of_le_of_lt (Nat.sub_le _ _) t.isLt) (ix3 (0 : Fin 1) (0 : Fin 1) q) + z) (blockSq5_of_blocks V c t q)
  · rw [outsAt5_B V c t h0 h1]; dsimp only
    refine (congrFun (sout5_B_0_eq (F := Ideal) c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (hBlk5 V c t) (meanBlk5 V c t) (accAt5 V c (t.val - 1) (Nat.lt_of_le_of_lt (Nat.sub_le _ _) t.isLt))) (ix3 (0 : Fin 1) (0 : Fin 1) q)).trans ?_
    refine (k5_pay2_apply (hBlk5 V c t) (meanBlk5 V c t) (accAt5 V c (t.val - 1) (Nat.lt_of_le_of_lt (Nat.sub_le _ _) t.isLt)) q).trans ?_
    exact congrArg (fun z => accAt5 V c (t.val - 1) (Nat.lt_of_le_of_lt (Nat.sub_le _ _) t.isLt) (ix3 (0 : Fin 1) (0 : Fin 1) q) + z) (blockSq5_of_blocks V c t q)

/-- and at inner coordinate 9 the output window's buffer ends at the same. -/
theorem out5_last_step (c : Dev nD) (t : Fin cfg5.N) (h9 : t.val % 10 = 9) (q : Fin 128) :
    outAt5 V c t.val t.isLt (ix3 (0 : Fin 1) (0 : Fin 1) q) = accAt5 V c (t.val - 1) (Nat.lt_of_le_of_lt (Nat.sub_le _ _) t.isLt) (ix3 (0 : Fin 1) (0 : Fin 1) q) + blockSq5 V c t.val q := by
  have h0 : ¬t.val % 10 = 0 := by omega
  unfold outAt5 accAt5
  rw [outsAt5_C V c t h0 h9]; dsimp only
  refine (congrFun (out5_C_2_eq (F := Ideal) c (grid5.coords t) (ms5_0 t) (hs5_0 t) (ms5_1 t) (hs5_1 t) (ms5_2 t) (hs5_2 t) scM5_0 (Memref.isWhole_whole _) (fun h => h0 ((hcond5_0 t).mp h)) ((hcond5_1 t).mpr h9) (hBlk5 V c t) (meanBlk5 V c t) (accAt5 V c (t.val - 1) (Nat.lt_of_le_of_lt (Nat.sub_le _ _) t.isLt))) (ix3 (0 : Fin 1) (0 : Fin 1) q)).trans ?_
  refine (k5_pay2_apply (hBlk5 V c t) (meanBlk5 V c t) (accAt5 V c (t.val - 1) (Nat.lt_of_le_of_lt (Nat.sub_le _ _) t.isLt)) q).trans ?_
  exact congrArg (fun z => accAt5 V c (t.val - 1) (Nat.lt_of_le_of_lt (Nat.sub_le _ _) t.isLt) (ix3 (0 : Fin 1) (0 : Fin 1) q) + z) (blockSq5_of_blocks V c t q)

/-- THE ACCUMULATOR after position n: the contributions of the blocks from the last multiple of 10 up to n. -/
theorem acc5_eq (c : Dev nD) (n : ℕ) : ∀ (hn : n < cfg5.N) (q : Fin 128),
    accAt5 V c n hn (ix3 (0 : Fin 1) (0 : Fin 1) q) = ∑ j ∈ Finset.range (n % 10 + 1), blockSq5 V c (n - n % 10 + j) q := by
  induction n with
  | zero =>
    intro hn q
    refine (acc5_first V c ⟨0, hn⟩ rfl q).trans ?_
    show blockSq5 V c 0 q = ∑ j ∈ Finset.range 1, blockSq5 V c (0 - 0 % 10 + j) q
    rw [Finset.sum_range_one]
  | succ n ih =>
    intro hn q
    by_cases h0 : (n + 1) % 10 = 0
    · refine (acc5_first V c ⟨n + 1, hn⟩ h0 q).trans ?_
      show blockSq5 V c (n + 1) q = ∑ j ∈ Finset.range ((n + 1) % 10 + 1), blockSq5 V c (n + 1 - (n + 1) % 10 + j) q
      rw [h0, Finset.sum_range_one, Nat.sub_zero, Nat.add_zero]
    · refine (acc5_step V c ⟨n + 1, hn⟩ h0 q).trans ?_
      show accAt5 V c n (Nat.lt_of_succ_lt hn) (ix3 (0 : Fin 1) (0 : Fin 1) q) + blockSq5 V c (n + 1) q = _
      rw [ih (Nat.lt_of_succ_lt hn) q]
      have e1 : (n + 1) % 10 = n % 10 + 1 := by omega
      have e2 : n + 1 - (n + 1) % 10 = n - n % 10 := by omega
      have e3 : n - n % 10 + (n % 10 + 1) = n + 1 := by omega
      rw [e2, e1, Finset.sum_range_succ _ (n % 10 + 1), e3]

/-- THE OUTPUT WINDOW'S BUFFER after a point of inner coordinate 9: the ten contributions of its half. -/
theorem out5_last (c : Dev nD) (t : Fin cfg5.N) (h9 : t.val % 10 = 9) (q : Fin 128) :
    outAt5 V c t.val t.isLt (ix3 (0 : Fin 1) (0 : Fin 1) q) = ∑ j ∈ Finset.range 10, blockSq5 V c (t.val / 10 * 10 + j) q := by
  rw [out5_last_step V c t h9 q, acc5_eq V c (t.val - 1) (Nat.lt_of_le_of_lt (Nat.sub_le _ _) t.isLt) q]
  have e1 : (t.val - 1) % 10 + 1 = 9 := by omega
  have e2 : t.val - 1 - (t.val - 1) % 10 = t.val / 10 * 10 := by omega
  have e3 : t.val / 10 * 10 + 9 = t.val := by omega
  rw [e1, e2, Finset.sum_range_succ _ 9, e3]

/-! ## The result array -/

/-- Row s, column q of the result: over the ten blocks of half s and their 5000 rows each, the squared distance of
    the activation to the mean, summed. -/
def G5_2row (h : S100000x128.Idx → EReal) (mean : S1x128.Idx → EReal) (s : Fin 2) (q : Fin 128) : EReal :=
  ∑ j : Fin 10, ∑ r : Fin 5000, (h (ix2 (⟨(s.val * 10 + j.val) * 5000 + r.val, by omega⟩ : Fin 100000) q) - mean (ix2 (0 : Fin 1) q)) * (h (ix2 (⟨(s.val * 10 + j.val) * 5000 + r.val, by omega⟩ : Fin 100000) q) - mean (ix2 (0 : Fin 1) q))

/-- The result array as one function of the activations and the mean row. -/
def G5_2 (h : S100000x128.Idx → EReal) (mean : S1x128.Idx → EReal) : S2x1x128.Idx → EReal :=
  fun i => G5_2row h mean (i 0) (i 2)

theorem G5_2_apply (h : S100000x128.Idx → EReal) (mean : S1x128.Idx → EReal) (s : Fin 2) (q : Fin 128) :
    G5_2 h mean (ix3 s (0 : Fin 1) q) = ∑ j : Fin 10, ∑ r : Fin 5000, (h (ix2 (⟨(s.val * 10 + j.val) * 5000 + r.val, by omega⟩ : Fin 100000) q) - mean (ix2 (0 : Fin 1) q)) * (h (ix2 (⟨(s.val * 10 + j.val) * 5000 + r.val, by omega⟩ : Fin 100000) q) - mean (ix2 (0 : Fin 1) q)) := rfl

/-- The ten contributions of half s are row s of the result. -/
theorem G5_2_of_blocks (c : Dev nD) (s : Fin 2) (q : Fin 128) :
    (∑ j ∈ Finset.range 10, blockSq5 V c (s.val * 10 + j) q) = G5_2 (hArr5 V c) (meanArr5 V c) (ix3 s (0 : Fin 1) q) := by
  rw [G5_2_apply, Finset.sum_range (fun j => blockSq5 V c (s.val * 10 + j) q)]
  refine Finset.sum_congr rfl fun j _ => ?_
  unfold blockSq5
  refine Finset.sum_congr rfl fun r _ => ?_
  have hr : (s.val * 10 + j.val) * 5000 + r.val < 100000 := by omega
  unfold actRow5; rw [dif_pos hr]

/-- WHAT A POINT OF INNER COORDINATE 9 WRITES BACK is its block of the result. -/
theorem flushed5_2_eq (c : Dev nD) (t : Fin cfg5.N) (hf : (cfg5.win 2).flush t = true) :
    (dat5 (F := Ideal) V c).flushed 2 t = ((cfg5.win 2).blk t).view.read (Elt Ideal) (G5_2 (V c (Pipeline.arrRef spec5 0)) (V c (Pipeline.arrRef spec5 1))) := by
  have h9 : t.val % 10 = 9 := (flush5_2 t).mp hf
  have hN : t.val < 20 := lt_of_lt_of_eq t.isLt (show cfg5.N = 20 from N_5)
  obtain ⟨-, -, -, -, e4, e5, e6⟩ := idx5_facts t
  show (cfg5.win 2).cut (grid5.coords t) ((dat5 (F := Ideal) V c).after 2 t) = _
  rw [after5_2]
  funext j
  revert j
  show ∀ j : S1x1x128.Idx, outAt5 V c t.val t.isLt j = ((cfg5.win 2).blk t).view.read (Elt Ideal) (G5_2 (V c (Pipeline.arrRef spec5 0)) (V c (Pipeline.arrRef spec5 1))) j
  intro j
  obtain ⟨u, i, q, rfl⟩ : ∃ (u : Fin 1) (i : Fin 1) (q : Fin 128), j = ix3 u i q := ⟨j 0, j 1, j 2, eq_ix3 j⟩
  obtain rfl : u = 0 := Subsingleton.elim _ _
  obtain rfl : i = 0 := Subsingleton.elim _ _
  rw [View.read_apply]
  show outAt5 V c t.val t.isLt (ix3 (0 : Fin 1) (0 : Fin 1) q) = G5_2 (hArr5 V c) (meanArr5 V c) (((cfg5.win 2).blk t).view.emb (ix3 (0 : Fin 1) (0 : Fin 1) q))
  have hemb : ((cfg5.win 2).blk t).view.emb (ix3 (0 : Fin 1) (0 : Fin 1) q) = ix3 (⟨t.val / 10, by omega⟩ : Fin 2) (0 : Fin 1) q := by
    funext a; apply Fin.ext
    match a with
    | ⟨0, _⟩ => show win5_2.index t (0 : Fin 3) * 1 + 1 * ((0 : Fin 1) : ℕ) = t.val / 10; rw [e4]; simp
    | ⟨1, _⟩ => show win5_2.index t (1 : Fin 3) * 1 + 1 * ((0 : Fin 1) : ℕ) = ((0 : Fin 1) : ℕ); rw [e5]; simp
    | ⟨2, _⟩ => show win5_2.index t (2 : Fin 3) * 128 + 1 * q.val = q.val; rw [e6]; omega
  rw [hemb, out5_last V c t h9 q]
  exact G5_2_of_blocks V c (⟨t.val / 10, by omega⟩ : Fin 2) q

/-- An index of the result is in point t's block iff each coordinate is in the block's range on its axis. -/
theorem mem_blk5_2 (t : Fin cfg5.N) (i : S2x1x128.Idx) :
    i ∈ ((cfg5.win 2).blk t).view.set ↔ ∀ a : Fin 3, win5_2.index t a * S1x1x128.size a ≤ (i a).val ∧ (i a).val < win5_2.index t a * S1x1x128.size a + S1x1x128.size a := by
  show i ∈ ((View.whole (Pipeline.arrRef spec5 2)).slice (win5_2.rect t)).set ↔ _
  rw [View.set_slice_whole, Rect.mem_set_unit]
  exact Iff.rfl

/-- THE RESULT ARRAY after the region: the two points of inner coordinate 9 write its two rows. -/
theorem final5_2 (c : Dev nD) : (dat5 (F := Ideal) V c).arrAt 2 cfg5.N = G5_2 (V c (Pipeline.arrRef spec5 0)) (V c (Pipeline.arrRef spec5 1)) :=
  (dat5 (F := Ideal) V c).arrAt_eq_of_cover 2 (G5_2 (V c (Pipeline.arrRef spec5 0)) (V c (Pipeline.arrRef spec5 1))) (flushed5_2_eq V c) fun i => by
    have hi0 : (i 0).val < 2 := (i 0).isLt
    have hi1 : (i 1).val < 1 := (i 1).isLt
    have hi2 : (i 2).val < 128 := (i 2).isLt
    have hlt : (i 0).val * 10 + 9 < cfg5.N := by rw [show cfg5.N = 20 from N_5]; omega
    obtain ⟨-, -, -, -, e4, e5, e6⟩ := idx5_facts ⟨(i 0).val * 10 + 9, hlt⟩
    refine ⟨⟨(i 0).val * 10 + 9, hlt⟩, (flush5_2 _).mpr (by show ((i 0).val * 10 + 9) % 10 = 9; omega), ?_⟩
    rw [mem_blk5_2]
    intro a
    match a with
    | ⟨0, _⟩ =>
      show win5_2.index ⟨(i 0).val * 10 + 9, hlt⟩ (0 : Fin 3) * 1 ≤ (i 0).val ∧ (i 0).val < win5_2.index ⟨(i 0).val * 10 + 9, hlt⟩ (0 : Fin 3) * 1 + 1
      rw [e4]
      show ((i 0).val * 10 + 9) / 10 * 1 ≤ (i 0).val ∧ (i 0).val < ((i 0).val * 10 + 9) / 10 * 1 + 1
      omega
    | ⟨1, _⟩ =>
      show win5_2.index ⟨(i 0).val * 10 + 9, hlt⟩ (1 : Fin 3) * 1 ≤ (i 1).val ∧ (i 1).val < win5_2.index ⟨(i 0).val * 10 + 9, hlt⟩ (1 : Fin 3) * 1 + 1
      rw [e5]
      omega
    | ⟨2, _⟩ =>
      show win5_2.index ⟨(i 0).val * 10 + 9, hlt⟩ (2 : Fin 3) * 128 ≤ (i 2).val ∧ (i 2).val < win5_2.index ⟨(i 0).val * 10 + 9, hlt⟩ (2 : Fin 3) * 128 + 128
      rw [e6]
      omega

end Cert.KernelIdeal.Hand

end
-- ==== Proof.KI.V6Pay.lean ====
import proofs.«417336_j40785009443359_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Hand
open Cert.KernelIdeal Cert.KernelIdeal.Gen
open Idealize.ShloMosaic Idealize.ShloMosaic.ValueIdx
open scoped BigOperators

/-! # The normalise-and-multiply body at one element, on the extended reals

The body normalises a 5000 × 128 block of activations column by column, multiplies it by a 128 × 256 matrix (two
128 × 128 weight matrices side by side), and writes the left half of the product scaled row by row, and the right
half plus a bias, clamped below at zero. Here each stored value is read at a row `p` and a column `q` as a sum over
the 128 contracted columns. No rounding is left at the extended reals: the narrowing to the short format is the
identity, and the product into a zero accumulator is the plain sum. -/

/-- The left half's column `q` among the product's 256 columns. -/
def leftCol6 (q : Fin 128) : Fin 256 := ⟨q.val, by omega⟩
/-- The right half's column `q` among the product's 256 columns. -/
def rightCol6 (q : Fin 128) : Fin 256 := ⟨128 + q.val, by omega⟩

/-- The normalised activation at row `p`, column `k` of a block: scale × (activation − mean) × 1/√(variance + ε),
    plus shift, associated as the body associates it. -/
def normed6 (var gamma : Vec Ideal S1x128 .f32) (h : Vec Ideal S5000x128 .f32) (mean beta : Vec Ideal S1x128 .f32)
    (p : Fin 5000) (k : Fin 128) : EReal :=
  gamma (ix2 0 k) * (h (ix2 p k) - mean (ix2 0 k)) * Ideal.rsqrt (var (ix2 0 k) + Ideal.ofBits .f32 0x3727C5AC#32) + beta (ix2 0 k)

/-! ## The layout operations of the body at an element -/

/-- A 1 × 128 row spread over 5000 rows reads, at row `p` and column `k`, the row's column `k`. -/
theorem laneSpread6 (x : FVec Ideal S1x128 .f32) (p : Fin 5000) (k : Fin 128) :
    broadcastTo S5000x128 x broadcasts_S1x128_S5000x128 (ix2 p k) = x (ix2 0 k) :=
  broadcastTo_apply x broadcasts_S1x128_S5000x128 (ix2 p k) (ix2 0 k) (fun a => by
    match a with
    | ⟨0, _⟩ => rfl
    | ⟨1, _⟩ => rfl)

/-- A 5000 × 1 column spread over 128 columns reads, at row `p` and column `q`, the column's row `p`. -/
theorem columnSpread6 (x : FVec Ideal S5000x1 .f32) (p : Fin 5000) (q : Fin 128) :
    broadcastTo S5000x128 x broadcasts_S5000x1_S5000x128 (ix2 p q) = x (ix2 p 0) :=
  broadcastTo_apply x broadcasts_S5000x1_S5000x128 (ix2 p q) (ix2 p 0) (fun a => by
    match a with
    | ⟨0, _⟩ => rfl
    | ⟨1, _⟩ => rfl)

/-- The left 128 columns cut from a 5000 × 256 array: column `q` of the cut is column `q` of the array. -/
theorem leftHalf6 (x : FVec Ideal S5000x256 .f32) (p : Fin 5000) (q : Fin 128) :
    extractStridedSlice S5000x128 ![0, 0] x slices_S5000x256_o0_0_S5000x128 (ix2 p q) = x (ix2 p (leftCol6 q)) :=
  extractStridedSlice_apply ![0, 0] x slices_S5000x256_o0_0_S5000x128 (ix2 p q) (ix2 p (leftCol6 q)) (fun a => by
    match a with
    | ⟨0, _⟩ => exact (Nat.zero_add _).symm
    | ⟨1, _⟩ => exact (Nat.zero_add _).symm)

/-- The right 128 columns: column `q` of the cut is column `128 + q` of the array. -/
theorem rightHalf6 (x : FVec Ideal S5000x256 .f32) (p : Fin 5000) (q : Fin 128) :
    extractStridedSlice S5000x128 ![0, 128] x slices_S5000x256_o0_128_S5000x128 (ix2 p q) = x (ix2 p (rightCol6 q)) :=
  extractStridedSlice_apply ![0, 128] x slices_S5000x256_o0_128_S5000x128 (ix2 p q) (ix2 p (rightCol6 q)) (fun a => by
    match a with
    | ⟨0, _⟩ => exact (Nat.zero_add _).symm
    | ⟨1, _⟩ => rfl)

/-- The reciprocal square root of a row, element by element. -/
theorem rsqrtLane6 (x : FVec Ideal S1x128 .f32) (i : S1x128.Idx) : rsqrt x i = Ideal.rsqrt (x i) := rfl

/-! ## The two operands of the product -/

/-- The product's left operand: the normalised block, narrowed to the short format. -/
abbrev lhs6 (var gamma : Vec Ideal S1x128 .f32) (h : Vec Ideal S5000x128 .f32) (mean beta : Vec Ideal S1x128 .f32) : FVec Ideal S5000x128 .bf16 :=
  truncf .bf16
    (addf
      (mulf
        (mulf (broadcastTo S5000x128 (shapeCast S1x128 gamma shapeCasts_S1x128_S1x128) broadcasts_S1x128_S5000x128)
          (subf (shapeCast S5000x128 h shapeCasts_S5000x128_S5000x128)
            (broadcastTo S5000x128 (shapeCast S1x128 mean shapeCasts_S1x128_S1x128) broadcasts_S1x128_S5000x128)))
        (broadcastTo S5000x128
          (rsqrt (addf (shapeCast S1x128 var shapeCasts_S1x128_S1x128) (broadcast S1x128 (Scalar.ofBits .f32 0x3727C5AC#32))))
          broadcasts_S1x128_S5000x128))
      (broadcastTo S5000x128 (shapeCast S1x128 beta shapeCasts_S1x128_S1x128) broadcasts_S1x128_S5000x128))
    bitsLt_bf16_f32

/-- The product's right operand: the weights, narrowed to the short format. -/
abbrev rhs6 (w : Vec Ideal S128x256 .f32) : FVec Ideal S128x256 .bf16 :=
  truncf .bf16 (shapeCast S128x256 w shapeCasts_S128x256_S128x256) bitsLt_bf16_f32

/-- The left operand at row `p`, column `k` is the normalised activation there. -/
theorem lhs6_apply (var gamma : Vec Ideal S1x128 .f32) (h : Vec Ideal S5000x128 .f32) (mean beta : Vec Ideal S1x128 .f32)
    (p : Fin 5000) (k : Fin 128) : lhs6 var gamma h mean beta (ix2 p k) = normed6 var gamma h mean beta p k := by
  unfold normed6
  simp only [lhs6, truncf_apply, addf_apply, mulf_apply, subf_apply, laneSpread6, rsqrtLane6, broadcast_apply,
    shapeCast_self] <;> rfl

/-- The right operand at row `k`, column `r` is the weight there. -/
theorem rhs6_apply (w : Vec Ideal S128x256 .f32) (k : Fin 128) (r : Fin 256) : rhs6 w (ix2 k r) = w (ix2 k r) := by
  simp only [rhs6, truncf_apply, shapeCast_self]

/-! ## The product's two operand indices

It contracts the left operand's columns against the right operand's rows: at result row `p`, result column `r` and
contracted position `k`, the left operand is read at (`p`, `k`) and the right one at (`k`, `r`). -/

theorem lhsRow6 (j : S5000x256.Idx) (k : dot_S5000x128_S128x256_S5000x256_1_0_0_1_n_n.contr.Idx) :
    (dot_S5000x128_S128x256_S5000x256_1_0_0_1_n_n.lhsIdx j k 0).val = (j 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

theorem lhsContracted6 (j : S5000x256.Idx) (k : dot_S5000x128_S128x256_S5000x256_1_0_0_1_n_n.contr.Idx) :
    (dot_S5000x128_S128x256_S5000x256_1_0_0_1_n_n.lhsIdx j k 1).val = (k ⟨0, by decide⟩).val :=
  DotDims.lhsIdx_val_of_single (d := dot_S5000x128_S128x256_S5000x256_1_0_0_1_n_n) (cl := 1) rfl j k

theorem rhsContracted6 (j : S5000x256.Idx) (k : dot_S5000x128_S128x256_S5000x256_1_0_0_1_n_n.contr.Idx) :
    (dot_S5000x128_S128x256_S5000x256_1_0_0_1_n_n.rhsIdx j k 0).val = (k ⟨0, by decide⟩).val :=
  DotDims.rhsIdx_val_of_single (d := dot_S5000x128_S128x256_S5000x256_1_0_0_1_n_n) (cr := 0) rfl j k

theorem rhsColumn6 (j : S5000x256.Idx) (k : dot_S5000x128_S128x256_S5000x256_1_0_0_1_n_n.contr.Idx) :
    (dot_S5000x128_S128x256_S5000x256_1_0_0_1_n_n.rhsIdx j k 1).val = (j 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-! ## The product and the two stored values at an element -/

/-- The product at row `p`, column `r`: the sum over the 128 contracted columns of the normalised activation
    times the weight. -/
theorem product6_apply (var gamma : Vec Ideal S1x128 .f32) (h : Vec Ideal S5000x128 .f32) (mean beta : Vec Ideal S1x128 .f32)
    (w : Vec Ideal S128x256 .f32) (p : Fin 5000) (r : Fin 256) :
    k6_pay2 var gamma h mean beta w (ix2 p r) = ∑ k : Fin 128, normed6 var gamma h mean beta p k * w (ix2 k r) := by
  show FloatOps.matmul dot_S5000x128_S128x256_S5000x256_1_0_0_1_n_n none (lhs6 var gamma h mean beta) (rhs6 w)
    (constant S5000x256 .f32 0x00000000#32) (ix2 p r) = _
  refine (Ideal.matmul_constant_zero_apply dot_S5000x128_S128x256_S5000x256_1_0_0_1_n_n none _ _ (ix2 p r)).trans ?_
  refine (Equiv.sum_comp (contrEquiv1 dot_S5000x128_S128x256_S5000x256_1_0_0_1_n_n 128 rfl rfl).symm _).symm.trans ?_
  refine Finset.sum_congr rfl fun k _ => ?_
  have hl : dot_S5000x128_S128x256_S5000x256_1_0_0_1_n_n.lhsIdx (ix2 p r)
      ((contrEquiv1 dot_S5000x128_S128x256_S5000x256_1_0_0_1_n_n 128 rfl rfl).symm k) = ix2 p k :=
    funext fun a => Fin.ext (by
      match a with
      | ⟨0, _⟩ => exact lhsRow6 _ _
      | ⟨1, _⟩ => exact (lhsContracted6 _ _).trans (contrEquiv1_symm_val dot_S5000x128_S128x256_S5000x256_1_0_0_1_n_n 128 rfl rfl k))
  have hr : dot_S5000x128_S128x256_S5000x256_1_0_0_1_n_n.rhsIdx (ix2 p r)
      ((contrEquiv1 dot_S5000x128_S128x256_S5000x256_1_0_0_1_n_n 128 rfl rfl).symm k) = ix2 k r :=
    funext fun a => Fin.ext (by
      match a with
      | ⟨0, _⟩ => exact (rhsContracted6 _ _).trans (contrEquiv1_symm_val dot_S5000x128_S128x256_S5000x256_1_0_0_1_n_n 128 rfl rfl k)
      | ⟨1, _⟩ => exact rhsColumn6 _ _)
  exact congrArg₂ (· * ·)
    ((congrArg (lhs6 var gamma h mean beta) hl).trans (lhs6_apply var gamma h mean beta p k))
    ((congrArg (rhs6 w) hr).trans (rhs6_apply w k r))

/-- What is stored in the first output at row `p`, column `q`: the product's left half there, times the row's
    inverse degree. -/
theorem scaled6_apply (var gamma : Vec Ideal S1x128 .f32) (h : Vec Ideal S5000x128 .f32) (mean beta : Vec Ideal S1x128 .f32)
    (w : Vec Ideal S128x256 .f32) (dinv : Vec Ideal S5000x1 .f32) (p : Fin 5000) (q : Fin 128) :
    k6_pay4 var gamma h mean beta w dinv (ix2 p q)
      = (∑ k : Fin 128, normed6 var gamma h mean beta p k * w (ix2 k (leftCol6 q))) * dinv (ix2 p 0) := by
  show extractStridedSlice S5000x128 ![0, 0] (k6_pay2 var gamma h mean beta w) slices_S5000x256_o0_0_S5000x128 (ix2 p q)
      * broadcastTo S5000x128 (shapeCast S5000x1 dinv shapeCasts_S5000x1_S5000x1) broadcasts_S5000x1_S5000x128 (ix2 p q) = _
  refine congrArg₂ (· * ·) ((leftHalf6 _ p q).trans (product6_apply var gamma h mean beta w p (leftCol6 q))) ?_
  refine (columnSpread6 _ p q).trans ?_
  exact congrFun (shapeCast_self dinv shapeCasts_S5000x1_S5000x1) (ix2 p 0)

/-- What is stored in the second output at row `p`, column `q`: the product's right half there plus the bias,
    or zero if that is negative. -/
theorem clamped6_apply (var gamma : Vec Ideal S1x128 .f32) (h : Vec Ideal S5000x128 .f32) (mean beta : Vec Ideal S1x128 .f32)
    (w : Vec Ideal S128x256 .f32) (bias : Vec Ideal S1x128 .f32) (p : Fin 5000) (q : Fin 128) :
    k6_pay1 (k6_pay3 var gamma h mean beta w bias) (Scalar.ofBits .f32 0x00000000#32) (ix2 p q)
      = max ((∑ k : Fin 128, normed6 var gamma h mean beta p k * w (ix2 k (rightCol6 q))) + bias (ix2 0 q)) 0 := by
  show max (extractStridedSlice S5000x128 ![0, 128] (k6_pay2 var gamma h mean beta w) slices_S5000x256_o0_128_S5000x128 (ix2 p q)
      + broadcastTo S5000x128 (shapeCast S1x128 bias shapeCasts_S1x128_S1x128) broadcasts_S1x128_S5000x128 (ix2 p q))
      (Ideal.ofBits .f32 0x00000000#32) = _
  refine congrArg₂ max (congrArg₂ (· + ·) ((rightHalf6 _ p q).trans (product6_apply var gamma h mean beta w p (rightCol6 q))) ?_)
    Ideal.ofBits_zero_f32
  refine (laneSpread6 _ p q).trans ?_
  exact congrFun (shapeCast_self bias shapeCasts_S1x128_S1x128) (ix2 0 q)

end Cert.KernelIdeal.Hand
-- ==== Proof.KI.V6.lean ====
import proofs.«417336_j40785009443359_3_alg».proof.Proof.KI.F6
import proofs.«417336_j40785009443359_3_alg».proof.Proof.KI.V6Pay
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
variable (V : (c : Dev nD) → (b : Ref sig .tc) → Buf (Elt Ideal) ((c : Thread nD τ).loc b))

/-! # The normalise-and-multiply region on the extended reals: its two output arrays as functions of the input arrays

Over the twenty points the region writes every 5000-row block of its two 100000 × 128 outputs exactly once. Each row
of the first is the normalised activations' row times the left weight matrix, scaled by the row's inverse degree;
each row of the second is the normalised row times the right weight matrix plus the bias, clamped below at zero. -/

/-! ## The specification, element by element -/

/-- The normalised activations at row `p`, column `q`: scale × (activation − mean) × 1/√(variance + ε) + shift, with
    ε the single-precision constant nearest 10⁻⁵, associated ((scale · (h − mean)) · 1/√(var + ε)) + shift. -/
def G6_xnAt (h : S100000x128.Idx → EReal) (mean var gamma beta : S1x128.Idx → EReal) (p : Fin 100000) (q : Fin 128) : EReal :=
  gamma (ix2 (0 : Fin 1) q) * (h (ix2 p q) - mean (ix2 (0 : Fin 1) q)) * Ideal.rsqrt (var (ix2 (0 : Fin 1) q) + Ideal.ofBits .f32 0x3727C5AC#32) + beta (ix2 (0 : Fin 1) q)

/-- The normalised activations as an array. -/
def G6_xn (h : S100000x128.Idx → EReal) (mean var gamma beta : S1x128.Idx → EReal) : S100000x128.Idx → EReal :=
  fun i => G6_xnAt h mean var gamma beta (i 0) (i 1)

/-- The first output at row `p`, column `q`: the normalised row `p` against column `q` of the weights' left half,
    times the row's inverse degree. -/
def G6_8At (h : S100000x128.Idx → EReal) (mean var gamma beta : S1x128.Idx → EReal) (wc : S128x256.Idx → EReal)
    (dv : S100000x1.Idx → EReal) (p : Fin 100000) (q : Fin 128) : EReal :=
  (∑ k : Fin 128, G6_xn h mean var gamma beta (ix2 p k) * wc (ix2 k (leftCol6 q))) * dv (ix2 p (0 : Fin 1))

/-- The first output as an array. -/
def G6_8 (h : S100000x128.Idx → EReal) (mean var gamma beta : S1x128.Idx → EReal) (wc : S128x256.Idx → EReal)
    (dv : S100000x1.Idx → EReal) : S100000x128.Idx → EReal :=
  fun i => G6_8At h mean var gamma beta wc dv (i 0) (i 1)

/-- The second output at row `p`, column `q`: the normalised row `p` against column `128 + q` of the weights, plus
    the bias at `q`, or zero if that is negative. -/
def G6_9At (h : S100000x128.Idx → EReal) (mean var gamma beta : S1x128.Idx → EReal) (wc : S128x256.Idx → EReal)
    (rb : S1x128.Idx → EReal) (p : Fin 100000) (q : Fin 128) : EReal :=
  max ((∑ k : Fin 128, G6_xn h mean var gamma beta (ix2 p k) * wc (ix2 k (rightCol6 q))) + rb (ix2 (0 : Fin 1) q)) 0

/-- The second output as an array. -/
def G6_9 (h : S100000x128.Idx → EReal) (mean var gamma beta : S1x128.Idx → EReal) (wc : S128x256.Idx → EReal)
    (rb : S1x128.Idx → EReal) : S100000x128.Idx → EReal :=
  fun i => G6_9At h mean var gamma beta wc rb (i 0) (i 1)

/-! ## The specification at row `p`, column `q` -/

theorem G6_xn_apply (h : S100000x128.Idx → EReal) (mean var gamma beta : S1x128.Idx → EReal) (p : Fin 100000) (q : Fin 128) :
    G6_xn h mean var gamma beta (ix2 p q)
      = gamma (ix2 (0 : Fin 1) q) * (h (ix2 p q) - mean (ix2 (0 : Fin 1) q))
          * Ideal.rsqrt (var (ix2 (0 : Fin 1) q) + Ideal.ofBits .f32 0x3727C5AC#32) + beta (ix2 (0 : Fin 1) q) := rfl

theorem G6_8_apply (h : S100000x128.Idx → EReal) (mean var gamma beta : S1x128.Idx → EReal) (wc : S128x256.Idx → EReal)
    (dv : S100000x1.Idx → EReal) (p : Fin 100000) (q : Fin 128) :
    G6_8 h mean var gamma beta wc dv (ix2 p q)
      = (∑ k : Fin 128, G6_xn h mean var gamma beta (ix2 p k) * wc (ix2 k (⟨q.val, by omega⟩ : Fin 256))) * dv (ix2 p (0 : Fin 1)) := rfl

theorem G6_9_apply (h : S100000x128.Idx → EReal) (mean var gamma beta : S1x128.Idx → EReal) (wc : S128x256.Idx → EReal)
    (rb : S1x128.Idx → EReal) (p : Fin 100000) (q : Fin 128) :
    G6_9 h mean var gamma beta wc rb (ix2 p q)
      = max ((∑ k : Fin 128, G6_xn h mean var gamma beta (ix2 p k) * wc (ix2 k (⟨128 + q.val, by omega⟩ : Fin 256))) + rb (ix2 (0 : Fin 1) q)) 0 := rfl

/-! ## From a block's elements to the arrays' elements, over plain functions

Whatever the blocks are, if each element the body reads of a block is the named element of an array, then what the
body stores at row `p`, column `q` of the block is the specification at row `P`, column `q` of the array. -/

theorem normed6_congr (var gamma : Vec Ideal S1x128 .f32) (h : Vec Ideal S5000x128 .f32) (mean beta : Vec Ideal S1x128 .f32)
    (H : S100000x128.Idx → EReal) (Mean Var Gamma Beta : S1x128.Idx → EReal) (p : Fin 5000) (P : Fin 100000) (k : Fin 128)
    (h0 : h (ix2 p k) = H (ix2 P k)) (h1 : mean (ix2 (0 : Fin 1) k) = Mean (ix2 (0 : Fin 1) k))
    (h2 : var (ix2 (0 : Fin 1) k) = Var (ix2 (0 : Fin 1) k)) (h3 : gamma (ix2 (0 : Fin 1) k) = Gamma (ix2 (0 : Fin 1) k))
    (h4 : beta (ix2 (0 : Fin 1) k) = Beta (ix2 (0 : Fin 1) k)) :
    normed6 var gamma h mean beta p k = G6_xn H Mean Var Gamma Beta (ix2 P k) := by
  show gamma (ix2 (0 : Fin 1) k) * (h (ix2 p k) - mean (ix2 (0 : Fin 1) k))
      * Ideal.rsqrt (var (ix2 (0 : Fin 1) k) + Ideal.ofBits .f32 0x3727C5AC#32) + beta (ix2 (0 : Fin 1) k)
    = Gamma (ix2 (0 : Fin 1) k) * (H (ix2 P k) - Mean (ix2 (0 : Fin 1) k))
      * Ideal.rsqrt (Var (ix2 (0 : Fin 1) k) + Ideal.ofBits .f32 0x3727C5AC#32) + Beta (ix2 (0 : Fin 1) k)
  rw [h0, h1, h2, h3, h4]

theorem scaled6_blk (var gamma : Vec Ideal S1x128 .f32) (h : Vec Ideal S5000x128 .f32) (mean beta : Vec Ideal S1x128 .f32)
    (w : Vec Ideal S128x256 .f32) (dinv : Vec Ideal S5000x1 .f32)
    (H : S100000x128.Idx → EReal) (Mean Var Gamma Beta : S1x128.Idx → EReal) (Wc : S128x256.Idx → EReal) (Dv : S100000x1.Idx → EReal)
    (p : Fin 5000) (P : Fin 100000) (q : Fin 128)
    (h0 : ∀ k : Fin 128, h (ix2 p k) = H (ix2 P k)) (h1 : ∀ k : Fin 128, mean (ix2 (0 : Fin 1) k) = Mean (ix2 (0 : Fin 1) k))
    (h2 : ∀ k : Fin 128, var (ix2 (0 : Fin 1) k) = Var (ix2 (0 : Fin 1) k))
    (h3 : ∀ k : Fin 128, gamma (ix2 (0 : Fin 1) k) = Gamma (ix2 (0 : Fin 1) k))
    (h4 : ∀ k : Fin 128, beta (ix2 (0 : Fin 1) k) = Beta (ix2 (0 : Fin 1) k))
    (h5 : ∀ (k : Fin 128) (r : Fin 256), w (ix2 k r) = Wc (ix2 k r))
    (h7 : dinv (ix2 p (0 : Fin 1)) = Dv (ix2 P (0 : Fin 1))) :
    k6_pay4 var gamma h mean beta w dinv (ix2 p q) = G6_8 H Mean Var Gamma Beta Wc Dv (ix2 P q) := by
  refine (scaled6_apply var gamma h mean beta w dinv p q).trans ?_
  show _ = (∑ k : Fin 128, G6_xn H Mean Var Gamma Beta (ix2 P k) * Wc (ix2 k (leftCol6 q))) * Dv (ix2 P (0 : Fin 1))
  exact congrArg₂ (· * ·)
    (Finset.sum_congr rfl fun k _ => congrArg₂ (· * ·)
      (normed6_congr var gamma h mean beta H Mean Var Gamma Beta p P k (h0 k) (h1 k) (h2 k) (h3 k) (h4 k)) (h5 k (leftCol6 q)))
    h7

theorem clamped6_blk (var gamma : Vec Ideal S1x128 .f32) (h : Vec Ideal S5000x128 .f32) (mean beta : Vec Ideal S1x128 .f32)
    (w : Vec Ideal S128x256 .f32) (bias : Vec Ideal S1x128 .f32)
    (H : S100000x128.Idx → EReal) (Mean Var Gamma Beta : S1x128.Idx → EReal) (Wc : S128x256.Idx → EReal) (Rb : S1x128.Idx → EReal)
    (p : Fin 5000) (P : Fin 100000) (q : Fin 128)
    (h0 : ∀ k : Fin 128, h (ix2 p k) = H (ix2 P k)) (h1 : ∀ k : Fin 128, mean (ix2 (0 : Fin 1) k) = Mean (ix2 (0 : Fin 1) k))
    (h2 : ∀ k : Fin 128, var (ix2 (0 : Fin 1) k) = Var (ix2 (0 : Fin 1) k))
    (h3 : ∀ k : Fin 128, gamma (ix2 (0 : Fin 1) k) = Gamma (ix2 (0 : Fin 1) k))
    (h4 : ∀ k : Fin 128, beta (ix2 (0 : Fin 1) k) = Beta (ix2 (0 : Fin 1) k))
    (h5 : ∀ (k : Fin 128) (r : Fin 256), w (ix2 k r) = Wc (ix2 k r))
    (h6 : bias (ix2 (0 : Fin 1) q) = Rb (ix2 (0 : Fin 1) q)) :
    k6_pay1 (k6_pay3 var gamma h mean beta w bias) (Scalar.ofBits .f32 0x00000000#32) (ix2 p q)
      = G6_9 H Mean Var Gamma Beta Wc Rb (ix2 P q) := by
  refine (clamped6_apply var gamma h mean beta w bias p q).trans ?_
  show _ = max ((∑ k : Fin 128, G6_xn H Mean Var Gamma Beta (ix2 P k) * Wc (ix2 k (rightCol6 q))) + Rb (ix2 (0 : Fin 1) q)) 0
  exact congrArg₂ max
    (congrArg₂ (· + ·)
      (Finset.sum_congr rfl fun k _ => congrArg₂ (· * ·)
        (normed6_congr var gamma h mean beta H Mean Var Gamma Beta p P k (h0 k) (h1 k) (h2 k) (h3 k) (h4 k)) (h5 k (rightCol6 q)))
      h6)
    rfl

/-! ## The index maps over the grid -/

/-- The four windows that move with the point are at block row `t`, block column 0. -/
theorem idx6_moving : ∀ t : Fin cfg6.N,
    win6_0.index t (0 : Fin 2) = t.val ∧ win6_0.index t (1 : Fin 2) = 0
    ∧ win6_7.index t (0 : Fin 2) = t.val ∧ win6_7.index t (1 : Fin 2) = 0
    ∧ win6_8.index t (0 : Fin 2) = t.val ∧ win6_8.index t (1 : Fin 2) = 0
    ∧ win6_9.index t (0 : Fin 2) = t.val ∧ win6_9.index t (1 : Fin 2) = 0 :=
  (by decide +kernel : ∀ t : Fin grid6.N, _)

/-- The six windows that are held stay at block (0, 0). -/
theorem idx6_held : ∀ t : Fin cfg6.N,
    win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- There are twenty points, -/
theorem point6_lt : ∀ t : Fin cfg6.N, t.val < 20 :=
  (by decide +kernel : ∀ t : Fin grid6.N, t.val < 20)

/-- one for each of the twenty blocks of rows. -/
theorem point6_onto : ∀ b : Fin 20, ∃ t : Fin cfg6.N, t.val = b.val :=
  (by decide +kernel : ∀ b : Fin 20, ∃ t : Fin grid6.N, t.val = b.val)

/-- Row `p` of point `t`'s block is row `5000 t + p` of the array. -/
def row6 (t : Fin cfg6.N) (p : Fin 5000) : Fin 100000 :=
  ⟨t.val * 5000 + p.val, by have := point6_lt t; have := p.isLt; omega⟩

/-! ## Where each window's block sits in its array -/

theorem emb6_0 (t : Fin cfg6.N) (p : Fin 5000) (k : Fin 128) :
    ((cfg6.win 0).blk t).view.emb (ix2 p k) = ix2 (row6 t p) k := by
  obtain ⟨e0, e1, -⟩ := idx6_moving t
  funext a; apply Fin.ext
  match a with
  | ⟨0, _⟩ => show win6_0.index t (0 : Fin 2) * 5000 + 1 * p.val = t.val * 5000 + p.val; omega
  | ⟨1, _⟩ => show win6_0.index t (1 : Fin 2) * 128 + 1 * k.val = k.val; omega

theorem emb6_7 (t : Fin cfg6.N) (p : Fin 5000) :
    ((cfg6.win 7).blk t).view.emb (ix2 p (0 : Fin 1)) = ix2 (row6 t p) (0 : Fin 1) := by
  obtain ⟨-, -, e0, e1, -⟩ := idx6_moving t
  funext a; apply Fin.ext
  match a with
  | ⟨0, _⟩ => show win6_7.index t (0 : Fin 2) * 5000 + 1 * p.val = t.val * 5000 + p.val; omega
  | ⟨1, _⟩ => show win6_7.index t (1 : Fin 2) * 1 + 1 * 0 = 0; omega

theorem emb6_8 (t : Fin cfg6.N) (p : Fin 5000) (q : Fin 128) :
    ((cfg6.win 8).blk t).view.emb (ix2 p q) = ix2 (row6 t p) q := by
  obtain ⟨-, -, -, -, e0, e1, -⟩ := idx6_moving t
  funext a; apply Fin.ext
  match a with
  | ⟨0, _⟩ => show win6_8.index t (0 : Fin 2) * 5000 + 1 * p.val = t.val * 5000 + p.val; omega
  | ⟨1, _⟩ => show win6_8.index t (1 : Fin 2) * 128 + 1 * q.val = q.val; omega

theorem emb6_9 (t : Fin cfg6.N) (p : Fin 5000) (q : Fin 128) :
    ((cfg6.win 9).blk t).view.emb (ix2 p q) = ix2 (row6 t p) q := by
  obtain ⟨-, -, -, -, -, -, e0, e1⟩ := idx6_moving t
  funext a; apply Fin.ext
  match a with
  | ⟨0, _⟩ => show win6_9.index t (0 : Fin 2) * 5000 + 1 * p.val = t.val * 5000 + p.val; omega
  | ⟨1, _⟩ => show win6_9.index t (1 : Fin 2) * 128 + 1 * q.val = q.val; omega

theorem emb6_1 (t : Fin cfg6.N) (k : Fin 128) :
    ((cfg6.win 1).blk t).view.emb (ix2 (0 : Fin 1) k) = ix2 (0 : Fin 1) k := by
  obtain ⟨e0, e1, -⟩ := idx6_held t
  funext a; apply Fin.ext
  match a with
  | ⟨0, _⟩ => show win6_1.index t (0 : Fin 2) * 1 + 1 * 0 = 0; omega
  | ⟨1, _⟩ => show win6_1.index t (1 : Fin 2) * 128 + 1 * k.val = k.val; omega

theorem emb6_2 (t : Fin cfg6.N) (k : Fin 128) :
    ((cfg6.win 2).blk t).view.emb (ix2 (0 : Fin 1) k) = ix2 (0 : Fin 1) k := by
  obtain ⟨-, -, e0, e1, -⟩ := idx6_held t
  funext a; apply Fin.ext
  match a with
  | ⟨0, _⟩ => show win6_2.index t (0 : Fin 2) * 1 + 1 * 0 = 0; omega
  | ⟨1, _⟩ => show win6_2.index t (1 : Fin 2) * 128 + 1 * k.val = k.val; omega

theorem emb6_3 (t : Fin cfg6.N) (k : Fin 128) :
    ((cfg6.win 3).blk t).view.emb (ix2 (0 : Fin 1) k) = ix2 (0 : Fin 1) k := by
  obtain ⟨-, -, -, -, e0, e1, -⟩ := idx6_held t
  funext a; apply Fin.ext
  match a with
  | ⟨0, _⟩ => show win6_3.index t (0 : Fin 2) * 1 + 1 * 0 = 0; omega
  | ⟨1, _⟩ => show win6_3.index t (1 : Fin 2) * 128 + 1 * k.val = k.val; omega

theorem emb6_4 (t : Fin cfg6.N) (k : Fin 128) :
    ((cfg6.win 4).blk t).view.emb (ix2 (0 : Fin 1) k) = ix2 (0 : Fin 1) k := by
  obtain ⟨-, -, -, -, -, -, e0, e1, -⟩ := idx6_held t
  funext a; apply Fin.ext
  match a with
  | ⟨0, _⟩ => show win6_4.index t (0 : Fin 2) * 1 + 1 * 0 = 0; omega
  | ⟨1, _⟩ => show win6_4.index t (1 : Fin 2) * 128 + 1 * k.val = k.val; omega

theorem emb6_6 (t : Fin cfg6.N) (k : Fin 128) :
    ((cfg6.win 6).blk t).view.emb (ix2 (0 : Fin 1) k) = ix2 (0 : Fin 1) k := by
  obtain ⟨-, -, -, -, -, -, -, -, -, -, e0, e1⟩ := idx6_held t
  funext a; apply Fin.ext
  match a with
  | ⟨0, _⟩ => show win6_6.index t (0 : Fin 2) * 1 + 1 * 0 = 0; omega
  | ⟨1, _⟩ => show win6_6.index t (1 : Fin 2) * 128 + 1 * k.val = k.val; omega

theorem emb6_5 (t : Fin cfg6.N) (k : Fin 128) (r : Fin 256) :
    ((cfg6.win 5).blk t).view.emb (ix2 k r) = ix2 k r := by
  obtain ⟨-, -, -, -, -, -, -, -, e0, e1, -⟩ := idx6_held t
  funext a; apply Fin.ext
  match a with
  | ⟨0, _⟩ => show win6_5.index t (0 : Fin 2) * 128 + 1 * k.val = k.val; omega
  | ⟨1, _⟩ => show win6_5.index t (1 : Fin 2) * 256 + 1 * r.val = r.val; omega

/-! ## The input blocks read off the arrays -/

theorem blk6_0 (c : Dev nD) (t : Fin cfg6.N) (p : Fin 5000) (k : Fin 128) :
    iblk6 V c 0 t (ix2 p k) = V c (Pipeline.arrRef spec6 0) (ix2 (row6 t p) k) :=
  congrArg (V c (Pipeline.arrRef spec6 0)) (emb6_0 t p k)

theorem blk6_1 (c : Dev nD) (t : Fin cfg6.N) (k : Fin 128) :
    iblk6 V c 1 t (ix2 (0 : Fin 1) k) = V c (Pipeline.arrRef spec6 1) (ix2 (0 : Fin 1) k) :=
  congrArg (V c (Pipeline.arrRef spec6 1)) (emb6_1 t k)

theorem blk6_2 (c : Dev nD) (t : Fin cfg6.N) (k : Fin 128) :
    iblk6 V c 2 t (ix2 (0 : Fin 1) k) = V c (Pipeline.arrRef spec6 2) (ix2 (0 : Fin 1) k) :=
  congrArg (V c (Pipeline.arrRef spec6 2)) (emb6_2 t k)

theorem blk6_3 (c : Dev nD) (t : Fin cfg6.N) (k : Fin 128) :
    iblk6 V c 3 t (ix2 (0 : Fin 1) k) = V c (Pipeline.arrRef spec6 3) (ix2 (0 : Fin 1) k) :=
  congrArg (V c (Pipeline.arrRef spec6 3)) (emb6_3 t k)

theorem blk6_4 (c : Dev nD) (t : Fin cfg6.N) (k : Fin 128) :
    iblk6 V c 4 t (ix2 (0 : Fin 1) k) = V c (Pipeline.arrRef spec6 4) (ix2 (0 : Fin 1) k) :=
  congrArg (V c (Pipeline.arrRef spec6 4)) (emb6_4 t k)

theorem blk6_6 (c : Dev nD) (t : Fin cfg6.N) (k : Fin 128) :
    iblk6 V c 6 t (ix2 (0 : Fin 1) k) = V c (Pipeline.arrRef spec6 6) (ix2 (0 : Fin 1) k) :=
  congrArg (V c (Pipeline.arrRef spec6 6)) (emb6_6 t k)

theorem blk6_5 (c : Dev nD) (t : Fin cfg6.N) (k : Fin 128) (r : Fin 256) :
    iblk6 V c 5 t (ix2 k r) = V c (Pipeline.arrRef spec6 5) (ix2 k r) :=
  congrArg (V c (Pipeline.arrRef spec6 5)) (emb6_5 t k r)

theorem blk6_7 (c : Dev nD) (t : Fin cfg6.N) (p : Fin 5000) :
    iblk6 V c 7 t (ix2 p (0 : Fin 1)) = V c (Pipeline.arrRef spec6 7) (ix2 (row6 t p) (0 : Fin 1)) :=
  congrArg (V c (Pipeline.arrRef spec6 7)) (emb6_7 t p)

/-! ## What a point writes back -/

theorem zeroOffset6 : (![0, 0] : Fin 2 → Nat) = fun _ => 0 := funext fun a => by fin_cases a <;> rfl

set_option maxHeartbeats 400000 in
/-- Point `t` writes to the first output its block of `G6_8` of the input arrays. -/
theorem flushed6_8_eq (c : Dev nD) (t : Fin cfg6.N) :
    (dat6 (F := Ideal) V c).flushed 8 t = ((cfg6.win 8).blk t).view.read (Elt Ideal) (G6_8 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 7))) := by
  show (cfg6.win 8).cut (grid6.coords t) ((dat6 (F := Ideal) V c).after 8 t) = _
  rw [after6_8]
  unfold out6_8
  rw [View.canon_unit_zero zeroOffset6]
  simp only [View.ld_unit_zero (S := S5000x128) zeroOffset6, View.ld_unit_zero (S := S1x128) zeroOffset6,
    View.ld_unit_zero (S := S128x256) zeroOffset6, View.ld_unit_zero (S := S5000x1) zeroOffset6]
  funext j
  obtain ⟨p, q, rfl⟩ : ∃ (p : Fin 5000) (q : Fin 128), j = ix2 p q := ⟨j 0, j 1, eq_ix2 j⟩
  show k6_pay4 (iblk6 V c 2 t) (iblk6 V c 3 t) (iblk6 V c 0 t) (iblk6 V c 1 t) (iblk6 V c 4 t) (iblk6 V c 5 t) (iblk6 V c 7 t) (ix2 p q)
    = G6_8 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 7)) (((cfg6.win 8).blk t).view.emb (ix2 p q))
  refine Eq.trans ?_ (congrArg (G6_8 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 7))) (emb6_8 t p q)).symm
  exact scaled6_blk (iblk6 V c 2 t) (iblk6 V c 3 t) (iblk6 V c 0 t) (iblk6 V c 1 t) (iblk6 V c 4 t) (iblk6 V c 5 t) (iblk6 V c 7 t)
    (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 7))
    p (row6 t p) q (fun k => blk6_0 V c t p k) (fun k => blk6_1 V c t k) (fun k => blk6_2 V c t k) (fun k => blk6_3 V c t k)
    (fun k => blk6_4 V c t k) (fun k r => blk6_5 V c t k r) (blk6_7 V c t p)

set_option maxHeartbeats 400000 in
/-- Point `t` writes to the second output its block of `G6_9` of the input arrays. -/
theorem flushed6_9_eq (c : Dev nD) (t : Fin cfg6.N) :
    (dat6 (F := Ideal) V c).flushed 9 t = ((cfg6.win 9).blk t).view.read (Elt Ideal) (G6_9 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  show (cfg6.win 9).cut (grid6.coords t) ((dat6 (F := Ideal) V c).after 9 t) = _
  rw [after6_9]
  unfold out6_9
  rw [View.canon_unit_zero zeroOffset6]
  simp only [View.ld_unit_zero (S := S5000x128) zeroOffset6, View.ld_unit_zero (S := S1x128) zeroOffset6,
    View.ld_unit_zero (S := S128x256) zeroOffset6]
  funext j
  obtain ⟨p, q, rfl⟩ : ∃ (p : Fin 5000) (q : Fin 128), j = ix2 p q := ⟨j 0, j 1, eq_ix2 j⟩
  show k6_pay1 (k6_pay3 (iblk6 V c 2 t) (iblk6 V c 3 t) (iblk6 V c 0 t) (iblk6 V c 1 t) (iblk6 V c 4 t) (iblk6 V c 5 t) (iblk6 V c 6 t)) (Scalar.ofBits .f32 0x00000000#32) (ix2 p q)
    = G6_9 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (((cfg6.win 9).blk t).view.emb (ix2 p q))
  refine Eq.trans ?_ (congrArg (G6_9 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) (emb6_9 t p q)).symm
  exact clamped6_blk (iblk6 V c 2 t) (iblk6 V c 3 t) (iblk6 V c 0 t) (iblk6 V c 1 t) (iblk6 V c 4 t) (iblk6 V c 5 t) (iblk6 V c 6 t)
    (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))
    p (row6 t p) q (fun k => blk6_0 V c t p k) (fun k => blk6_1 V c t k) (fun k => blk6_2 V c t k) (fun k => blk6_3 V c t k)
    (fun k => blk6_4 V c t k) (fun k r => blk6_5 V c t k r) (blk6_6 V c t q)

/-! ## The blocks fill the arrays -/

theorem mem_blk6_8 (t : Fin cfg6.N) (i : S100000x128.Idx) :
    i ∈ ((cfg6.win 8).blk t).view.set ↔ ∀ a : Fin 2, win6_8.index t a * S5000x128.size a ≤ (i a).val ∧ (i a).val < win6_8.index t a * S5000x128.size a + S5000x128.size a := by
  show i ∈ ((View.whole (Pipeline.arrRef spec6 8)).slice (win6_8.rect t)).set ↔ _
  rw [View.set_slice_whole, Rect.mem_set_unit]
  exact Iff.rfl

theorem mem_blk6_9 (t : Fin cfg6.N) (i : S100000x128.Idx) :
    i ∈ ((cfg6.win 9).blk t).view.set ↔ ∀ a : Fin 2, win6_9.index t a * S5000x128.size a ≤ (i a).val ∧ (i a).val < win6_9.index t a * S5000x128.size a + S5000x128.size a := by
  show i ∈ ((View.whole (Pipeline.arrRef spec6 9)).slice (win6_9.rect t)).set ↔ _
  rw [View.set_slice_whole, Rect.mem_set_unit]
  exact Iff.rfl

/-- Row `r` of the first output lies in the block of point `r / 5000`. -/
theorem covered6_8 (i : S100000x128.Idx) :
    ∃ t : Fin cfg6.N, (cfg6.win 8).flush t = true ∧ i ∈ ((cfg6.win 8).blk t).view.set := by
  have hi0 : (i 0).val < 100000 := (i 0).isLt
  have hi1 : (i 1).val < 128 := (i 1).isLt
  obtain ⟨t, ht⟩ := point6_onto ⟨(i 0).val / 5000, by omega⟩
  have ht' : t.val = (i 0).val / 5000 := ht
  obtain ⟨-, -, -, -, e0, e1, -⟩ := idx6_moving t
  refine ⟨t, flush6_8 t, ?_⟩
  rw [mem_blk6_8]
  intro a
  match a with
  | ⟨0, _⟩ => show win6_8.index t (0 : Fin 2) * 5000 ≤ (i 0).val ∧ (i 0).val < win6_8.index t (0 : Fin 2) * 5000 + 5000; omega
  | ⟨1, _⟩ => show win6_8.index t (1 : Fin 2) * 128 ≤ (i 1).val ∧ (i 1).val < win6_8.index t (1 : Fin 2) * 128 + 128; omega

/-- The same of the second output. -/
theorem covered6_9 (i : S100000x128.Idx) :
    ∃ t : Fin cfg6.N, (cfg6.win 9).flush t = true ∧ i ∈ ((cfg6.win 9).blk t).view.set := by
  have hi0 : (i 0).val < 100000 := (i 0).isLt
  have hi1 : (i 1).val < 128 := (i 1).isLt
  obtain ⟨t, ht⟩ := point6_onto ⟨(i 0).val / 5000, by omega⟩
  have ht' : t.val = (i 0).val / 5000 := ht
  obtain ⟨-, -, -, -, -, -, e0, e1⟩ := idx6_moving t
  refine ⟨t, flush6_9 t, ?_⟩
  rw [mem_blk6_9]
  intro a
  match a with
  | ⟨0, _⟩ => show win6_9.index t (0 : Fin 2) * 5000 ≤ (i 0).val ∧ (i 0).val < win6_9.index t (0 : Fin 2) * 5000 + 5000; omega
  | ⟨1, _⟩ => show win6_9.index t (1 : Fin 2) * 128 ≤ (i 1).val ∧ (i 1).val < win6_9.index t (1 : Fin 2) * 128 + 128; omega

/-! ## The two arrays when the region is left -/

/-- After the last point the first output holds `G6_8` of the seven arrays it depends on, as the region found them. -/
theorem final6_8 (c : Dev nD) :
    (dat6 (F := Ideal) V c).arrAt 8 cfg6.N = G6_8 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 7)) :=
  (dat6 (F := Ideal) V c).arrAt_eq_of_cover 8 (G6_8 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 7)))
    (fun t _ => flushed6_8_eq V c t) covered6_8

/-- After the last point the second output holds `G6_9` of the seven arrays it depends on. -/
theorem final6_9 (c : Dev nD) :
    (dat6 (F := Ideal) V c).arrAt 9 cfg6.N = G6_9 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 (F := Ideal) V c).arrAt_eq_of_cover 9 (G6_9 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)))
    (fun t _ => flushed6_9_eq V c t) covered6_9

end Cert.KernelIdeal.Hand
-- ==== Proof.KI.V7.lean ====
import proofs.«417336_j40785009443359_3_alg».proof.Proof.KI.F7
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
open Idealize.ShloMosaic.ValueIdx
open scoped BigOperators

/-! # The value half: what the two output arrays of the column-sum region end at, at the extended reals -/

/-! ## What each kind of point leaves, in closed form (at any float instance) -/

/-- The zero offsets of a whole-buffer access, at ranks 2 and 3. -/
theorem hz7_2 : (![0, 0] : Fin 2 → Nat) = fun _ => 0 := funext fun a => by fin_cases a <;> rfl
theorem hz7_3 : (![0, 0, 0] : Fin 3 → Nat) = fun _ => 0 := funext fun a => by fin_cases a <;> rfl

/-- Where the inner coordinate is 0, window 5 is left holding the pre-activation of the point's blocks. -/
theorem out7_A_5_eq (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) :
    out7_A_5 c i arg2 harg2 arg3 harg3 arg4 harg4 arg5 harg5 arg6 harg6 arg7 harg7 arg8 harg8 hc0 hc1 x0 x1 x2 x3 = k7_pay2 x2 x0 x3 x1 := by
  unfold out7_A_5
  rw [View.read_writes_eq_canon _ _ _ (cover7_A_5 c i arg2 harg2 arg3 harg3 arg4 harg4 arg5 harg5 arg6 harg6 arg7 harg7 arg8 harg8 hc0 hc1 x0 x1 x2 x3)]
  unfold kernelRun7_A
  dsimp only
  try sl_unfold_words
  rw [View.canon_unit_zero (S := S5000x128) hz7_2]
  simp only [View.readAt_eq_ld, harg2.read_unread, harg3.read_unread, harg4.read_unread, harg5.read_unread, harg8.read_unread,
    View.ld_unit_zero (S := S5000x128) hz7_2, View.ld_unit_zero (S := S5000x1) hz7_2, View.ld_unit_zero (S := S1x128) hz7_2,
    View.ld_unit_zero (S := S1x1x128) hz7_3, View.readCov_unit_zero (S := S1x1x128) _ hz7_3]

/-- Where the inner coordinate is strictly between 0 and 9, window 5 is left holding the pre-activation of the point's blocks. -/
theorem out7_B_5_eq (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) :
    out7_B_5 c i arg2 harg2 arg3 harg3 arg4 harg4 arg5 harg5 arg6 harg6 arg7 harg7 arg8 harg8 hc0 hc1 x0 x1 x2 x3 xs0 = k7_pay2 x2 x0 x3 x1 := by
  unfold out7_B_5
  rw [View.read_writes_eq_canon _ _ _ (cover7_B_5 c i arg2 harg2 arg3 harg3 arg4 harg4 arg5 harg5 arg6 harg6 arg7 harg7 arg8 harg8 hc0 hc1 x0 x1 x2 x3 xs0)]
  unfold kernelRun7_B
  dsimp only
  try sl_unfold_words
  rw [View.canon_unit_zero (S := S5000x128) hz7_2]
  simp only [View.readAt_eq_ld, harg2.read_unread, harg3.read_unread, harg4.read_unread, harg5.read_unread, harg8.read_unread,
    View.ld_unit_zero (S := S5000x128) hz7_2, View.ld_unit_zero (S := S5000x1) hz7_2, View.ld_unit_zero (S := S1x128) hz7_2,
    View.ld_unit_zero (S := S1x1x128) hz7_3, View.readCov_unit_zero (S := S1x1x128) _ hz7_3]

/-- Where the inner coordinate is 9, window 5 is left holding the pre-activation of the point's blocks. -/
theorem out7_C_5_eq (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) :
    out7_C_5 c i arg2 harg2 arg3 harg3 arg4 harg4 arg5 harg5 arg6 harg6 arg7 harg7 arg8 harg8 hc0 hc1 x0 x1 x2 x3 xs0 = k7_pay2 x2 x0 x3 x1 := by
  unfold out7_C_5
  rw [View.read_writes_eq_canon _ _ _ (cover7_C_5 c i arg2 harg2 arg3 harg3 arg4 harg4 arg5 harg5 arg6 harg6 arg7 harg7 arg8 harg8 hc0 hc1 x0 x1 x2 x3 xs0)]
  unfold kernelRun7_C
  dsimp only
  try sl_unfold_words
  rw [View.canon_unit_zero (S := S5000x128) hz7_2]
  simp only [View.readAt_eq_ld, harg2.read_unread, harg3.read_unread, harg4.read_unread, harg5.read_unread, harg8.read_unread,
    View.ld_unit_zero (S := S5000x128) hz7_2, View.ld_unit_zero (S := S5000x1) hz7_2, View.ld_unit_zero (S := S1x128) hz7_2,
    View.ld_unit_zero (S := S1x1x128) hz7_3, View.readCov_unit_zero (S := S1x1x128) _ hz7_3]

/-- Where the inner coordinate is 0 the accumulator is left holding the zero row plus the block's column sums: the later of its two whole-row stores wins, and it read the zero row the earlier one had just stored. -/
theorem sout7_A_0_eq (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : cond7_0 i) (hc1 : ¬cond7_1 i)
    (x0 : Vec F S5000x128 .f32) (x1 : Vec F S5000x128 .f32) (x2 : Vec F S5000x1 .f32) (x3 : Vec F S1x128 .f32) :
    sout7_A_0 c i arg2 harg2 arg3 harg3 arg4 harg4 arg5 harg5 arg6 harg6 arg7 harg7 arg8 harg8 hc0 hc1 x0 x1 x2 x3 = k7_pay3 x2 x0 x3 x1 (k7_pay1 (F := F)) := by
  unfold sout7_A_0
  rw [View.read_writes_eq_canon _ _ _ (scover7_A_0 c i arg2 harg2 arg3 harg3 arg4 harg4 arg5 harg5 arg6 harg6 arg7 harg7 arg8 harg8 hc0 hc1 x0 x1 x2 x3)]
  unfold kernelRun7_A
  dsimp only
  try sl_unfold_words
  rw [View.canon_cons_unit_zero (S := S1x1x128) hz7_3]
  simp only [View.readAt_eq_ld, harg2.read_unread, harg3.read_unread, harg4.read_unread, harg5.read_unread, harg8.read_unread,
    View.ld_unit_zero (S := S5000x128) hz7_2, View.ld_unit_zero (S := S5000x1) hz7_2, View.ld_unit_zero (S := S1x128) hz7_2,
    View.ld_unit_zero (S := S1x1x128) hz7_3, View.readCov_unit_zero (S := S1x1x128) _ hz7_3]

/-- Where the inner coordinate is strictly between 0 and 9 the accumulator is left holding what it held plus the block's column sums. -/
theorem sout7_B_0_eq (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : ¬cond7_1 i)
    (x0 : Vec F S5000x128 .f32) (x1 : Vec F S5000x128 .f32) (x2 : Vec F S5000x1 .f32) (x3 : Vec F S1x128 .f32) (xs0 : Vec F S1x1x128 .f32) :
    sout7_B_0 c i arg2 harg2 arg3 harg3 arg4 harg4 arg5 harg5 arg6 harg6 arg7 harg7 arg8 harg8 hc0 hc1 x0 x1 x2 x3 xs0 = k7_pay3 x2 x0 x3 x1 xs0 := by
  unfold sout7_B_0
  rw [View.read_writes_eq_canon _ _ _ (scover7_B_0 c i arg2 harg2 arg3 harg3 arg4 harg4 arg5 harg5 arg6 harg6 arg7 harg7 arg8 harg8 hc0 hc1 x0 x1 x2 x3 xs0)]
  unfold kernelRun7_B
  dsimp only
  try sl_unfold_words
  rw [View.canon_unit_zero (S := S1x1x128) hz7_3]
  simp only [View.readAt_eq_ld, harg2.read_unread, harg3.read_unread, harg4.read_unread, harg5.read_unread, harg8.read_unread,
    View.ld_unit_zero (S := S5000x128) hz7_2, View.ld_unit_zero (S := S5000x1) hz7_2, View.ld_unit_zero (S := S1x128) hz7_2,
    View.ld_unit_zero (S := S1x1x128) hz7_3, View.readCov_unit_zero (S := S1x1x128) _ hz7_3]

/-- Where the inner coordinate is 9 likewise; -/
theorem sout7_C_0_eq (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) :
    sout7_C_0 c i arg2 harg2 arg3 harg3 arg4 harg4 arg5 harg5 arg6 harg6 arg7 harg7 arg8 harg8 hc0 hc1 x0 x1 x2 x3 xs0 = k7_pay3 x2 x0 x3 x1 xs0 := by
  unfold sout7_C_0
  rw [View.read_writes_eq_canon _ _ _ (scover7_C_0 c i arg2 harg2 arg3 harg3 arg4 harg4 arg5 harg5 arg6 harg6 arg7 harg7 arg8 harg8 hc0 hc1 x0 x1 x2 x3 xs0)]
  unfold kernelRun7_C
  dsimp only
  try sl_unfold_words
  rw [View.canon_unit_zero (S := S1x1x128) hz7_3]
  simp only [View.readAt_eq_ld, harg2.read_unread, harg3.read_unread, harg4.read_unread, harg5.read_unread, harg8.read_unread,
    View.ld_unit_zero (S := S5000x128) hz7_2, View.ld_unit_zero (S := S5000x1) hz7_2, View.ld_unit_zero (S := S1x128) hz7_2,
    View.ld_unit_zero (S := S1x1x128) hz7_3, View.readCov_unit_zero (S := S1x1x128) _ hz7_3]

/-- and window 4 is left holding that same row: the body copies the accumulator it has just updated. -/
theorem out7_C_4_eq (c : Dev nD) (i : grid7.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S1x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S1x1x128 .f32) (harg8 : arg8.IsWhole) (hc0 : ¬cond7_0 i) (hc1 : cond7_1 i)
    (x0 : Vec F S5000x128 .f32) (x1 : Vec F S5000x128 .f32) (x2 : Vec F S5000x1 .f32) (x3 : Vec F S1x128 .f32) (xs0 : Vec F S1x1x128 .f32) :
    out7_C_4 c i arg2 harg2 arg3 harg3 arg4 harg4 arg5 harg5 arg6 harg6 arg7 harg7 arg8 harg8 hc0 hc1 x0 x1 x2 x3 xs0 = k7_pay3 x2 x0 x3 x1 xs0 := by
  unfold out7_C_4
  rw [View.read_writes_eq_canon _ _ _ (cover7_C_4 c i arg2 harg2 arg3 harg3 arg4 harg4 arg5 harg5 arg6 harg6 arg7 harg7 arg8 harg8 hc0 hc1 x0 x1 x2 x3 xs0)]
  unfold kernelRun7_C
  dsimp only
  try sl_unfold_words
  rw [View.canon_unit_zero (S := S1x1x128) hz7_3]
  simp only [View.readAt_eq_ld, harg2.read_unread, harg3.read_unread, harg4.read_unread, harg5.read_unread, harg8.read_unread,
    View.ld_unit_zero (S := S5000x128) hz7_2, View.ld_unit_zero (S := S5000x1) hz7_2, View.ld_unit_zero (S := S1x128) hz7_2,
    View.ld_unit_zero (S := S1x1x128) hz7_3, View.readCov_unit_zero (S := S1x1x128) _ hz7_3]

/-! ## The payloads at an index, at the extended reals -/

section AtIdeal

/-- The pre-activation of a block at row `r`, column `q`: the row's scale times the aggregate, plus the column's bias,
    plus the residual (in this association). -/
theorem pay7_2_apply (x2 : S5000x1.Idx → EReal) (x0 : S5000x128.Idx → EReal) (x3 : S1x128.Idx → EReal) (x1 : S5000x128.Idx → EReal)
    (r : Fin 5000) (q : Fin 128) :
    k7_pay2 (F := Ideal) x2 x0 x3 x1 (ix2 r q) = x2 (ix2 r (0 : Fin 1)) * x0 (ix2 r q) + x3 (ix2 (0 : Fin 1) q) + x1 (ix2 r q) := by
  unfold k7_pay2
  have e2 : broadcastTo S5000x128 (shapeCast S5000x1 x2 shapeCasts_S5000x1_S5000x1) broadcasts_S5000x1_S5000x128 (ix2 r q) = x2 (ix2 r (0 : Fin 1)) :=
    (broadcastTo_apply _ broadcasts_S5000x1_S5000x128 (ix2 r q) (ix2 r (0 : Fin 1)) (fun a => by
      match a with
      | ⟨0, _⟩ => rfl
      | ⟨1, _⟩ => rfl)).trans (congrFun (shapeCast_self x2 shapeCasts_S5000x1_S5000x1) _)
  have e3 : broadcastTo S5000x128 (shapeCast S1x128 x3 shapeCasts_S1x128_S1x128) broadcasts_S1x128_S5000x128 (ix2 r q) = x3 (ix2 (0 : Fin 1) q) :=
    (broadcastTo_apply _ broadcasts_S1x128_S5000x128 (ix2 r q) (ix2 (0 : Fin 1) q) (fun a => by
      match a with
      | ⟨0, _⟩ => rfl
      | ⟨1, _⟩ => rfl)).trans (congrFun (shapeCast_self x3 shapeCasts_S1x128_S1x128) _)
  have e0 : shapeCast S5000x128 x0 shapeCasts_S5000x128_S5000x128 (ix2 r q) = x0 (ix2 r q) := congrFun (shapeCast_self x0 _) _
  have e1 : shapeCast S5000x128 x1 shapeCasts_S5000x128_S5000x128 (ix2 r q) = x1 (ix2 r q) := congrFun (shapeCast_self x1 _) _
  show broadcastTo S5000x128 (shapeCast S5000x1 x2 shapeCasts_S5000x1_S5000x1) broadcasts_S5000x1_S5000x128 (ix2 r q)
        * shapeCast S5000x128 x0 shapeCasts_S5000x128_S5000x128 (ix2 r q)
      + broadcastTo S5000x128 (shapeCast S1x128 x3 shapeCasts_S1x128_S1x128) broadcasts_S1x128_S5000x128 (ix2 r q)
      + shapeCast S5000x128 x1 shapeCasts_S5000x128_S5000x128 (ix2 r q) = _
  rw [e2, e3, e0, e1]

/-- The row the first conditional stores is zero. -/
theorem pay7_1_apply (q : Fin 128) : (k7_pay1 (F := Ideal)) (ix3 (0 : Fin 1) (0 : Fin 1) q) = 0 := by
  unfold k7_pay1
  show (Ideal.ofBits .f32 0x00000000#32 : EReal) = 0
  exact Ideal.ofBits_zero_f32

/-- A sum over the 5000 rows of a block, column `q`: the lane reduction over axis 0 read at the extended reals. -/
theorem laneSum7 (y : S5000x128.Idx → EReal) (hφ : FKind.Formats .f32) (hacc : (0x00000000#32 : BitVec 32) = FKind.add.neutral .f32 hφ) (q : Fin 128) :
    multiReduction (F := Ideal) (φ := .f32) .add [0] S128 y 0x00000000#32 reduces_S5000x128_S128 hφ hacc (ix1 q) = ∑ r : Fin 5000, y (ix2 r q) := by
  refine (Ideal.multiReduction_add_single y 0x00000000#32 reduces_S5000x128_S128 hφ hacc (ix1 q)).trans ?_
  show ∑ r : Fin 5000, y (reduces_S5000x128_S128.lift (ix1 q) r) = ∑ r : Fin 5000, y (ix2 r q)
  refine Finset.sum_congr rfl fun r _ => congrArg y (funext fun a => Fin.ext ?_)
  match a with
  | ⟨0, _⟩ => rfl
  | ⟨1, _⟩ => rfl

/-- The accumulator's update at column `q`: what it held there plus the block's column sum. -/
theorem pay7_3_apply (x2 : S5000x1.Idx → EReal) (x0 : S5000x128.Idx → EReal) (x3 : S1x128.Idx → EReal) (x1 : S5000x128.Idx → EReal)
    (xs : S1x1x128.Idx → EReal) (q : Fin 128) :
    k7_pay3 (F := Ideal) x2 x0 x3 x1 xs (ix3 (0 : Fin 1) (0 : Fin 1) q)
      = xs (ix3 (0 : Fin 1) (0 : Fin 1) q) + ∑ r : Fin 5000, k7_pay2 (F := Ideal) x2 x0 x3 x1 (ix2 r q) := by
  unfold k7_pay3
  refine (shapeCast_apply _ shapeCasts_S1x128_S1x1x128 (ix3 (0 : Fin 1) (0 : Fin 1) q) (ix2 (0 : Fin 1) q) (by
    rw [Shape.rowMajor_val_two, Shape.rowMajor_val_three]
    show 0 * 128 + q.val = (0 * 1 + 0) * 128 + q.val
    omega)).trans ?_
  have ea : shapeCast S1x128 xs shapeCasts_S1x1x128_S1x128 (ix2 (0 : Fin 1) q) = xs (ix3 (0 : Fin 1) (0 : Fin 1) q) :=
    shapeCast_apply xs shapeCasts_S1x1x128_S1x128 (ix2 (0 : Fin 1) q) (ix3 (0 : Fin 1) (0 : Fin 1) q) (by
      rw [Shape.rowMajor_val_two, Shape.rowMajor_val_three]
      show (0 * 1 + 0) * 128 + q.val = 0 * 128 + q.val
      omega)
  have eb : shapeCast S1x128 (multiReduction (F := Ideal) (φ := .f32) .add [0] S128 (k7_pay2 (F := Ideal) x2 x0 x3 x1) 0x00000000#32 reduces_S5000x128_S128 (.inl rfl) rfl)
        shapeCasts_S128_S1x128 (ix2 (0 : Fin 1) q)
      = ∑ r : Fin 5000, k7_pay2 (F := Ideal) x2 x0 x3 x1 (ix2 r q) :=
    (shapeCast_apply _ shapeCasts_S128_S1x128 (ix2 (0 : Fin 1) q) (ix1 q) (by
      rw [Shape.rowMajor_val_two, Shape.rowMajor_val_one]
      show q.val = 0 * 128 + q.val
      omega)).trans (laneSum7 _ _ _ q)
  exact congrArg₂ (· + ·) ea eb

end AtIdeal

/-! ## The functions the two output arrays end at -/

/-- The pre-activation, index by index: row `p`'s scale times the aggregate, plus column `q`'s bias, plus the residual. -/
def G7_5 (agg res : S100000x128.Idx → EReal) (dv : S100000x1.Idx → EReal) (bs : S1x128.Idx → EReal) : S100000x128.Idx → EReal :=
  fun i => dv (ix2 (i 0 : Fin 100000) (0 : Fin 1)) * agg (ix2 (i 0 : Fin 100000) (i 1 : Fin 128))
    + bs (ix2 (0 : Fin 1) (i 1 : Fin 128)) + res (ix2 (i 0 : Fin 100000) (i 1 : Fin 128))

theorem G7_5_apply (agg res : S100000x128.Idx → EReal) (dv : S100000x1.Idx → EReal) (bs : S1x128.Idx → EReal) (p : Fin 100000) (q : Fin 128) :
    G7_5 agg res dv bs (ix2 p q) = dv (ix2 p (0 : Fin 1)) * agg (ix2 p q) + bs (ix2 (0 : Fin 1) q) + res (ix2 p q) := rfl

/-- Column `q`'s sum of the pre-activation over the 50000 rows of half `s`: ten blocks of 5000 rows. -/
def colSum7 (agg res : S100000x128.Idx → EReal) (dv : S100000x1.Idx → EReal) (bs : S1x128.Idx → EReal) (s : Fin 2) (q : Fin 128) : EReal :=
  ∑ j : Fin 10, ∑ r : Fin 5000, G7_5 agg res dv bs (ix2 (⟨(s.val * 10 + j.val) * 5000 + r.val, by omega⟩ : Fin 100000) q)

/-- The column sums, one row per half. -/
def G7_4 (agg res : S100000x128.Idx → EReal) (dv : S100000x1.Idx → EReal) (bs : S1x128.Idx → EReal) : S2x1x128.Idx → EReal :=
  fun i => colSum7 agg res dv bs (i 0 : Fin 2) (i 2 : Fin 128)

theorem G7_4_apply (agg res : S100000x128.Idx → EReal) (dv : S100000x1.Idx → EReal) (bs : S1x128.Idx → EReal) (s : Fin 2) (q : Fin 128) :
    G7_4 agg res dv bs (ix3 s (0 : Fin 1) q)
      = ∑ j : Fin 10, ∑ r : Fin 5000, G7_5 agg res dv bs (ix2 (⟨(s.val * 10 + j.val) * 5000 + r.val, by omega⟩ : Fin 100000) q) := rfl

/-! ## The input arrays and their blocks, at their literal types -/

variable (V : (c : Dev nD) → (b : Ref sig .tc) → Buf (Elt Ideal) ((c : Thread nD τ).loc b))

/-- The four input arrays as the region finds them. -/
abbrev arrIn7_0 (c : Dev nD) : S100000x128.Idx → EReal := V c (Pipeline.arrRef spec7 0)
abbrev arrIn7_1 (c : Dev nD) : S100000x128.Idx → EReal := V c (Pipeline.arrRef spec7 1)
abbrev arrIn7_2 (c : Dev nD) : S100000x1.Idx → EReal := V c (Pipeline.arrRef spec7 2)
abbrev arrIn7_3 (c : Dev nD) : S1x128.Idx → EReal := V c (Pipeline.arrRef spec7 3)
/-- Their blocks at point `t`. -/
abbrev blk7_0 (c : Dev nD) (t : Fin cfg7.N) : S5000x128.Idx → EReal := iblk7 V c 0 t
abbrev blk7_1 (c : Dev nD) (t : Fin cfg7.N) : S5000x128.Idx → EReal := iblk7 V c 1 t
abbrev blk7_2 (c : Dev nD) (t : Fin cfg7.N) : S5000x1.Idx → EReal := iblk7 V c 2 t
abbrev blk7_3 (c : Dev nD) (t : Fin cfg7.N) : S1x128.Idx → EReal := iblk7 V c 3 t

/-- The index maps over the grid: point `t` takes row block `t` of the three big inputs and of window 5, the one block of
    the bias, and row `t / 10` of window 4. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 3) = t.val / 10 ∧ win7_4.index t (1 : Fin 3) = 0 ∧ win7_4.index t (2 : Fin 3) = 0
    ∧ win7_5.index t (0 : Fin 2) = t.val ∧ win7_5.index t (1 : Fin 2) = 0 :=
  (by decide +kernel : ∀ t : Fin grid7.N, _)

/-- Block `t` of a big input, at row `r` and column `q`, is the array at row `5000 t + r`. -/
theorem blk7_0_apply (c : Dev nD) (t : Fin cfg7.N) (r : Fin 5000) (q : Fin 128) :
    blk7_0 V c t (ix2 r q) = arrIn7_0 V c (ix2 (⟨t.val * 5000 + r.val, by have := lt_of_lt_of_eq t.isLt (show cfg7.N = 20 from N_7); omega⟩ : Fin 100000) q) := by
  obtain ⟨e00, e01, -⟩ := idx_facts7 t
  show arrIn7_0 V c (((cfg7.win 0).blk t).view.emb (ix2 r q)) = _
  refine congrArg (arrIn7_0 V c) (funext fun a => Fin.ext ?_)
  match a with
  | ⟨0, _⟩ => show win7_0.index t (0 : Fin 2) * 5000 + 1 * r.val = t.val * 5000 + r.val; omega
  | ⟨1, _⟩ => show win7_0.index t (1 : Fin 2) * 128 + 1 * q.val = q.val; omega

theorem blk7_1_apply (c : Dev nD) (t : Fin cfg7.N) (r : Fin 5000) (q : Fin 128) :
    blk7_1 V c t (ix2 r q) = arrIn7_1 V c (ix2 (⟨t.val * 5000 + r.val, by have := lt_of_lt_of_eq t.isLt (show cfg7.N = 20 from N_7); omega⟩ : Fin 100000) q) := by
  obtain ⟨-, -, e10, e11, -⟩ := idx_facts7 t
  show arrIn7_1 V c (((cfg7.win 1).blk t).view.emb (ix2 r q)) = _
  refine congrArg (arrIn7_1 V c) (funext fun a => Fin.ext ?_)
  match a with
  | ⟨0, _⟩ => show win7_1.index t (0 : Fin 2) * 5000 + 1 * r.val = t.val * 5000 + r.val; omega
  | ⟨1, _⟩ => show win7_1.index t (1 : Fin 2) * 128 + 1 * q.val = q.val; omega

/-- The scale column likewise; -/
theorem blk7_2_apply (c : Dev nD) (t : Fin cfg7.N) (r : Fin 5000) :
    blk7_2 V c t (ix2 r (0 : Fin 1)) = arrIn7_2 V c (ix2 (⟨t.val * 5000 + r.val, by have := lt_of_lt_of_eq t.isLt (show cfg7.N = 20 from N_7); omega⟩ : Fin 100000) (0 : Fin 1)) := by
  obtain ⟨-, -, -, -, e20, e21, -⟩ := idx_facts7 t
  show arrIn7_2 V c (((cfg7.win 2).blk t).view.emb (ix2 r (0 : Fin 1))) = _
  refine congrArg (arrIn7_2 V c) (funext fun a => Fin.ext ?_)
  match a with
  | ⟨0, _⟩ => show win7_2.index t (0 : Fin 2) * 5000 + 1 * r.val = t.val * 5000 + r.val; omega
  | ⟨1, _⟩ => show win7_2.index t (1 : Fin 2) * 1 + 1 * (0 : Fin 1).val = (0 : Fin 1).val; omega

/-- and the bias row is its one block at every point. -/
theorem blk7_3_apply (c : Dev nD) (t : Fin cfg7.N) (q : Fin 128) :
    blk7_3 V c t (ix2 (0 : Fin 1) q) = arrIn7_3 V c (ix2 (0 : Fin 1) q) := by
  obtain ⟨-, -, -, -, -, -, e30, e31, -⟩ := idx_facts7 t
  show arrIn7_3 V c (((cfg7.win 3).blk t).view.emb (ix2 (0 : Fin 1) q)) = _
  refine congrArg (arrIn7_3 V c) (funext fun a => Fin.ext ?_)
  match a with
  | ⟨0, _⟩ => show win7_3.index t (0 : Fin 2) * 1 + 1 * (0 : Fin 1).val = (0 : Fin 1).val; omega
  | ⟨1, _⟩ => show win7_3.index t (1 : Fin 2) * 128 + 1 * q.val = q.val; omega

/-- So the pre-activation of point `t`'s blocks at row `r`, column `q` is the array function at row `5000 t + r`. -/
theorem pay7_2_blk (c : Dev nD) (t : Fin cfg7.N) (r : Fin 5000) (q : Fin 128) :
    k7_pay2 (F := Ideal) (blk7_2 V c t) (blk7_0 V c t) (blk7_3 V c t) (blk7_1 V c t) (ix2 r q)
      = G7_5 (arrIn7_0 V c) (arrIn7_1 V c) (arrIn7_2 V c) (arrIn7_3 V c) (ix2 (⟨t.val * 5000 + r.val, by have := lt_of_lt_of_eq t.isLt (show cfg7.N = 20 from N_7); omega⟩ : Fin 100000) q) := by
  refine (pay7_2_apply (blk7_2 V c t) (blk7_0 V c t) (blk7_3 V c t) (blk7_1 V c t) r q).trans ?_
  rw [blk7_0_apply V c t r q, blk7_1_apply V c t r q, blk7_2_apply V c t r, blk7_3_apply V c t q]
  exact (G7_5_apply (arrIn7_0 V c) (arrIn7_1 V c) (arrIn7_2 V c) (arrIn7_3 V c) _ q).symm

/-! ## Window 5: every point writes its block of the pre-activation -/

/-- What any point leaves in window 5's buffer: the pre-activation of its blocks. -/
theorem out7_5_at (c : Dev nD) (t : Fin cfg7.N) :
    (outsAt7 V c t.val t.isLt).2.1 = k7_pay2 (F := Ideal) (blk7_2 V c t) (blk7_0 V c t) (blk7_3 V c t) (blk7_1 V c t) := by
  have hN : t.val < 20 := lt_of_lt_of_eq t.isLt (show cfg7.N = 20 from N_7)
  by_cases h0 : t.val % 10 = 0
  · by_cases h1 : t.val % 10 = 9
    · exfalso; omega
    · rw [outsAt7_A V c t h0 h1]; dsimp only
      exact out7_A_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr h0) (fun h => h1 ((hcond7_1 t).mp h)) (iblk7 V c 0 t) (iblk7 V c 1 t) (iblk7 V c 2 t) (iblk7 V c 3 t)
  · by_cases h1 : t.val % 10 = 9
    · rw [outsAt7_C V c t h0 h1]; dsimp only
      exact out7_C_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2
    · rw [outsAt7_B V c t h0 h1]; dsimp only
      exact out7_B_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2

/-- What point `t` writes back to window 5 is block `t` of the pre-activation of the arrays. -/
theorem flushed7_5_eq (c : Dev nD) (t : Fin cfg7.N) :
    (dat7 V c).flushed 5 t = ((cfg7.win 5).blk t).view.read (Elt Ideal) (G7_5 (arrIn7_0 V c) (arrIn7_1 V c) (arrIn7_2 V c) (arrIn7_3 V c)) := by
  have hN : t.val < 20 := lt_of_lt_of_eq t.isLt (show cfg7.N = 20 from N_7)
  obtain ⟨e00, e01, e10, e11, e20, e21, e30, e31, e40, e41, e42, e50, e51⟩ := idx_facts7 t
  show (cfg7.win 5).cut (grid7.coords t) ((dat7 V c).after 5 t) = _
  rw [after7_5, out7_5_at V c t]
  funext y
  obtain ⟨r, q, rfl⟩ : ∃ (r : Fin 5000) (q : Fin 128), y = ix2 r q := ⟨y 0, y 1, eq_ix2 y⟩
  show k7_pay2 (F := Ideal) (blk7_2 V c t) (blk7_0 V c t) (blk7_3 V c t) (blk7_1 V c t) (ix2 r q) = G7_5 (arrIn7_0 V c) (arrIn7_1 V c) (arrIn7_2 V c) (arrIn7_3 V c) (((cfg7.win 5).blk t).view.emb (ix2 r q))
  have hemb : ((cfg7.win 5).blk t).view.emb (ix2 r q) = ix2 (⟨t.val * 5000 + r.val, by omega⟩ : Fin 100000) q := by
    funext a; apply Fin.ext
    match a with
    | ⟨0, _⟩ => show win7_5.index t (0 : Fin 2) * 5000 + 1 * r.val = t.val * 5000 + r.val; omega
    | ⟨1, _⟩ => show win7_5.index t (1 : Fin 2) * 128 + 1 * q.val = q.val; omega
  rw [hemb]
  exact pay7_2_blk V c t r q

/-- An index of window 5's array is in point `t`'s block iff each coordinate is in the block's range on its axis. -/
theorem mem_blk7_5 (t : Fin cfg7.N) (i : S100000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole (Pipeline.arrRef spec7 5)).slice (win7_5.rect t)).set ↔ _
  rw [View.set_slice_whole, Rect.mem_set_unit]
  exact Iff.rfl

/-- Row `p` of window 5's array is in the block of point `p / 5000`, which writes it back. -/
theorem covered7_5 (i : S100000x128.Idx) : ∃ t : Fin cfg7.N, (cfg7.win 5).flush t = true ∧ i ∈ ((cfg7.win 5).blk t).view.set := by
  have hi0 : (i 0).val < 100000 := (i 0).isLt
  have hi1 : (i 1).val < 128 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨e00, e01, e10, e11, e20, e21, e30, e31, e40, e41, e42, e50, e51⟩ := idx_facts7 t
  refine ⟨t, flush7_5 t, ?_⟩
  rw [mem_blk7_5]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 128 ≤ (i 1).val ∧ (i 1).val < win7_5.index t (1 : Fin 2) * 128 + 128; omega

/-- THE PRE-ACTIVATION ARRAY after the region: every row was written by the point whose block holds it. -/
theorem final7_5 (c : Dev nD) :
    (dat7 (F := Ideal) V c).arrAt 5 cfg7.N = G7_5 (V c (Pipeline.arrRef spec7 0)) (V c (Pipeline.arrRef spec7 1)) (V c (Pipeline.arrRef spec7 2)) (V c (Pipeline.arrRef spec7 3)) :=
  (dat7 V c).arrAt_eq_of_cover 5 (G7_5 (arrIn7_0 V c) (arrIn7_1 V c) (arrIn7_2 V c) (arrIn7_3 V c)) (fun t _ => flushed7_5_eq V c t) (fun i => covered7_5 i)

/-! ## Window 4: the accumulator over a row of ten points, written back at the tenth -/

/-- Column `q`'s sum over the 5000 rows of block `n` of the pre-activation (zero beyond the grid's twenty blocks). -/
def bsum7 (c : Dev nD) (n : ℕ) (q : Fin 128) : EReal :=
  if h : n < 20 then ∑ r : Fin 5000, G7_5 (arrIn7_0 V c) (arrIn7_1 V c) (arrIn7_2 V c) (arrIn7_3 V c) (ix2 (⟨n * 5000 + r.val, by omega⟩ : Fin 100000) q) else 0

/-- The column sum of point `t`'s blocks is block `t`'s. -/
theorem blockSum7 (c : Dev nD) (t : Fin cfg7.N) (q : Fin 128) :
    ∑ r : Fin 5000, k7_pay2 (F := Ideal) (blk7_2 V c t) (blk7_0 V c t) (blk7_3 V c t) (blk7_1 V c t) (ix2 r q) = bsum7 V c t.val q := by
  have hN : t.val < 20 := lt_of_lt_of_eq t.isLt (show cfg7.N = 20 from N_7)
  unfold bsum7
  rw [dif_pos hN]
  exact Finset.sum_congr rfl fun r _ => pay7_2_blk V c t r q

/-- Where the inner coordinate is 0 the accumulator restarts: zero plus the block's column sum. -/
theorem acc7_first (c : Dev nD) (t : Fin cfg7.N) (h0 : t.val % 10 = 0) (q : Fin 128) :
    (outsAt7 V c t.val t.isLt).2.2 (ix3 (0 : Fin 1) (0 : Fin 1) q) = bsum7 V c t.val q := by
  have h1 : ¬t.val % 10 = 9 := by omega
  rw [outsAt7_A V c t h0 h1]; dsimp only
  refine (congrFun (sout7_A_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr h0) (fun h => h1 ((hcond7_1 t).mp h)) (iblk7 V c 0 t) (iblk7 V c 1 t) (iblk7 V c 2 t) (iblk7 V c 3 t)) (ix3 (0 : Fin 1) (0 : Fin 1) q)).trans ?_
  refine (pay7_3_apply (blk7_2 V c t) (blk7_0 V c t) (blk7_3 V c t) (blk7_1 V c t) (k7_pay1 (F := Ideal)) q).trans ?_
  rw [pay7_1_apply q, zero_add]
  exact blockSum7 V c t q

/-- Elsewhere it adds the block's column sum to what the position before left. -/
theorem acc7_next (c : Dev nD) (t : Fin cfg7.N) (h0 : ¬t.val % 10 = 0) (q : Fin 128) :
    (outsAt7 V c t.val t.isLt).2.2 (ix3 (0 : Fin 1) (0 : Fin 1) q) = (outsAt7 V c (t.val - 1) (Nat.lt_of_le_of_lt (Nat.sub_le _ _) t.isLt)).2.2 (ix3 (0 : Fin 1) (0 : Fin 1) q) + bsum7 V c t.val q := by
  by_cases h1 : t.val % 10 = 9
  · rw [outsAt7_C V c t h0 h1]; dsimp only
    refine (congrFun (sout7_C_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2) (ix3 (0 : Fin 1) (0 : Fin 1) q)).trans ?_
    refine (pay7_3_apply (blk7_2 V c t) (blk7_0 V c t) (blk7_3 V c t) (blk7_1 V c t) (outsAt7 V c (t.val - 1) (Nat.lt_of_le_of_lt (Nat.sub_le _ _) t.isLt)).2.2 q).trans ?_
    rw [blockSum7 V c t q]
  · rw [outsAt7_B V c t h0 h1]; dsimp only
    refine (congrFun (sout7_B_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2) (ix3 (0 : Fin 1) (0 : Fin 1) q)).trans ?_
    refine (pay7_3_apply (blk7_2 V c t) (blk7_0 V c t) (blk7_3 V c t) (blk7_1 V c t) (outsAt7 V c (t.val - 1) (Nat.lt_of_le_of_lt (Nat.sub_le _ _) t.isLt)).2.2 q).trans ?_
    rw [blockSum7 V c t q]

/-- THE ACCUMULATOR after position `n`: the column sums of the blocks of its row of ten, from the row's first up to `n`. -/
theorem acc7_eq (c : Dev nD) : ∀ (n : ℕ) (hn : n < cfg7.N) (q : Fin 128),
    (outsAt7 V c n hn).2.2 (ix3 (0 : Fin 1) (0 : Fin 1) q) = ∑ j ∈ Finset.range (n % 10 + 1), bsum7 V c (n / 10 * 10 + j) q := by
  intro n
  induction n with
  | zero =>
    intro hn q
    refine (acc7_first V c ⟨0, hn⟩ rfl q).trans ?_
    show bsum7 V c 0 q = ∑ j ∈ Finset.range 1, bsum7 V c (0 + j) q
    rw [Finset.sum_range_one]
  | succ n ih =>
    intro hn q
    have hN : n + 1 < 20 := lt_of_lt_of_eq hn (show cfg7.N = 20 from N_7)
    by_cases h0 : (n + 1) % 10 = 0
    · refine (acc7_first V c ⟨n + 1, hn⟩ h0 q).trans ?_
      show bsum7 V c (n + 1) q = _
      have e1 : (n + 1) % 10 + 1 = 1 := by omega
      have e2 : (n + 1) / 10 * 10 + 0 = n + 1 := by omega
      rw [e1, Finset.sum_range_one, e2]
    · refine (acc7_next V c ⟨n + 1, hn⟩ h0 q).trans ?_
      show (outsAt7 V c n (Nat.lt_of_succ_lt hn)).2.2 (ix3 (0 : Fin 1) (0 : Fin 1) q) + bsum7 V c (n + 1) q = _
      rw [ih (Nat.lt_of_succ_lt hn) q]
      have e1 : (n + 1) % 10 + 1 = (n % 10 + 1) + 1 := by omega
      have e2 : (n + 1) / 10 = n / 10 := by omega
      have e3 : n / 10 * 10 + (n % 10 + 1) = n + 1 := by omega
      rw [e1, e2, Finset.sum_range_succ (fun j => bsum7 V c (n / 10 * 10 + j) q) (n % 10 + 1), e3]

/-- What the tenth point of a row writes back to window 4 is that half's row of column sums. -/
theorem flushed7_4_eq (c : Dev nD) (t : Fin cfg7.N) (hf : (cfg7.win 4).flush t = true) :
    (dat7 V c).flushed 4 t = ((cfg7.win 4).blk t).view.read (Elt Ideal) (G7_4 (arrIn7_0 V c) (arrIn7_1 V c) (arrIn7_2 V c) (arrIn7_3 V c)) := by
  have hN : t.val < 20 := lt_of_lt_of_eq t.isLt (show cfg7.N = 20 from N_7)
  have h1 : t.val % 10 = 9 := (flush7_4 t).mp hf
  have h0 : ¬t.val % 10 = 0 := by omega
  obtain ⟨e00, e01, e10, e11, e20, e21, e30, e31, e40, e41, e42, e50, e51⟩ := idx_facts7 t
  show (cfg7.win 4).cut (grid7.coords t) ((dat7 V c).after 4 t) = _
  rw [after7_4]
  have hrow : (outsAt7 V c t.val t.isLt).1 = (outsAt7 V c t.val t.isLt).2.2 := by
    rw [outsAt7_C V c t h0 h1]; dsimp only
    exact (out7_C_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2).trans
      (sout7_C_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2).symm
  rw [hrow]
  funext y
  obtain ⟨a0, a1, q, rfl⟩ : ∃ (a0 : Fin 1) (a1 : Fin 1) (q : Fin 128), y = ix3 a0 a1 q := ⟨y 0, y 1, y 2, eq_ix3 y⟩
  obtain rfl : a0 = 0 := Subsingleton.elim _ _
  obtain rfl : a1 = 0 := Subsingleton.elim _ _
  show (outsAt7 V c t.val t.isLt).2.2 (ix3 (0 : Fin 1) (0 : Fin 1) q) = G7_4 (arrIn7_0 V c) (arrIn7_1 V c) (arrIn7_2 V c) (arrIn7_3 V c) (((cfg7.win 4).blk t).view.emb (ix3 (0 : Fin 1) (0 : Fin 1) q))
  have hemb : ((cfg7.win 4).blk t).view.emb (ix3 (0 : Fin 1) (0 : Fin 1) q) = ix3 (⟨t.val / 10, by omega⟩ : Fin 2) (0 : Fin 1) q := by
    funext a; apply Fin.ext
    match a with
    | ⟨0, _⟩ => show win7_4.index t (0 : Fin 3) * 1 + 1 * 0 = t.val / 10; omega
    | ⟨1, _⟩ => show win7_4.index t (1 : Fin 3) * 1 + 1 * 0 = 0; omega
    | ⟨2, _⟩ => show win7_4.index t (2 : Fin 3) * 128 + 1 * q.val = q.val; omega
  rw [hemb, acc7_eq V c t.val t.isLt q, G7_4_apply]
  have e9 : t.val % 10 + 1 = 10 := by omega
  rw [e9, Finset.sum_range]
  refine Finset.sum_congr rfl fun j _ => ?_
  exact (dif_pos (show t.val / 10 * 10 + j.val < 20 by omega)).trans rfl

/-- An index of window 4's array is in point `t`'s block iff each coordinate is in the block's range on its axis. -/
theorem mem_blk7_4 (t : Fin cfg7.N) (i : S2x1x128.Idx) :
    i ∈ ((cfg7.win 4).blk t).view.set ↔ ∀ a : Fin 3, win7_4.index t a * S1x1x128.size a ≤ (i a).val ∧ (i a).val < win7_4.index t a * S1x1x128.size a + S1x1x128.size a := by
  show i ∈ ((View.whole (Pipeline.arrRef spec7 4)).slice (win7_4.rect t)).set ↔ _
  rw [View.set_slice_whole, Rect.mem_set_unit]
  exact Iff.rfl

/-- Row `s` of window 4's array is the block of the tenth point of half `s`, which writes it back. -/
theorem covered7_4 (i : S2x1x128.Idx) : ∃ t : Fin cfg7.N, (cfg7.win 4).flush t = true ∧ i ∈ ((cfg7.win 4).blk t).view.set := by
  have hi0 : (i 0).val < 2 := (i 0).isLt
  have hi1 : (i 1).val < 1 := (i 1).isLt
  have hi2 : (i 2).val < 128 := (i 2).isLt
  have hN : cfg7.N = 20 := N_7
  obtain ⟨t, ht⟩ : ∃ t : Fin cfg7.N, t.val = (i 0).val * 10 + 9 := ⟨⟨(i 0).val * 10 + 9, by rw [hN]; omega⟩, rfl⟩
  obtain ⟨e00, e01, e10, e11, e20, e21, e30, e31, e40, e41, e42, e50, e51⟩ := idx_facts7 t
  refine ⟨t, (flush7_4 t).mpr (by omega), ?_⟩
  rw [mem_blk7_4]
  intro a
  match a with
  | ⟨0, _⟩ => show win7_4.index t (0 : Fin 3) * 1 ≤ (i 0).val ∧ (i 0).val < win7_4.index t (0 : Fin 3) * 1 + 1; omega
  | ⟨1, _⟩ => show win7_4.index t (1 : Fin 3) * 1 ≤ (i 1).val ∧ (i 1).val < win7_4.index t (1 : Fin 3) * 1 + 1; omega
  | ⟨2, _⟩ => show win7_4.index t (2 : Fin 3) * 128 ≤ (i 2).val ∧ (i 2).val < win7_4.index t (2 : Fin 3) * 128 + 128; omega

/-- THE COLUMN-SUM ARRAY after the region: row `s` is what the tenth point of half `s` wrote. -/
theorem final7_4 (c : Dev nD) :
    (dat7 (F := Ideal) V c).arrAt 4 cfg7.N = G7_4 (V c (Pipeline.arrRef spec7 0)) (V c (Pipeline.arrRef spec7 1)) (V c (Pipeline.arrRef spec7 2)) (V c (Pipeline.arrRef spec7 3)) :=
  (dat7 V c).arrAt_eq_of_cover 4 (G7_4 (arrIn7_0 V c) (arrIn7_1 V c) (arrIn7_2 V c) (arrIn7_3 V c)) (fun t hf => flushed7_4_eq V c t hf) (fun i => covered7_4 i)

end Cert.KernelIdeal.Hand

end
-- ==== Proof.KI.V8.lean ====
import proofs.«417336_j40785009443359_3_alg».proof.Proof.KI.F8
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The sum-of-squares region: its value at the extended reals

At inner coordinate 0 the accumulator is zeroed; every point adds, column by column, the squares of its 5000 rows
minus the mean row; the point of inner coordinate 9 copies the accumulator out. So row s of the result holds, per
column, the sum over the 50000 rows of half s of the squared distance to the mean. -/

/-! ## What each case's found pieces are: the printed payloads of the point's blocks -/

section Pieces
variable {F : FTy → Type} [FloatOps F]

theorem offs8_zero3 : (![0, 0, 0] : Fin 3 → Nat) = fun _ => 0 := funext fun a => by fin_cases a <;> rfl
theorem offs8_zero2 : (![0, 0] : Fin 2 → Nat) = fun _ => 0 := funext fun a => by fin_cases a <;> rfl

/-- At inner coordinate 0 the accumulator ends at the sum's payload over the zeroing payload. -/
theorem sout8_A_0_eq (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : cond8_0 i) (hc1 : ¬cond8_1 i)
    (x0 : Vec F S5000x128 .f32) (x1 : Vec F S1x128 .f32) :
    sout8_A_0 c i arg2 harg2 arg3 harg3 arg4 harg4 arg5 harg5 hc0 hc1 x0 x1 = k8_pay2 x0 x1 (k8_pay1 (F := F)) := by
  unfold sout8_A_0
  rw [View.read_writes_eq_canon _ _ _ (scover8_A_0 c i arg2 harg2 arg3 harg3 arg4 harg4 arg5 harg5 hc0 hc1 x0 x1)]
  unfold kernelRun8_A
  dsimp only
  try sl_unfold_words
  rw [View.canon_cons_unit_zero (S := S1x1x128) offs8_zero3]
  simp only [View.readAt_eq_ld, harg2.read_unread, harg3.read_unread, harg5.read_unread, View.ld_unit_zero (S := S5000x128) offs8_zero2, View.ld_unit_zero (S := S1x128) offs8_zero2, View.ld_unit_zero (S := S1x1x128) offs8_zero3, View.readCov_unit_zero (S := S1x1x128) _ offs8_zero3]

/-- At inner coordinates 1 to 8 the accumulator ends at the sum's payload over what it held. -/
theorem sout8_B_0_eq (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : ¬cond8_1 i)
    (x0 : Vec F S5000x128 .f32) (x1 : Vec F S1x128 .f32) (xs0 : Vec F S1x1x128 .f32) :
    sout8_B_0 c i arg2 harg2 arg3 harg3 arg4 harg4 arg5 harg5 hc0 hc1 x0 x1 xs0 = k8_pay2 x0 x1 xs0 := by
  unfold sout8_B_0
  rw [View.read_writes_eq_canon _ _ _ (scover8_B_0 c i arg2 harg2 arg3 harg3 arg4 harg4 arg5 harg5 hc0 hc1 x0 x1 xs0)]
  unfold kernelRun8_B
  dsimp only
  try sl_unfold_words
  rw [View.canon_unit_zero offs8_zero3]
  simp only [View.readAt_eq_ld, harg2.read_unread, harg3.read_unread, harg5.read_unread, View.ld_unit_zero (S := S5000x128) offs8_zero2, View.ld_unit_zero (S := S1x128) offs8_zero2, View.ld_unit_zero (S := S1x1x128) offs8_zero3, View.readCov_unit_zero (S := S1x1x128) _ offs8_zero3]

/-- At inner coordinate 9 likewise, -/
theorem sout8_C_0_eq (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) :
    sout8_C_0 c i arg2 harg2 arg3 harg3 arg4 harg4 arg5 harg5 hc0 hc1 x0 x1 xs0 = k8_pay2 x0 x1 xs0 := by
  unfold sout8_C_0
  rw [View.read_writes_eq_canon _ _ _ (scover8_C_0 c i arg2 harg2 arg3 harg3 arg4 harg4 arg5 harg5 hc0 hc1 x0 x1 xs0)]
  unfold kernelRun8_C
  dsimp only
  try sl_unfold_words
  rw [View.canon_unit_zero offs8_zero3]
  simp only [View.readAt_eq_ld, harg2.read_unread, harg3.read_unread, harg5.read_unread, View.ld_unit_zero (S := S5000x128) offs8_zero2, View.ld_unit_zero (S := S1x128) offs8_zero2, View.ld_unit_zero (S := S1x1x128) offs8_zero3, View.readCov_unit_zero (S := S1x1x128) _ offs8_zero3]

/-- and the output window's buffer ends at the same contents: the accumulator copied out. -/
theorem out8_C_2_eq (c : Dev nD) (i : grid8.Coords) (arg2 : Memref sig .tc .vmem S5000x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x1x128 .f32) (harg5 : arg5.IsWhole) (hc0 : ¬cond8_0 i) (hc1 : cond8_1 i)
    (x0 : Vec F S5000x128 .f32) (x1 : Vec F S1x128 .f32) (xs0 : Vec F S1x1x128 .f32) :
    out8_C_2 c i arg2 harg2 arg3 harg3 arg4 harg4 arg5 harg5 hc0 hc1 x0 x1 xs0 = k8_pay2 x0 x1 xs0 := by
  unfold out8_C_2
  rw [View.read_writes_eq_canon _ _ _ (cover8_C_2 c i arg2 harg2 arg3 harg3 arg4 harg4 arg5 harg5 hc0 hc1 x0 x1 xs0)]
  unfold kernelRun8_C
  dsimp only
  try sl_unfold_words
  rw [View.canon_unit_zero offs8_zero3, View.readCov_unit_zero (S := S1x1x128) _ offs8_zero3]
  simp only [View.readAt_eq_ld, harg2.read_unread, harg3.read_unread, harg5.read_unread, View.ld_unit_zero (S := S5000x128) offs8_zero2, View.ld_unit_zero (S := S1x128) offs8_zero2, View.ld_unit_zero (S := S1x1x128) offs8_zero3, View.readCov_unit_zero (S := S1x1x128) _ offs8_zero3]

end Pieces

/-! ## The payloads at an index, at the extended reals -/

/-- The zeroing payload is zero at every index. -/
theorem k8_pay1_apply (y : S1x1x128.Idx) : k8_pay1 (F := Ideal) y = 0 := by
  unfold k8_pay1
  refine (congrFun (shapeCast_self _ _) y).trans ?_
  exact Ideal.ofBits_zero_f32

/-- The sum's payload, spelled as one term. -/
theorem k8_pay2_eq (v3 : S5000x128.Idx → EReal) (v5 : S1x128.Idx → EReal) (v9 : S1x1x128.Idx → EReal) :
    k8_pay2 (F := Ideal) v3 v5 v9
      = shapeCast S1x1x128 (addf (shapeCast S1x128 v9 shapeCasts_S1x1x128_S1x128)
          (shapeCast S1x128 (multiReduction (F := Ideal) .add [0] S128
            (mulf (subf (shapeCast S5000x128 v3 shapeCasts_S5000x128_S5000x128) (broadcastTo S5000x128 (shapeCast S1x128 v5 shapeCasts_S1x128_S1x128) broadcasts_S1x128_S5000x128))
                  (subf (shapeCast S5000x128 v3 shapeCasts_S5000x128_S5000x128) (broadcastTo S5000x128 (shapeCast S1x128 v5 shapeCasts_S1x128_S1x128) broadcasts_S1x128_S5000x128)))
            0x00000000#32 reduces_S5000x128_S128 (.inl rfl) rfl) shapeCasts_S128_S1x128)) shapeCasts_S1x128_S1x1x128 := rfl

/-- Row r, column q of the 5000-row block is what the column's reduction meets at its r-th step. -/
theorem lift8_rows (q : Fin 128) (r : Fin 5000) :
    (reduces_S5000x128_S128 : S5000x128.Reduces [0] S128).lift (ix1 q) r = ix2 r q := by
  funext a; apply Fin.ext
  fin_cases a <;> rfl

/-- The sum's payload at column q: what the accumulator held there plus the column's sum, over the block's 5000
    rows, of the squared distance to the mean row. -/
theorem k8_pay2_apply (x0 : S5000x128.Idx → EReal) (x1 : S1x128.Idx → EReal) (xs : S1x1x128.Idx → EReal) (q : Fin 128) :
    k8_pay2 (F := Ideal) x0 x1 xs (ix3 (0 : Fin 1) (0 : Fin 1) q)
      = xs (ix3 (0 : Fin 1) (0 : Fin 1) q) + ∑ r : Fin 5000, (x0 (ix2 r q) - x1 (ix2 (0 : Fin 1) q)) * (x0 (ix2 r q) - x1 (ix2 (0 : Fin 1) q)) := by
  rw [k8_pay2_eq]
  refine (shapeCast_ab_1ab_apply _ _ (0 : Fin 1) (0 : Fin 1) q).trans ?_
  refine congrArg₂ (· + ·) (shapeCast_1ab_ab_apply xs _ (0 : Fin 1) q) ?_
  refine (shapeCast_a_1a_apply _ _ (0 : Fin 1) q).trans ?_
  refine (Ideal.multiReduction_add_single _ _ _ _ _ (ix1 q)).trans ?_
  refine Finset.sum_congr rfl fun r _ => ?_
  have e4 : shapeCast S5000x128 x0 shapeCasts_S5000x128_S5000x128 (ix2 r q) = x0 (ix2 r q) := congrFun (shapeCast_self x0 _) _
  have e7 : broadcastTo S5000x128 (shapeCast S1x128 x1 shapeCasts_S1x128_S1x128) broadcasts_S1x128_S5000x128 (ix2 r q) = x1 (ix2 (0 : Fin 1) q) :=
    (broadcastTo_1b_ab_apply _ _ r q).trans (congrFun (shapeCast_self x1 _) _)
  have hsub : subf (F := Ideal) (φ := .f32) (shapeCast S5000x128 x0 shapeCasts_S5000x128_S5000x128) (broadcastTo S5000x128 (shapeCast S1x128 x1 shapeCasts_S1x128_S1x128) broadcasts_S1x128_S5000x128)
      ((reduces_S5000x128_S128 : S5000x128.Reduces [0] S128).lift (ix1 q) r) = x0 (ix2 r q) - x1 (ix2 (0 : Fin 1) q) := by
    rw [lift8_rows q r]
    exact congrArg₂ (· - ·) e4 e7
  exact congrArg₂ (· * ·) hsub hsub

/-! ## The blocks as rows of the arrays -/

variable (V : (c : Dev nD) → (b : Ref sig .tc) → Buf (Elt Ideal) ((c : Thread nD τ).loc b))

/-- The activations and the mean row as the region finds them, and a point's blocks of them, at their literal types. -/
abbrev hArr8 (c : Dev nD) : S100000x128.Idx → EReal := V c (Pipeline.arrRef spec8 0)
abbrev meanArr8 (c : Dev nD) : S1x128.Idx → EReal := V c (Pipeline.arrRef spec8 1)
abbrev hBlk8 (c : Dev nD) (t : Fin cfg8.N) : S5000x128.Idx → EReal := iblk8 V c 0 t
abbrev meanBlk8 (c : Dev nD) (t : Fin cfg8.N) : S1x128.Idx → EReal := iblk8 V c 1 t

/-- The index maps over the grid: point t reads row block t of the activations and the whole mean row, and writes
    row t / 10 of the result. -/
theorem idx8_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 3) = t.val / 10 ∧ win8_2.index t (1 : Fin 3) = 0 ∧ win8_2.index t (2 : Fin 3) = 0 :=
  (by decide +kernel : ∀ t : Fin grid8.N, _)

/-- Row r of point t's block is row 5000 t + r of the activations. -/
theorem hBlk8_apply (c : Dev nD) (t : Fin cfg8.N) (r : Fin 5000) (q : Fin 128) (hrow : t.val * 5000 + r.val < 100000) :
    hBlk8 V c t (ix2 r q) = hArr8 V c (ix2 (⟨t.val * 5000 + r.val, hrow⟩ : Fin 100000) q) := by
  obtain ⟨e0, e1, -⟩ := idx8_facts t
  unfold hBlk8 iblk8
  rw [View.read_apply]
  show V c (Pipeline.arrRef spec8 0) _ = V c (Pipeline.arrRef spec8 0) _
  congr 1
  funext a; apply Fin.ext
  match a with
  | ⟨0, _⟩ => show win8_0.index t (0 : Fin 2) * 5000 + 1 * r.val = t.val * 5000 + r.val; rw [e0]; omega
  | ⟨1, _⟩ => show win8_0.index t (1 : Fin 2) * 128 + 1 * q.val = q.val; rw [e1]; omega

/-- Every point's mean block is the mean row. -/
theorem meanBlk8_apply (c : Dev nD) (t : Fin cfg8.N) (q : Fin 128) :
    meanBlk8 V c t (ix2 (0 : Fin 1) q) = meanArr8 V c (ix2 (0 : Fin 1) q) := by
  obtain ⟨-, -, e2, e3, -⟩ := idx8_facts t
  unfold meanBlk8 iblk8
  rw [View.read_apply]
  show V c (Pipeline.arrRef spec8 1) _ = V c (Pipeline.arrRef spec8 1) _
  congr 1
  funext a; apply Fin.ext
  match a with
  | ⟨0, _⟩ => show win8_1.index t (0 : Fin 2) * 1 + 1 * ((0 : Fin 1) : ℕ) = ((0 : Fin 1) : ℕ); rw [e2]; simp
  | ⟨1, _⟩ => show win8_1.index t (1 : Fin 2) * 128 + 1 * q.val = q.val; rw [e3]; omega

/-! ## The accumulation over the points -/

/-- The accumulator after position n, at its literal type. -/
abbrev accAt8 (c : Dev nD) (n : ℕ) (hn : n < cfg8.N) : S1x1x128.Idx → EReal := (outsAt8 V c n hn).2
/-- The output window's buffer after position n, at its literal type. -/
abbrev outAt8 (c : Dev nD) (n : ℕ) (hn : n < cfg8.N) : S1x1x128.Idx → EReal := (outsAt8 V c n hn).1

/-- Row n of the activations at column q (zero past the last row, which nothing reads). -/
def actRow8 (c : Dev nD) (n : ℕ) (q : Fin 128) : EReal := if h : n < 100000 then hArr8 V c (ix2 (⟨n, h⟩ : Fin 100000) q) else 0

/-- Block b's contribution at column q: the squared distances to the mean of its 5000 rows, summed. -/
def blockSq8 (c : Dev nD) (b : ℕ) (q : Fin 128) : EReal :=
  ∑ r : Fin 5000, (actRow8 V c (b * 5000 + r.val) q - meanArr8 V c (ix2 (0 : Fin 1) q)) * (actRow8 V c (b * 5000 + r.val) q - meanArr8 V c (ix2 (0 : Fin 1) q))

/-- What a point adds to the accumulator is its block's contribution. -/
theorem blockSq8_of_blocks (c : Dev nD) (t : Fin cfg8.N) (q : Fin 128) :
    (∑ r : Fin 5000, (hBlk8 V c t (ix2 r q) - meanBlk8 V c t (ix2 (0 : Fin 1) q)) * (hBlk8 V c t (ix2 r q) - meanBlk8 V c t (ix2 (0 : Fin 1) q))) = blockSq8 V c t.val q := by
  have hN : t.val < 20 := lt_of_lt_of_eq t.isLt (show cfg8.N = 20 from N_8)
  unfold blockSq8
  refine Finset.sum_congr rfl fun r _ => ?_
  have hr : t.val * 5000 + r.val < 100000 := by have := r.isLt; omega
  rw [hBlk8_apply V c t r q hr, meanBlk8_apply V c t q]
  unfold actRow8; rw [dif_pos hr]

/-- At inner coordinate 0 the accumulator ends at the point's contribution alone. -/
theorem acc8_first (c : Dev nD) (t : Fin cfg8.N) (h0 : t.val % 10 = 0) (q : Fin 128) :
    accAt8 V c t.val t.isLt (ix3 (0 : Fin 1) (0 : Fin 1) q) = blockSq8 V c t.val q := by
  have h1 : ¬t.val % 10 = 9 := by omega
  unfold accAt8
  rw [outsAt8_A V c t h0 h1]; dsimp only
  refine (congrFun (sout8_A_0_eq (F := Ideal) c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (hBlk8 V c t) (meanBlk8 V c t)) (ix3 (0 : Fin 1) (0 : Fin 1) q)).trans ?_
  refine (k8_pay2_apply (hBlk8 V c t) (meanBlk8 V c t) (k8_pay1 (F := Ideal)) q).trans ?_
  rw [k8_pay1_apply, zero_add]
  exact blockSq8_of_blocks V c t q

/-- At the other inner coordinates it ends at what the point before left plus the point's contribution, -/
theorem acc8_step (c : Dev nD) (t : Fin cfg8.N) (h0 : ¬t.val % 10 = 0) (q : Fin 128) :
    accAt8 V c t.val t.isLt (ix3 (0 : Fin 1) (0 : Fin 1) q) = accAt8 V c (t.val - 1) (Nat.lt_of_le_of_lt (Nat.sub_le _ _) t.isLt) (ix3 (0 : Fin 1) (0 : Fin 1) q) + blockSq8 V c t.val q := by
  unfold accAt8
  by_cases h1 : t.val % 10 = 9
  · rw [outsAt8_C V c t h0 h1]; dsimp only
    refine (congrFun (sout8_C_0_eq (F := Ideal) c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (hBlk8 V c t) (meanBlk8 V c t) (accAt8 V c (t.val - 1) (Nat.lt_of_le_of_lt (Nat.sub_le _ _) t.isLt))) (ix3 (0 : Fin 1) (0 : Fin 1) q)).trans ?_
    refine (k8_pay2_apply (hBlk8 V c t) (meanBlk8 V c t) (accAt8 V c (t.val - 1) (Nat.lt_of_le_of_lt (Nat.sub_le _ _) t.isLt)) q).trans ?_
    exact congrArg (fun z => accAt8 V c (t.val - 1) (Nat.lt_of_le_of_lt (Nat.sub_le _ _) t.isLt) (ix3 (0 : Fin 1) (0 : Fin 1) q) + z) (blockSq8_of_blocks V c t q)
  · rw [outsAt8_B V c t h0 h1]; dsimp only
    refine (congrFun (sout8_B_0_eq (F := Ideal) c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (hBlk8 V c t) (meanBlk8 V c t) (accAt8 V c (t.val - 1) (Nat.lt_of_le_of_lt (Nat.sub_le _ _) t.isLt))) (ix3 (0 : Fin 1) (0 : Fin 1) q)).trans ?_
    refine (k8_pay2_apply (hBlk8 V c t) (meanBlk8 V c t) (accAt8 V c (t.val - 1) (Nat.lt_of_le_of_lt (Nat.sub_le _ _) t.isLt)) q).trans ?_
    exact congrArg (fun z => accAt8 V c (t.val - 1) (Nat.lt_of_le_of_lt (Nat.sub_le _ _) t.isLt) (ix3 (0 : Fin 1) (0 : Fin 1) q) + z) (blockSq8_of_blocks V c t q)

/-- and at inner coordinate 9 the output window's buffer ends at the same. -/
theorem out8_last_step (c : Dev nD) (t : Fin cfg8.N) (h9 : t.val % 10 = 9) (q : Fin 128) :
    outAt8 V c t.val t.isLt (ix3 (0 : Fin 1) (0 : Fin 1) q) = accAt8 V c (t.val - 1) (Nat.lt_of_le_of_lt (Nat.sub_le _ _) t.isLt) (ix3 (0 : Fin 1) (0 : Fin 1) q) + blockSq8 V c t.val q := by
  have h0 : ¬t.val % 10 = 0 := by omega
  unfold outAt8 accAt8
  rw [outsAt8_C V c t h0 h9]; dsimp only
  refine (congrFun (out8_C_2_eq (F := Ideal) c (grid8.coords t) (ms8_0 t) (hs8_0 t) (ms8_1 t) (hs8_1 t) (ms8_2 t) (hs8_2 t) scM8_0 (Memref.isWhole_whole _) (fun h => h0 ((hcond8_0 t).mp h)) ((hcond8_1 t).mpr h9) (hBlk8 V c t) (meanBlk8 V c t) (accAt8 V c (t.val - 1) (Nat.lt_of_le_of_lt (Nat.sub_le _ _) t.isLt))) (ix3 (0 : Fin 1) (0 : Fin 1) q)).trans ?_
  refine (k8_pay2_apply (hBlk8 V c t) (meanBlk8 V c t) (accAt8 V c (t.val - 1) (Nat.lt_of_le_of_lt (Nat.sub_le _ _) t.isLt)) q).trans ?_
  exact congrArg (fun z => accAt8 V c (t.val - 1) (Nat.lt_of_le_of_lt (Nat.sub_le _ _) t.isLt) (ix3 (0 : Fin 1) (0 : Fin 1) q) + z) (blockSq8_of_blocks V c t q)

/-- THE ACCUMULATOR after position n: the contributions of the blocks from the last multiple of 10 up to n. -/
theorem acc8_eq (c : Dev nD) (n : ℕ) : ∀ (hn : n < cfg8.N) (q : Fin 128),
    accAt8 V c n hn (ix3 (0 : Fin 1) (0 : Fin 1) q) = ∑ j ∈ Finset.range (n % 10 + 1), blockSq8 V c (n - n % 10 + j) q := by
  induction n with
  | zero =>
    intro hn q
    refine (acc8_first V c ⟨0, hn⟩ rfl q).trans ?_
    show blockSq8 V c 0 q = ∑ j ∈ Finset.range 1, blockSq8 V c (0 - 0 % 10 + j) q
    rw [Finset.sum_range_one]
  | succ n ih =>
    intro hn q
    by_cases h0 : (n + 1) % 10 = 0
    · refine (acc8_first V c ⟨n + 1, hn⟩ h0 q).trans ?_
      show blockSq8 V c (n + 1) q = ∑ j ∈ Finset.range ((n + 1) % 10 + 1), blockSq8 V c (n + 1 - (n + 1) % 10 + j) q
      rw [h0, Finset.sum_range_one, Nat.sub_zero, Nat.add_zero]
    · refine (acc8_step V c ⟨n + 1, hn⟩ h0 q).trans ?_
      show accAt8 V c n (Nat.lt_of_succ_lt hn) (ix3 (0 : Fin 1) (0 : Fin 1) q) + blockSq8 V c (n + 1) q = _
      rw [ih (Nat.lt_of_succ_lt hn) q]
      have e1 : (n + 1) % 10 = n % 10 + 1 := by omega
      have e2 : n + 1 - (n + 1) % 10 = n - n % 10 := by omega
      have e3 : n - n % 10 + (n % 10 + 1) = n + 1 := by omega
      rw [e2, e1, Finset.sum_range_succ _ (n % 10 + 1), e3]

/-- THE OUTPUT WINDOW'S BUFFER after a point of inner coordinate 9: the ten contributions of its half. -/
theorem out8_last (c : Dev nD) (t : Fin cfg8.N) (h9 : t.val % 10 = 9) (q : Fin 128) :
    outAt8 V c t.val t.isLt (ix3 (0 : Fin 1) (0 : Fin 1) q) = ∑ j ∈ Finset.range 10, blockSq8 V c (t.val / 10 * 10 + j) q := by
  rw [out8_last_step V c t h9 q, acc8_eq V c (t.val - 1) (Nat.lt_of_le_of_lt (Nat.sub_le _ _) t.isLt) q]
  have e1 : (t.val - 1) % 10 + 1 = 9 := by omega
  have e2 : t.val - 1 - (t.val - 1) % 10 = t.val / 10 * 10 := by omega
  have e3 : t.val / 10 * 10 + 9 = t.val := by omega
  rw [e1, e2, Finset.sum_range_succ _ 9, e3]

/-! ## The result array -/

/-- Row s, column q of the result: over the ten blocks of half s and their 5000 rows each, the squared distance of
    the activation to the mean, summed. -/
def G8_2row (h : S100000x128.Idx → EReal) (mean : S1x128.Idx → EReal) (s : Fin 2) (q : Fin 128) : EReal :=
  ∑ j : Fin 10, ∑ r : Fin 5000, (h (ix2 (⟨(s.val * 10 + j.val) * 5000 + r.val, by omega⟩ : Fin 100000) q) - mean (ix2 (0 : Fin 1) q)) * (h (ix2 (⟨(s.val * 10 + j.val) * 5000 + r.val, by omega⟩ : Fin 100000) q) - mean (ix2 (0 : Fin 1) q))

/-- The result array as one function of the activations and the mean row. -/
def G8_2 (h : S100000x128.Idx → EReal) (mean : S1x128.Idx → EReal) : S2x1x128.Idx → EReal :=
  fun i => G8_2row h mean (i 0) (i 2)

theorem G8_2_apply (h : S100000x128.Idx → EReal) (mean : S1x128.Idx → EReal) (s : Fin 2) (q : Fin 128) :
    G8_2 h mean (ix3 s (0 : Fin 1) q) = ∑ j : Fin 10, ∑ r : Fin 5000, (h (ix2 (⟨(s.val * 10 + j.val) * 5000 + r.val, by omega⟩ : Fin 100000) q) - mean (ix2 (0 : Fin 1) q)) * (h (ix2 (⟨(s.val * 10 + j.val) * 5000 + r.val, by omega⟩ : Fin 100000) q) - mean (ix2 (0 : Fin 1) q)) := rfl

/-- The ten contributions of half s are row s of the result. -/
theorem G8_2_of_blocks (c : Dev nD) (s : Fin 2) (q : Fin 128) :
    (∑ j ∈ Finset.range 10, blockSq8 V c (s.val * 10 + j) q) = G8_2 (hArr8 V c) (meanArr8 V c) (ix3 s (0 : Fin 1) q) := by
  rw [G8_2_apply, Finset.sum_range (fun j => blockSq8 V c (s.val * 10 + j) q)]
  refine Finset.sum_congr rfl fun j _ => ?_
  unfold blockSq8
  refine Finset.sum_congr rfl fun r _ => ?_
  have hr : (s.val * 10 + j.val) * 5000 + r.val < 100000 := by omega
  unfold actRow8; rw [dif_pos hr]

/-- WHAT A POINT OF INNER COORDINATE 9 WRITES BACK is its block of the result. -/
theorem flushed8_2_eq (c : Dev nD) (t : Fin cfg8.N) (hf : (cfg8.win 2).flush t = true) :
    (dat8 (F := Ideal) V c).flushed 2 t = ((cfg8.win 2).blk t).view.read (Elt Ideal) (G8_2 (V c (Pipeline.arrRef spec8 0)) (V c (Pipeline.arrRef spec8 1))) := by
  have h9 : t.val % 10 = 9 := (flush8_2 t).mp hf
  have hN : t.val < 20 := lt_of_lt_of_eq t.isLt (show cfg8.N = 20 from N_8)
  obtain ⟨-, -, -, -, e4, e5, e6⟩ := idx8_facts t
  show (cfg8.win 2).cut (grid8.coords t) ((dat8 (F := Ideal) V c).after 2 t) = _
  rw [after8_2]
  funext j
  revert j
  show ∀ j : S1x1x128.Idx, outAt8 V c t.val t.isLt j = ((cfg8.win 2).blk t).view.read (Elt Ideal) (G8_2 (V c (Pipeline.arrRef spec8 0)) (V c (Pipeline.arrRef spec8 1))) j
  intro j
  obtain ⟨u, i, q, rfl⟩ : ∃ (u : Fin 1) (i : Fin 1) (q : Fin 128), j = ix3 u i q := ⟨j 0, j 1, j 2, eq_ix3 j⟩
  obtain rfl : u = 0 := Subsingleton.elim _ _
  obtain rfl : i = 0 := Subsingleton.elim _ _
  rw [View.read_apply]
  show outAt8 V c t.val t.isLt (ix3 (0 : Fin 1) (0 : Fin 1) q) = G8_2 (hArr8 V c) (meanArr8 V c) (((cfg8.win 2).blk t).view.emb (ix3 (0 : Fin 1) (0 : Fin 1) q))
  have hemb : ((cfg8.win 2).blk t).view.emb (ix3 (0 : Fin 1) (0 : Fin 1) q) = ix3 (⟨t.val / 10, by omega⟩ : Fin 2) (0 : Fin 1) q := by
    funext a; apply Fin.ext
    match a with
    | ⟨0, _⟩ => show win8_2.index t (0 : Fin 3) * 1 + 1 * ((0 : Fin 1) : ℕ) = t.val / 10; rw [e4]; simp
    | ⟨1, _⟩ => show win8_2.index t (1 : Fin 3) * 1 + 1 * ((0 : Fin 1) : ℕ) = ((0 : Fin 1) : ℕ); rw [e5]; simp
    | ⟨2, _⟩ => show win8_2.index t (2 : Fin 3) * 128 + 1 * q.val = q.val; rw [e6]; omega
  rw [hemb, out8_last V c t h9 q]
  exact G8_2_of_blocks V c (⟨t.val / 10, by omega⟩ : Fin 2) q

/-- An index of the result is in point t's block iff each coordinate is in the block's range on its axis. -/
theorem mem_blk8_2 (t : Fin cfg8.N) (i : S2x1x128.Idx) :
    i ∈ ((cfg8.win 2).blk t).view.set ↔ ∀ a : Fin 3, win8_2.index t a * S1x1x128.size a ≤ (i a).val ∧ (i a).val < win8_2.index t a * S1x1x128.size a + S1x1x128.size a := by
  show i ∈ ((View.whole (Pipeline.arrRef spec8 2)).slice (win8_2.rect t)).set ↔ _
  rw [View.set_slice_whole, Rect.mem_set_unit]
  exact Iff.rfl

/-- THE RESULT ARRAY after the region: the two points of inner coordinate 9 write its two rows. -/
theorem final8_2 (c : Dev nD) : (dat8 (F := Ideal) V c).arrAt 2 cfg8.N = G8_2 (V c (Pipeline.arrRef spec8 0)) (V c (Pipeline.arrRef spec8 1)) :=
  (dat8 (F := Ideal) V c).arrAt_eq_of_cover 2 (G8_2 (V c (Pipeline.arrRef spec8 0)) (V c (Pipeline.arrRef spec8 1))) (flushed8_2_eq V c) fun i => by
    have hi0 : (i 0).val < 2 := (i 0).isLt
    have hi1 : (i 1).val < 1 := (i 1).isLt
    have hi2 : (i 2).val < 128 := (i 2).isLt
    have hlt : (i 0).val * 10 + 9 < cfg8.N := by rw [show cfg8.N = 20 from N_8]; omega
    obtain ⟨-, -, -, -, e4, e5, e6⟩ := idx8_facts ⟨(i 0).val * 10 + 9, hlt⟩
    refine ⟨⟨(i 0).val * 10 + 9, hlt⟩, (flush8_2 _).mpr (by show ((i 0).val * 10 + 9) % 10 = 9; omega), ?_⟩
    rw [mem_blk8_2]
    intro a
    match a with
    | ⟨0, _⟩ =>
      show win8_2.index ⟨(i 0).val * 10 + 9, hlt⟩ (0 : Fin 3) * 1 ≤ (i 0).val ∧ (i 0).val < win8_2.index ⟨(i 0).val * 10 + 9, hlt⟩ (0 : Fin 3) * 1 + 1
      rw [e4]
      show ((i 0).val * 10 + 9) / 10 * 1 ≤ (i 0).val ∧ (i 0).val < ((i 0).val * 10 + 9) / 10 * 1 + 1
      omega
    | ⟨1, _⟩ =>
      show win8_2.index ⟨(i 0).val * 10 + 9, hlt⟩ (1 : Fin 3) * 1 ≤ (i 1).val ∧ (i 1).val < win8_2.index ⟨(i 0).val * 10 + 9, hlt⟩ (1 : Fin 3) * 1 + 1
      rw [e5]
      omega
    | ⟨2, _⟩ =>
      show win8_2.index ⟨(i 0).val * 10 + 9, hlt⟩ (2 : Fin 3) * 128 ≤ (i 2).val ∧ (i 2).val < win8_2.index ⟨(i 0).val * 10 + 9, hlt⟩ (2 : Fin 3) * 128 + 128
      rw [e6]
      omega

end Cert.KernelIdeal.Hand

end
-- ==== Proof.KI.V9.lean ====
import proofs.«417336_j40785009443359_3_alg».proof.Proof.KI.F9
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! # The normalising region's value: the output array as one function of the five input arrays

Every point of the grid normalises its 5000 rows of the activations, feature by feature, with the four per-feature rows;
the twenty blocks tile the output array, which therefore ends holding the normalisation of the whole activations. -/

/-! ## The function -/

/-- Batch normalisation with given statistics, index by index: at row `p` and feature `q`,
    `gamma q * (h p q - mean q) * rsqrt (var q + ε) + beta q`, associated as the body computes it; `ε` is the
    single-precision constant nearest to `1e-5`. -/
def G9_5 (h : S100000x128.Idx → EReal) (mean var gamma beta : S1x128.Idx → EReal) : S100000x128.Idx → EReal :=
  fun i => gamma (ix2 (0 : Fin 1) (i 1 : Fin 128)) * (h i - mean (ix2 (0 : Fin 1) (i 1 : Fin 128)))
      * Ideal.rsqrt (var (ix2 (0 : Fin 1) (i 1 : Fin 128)) + Ideal.ofBits .f32 0x3727C5AC#32)
    + beta (ix2 (0 : Fin 1) (i 1 : Fin 128))

/-- The function at explicit coordinates. -/
theorem G9_5_apply (h : S100000x128.Idx → EReal) (mean var gamma beta : S1x128.Idx → EReal) (p : Fin 100000) (q : Fin 128) :
    G9_5 h mean var gamma beta (ix2 p q)
      = gamma (ix2 (0 : Fin 1) q) * (h (ix2 p q) - mean (ix2 (0 : Fin 1) q))
          * Ideal.rsqrt (var (ix2 (0 : Fin 1) q) + Ideal.ofBits .f32 0x3727C5AC#32) + beta (ix2 (0 : Fin 1) q) := rfl

/-! ## The body's payload at an index -/

/-- A per-feature row broadcast over the 5000 rows of a block reads, at row `p` and feature `q`, the row at `q`. -/
theorem broadcastRow9_apply {α : Type} (x : S1x128.Idx → α) (p : Fin 5000) (q : Fin 128) :
    broadcastTo S5000x128 x broadcasts_S1x128_S5000x128 (ix2 p q) = x (ix2 (0 : Fin 1) q) :=
  broadcastTo_apply x broadcasts_S1x128_S5000x128 (ix2 p q) (ix2 (0 : Fin 1) q) fun a => by
    match a with
    | ⟨0, _⟩ => rfl
    | ⟨1, _⟩ => rfl

/-- The payload of the body's one store, as the tree of vector operations it is (the skeleton's term with its
    intermediate names substituted). -/
theorem k9_pay1_eq {F : FTy → Type} [FloatOps F] (v0 v5 : Vec F S1x128 .f32) (v7 : Vec F S5000x128 .f32) (v9 v17 : Vec F S1x128 .f32) :
    k9_pay1 v0 v5 v7 v9 v17
      = addf (mulf (mulf (broadcastTo S5000x128 (shapeCast S1x128 v5 shapeCasts_S1x128_S1x128) broadcasts_S1x128_S5000x128)
                (subf (shapeCast S5000x128 v7 shapeCasts_S5000x128_S5000x128)
                  (broadcastTo S5000x128 (shapeCast S1x128 v9 shapeCasts_S1x128_S1x128) broadcasts_S1x128_S5000x128)))
              (broadcastTo S5000x128 (rsqrt (addf (shapeCast S1x128 v0 shapeCasts_S1x128_S1x128)
                (broadcast S1x128 (Scalar.ofBits .f32 0x3727C5AC#32)))) broadcasts_S1x128_S5000x128))
          (broadcastTo S5000x128 (shapeCast S1x128 v17 shapeCasts_S1x128_S1x128) broadcasts_S1x128_S5000x128) := rfl

/-- The payload at row `p` and feature `q` of the block, from the loaded activations `v7`, mean row `v9`, variance row
    `v0`, scale row `v5` and shift row `v17`. -/
theorem k9_pay1_apply (v0 v5 : FVec Ideal S1x128 .f32) (v7 : FVec Ideal S5000x128 .f32) (v9 v17 : FVec Ideal S1x128 .f32)
    (p : Fin 5000) (q : Fin 128) :
    k9_pay1 (F := Ideal) v0 v5 v7 v9 v17 (ix2 p q)
      = v5 (ix2 (0 : Fin 1) q) * (v7 (ix2 p q) - v9 (ix2 (0 : Fin 1) q))
          * Ideal.rsqrt (v0 (ix2 (0 : Fin 1) q) + Ideal.ofBits .f32 0x3727C5AC#32) + v17 (ix2 (0 : Fin 1) q) := by
  rw [k9_pay1_eq]
  simp only [shapeCast_self]
  rw [addf_apply, mulf_apply, mulf_apply, subf_apply, broadcastRow9_apply, broadcastRow9_apply, broadcastRow9_apply,
    broadcastRow9_apply]
  rfl

/-! ## The blocks, as parts of the arrays -/

theorem zeros9 : (![0, 0] : Fin 2 → Nat) = fun _ => 0 := funext fun a => by fin_cases a <;> rfl

/-- The printed index maps over the grid: the activations' and the output's block index is the point's number on the
    row axis and 0 on the feature axis; the four rows' block index is 0 on both. -/
theorem index9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- There are twenty points. -/
theorem lt9 (t : Fin cfg9.N) : t.val < 20 := lt_of_lt_of_eq t.isLt N_9

/-- Row `p`, feature `q` of the activations' block at point `t` is row `5000 t + p` of the activations. -/
theorem iblk9_0_apply (c : Dev nD) (t : Fin cfg9.N) (p : Fin 5000) (q : Fin 128) (r : Fin 100000) (hr : r.val = 5000 * t.val + p.val) :
    iblk9 V c 0 t (ix2 p q) = V c main_v99_1 (ix2 r q) := by
  obtain ⟨e0, e1, -⟩ := index9 t
  show V c main_v99_1 (((cfg9.win 0).blk t).view.emb (ix2 p q)) = V c main_v99_1 (ix2 r q)
  refine congrArg (V c main_v99_1) (funext fun a => Fin.ext ?_)
  match a with
  | ⟨0, _⟩ => show win9_0.index t (0 : Fin 2) * 5000 + 1 * p.val = r.val; omega
  | ⟨1, _⟩ => show win9_0.index t (1 : Fin 2) * 128 + 1 * q.val = q.val; omega

/-- The mean row's block at any point is the mean row. -/
theorem iblk9_1_apply (c : Dev nD) (t : Fin cfg9.N) (q : Fin 128) :
    iblk9 V c 1 t (ix2 (0 : Fin 1) q) = V c main_v102 (ix2 (0 : Fin 1) q) := by
  obtain ⟨-, -, e0, e1, -⟩ := index9 t
  show V c main_v102 (((cfg9.win 1).blk t).view.emb (ix2 (0 : Fin 1) q)) = V c main_v102 (ix2 (0 : Fin 1) q)
  refine congrArg (V c main_v102) (funext fun a => Fin.ext ?_)
  match a with
  | ⟨0, _⟩ => show win9_1.index t (0 : Fin 2) * 1 + 1 * 0 = 0; omega
  | ⟨1, _⟩ => show win9_1.index t (1 : Fin 2) * 128 + 1 * q.val = q.val; omega

/-- The variance row's block at any point is the variance row. -/
theorem iblk9_2_apply (c : Dev nD) (t : Fin cfg9.N) (q : Fin 128) :
    iblk9 V c 2 t (ix2 (0 : Fin 1) q) = V c main_v106 (ix2 (0 : Fin 1) q) := by
  obtain ⟨-, -, -, -, e0, e1, -⟩ := index9 t
  show V c main_v106 (((cfg9.win 2).blk t).view.emb (ix2 (0 : Fin 1) q)) = V c main_v106 (ix2 (0 : Fin 1) q)
  refine congrArg (V c main_v106) (funext fun a => Fin.ext ?_)
  match a with
  | ⟨0, _⟩ => show win9_2.index t (0 : Fin 2) * 1 + 1 * 0 = 0; omega
  | ⟨1, _⟩ => show win9_2.index t (1 : Fin 2) * 128 + 1 * q.val = q.val; omega

/-- The scale row's block at any point is the scale row. -/
theorem iblk9_3_apply (c : Dev nD) (t : Fin cfg9.N) (q : Fin 128) :
    iblk9 V c 3 t (ix2 (0 : Fin 1) q) = V c main_v111 (ix2 (0 : Fin 1) q) := by
  obtain ⟨-, -, -, -, -, -, e0, e1, -⟩ := index9 t
  show V c main_v111 (((cfg9.win 3).blk t).view.emb (ix2 (0 : Fin 1) q)) = V c main_v111 (ix2 (0 : Fin 1) q)
  refine congrArg (V c main_v111) (funext fun a => Fin.ext ?_)
  match a with
  | ⟨0, _⟩ => show win9_3.index t (0 : Fin 2) * 1 + 1 * 0 = 0; omega
  | ⟨1, _⟩ => show win9_3.index t (1 : Fin 2) * 128 + 1 * q.val = q.val; omega

/-- The shift row's block at any point is the shift row. -/
theorem iblk9_4_apply (c : Dev nD) (t : Fin cfg9.N) (q : Fin 128) :
    iblk9 V c 4 t (ix2 (0 : Fin 1) q) = V c main_v112 (ix2 (0 : Fin 1) q) := by
  obtain ⟨-, -, -, -, -, -, -, -, e0, e1, -⟩ := index9 t
  show V c main_v112 (((cfg9.win 4).blk t).view.emb (ix2 (0 : Fin 1) q)) = V c main_v112 (ix2 (0 : Fin 1) q)
  refine congrArg (V c main_v112) (funext fun a => Fin.ext ?_)
  match a with
  | ⟨0, _⟩ => show win9_4.index t (0 : Fin 2) * 1 + 1 * 0 = 0; omega
  | ⟨1, _⟩ => show win9_4.index t (1 : Fin 2) * 128 + 1 * q.val = q.val; omega

/-- Row `p`, feature `q` of the output's block at point `t` sits at row `5000 t + p` of the output array. -/
theorem blk9_5_emb (t : Fin cfg9.N) (p : Fin 5000) (q : Fin 128) (r : Fin 100000) (hr : r.val = 5000 * t.val + p.val) :
    ((cfg9.win 5).blk t).view.emb (ix2 p q) = ix2 r q := by
  obtain ⟨-, -, -, -, -, -, -, -, -, -, e0, e1⟩ := index9 t
  refine funext fun a => Fin.ext ?_
  match a with
  | ⟨0, _⟩ => show win9_5.index t (0 : Fin 2) * 5000 + 1 * p.val = r.val; omega
  | ⟨1, _⟩ => show win9_5.index t (1 : Fin 2) * 128 + 1 * q.val = q.val; omega

/-! ## What a point writes back, and the array after the region -/

/-- What point `t` writes back is block `t` of the normalisation of the arrays as the region finds them. -/
theorem flushed9_5_eq (c : Dev nD) (t : Fin cfg9.N) :
    (dat9 (F := Ideal) V c).flushed 5 t
      = ((cfg9.win 5).blk t).view.read (Elt Ideal) (G9_5 (V c main_v99_1) (V c main_v102) (V c main_v106) (V c main_v111) (V c main_v112)) := by
  show (cfg9.win 5).cut (grid9.coords t) ((dat9 (F := Ideal) V c).after 5 t) = _
  rw [after9_5]
  unfold out9_5
  rw [View.canon_unit_zero zeros9]
  simp only [View.ld_unit_zero (S := S5000x128) zeros9, View.ld_unit_zero (S := S1x128) zeros9]
  refine funext fun (j : S5000x128.Idx) => ?_
  obtain ⟨p, q, rfl⟩ : ∃ (p : Fin 5000) (q : Fin 128), j = ix2 p q := ⟨j 0, j 1, eq_ix2 j⟩
  have hr : 5000 * t.val + p.val < 100000 := by have := lt9 t; have := p.isLt; omega
  show k9_pay1 (F := Ideal) (iblk9 V c 2 t) (iblk9 V c 3 t) (iblk9 V c 0 t) (iblk9 V c 1 t) (iblk9 V c 4 t) (ix2 p q)
    = G9_5 (V c main_v99_1) (V c main_v102) (V c main_v106) (V c main_v111) (V c main_v112) (((cfg9.win 5).blk t).view.emb (ix2 p q))
  rw [blk9_5_emb t p q ⟨5000 * t.val + p.val, hr⟩ rfl, G9_5_apply]
  refine (k9_pay1_apply _ _ _ _ _ p q).trans ?_
  rw [iblk9_0_apply V c t p q ⟨5000 * t.val + p.val, hr⟩ rfl, iblk9_1_apply V c t q, iblk9_2_apply V c t q,
    iblk9_3_apply V c t q, iblk9_4_apply V c t q]

/-- An index of the output array is in point `t`'s block iff each coordinate is in the block's range on its axis. -/
theorem mem_blk9_5 (t : Fin cfg9.N) (i : S100000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole main_v113).slice (win9_5.rect t)).set ↔ _
  rw [View.set_slice_whole, Rect.mem_set_unit]
  exact Iff.rfl

/-- Every row of the output array is in some point's block: row `r` in that of point `r / 5000`. -/
theorem cover9_blocks (i : S100000x128.Idx) : ∃ t : Fin cfg9.N, (cfg9.win 5).flush t = true ∧ i ∈ ((cfg9.win 5).blk t).view.set := by
  have hi0 : (i 0).val < 100000 := (i 0).isLt
  have hi1 : (i 1).val < 128 := (i 1).isLt
  have ht : (i 0).val / 5000 < cfg9.N := by rw [show cfg9.N = 20 from N_9]; omega
  refine ⟨⟨(i 0).val / 5000, ht⟩, flush9_5 _, ?_⟩
  obtain ⟨-, -, -, -, -, -, -, -, -, -, e0, e1⟩ := index9 ⟨(i 0).val / 5000, ht⟩
  rw [mem_blk9_5]
  intro a
  match a with
  | ⟨0, _⟩ =>
    show win9_5.index ⟨(i 0).val / 5000, ht⟩ (0 : Fin 2) * 5000 ≤ (i 0).val ∧ (i 0).val < win9_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win9_5.index ⟨(i 0).val / 5000, ht⟩ (1 : Fin 2) * 128 ≤ (i 1).val ∧ (i 1).val < win9_5.index ⟨(i 0).val / 5000, ht⟩ (1 : Fin 2) * 128 + 128
    rw [e1]; omega

/-- The output array after the region is the normalisation of the arrays as the region finds them. -/
theorem final9_5 (c : Dev nD) :
    (dat9 (F := Ideal) V c).arrAt 5 cfg9.N = G9_5 (V c main_v99_1) (V c main_v102) (V c main_v106) (V c main_v111) (V c main_v112) :=
  (dat9 (F := Ideal) V c).arrAt_eq_of_cover 5 _ (fun t _ => flushed9_5_eq V c t) cover9_blocks

end Cert.KernelIdeal.Hand
-- ==== Proof.KI.V10K.lean ====
import proofs.«417336_j40785009443359_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The pooling body's two payloads at an index, at the extended reals

The zeroing payload is zero everywhere. The accumulating payload adds to what the accumulator held, segment by
segment and column by column, two products of the one-hot matrix of the block's segment ids (row r, segment g:
1 when row r's id is g, else 0) with the block's rows: once with the rows themselves, once with the rows minus
themselves (the second half of the split product). -/

/-- The zeroing payload is zero at every index. -/
theorem k10_pay1_apply (y : S1x1024x128.Idx) : k10_pay1 (F := Ideal) y = 0 := by
  unfold k10_pay1
  refine (congrFun (shapeCast_self _ _) y).trans ?_
  exact Ideal.ofBits_zero_f32

/-- The indicator "segment id `b` is segment `g`", as the body computes it: the comparison's bit widened to a word
    and read as a signed integer. -/
def poolMask (b : BitVec 32) (g : Fin 1024) : EReal :=
  FloatOps.sitofp (F := Ideal) .f32 ((IntOp.cmpi .eq b (BitVec.ofNat 32 g.val)).setWidth 32)

/-- It is 1 where the id is the segment's number and 0 elsewhere. -/
theorem poolMask_eq (w : BitVec 32) (g : Fin 1024) : poolMask w g = if w = BitVec.ofNat 32 g.val then (1 : EReal) else 0 := by
  unfold poolMask
  show ((((IntOp.cmpi .eq w (BitVec.ofNat 32 g.val)).setWidth 32).toInt : ℝ) : EReal) = _
  by_cases h : w = BitVec.ofNat 32 g.val
  · have e : IntOp.cmpi .eq w (BitVec.ofNat 32 g.val) = 1#1 := by
      unfold IntOp.cmpi; rw [h]; simp
    have e1 : ((1#1 : BitVec 1).setWidth 32).toInt = 1 := by decide
    rw [if_pos h, e, e1]; simp
  · have hb : (w == BitVec.ofNat 32 g.val) = false := beq_eq_false_iff_ne.mpr h
    have e : IntOp.cmpi .eq w (BitVec.ofNat 32 g.val) = 0#1 := by
      show BitVec.ofBool (w == BitVec.ofNat 32 g.val) = 0#1
      rw [hb]; rfl
    have e0 : ((0#1 : BitVec 1).setWidth 32).toInt = 0 := by decide
    rw [if_neg h, e, e0]; simp

/-- A column of 1000 entries laid along 1024 columns reads, at (r, g), the column's entry r. -/
theorem bcast_col10 {α : Type} (v : S1000x1.Idx → α) (h : S1000x1.Broadcasts S1000x1024) (r : Fin 1000) (g : Fin 1024) :
    broadcastTo S1000x1024 v h (ix2 r g) = v (ix2 r (0 : Fin 1)) := by
  refine broadcastTo_apply v h (ix2 r g) (ix2 r (0 : Fin 1)) fun ax => ?_
  match ax with
  | ⟨0, _⟩ => rfl
  | ⟨1, _⟩ => rfl

/-- The one-hot matrix of a block's segment ids, as the body builds it. -/
abbrev poolLhs10 (v4 : Vec Ideal S1000x1 .i32) : FVec Ideal S1000x1024 .bf16 :=
  truncf .bf16 (sitofp .f32 (extui 32 (cmpi .eq (broadcastTo S1000x1024 (shapeCast S1000x1 v4 shapeCasts_S1000x1_S1000x1) broadcasts_S1000x1_S1000x1024) (iota .tc S1000x1024 32 [1] iota_S1000x1024_d1_w32)) natLt_1_32) : FVec Ideal S1000x1024 .f32) bitsLt_bf16_f32

/-- Its entry at row r, segment g is the indicator of "row r's id is g". -/
theorem poolLhs10_apply (v4 : Vec Ideal S1000x1 .i32) (r : Fin 1000) (g : Fin 1024) :
    poolLhs10 v4 (ix2 r g) = poolMask (v4 (ix2 r (0 : Fin 1))) g := by
  have e3 : iota .tc S1000x1024 32 [1] iota_S1000x1024_d1_w32 (ix2 r g) = BitVec.ofNat 32 g.val :=
    iota_single_apply .tc S1000x1024 32 1 iota_S1000x1024_d1_w32 (ix2 r g)
  have e6 : broadcastTo S1000x1024 (shapeCast S1000x1 v4 shapeCasts_S1000x1_S1000x1) broadcasts_S1000x1_S1000x1024 (ix2 r g) = v4 (ix2 r (0 : Fin 1)) :=
    (bcast_col10 _ _ r g).trans (congrFun (shapeCast_self v4 _) _)
  show FloatOps.sitofp (F := Ideal) .f32 ((IntOp.cmpi .eq (broadcastTo S1000x1024 (shapeCast S1000x1 v4 shapeCasts_S1000x1_S1000x1) broadcasts_S1000x1_S1000x1024 (ix2 r g)) (iota .tc S1000x1024 32 [1] iota_S1000x1024_d1_w32 (ix2 r g))).setWidth 32) = poolMask (v4 (ix2 r (0 : Fin 1))) g
  rw [e3, e6]
  rfl

/-! ## The product over the block's 1000 rows -/

/-- The operands' indices of the product (rows contracted on both sides; the left operand's columns are the result's
    rows, the right operand's columns the result's columns), axis by axis. -/
theorem lhs_pool10_0 (i : S1024x128.Idx) (q : dot_S1000x1024_S1000x128_S1024x128_0_0_1_1_n_n.contr.Idx) :
    (dot_S1000x1024_S1000x128_S1024x128_0_0_1_1_n_n.lhsIdx i q 0).val = (q ⟨0, by decide⟩).val :=
  dot_S1000x1024_S1000x128_S1024x128_0_0_1_1_n_n.lhsIdx_val_of_single rfl i q
theorem lhs_pool10_1 (i : S1024x128.Idx) (q : dot_S1000x1024_S1000x128_S1024x128_0_0_1_1_n_n.contr.Idx) :
    (dot_S1000x1024_S1000x128_S1024x128_0_0_1_1_n_n.lhsIdx i q 1).val = (i 0).val := by
  unfold DotDims.lhsIdx
  rw [dif_neg (show ¬(1 : Fin S1000x1024.rank) ∈ dot_S1000x1024_S1000x128_S1024x128_0_0_1_1_n_n.lhsBatch by decide), dif_pos (show (1 : Fin S1000x1024.rank) ∈ dot_S1000x1024_S1000x128_S1024x128_0_0_1_1_n_n.lhsNonContracting by decide)]
  rfl
theorem rhs_pool10_0 (i : S1024x128.Idx) (q : dot_S1000x1024_S1000x128_S1024x128_0_0_1_1_n_n.contr.Idx) :
    (dot_S1000x1024_S1000x128_S1024x128_0_0_1_1_n_n.rhsIdx i q 0).val = (q ⟨0, by decide⟩).val :=
  dot_S1000x1024_S1000x128_S1024x128_0_0_1_1_n_n.rhsIdx_val_of_single rfl i q
theorem rhs_pool10_1 (i : S1024x128.Idx) (q : dot_S1000x1024_S1000x128_S1024x128_0_0_1_1_n_n.contr.Idx) :
    (dot_S1000x1024_S1000x128_S1024x128_0_0_1_1_n_n.rhsIdx i q 1).val = (i 1).val := by
  unfold DotDims.rhsIdx
  rw [dif_neg (show ¬(1 : Fin S1000x128.rank) ∈ dot_S1000x1024_S1000x128_S1024x128_0_0_1_1_n_n.rhsBatch by decide), dif_pos (show (1 : Fin S1000x128.rank) ∈ dot_S1000x1024_S1000x128_S1024x128_0_0_1_1_n_n.rhsNonContracting by decide)]
  rfl

/-- The product into a zero accumulator, at segment g and column q: the sum over the block's rows. -/
theorem pool_matmul10_apply (lhs : FVec Ideal S1000x1024 .bf16) (rhs : FVec Ideal S1000x128 .bf16) (g : Fin 1024) (q : Fin 128) :
    matmul dot_S1000x1024_S1000x128_S1024x128_0_0_1_1_n_n none lhs rhs (constant S1024x128 .f32 0x00000000#32) (ix2 g q) = ∑ r : Fin 1000, lhs (ix2 r g) * rhs (ix2 r q) := by
  show FloatOps.matmul dot_S1000x1024_S1000x128_S1024x128_0_0_1_1_n_n none lhs rhs (constant S1024x128 .f32 0x00000000#32) (ix2 g q) = _
  rw [Ideal.matmul_constant_zero_apply, ← Equiv.sum_comp (ValueIdx.contrEquiv1 dot_S1000x1024_S1000x128_S1024x128_0_0_1_1_n_n 1000 rfl rfl).symm]
  refine Finset.sum_congr rfl fun k _ => ?_
  have hk := ValueIdx.contrEquiv1_symm_val dot_S1000x1024_S1000x128_S1024x128_0_0_1_1_n_n 1000 rfl rfl k
  have el : dot_S1000x1024_S1000x128_S1024x128_0_0_1_1_n_n.lhsIdx (ix2 g q) ((ValueIdx.contrEquiv1 dot_S1000x1024_S1000x128_S1024x128_0_0_1_1_n_n 1000 rfl rfl).symm k) = ix2 k g := funext fun a => Fin.ext (by
    match a with
    | ⟨0, _⟩ => exact (lhs_pool10_0 _ _).trans hk
    | ⟨1, _⟩ => exact lhs_pool10_1 _ _)
  have er : dot_S1000x1024_S1000x128_S1024x128_0_0_1_1_n_n.rhsIdx (ix2 g q) ((ValueIdx.contrEquiv1 dot_S1000x1024_S1000x128_S1024x128_0_0_1_1_n_n 1000 rfl rfl).symm k) = ix2 k q := funext fun a => Fin.ext (by
    match a with
    | ⟨0, _⟩ => exact (rhs_pool10_0 _ _).trans hk
    | ⟨1, _⟩ => exact rhs_pool10_1 _ _)
  rw [el, er]

/-! ## The accumulating payload -/

/-- The accumulating payload, spelled as one term. -/
theorem k10_pay2_eq (v4 : Vec Ideal S1000x1 .i32) (v11 : Vec Ideal S1000x128 .f32) (v19 : Vec Ideal S1x1024x128 .f32) :
    k10_pay2 (F := Ideal) v4 v11 v19
      = shapeCast S1x1024x128
          (addf (addf (shapeCast S1024x128 v19 shapeCasts_S1x1024x128_S1024x128)
              (matmul dot_S1000x1024_S1000x128_S1024x128_0_0_1_1_n_n none (poolLhs10 v4)
                (truncf .bf16 (shapeCast S1000x128 v11 shapeCasts_S1000x128_S1000x128) bitsLt_bf16_f32)
                (constant S1024x128 .f32 0x00000000#32)))
            (matmul dot_S1000x1024_S1000x128_S1024x128_0_0_1_1_n_n none (poolLhs10 v4)
              (truncf .bf16 (subf (shapeCast S1000x128 v11 shapeCasts_S1000x128_S1000x128) (shapeCast S1000x128 v11 shapeCasts_S1000x128_S1000x128)) bitsLt_bf16_f32)
              (constant S1024x128 .f32 0x00000000#32)))
          shapeCasts_S1024x128_S1x1024x128 := rfl

/-- The accumulating payload at segment g, column q: what the accumulator held there, plus the sum over the block's
    rows of indicator times entry, plus the sum over the block's rows of indicator times (entry minus itself). -/
theorem k10_pay2_apply (v4 : Vec Ideal S1000x1 .i32) (v11 : Vec Ideal S1000x128 .f32) (v19 : Vec Ideal S1x1024x128 .f32) (g : Fin 1024) (q : Fin 128) :
    k10_pay2 (F := Ideal) v4 v11 v19 (ix3 (0 : Fin 1) g q)
      = v19 (ix3 (0 : Fin 1) g q) + (∑ r : Fin 1000, poolMask (v4 (ix2 r (0 : Fin 1))) g * v11 (ix2 r q))
          + (∑ r : Fin 1000, poolMask (v4 (ix2 r (0 : Fin 1))) g * (v11 (ix2 r q) - v11 (ix2 r q))) := by
  rw [k10_pay2_eq]
  refine (shapeCast_ab_1ab_apply _ _ (0 : Fin 1) g q).trans ?_
  have e12 : ∀ r : Fin 1000, shapeCast S1000x128 v11 shapeCasts_S1000x128_S1000x128 (ix2 r q) = v11 (ix2 r q) :=
    fun r => congrFun (shapeCast_self v11 _) _
  refine (addf_apply _ _ (ix2 g q)).trans ?_
  refine congrArg₂ (· + ·) ?_ ?_
  · refine (addf_apply _ _ (ix2 g q)).trans ?_
    refine congrArg₂ (· + ·) (shapeCast_1ab_ab_apply v19 _ g q) ?_
    refine (pool_matmul10_apply _ _ g q).trans (Finset.sum_congr rfl fun r _ => ?_)
    exact congrArg₂ (· * ·) (poolLhs10_apply v4 r g) (e12 r)
  · refine (pool_matmul10_apply _ _ g q).trans (Finset.sum_congr rfl fun r _ => ?_)
    exact congrArg₂ (· * ·) (poolLhs10_apply v4 r g) (congrArg₂ (· - ·) (e12 r) (e12 r))

end Cert.KernelIdeal.Hand

end
-- ==== Proof.KI.V10P.lean ====
import proofs.«417336_j40785009443359_3_alg».proof.Proof.KI.F10
import Idealize.ShloMosaic.Lib.Pipeline.Value
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

/-! # The pooling region: what each case's found pieces are — the printed payloads of the point's blocks -/

theorem offs10_zero3 : (![0, 0, 0] : Fin 3 → Nat) = fun _ => 0 := funext fun a => by fin_cases a <;> rfl
theorem offs10_zero2 : (![0, 0] : Fin 2 → Nat) = fun _ => 0 := funext fun a => by fin_cases a <;> rfl

/-- At inner coordinate 0 the accumulator ends at the accumulating payload over the zeroing payload. -/
theorem sout10_A_0_eq (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : cond10_0 i) (hc1 : ¬cond10_1 i)
    (x0 : Vec F S1000x128 .f32) (x1 : Vec F S1000x1 .i32) :
    sout10_A_0 c i arg2 harg2 arg3 harg3 arg4 harg4 arg5 harg5 hc0 hc1 x0 x1 = k10_pay2 x1 x0 (k10_pay1 (F := F)) := by
  unfold sout10_A_0
  rw [View.read_writes_eq_canon _ _ _ (scover10_A_0 c i arg2 harg2 arg3 harg3 arg4 harg4 arg5 harg5 hc0 hc1 x0 x1)]
  unfold kernelRun10_A
  dsimp only
  try sl_unfold_words
  rw [View.canon_cons_unit_zero (S := S1x1024x128) offs10_zero3]
  simp only [View.readAt_eq_ld, harg2.read_unread, harg3.read_unread, harg5.read_unread, View.ld_unit_zero (S := S1000x128) offs10_zero2, View.ld_unit_zero (S := S1000x1) offs10_zero2, View.ld_unit_zero (S := S1x1024x128) offs10_zero3, View.readCov_unit_zero (S := S1x1024x128) _ offs10_zero3]

/-- At inner coordinates 1 to 48 the accumulator ends at the accumulating payload over what it held. -/
theorem sout10_B_0_eq (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : ¬cond10_1 i)
    (x0 : Vec F S1000x128 .f32) (x1 : Vec F S1000x1 .i32) (xs0 : Vec F S1x1024x128 .f32) :
    sout10_B_0 c i arg2 harg2 arg3 harg3 arg4 harg4 arg5 harg5 hc0 hc1 x0 x1 xs0 = k10_pay2 x1 x0 xs0 := by
  unfold sout10_B_0
  rw [View.read_writes_eq_canon _ _ _ (scover10_B_0 c i arg2 harg2 arg3 harg3 arg4 harg4 arg5 harg5 hc0 hc1 x0 x1 xs0)]
  unfold kernelRun10_B
  dsimp only
  try sl_unfold_words
  rw [View.canon_unit_zero offs10_zero3]
  simp only [View.readAt_eq_ld, harg2.read_unread, harg3.read_unread, harg5.read_unread, View.ld_unit_zero (S := S1000x128) offs10_zero2, View.ld_unit_zero (S := S1000x1) offs10_zero2, View.ld_unit_zero (S := S1x1024x128) offs10_zero3, View.readCov_unit_zero (S := S1x1024x128) _ offs10_zero3]

/-- At inner coordinate 49 likewise, -/
theorem sout10_C_0_eq (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) :
    sout10_C_0 c i arg2 harg2 arg3 harg3 arg4 harg4 arg5 harg5 hc0 hc1 x0 x1 xs0 = k10_pay2 x1 x0 xs0 := by
  unfold sout10_C_0
  rw [View.read_writes_eq_canon _ _ _ (scover10_C_0 c i arg2 harg2 arg3 harg3 arg4 harg4 arg5 harg5 hc0 hc1 x0 x1 xs0)]
  unfold kernelRun10_C
  dsimp only
  try sl_unfold_words
  rw [View.canon_unit_zero offs10_zero3]
  simp only [View.readAt_eq_ld, harg2.read_unread, harg3.read_unread, harg5.read_unread, View.ld_unit_zero (S := S1000x128) offs10_zero2, View.ld_unit_zero (S := S1000x1) offs10_zero2, View.ld_unit_zero (S := S1x1024x128) offs10_zero3, View.readCov_unit_zero (S := S1x1024x128) _ offs10_zero3]

/-- and the output window's buffer ends at the same contents: the accumulator copied out. -/
theorem out10_C_2_eq (c : Dev nD) (i : grid10.Coords) (arg2 : Memref sig .tc .vmem S1000x128 .f32) (harg2 : arg2.IsWhole) (arg3 : Memref sig .tc .vmem S1000x1 .i32) (harg3 : arg3.IsWhole) (arg4 : Memref sig .tc .vmem S1x1024x128 .f32) (harg4 : arg4.IsWhole) (arg5 : Memref sig .tc .vmem S1x1024x128 .f32) (harg5 : arg5.IsWhole) (hc0 : ¬cond10_0 i) (hc1 : cond10_1 i)
    (x0 : Vec F S1000x128 .f32) (x1 : Vec F S1000x1 .i32) (xs0 : Vec F S1x1024x128 .f32) :
    out10_C_2 c i arg2 harg2 arg3 harg3 arg4 harg4 arg5 harg5 hc0 hc1 x0 x1 xs0 = k10_pay2 x1 x0 xs0 := by
  unfold out10_C_2
  rw [View.read_writes_eq_canon _ _ _ (cover10_C_2 c i arg2 harg2 arg3 harg3 arg4 harg4 arg5 harg5 hc0 hc1 x0 x1 xs0)]
  unfold kernelRun10_C
  dsimp only
  try sl_unfold_words
  rw [View.canon_unit_zero offs10_zero3, View.readCov_unit_zero (S := S1x1024x128) _ offs10_zero3]
  simp only [View.readAt_eq_ld, harg2.read_unread, harg3.read_unread, harg5.read_unread, View.ld_unit_zero (S := S1000x128) offs10_zero2, View.ld_unit_zero (S := S1000x1) offs10_zero2, View.ld_unit_zero (S := S1x1024x128) offs10_zero3, View.readCov_unit_zero (S := S1x1024x128) _ offs10_zero3]

end Cert.KernelIdeal.Hand

end
-- ==== Proof.LibFiniteSums.lean ====
import Mathlib.Data.EReal.Basic
import Mathlib.Data.EReal.Operations
import Mathlib.Data.EReal.Inv
import Mathlib.Analysis.Real.Sqrt
import Mathlib.Algebra.BigOperators.Group.Finset.Basic
import Mathlib.Algebra.BigOperators.Group.Finset.Piecewise
import Mathlib.Algebra.Order.BigOperators.Group.Finset
import Mathlib.Data.Fintype.BigOperators
import Mathlib.Logic.Equiv.Fin.Basic
import Idealize.ShloMosaic.PureOps.Ideal
import Idealize.ShloMosaic.PureOps.Ideal.Laws
import Idealize.ShloMosaic.Lib.ValueIdx

/-!
# Finite sums of finite extended reals

The extended reals are not a ring: a product does not distribute over a sum once an infinity is among the
terms. Where every term is a real number the usual laws hold. This file names that side condition
(`IsReal`), shows it closed under the field operations met in a normalised graph convolution (sum,
difference, product, maximum, finite sums, division by a positive real, inverse square root of a positive
real), and proves the regrouping laws of finite sums under it. It also splits a sum over a range of rows
into the sums over its tiles, turns a mask-weighted sum into a sum over the masked set, evaluates the few
single-precision words such a program spells, and reads a small index word as its signed value.
-/

noncomputable section

namespace Cert.LibFinite

open Idealize.ShloMosaic

/-! ### Real-valued extended reals -/

/-- An extended real is real when it is neither of the two infinities. -/
def IsReal (a : EReal) : Prop := a ≠ ⊤ ∧ a ≠ ⊥

/-- The cast of a real number is real. -/
theorem isReal_coe (r : ℝ) : IsReal (r : EReal) := ⟨EReal.coe_ne_top r, EReal.coe_ne_bot r⟩

/-- Zero is real. -/
theorem isReal_zero : IsReal (0 : EReal) := isReal_coe 0

/-- One is real. -/
theorem isReal_one : IsReal (1 : EReal) := isReal_coe 1

/-- A real extended real is the cast of some real number. -/
theorem IsReal.exists_coe {a : EReal} (ha : IsReal a) : ∃ r : ℝ, a = (r : EReal) :=
  ⟨a.toReal, (EReal.coe_toReal ha.1 ha.2).symm⟩

/-- The sum of two reals is real. -/
theorem IsReal.add {a b : EReal} (ha : IsReal a) (hb : IsReal b) : IsReal (a + b) := by
  obtain ⟨x, rfl⟩ := ha.exists_coe
  obtain ⟨y, rfl⟩ := hb.exists_coe
  rw [← EReal.coe_add]; exact isReal_coe _

/-- The difference of two reals is real. -/
theorem IsReal.sub {a b : EReal} (ha : IsReal a) (hb : IsReal b) : IsReal (a - b) := by
  obtain ⟨x, rfl⟩ := ha.exists_coe
  obtain ⟨y, rfl⟩ := hb.exists_coe
  rw [← EReal.coe_sub]; exact isReal_coe _

/-- The product of two reals is real. -/
theorem IsReal.mul {a b : EReal} (ha : IsReal a) (hb : IsReal b) : IsReal (a * b) := by
  obtain ⟨x, rfl⟩ := ha.exists_coe
  obtain ⟨y, rfl⟩ := hb.exists_coe
  rw [← EReal.coe_mul]; exact isReal_coe _

/-- The negative of a real is real. -/
theorem IsReal.neg {a : EReal} (ha : IsReal a) : IsReal (-a) := by
  obtain ⟨x, rfl⟩ := ha.exists_coe
  rw [← EReal.coe_neg]; exact isReal_coe _

/-- The larger of two reals is one of them, hence real. -/
theorem IsReal.max {a b : EReal} (ha : IsReal a) (hb : IsReal b) : IsReal (max a b) := by
  rcases max_choice a b with h | h <;> rw [h] <;> assumption

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The cast of a finite sum of real numbers is the sum of the casts. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ### The ring laws among reals -/

/-- Adding zero on the left changes nothing. -/
theorem zero_add_ereal (a : EReal) : 0 + a = a := zero_add a

/-- A product with zero on the right is zero, at the infinities too. -/
theorem mul_zero_ereal (a : EReal) : a * 0 = 0 := mul_zero a

/-- Adding zero in front of a finite sum changes nothing. -/
theorem zero_add_sum {ι : Type*} (s : Finset ι) (f : ι → EReal) : 0 + ∑ i ∈ s, f i = ∑ i ∈ s, f i :=
  zero_add _

/-- A real minus itself is zero (false at the infinities, where the difference is an infinity). -/
theorem sub_self_of_isReal (a : EReal) (ha : IsReal a) : a - a = 0 := by
  obtain ⟨x, rfl⟩ := ha.exists_coe
  rw [← EReal.coe_sub, sub_self, EReal.coe_zero]

/-- Among reals a product distributes over a sum of two. -/
theorem mul_add_of_isReal (a : EReal) (ha : IsReal a) (b c : EReal) (hb : IsReal b) (hc : IsReal c) :
    a * (b + c) = a * b + a * c := by
  obtain ⟨x, rfl⟩ := ha.exists_coe
  obtain ⟨y, rfl⟩ := hb.exists_coe
  obtain ⟨z, rfl⟩ := hc.exists_coe
  rw [← EReal.coe_add, ← EReal.coe_mul, ← EReal.coe_mul, ← EReal.coe_mul, ← EReal.coe_add, mul_add]

/-- Among reals a product distributes over a finite sum. -/
theorem mul_sum_of_isReal (a : EReal) (ha : IsReal a) {ι : Type*} (s : Finset ι) (f : ι → EReal)
    (hf : ∀ i ∈ s, IsReal (f i)) : a * ∑ i ∈ s, f i = ∑ i ∈ s, a * f i := by
  classical
  induction s using Finset.induction_on with
  | empty => simp
  | insert b s hb ih =>
    have hs : ∀ i ∈ s, IsReal (f i) := fun i hi => hf i (Finset.mem_insert_of_mem hi)
    rw [Finset.sum_insert hb, Finset.sum_insert hb, ← ih hs]
    exact mul_add_of_isReal a ha _ _ (hf b (Finset.mem_insert_self b s)) (isReal_sum s f hs)

/-- A row's inverse-root degree `dn`, applied to the sum of the row's incoming messages `A e * dv e`, may be
    taken inside the sum and attached to each message's own inverse-root degree `dv e`. -/
theorem agg_regroup (dn : EReal) (hdn : IsReal dn) {ι : Type*} (s : Finset ι) (A dv : ι → EReal)
    (hA : ∀ e ∈ s, IsReal (A e)) (hd : ∀ e ∈ s, IsReal (dv e)) :
    dn * (0 + ∑ e ∈ s, A e * dv e) = 0 + ∑ e ∈ s, A e * (dv e * dn) := by
  rw [zero_add, zero_add, mul_sum_of_isReal dn hdn s _ fun e he => (hA e he).mul (hd e he)]
  refine Finset.sum_congr rfl fun e _ => ?_
  rw [mul_left_comm, mul_comm dn]

/-! ### Inverse square root, quotient by a positive real, squares, counts -/

/-- The inverse square root of a positive real is a positive real. -/
theorem isReal_rsqrt (a : EReal) (ha : IsReal a) (hpos : 0 < a) :
    IsReal (Ideal.rsqrt a) ∧ 0 < Ideal.rsqrt a := by
  obtain ⟨x, rfl⟩ := ha.exists_coe
  have hx : 0 < x := EReal.coe_pos.mp hpos
  rw [Ideal.rsqrt_coe, if_neg (not_lt.mpr hx.le), if_neg hx.ne']
  exact ⟨isReal_coe _, EReal.coe_pos.mpr (inv_pos.mpr (Real.sqrt_pos.mpr hx))⟩

/-- A real divided by a positive real is real, and nonnegative when the numerator is. Both the host's
    quotient and the kernel's are this quotient. -/
theorem isReal_div_pos (a : EReal) (ha : IsReal a) (r : ℝ) (hr : 0 < r) :
    IsReal (Ideal.div a (r : EReal)) ∧ (0 ≤ a → 0 ≤ Ideal.div a (r : EReal)) := by
  obtain ⟨x, rfl⟩ := ha.exists_coe
  rw [Ideal.div_coe hr.ne', ← EReal.coe_mul]
  refine ⟨isReal_coe _, fun h => ?_⟩
  have hx : 0 ≤ x := EReal.coe_nonneg.mp h
  exact EReal.coe_nonneg.mpr (mul_nonneg hx (by positivity))

/-- A finite sum of squares of reals is nonnegative. -/
theorem sum_sq_nonneg {ι : Type*} (s : Finset ι) (f : ι → EReal) (hf : ∀ i ∈ s, IsReal (f i)) :
    0 ≤ ∑ i ∈ s, f i * f i := by
  refine Finset.sum_nonneg fun i hi => ?_
  obtain ⟨x, hx⟩ := (hf i hi).exists_coe
  rw [hx, ← EReal.coe_mul]
  exact EReal.coe_nonneg.mpr (mul_self_nonneg x)

/-- Counting a nonempty finite set by adding a one per member gives a real number, at least one. -/
theorem count_pos {ι : Type*} (s : Finset ι) (hs : s.Nonempty) :
    IsReal (0 + ∑ _e ∈ s, (1 : EReal)) ∧ 1 ≤ 0 + ∑ _e ∈ s, (1 : EReal) := by
  have h1 : (∑ _e ∈ s, (1 : EReal)) = ((s.card : ℝ) : EReal) := by
    rw [Finset.sum_const, nsmul_one, ← EReal.coe_coe_eq_natCast]
  have hc : (1 : ℝ) ≤ (s.card : ℝ) := by exact_mod_cast Finset.card_pos.mpr hs
  rw [zero_add, h1]
  exact ⟨isReal_coe _, by rw [← EReal.coe_one]; exact EReal.coe_le_coe_iff.mpr hc⟩

/-! ### A sum over rows, tile by tile -/

/-- Three mixed-radix digits `s < a`, `j < b`, `r < c` name a number below `a * b * c`. -/
theorem digits_lt {a b c : ℕ} (s : Fin a) (j : Fin b) (r : Fin c) :
    (s.val * b + j.val) * c + r.val < a * b * c := by
  have h1 : s.val * b + j.val + 1 ≤ a * b :=
    calc s.val * b + j.val + 1 ≤ s.val * b + b := Nat.add_le_add_left j.isLt _
      _ = (s.val + 1) * b := (Nat.succ_mul _ _).symm
      _ ≤ a * b := Nat.mul_le_mul_right b s.isLt
  calc (s.val * b + j.val) * c + r.val < (s.val * b + j.val) * c + c := Nat.add_lt_add_left r.isLt _
    _ = (s.val * b + j.val + 1) * c := (Nat.succ_mul _ _).symm
    _ ≤ a * b * c := Nat.mul_le_mul_right c h1

/-- A sum over `a * b * c` consecutive indices is the triple sum over the three mixed-radix digits of
    the index: the outer digit below `a`, the middle below `b`, the inner below `c`. -/
theorem sum_fin_mul_mul {M : Type*} [AddCommMonoid M] (a b c : ℕ) (f : Fin (a * b * c) → M) :
    ∑ n, f n = ∑ s : Fin a, ∑ j : Fin b, ∑ r : Fin c, f ⟨(s.val * b + j.val) * c + r.val, digits_lt s j r⟩ :=
  calc ∑ n, f n
      = ∑ p : Fin (a * b) × Fin c, f (finProdFinEquiv p) := (Equiv.sum_comp finProdFinEquiv f).symm
    _ = ∑ p : Fin (a * b), ∑ r : Fin c, f (finProdFinEquiv (p, r)) := Fintype.sum_prod_type _
    _ = ∑ q : Fin a × Fin b, ∑ r : Fin c, f (finProdFinEquiv (finProdFinEquiv q, r)) :=
        (Equiv.sum_comp finProdFinEquiv fun p : Fin (a * b) => ∑ r : Fin c, f (finProdFinEquiv (p, r))).symm
    _ = ∑ s : Fin a, ∑ j : Fin b, ∑ r : Fin c, f (finProdFinEquiv (finProdFinEquiv (s, j), r)) :=
        Fintype.sum_prod_type _
    _ = _ := by
        refine Finset.sum_congr rfl fun s _ => Finset.sum_congr rfl fun j _ => Finset.sum_congr rfl fun r _ => ?_
        congr 1
        apply Fin.ext
        simp only [finProdFinEquiv_apply_val]
        ring

/-- A sum over 100000 rows, taken as 2 slices of 10 blocks of 5000 rows. -/
theorem sum_rows_tiled {M : Type*} [AddCommMonoid M] (f : Fin 100000 → M) :
    ∑ n, f n = ∑ s : Fin 2, ∑ j : Fin 10, ∑ r : Fin 5000,
      f ⟨(s.val * 10 + j.val) * 5000 + r.val, by omega⟩ :=
  sum_fin_mul_mul 2 10 5000 f

/-- A sum over 100000 rows, taken as 2 slices of 50 blocks of 1000 rows. -/
theorem sum_rows_tiled_pool {M : Type*} [AddCommMonoid M] (f : Fin 100000 → M) :
    ∑ n, f n = ∑ s : Fin 2, ∑ j : Fin 50, ∑ r : Fin 1000,
      f ⟨(s.val * 50 + j.val) * 1000 + r.val, by omega⟩ :=
  sum_fin_mul_mul 2 50 1000 f

/-! ### A mask-weighted sum -/

/-- Weighting each term by the 0/1 indicator of a predicate and summing over everything is summing over
    the members that satisfy the predicate. -/
theorem sum_mask_eq_sum_filter {ι : Type*} [Fintype ι] (p : ι → Prop) [DecidablePred p] (x : ι → EReal) :
    ∑ n, (if p n then (1 : EReal) else 0) * x n = ∑ n ∈ Finset.univ.filter p, x n := by
  rw [Finset.sum_filter]
  refine Finset.sum_congr rfl fun n _ => ?_
  split_ifs <;> simp

/-! ### The single-precision words, as the extended reals they denote -/

/-- The word of `100000.0` denotes the real `100000`. -/
theorem ofBits_100000 : Ideal.ofBits .f32 0x47C35000#32 = ((100000 : ℝ) : EReal) := by
  simp [Ideal.ofBits, Ideal.ieee, -EReal.coe_mul]; norm_num

/-- The word of `1.0` denotes `1`. -/
theorem ofBits_one : Ideal.ofBits .f32 0x3F800000#32 = 1 := by
  simp [Ideal.ofBits, Ideal.ieee, -EReal.coe_mul]; norm_num

/-- The word of `+0.0` denotes `0`. -/
theorem ofBits_zero : Ideal.ofBits .f32 0x00000000#32 = 0 := Ideal.ofBits_zero_f32

/-- The word of the epsilon added under the square root denotes the dyadic `10995116 · 2⁻⁴⁰`. -/
theorem ofBits_eps_eq :
    Ideal.ofBits .f32 0x3727C5AC#32 = (((10995116 : ℝ) * (2 : ℝ) ^ (-40 : ℤ) : ℝ) : EReal) := by
  simp [Ideal.ofBits, Ideal.ieee, -EReal.coe_mul]

/-- The word of the epsilon added under the square root denotes a positive real. -/
theorem ofBits_eps :
    0 < Ideal.ofBits .f32 0x3727C5AC#32 ∧ IsReal (Ideal.ofBits .f32 0x3727C5AC#32) := by
  rw [ofBits_eps_eq]
  exact ⟨EReal.coe_pos.mpr (by positivity), isReal_coe _⟩

/-! ### A small index word and its signed value -/

/-- A 32-bit word equals the word of a number below 1024 exactly when its signed value is that number. -/
theorem toInt_ofNat_eq_iff (b : BitVec 32) (g : Nat) (hg : g < 1024) :
    b = BitVec.ofNat 32 g ↔ b.toInt = (g : ℤ) := by
  have hv : (BitVec.ofNat 32 g).toInt = (g : ℤ) := by
    rw [BitVec.toInt_eq_msb_cond,
      BitVec.msb_eq_false_iff_two_mul_lt.mpr (by simp [BitVec.toNat_ofNat]; omega)]
    simp [BitVec.toNat_ofNat]; omega
  exact ⟨fun h => h ▸ hv, fun h => BitVec.eq_of_toInt_eq (h.trans hv.symm)⟩

end Cert.LibFinite

end
-- ==== Proof.KI.V10.lean ====
import proofs.«417336_j40785009443359_3_alg».proof.Proof.KI.V10K
import proofs.«417336_j40785009443359_3_alg».proof.Proof.KI.V10P
import proofs.«417336_j40785009443359_3_alg».proof.Proof.LibFiniteSums
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The pooling region: its value at the extended reals

At inner coordinate 0 the accumulator is zeroed; every point adds, segment by segment and column by column, the
rows of its block whose segment id is the segment (and, from the second half of the split product, the same rows
minus themselves); the point of inner coordinate 49 copies the accumulator out. So slice s of the result holds, per
segment and column, the sum over the 50000 rows of half s of indicator times entry. -/

variable (V : (c : Dev nD) → (b : Ref sig .tc) → Buf (Elt Ideal) ((c : Thread nD τ).loc b))

/-! ## The blocks as rows of the arrays -/

/-- The features and the segment ids as the region finds them, and a point's blocks of them, at their literal types. -/
abbrev xArr10 (c : Dev nD) : S100000x128.Idx → EReal := V c main_v113
abbrev idArr10 (c : Dev nD) : S100000x1.Idx → BitVec 32 := V c main_v114
abbrev xBlk10 (c : Dev nD) (t : Fin cfg10.N) : Vec Ideal S1000x128 .f32 := iblk10 V c 0 t
abbrev idBlk10 (c : Dev nD) (t : Fin cfg10.N) : Vec Ideal S1000x1 .i32 := iblk10 V c 1 t

/-- The index maps over the grid: point t reads row block t of the features and of the ids, and writes slice t / 50
    of the result. -/
theorem idx10_facts : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 3) = t.val / 50 ∧ win10_2.index t (1 : Fin 3) = 0 ∧ win10_2.index t (2 : Fin 3) = 0 :=
  (by decide +kernel : ∀ t : Fin grid10.N, _)

/-- Row r of point t's feature block is row 1000 t + r of the features. -/
theorem xBlk10_apply (c : Dev nD) (t : Fin cfg10.N) (r : Fin 1000) (q : Fin 128) (hrow : t.val * 1000 + r.val < 100000) :
    xBlk10 V c t (ix2 r q) = xArr10 V c (ix2 (⟨t.val * 1000 + r.val, hrow⟩ : Fin 100000) q) := by
  obtain ⟨e0, e1, -⟩ := idx10_facts t
  show iblk10 V c 0 t (ix2 r q) = V c main_v113 (ix2 (⟨t.val * 1000 + r.val, hrow⟩ : Fin 100000) q)
  unfold iblk10
  rw [View.read_apply]
  show V c main_v113 _ = V c main_v113 _
  congr 1
  funext a; apply Fin.ext
  match a with
  | ⟨0, _⟩ => show win10_0.index t (0 : Fin 2) * 1000 + 1 * r.val = t.val * 1000 + r.val; rw [e0]; omega
  | ⟨1, _⟩ => show win10_0.index t (1 : Fin 2) * 128 + 1 * q.val = q.val; rw [e1]; omega

/-- Row r of point t's id block is row 1000 t + r of the ids. -/
theorem idBlk10_apply (c : Dev nD) (t : Fin cfg10.N) (r : Fin 1000) (hrow : t.val * 1000 + r.val < 100000) :
    idBlk10 V c t (ix2 r (0 : Fin 1)) = idArr10 V c (ix2 (⟨t.val * 1000 + r.val, hrow⟩ : Fin 100000) (0 : Fin 1)) := by
  obtain ⟨-, -, e2, e3, -⟩ := idx10_facts t
  show iblk10 V c 1 t (ix2 r (0 : Fin 1)) = V c main_v114 (ix2 (⟨t.val * 1000 + r.val, hrow⟩ : Fin 100000) (0 : Fin 1))
  unfold iblk10
  rw [View.read_apply]
  show V c main_v114 _ = V c main_v114 _
  congr 1
  funext a; apply Fin.ext
  match a with
  | ⟨0, _⟩ => show win10_1.index t (0 : Fin 2) * 1000 + 1 * r.val = t.val * 1000 + r.val; rw [e2]; omega
  | ⟨1, _⟩ => show win10_1.index t (1 : Fin 2) * 1 + 1 * 0 = 0; omega

/-! ## The accumulation over the points -/

/-- Row n of the features at column q, and row n's segment id (zero past the last row, which nothing reads). -/
def xRow10 (c : Dev nD) (n : ℕ) (q : Fin 128) : EReal := if h : n < 100000 then xArr10 V c (ix2 (⟨n, h⟩ : Fin 100000) q) else 0
def idRow10 (c : Dev nD) (n : ℕ) : BitVec 32 := if h : n < 100000 then idArr10 V c (ix2 (⟨n, h⟩ : Fin 100000) (0 : Fin 1)) else 0

/-- Block p's contribution at segment g, column q: over its 1000 rows, indicator times entry, plus indicator times
    (entry minus itself). -/
def blockPool10 (c : Dev nD) (p : ℕ) (g : Fin 1024) (q : Fin 128) : EReal :=
  (∑ r : Fin 1000, poolMask (idRow10 V c (p * 1000 + r.val)) g * xRow10 V c (p * 1000 + r.val) q)
    + (∑ r : Fin 1000, poolMask (idRow10 V c (p * 1000 + r.val)) g * (xRow10 V c (p * 1000 + r.val) q - xRow10 V c (p * 1000 + r.val) q))

/-- What a point adds to the accumulator is its block's contribution. -/
theorem blockPool10_of_blocks (c : Dev nD) (t : Fin cfg10.N) (g : Fin 1024) (q : Fin 128) :
    (∑ r : Fin 1000, poolMask (idBlk10 V c t (ix2 r (0 : Fin 1))) g * xBlk10 V c t (ix2 r q))
      + (∑ r : Fin 1000, poolMask (idBlk10 V c t (ix2 r (0 : Fin 1))) g * (xBlk10 V c t (ix2 r q) - xBlk10 V c t (ix2 r q)))
      = blockPool10 V c t.val g q := by
  have hN : t.val < 100 := lt_of_lt_of_eq t.isLt (show cfg10.N = 100 from N_10)
  have hr : ∀ r : Fin 1000, t.val * 1000 + r.val < 100000 := fun r => by have := r.isLt; omega
  unfold blockPool10
  refine congrArg₂ (· + ·) (Finset.sum_congr rfl fun r _ => ?_) (Finset.sum_congr rfl fun r _ => ?_)
  · rw [xBlk10_apply V c t r q (hr r), idBlk10_apply V c t r (hr r)]
    simp only [xRow10, idRow10, dif_pos (hr r)]
  · rw [xBlk10_apply V c t r q (hr r), idBlk10_apply V c t r (hr r)]
    simp only [xRow10, idRow10, dif_pos (hr r)]

/-- At inner coordinate 0 the accumulator ends at the point's contribution alone. -/
theorem acc10_first (c : Dev nD) (t : Fin cfg10.N) (h0 : t.val % 50 = 0) (g : Fin 1024) (q : Fin 128) :
    (outsAt10 V c t.val t.isLt).2 (ix3 (0 : Fin 1) g q) = blockPool10 V c t.val g q := by
  have h1 : ¬t.val % 50 = 49 := by omega
  rw [outsAt10_A V c t h0 h1]; dsimp only
  refine (congrFun (sout10_A_0_eq (F := Ideal) c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (xBlk10 V c t) (idBlk10 V c t)) (ix3 (0 : Fin 1) g q)).trans ?_
  refine (k10_pay2_apply (idBlk10 V c t) (xBlk10 V c t) (k10_pay1 (F := Ideal)) g q).trans ?_
  rw [k10_pay1_apply, zero_add]
  exact blockPool10_of_blocks V c t g q

/-- At the other inner coordinates it ends at what the point before left plus the point's contribution, -/
theorem acc10_step (c : Dev nD) (t : Fin cfg10.N) (h0 : ¬t.val % 50 = 0) (g : Fin 1024) (q : Fin 128) :
    (outsAt10 V c t.val t.isLt).2 (ix3 (0 : Fin 1) g q)
      = (outsAt10 V c (t.val - 1) (Nat.lt_of_le_of_lt (Nat.sub_le _ _) t.isLt)).2 (ix3 (0 : Fin 1) g q) + blockPool10 V c t.val g q := by
  by_cases h1 : t.val % 50 = 49
  · rw [outsAt10_C V c t h0 h1]; dsimp only
    refine (congrFun (sout10_C_0_eq (F := Ideal) c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (xBlk10 V c t) (idBlk10 V c t) (outsAt10 V c (t.val - 1) (Nat.lt_of_le_of_lt (Nat.sub_le _ _) t.isLt)).2) (ix3 (0 : Fin 1) g q)).trans ?_
    refine (k10_pay2_apply (idBlk10 V c t) (xBlk10 V c t) (outsAt10 V c (t.val - 1) (Nat.lt_of_le_of_lt (Nat.sub_le _ _) t.isLt)).2 g q).trans ?_
    refine (add_assoc _ _ _).trans ?_
    exact congrArg (fun z => (outsAt10 V c (t.val - 1) (Nat.lt_of_le_of_lt (Nat.sub_le _ _) t.isLt)).2 (ix3 (0 : Fin 1) g q) + z) (blockPool10_of_blocks V c t g q)
  · rw [outsAt10_B V c t h0 h1]; dsimp only
    refine (congrFun (sout10_B_0_eq (F := Ideal) c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (xBlk10 V c t) (idBlk10 V c t) (outsAt10 V c (t.val - 1) (Nat.lt_of_le_of_lt (Nat.sub_le _ _) t.isLt)).2) (ix3 (0 : Fin 1) g q)).trans ?_
    refine (k10_pay2_apply (idBlk10 V c t) (xBlk10 V c t) (outsAt10 V c (t.val - 1) (Nat.lt_of_le_of_lt (Nat.sub_le _ _) t.isLt)).2 g q).trans ?_
    refine (add_assoc _ _ _).trans ?_
    exact congrArg (fun z => (outsAt10 V c (t.val - 1) (Nat.lt_of_le_of_lt (Nat.sub_le _ _) t.isLt)).2 (ix3 (0 : Fin 1) g q) + z) (blockPool10_of_blocks V c t g q)

/-- and at inner coordinate 49 the output window's buffer ends at the same. -/
theorem out10_last_step (c : Dev nD) (t : Fin cfg10.N) (h49 : t.val % 50 = 49) (g : Fin 1024) (q : Fin 128) :
    (outsAt10 V c t.val t.isLt).1 (ix3 (0 : Fin 1) g q)
      = (outsAt10 V c (t.val - 1) (Nat.lt_of_le_of_lt (Nat.sub_le _ _) t.isLt)).2 (ix3 (0 : Fin 1) g q) + blockPool10 V c t.val g q := by
  have h0 : ¬t.val % 50 = 0 := by omega
  rw [outsAt10_C V c t h0 h49]; dsimp only
  refine (congrFun (out10_C_2_eq (F := Ideal) c (grid10.coords t) (ms10_0 t) (hs10_0 t) (ms10_1 t) (hs10_1 t) (ms10_2 t) (hs10_2 t) scM10_0 (Memref.isWhole_whole _) (fun h => h0 ((hcond10_0 t).mp h)) ((hcond10_1 t).mpr h49) (xBlk10 V c t) (idBlk10 V c t) (outsAt10 V c (t.val - 1) (Nat.lt_of_le_of_lt (Nat.sub_le _ _) t.isLt)).2) (ix3 (0 : Fin 1) g q)).trans ?_
  refine (k10_pay2_apply (idBlk10 V c t) (xBlk10 V c t) (outsAt10 V c (t.val - 1) (Nat.lt_of_le_of_lt (Nat.sub_le _ _) t.isLt)).2 g q).trans ?_
  refine (add_assoc _ _ _).trans ?_
  exact congrArg (fun z => (outsAt10 V c (t.val - 1) (Nat.lt_of_le_of_lt (Nat.sub_le _ _) t.isLt)).2 (ix3 (0 : Fin 1) g q) + z) (blockPool10_of_blocks V c t g q)

/-- THE ACCUMULATOR after position n: the contributions of the blocks from the last multiple of 50 up to n. -/
theorem acc10_eq (c : Dev nD) (n : ℕ) : ∀ (hn : n < cfg10.N) (g : Fin 1024) (q : Fin 128),
    (outsAt10 V c n hn).2 (ix3 (0 : Fin 1) g q) = ∑ j ∈ Finset.range (n % 50 + 1), blockPool10 V c (n - n % 50 + j) g q := by
  induction n with
  | zero =>
    intro hn g q
    refine (acc10_first V c ⟨0, hn⟩ rfl g q).trans ?_
    show blockPool10 V c 0 g q = ∑ j ∈ Finset.range 1, blockPool10 V c (0 - 0 % 50 + j) g q
    simp only [Finset.sum_range_one, Nat.zero_mod, Nat.sub_zero, Nat.zero_add, Nat.add_zero]
  | succ n ih =>
    intro hn g q
    by_cases h0 : (n + 1) % 50 = 0
    · refine (acc10_first V c ⟨n + 1, hn⟩ h0 g q).trans ?_
      show blockPool10 V c (n + 1) g q = ∑ j ∈ Finset.range ((n + 1) % 50 + 1), blockPool10 V c (n + 1 - (n + 1) % 50 + j) g q
      rw [h0]
      simp only [Nat.zero_add, Finset.sum_range_one, Nat.sub_zero, Nat.add_zero]
    · refine (acc10_step V c ⟨n + 1, hn⟩ h0 g q).trans ?_
      show (outsAt10 V c n _).2 (ix3 (0 : Fin 1) g q) + blockPool10 V c (n + 1) g q = _
      rw [ih (Nat.lt_of_succ_lt hn) g q]
      have e1 : (n + 1) % 50 = n % 50 + 1 := by omega
      have e2 : n + 1 - (n + 1) % 50 = n - n % 50 := by omega
      have e3 : n - n % 50 + (n % 50 + 1) = n + 1 := by omega
      rw [e2, e1, Finset.sum_range_succ _ (n % 50 + 1), e3]

/-- THE OUTPUT WINDOW'S BUFFER after a point of inner coordinate 49: the fifty contributions of its half. -/
theorem out10_last (c : Dev nD) (t : Fin cfg10.N) (h49 : t.val % 50 = 49) (g : Fin 1024) (q : Fin 128) :
    (outsAt10 V c t.val t.isLt).1 (ix3 (0 : Fin 1) g q) = ∑ j ∈ Finset.range 50, blockPool10 V c (t.val / 50 * 50 + j) g q := by
  rw [out10_last_step V c t h49 g q, acc10_eq V c (t.val - 1) (Nat.lt_of_le_of_lt (Nat.sub_le _ _) t.isLt) g q]
  have e1 : (t.val - 1) % 50 + 1 = 49 := by omega
  have e2 : t.val - 1 - (t.val - 1) % 50 = t.val / 50 * 50 := by omega
  have e3 : t.val = t.val / 50 * 50 + 49 := by omega
  rw [e1, e2]
  show _ = ∑ j ∈ Finset.range (49 + 1), blockPool10 V c (t.val / 50 * 50 + j) g q
  rw [Finset.sum_range_succ _ 49]
  exact congrArg (fun z => (∑ j ∈ Finset.range 49, blockPool10 V c (t.val / 50 * 50 + j) g q) + blockPool10 V c z g q) e3

/-! ## The result array -/

/-- Slice s, segment g, column q of the result: over the fifty blocks of half s and their 1000 rows each, indicator
    times entry, plus indicator times (entry minus itself). -/
def G10_2at (x : S100000x128.Idx → EReal) (b : S100000x1.Idx → BitVec 32) (s : Fin 2) (g : Fin 1024) (q : Fin 128) : EReal :=
  ∑ j : Fin 50, ((∑ r : Fin 1000, poolMask (b (ix2 (⟨(s.val * 50 + j.val) * 1000 + r.val, by omega⟩ : Fin 100000) (0 : Fin 1))) g * x (ix2 (⟨(s.val * 50 + j.val) * 1000 + r.val, by omega⟩ : Fin 100000) q))
      + (∑ r : Fin 1000, poolMask (b (ix2 (⟨(s.val * 50 + j.val) * 1000 + r.val, by omega⟩ : Fin 100000) (0 : Fin 1))) g * (x (ix2 (⟨(s.val * 50 + j.val) * 1000 + r.val, by omega⟩ : Fin 100000) q) - x (ix2 (⟨(s.val * 50 + j.val) * 1000 + r.val, by omega⟩ : Fin 100000) q))))

/-- The result array as one function of the features and the segment ids. -/
def G10_2 (x : S100000x128.Idx → EReal) (b : S100000x1.Idx → BitVec 32) : S2x1024x128.Idx → EReal :=
  fun i => G10_2at x b (i 0) (i 1) (i 2)

theorem G10_2_apply (x : S100000x128.Idx → EReal) (b : S100000x1.Idx → BitVec 32) (s : Fin 2) (g : Fin 1024) (q : Fin 128) :
    G10_2 x b (ix3 s g q) = ∑ j : Fin 50, ((∑ r : Fin 1000, poolMask (b (ix2 (⟨(s.val * 50 + j.val) * 1000 + r.val, by omega⟩ : Fin 100000) (0 : Fin 1))) g * x (ix2 (⟨(s.val * 50 + j.val) * 1000 + r.val, by omega⟩ : Fin 100000) q))
      + (∑ r : Fin 1000, poolMask (b (ix2 (⟨(s.val * 50 + j.val) * 1000 + r.val, by omega⟩ : Fin 100000) (0 : Fin 1))) g * (x (ix2 (⟨(s.val * 50 + j.val) * 1000 + r.val, by omega⟩ : Fin 100000) q) - x (ix2 (⟨(s.val * 50 + j.val) * 1000 + r.val, by omega⟩ : Fin 100000) q)))) := rfl

/-- Where every entry is a real number the second sum vanishes. -/
theorem G10_2_real_apply (x : S100000x128.Idx → EReal) (b : S100000x1.Idx → BitVec 32) (hx : ∀ i, Cert.LibFinite.IsReal (x i)) (s : Fin 2) (g : Fin 1024) (q : Fin 128) :
    G10_2 x b (ix3 s g q) = ∑ j : Fin 50, ∑ r : Fin 1000, poolMask (b (ix2 (⟨(s.val * 50 + j.val) * 1000 + r.val, by omega⟩ : Fin 100000) (0 : Fin 1))) g * x (ix2 ⟨(s.val * 50 + j.val) * 1000 + r.val, by omega⟩ q) := by
  rw [G10_2_apply]
  refine Finset.sum_congr rfl fun j _ => ?_
  have hz : (∑ r : Fin 1000, poolMask (b (ix2 (⟨(s.val * 50 + j.val) * 1000 + r.val, by omega⟩ : Fin 100000) (0 : Fin 1))) g * (x (ix2 (⟨(s.val * 50 + j.val) * 1000 + r.val, by omega⟩ : Fin 100000) q) - x (ix2 (⟨(s.val * 50 + j.val) * 1000 + r.val, by omega⟩ : Fin 100000) q))) = 0 :=
    Finset.sum_eq_zero fun r _ => by
      rw [Cert.LibFinite.sub_self_of_isReal _ (hx _)]; exact Cert.LibFinite.mul_zero_ereal _
  rw [hz, add_zero]

/-- The same where every entry is given as the cast of a real number. -/
theorem G10_2_real (x : S100000x128.Idx → EReal) (b : S100000x1.Idx → BitVec 32) (ρ : S100000x128.Idx → ℝ) (hx : ∀ i, x i = ((ρ i : ℝ) : EReal)) (s : Fin 2) (g : Fin 1024) (q : Fin 128) :
    G10_2 x b (ix3 s g q) = ∑ j : Fin 50, ∑ r : Fin 1000, poolMask (b (ix2 (⟨(s.val * 50 + j.val) * 1000 + r.val, by omega⟩ : Fin 100000) (0 : Fin 1))) g * x (ix2 ⟨(s.val * 50 + j.val) * 1000 + r.val, by omega⟩ q) :=
  G10_2_real_apply x b (fun i => by rw [hx i]; exact Cert.LibFinite.isReal_coe _) s g q

/-- The fifty contributions of half s are slice s of the result. -/
theorem G10_2_of_blocks (c : Dev nD) (s : Fin 2) (g : Fin 1024) (q : Fin 128) :
    (∑ j ∈ Finset.range 50, blockPool10 V c (s.val * 50 + j) g q) = G10_2 (xArr10 V c) (idArr10 V c) (ix3 s g q) := by
  rw [G10_2_apply, Finset.sum_range (fun j => blockPool10 V c (s.val * 50 + j) g q)]
  refine Finset.sum_congr rfl fun j _ => ?_
  have hr : ∀ r : Fin 1000, (s.val * 50 + j.val) * 1000 + r.val < 100000 := fun r => by omega
  unfold blockPool10
  refine congrArg₂ (· + ·) (Finset.sum_congr rfl fun r _ => ?_) (Finset.sum_congr rfl fun r _ => ?_)
  · simp only [xRow10, idRow10, dif_pos (hr r)]
  · simp only [xRow10, idRow10, dif_pos (hr r)]

/-- WHAT A POINT OF INNER COORDINATE 49 WRITES BACK is its block of the result. -/
theorem flushed10_2_eq (c : Dev nD) (t : Fin cfg10.N) (hf : (cfg10.win 2).flush t = true) :
    (dat10 (F := Ideal) V c).flushed 2 t = ((cfg10.win 2).blk t).view.read (Elt Ideal) (G10_2 (V c main_v113) (V c main_v114)) := by
  have h49 : t.val % 50 = 49 := (flush10_2 t).mp hf
  have hN : t.val < 100 := lt_of_lt_of_eq t.isLt (show cfg10.N = 100 from N_10)
  obtain ⟨-, -, -, -, e4, e5, e6⟩ := idx10_facts t
  show (cfg10.win 2).cut (grid10.coords t) ((dat10 (F := Ideal) V c).after 2 t) = _
  rw [after10_2]
  funext j
  revert j
  show ∀ j : S1x1024x128.Idx, (outsAt10 V c t.val t.isLt).1 j = ((cfg10.win 2).blk t).view.read (Elt Ideal) (G10_2 (V c main_v113) (V c main_v114)) j
  intro j
  obtain ⟨u, g, q, rfl⟩ : ∃ (u : Fin 1) (g : Fin 1024) (q : Fin 128), j = ix3 u g q := ⟨j 0, j 1, j 2, eq_ix3 j⟩
  obtain rfl : u = 0 := Subsingleton.elim _ _
  rw [View.read_apply]
  show (outsAt10 V c t.val t.isLt).1 (ix3 (0 : Fin 1) g q) = G10_2 (xArr10 V c) (idArr10 V c) (((cfg10.win 2).blk t).view.emb (ix3 (0 : Fin 1) g q))
  have hemb : ((cfg10.win 2).blk t).view.emb (ix3 (0 : Fin 1) g q) = ix3 (⟨t.val / 50, by omega⟩ : Fin 2) g q := by
    funext a; apply Fin.ext
    match a with
    | ⟨0, _⟩ => show win10_2.index t (0 : Fin 3) * 1 + 1 * ((0 : Fin 1) : ℕ) = t.val / 50; rw [e4]; simp
    | ⟨1, _⟩ => show win10_2.index t (1 : Fin 3) * 1024 + 1 * g.val = g.val; rw [e5]; omega
    | ⟨2, _⟩ => show win10_2.index t (2 : Fin 3) * 128 + 1 * q.val = q.val; rw [e6]; omega
  rw [hemb, out10_last V c t h49 g q]
  exact G10_2_of_blocks V c (⟨t.val / 50, by omega⟩ : Fin 2) g q

/-- An index of the result is in point t's block iff each coordinate is in the block's range on its axis. -/
theorem mem_blk10_2 (t : Fin cfg10.N) (i : S2x1024x128.Idx) :
    i ∈ ((cfg10.win 2).blk t).view.set ↔ ∀ a : Fin 3, win10_2.index t a * S1x1024x128.size a ≤ (i a).val ∧ (i a).val < win10_2.index t a * S1x1024x128.size a + S1x1024x128.size a := by
  show i ∈ ((View.whole main_v115).slice (win10_2.rect t)).set ↔ _
  rw [View.set_slice_whole, Rect.mem_set_unit]
  exact Iff.rfl

/-- THE RESULT ARRAY after the region: the two points of inner coordinate 49 write its two slices. -/
theorem final10_2 (c : Dev nD) : (dat10 (F := Ideal) V c).arrAt 2 cfg10.N = G10_2 (V c main_v113) (V c main_v114) :=
  (dat10 (F := Ideal) V c).arrAt_eq_of_cover 2 (G10_2 (V c main_v113) (V c main_v114)) (flushed10_2_eq V c) fun i => by
    have hi0 : (i 0).val < 2 := (i 0).isLt
    have hi1 : (i 1).val < 1024 := (i 1).isLt
    have hi2 : (i 2).val < 128 := (i 2).isLt
    have hlt : (i 0).val * 50 + 49 < cfg10.N := by rw [show cfg10.N = 100 from N_10]; omega
    obtain ⟨-, -, -, -, e4, e5, e6⟩ := idx10_facts ⟨(i 0).val * 50 + 49, hlt⟩
    refine ⟨⟨(i 0).val * 50 + 49, hlt⟩, (flush10_2 _).mpr (by show ((i 0).val * 50 + 49) % 50 = 49; omega), ?_⟩
    rw [mem_blk10_2]
    intro a
    match a with
    | ⟨0, _⟩ => show win10_2.index ⟨(i 0).val * 50 + 49, hlt⟩ (0 : Fin 3) * 1 ≤ (i 0).val ∧ (i 0).val < win10_2.index ⟨(i 0).val * 50 + 49, hlt⟩ (0 : Fin 3) * 1 + 1; rw [e4]; show ((i 0).val * 50 + 49) / 50 * 1 ≤ (i 0).val ∧ (i 0).val < ((i 0).val * 50 + 49) / 50 * 1 + 1; omega
    | ⟨1, _⟩ => show win10_2.index ⟨(i 0).val * 50 + 49, hlt⟩ (1 : Fin 3) * 1024 ≤ (i 1).val ∧ (i 1).val < win10_2.index ⟨(i 0).val * 50 + 49, hlt⟩ (1 : Fin 3) * 1024 + 1024; rw [e5]; omega
    | ⟨2, _⟩ => show win10_2.index ⟨(i 0).val * 50 + 49, hlt⟩ (2 : Fin 3) * 128 ≤ (i 2).val ∧ (i 2).val < win10_2.index ⟨(i 0).val * 50 + 49, hlt⟩ (2 : Fin 3) * 128 + 128; rw [e6]; omega

end Cert.KernelIdeal.Hand

end
-- ==== Proof.KI.HostVals.lean ====
/-
  What the kernel program's host operations leave in the buffers the regions read.

  @main is twelve stretches of host operations around eleven regions. A stretch writes a handful of arrays that the
  regions after it stage (an index vector, the degree column, a layer's weight matrices, a row of a per-layer
  parameter, the neighbourhood sums of the previous layer's output, the mean of two partial sums) and, last, the
  program's result. For every such array: its contents after the stretch, as a named function of the contents the
  stretch was entered with. The statements are over an arbitrary entry valuation, so they apply at every boundary.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The named host chains

  Each stretch of host operations between two regions computes a few arrays the next regions stage. Every such
  array is a fixed function of the stretch's entry contents; the functions are named here, once, generic in the
  float model, so that later modules treat them as wholes. -/

/-- The edges' sources (row 0 of the edge list, flattened) followed by the nodes 0 … 99999: one self loop per node. -/
def hSrcCat (e : Vec F S2x1600000 .i32) : Vec F S1700000 .i32 :=
  concatenate S1700000 0
    [⟨S1600000, fun i => shapeCast S1600000 (extractStridedSlice S1x1600000 ![0, 0] e slices_S2x1600000_S1x1600000_0_0) shapeCasts_S1x1600000_S1600000 i⟩,
     ⟨S100000, iotaInDim S100000 32 0⟩] concatenates_S1600000_S100000_S1700000_d0

/-- The edges' destinations (row 1 of the edge list, flattened) followed by the nodes 0 … 99999. -/
def hDstCat (e : Vec F S2x1600000 .i32) : Vec F S1700000 .i32 :=
  concatenate S1700000 0
    [⟨S1600000, fun i => shapeCast S1600000 (extractStridedSlice S1x1600000 ![1, 0] e slices_S2x1600000_S1x1600000_1_0) shapeCasts_S1x1600000_S1600000 i⟩,
     ⟨S100000, iotaInDim S100000 32 0⟩] concatenates_S1600000_S100000_S1700000_d0

/-- A node's degree: ones scatter-added, from zero, at the destination indices (self loops included). -/
def hDeg (e : Vec F S2x1600000 .i32) : Vec F S100000 .f32 :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 (hDstCat (F := F) e))
    (broadcastInDim S1700000 ![] bcast_S_S1700000 (constant (F := F) S_ .f32 0x3F800000#32))

/-- The reciprocal square root of the degrees, as a column. -/
def hDinv2d (e : Vec F S2x1600000 .i32) : Vec F S100000x1 .f32 :=
  fun i => shapeCast S100000x1 (Host.rsqrt (hDeg (F := F) e)) shapeCasts_S100000_S100000x1 i

/-- The two weight stacks side by side along the output axis. -/
def hWcats (a b : Vec F S3x128x128 .f32) : Vec F S3x128x256 .f32 :=
  concatenate S3x128x256 2 [⟨S3x128x128, a⟩, ⟨S3x128x128, b⟩] concatenates_S3x128x128_S3x128x128_S3x128x256_d2

/-- Slice `k` of a stack of three 128 × 256 matrices, as a matrix. -/
def hWcatAt (k : ℕ) (h : S3x128x256.Slices ![k, 0, 0] S1x128x256) (w : Vec F S3x128x256 .f32) : Vec F S128x256 .f32 :=
  fun i => shapeCast S128x256 (extractStridedSlice S1x128x256 ![k, 0, 0] w h) shapeCasts_S1x128x256_S128x256 i
/-- Layer 0's, 1's, 2's pair of weight matrices. -/
def hWcat0 (w : Vec F S3x128x256 .f32) : Vec F S128x256 .f32 := hWcatAt 0 slices_S3x128x256_S1x128x256_0_0_0 w
def hWcat1 (w : Vec F S3x128x256 .f32) : Vec F S128x256 .f32 := hWcatAt 1 slices_S3x128x256_S1x128x256_1_0_0 w
def hWcat2 (w : Vec F S3x128x256 .f32) : Vec F S128x256 .f32 := hWcatAt 2 slices_S3x128x256_S1x128x256_2_0_0 w

/-- Row `k` of a three-row parameter, as a one-row matrix (sliced, flattened, reshaped back). -/
def hRowAt (k : ℕ) (h : S3x128.Slices ![k, 0] S1x128) (p : Vec F S3x128 .f32) : Vec F S1x128 .f32 :=
  fun i => shapeCast S1x128 (fun j => shapeCast S128 (extractStridedSlice S1x128 ![k, 0] p h) shapeCasts_S1x128_S128 j) shapeCasts_S128_S1x128 i
/-- Layer 0's, 1's, 2's row of a per-layer parameter. -/
def hRow0 (p : Vec F S3x128 .f32) : Vec F S1x128 .f32 := hRowAt 0 slices_S3x128_S1x128_0_0 p
def hRow1 (p : Vec F S3x128 .f32) : Vec F S1x128 .f32 := hRowAt 1 slices_S3x128_S1x128_1_0 p
def hRow2 (p : Vec F S3x128 .f32) : Vec F S1x128 .f32 := hRowAt 2 slices_S3x128_S1x128_2_0 p

/-- A source index with a negative value wrapped by the number of nodes (the gather's index normalisation). -/
def hWrap (src : Vec F S1700000 .i32) : Vec F S1700000 .i32 :=
  select (cmpi .slt src (broadcastInDim S1700000 ![] bcast_S_S1700000 (constantI S_ 32 0#32)))
    (addi src (broadcastInDim S1700000 ![] bcast_S_S1700000 (constantI S_ 32 100000#32))) src

/-- The neighbourhood sums: the rows of `x` at the (wrapped) source indices, scatter-added from zero at the destination indices. -/
def hAgg (x : Vec F S100000x128 .f32) (src dst : Vec F S1700000 .i32) : Vec F S100000x128 .f32 :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 dst)
    (Host.gather gather_S100000x128_S1700000x1_S1700000x128_1_0_n_n_0_1_1128 x
      (broadcastInDim S1700000x1 ![0] bcast_S1700000_S1700000x1_0 (hWrap (F := F) src)))

/-- The two cores' partial sums added (from zero) and divided by the number of nodes, 100000. -/
def hMeanOf (p : Vec F S2x1x128 .f32) : Vec F S1x128 .f32 :=
  Host.divf (Host.reduceAdd p (constant (F := F) S_ .f32 0x00000000#32) reducesTo_S2x1x128_S1x128_d0 h_S_)
    (broadcastInDim S1x128 ![] bcast_S_S1x128 (constant (F := F) S_ .f32 0x47C35000#32))

/-- The graph index of every node, as a column. -/
def hBatch2d (b : Vec F S100000 .i32) : Vec F S100000x1 .i32 :=
  fun i => shapeCast S100000x1 b shapeCasts_S100000_S100000x1 i

/-- The two cores' partial pooled sums added, from zero. -/
def hPooled (p : Vec F S2x1024x128 .f32) : Vec F S1024x128 .f32 :=
  Host.reduceAdd p (constant (F := F) S_ .f32 0x00000000#32) reducesTo_S2x1024x128_S1024x128_d0 h_S_

/-! ## Stretch 0 (before region 0: the index vectors with the self loops, the degree column, the weight stack, layer 0's pair of matrices and its residual bias row) -/
section
variable (W : Valuation τ sig (Elt F))
theorem hostOps0_v5 : StableHlo.after hostOps0 W (Proc.devRef .tc main_v5) = hSrcCat (W (Proc.devRef .tc main_arg1)) := by
  show StableHlo.after hostOps0 W (Proc.devRef .tc main_v5) = _
  after_results; rfl
theorem hostOps0_v6 : StableHlo.after hostOps0 W (Proc.devRef .tc main_v6) = hDstCat (W (Proc.devRef .tc main_arg1)) := by
  show StableHlo.after hostOps0 W (Proc.devRef .tc main_v6) = _
  after_results; rfl
theorem hostOps0_v12 : StableHlo.after hostOps0 W (Proc.devRef .tc main_v12) = hDinv2d (W (Proc.devRef .tc main_arg1)) := by
  show StableHlo.after hostOps0 W (Proc.devRef .tc main_v12) = _
  after_results; rfl
theorem hostOps0_v13 : StableHlo.after hostOps0 W (Proc.devRef .tc main_v13) = hWcats (W (Proc.devRef .tc main_arg3)) (W (Proc.devRef .tc main_arg5)) := by
  show StableHlo.after hostOps0 W (Proc.devRef .tc main_v13) = _
  after_results; rfl
theorem hostOps0_v15 : StableHlo.after hostOps0 W (Proc.devRef .tc main_v15) = hWcat0 (hWcats (W (Proc.devRef .tc main_arg3)) (W (Proc.devRef .tc main_arg5))) := by
  show StableHlo.after hostOps0 W (Proc.devRef .tc main_v15) = _
  after_results; rfl
theorem hostOps0_v18 : StableHlo.after hostOps0 W (Proc.devRef .tc main_v18) = hRow0 (W (Proc.devRef .tc main_arg6)) := by
  show StableHlo.after hostOps0 W (Proc.devRef .tc main_v18) = _
  after_results; rfl
end

/-! ## Stretch 1 (between regions 0 and 1: the neighbourhood sums of region 0's first output, and layer 0's bias row) -/
section
variable (W : Valuation τ sig (Elt F))
theorem hostOps1_v29 : StableHlo.after hostOps1 W (Proc.devRef .tc main_v29) = hAgg (W (Proc.devRef .tc main_v19_0)) (W (Proc.devRef .tc main_v5)) (W (Proc.devRef .tc main_v6)) := by
  show StableHlo.after hostOps1 W (Proc.devRef .tc main_v29) = _
  after_results_simp; rfl
theorem hostOps1_v32 : StableHlo.after hostOps1 W (Proc.devRef .tc main_v32) = hRow0 (W (Proc.devRef .tc main_arg4)) := by
  show StableHlo.after hostOps1 W (Proc.devRef .tc main_v32) = _
  after_results; rfl
end

/-! ## Stretch 2 (between regions 1 and 2: the mean of region 1's partial sums) -/
section
variable (W : Valuation τ sig (Elt F))
theorem hostOps2_v36 : StableHlo.after hostOps2 W (Proc.devRef .tc main_v36) = hMeanOf (W (Proc.devRef .tc main_v33_0)) := by
  show StableHlo.after hostOps2 W (Proc.devRef .tc main_v36) = _
  after_results; rfl
end

/-! ## Stretch 3 (between regions 2 and 3: the mean of region 2's partial sums, layer 0's scale and shift rows, layer 1's pair of matrices and its residual bias row) -/
section
variable (W : Valuation τ sig (Elt F))
theorem hostOps3_v40 : StableHlo.after hostOps3 W (Proc.devRef .tc main_v40) = hMeanOf (W (Proc.devRef .tc main_v37)) := by
  show StableHlo.after hostOps3 W (Proc.devRef .tc main_v40) = _
  after_results; rfl
theorem hostOps3_v49 : StableHlo.after hostOps3 W (Proc.devRef .tc main_v49) = hRow0 (W (Proc.devRef .tc main_arg7)) := by
  show StableHlo.after hostOps3 W (Proc.devRef .tc main_v49) = _
  after_results; rfl
theorem hostOps3_v50 : StableHlo.after hostOps3 W (Proc.devRef .tc main_v50) = hRow0 (W (Proc.devRef .tc main_arg8)) := by
  show StableHlo.after hostOps3 W (Proc.devRef .tc main_v50) = _
  after_results; rfl
theorem hostOps3_v46 : StableHlo.after hostOps3 W (Proc.devRef .tc main_v46) = hWcat1 (W (Proc.devRef .tc main_v13)) := by
  show StableHlo.after hostOps3 W (Proc.devRef .tc main_v46) = _
  after_results; rfl
theorem hostOps3_v51 : StableHlo.after hostOps3 W (Proc.devRef .tc main_v51) = hRow1 (W (Proc.devRef .tc main_arg6)) := by
  show StableHlo.after hostOps3 W (Proc.devRef .tc main_v51) = _
  after_results; rfl
end

/-! ## Stretch 4 (between regions 3 and 4: the neighbourhood sums of region 3's first output, and layer 1's bias row) -/
section
variable (W : Valuation τ sig (Elt F))
theorem hostOps4_v62 : StableHlo.after hostOps4 W (Proc.devRef .tc main_v62) = hAgg (W (Proc.devRef .tc main_v52_0)) (W (Proc.devRef .tc main_v5)) (W (Proc.devRef .tc main_v6)) := by
  show StableHlo.after hostOps4 W (Proc.devRef .tc main_v62) = _
  after_results_simp; rfl
theorem hostOps4_v65 : StableHlo.after hostOps4 W (Proc.devRef .tc main_v65) = hRow1 (W (Proc.devRef .tc main_arg4)) := by
  show StableHlo.after hostOps4 W (Proc.devRef .tc main_v65) = _
  after_results; rfl
end

/-! ## Stretch 5 (between regions 4 and 5: the mean of region 4's partial sums) -/
section
variable (W : Valuation τ sig (Elt F))
theorem hostOps5_v69 : StableHlo.after hostOps5 W (Proc.devRef .tc main_v69) = hMeanOf (W (Proc.devRef .tc main_v66_0)) := by
  show StableHlo.after hostOps5 W (Proc.devRef .tc main_v69) = _
  after_results; rfl
end

/-! ## Stretch 6 (between regions 5 and 6: the mean of region 5's partial sums, layer 1's scale and shift rows, layer 2's pair of matrices and its residual bias row) -/
section
variable (W : Valuation τ sig (Elt F))
theorem hostOps6_v73 : StableHlo.after hostOps6 W (Proc.devRef .tc main_v73) = hMeanOf (W (Proc.devRef .tc main_v70)) := by
  show StableHlo.after hostOps6 W (Proc.devRef .tc main_v73) = _
  after_results; rfl
theorem hostOps6_v82 : StableHlo.after hostOps6 W (Proc.devRef .tc main_v82) = hRow1 (W (Proc.devRef .tc main_arg7)) := by
  show StableHlo.after hostOps6 W (Proc.devRef .tc main_v82) = _
  after_results; rfl
theorem hostOps6_v83 : StableHlo.after hostOps6 W (Proc.devRef .tc main_v83) = hRow1 (W (Proc.devRef .tc main_arg8)) := by
  show StableHlo.after hostOps6 W (Proc.devRef .tc main_v83) = _
  after_results; rfl
theorem hostOps6_v79 : StableHlo.after hostOps6 W (Proc.devRef .tc main_v79) = hWcat2 (W (Proc.devRef .tc main_v13)) := by
  show StableHlo.after hostOps6 W (Proc.devRef .tc main_v79) = _
  after_results; rfl
theorem hostOps6_v84 : StableHlo.after hostOps6 W (Proc.devRef .tc main_v84) = hRow2 (W (Proc.devRef .tc main_arg6)) := by
  show StableHlo.after hostOps6 W (Proc.devRef .tc main_v84) = _
  after_results; rfl
end

/-! ## Stretch 7 (between regions 6 and 7: the neighbourhood sums of region 6's first output, and layer 2's bias row) -/
section
variable (W : Valuation τ sig (Elt F))
theorem hostOps7_v95 : StableHlo.after hostOps7 W (Proc.devRef .tc main_v95) = hAgg (W (Proc.devRef .tc main_v85_0)) (W (Proc.devRef .tc main_v5)) (W (Proc.devRef .tc main_v6)) := by
  show StableHlo.after hostOps7 W (Proc.devRef .tc main_v95) = _
  after_results_simp; rfl
theorem hostOps7_v98 : StableHlo.after hostOps7 W (Proc.devRef .tc main_v98) = hRow2 (W (Proc.devRef .tc main_arg4)) := by
  show StableHlo.after hostOps7 W (Proc.devRef .tc main_v98) = _
  after_results; rfl
end

/-! ## Stretch 8 (between regions 7 and 8: the mean of region 7's partial sums) -/
section
variable (W : Valuation τ sig (Elt F))
theorem hostOps8_v102 : StableHlo.after hostOps8 W (Proc.devRef .tc main_v102) = hMeanOf (W (Proc.devRef .tc main_v99_0)) := by
  show StableHlo.after hostOps8 W (Proc.devRef .tc main_v102) = _
  after_results; rfl
end

/-! ## Stretch 9 (between regions 8 and 9: the mean of region 8's partial sums, layer 2's scale and shift rows) -/
section
variable (W : Valuation τ sig (Elt F))
theorem hostOps9_v106 : StableHlo.after hostOps9 W (Proc.devRef .tc main_v106) = hMeanOf (W (Proc.devRef .tc main_v103)) := by
  show StableHlo.after hostOps9 W (Proc.devRef .tc main_v106) = _
  after_results; rfl
theorem hostOps9_v111 : StableHlo.after hostOps9 W (Proc.devRef .tc main_v111) = hRow2 (W (Proc.devRef .tc main_arg7)) := by
  show StableHlo.after hostOps9 W (Proc.devRef .tc main_v111) = _
  after_results; rfl
theorem hostOps9_v112 : StableHlo.after hostOps9 W (Proc.devRef .tc main_v112) = hRow2 (W (Proc.devRef .tc main_arg8)) := by
  show StableHlo.after hostOps9 W (Proc.devRef .tc main_v112) = _
  after_results; rfl
end

/-! ## Stretch 10 (between regions 9 and 10: the graph indices as a column) -/
section
variable (W : Valuation τ sig (Elt F))
theorem hostOps10_v114 : StableHlo.after hostOps10 W (Proc.devRef .tc main_v114) = hBatch2d (W (Proc.devRef .tc main_arg2)) := by
  show StableHlo.after hostOps10 W (Proc.devRef .tc main_v114) = _
  after_results; rfl
end

/-! ## Stretch 11 (after region 10: the two partial pooled sums added, the program's result) -/
section
variable (W : Valuation τ sig (Elt F))
theorem hostOps11_v116 : StableHlo.after hostOps11 W (Proc.devRef .tc main_v116) = hPooled (W (Proc.devRef .tc main_v115)) := by
  show StableHlo.after hostOps11 W (Proc.devRef .tc main_v116) = _
  after_results; rfl
end

end Cert.KernelIdeal.Hand
-- ==== Proof.LibRowGatherScatter.lean ====
/-
  ROWS OF A TABLE, GATHERED AND SCATTER-ADDED, READ AT AN INDEX.

  For a table of shape [N, C] and E integer row indices (an [E, 1] array of words):

  * the row gather (dimension numbers: offset axis 1, collapsed axis 0, start index map [0], index vector on axis 1,
    slices of size [1, C]) has, at result position (e, j), the table's element at row idx[e, 0] — read as a signed
    integer and clamped into [0, N - 1] — and column j (gather_rows_apply);
  * the row scatter with an add body (window axis 1, inserted axis 0, scatter axis 0, index vector on axis 1) has, at
    the exact (extended-real) instance, at position (n, j) the operand's element plus the sum, over the rows e of the
    updates whose index idx[e, 0], read as a signed integer and NOT clamped, is exactly n, of upd[e, j]; a row whose
    index lies outside [0, N) contributes nowhere (scatterAdd_rows_apply);
  * both operations act column by column, so they commute with restricting every array to a block of columns
    c0, …, c0 + C' - 1 (gather_rows_cols, scatterAdd_rows_cols).
-/
import Idealize.ShloMosaic.Lib.ValueIdx
import Idealize.ShloMosaic.PureOps.Contract

noncomputable section

open scoped BigOperators

namespace Cert.LibRows

open Idealize.ShloMosaic Idealize.ShloMosaic.ValueIdx

/-! ## The row gather -/

section Gather
variable {α : Type}

/-- The row gather's dimension numbers for a table [N, C], start indices [E, 1] and result [E, C]; their conditions
    are decided on literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The conditions hold only of a table with at least one row: the size-1 slice must fit on axis 0. -/
theorem rowGather_pos {N E C : Nat}
    (wf : GatherDims.WF ⟨2, ![N, C]⟩ ⟨2, ![E, 1]⟩ ⟨2, ![E, C]⟩ [1] [0] [] [0] [] 1 ![1, C]) : 0 < N :=
  (rowGather N E C wf).slice_le 0

/-- THE ROW GATHER AT (e, j): the table at row idx[e, 0], read signed and clamped into [0, N - 1], and column j. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide
  -- axis 0 is collapsed: no offset coordinate; its start is the clamped index
  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1 is not indexed: its start is 0 and its offset coordinate the result's column
  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1

end Gather

/-! ## The row scatter with an add body -/

section Scatter

/-- The row scatter's dimension numbers for an operand [N, C], scatter indices [E, 1] and updates [E, C]; their
    conditions are decided on literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On axis 0 the window of update (e, j) starts at the index idx[e, 0], read signed. -/
theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1, which no index names, it starts at 0. -/
theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

/-- Axis 0 is an inserted axis: the window coordinate there is 0. -/
theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

/-- On axis 1 the window coordinate is the update's column. -/
theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

/-- WHERE AN UPDATE LANDS: update (e, j') goes to operand position (n, j) exactly when its row index idx[e, 0], read
    signed, is n and j' = j. (An index outside [0, N) is no n : Fin N: that update lands nowhere.) -/
theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

/-- THE ROW SCATTER-ADD AT (n, j), exact instance: the operand's element plus the sum of upd[e, j] over the update
    rows e whose index idx[e, 0], read signed and not clamped, is n. -/
theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1
  -- the updates that land at (n, j) are the (e, j) with idx[e, 0] = n: re-index the sum by the row e
  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

/-- The same of the host operation at the exact instance, for any float format. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

/-! ## Restriction to a block of columns -/

section Cols

/-- The columns c0, …, c0 + C' - 1 of an [R, C] array, as an [R, C'] array. -/
def cols {α : Type} {R C C' : Nat} (c0 : Nat) (h : c0 + C' ≤ C) (X : (⟨2, ![R, C]⟩ : Shape).Idx → α) :
    (⟨2, ![R, C']⟩ : Shape).Idx → α :=
  fun i => X (ix2 ⟨(i 0).val, idx2_lt0 i⟩ ⟨c0 + (i 1).val, by have := idx2_lt1 i; omega⟩)

/-- Its element (r, c) is the array's element (r, c0 + c). -/
theorem cols_apply {α : Type} {R C C' : Nat} (c0 : Nat) (h : c0 + C' ≤ C) (X : (⟨2, ![R, C]⟩ : Shape).Idx → α)
    (r : Fin R) (c : Fin C') : cols c0 h X (ix2 r c) = X (ix2 r ⟨c0 + c.val, by omega⟩) := rfl

/-- THE ROW GATHER COMMUTES WITH TAKING COLUMNS: gathering rows of the column block is the column block of the
    gathered rows (the row chosen depends on the index only). -/
theorem gather_rows_cols {α : Type} {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (c0 : Nat) (h : c0 + C' ≤ C) (x : (⟨2, ![N, C]⟩ : Shape).Idx → α) (idx : IVec ⟨2, ![E, 1]⟩ w) :
    Host.gather (rowGather N E C' wf') (cols c0 h x) idx = cols c0 h (Host.gather (rowGather N E C wf) x idx) := by
  funext i
  obtain ⟨e, c, rfl⟩ : ∃ (e : Fin E) (c : Fin C'), i = ix2 e c := ⟨i 0, i 1, eq_ix2 i⟩
  rw [gather_rows_apply hN wf', cols_apply, cols_apply, gather_rows_apply hN wf]

/-- THE ROW SCATTER-ADD COMMUTES WITH TAKING COLUMNS (exact instance): column c0 + c of the result is made of column
    c0 + c of the operand and of the updates only. -/
theorem scatterAdd_rows_cols {φ : FTy} {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (c0 : Nat) (h : c0 + C' ≤ C) (x : FVec Ideal ⟨2, ![N, C]⟩ φ) (idx : IVec ⟨2, ![E, 1]⟩ w)
    (upd : FVec Ideal ⟨2, ![E, C]⟩ φ) :
    Host.scatterAdd (F := Ideal) (rowScatter N E C' wf') (cols c0 h x) idx (cols c0 h upd)
      = cols c0 h (Host.scatterAdd (F := Ideal) (rowScatter N E C wf) x idx upd) := by
  funext i
  obtain ⟨n, c, rfl⟩ : ∃ (n : Fin N) (c : Fin C'), i = ix2 n c := ⟨i 0, i 1, eq_ix2 i⟩
  rw [host_scatterAdd_rows_apply wf', cols_apply, cols_apply, host_scatterAdd_rows_apply wf]
  rfl

end Cols

end Cert.LibRows

end
-- ==== Proof.LibVecScatter.lean ====
/-
  A VECTOR SCATTER-ADDED AT INTEGER POSITIONS, READ AT AN INDEX.

  For a vector of shape [N], E integer positions (an [E, 1] array of words) and E updates (shape [E]): the scatter
  with an add body (no window axis, inserted axis 0, scatter axis 0, index vector on axis 1) has, at the exact
  (extended-real) instance, at position n the operand's element plus the sum, over the updates e whose position
  idx[e, 0], read as a signed integer and NOT clamped, is exactly n, of upd[e]; an update whose position lies outside
  [0, N) contributes nowhere (scatterAdd_vec_apply). With every update equal to one this counts the positions equal
  to n (scatterAdd_vec_const).
-/
import Idealize.ShloMosaic.Lib.ValueIdx
import Idealize.ShloMosaic.PureOps.Contract

noncomputable section

open scoped BigOperators

namespace Cert.LibRows

open Idealize.ShloMosaic Idealize.ShloMosaic.ValueIdx

section VecScatter

/-- The vector scatter's dimension numbers for an operand [N], scatter indices [E, 1] and updates [E]; their
    conditions are decided on literal shapes. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update e starts at the position idx[e, 0], read signed. -/
theorem vecScatter_start (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e)
      ⟨List.idxOf (0 : Fin 1) (vecScatter N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The only operand axis is an inserted axis: the window coordinate there is 0. -/
theorem vecScatter_window (e : Fin E) : (vecScatter N E wf).window (ix1 e) (0 : Fin 1) = 0 := by
  unfold ScatterDims.window
  rw [dif_neg (show (0 : Fin 1) ∉ (vecScatter N E wf).sKept from by
    simp [ScatterDims.sKept, Shape.kept, List.mem_filter, List.mem_finRange])]

/-- WHERE AN UPDATE LANDS: update e goes to operand position n exactly when its position idx[e, 0], read signed,
    is n. (A position outside [0, N) is no n : Fin N: that update lands nowhere.) -/
theorem vecScatter_resultIdx?_eq_some (idx : IVec ⟨2, ![E, 1]⟩ w) (e : Fin E) (n : Fin N) :
    (vecScatter N E wf).resultIdx? (ix1 e) idx = some (ix1 n)
      ↔ (idx (ix2 e (0 : Fin 1))).toInt = (n.val : ℤ) := by
  have hs := vecScatter_start wf idx e
  have hw := vecScatter_window wf e
  constructor
  · intro h
    unfold ScatterDims.resultIdx? at h
    split at h
    · rename_i hall
      have h' := Option.some.inj h
      have e0 : ((vecScatter N E wf).start (ix1 e) idx (0 : Fin 1)
          + ((vecScatter N E wf).window (ix1 e) (0 : Fin 1) : ℤ)).toNat = n.val :=
        congrArg (fun f => (f (0 : Fin 1)).val) h'
      have b0 := (hall (0 : Fin 1)).1
      rw [hs, hw] at e0 b0
      omega
    · exact absurd h (by simp)
  · intro hn
    unfold ScatterDims.resultIdx?
    have hall : ∀ a, 0 ≤ (vecScatter N E wf).start (ix1 e) idx a + ((vecScatter N E wf).window (ix1 e) a : ℤ)
        ∧ (vecScatter N E wf).start (ix1 e) idx a + ((vecScatter N E wf).window (ix1 e) a : ℤ)
          < (((⟨1, ![N]⟩ : Shape).size a : ℕ) : ℤ) := by
      intro a
      match a with
      | ⟨0, _⟩ =>
        show 0 ≤ (vecScatter N E wf).start (ix1 e) idx (0 : Fin 1)
            + ((vecScatter N E wf).window (ix1 e) (0 : Fin 1) : ℤ)
          ∧ (vecScatter N E wf).start (ix1 e) idx (0 : Fin 1)
            + ((vecScatter N E wf).window (ix1 e) (0 : Fin 1) : ℤ) < ((N : ℕ) : ℤ)
        rw [hs, hw, hn]; have := n.isLt; omega
    rw [dif_pos hall]
    congr 1
    funext a
    refine Fin.ext ?_
    match a with
    | ⟨0, _⟩ =>
      show ((vecScatter N E wf).start (ix1 e) idx (0 : Fin 1)
          + ((vecScatter N E wf).window (ix1 e) (0 : Fin 1) : ℤ)).toNat = n.val
      rw [hs, hw, hn]; omega

/-- THE VECTOR SCATTER-ADD AT n, exact instance: the operand's element plus the sum of upd[e] over the updates e
    whose position idx[e, 0], read signed and not clamped, is n. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  -- the updates that land at n are the e with idx[e, 0] = n: re-index the sum by e
  refine Finset.sum_nbij' (fun u : (⟨1, ![E]⟩ : Shape).Idx => (u 0 : Fin E)) (fun e : Fin E => ix1 e) ?_ ?_ ?_ ?_ ?_
  · intro u hu
    obtain ⟨e, rfl⟩ : ∃ e : Fin E, u = ix1 e := ⟨u 0, eq_ix1 u⟩
    exact Finset.mem_filter.mpr ⟨Finset.mem_univ _,
      (vecScatter_resultIdx?_eq_some wf idx e n).mp (Finset.mem_filter.mp hu).2⟩
  · intro e he
    exact Finset.mem_filter.mpr ⟨Finset.mem_univ _,
      (vecScatter_resultIdx?_eq_some wf idx e n).mpr (Finset.mem_filter.mp he).2⟩
  · intro u _
    exact (eq_ix1 u).symm
  · intro e _
    rfl
  · intro u _
    exact congrArg upd (eq_ix1 u)

/-- The same of the host operation at the exact instance, for any float format. -/
theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (F := Ideal) (vecScatter N E wf) x idx upd (ix1 n)
      = x (ix1 n) + ∑ e ∈ Finset.univ.filter (fun e : Fin E => (idx (ix2 e (0 : Fin 1))).toInt = (n.val : ℤ)),
          upd (ix1 e) := by
  unfold Host.scatterAdd
  rw [Ideal.hostScatterAdd_def]
  exact scatterAdd_vec_apply wf x idx upd n

end VecScatter

end Cert.LibRows

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.LibTakeFill.lean ====
/-
  A gather whose out-of-range rows are replaced by a fill value ("fill mode"): the rows kept are those whose start
  index passes a range test, the test's bits are and-reduced over the index vector's axis, the row mask is laid over
  the result and a `select` keeps the gathered element where the mask is set and the fill elsewhere. When every start
  index passes the test the mask is all ones and the select is the gather itself: nothing is filled. The lemmas are
  generic in every shape and in the compared bounds; they never look inside the gathered values.
-/
import Idealize.ShloMosaic.PureOps
import Idealize.ShloMosaic.Lib.StableHlo.Predicate

noncomputable section

namespace Idealize.ShloMosaic.TakeFill

open Idealize.ShloMosaic

/-- An and-reduction, from the bit one, of a mask whose every bit is one is one at every result index: each step of the
    fold is `1 &&& 1`. No property of the reduced axes is used. -/
theorem reduce_andi_of_all_one {s t u : Shape} {axes : List (Fin s.rank)} (M : IVec s 1) (hM : ∀ i, M i = 1#1)
    (h : s.ReducesTo axes t) (hu : 0 < u.numel) :
    Host.reduce IntOp.andi M (constantI u 1 1#1) h hu = fun _ => 1#1 := by
  funext j
  unfold Host.reduce
  have key : ∀ l : List (Fin s.numel),
      l.foldl (fun r n => IntOp.andi r (M (s.rowMajor.symm n))) (1#1 : BitVec 1) = 1#1 := by
    intro l
    induction l with
    | nil => rfl
    | cons a l ih =>
      rw [List.foldl_cons, hM]
      exact ih
  exact key _

/-- A `select` under a broadcast mask whose every bit is one keeps its first operand everywhere. -/
theorem select_bcast_all_one {α : Type} {s t : Shape} (dims : Fin t.rank → Fin s.rank) (hb : t.BroadcastsInDim s dims)
    (M : IVec t 1) (hM : ∀ i, M i = 1#1) (a b : s.Idx → α) :
    select (broadcastInDim s dims hb M) a b = a := by
  funext j
  unfold select Scalar.select broadcastInDim
  exact if_pos (hM _)

/-- THE FILL-MODE TAKE with every index in range: the range test `lo ≤ idx ∧ idx ≤ hi` (signed, element by element,
    against any two bound vectors), and-reduced to a row mask, broadcast over the result and used to choose between
    the gathered value `a` and the fill `b`, chooses `a` everywhere. -/
theorem select_range_mask {α : Type} {si t u r : Shape} {axes : List (Fin si.rank)} (dims : Fin t.rank → Fin r.rank)
    (hb : t.BroadcastsInDim r dims) (hred : si.ReducesTo axes t) (hu : 0 < u.numel)
    (idx lo hi : IVec si 32)
    (hin : ∀ i, IntOp.cmpi .sge (idx i) (lo i) = 1#1 ∧ IntOp.cmpi .sle (idx i) (hi i) = 1#1)
    (a b : r.Idx → α) :
    select (broadcastInDim r dims hb
        (Host.reduce IntOp.andi (andi (cmpi .sge idx lo) (cmpi .sle idx hi)) (constantI u 1 1#1) hred hu)) a b = a := by
  have hM : ∀ i, (andi (cmpi .sge idx lo) (cmpi .sle idx hi)) i = 1#1 := by
    intro i
    show IntOp.andi (IntOp.cmpi .sge (idx i) (lo i)) (IntOp.cmpi .sle (idx i) (hi i)) = 1#1
    rw [(hin i).1, (hin i).2]; rfl
  rw [reduce_andi_of_all_one _ hM hred hu]
  exact select_bcast_all_one dims hb _ (fun _ => rfl) a b

/-- NumPy's wrap of a possibly negative index into an axis of extent `n`: `w + n` when `w` is negative, else `w`. -/
def wrapIdx (n w : BitVec 32) : BitVec 32 := Scalar.select (IntOp.cmpi .slt w 0#32) (IntOp.addi w n) w

/-- A word in `[-n, n)` (signed), wrapped, lies in `[0, n - 1]`: it passes the signed range test against `0` and `n - 1`. -/
theorem wrapIdx_in_range (n : Nat) (hn0 : 0 < n) (hn : n < 2 ^ 31) (w : BitVec 32)
    (hlo : -(n : Int) ≤ w.toInt) (hhi : w.toInt < (n : Int)) :
    IntOp.cmpi .sge (wrapIdx (BitVec.ofNat 32 n) w) 0#32 = 1#1
      ∧ IntOp.cmpi .sle (wrapIdx (BitVec.ofNat 32 n) w) (BitVec.ofNat 32 (n - 1)) = 1#1 := by
  have hnI : (BitVec.ofNat 32 n).toInt = (n : Int) := StableHlo.Predicate.toInt_ofNat_small n hn
  have hn1I : (BitVec.ofNat 32 (n - 1)).toInt = ((n - 1 : Nat) : Int) := StableHlo.Predicate.toInt_ofNat_small (n - 1) (by omega)
  -- a word whose signed value is in [0, n - 1] passes both compares
  have key : ∀ v : BitVec 32, 0 ≤ v.toInt → v.toInt ≤ (n : Int) - 1 →
      IntOp.cmpi .sge v 0#32 = 1#1 ∧ IntOp.cmpi .sle v (BitVec.ofNat 32 (n - 1)) = 1#1 := by
    intro v h0 h1
    unfold IntOp.cmpi
    simp only [StableHlo.Predicate.ofBool_eq_one_iff, BitVec.sle, decide_eq_true_eq, hn1I, BitVec.toInt_zero]
    constructor
    · exact h0
    · omega
  unfold wrapIdx Scalar.select
  by_cases hneg : w.toInt < 0
  · have hc1 : IntOp.cmpi .slt w 0#32 = 1#1 := by
      unfold IntOp.cmpi
      simp only [StableHlo.Predicate.ofBool_eq_one_iff, BitVec.slt, decide_eq_true_eq, BitVec.toInt_zero]
      exact hneg
    have hc : IntOp.cmpi .slt w 0#32 = (1 : BitVec 1) := hc1
    rw [if_pos hc]
    have hsum : (IntOp.addi w (BitVec.ofNat 32 n)).toInt = w.toInt + (n : Int) := by
      unfold IntOp.addi
      rw [BitVec.toInt_add, hnI]
      unfold Int.bmod
      have h32 : (2 : Int) ^ 32 = 4294967296 := by decide
      have h31 : (2 : Nat) ^ 31 = 2147483648 := by decide
      rw [h31] at hn
      simp only [h32, Nat.cast_ofNat]
      omega
    apply key
    · rw [hsum]; omega
    · rw [hsum]; omega
  · have hc1 : ¬ IntOp.cmpi .slt w 0#32 = 1#1 := by
      unfold IntOp.cmpi
      simp only [StableHlo.Predicate.ofBool_eq_one_iff, BitVec.slt, decide_eq_true_eq, BitVec.toInt_zero]
      exact hneg
    have hc : ¬ IntOp.cmpi .slt w 0#32 = (1 : BitVec 1) := hc1
    rw [if_neg hc]
    apply key
    · omega
    · omega

end Idealize.ShloMosaic.TakeFill

end
-- ==== Proof.KI.RefReadGraph.lean ====
/-
  THE REFERENCE'S GRAPH STAGES, READ AT AN INDEX.

  The edge list is followed by one self loop per node, so every node is the destination of at least one entry. The
  in-degree of node n is a one added per entry whose destination is n; its inverse square root is therefore a positive
  real. An entry's weight is the product of the inverse-root degrees at its two ends, each end read through the gather's
  wrap-and-clamp of the index word. A convolution's row n is the sum, over the entries landing at n, of the source's row
  of x · W scaled by the entry's weight, plus the bias; the pooling's row g is the sum of the node rows whose graph
  number is g.
-/
import proofs.«417336_j40785009443359_3_alg».proof.Proof.KI.RefSpec
import proofs.«417336_j40785009443359_3_alg».proof.Proof.LibRowGatherScatter
import proofs.«417336_j40785009443359_3_alg».proof.Proof.LibVecScatter
import proofs.«417336_j40785009443359_3_alg».proof.Proof.LibSageSpec
import proofs.«417336_j40785009443359_3_alg».proof.Proof.LibTakeFill
import proofs.«417336_j40785009443359_3_alg».proof.Proof.LibFiniteSums
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## A vector gathered at integer positions -/

section VecGather
variable {α : Type}

/-- The gather's dimension numbers for a table [N], start indices [E, 1] and result [E]: no offset axis, the table's
    one axis collapsed, the index vector on axis 1, slices of size 1. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER AT e: the table at the position idx[e, 0], read signed and clamped into [0, N - 1]. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  -- the one axis is collapsed and no batching axis: only the clamped start index is left
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

/-! ## The program's dimension records are the general ones -/

theorem degScatter_eq : scatter_S100000_S1700000x1_S1700000_n_0_0_1
    = Cert.LibRows.vecScatter 100000 1700000 scatter_S100000_S1700000x1_S1700000_n_0_0_1_wf := rfl

theorem dinvGather_eq : gather_S100000_S1700000x1_S1700000_n_0_n_n_0_1_1
    = vecGather 100000 1700000 gather_S100000_S1700000x1_S1700000_n_0_n_n_0_1_1_wf := rfl

theorem rowsGather_eq : gather_S100000x128_S1700000x1_S1700000x128_1_0_n_n_0_1_1128
    = Cert.LibRows.rowGather 100000 1700000 128 gather_S100000x128_S1700000x1_S1700000x128_1_0_n_n_0_1_1128_wf := rfl

theorem rowsScatter_eq : scatter_S100000x128_S1700000x1_S1700000x128_1_0_0_1
    = Cert.LibRows.rowScatter 100000 1700000 128 scatter_S100000x128_S1700000x1_S1700000x128_1_0_0_1_wf := rfl

theorem poolScatter_eq : scatter_S1024x128_S100000x1_S100000x128_1_0_0_1
    = Cert.LibRows.rowScatter 1024 100000 128 scatter_S1024x128_S100000x1_S100000x128_1_0_0_1_wf := rfl

theorem nodeDot_eq : dot_S100000x128_S128x128_S100000x128_1_0_0_1_n_n = DotDims.plain 100000 128 128 := rfl

/-- Rows by columns: the left operand is read at (row, κ), the right at (κ, column). -/
theorem plainDot_plain (n k m : Nat) : SageSpec.PlainDot (DotDims.plain n k m) :=
  ⟨rfl, fun _ => rfl, fun _ _ => rfl, fun _ _ _ => rfl, fun _ _ _ => rfl, fun _ _ => rfl⟩

/-! ## The index arrays -/

/-- Entry 1600000 + n of either end's array is the self loop of node n: the word of n. -/
theorem refEnds_loop (off : Fin 2 → Nat) (h : S2x1600000.Slices off S1x1600000) (a1 : IVec S2x1600000 32) (n : Fin 100000) :
    refEnds off h a1 (ix1 ⟨1600000 + n.val, by omega⟩) = BitVec.ofNat 32 n.val := by
  unfold refEnds
  refine (concatenate_pair_apply_right _ _ _ concatenates_S1600000_S100000_S1700000_d0 _ rfl rfl (ix1 n) ?_ ?_).trans ?_
  · intro b hb
    exact absurd (Subsingleton.elim _ _) hb
  · show n.val + 1600000 = 1600000 + n.val
    omega
  · rfl

/-- The word of a node number reads, signed, as that number. -/
theorem toInt_node (n : Fin 100000) : (BitVec.ofNat 32 n.val).toInt = (n.val : ℤ) :=
  StableHlo.Predicate.toInt_ofNat_small n.val (by have := n.isLt; omega)

/-- The wrapped column at entry e is the wrap of the array's word at e. -/
theorem refWrapCol_apply (v : IVec S1700000 32) (e : Fin 1700000) (u : Fin 1) :
    refWrapCol v (ix2 e u) = TakeFill.wrapIdx 100000#32 (v (ix1 e)) := by
  unfold refWrapCol
  exact broadcastInDim_apply _ _ _ _ (ix1 e) (fun a => by obtain rfl : a = 0 := Subsingleton.elim _ _; rfl)

/-- The scatters' column at entry e is the destination word at e. -/
theorem refDstIdx_apply (a1 : IVec S2x1600000 32) (e : Fin 1700000) (u : Fin 1) :
    refDstIdx a1 (ix2 e u) = refDst a1 (ix1 e) := by
  unfold refDstIdx
  exact broadcastInDim_apply _ _ _ _ (ix1 e) (fun a => by obtain rfl : a = 0 := Subsingleton.elim _ _; rfl)

/-- A word that reads non-negative is not wrapped. -/
theorem wrapIdx_of_nonneg (m w : BitVec 32) (h : 0 ≤ w.toInt) : TakeFill.wrapIdx m w = w := by
  unfold TakeFill.wrapIdx Scalar.select
  have hc : ¬ IntOp.cmpi .slt w 0#32 = 1#1 := by
    unfold IntOp.cmpi
    simp only [StableHlo.Predicate.ofBool_eq_one_iff, BitVec.slt, decide_eq_true_eq, BitVec.toInt_zero]
    omega
  exact if_neg hc

/-- The zero word laid over any shape reads zero everywhere. -/
theorem zeros_apply {T : Shape} (h : S_.BroadcastsInDim T ![]) (j : T.Idx) :
    broadcastInDim T ![] h (constant (F := Ideal) S_ .f32 0x00000000#32) j = (0 : EReal) :=
  (broadcastInDim_scalar_apply h _ j).trans Cert.LibFinite.ofBits_zero

/-- The word of one laid over any shape reads one everywhere. -/
theorem ones_apply {T : Shape} (h : S_.BroadcastsInDim T ![]) (j : T.Idx) :
    broadcastInDim T ![] h (constant (F := Ideal) S_ .f32 0x3F800000#32) j = (1 : EReal) :=
  (broadcastInDim_scalar_apply h _ j).trans Cert.LibFinite.ofBits_one

/-! ## Where an entry lands, and which row a gather reads -/

/-- The edges and self loops whose destination is n. -/
def landing (a1 : IVec S2x1600000 32) (n : Fin 100000) : Finset (Fin 1700000) :=
  Finset.univ.filter fun e => (refDst a1 (ValueIdx.ix1 e)).toInt = (n.val : ℤ)

/-- The row a gather reads for entry e: the wrapped word, read signed and clamped into [0, N - 1]. -/
def rowOf (v : IVec S1700000 32) (e : Fin 1700000) : Fin 100000 :=
  ⟨min ((refWrapCol v) (ValueIdx.ix2 e 0)).toInt.toNat 99999, by omega⟩

/-- The same set, the destination read off the scatters' column. -/
theorem landing_eq (a1 : IVec S2x1600000 32) (n : Fin 100000) :
    Finset.univ.filter (fun e : Fin 1700000 => (refDstIdx a1 (ix2 e (0 : Fin 1))).toInt = (n.val : ℤ)) = landing a1 n :=
  Finset.filter_congr fun e _ => by rw [refDstIdx_apply]

/-- The self loop of n lands at n. -/
theorem landing_nonempty (a1 : IVec S2x1600000 32) (n : Fin 100000) : (landing a1 n).Nonempty := by
  refine ⟨⟨1600000 + n.val, by omega⟩, Finset.mem_filter.mpr ⟨Finset.mem_univ _, ?_⟩⟩
  unfold refDst
  rw [refEnds_loop]
  exact toInt_node n

/-- An entry landing at n has its destination gathered at row n: a non-negative word below N is neither wrapped nor
    clamped. -/
theorem rowOf_dst_of_landing (a1 : IVec S2x1600000 32) (n : Fin 100000) (e : Fin 1700000) (he : e ∈ landing a1 n) :
    rowOf (refDst a1) e = n := by
  have hv : (refDst a1 (ix1 e)).toInt = (n.val : ℤ) := (Finset.mem_filter.mp he).2
  refine Fin.ext ?_
  show min ((refWrapCol (refDst a1)) (ix2 e 0)).toInt.toNat 99999 = n.val
  rw [refWrapCol_apply, wrapIdx_of_nonneg _ _ (by omega), hv]
  have := n.isLt
  omega

/-! ## Degrees and edge weights -/

/-- The in-degree of n: a one per entry landing at n. -/
theorem refDeg_apply (a1 : IVec S2x1600000 32) (n : Fin 100000) :
    refDeg (F := Ideal) a1 (ix1 n) = 0 + ∑ e ∈ landing a1 n, (1 : EReal) := by
  unfold refDeg
  rw [degScatter_eq, Cert.LibRows.host_scatterAdd_vec_apply, zeros_apply, landing_eq]
  exact congr rfl (Finset.sum_congr rfl fun e _ => ones_apply _ _)

/-- The degree is a real number, at least one. -/
theorem refDeg_real_ge_one (a1 : IVec S2x1600000 32) (n : Fin 100000) :
    Cert.LibFinite.IsReal (refDeg (F := Ideal) a1 (ix1 n)) ∧ 1 ≤ refDeg (F := Ideal) a1 (ix1 n) := by
  rw [refDeg_apply]
  exact Cert.LibFinite.count_pos _ (landing_nonempty a1 n)

/-- The host's inverse square root reads, at an index, the inverse square root of the operand there. -/
theorem host_rsqrt_apply {s : Shape} {φ : FTy} (v : FVec Ideal s φ) (i : s.Idx) :
    Host.rsqrt (F := Ideal) v i = Ideal.rsqrt (v i) := rfl

/-- The inverse-root degree of n. -/
theorem refDinv_apply (a1 : IVec S2x1600000 32) (n : Fin 100000) :
    refDinv (F := Ideal) a1 (ix1 n) = Ideal.rsqrt (refDeg (F := Ideal) a1 (ix1 n)) :=
  host_rsqrt_apply (refDeg (F := Ideal) a1) (ix1 n)

/-- It is a positive real: the degree is a real number at least one. -/
theorem refDinv_real_pos (a1 : IVec S2x1600000 32) (n : Fin 100000) :
    Cert.LibFinite.IsReal (refDinv (F := Ideal) a1 (ix1 n)) ∧ 0 < refDinv (F := Ideal) a1 (ix1 n) := by
  rw [refDinv_apply]
  obtain ⟨hr, h1⟩ := refDeg_real_ge_one a1 n
  exact Cert.LibFinite.isReal_rsqrt _ hr (lt_of_lt_of_le zero_lt_one h1)

/-- The weight of entry e: the inverse-root degrees at the rows its two ends are gathered at. -/
theorem refNorm_apply (a1 : IVec S2x1600000 32) (e : Fin 1700000) :
    refNorm (F := Ideal) a1 (ix2 e 0)
      = refDinv a1 (ix1 (rowOf (refSrc a1) e)) * refDinv a1 (ix1 (rowOf (refDst a1) e)) := by
  unfold refNorm
  refine (broadcastInDim_apply _ _ _ _ (ix1 e)
    (fun a => by obtain rfl : a = 0 := Subsingleton.elim _ _; rfl)).trans ?_
  rw [mulf_apply, dinvGather_eq, gather_vec_apply (N := 100000) (by decide), gather_vec_apply (N := 100000) (by decide)]
  rfl

/-! ## The convolution and the pooling -/

/-- A feature vector laid along every row reads, at (n, q), its entry q. -/
private theorem refRows_at (b : FVec Ideal S128 .f32) (n : Fin 100000) (q : Fin 128) : refRows b (ix2 n q) = b (ix1 q) := by
  unfold refRows
  refine (broadcastInDim_apply _ _ _ _ (ix2 (0 : Fin 1) q) (fun a => by
    match a with
    | ⟨0, _⟩ => rfl
    | ⟨1, _⟩ => rfl)).trans ?_
  exact broadcastInDim_apply _ _ _ _ (ix1 q) (fun a => by obtain rfl : a = 0 := Subsingleton.elim _ _; rfl)

/-- The convolution's row n, column q: over the entries landing at n, the source row of x · W at column q times the
    entry's weight, summed from zero, plus the bias at q. -/
theorem refConv_apply (x : FVec Ideal S100000x128 .f32) (W : FVec Ideal S128x128 .f32) (b : FVec Ideal S128 .f32)
    (a1 : IVec S2x1600000 32) (n : Fin 100000) (q : Fin 128) :
    refConv (F := Ideal) x W b (refSrcIdx a1) (refDstIdx a1) (refNorm a1) (ix2 n q)
      = (0 + ∑ e ∈ landing a1 n, SageSpec.rowDot x W (rowOf (refSrc a1) e) q * refNorm (F := Ideal) a1 (ix2 e 0))
        + b (ix1 q) := by
  unfold refConv
  rw [addf_apply, rowsScatter_eq, Cert.LibRows.host_scatterAdd_rows_apply, refRows_at, zeros_apply, landing_eq]
  refine congr (congrArg HAdd.hAdd (congr rfl (Finset.sum_congr rfl fun e _ => ?_))) rfl
  · rw [mulf_apply, rowsGather_eq, Cert.LibRows.gather_rows_apply (N := 100000) (by decide), nodeDot_eq,
      SageSpec.dotGeneral_at (plainDot_plain _ _ _)]
    refine congr (congrArg HMul.hMul rfl) ?_
    exact broadcastInDim_apply _ _ _ _ (ix2 e (0 : Fin 1)) (fun a => by
      match a with
      | ⟨0, _⟩ => rfl
      | ⟨1, _⟩ => rfl)

/-- The pooling's row g, column q: the node rows whose graph number is g, summed from zero. -/
theorem refPool_apply (x : FVec Ideal S100000x128 .f32) (a2 : IVec S100000 32) (g : Fin 1024) (q : Fin 128) :
    refPool (F := Ideal) x a2 (ix2 g q)
      = 0 + ∑ n ∈ Finset.univ.filter (fun n : Fin 100000 => (a2 (ix1 n)).toInt = (g.val : ℤ)), x (ix2 n q) := by
  unfold refPool
  have hcol : ∀ m : Fin 100000,
      broadcastInDim S100000x1 ![0] bcast_S100000_S100000x1_0 a2 (ix2 m (0 : Fin 1)) = a2 (ix1 m) := fun m =>
    broadcastInDim_apply _ _ _ _ (ix1 m) (fun a => by obtain rfl : a = 0 := Subsingleton.elim _ _; rfl)
  have hset : Finset.univ.filter (fun m : Fin 100000 =>
        (broadcastInDim S100000x1 ![0] bcast_S100000_S100000x1_0 a2 (ix2 m (0 : Fin 1))).toInt = (g.val : ℤ))
      = Finset.univ.filter (fun m : Fin 100000 => (a2 (ix1 m)).toInt = (g.val : ℤ)) :=
    Finset.filter_congr fun m _ => by rw [hcol]
  rw [poolScatter_eq, Cert.LibRows.host_scatterAdd_rows_apply, zeros_apply, hset]

end Cert.ReferenceIdeal.Hand

end
-- ==== Proof.KI.KRead.lean ====
/-
  The kernel program's host arrays, read at an index, against the stages of the reference.

  The host operations of the kernel program build a handful of arrays between its regions: the two index vectors
  with one self loop per node, the inverse square root of the degrees as a column, a layer's pair of weight
  matrices side by side, one row of a per-layer parameter, the neighbourhood sums of a layer's projected features,
  the mean of two partial sums and the sum of two partial pooled sums. Each is read here at one index and stated
  as the matching stage of the reference (or as an explicit finite sum) read at the matching index.
-/
import proofs.«417336_j40785009443359_3_alg».proof.Proof.KI.HostVals
import proofs.«417336_j40785009443359_3_alg».proof.Proof.KI.RefSpec
import proofs.«417336_j40785009443359_3_alg».proof.Proof.KI.RefReadGraph
import proofs.«417336_j40785009443359_3_alg».proof.Proof.LibRowGatherScatter
import proofs.«417336_j40785009443359_3_alg».proof.Proof.LibFiniteSums
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Cert.ReferenceIdeal.Hand
open Idealize.ShloMosaic Idealize.ShloMosaic.ValueIdx

/-! ## The index vectors

  Both programs cut a row out of the edge table, flatten it and append the node numbers. -/

/-- The sources with the self loops appended are the reference's. -/
theorem hSrcCat_eq (a1 : IVec S2x1600000 32) : hSrcCat (F := Ideal) a1 = refSrc a1 := rfl

/-- The destinations with the self loops appended are the reference's. -/
theorem hDstCat_eq (a1 : IVec S2x1600000 32) : hDstCat (F := Ideal) a1 = refDst a1 := rfl

/-! ## A vector as a column -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A vector over the edges and self loops laid out as a column reads, at `(e, 0)`, the vector at `e`. -/
theorem edgeCol_apply {α : Type} (v : S1700000.Idx → α) (e : Fin 1700000) :
    broadcastInDim S1700000x1 ![0] bcast_S1700000_S1700000x1_0 v (ix2 e (0 : Fin 1)) = v (ix1 e) :=
  broadcastInDim_apply _ _ _ _ _ (fun a => match a with | ⟨0, _⟩ => rfl)

/-! ## The degrees -/

/-- The degrees are the reference's: ones scatter-added at the same destinations. -/
theorem hDeg_eq (a1 : IVec S2x1600000 32) : hDeg (F := Ideal) a1 = refDeg (F := Ideal) a1 := rfl

/-- The column of inverse square roots of the degrees reads, at row `n`, the reference's vector at `n`. -/
theorem hDinv2d_apply (a1 : IVec S2x1600000 32) (n : Fin 100000) :
    hDinv2d (F := Ideal) a1 (ix2 n (0 : Fin 1)) = refDinv (F := Ideal) a1 (ix1 n) := by
  unfold hDinv2d
  rw [shapeCast_a_a1_apply, hDeg_eq]
  rfl

/-- The graph numbers as a column read, at row `n`, the graph number of node `n`. -/
theorem hBatch2d_apply (a2 : IVec S100000 32) (n : Fin 100000) :
    hBatch2d (F := Ideal) a2 (ix2 n (0 : Fin 1)) = a2 (ix1 n) :=
  shapeCast_a_a1_apply a2 shapeCasts_S100000_S100000x1 n 0

/-! ## The neighbourhood sums -/

/-- The scatter's dimension numbers are the row scatter's. -/
theorem aggScatter_eq : scatter_S100000x128_S1700000x1_S1700000x128_1_0_0_1
    = Cert.LibRows.rowScatter 100000 1700000 128 scatter_S100000x128_S1700000x1_S1700000x128_1_0_0_1_wf := rfl

/-- The gather's dimension numbers are the row gather's. -/
theorem aggGather_eq : gather_S100000x128_S1700000x1_S1700000x128_1_0_n_n_0_1_1128
    = Cert.LibRows.rowGather 100000 1700000 128 gather_S100000x128_S1700000x1_S1700000x128_1_0_n_n_0_1_1128_wf := rfl

/-- The neighbourhood sums at `(n, q)`: zero plus, over the edges and self loops that land on node `n`, the table's
    entry at the edge's source row and column `q`. -/
theorem hAgg_apply (x : FVec Ideal S100000x128 .f32) (a1 : IVec S2x1600000 32) (n : Fin 100000) (q : Fin 128) :
    hAgg (F := Ideal) x (hSrcCat a1) (hDstCat a1) (ix2 n q)
      = 0 + ∑ e ∈ landing a1 n, x (ix2 (rowOf (refSrc a1) e) q) := by
  show Host.scatterAdd (F := Ideal) scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 (hDstCat (F := Ideal) a1))
      (Host.gather gather_S100000x128_S1700000x1_S1700000x128_1_0_n_n_0_1_1128 x
        (broadcastInDim S1700000x1 ![0] bcast_S1700000_S1700000x1_0 (hWrap (F := Ideal) (hSrcCat (F := Ideal) a1))))
      (ix2 n q) = _
  rw [aggScatter_eq, Cert.LibRows.host_scatterAdd_rows_apply, broadcastInDim_scalar_apply, constant_apply,
    Ideal.ofBits_zero_f32]
  refine congrArg (0 + ·) (Finset.sum_congr ?_ fun e _ => ?_)
  · -- an edge lands on `n` when its destination word, read signed, is `n`
    show _ = Finset.univ.filter fun e : Fin 1700000 => (refDst a1 (ix1 e)).toInt = (n.val : ℤ)
    refine Finset.filter_congr fun e _ => ?_
    rw [edgeCol_apply]
    exact Iff.rfl
  · -- the row gathered for edge `e` is its wrapped source word, read signed and clamped
    rw [aggGather_eq, Cert.LibRows.gather_rows_apply (by omega : 0 < 100000)]
    rfl

/-! ## The two cores' partial sums -/

/-- The mean row at column `q`: zero plus the two partial sums, over the number of nodes. -/
theorem hMeanOf_apply (P : FVec Ideal S2x1x128 .f32) (q : Fin 128) :
    hMeanOf (F := Ideal) P (ix2 (0 : Fin 1) q)
      = Ideal.div (0 + ∑ s : Fin 2, P (ix3 s (0 : Fin 1) q)) ((100000 : ℝ) : EReal) := by
  have hR : S2x1x128.Reduces [0] S1x128 :=
    ⟨reducesTo_S2x1x128_S1x128_d0.1, Nat.two_pos, reducesTo_S2x1x128_S1x128_d0.2⟩
  show Ideal.div
      (Ideal.hostReduceAdd reducesTo_S2x1x128_S1x128_d0 P
        (constant (F := Ideal) S_ .f32 0x00000000#32 (Shape.Idx.first h_S_)) (ix2 (0 : Fin 1) q))
      (broadcastInDim S1x128 ![] bcast_S_S1x128 (constant (F := Ideal) S_ .f32 0x47C35000#32) (ix2 (0 : Fin 1) q)) = _
  rw [Ideal.hostReduceAdd_single _ hR, broadcastInDim_scalar_apply, constant_apply, constant_apply,
    Cert.LibFinite.ofBits_100000, Ideal.ofBits_zero_f32]
  refine congrArg (fun z => Ideal.div (0 + z) ((100000 : ℝ) : EReal)) (Finset.sum_congr rfl fun s _ => ?_)
  refine congrArg P (funext fun a => Fin.ext ?_)
  match a with
  | ⟨0, _⟩ => rfl
  | ⟨1, _⟩ => rfl
  | ⟨2, _⟩ => rfl

/-- The pooled sums at `(g, q)`: zero plus the two cores' partial pooled sums. -/
theorem hPooled_apply (P : FVec Ideal S2x1024x128 .f32) (g : Fin 1024) (q : Fin 128) :
    hPooled (F := Ideal) P (ix2 g q) = 0 + ∑ s : Fin 2, P (ix3 s g q) := by
  have hR : S2x1024x128.Reduces [0] S1024x128 :=
    ⟨reducesTo_S2x1024x128_S1024x128_d0.1, Nat.two_pos, reducesTo_S2x1024x128_S1024x128_d0.2⟩
  show Ideal.hostReduceAdd reducesTo_S2x1024x128_S1024x128_d0 P
      (constant (F := Ideal) S_ .f32 0x00000000#32 (Shape.Idx.first h_S_)) (ix2 g q) = _
  rw [Ideal.hostReduceAdd_single _ hR, constant_apply, Ideal.ofBits_zero_f32]
  refine congrArg (0 + ·) (Finset.sum_congr rfl fun s _ => ?_)
  refine congrArg P (funext fun a => Fin.ext ?_)
  match a with
  | ⟨0, _⟩ => rfl
  | ⟨1, _⟩ => rfl
  | ⟨2, _⟩ => rfl

/-! ## A row of a per-layer parameter -/

/-- Row `k` of a three-row parameter as a one-row matrix reads, at column `q`, the reference's row `k` at `q`. -/
theorem hRowAt_apply (k : ℕ) (h : S3x128.Slices ![k, 0] S1x128) (p : FVec Ideal S3x128 .f32) (q : Fin 128) :
    hRowAt (F := Ideal) k h p (ix2 (0 : Fin 1) q) = refRow ![k, 0] h p (ix1 q) := by
  show shapeCast S1x128 (fun j => shapeCast S128 (extractStridedSlice S1x128 ![k, 0] p h) shapeCasts_S1x128_S128 j)
      shapeCasts_S128_S1x128 (ix2 (0 : Fin 1) q) = _
  rw [shapeCast_a_1a_apply]
  rfl

theorem hRow0_apply (a : FVec Ideal S3x128 .f32) (q : Fin 128) :
    hRow0 (F := Ideal) a (ix2 (0 : Fin 1) q)
      = refRow ![0, 0] Cert.ReferenceIdeal.Gen.slices_S3x128_S1x128_0_0 a (ix1 q) :=
  hRowAt_apply 0 _ a q

theorem hRow1_apply (a : FVec Ideal S3x128 .f32) (q : Fin 128) :
    hRow1 (F := Ideal) a (ix2 (0 : Fin 1) q)
      = refRow ![1, 0] Cert.ReferenceIdeal.Gen.slices_S3x128_S1x128_1_0 a (ix1 q) :=
  hRowAt_apply 1 _ a q

theorem hRow2_apply (a : FVec Ideal S3x128 .f32) (q : Fin 128) :
    hRow2 (F := Ideal) a (ix2 (0 : Fin 1) q)
      = refRow ![2, 0] Cert.ReferenceIdeal.Gen.slices_S3x128_S1x128_2_0 a (ix1 q) :=
  hRowAt_apply 2 _ a q

/-! ## A layer's pair of weight matrices, side by side -/

/-- Layer `i`'s slice of the concatenated stack reads, in its first 128 columns, the first stack's matrix `i`. -/
theorem hWcatAt_left (i : ℕ) (hi : i < 3) (h : S3x128x256.Slices ![i, 0, 0] S1x128x256)
    (h' : Cert.ReferenceIdeal.S3x128x128.Slices ![i, 0, 0] Cert.ReferenceIdeal.S1x128x128)
    (a3 a5 : FVec Ideal S3x128x128 .f32) (k q : Fin 128) :
    hWcatAt (F := Ideal) i h (hWcats (F := Ideal) a3 a5) (ix2 k (⟨q.val, by omega⟩ : Fin 256))
      = refMat ![i, 0, 0] h' a3 (ix2 k q) := by
  show shapeCast S128x256 (extractStridedSlice S1x128x256 ![i, 0, 0] (hWcats (F := Ideal) a3 a5) h)
      shapeCasts_S1x128x256_S128x256 (ix2 k (⟨q.val, by omega⟩ : Fin 256))
    = shapeCast Cert.ReferenceIdeal.S128x128 (extractStridedSlice Cert.ReferenceIdeal.S1x128x128 ![i, 0, 0] a3 h')
      Cert.ReferenceIdeal.Gen.shapeCasts_S1x128x128_S128x128 (ix2 k q)
  rw [shapeCast_1ab_ab_apply, shapeCast_1ab_ab_apply]
  rw [extractStridedSlice_apply ![i, 0, 0] (hWcats (F := Ideal) a3 a5) h (ix3 (0 : Fin 1) k (⟨q.val, by omega⟩ : Fin 256))
    (ix3 (⟨i, hi⟩ : Fin 3) k (⟨q.val, by omega⟩ : Fin 256))
    (fun ax => match ax with
      | ⟨0, _⟩ => (Nat.add_zero _).symm
      | ⟨1, _⟩ => (Nat.zero_add _).symm
      | ⟨2, _⟩ => (Nat.zero_add _).symm)]
  rw [extractStridedSlice_apply ![i, 0, 0] a3 h' (ix3 (0 : Fin 1) k q) (ix3 (⟨i, hi⟩ : Fin 3) k q)
    (fun ax => match ax with
      | ⟨0, _⟩ => (Nat.add_zero _).symm
      | ⟨1, _⟩ => (Nat.zero_add _).symm
      | ⟨2, _⟩ => (Nat.zero_add _).symm)]
  show concatenate S3x128x256 2 [⟨S3x128x128, a3⟩, ⟨S3x128x128, a5⟩] concatenates_S3x128x128_S3x128x128_S3x128x256_d2
      (ix3 (⟨i, hi⟩ : Fin 3) k (⟨q.val, by omega⟩ : Fin 256)) = _
  exact concatenate_pair_apply_left (t := S3x128x256) (s₁ := S3x128x128) (s₂ := S3x128x128) (2 : Fin 3) a3 a5
    concatenates_S3x128x128_S3x128x128_S3x128x256_d2 (ix3 (⟨i, hi⟩ : Fin 3) k (⟨q.val, by omega⟩ : Fin 256)) rfl
    (ix3 (⟨i, hi⟩ : Fin 3) k q)
    (fun b => match b with
      | ⟨0, _⟩ => rfl
      | ⟨1, _⟩ => rfl
      | ⟨2, _⟩ => rfl)

/-- … and, in its last 128 columns, the second stack's matrix `i`. -/
theorem hWcatAt_right (i : ℕ) (hi : i < 3) (h : S3x128x256.Slices ![i, 0, 0] S1x128x256)
    (h' : Cert.ReferenceIdeal.S3x128x128.Slices ![i, 0, 0] Cert.ReferenceIdeal.S1x128x128)
    (a3 a5 : FVec Ideal S3x128x128 .f32) (k q : Fin 128) :
    hWcatAt (F := Ideal) i h (hWcats (F := Ideal) a3 a5) (ix2 k (⟨128 + q.val, by omega⟩ : Fin 256))
      = refMat ![i, 0, 0] h' a5 (ix2 k q) := by
  show shapeCast S128x256 (extractStridedSlice S1x128x256 ![i, 0, 0] (hWcats (F := Ideal) a3 a5) h)
      shapeCasts_S1x128x256_S128x256 (ix2 k (⟨128 + q.val, by omega⟩ : Fin 256))
    = shapeCast Cert.ReferenceIdeal.S128x128 (extractStridedSlice Cert.ReferenceIdeal.S1x128x128 ![i, 0, 0] a5 h')
      Cert.ReferenceIdeal.Gen.shapeCasts_S1x128x128_S128x128 (ix2 k q)
  rw [shapeCast_1ab_ab_apply, shapeCast_1ab_ab_apply]
  rw [extractStridedSlice_apply ![i, 0, 0] (hWcats (F := Ideal) a3 a5) h
    (ix3 (0 : Fin 1) k (⟨128 + q.val, by omega⟩ : Fin 256))
    (ix3 (⟨i, hi⟩ : Fin 3) k (⟨128 + q.val, by omega⟩ : Fin 256))
    (fun ax => match ax with
      | ⟨0, _⟩ => (Nat.add_zero _).symm
      | ⟨1, _⟩ => (Nat.zero_add _).symm
      | ⟨2, _⟩ => (Nat.zero_add _).symm)]
  rw [extractStridedSlice_apply ![i, 0, 0] a5 h' (ix3 (0 : Fin 1) k q) (ix3 (⟨i, hi⟩ : Fin 3) k q)
    (fun ax => match ax with
      | ⟨0, _⟩ => (Nat.add_zero _).symm
      | ⟨1, _⟩ => (Nat.zero_add _).symm
      | ⟨2, _⟩ => (Nat.zero_add _).symm)]
  show concatenate S3x128x256 2 [⟨S3x128x128, a3⟩, ⟨S3x128x128, a5⟩] concatenates_S3x128x128_S3x128x128_S3x128x256_d2
      (ix3 (⟨i, hi⟩ : Fin 3) k (⟨128 + q.val, by omega⟩ : Fin 256)) = _
  exact concatenate_pair_apply_right (t := S3x128x256) (s₁ := S3x128x128) (s₂ := S3x128x128) (2 : Fin 3) a3 a5
    concatenates_S3x128x128_S3x128x128_S3x128x256_d2 (ix3 (⟨i, hi⟩ : Fin 3) k (⟨128 + q.val, by omega⟩ : Fin 256)) rfl rfl
    (ix3 (⟨i, hi⟩ : Fin 3) k q)
    (fun b hb => match b, hb with
      | ⟨0, _⟩, _ => rfl
      | ⟨1, _⟩, _ => rfl
      | ⟨2, _⟩, hb => absurd (Fin.ext rfl) hb)
    (by show q.val + 128 = 128 + q.val; omega)

theorem hWcat0_left (a3 a5 : FVec Ideal S3x128x128 .f32) (k q : Fin 128) :
    hWcat0 (hWcats (F := Ideal) a3 a5) (ix2 k (⟨q.val, by omega⟩ : Fin 256))
      = refMat ![0, 0, 0] Cert.ReferenceIdeal.Gen.slices_S3x128x128_S1x128x128_0_0_0 a3 (ix2 k q) :=
  hWcatAt_left 0 (by omega) _ _ a3 a5 k q

theorem hWcat0_right (a3 a5 : FVec Ideal S3x128x128 .f32) (k q : Fin 128) :
    hWcat0 (hWcats (F := Ideal) a3 a5) (ix2 k (⟨128 + q.val, by omega⟩ : Fin 256))
      = refMat ![0, 0, 0] Cert.ReferenceIdeal.Gen.slices_S3x128x128_S1x128x128_0_0_0 a5 (ix2 k q) :=
  hWcatAt_right 0 (by omega) _ _ a3 a5 k q

theorem hWcat1_left (a3 a5 : FVec Ideal S3x128x128 .f32) (k q : Fin 128) :
    hWcat1 (hWcats (F := Ideal) a3 a5) (ix2 k (⟨q.val, by omega⟩ : Fin 256))
      = refMat ![1, 0, 0] Cert.ReferenceIdeal.Gen.slices_S3x128x128_S1x128x128_1_0_0 a3 (ix2 k q) :=
  hWcatAt_left 1 (by omega) _ _ a3 a5 k q

theorem hWcat1_right (a3 a5 : FVec Ideal S3x128x128 .f32) (k q : Fin 128) :
    hWcat1 (hWcats (F := Ideal) a3 a5) (ix2 k (⟨128 + q.val, by omega⟩ : Fin 256))
      = refMat ![1, 0, 0] Cert.ReferenceIdeal.Gen.slices_S3x128x128_S1x128x128_1_0_0 a5 (ix2 k q) :=
  hWcatAt_right 1 (by omega) _ _ a3 a5 k q

theorem hWcat2_left (a3 a5 : FVec Ideal S3x128x128 .f32) (k q : Fin 128) :
    hWcat2 (hWcats (F := Ideal) a3 a5) (ix2 k (⟨q.val, by omega⟩ : Fin 256))
      = refMat ![2, 0, 0] Cert.ReferenceIdeal.Gen.slices_S3x128x128_S1x128x128_2_0_0 a3 (ix2 k q) :=
  hWcatAt_left 2 (by omega) _ _ a3 a5 k q

theorem hWcat2_right (a3 a5 : FVec Ideal S3x128x128 .f32) (k q : Fin 128) :
    hWcat2 (hWcats (F := Ideal) a3 a5) (ix2 k (⟨128 + q.val, by omega⟩ : Fin 256))
      = refMat ![2, 0, 0] Cert.ReferenceIdeal.Gen.slices_S3x128x128_S1x128x128_2_0_0 a5 (ix2 k q) :=
  hWcatAt_right 2 (by omega) _ _ a3 a5 k q

end Cert.KernelIdeal.Hand

end
-- ==== Proof.KI.RefReadDense.lean ====
import proofs.«417336_j40785009443359_3_alg».proof.Proof.KI.RefSpec
import proofs.«417336_j40785009443359_3_alg».proof.Proof.LibSageSpec
import proofs.«417336_j40785009443359_3_alg».proof.Proof.LibFiniteSums
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
# The reference's dense stages, read at an index

Each dense stage of a layer — a layer's weights cut out of their stacks, the residual branch, the mean and the
variance of a feature over the nodes, the batch normalisation — is read at one index as an expression in the
entries of its operands over the extended reals, and shown real-valued where its operands are.
-/

noncomputable section

namespace Cert.ReferenceIdeal.Hand

open Cert.ReferenceIdeal Cert.ReferenceIdeal.Gen Idealize.ShloMosaic Idealize.ShloMosaic.ValueIdx
open Cert.LibFinite

/-! ## A layer's weights out of their stacks -/

/-- Matrix r of a stack of three, at (k, q): the stack at (r, k, q). -/
theorem refMat_apply_of (off : Fin 3 → Nat) (h : S3x128x128.Slices off S1x128x128) (a : FVec Ideal S3x128x128 .f32)
    (r : Fin 3) (h0 : off 0 = r.val) (h1 : off 1 = 0) (h2 : off 2 = 0) (k q : Fin 128) :
    refMat (F := Ideal) off h a (ix2 k q) = a (ix3 r k q) := by
  unfold refMat
  refine (shapeCast_1ab_ab_apply _ _ k q).trans ?_
  exact extractStridedSlice_apply off a h (ix3 (0 : Fin 1) k q) (ix3 r k q) fun ax => by
    match ax with
    | ⟨0, _⟩ => show r.val = off 0 + 0; rw [h0, Nat.add_zero]
    | ⟨1, _⟩ => show k.val = off 1 + k.val; rw [h1, Nat.zero_add]
    | ⟨2, _⟩ => show q.val = off 2 + q.val; rw [h2, Nat.zero_add]

theorem refMat0_apply (a : FVec Ideal S3x128x128 .f32) (k q : Fin 128) :
    refMat (F := Ideal) ![0, 0, 0] slices_S3x128x128_S1x128x128_0_0_0 a (ix2 k q) = a (ix3 (0 : Fin 3) k q) :=
  refMat_apply_of ![0, 0, 0] slices_S3x128x128_S1x128x128_0_0_0 a (0 : Fin 3) rfl rfl rfl k q

theorem refMat1_apply (a : FVec Ideal S3x128x128 .f32) (k q : Fin 128) :
    refMat (F := Ideal) ![1, 0, 0] slices_S3x128x128_S1x128x128_1_0_0 a (ix2 k q) = a (ix3 (1 : Fin 3) k q) :=
  refMat_apply_of ![1, 0, 0] slices_S3x128x128_S1x128x128_1_0_0 a (1 : Fin 3) rfl rfl rfl k q

theorem refMat2_apply (a : FVec Ideal S3x128x128 .f32) (k q : Fin 128) :
    refMat (F := Ideal) ![2, 0, 0] slices_S3x128x128_S1x128x128_2_0_0 a (ix2 k q) = a (ix3 (2 : Fin 3) k q) :=
  refMat_apply_of ![2, 0, 0] slices_S3x128x128_S1x128x128_2_0_0 a (2 : Fin 3) rfl rfl rfl k q

/-- Feature vector r of a stack of three, at q: the stack at (r, q). -/
theorem refRow_apply_of (off : Fin 2 → Nat) (h : S3x128.Slices off S1x128) (a : FVec Ideal S3x128 .f32)
    (r : Fin 3) (h0 : off 0 = r.val) (h1 : off 1 = 0) (q : Fin 128) :
    refRow (F := Ideal) off h a (ix1 q) = a (ix2 r q) := by
  unfold refRow
  refine (shapeCast_1a_a_apply _ _ q).trans ?_
  exact extractStridedSlice_apply off a h (ix2 (0 : Fin 1) q) (ix2 r q) fun ax => by
    match ax with
    | ⟨0, _⟩ => show r.val = off 0 + 0; rw [h0, Nat.add_zero]
    | ⟨1, _⟩ => show q.val = off 1 + q.val; rw [h1, Nat.zero_add]

theorem refRow0_apply (a : FVec Ideal S3x128 .f32) (q : Fin 128) :
    refRow (F := Ideal) ![0, 0] slices_S3x128_S1x128_0_0 a (ix1 q) = a (ix2 (0 : Fin 3) q) :=
  refRow_apply_of ![0, 0] slices_S3x128_S1x128_0_0 a (0 : Fin 3) rfl rfl q

theorem refRow1_apply (a : FVec Ideal S3x128 .f32) (q : Fin 128) :
    refRow (F := Ideal) ![1, 0] slices_S3x128_S1x128_1_0 a (ix1 q) = a (ix2 (1 : Fin 3) q) :=
  refRow_apply_of ![1, 0] slices_S3x128_S1x128_1_0 a (1 : Fin 3) rfl rfl q

theorem refRow2_apply (a : FVec Ideal S3x128 .f32) (q : Fin 128) :
    refRow (F := Ideal) ![2, 0] slices_S3x128_S1x128_2_0 a (ix1 q) = a (ix2 (2 : Fin 3) q) :=
  refRow_apply_of ![2, 0] slices_S3x128_S1x128_2_0 a (2 : Fin 3) rfl rfl q

/-! ## A feature vector along every row, a scalar everywhere -/

/-- A feature vector as a one-row matrix reads, at (u, q), the vector at q. -/
theorem rowOfVec_apply {α : Type} (v : S128.Idx → α) (u : Fin 1) (q : Fin 128) :
    broadcastInDim (s := S128) S1x128 ![1] bcast_S128_S1x128_1 v (ix2 u q) = v (ix1 q) :=
  broadcastInDim_apply _ _ v (ix2 u q) (ix1 q) fun ax => by
    match ax with
    | ⟨0, _⟩ => rfl

/-- A one-row matrix laid along every node's row reads, at (n, q), its row at q. -/
theorem rowsOfRow_apply {α : Type} (v : S1x128.Idx → α) (n : Fin 100000) (q : Fin 128) :
    broadcastInDim (s := S1x128) S100000x128 ![0, 1] bcast_S1x128_S100000x128_0_1 v (ix2 n q) = v (ix2 (0 : Fin 1) q) :=
  broadcastInDim_apply _ _ v (ix2 n q) (ix2 (0 : Fin 1) q) fun ax => by
    match ax with
    | ⟨0, _⟩ => rfl
    | ⟨1, _⟩ => rfl

/-- A feature vector laid along every node's row reads, at (n, q), the vector at q. -/
theorem refRows_apply (b : FVec Ideal S128 .f32) (n : Fin 100000) (q : Fin 128) :
    refRows (F := Ideal) b (ix2 n q) = b (ix1 q) := by
  unfold refRows
  rw [rowsOfRow_apply, rowOfVec_apply]

/-- A scalar spread over a shape reads the scalar at every index. -/
theorem scalarSplat_apply {α : Type} {t : Shape} (dims : Fin S_.rank → Fin t.rank) (hb : S_.BroadcastsInDim t dims)
    (c : S_.Idx → α) (j : t.Idx) : broadcastInDim t dims hb c j = c ix0 :=
  broadcastInDim_apply dims hb c j ix0 fun ax => ax.elim0

/-- The host's quotient of two arrays reads, at an index, the quotient of their entries there. -/
theorem hostDivf_apply {s : Shape} {φ : FTy} (a b : FVec Ideal s φ) (i : s.Idx) :
    Host.divf a b i = Ideal.div (a i) (b i) := rfl

/-- The host's inverse square root of an array reads, at an index, the inverse square root of its entry there. -/
theorem hostRsqrt_apply {s : Shape} {φ : FTy} (a : FVec Ideal s φ) (i : s.Idx) :
    Host.rsqrt a i = Ideal.rsqrt (a i) := rfl

/-! ## The residual branch and what a layer normalises -/

/-- The reference's matrix product contracts the left operand's columns with the right operand's rows. -/
theorem plainDot_ref : SageSpec.PlainDot dot_S100000x128_S128x128_S100000x128_1_0_0_1_n_n where
  rank := rfl
  size := fun _ => rfl
  l0 := fun _ _ => rfl
  l1 := fun _ _ _ => rfl
  r0 := fun _ _ _ => rfl
  r1 := fun _ _ => rfl

/-- The residual branch at (n, q): row n of x against column q of the weights, plus the bias at q, cut off
    below at zero. -/
theorem refResid_apply (x : FVec Ideal S100000x128 .f32) (rW : FVec Ideal S128x128 .f32) (rb : FVec Ideal S128 .f32)
    (n : Fin 100000) (q : Fin 128) :
    refResid (F := Ideal) x rW rb (ix2 n q) = max (SageSpec.rowDot x rW n q + rb (ix1 q)) 0 := by
  unfold refResid
  rw [maximumf_apply, addf_apply, refRows_apply, scalarSplat_apply, constant_apply, Ideal.ofBits_zero_f32,
    SageSpec.dotGeneral_at plainDot_ref]

/-- What a layer normalises, at (n, q): the convolution there plus the residual branch there. -/
theorem refPreNorm_apply (x : FVec Ideal S100000x128 .f32) (W : FVec Ideal S128x128 .f32) (b : FVec Ideal S128 .f32)
    (rW : FVec Ideal S128x128 .f32) (rb : FVec Ideal S128 .f32) (srcIdx dstIdx : IVec S1700000x1 32)
    (norm : FVec Ideal S1700000x1 .f32) (n : Fin 100000) (q : Fin 128) :
    refPreNorm (F := Ideal) x W b rW rb srcIdx dstIdx norm (ix2 n q)
      = refConv (F := Ideal) x W b srcIdx dstIdx norm (ix2 n q) + refResid (F := Ideal) x rW rb (ix2 n q) := by
  unfold refPreNorm
  exact addf_apply _ _ _

/-! ## Mean and variance of a feature over the nodes -/

/-- Summing a matrix over its rows leaves its columns. -/
theorem reduces_rows : S100000x128.Reduces [0] S128 :=
  ⟨reducesTo_S100000x128_S128_d0.1, Nat.one_pos, reducesTo_S100000x128_S128_d0.2⟩

/-- The sum of column q over the rows, from zero. -/
theorem colSum_apply (h : FVec Ideal S100000x128 .f32) (q : Fin 128) :
    Host.reduceAdd (F := Ideal) h (constant (F := Ideal) S_ .f32 0x00000000#32) reducesTo_S100000x128_S128_d0 h_S_ (ix1 q)
      = 0 + ∑ n : Fin 100000, h (ix2 n q) := by
  unfold Host.reduceAdd
  rw [Ideal.hostReduceAdd_def, constant_apply, Ideal.hostReduceAdd_single reducesTo_S100000x128_S128_d0 reduces_rows,
    Ideal.ofBits_zero_f32]
  refine congrArg (0 + ·) (Finset.sum_congr rfl fun n _ => congrArg h (funext fun ax => Fin.ext ?_))
  match ax with
  | ⟨0, _⟩ => rfl
  | ⟨1, _⟩ => rfl

/-- The mean of feature q: the column's sum over the number of nodes. -/
theorem refMean_apply (h : FVec Ideal S100000x128 .f32) (q : Fin 128) :
    refMean (F := Ideal) h (ix1 q) = Ideal.div (0 + ∑ n : Fin 100000, h (ix2 n q)) ((100000 : ℝ) : EReal) := by
  unfold refMean
  rw [hostDivf_apply, colSum_apply, scalarSplat_apply, constant_apply, ofBits_100000]

/-- The variance's divisor is the number of nodes. -/
theorem refCount_eq : refCount (F := Ideal) ix0 = ((100000 : ℝ) : EReal) := by
  unfold refCount
  rw [subf_apply, constant_apply, sitofp_apply, constantI_apply, ofBits_100000]
  show ((100000 : ℝ) : EReal) - (((0#32 : BitVec 32).toInt : ℝ) : EReal) = _
  rw [BitVec.toInt_zero, Int.cast_zero, EReal.coe_zero, sub_zero]

/-- An entry less its feature's mean. -/
theorem refCentered_apply (h : FVec Ideal S100000x128 .f32) (n : Fin 100000) (q : Fin 128) :
    refCentered (F := Ideal) h (ix2 n q) = h (ix2 n q) - refMean (F := Ideal) h (ix1 q) := by
  unfold refCentered
  rw [subf_apply, rowsOfRow_apply, hostDivf_apply, rowOfVec_apply, colSum_apply, scalarSplat_apply, constant_apply,
    ofBits_100000, refMean_apply]

/-- The variance of feature q: the sum over the nodes of the squared centered entries, over the number of nodes
    (the divisor is positive, so the guard selects the quotient). -/
theorem refVar_apply (h : FVec Ideal S100000x128 .f32) (q : Fin 128) :
    refVar (F := Ideal) h (ix1 q)
      = Ideal.div (0 + ∑ n : Fin 100000, (h (ix2 n q) - refMean (F := Ideal) h (ix1 q)) * (h (ix2 n q) - refMean (F := Ideal) h (ix1 q)))
          ((100000 : ℝ) : EReal) := by
  have hguard : broadcastInDim S128 ![] bcast_S_S128
      (cmpf .ogt (refCount (F := Ideal)) (constant (F := Ideal) S_ .f32 0x00000000#32)) (ix1 q) = 1#1 := by
    rw [scalarSplat_apply, cmpf_apply, refCount_eq, constant_apply, Ideal.ofBits_zero_f32]
    show Ideal.cmp .ogt ((100000 : ℝ) : EReal) 0 = 1#1
    have hpos : (0 : EReal) < ((100000 : ℝ) : EReal) := EReal.coe_pos.mpr (by norm_num)
    simp [Ideal.cmp, hpos]
  unfold refVar
  rw [select_apply, hguard, select_one, hostDivf_apply, colSum_apply, scalarSplat_apply, refCount_eq]
  simp only [mulf_apply, refCentered_apply]

/-! ## Batch normalisation -/

/-- Batch normalisation at (n, q). -/
theorem refBN_apply (h : FVec Ideal S100000x128 .f32) (gamma beta : FVec Ideal S128 .f32) (n : Fin 100000) (q : Fin 128) :
    refBN (F := Ideal) h gamma beta (ix2 n q)
      = gamma (ix1 q) * (h (ix2 n q) - refMean (F := Ideal) h (ix1 q))
          * Ideal.rsqrt (refVar (F := Ideal) h (ix1 q) + Ideal.ofBits .f32 0x3727C5AC#32) + beta (ix1 q) := by
  unfold refBN
  rw [addf_apply, mulf_apply, mulf_apply, subf_apply, refRows_apply, refRows_apply, refRows_apply, refRows_apply]
  rw [hostRsqrt_apply, addf_apply, scalarSplat_apply, constant_apply]

/-! ## Real-valued operands give real-valued stages -/

/-- The variance's guard against a zero divisor is a positive real. -/
theorem eps_real_pos : IsReal (Ideal.ofBits .f32 0x3727C5AC#32) ∧ 0 < Ideal.ofBits .f32 0x3727C5AC#32 := by
  have h : Ideal.ofBits .f32 0x3727C5AC#32 = (((2 ^ 23 + 2606508 : ℕ) : ℝ) * (2 : ℝ) ^ ((110 : ℤ) - 127 - 23) : ℝ) := by
    simp [Ideal.ofBits, Ideal.ieee, -EReal.coe_mul]
  rw [h]
  exact ⟨isReal_coe _, EReal.coe_pos.mpr (by positivity)⟩

/-- The residual branch of real operands is real. -/
theorem refResid_real (x : FVec Ideal S100000x128 .f32) (rW : FVec Ideal S128x128 .f32) (rb : FVec Ideal S128 .f32)
    (hx : ∀ i, IsReal (x i)) (hW : ∀ i, IsReal (rW i)) (hb : ∀ i, IsReal (rb i)) (i : S100000x128.Idx) :
    IsReal (refResid (F := Ideal) x rW rb i) := by
  obtain ⟨n, q, rfl⟩ : ∃ (n : Fin 100000) (q : Fin 128), i = ix2 n q := ⟨i 0, i 1, eq_ix2 i⟩
  rw [refResid_apply]
  exact ((isReal_sum _ _ fun j _ => (hx _).mul (hW _)).add (hb _)).max isReal_zero

/-- The mean of a real feature is real. -/
theorem refMean_real (h : FVec Ideal S100000x128 .f32) (hh : ∀ i, IsReal (h i)) (q : Fin 128) :
    IsReal (refMean (F := Ideal) h (ix1 q)) := by
  rw [refMean_apply]
  exact (isReal_div_pos _ (isReal_zero.add (isReal_sum _ _ fun n _ => hh _)) 100000 (by norm_num)).1

/-- The variance of a real feature is real and not negative. -/
theorem refVar_real_nonneg (h : FVec Ideal S100000x128 .f32) (hh : ∀ i, IsReal (h i)) (q : Fin 128) :
    IsReal (refVar (F := Ideal) h (ix1 q)) ∧ 0 ≤ refVar (F := Ideal) h (ix1 q) := by
  rw [refVar_apply]
  have hc : ∀ n : Fin 100000, IsReal (h (ix2 n q) - refMean (F := Ideal) h (ix1 q)) :=
    fun n => (hh _).sub (refMean_real h hh q)
  have hd := isReal_div_pos _ (isReal_zero.add (isReal_sum Finset.univ
    (fun n : Fin 100000 => (h (ix2 n q) - refMean (F := Ideal) h (ix1 q)) * (h (ix2 n q) - refMean (F := Ideal) h (ix1 q)))
    fun n _ => (hc n).mul (hc n))) 100000 (by norm_num)
  refine ⟨hd.1, hd.2 ?_⟩
  rw [zero_add]
  exact sum_sq_nonneg Finset.univ (fun n : Fin 100000 => h (ix2 n q) - refMean (F := Ideal) h (ix1 q)) fun n _ => hc n

/-- Batch normalisation of a real feature with real scale and shift is real: the inverse root is taken of a
    positive real, the variance plus the guard. -/
theorem refBN_real (h : FVec Ideal S100000x128 .f32) (gamma beta : FVec Ideal S128 .f32) (hh : ∀ i, IsReal (h i))
    (hg : ∀ i, IsReal (gamma i)) (hb : ∀ i, IsReal (beta i)) (i : S100000x128.Idx) :
    IsReal (refBN (F := Ideal) h gamma beta i) := by
  obtain ⟨n, q, rfl⟩ : ∃ (n : Fin 100000) (q : Fin 128), i = ix2 n q := ⟨i 0, i 1, eq_ix2 i⟩
  rw [refBN_apply]
  obtain ⟨hv, hv0⟩ := refVar_real_nonneg h hh q
  have hpos : 0 < refVar (F := Ideal) h (ix1 q) + Ideal.ofBits .f32 0x3727C5AC#32 :=
    lt_of_lt_of_le eps_real_pos.2 (le_add_of_nonneg_left hv0)
  exact (((hg _).mul ((hh _).sub (refMean_real h hh _))).mul (isReal_rsqrt _ (hv.add eps_real_pos.1) hpos).1).add (hb _)

end Cert.ReferenceIdeal.Hand

end
-- ==== Proof.KI.BridgeSums.lean ====
import proofs.«417336_j40785009443359_3_alg».proof.Proof.KI.V1
import proofs.«417336_j40785009443359_3_alg».proof.Proof.KI.V2
import proofs.«417336_j40785009443359_3_alg».proof.Proof.KI.V10
import proofs.«417336_j40785009443359_3_alg».proof.Proof.KI.KRead
import proofs.«417336_j40785009443359_3_alg».proof.Proof.KI.RefSpec
import proofs.«417336_j40785009443359_3_alg».proof.Proof.KI.RefReadDense
import proofs.«417336_j40785009443359_3_alg».proof.Proof.KI.RefReadGraph
import proofs.«417336_j40785009443359_3_alg».proof.Proof.LibFiniteSums
import Idealize.ShloMosaic.Lib.ValueIdx

/-!
# The three sums of the final equality

The kernel program takes a column sum over the 100000 nodes as two partial sums, one per slice of ten blocks of
5000 rows, and adds the two afterwards; the reference sums the column at once. The pooled sums are taken the same
way over slices of fifty blocks of 1000 rows, each row weighted by the indicator of its graph, where the reference
sums over the rows of the graph. Here: the mean, the variance and the pooled sums agree.
-/

noncomputable section

namespace Cert.Bridge

open Idealize.ShloMosaic Idealize.ShloMosaic.ValueIdx
open Cert.LibFinite Cert.KernelIdeal.Hand Cert.ReferenceIdeal.Hand

/-! ## Partial sums per slice against the sum over all rows -/

/-- Two partial sums, each the sum over its slice's 10 blocks of 5000 rows, add up to the sum over all
    100000 rows. The rows are named by any function whose value is the mixed-radix number of the three digits. -/
theorem sum_slices_blocks {M : Type*} [AddCommMonoid M] (P : Fin 2 → M) (f : Fin 100000 → M)
    (row : Fin 2 → Fin 10 → Fin 5000 → Fin 100000)
    (hrow : ∀ s j r, (row s j r).val = (s.val * 10 + j.val) * 5000 + r.val)
    (hP : ∀ s, P s = ∑ j : Fin 10, ∑ r : Fin 5000, f (row s j r)) :
    ∑ s, P s = ∑ n, f n := by
  rw [sum_rows_tiled f]
  refine Finset.sum_congr rfl fun s _ => ?_
  rw [hP s]
  refine Finset.sum_congr rfl fun j _ => Finset.sum_congr rfl fun r _ => ?_
  exact congrArg f (Fin.ext (hrow s j r))

/-- The same with a slice's rows taken as 50 blocks of 1000. -/
theorem sum_slices_blocks_pool {M : Type*} [AddCommMonoid M] (P : Fin 2 → M) (f : Fin 100000 → M)
    (row : Fin 2 → Fin 50 → Fin 1000 → Fin 100000)
    (hrow : ∀ s j r, (row s j r).val = (s.val * 50 + j.val) * 1000 + r.val)
    (hP : ∀ s, P s = ∑ j : Fin 50, ∑ r : Fin 1000, f (row s j r)) :
    ∑ s, P s = ∑ n, f n := by
  rw [sum_rows_tiled_pool f]
  refine Finset.sum_congr rfl fun s _ => ?_
  rw [hP s]
  refine Finset.sum_congr rfl fun j _ => Finset.sum_congr rfl fun r _ => ?_
  exact congrArg f (Fin.ext (hrow s j r))

/-- Rows weighted by a 0/1 mask that is 1 exactly where the row's index word reads, signed, as the graph's
    number: the weighted sum over all rows is the sum over that graph's rows. -/
theorem sum_mask_rows (w : Fin 100000 → BitVec 32) (g : Fin 1024) (x : Fin 100000 → EReal) (mask : BitVec 32 → EReal)
    (hmask : ∀ b, mask b = if b.toInt = (g.val : ℤ) then 1 else 0) :
    ∑ n, mask (w n) * x n = ∑ n ∈ Finset.univ.filter (fun n : Fin 100000 => (w n).toInt = (g.val : ℤ)), x n := by
  rw [← sum_mask_eq_sum_filter (fun n : Fin 100000 => (w n).toInt = (g.val : ℤ)) x]
  refine Finset.sum_congr rfl fun n _ => ?_
  rw [hmask (w n)]

/-- The indicator of "the index word is the graph's number" is the indicator of "the index word reads, signed, as
    the graph's number": a graph's number is below 1024. -/
theorem poolMask_toInt (b : BitVec 32) (g : Fin 1024) :
    poolMask b g = if b.toInt = (g.val : ℤ) then (1 : EReal) else 0 := by
  rw [poolMask_eq]
  exact if_congr (toInt_ofNat_eq_iff b g.val g.isLt) rfl rfl

/-! ## The mean -/

/-- The column sum over the nodes taken slice by slice, block by block, then divided by the number of nodes, is the
    reference's mean of the same column. -/
theorem mean_eq (agg res : (⟨2, ![100000, 128]⟩ : Shape).Idx → EReal) (dv : (⟨2, ![100000, 1]⟩ : Shape).Idx → EReal)
    (bs : (⟨2, ![1, 128]⟩ : Shape).Idx → EReal) (q : Fin 128) :
    hMeanOf (F := Ideal) (G1_4 agg res dv bs) (ix2 (0 : Fin 1) q) = refMean (F := Ideal) (G1_5 agg res dv bs) (ix1 q) := by
  have key : ∑ s : Fin 2, G1_4 agg res dv bs (ix3 s (0 : Fin 1) q) = ∑ n : Fin 100000, G1_5 agg res dv bs (ix2 n q) :=
    sum_slices_blocks (fun s : Fin 2 => G1_4 agg res dv bs (ix3 s (0 : Fin 1) q))
      (fun n : Fin 100000 => G1_5 agg res dv bs (ix2 n q))
      (fun s j r => ⟨(s.val * 10 + j.val) * 5000 + r.val, by omega⟩) (fun _ _ _ => rfl)
      (fun s => G1_4_apply agg res dv bs s q)
  rw [hMeanOf_apply (G1_4 agg res dv bs) q, refMean_apply (G1_5 agg res dv bs) q, key]

/-! ## The variance -/

/-- The sum of squared distances to the mean row, taken slice by slice, block by block, then divided by the number of
    nodes, is the reference's variance of the column, once the mean row holds the reference's mean. -/
theorem var_eq (h : (⟨2, ![100000, 128]⟩ : Shape).Idx → EReal) (mean : (⟨2, ![1, 128]⟩ : Shape).Idx → EReal)
    (hm : ∀ q : Fin 128, mean (ix2 (0 : Fin 1) q) = refMean (F := Ideal) h (ix1 q)) (q : Fin 128) :
    hMeanOf (F := Ideal) (G2_2 h mean) (ix2 (0 : Fin 1) q) = refVar (F := Ideal) h (ix1 q) := by
  have key : ∑ s : Fin 2, G2_2 h mean (ix3 s (0 : Fin 1) q)
      = ∑ n : Fin 100000, (h (ix2 n q) - mean (ix2 (0 : Fin 1) q)) * (h (ix2 n q) - mean (ix2 (0 : Fin 1) q)) :=
    sum_slices_blocks (fun s : Fin 2 => G2_2 h mean (ix3 s (0 : Fin 1) q))
      (fun n : Fin 100000 => (h (ix2 n q) - mean (ix2 (0 : Fin 1) q)) * (h (ix2 n q) - mean (ix2 (0 : Fin 1) q)))
      (fun s j r => ⟨(s.val * 10 + j.val) * 5000 + r.val, by omega⟩) (fun _ _ _ => rfl)
      (fun s => G2_2_apply h mean s q)
  rw [hMeanOf_apply (G2_2 h mean) q, refVar_apply h q, key, hm q]

/-! ## The pooled sums -/

/-- The one-hot mask's weighted sums over the two slices, added, are the sums over the rows whose graph number is the
    output row's: for real activations the second part of the two-part split contributes nothing. -/
theorem pool_eq (x : (⟨2, ![100000, 128]⟩ : Shape).Idx → EReal) (hx : ∀ i, IsReal (x i))
    (a2 : IVec (⟨1, ![100000]⟩ : Shape) 32) :
    hPooled (F := Ideal) (G10_2 x (hBatch2d (F := Ideal) a2)) = refPool (F := Ideal) x a2 := by
  funext i
  obtain ⟨g, q, rfl⟩ : ∃ (g : Fin 1024) (q : Fin 128), i = ix2 g q := ⟨i 0, i 1, eq_ix2 i⟩
  have hP : ∀ s : Fin 2, G10_2 x (hBatch2d (F := Ideal) a2) (ix3 s g q)
      = ∑ j : Fin 50, ∑ r : Fin 1000,
          poolMask (a2 (ix1 (⟨(s.val * 50 + j.val) * 1000 + r.val, by omega⟩ : Fin 100000))) g
            * x (ix2 (⟨(s.val * 50 + j.val) * 1000 + r.val, by omega⟩ : Fin 100000) q) := fun s => by
    rw [G10_2_real_apply x (hBatch2d (F := Ideal) a2) hx s g q]
    refine Finset.sum_congr rfl fun j _ => Finset.sum_congr rfl fun r _ => ?_
    rw [hBatch2d_apply a2]
  have key : ∑ s : Fin 2, G10_2 x (hBatch2d (F := Ideal) a2) (ix3 s g q)
      = ∑ n : Fin 100000, poolMask (a2 (ix1 n)) g * x (ix2 n q) :=
    sum_slices_blocks_pool (fun s : Fin 2 => G10_2 x (hBatch2d (F := Ideal) a2) (ix3 s g q))
      (fun n : Fin 100000 => poolMask (a2 (ix1 n)) g * x (ix2 n q))
      (fun s j r => ⟨(s.val * 50 + j.val) * 1000 + r.val, by omega⟩) (fun _ _ _ => rfl) hP
  have graph : ∑ n : Fin 100000, poolMask (a2 (ix1 n)) g * x (ix2 n q)
      = ∑ n ∈ Finset.univ.filter (fun n : Fin 100000 => (a2 (ix1 n)).toInt = (g.val : ℤ)), x (ix2 n q) :=
    sum_mask_rows (fun n : Fin 100000 => a2 (ix1 n)) g (fun n : Fin 100000 => x (ix2 n q)) (fun b => poolMask b g)
      (fun b => poolMask_toInt b g)
  rw [hPooled_apply (G10_2 x (hBatch2d (F := Ideal) a2)) g q, refPool_apply x a2 g q, key, graph]

end Cert.Bridge

end
-- ==== Proof.KI.FinArgs.lean ====
import proofs.«417336_j40785009443359_3_alg».proof.Defs
import proofs.«417336_j40785009443359_3_alg».proof.Proof.Gen.Pre_finite_inputs
import Idealize.ShloMosaic.Lib.ReduceAll
import Idealize.ShloMosaic.Lib.ValueIdx
import proofs.«417336_j40785009443359_3_alg».proof.Proof.LibFiniteSums
/-!
# The argument arrays hold real numbers

The precondition says that the test "|x| < +∞ at every entry" comes out all ones on each of the seven
floating-point argument arrays. Read back entry by entry, it says that no entry is an infinity: every
entry is a real number.
-/

noncomputable section

namespace Cert.Bridge

open Idealize.ShloMosaic Cert.LibFinite

/-- The rank-zero shape has one index. -/
instance subsingleton_scalar_idx : Subsingleton Cert.Pre_finite_inputs.S_.Idx :=
  ⟨fun a b => funext fun d => d.elim0⟩

/-- The single-precision word 0x7F800000 denotes +∞. -/
theorem ofBits_inf : FloatOps.ofBits (F := Ideal) .f32 0x7F800000#32 = (⊤ : EReal) := by
  show Ideal.ofBits .f32 0x7F800000#32 = ⊤
  simp [Ideal.ofBits, Ideal.ieee]

/-- An extended real whose absolute value compares strictly below +∞ is a real number. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  rw [ofBits_inf] at h
  change BitVec.ofBool (decide (max x (-x) < (⊤ : EReal))) = 1#1 at h
  induction x using EReal.rec with
  | bot => simp at h
  | coe r => exact ⟨EReal.coe_ne_top r, EReal.coe_ne_bot r⟩
  | top => simp at h

/-- An array on which the test "|x| < +∞ everywhere" reduces to one holds real numbers only. -/
theorem all_real {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x) (broadcastInDim s ![] bc (constant Cert.Pre_finite_inputs.S_ .f32 0x7F800000#32)))
        init hr hu ValueIdx.ix0 = 1#1) (i : s.Idx) : IsReal (x i) :=
  isReal_of_abs_lt_inf (x i) (Host.reduce_andi_all _ init hr hu ValueIdx.ix0 e i)

/-- Under the precondition every entry of each floating-point argument array is a real number. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i)) := by
  have h := congrFun (hpre c) ValueIdx.ix0
  dsimp only [Cert.Pre_finite_inputs.fn, Cert.Pre_finite_inputs.fn_part1] at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h0, h3⟩ := IntOp.andi_eq_one.1 h
  exact ⟨all_real _ _ _ _ _ h0, all_real _ _ _ _ _ h3, all_real _ _ _ _ _ h4, all_real _ _ _ _ _ h5,
    all_real _ _ _ _ _ h6, all_real _ _ _ _ _ h7, all_real _ _ _ _ _ h8⟩

end Cert.Bridge

end
-- ==== Proof.KI.Bridge.lean ====
/-
  The kernel program's value and the reference's are one function of finite arguments.

  A layer, on both sides, is: the convolution (rows of x·W gathered at the sources, weighted, summed into the destination
  rows, plus a bias), plus the residual branch max (x·W_res + b_res, 0), then a batch normalisation over the nodes. The
  kernel scales x·W by a node's inverse root degree before the gather and by the destination's after the sum, where the
  reference weights every message by the product of the two: for real values the destination's factor goes inside the sum
  (a message that lands on node n has destination n). The column means and variances are the same sums taken tile by
  tile; the normalisation is the same expression; the pooling's one-hot product is the sum over the rows of a graph.
-/
import proofs.«417336_j40785009443359_3_alg».proof.Proof.KI.V0
import proofs.«417336_j40785009443359_3_alg».proof.Proof.KI.V1
import proofs.«417336_j40785009443359_3_alg».proof.Proof.KI.V2
import proofs.«417336_j40785009443359_3_alg».proof.Proof.KI.V3
import proofs.«417336_j40785009443359_3_alg».proof.Proof.KI.V4
import proofs.«417336_j40785009443359_3_alg».proof.Proof.KI.V5
import proofs.«417336_j40785009443359_3_alg».proof.Proof.KI.V6
import proofs.«417336_j40785009443359_3_alg».proof.Proof.KI.V7
import proofs.«417336_j40785009443359_3_alg».proof.Proof.KI.V8
import proofs.«417336_j40785009443359_3_alg».proof.Proof.KI.V9
import proofs.«417336_j40785009443359_3_alg».proof.Proof.KI.V10
import proofs.«417336_j40785009443359_3_alg».proof.Proof.KI.KRead
import proofs.«417336_j40785009443359_3_alg».proof.Proof.KI.RefSpec
import proofs.«417336_j40785009443359_3_alg».proof.Proof.KI.RefReadGraph
import proofs.«417336_j40785009443359_3_alg».proof.Proof.KI.RefReadDense
import proofs.«417336_j40785009443359_3_alg».proof.Proof.KI.BridgeSums
import proofs.«417336_j40785009443359_3_alg».proof.Proof.KI.FinArgs
import proofs.«417336_j40785009443359_3_alg».proof.Proof.LibFiniteSums
import proofs.«417336_j40785009443359_3_alg».proof.Proof.LibSageSpec
import Idealize.ShloMosaic.Lib.ValueIdx

set_option maxRecDepth 16384

noncomputable section

namespace Cert.Bridge

open Idealize.ShloMosaic Idealize.ShloMosaic.ValueIdx Idealize.ShloMosaic.SageSpec Idealize.SL.Sem
open Cert.LibFinite Cert.KernelIdeal.Hand Cert.ReferenceIdeal.Hand

/-- A feature vector, and a stack of three matrices or vectors, of extended reals. -/
abbrev Vec128 : Type := (⟨1, ![128]⟩ : Shape).Idx → EReal
abbrev Stack3 : Type := (⟨3, ![3, 128, 128]⟩ : Shape).Idx → EReal
abbrev Rows3 : Type := (⟨2, ![3, 128]⟩ : Shape).Idx → EReal
abbrev Edges : Type := IVec (⟨2, ![2, 1600000]⟩ : Shape) 32

/-! ## A row against a column of reals is a real -/

theorem rowDot_real {n k m : Nat} (x : Mat n k) (W : Mat k m) (hx : ∀ i, IsReal (x i)) (hW : ∀ i, IsReal (W i))
    (p : Fin n) (q : Fin m) : IsReal (rowDot x W p q) :=
  isReal_sum _ _ fun j _ => (hx _).mul (hW _)

/-! ## The convolution and the residual branch -/

section Layer

variable (x : Mat 100000 128) (hx : ∀ i, IsReal (x i))
  (wc : Mat 128 256) (W rW : Mat 128 128) (hW : ∀ i, IsReal (W i)) (hrW : ∀ i, IsReal (rW i))
  (hl : ∀ k q : Fin 128, wc (ix2 k (⟨q.val, by omega⟩ : Fin 256)) = W (ix2 k q))
  (hr : ∀ k q : Fin 128, wc (ix2 k (⟨128 + q.val, by omega⟩ : Fin 256)) = rW (ix2 k q))
  (bs2 rb2 : Mat 1 128) (b rb : Vec128) (hb : ∀ i, IsReal (b i)) (hrb : ∀ i, IsReal (rb i))
  (hbs : ∀ q : Fin 128, bs2 (ix2 (0 : Fin 1) q) = b (ix1 q)) (hrbs : ∀ q : Fin 128, rb2 (ix2 (0 : Fin 1) q) = rb (ix1 q))
  (a1 : Edges) (dv : Mat 100000 1)
  (hdv : ∀ n : Fin 100000, dv (ix2 n (0 : Fin 1)) = refDinv (F := Ideal) a1 (ix1 n))

include hx hW hl hr hbs hrbs hdv in
/-- What a layer normalises, on the kernel's side — the scaled product gathered and summed, scaled again by the
    destination's inverse root degree, plus bias and residual branch — is the reference's. -/
theorem prenorm_eq :
    G1_5 (hAgg (F := Ideal) (G0_4 x wc dv) (hSrcCat a1) (hDstCat a1)) (G0_5 x wc rb2) dv bs2
      = refPreNorm (F := Ideal) x W b rW rb (refSrcIdx a1) (refDstIdx a1) (refNorm (F := Ideal) a1) := by
  funext i
  obtain ⟨n, q, rfl⟩ : ∃ (n : Fin 100000) (q : Fin 128), i = ix2 n q := ⟨i 0, i 1, eq_ix2 i⟩
  -- the residual branch: the right half of the joined weights is W_res
  have hres : G0_5 x wc rb2 (ix2 n q) = refResid (F := Ideal) x rW rb (ix2 n q) := by
    rw [G0_5_apply, refResid_apply, hrbs q]
    have : (∑ k : Fin 128, x (ix2 n k) * wc (ix2 k (⟨128 + q.val, by omega⟩ : Fin 256))) = rowDot x rW n q := by
      unfold rowDot; exact Finset.sum_congr rfl fun k _ => by rw [hr k q]
    rw [this]
  -- a gathered row of the scaled product: the row of x·W times the source's inverse root degree
  have hterm : ∀ e ∈ landing a1 n, G0_4 x wc dv (ix2 (rowOf (refSrc a1) e) q)
      = rowDot x W (rowOf (refSrc a1) e) q * refDinv (F := Ideal) a1 (ix1 (rowOf (refSrc a1) e)) := by
    intro e _
    rw [G0_4_apply, hdv]
    have : (∑ k : Fin 128, x (ix2 (rowOf (refSrc a1) e) k) * wc (ix2 k (⟨q.val, by omega⟩ : Fin 256)))
        = rowDot x W (rowOf (refSrc a1) e) q := by
      unfold rowDot; exact Finset.sum_congr rfl fun k _ => by rw [hl k q]
    rw [this]
  -- the destination's factor goes inside the sum of the messages that land on n
  have hconv : dv (ix2 n (0 : Fin 1)) * hAgg (F := Ideal) (G0_4 x wc dv) (hSrcCat a1) (hDstCat a1) (ix2 n q)
      = 0 + ∑ e ∈ landing a1 n, rowDot x W (rowOf (refSrc a1) e) q * refNorm (F := Ideal) a1 (ix2 e (0 : Fin 1)) := by
    rw [hAgg_apply, hdv n, Finset.sum_congr rfl hterm,
      agg_regroup _ (refDinv_real_pos a1 n).1 _ _ _ (fun e _ => rowDot_real x W hx hW _ _) (fun e _ => (refDinv_real_pos a1 _).1)]
    exact congrArg (fun s => (0 : EReal) + s) (Finset.sum_congr rfl fun e he => by
      rw [refNorm_apply, rowOf_dst_of_landing a1 n e he])
  rw [G1_5_apply, hconv, hres, hbs q, refPreNorm_apply, refConv_apply]

include hx hW hrW hb hrb in
/-- and it is real-valued. -/
theorem prenorm_real (i : (⟨2, ![100000, 128]⟩ : Shape).Idx) :
    IsReal (refPreNorm (F := Ideal) x W b rW rb (refSrcIdx a1) (refDstIdx a1) (refNorm (F := Ideal) a1) i) := by
  obtain ⟨n, q, rfl⟩ : ∃ (n : Fin 100000) (q : Fin 128), i = ix2 n q := ⟨i 0, i 1, eq_ix2 i⟩
  rw [refPreNorm_apply, refConv_apply]
  refine ((isReal_zero.add (isReal_sum _ _ fun e _ => ?_)).add (hb _)).add (refResid_real x rW rb hx hrW hrb _)
  rw [refNorm_apply]
  exact (rowDot_real x W hx hW _ _).mul ((refDinv_real_pos a1 _).1.mul (refDinv_real_pos a1 _).1)

end Layer

/-! ## The normalisation -/

section Norm

variable (h : Mat 100000 128) (mean2 var2 g2 b2 : Mat 1 128) (g b : Vec128)
  (hm : ∀ q : Fin 128, mean2 (ix2 (0 : Fin 1) q) = refMean (F := Ideal) h (ix1 q))
  (hv : ∀ q : Fin 128, var2 (ix2 (0 : Fin 1) q) = refVar (F := Ideal) h (ix1 q))
  (hg : ∀ q : Fin 128, g2 (ix2 (0 : Fin 1) q) = g (ix1 q)) (hb : ∀ q : Fin 128, b2 (ix2 (0 : Fin 1) q) = b (ix1 q))

include hm hv hg hb in
/-- The kernels' normalised activations are the reference's batch normalisation, given the same statistics. -/
theorem xn3_eq : G3_xn h mean2 var2 g2 b2 = refBN (F := Ideal) h g b := by
  funext i
  obtain ⟨n, q, rfl⟩ : ∃ (n : Fin 100000) (q : Fin 128), i = ix2 n q := ⟨i 0, i 1, eq_ix2 i⟩
  rw [G3_xn_apply, refBN_apply, hm, hv, hg, hb]

include hm hv hg hb in
theorem xn9_eq : G9_5 h mean2 var2 g2 b2 = refBN (F := Ideal) h g b := by
  funext i
  obtain ⟨n, q, rfl⟩ : ∃ (n : Fin 100000) (q : Fin 128), i = ix2 n q := ⟨i 0, i 1, eq_ix2 i⟩
  rw [G9_5_apply, refBN_apply, hm, hv, hg, hb]

/-- The fused kernel's two outputs are the first layer's two functions of the normalised activations. -/
theorem fused_left (wc : Mat 128 256) (dv : Mat 100000 1) :
    G3_8 h mean2 var2 g2 b2 wc dv = G0_4 (G3_xn h mean2 var2 g2 b2) wc dv := by
  funext i
  obtain ⟨n, q, rfl⟩ : ∃ (n : Fin 100000) (q : Fin 128), i = ix2 n q := ⟨i 0, i 1, eq_ix2 i⟩
  rw [G3_8_apply, G0_4_apply]
theorem fused_right (wc : Mat 128 256) (rb2 : Mat 1 128) :
    G3_9 h mean2 var2 g2 b2 wc rb2 = G0_5 (G3_xn h mean2 var2 g2 b2) wc rb2 := by
  funext i
  obtain ⟨n, q, rfl⟩ : ∃ (n : Fin 100000) (q : Fin 128), i = ix2 n q := ⟨i 0, i 1, eq_ix2 i⟩
  rw [G3_9_apply, G0_5_apply]

end Norm

/-! ## The later layers' regions compute the first ones' functions -/

theorem G4_5_eq : @G4_5 = @G1_5 := by
  funext agg res dv bs i
  obtain ⟨n, q, rfl⟩ : ∃ (n : Fin 100000) (q : Fin 128), i = ix2 n q := ⟨i 0, i 1, eq_ix2 i⟩
  rw [G4_5_apply, G1_5_apply]
theorem G7_5_eq : @G7_5 = @G1_5 := by
  funext agg res dv bs i
  obtain ⟨n, q, rfl⟩ : ∃ (n : Fin 100000) (q : Fin 128), i = ix2 n q := ⟨i 0, i 1, eq_ix2 i⟩
  rw [G7_5_apply, G1_5_apply]
theorem G4_4_eq : @G4_4 = @G1_4 := by
  funext agg res dv bs i
  obtain ⟨s, z, q, rfl⟩ : ∃ (s : Fin 2) (z : Fin 1) (q : Fin 128), i = ix3 s z q := ⟨i 0, i 1, i 2, eq_ix3 i⟩
  obtain rfl : z = 0 := Subsingleton.elim _ _
  rw [G4_4_apply, G1_4_apply, G4_5_eq]
theorem G7_4_eq : @G7_4 = @G1_4 := by
  funext agg res dv bs i
  obtain ⟨s, z, q, rfl⟩ : ∃ (s : Fin 2) (z : Fin 1) (q : Fin 128), i = ix3 s z q := ⟨i 0, i 1, i 2, eq_ix3 i⟩
  obtain rfl : z = 0 := Subsingleton.elim _ _
  rw [G7_4_apply, G1_4_apply, G7_5_eq]
theorem G5_2_eq : @G5_2 = @G2_2 := by
  funext h mean i
  obtain ⟨s, z, q, rfl⟩ : ∃ (s : Fin 2) (z : Fin 1) (q : Fin 128), i = ix3 s z q := ⟨i 0, i 1, i 2, eq_ix3 i⟩
  obtain rfl : z = 0 := Subsingleton.elim _ _
  rw [G5_2_apply, G2_2_apply]
theorem G8_2_eq : @G8_2 = @G2_2 := by
  funext h mean i
  obtain ⟨s, z, q, rfl⟩ : ∃ (s : Fin 2) (z : Fin 1) (q : Fin 128), i = ix3 s z q := ⟨i 0, i 1, i 2, eq_ix3 i⟩
  obtain rfl : z = 0 := Subsingleton.elim _ _
  rw [G8_2_apply, G2_2_apply]
theorem G6_xn_eq : @G6_xn = @G3_xn := by
  funext h mean var g b i
  obtain ⟨n, q, rfl⟩ : ∃ (n : Fin 100000) (q : Fin 128), i = ix2 n q := ⟨i 0, i 1, eq_ix2 i⟩
  rw [G6_xn_apply, G3_xn_apply]
theorem G6_8_eq : @G6_8 = @G3_8 := by
  funext h mean var g b wc dv i
  obtain ⟨n, q, rfl⟩ : ∃ (n : Fin 100000) (q : Fin 128), i = ix2 n q := ⟨i 0, i 1, eq_ix2 i⟩
  rw [G6_8_apply, G3_8_apply, G6_xn_eq]
theorem G6_9_eq : @G6_9 = @G3_9 := by
  funext h mean var g b wc rb i
  obtain ⟨n, q, rfl⟩ : ∃ (n : Fin 100000) (q : Fin 128), i = ix2 n q := ⟨i 0, i 1, eq_ix2 i⟩
  rw [G6_9_apply, G3_9_apply, G6_xn_eq]

/-! ## One layer's step of the composition -/

/-- The stacks' slices are real where the stacks are. -/
theorem mat_real (a : Stack3) (ha : ∀ i, IsReal (a i)) :
    (∀ i, IsReal (refMat (F := Ideal) ![0, 0, 0] Cert.ReferenceIdeal.Gen.slices_S3x128x128_S1x128x128_0_0_0 a i))
    ∧ (∀ i, IsReal (refMat (F := Ideal) ![1, 0, 0] Cert.ReferenceIdeal.Gen.slices_S3x128x128_S1x128x128_1_0_0 a i))
    ∧ (∀ i, IsReal (refMat (F := Ideal) ![2, 0, 0] Cert.ReferenceIdeal.Gen.slices_S3x128x128_S1x128x128_2_0_0 a i)) := by
  refine ⟨fun i => ?_, fun i => ?_, fun i => ?_⟩ <;>
    obtain ⟨k, q, rfl⟩ : ∃ (k q : Fin 128), i = ix2 k q := ⟨i 0, i 1, eq_ix2 i⟩
  · rw [refMat0_apply]; exact ha _
  · rw [refMat1_apply]; exact ha _
  · rw [refMat2_apply]; exact ha _

theorem row_real (a : Rows3) (ha : ∀ i, IsReal (a i)) :
    (∀ i, IsReal (refRow (F := Ideal) ![0, 0] Cert.ReferenceIdeal.Gen.slices_S3x128_S1x128_0_0 a i))
    ∧ (∀ i, IsReal (refRow (F := Ideal) ![1, 0] Cert.ReferenceIdeal.Gen.slices_S3x128_S1x128_1_0 a i))
    ∧ (∀ i, IsReal (refRow (F := Ideal) ![2, 0] Cert.ReferenceIdeal.Gen.slices_S3x128_S1x128_2_0 a i)) := by
  refine ⟨fun i => ?_, fun i => ?_, fun i => ?_⟩ <;>
    obtain ⟨q, rfl⟩ : ∃ (q : Fin 128), i = ix1 q := ⟨i 0, eq_ix1 i⟩
  · rw [refRow0_apply]; exact ha _
  · rw [refRow1_apply]; exact ha _
  · rw [refRow2_apply]; exact ha _

/-- One step, for any layer: from real node features x, whose two products the kernel program holds as the first
    region's two functions of x, the values it computes next — the array a layer normalises, its column means and
    variances — are the reference's, and the normalised activations are the reference's next node features, real again. -/
theorem layer_step (x : Mat 100000 128) (hx : ∀ i, IsReal (x i))
    (wc : Mat 128 256) (W rW : Mat 128 128) (hW : ∀ i, IsReal (W i)) (hrW : ∀ i, IsReal (rW i))
    (hl : ∀ k q : Fin 128, wc (ix2 k (⟨q.val, by omega⟩ : Fin 256)) = W (ix2 k q))
    (hr : ∀ k q : Fin 128, wc (ix2 k (⟨128 + q.val, by omega⟩ : Fin 256)) = rW (ix2 k q))
    (bs2 rb2 g2 be2 : Mat 1 128) (b rb g be : Vec128) (hb : ∀ i, IsReal (b i)) (hrb : ∀ i, IsReal (rb i))
    (hgr : ∀ i, IsReal (g i)) (hber : ∀ i, IsReal (be i))
    (hbs : ∀ q : Fin 128, bs2 (ix2 (0 : Fin 1) q) = b (ix1 q)) (hrbs : ∀ q : Fin 128, rb2 (ix2 (0 : Fin 1) q) = rb (ix1 q))
    (hg : ∀ q : Fin 128, g2 (ix2 (0 : Fin 1) q) = g (ix1 q)) (hbe : ∀ q : Fin 128, be2 (ix2 (0 : Fin 1) q) = be (ix1 q))
    (a1 : Edges) (dv : Mat 100000 1) (hdv : ∀ n : Fin 100000, dv (ix2 n (0 : Fin 1)) = refDinv (F := Ideal) a1 (ix1 n)) :
    G3_xn (G1_5 (hAgg (F := Ideal) (G0_4 x wc dv) (hSrcCat a1) (hDstCat a1)) (G0_5 x wc rb2) dv bs2)
        (hMeanOf (F := Ideal) (G1_4 (hAgg (F := Ideal) (G0_4 x wc dv) (hSrcCat a1) (hDstCat a1)) (G0_5 x wc rb2) dv bs2))
        (hMeanOf (F := Ideal) (G2_2 (G1_5 (hAgg (F := Ideal) (G0_4 x wc dv) (hSrcCat a1) (hDstCat a1)) (G0_5 x wc rb2) dv bs2)
          (hMeanOf (F := Ideal) (G1_4 (hAgg (F := Ideal) (G0_4 x wc dv) (hSrcCat a1) (hDstCat a1)) (G0_5 x wc rb2) dv bs2)))) g2 be2
      = refLayer (F := Ideal) x W b rW rb g be (refSrcIdx a1) (refDstIdx a1) (refNorm (F := Ideal) a1)
    ∧ G9_5 (G1_5 (hAgg (F := Ideal) (G0_4 x wc dv) (hSrcCat a1) (hDstCat a1)) (G0_5 x wc rb2) dv bs2)
        (hMeanOf (F := Ideal) (G1_4 (hAgg (F := Ideal) (G0_4 x wc dv) (hSrcCat a1) (hDstCat a1)) (G0_5 x wc rb2) dv bs2))
        (hMeanOf (F := Ideal) (G2_2 (G1_5 (hAgg (F := Ideal) (G0_4 x wc dv) (hSrcCat a1) (hDstCat a1)) (G0_5 x wc rb2) dv bs2)
          (hMeanOf (F := Ideal) (G1_4 (hAgg (F := Ideal) (G0_4 x wc dv) (hSrcCat a1) (hDstCat a1)) (G0_5 x wc rb2) dv bs2)))) g2 be2
      = refLayer (F := Ideal) x W b rW rb g be (refSrcIdx a1) (refDstIdx a1) (refNorm (F := Ideal) a1)
    ∧ ∀ i, IsReal (refLayer (F := Ideal) x W b rW rb g be (refSrcIdx a1) (refDstIdx a1) (refNorm (F := Ideal) a1) i) := by
  generalize hagg : hAgg (F := Ideal) (G0_4 x wc dv) (hSrcCat a1) (hDstCat a1) = agg
  generalize hres : G0_5 x wc rb2 = res
  have hH : G1_5 agg res dv bs2 = refPreNorm (F := Ideal) x W b rW rb (refSrcIdx a1) (refDstIdx a1) (refNorm (F := Ideal) a1) := by
    rw [← hagg, ← hres]; exact prenorm_eq x hx wc W rW hW hl hr bs2 rb2 b rb hbs hrbs a1 dv hdv
  generalize hhh : G1_5 agg res dv bs2 = hh at hH
  have hHr : ∀ i, IsReal (hh i) := fun i => by
    rw [hH]; exact prenorm_real x hx W rW hW hrW b rb hb hrb a1 i
  have hm : ∀ q : Fin 128, hMeanOf (F := Ideal) (G1_4 agg res dv bs2) (ix2 (0 : Fin 1) q) = refMean (F := Ideal) hh (ix1 q) :=
    fun q => by rw [← hhh]; exact mean_eq agg res dv bs2 q
  generalize hmm : hMeanOf (F := Ideal) (G1_4 agg res dv bs2) = mean at hm
  have hv : ∀ q : Fin 128, hMeanOf (F := Ideal) (G2_2 hh mean) (ix2 (0 : Fin 1) q) = refVar (F := Ideal) hh (ix1 q) :=
    fun q => var_eq hh mean hm q
  have hnext : refLayer (F := Ideal) x W b rW rb g be (refSrcIdx a1) (refDstIdx a1) (refNorm (F := Ideal) a1) = refBN (F := Ideal) hh g be := by
    unfold refLayer; rw [← hH]
  refine ⟨?_, ?_, ?_⟩
  · rw [hnext]; exact xn3_eq hh mean _ g2 be2 g be hm hv hg hbe
  · rw [hnext]; exact xn9_eq hh mean _ g2 be2 g be hm hv hg hbe
  · intro i; rw [hnext]; exact refBN_real hh g be hHr hgr hber i

end Cert.Bridge

end
-- ==== Proof.KI.KValA.lean ====
/-
  The kernel program's value, at the extended reals: one named value for every buffer a region reads or writes — a host
  chain's function, or a region's whole-array function, of the values before it — and, at every boundary of @main where a
  buffer is live, that the fold's contents there are its named value. The last of these is what @main returns.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.Fold
import proofs.«417336_j40785009443359_3_alg».proof.Proof.KI.HostVals
import proofs.«417336_j40785009443359_3_alg».proof.Proof.KI.V0
import proofs.«417336_j40785009443359_3_alg».proof.Proof.KI.V1
import proofs.«417336_j40785009443359_3_alg».proof.Proof.KI.V2
import proofs.«417336_j40785009443359_3_alg».proof.Proof.KI.V3
import proofs.«417336_j40785009443359_3_alg».proof.Proof.KI.V4
import proofs.«417336_j40785009443359_3_alg».proof.Proof.KI.V5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
variable (c : Dev nD)

/-! ## The named values -/

/-- Argument 0 as launched. -/
def kv_arg0 : Buf (Elt Ideal) ((c : Thread nD τ).loc main_arg0) := m ((c : Thread nD τ).loc main_arg0)
/-- Argument 1 as launched. -/
def kv_arg1 : Buf (Elt Ideal) ((c : Thread nD τ).loc main_arg1) := m ((c : Thread nD τ).loc main_arg1)
/-- Argument 2 as launched. -/
def kv_arg2 : Buf (Elt Ideal) ((c : Thread nD τ).loc main_arg2) := m ((c : Thread nD τ).loc main_arg2)
/-- Argument 3 as launched. -/
def kv_arg3 : Buf (Elt Ideal) ((c : Thread nD τ).loc main_arg3) := m ((c : Thread nD τ).loc main_arg3)
/-- Argument 4 as launched. -/
def kv_arg4 : Buf (Elt Ideal) ((c : Thread nD τ).loc main_arg4) := m ((c : Thread nD τ).loc main_arg4)
/-- Argument 5 as launched. -/
def kv_arg5 : Buf (Elt Ideal) ((c : Thread nD τ).loc main_arg5) := m ((c : Thread nD τ).loc main_arg5)
/-- Argument 6 as launched. -/
def kv_arg6 : Buf (Elt Ideal) ((c : Thread nD τ).loc main_arg6) := m ((c : Thread nD τ).loc main_arg6)
/-- Argument 7 as launched. -/
def kv_arg7 : Buf (Elt Ideal) ((c : Thread nD τ).loc main_arg7) := m ((c : Thread nD τ).loc main_arg7)
/-- Argument 8 as launched. -/
def kv_arg8 : Buf (Elt Ideal) ((c : Thread nD τ).loc main_arg8) := m ((c : Thread nD τ).loc main_arg8)
def kv_v12 : Buf (Elt Ideal) ((c : Thread nD τ).loc main_v12) := hDinv2d (kv_arg1 m c)
def kv_v5 : Buf (Elt Ideal) ((c : Thread nD τ).loc main_v5) := hSrcCat (kv_arg1 m c)
def kv_v6 : Buf (Elt Ideal) ((c : Thread nD τ).loc main_v6) := hDstCat (kv_arg1 m c)
def kv_v13 : Buf (Elt Ideal) ((c : Thread nD τ).loc main_v13) := hWcats (kv_arg3 m c) (kv_arg5 m c)
def kv_v15 : Buf (Elt Ideal) ((c : Thread nD τ).loc main_v15) := hWcat0 (hWcats (kv_arg3 m c) (kv_arg5 m c))
def kv_v18 : Buf (Elt Ideal) ((c : Thread nD τ).loc main_v18) := hRow0 (kv_arg6 m c)
def kv_v19_0 : Buf (Elt Ideal) ((c : Thread nD τ).loc main_v19_0) := G0_4 (kv_arg0 m c) (kv_v15 m c) (kv_v12 m c)
def kv_v19_1 : Buf (Elt Ideal) ((c : Thread nD τ).loc main_v19_1) := G0_5 (kv_arg0 m c) (kv_v15 m c) (kv_v18 m c)
def kv_v29 : Buf (Elt Ideal) ((c : Thread nD τ).loc main_v29) := hAgg (kv_v19_0 m c) (kv_v5 m c) (kv_v6 m c)
def kv_v32 : Buf (Elt Ideal) ((c : Thread nD τ).loc main_v32) := hRow0 (kv_arg4 m c)
def kv_v33_0 : Buf (Elt Ideal) ((c : Thread nD τ).loc main_v33_0) := G1_4 (kv_v29 m c) (kv_v19_1 m c) (kv_v12 m c) (kv_v32 m c)
def kv_v33_1 : Buf (Elt Ideal) ((c : Thread nD τ).loc main_v33_1) := G1_5 (kv_v29 m c) (kv_v19_1 m c) (kv_v12 m c) (kv_v32 m c)
def kv_v36 : Buf (Elt Ideal) ((c : Thread nD τ).loc main_v36) := hMeanOf (kv_v33_0 m c)
def kv_v37 : Buf (Elt Ideal) ((c : Thread nD τ).loc main_v37) := G2_2 (kv_v33_1 m c) (kv_v36 m c)
def kv_v40 : Buf (Elt Ideal) ((c : Thread nD τ).loc main_v40) := hMeanOf (kv_v37 m c)
def kv_v49 : Buf (Elt Ideal) ((c : Thread nD τ).loc main_v49) := hRow0 (kv_arg7 m c)
def kv_v50 : Buf (Elt Ideal) ((c : Thread nD τ).loc main_v50) := hRow0 (kv_arg8 m c)
def kv_v46 : Buf (Elt Ideal) ((c : Thread nD τ).loc main_v46) := hWcat1 (kv_v13 m c)
def kv_v51 : Buf (Elt Ideal) ((c : Thread nD τ).loc main_v51) := hRow1 (kv_arg6 m c)
def kv_v52_0 : Buf (Elt Ideal) ((c : Thread nD τ).loc main_v52_0) := G3_8 (kv_v33_1 m c) (kv_v36 m c) (kv_v40 m c) (kv_v49 m c) (kv_v50 m c) (kv_v46 m c) (kv_v12 m c)
def kv_v52_1 : Buf (Elt Ideal) ((c : Thread nD τ).loc main_v52_1) := G3_9 (kv_v33_1 m c) (kv_v36 m c) (kv_v40 m c) (kv_v49 m c) (kv_v50 m c) (kv_v46 m c) (kv_v51 m c)
def kv_v62 : Buf (Elt Ideal) ((c : Thread nD τ).loc main_v62) := hAgg (kv_v52_0 m c) (kv_v5 m c) (kv_v6 m c)
def kv_v65 : Buf (Elt Ideal) ((c : Thread nD τ).loc main_v65) := hRow1 (kv_arg4 m c)
def kv_v66_0 : Buf (Elt Ideal) ((c : Thread nD τ).loc main_v66_0) := G4_4 (kv_v62 m c) (kv_v52_1 m c) (kv_v12 m c) (kv_v65 m c)
def kv_v66_1 : Buf (Elt Ideal) ((c : Thread nD τ).loc main_v66_1) := G4_5 (kv_v62 m c) (kv_v52_1 m c) (kv_v12 m c) (kv_v65 m c)
def kv_v69 : Buf (Elt Ideal) ((c : Thread nD τ).loc main_v69) := hMeanOf (kv_v66_0 m c)
def kv_v70 : Buf (Elt Ideal) ((c : Thread nD τ).loc main_v70) := G5_2 (kv_v66_1 m c) (kv_v69 m c)

/-! ## Every live buffer at every boundary -/
theorem at0_arg0 : W0 m ρ c (Proc.devRef .tc main_arg0) = kv_arg0 m c := rfl
theorem at0_arg1 : W0 m ρ c (Proc.devRef .tc main_arg1) = kv_arg1 m c := rfl
theorem at0_arg2 : W0 m ρ c (Proc.devRef .tc main_arg2) = kv_arg2 m c := rfl
theorem at0_arg3 : W0 m ρ c (Proc.devRef .tc main_arg3) = kv_arg3 m c := rfl
theorem at0_arg4 : W0 m ρ c (Proc.devRef .tc main_arg4) = kv_arg4 m c := rfl
theorem at0_arg5 : W0 m ρ c (Proc.devRef .tc main_arg5) = kv_arg5 m c := rfl
theorem at0_arg6 : W0 m ρ c (Proc.devRef .tc main_arg6) = kv_arg6 m c := rfl
theorem at0_arg7 : W0 m ρ c (Proc.devRef .tc main_arg7) = kv_arg7 m c := rfl
theorem at0_arg8 : W0 m ρ c (Proc.devRef .tc main_arg8) = kv_arg8 m c := rfl
theorem at1_arg0 : W1 m ρ c (Proc.devRef .tc main_arg0) = kv_arg0 m c :=
  (W1_of m ρ c main_arg0 (by decide)).trans (at0_arg0 m ρ c)
theorem at1_arg2 : W1 m ρ c (Proc.devRef .tc main_arg2) = kv_arg2 m c :=
  (W1_of m ρ c main_arg2 (by decide)).trans (at0_arg2 m ρ c)
theorem at1_arg4 : W1 m ρ c (Proc.devRef .tc main_arg4) = kv_arg4 m c :=
  (W1_of m ρ c main_arg4 (by decide)).trans (at0_arg4 m ρ c)
theorem at1_arg6 : W1 m ρ c (Proc.devRef .tc main_arg6) = kv_arg6 m c :=
  (W1_of m ρ c main_arg6 (by decide)).trans (at0_arg6 m ρ c)
theorem at1_arg7 : W1 m ρ c (Proc.devRef .tc main_arg7) = kv_arg7 m c :=
  (W1_of m ρ c main_arg7 (by decide)).trans (at0_arg7 m ρ c)
theorem at1_arg8 : W1 m ρ c (Proc.devRef .tc main_arg8) = kv_arg8 m c :=
  (W1_of m ρ c main_arg8 (by decide)).trans (at0_arg8 m ρ c)
theorem at1_v12 : W1 m ρ c (Proc.devRef .tc main_v12) = kv_v12 m c := by
  refine (hostOps0_v12 (W0 m ρ c)).trans ?_
  rw [at0_arg1 m ρ c]
  rfl
theorem at1_v5 : W1 m ρ c (Proc.devRef .tc main_v5) = kv_v5 m c := by
  refine (hostOps0_v5 (W0 m ρ c)).trans ?_
  rw [at0_arg1 m ρ c]
  rfl
theorem at1_v6 : W1 m ρ c (Proc.devRef .tc main_v6) = kv_v6 m c := by
  refine (hostOps0_v6 (W0 m ρ c)).trans ?_
  rw [at0_arg1 m ρ c]
  rfl
theorem at1_v13 : W1 m ρ c (Proc.devRef .tc main_v13) = kv_v13 m c := by
  refine (hostOps0_v13 (W0 m ρ c)).trans ?_
  rw [at0_arg3 m ρ c, at0_arg5 m ρ c]
  rfl
theorem at1_v15 : W1 m ρ c (Proc.devRef .tc main_v15) = kv_v15 m c := by
  refine (hostOps0_v15 (W0 m ρ c)).trans ?_
  rw [at0_arg3 m ρ c, at0_arg5 m ρ c]
  rfl
theorem at1_v18 : W1 m ρ c (Proc.devRef .tc main_v18) = kv_v18 m c := by
  refine (hostOps0_v18 (W0 m ρ c)).trans ?_
  rw [at0_arg6 m ρ c]
  rfl
theorem at2_arg2 : W2 m ρ c (Proc.devRef .tc main_arg2) = kv_arg2 m c :=
  (W2_of_ne m ρ c main_arg2 (by decide)).trans (at1_arg2 m ρ c)
theorem at2_arg4 : W2 m ρ c (Proc.devRef .tc main_arg4) = kv_arg4 m c :=
  (W2_of_ne m ρ c main_arg4 (by decide)).trans (at1_arg4 m ρ c)
theorem at2_arg6 : W2 m ρ c (Proc.devRef .tc main_arg6) = kv_arg6 m c :=
  (W2_of_ne m ρ c main_arg6 (by decide)).trans (at1_arg6 m ρ c)
theorem at2_arg7 : W2 m ρ c (Proc.devRef .tc main_arg7) = kv_arg7 m c :=
  (W2_of_ne m ρ c main_arg7 (by decide)).trans (at1_arg7 m ρ c)
theorem at2_arg8 : W2 m ρ c (Proc.devRef .tc main_arg8) = kv_arg8 m c :=
  (W2_of_ne m ρ c main_arg8 (by decide)).trans (at1_arg8 m ρ c)
theorem at2_v12 : W2 m ρ c (Proc.devRef .tc main_v12) = kv_v12 m c :=
  ((W2_arr m ρ c 3).trans (((dat0 (Wr1 m ρ) c).arrAt_in 3 rfl _).trans (A_eq0 (Wr1 m ρ) c 3))).trans (at1_v12 m ρ c)
theorem at2_v5 : W2 m ρ c (Proc.devRef .tc main_v5) = kv_v5 m c :=
  (W2_of_ne m ρ c main_v5 (by decide)).trans (at1_v5 m ρ c)
theorem at2_v6 : W2 m ρ c (Proc.devRef .tc main_v6) = kv_v6 m c :=
  (W2_of_ne m ρ c main_v6 (by decide)).trans (at1_v6 m ρ c)
theorem at2_v13 : W2 m ρ c (Proc.devRef .tc main_v13) = kv_v13 m c :=
  (W2_of_ne m ρ c main_v13 (by decide)).trans (at1_v13 m ρ c)
theorem at2_v19_0 : W2 m ρ c (Proc.devRef .tc main_v19_0) = kv_v19_0 m c := by
  refine (W2_arr m ρ c 4).trans ?_
  refine (final0_4 (Wr1 m ρ) c).trans ?_
  show G0_4 (W1 m ρ c (Proc.devRef .tc main_arg0)) (W1 m ρ c (Proc.devRef .tc main_v15)) (W1 m ρ c (Proc.devRef .tc main_v12)) = kv_v19_0 m c
  rw [at1_arg0 m ρ c, at1_v15 m ρ c, at1_v12 m ρ c]
  rfl
theorem at2_v19_1 : W2 m ρ c (Proc.devRef .tc main_v19_1) = kv_v19_1 m c := by
  refine (W2_arr m ρ c 5).trans ?_
  refine (final0_5 (Wr1 m ρ) c).trans ?_
  show G0_5 (W1 m ρ c (Proc.devRef .tc main_arg0)) (W1 m ρ c (Proc.devRef .tc main_v15)) (W1 m ρ c (Proc.devRef .tc main_v18)) = kv_v19_1 m c
  rw [at1_arg0 m ρ c, at1_v15 m ρ c, at1_v18 m ρ c]
  rfl
theorem at3_arg2 : W3 m ρ c (Proc.devRef .tc main_arg2) = kv_arg2 m c :=
  (W3_of m ρ c main_arg2 (by decide)).trans (at2_arg2 m ρ c)
theorem at3_arg4 : W3 m ρ c (Proc.devRef .tc main_arg4) = kv_arg4 m c :=
  (W3_of m ρ c main_arg4 (by decide)).trans (at2_arg4 m ρ c)
theorem at3_arg6 : W3 m ρ c (Proc.devRef .tc main_arg6) = kv_arg6 m c :=
  (W3_of m ρ c main_arg6 (by decide)).trans (at2_arg6 m ρ c)
theorem at3_arg7 : W3 m ρ c (Proc.devRef .tc main_arg7) = kv_arg7 m c :=
  (W3_of m ρ c main_arg7 (by decide)).trans (at2_arg7 m ρ c)
theorem at3_arg8 : W3 m ρ c (Proc.devRef .tc main_arg8) = kv_arg8 m c :=
  (W3_of m ρ c main_arg8 (by decide)).trans (at2_arg8 m ρ c)
theorem at3_v12 : W3 m ρ c (Proc.devRef .tc main_v12) = kv_v12 m c :=
  (W3_of m ρ c main_v12 (by decide)).trans (at2_v12 m ρ c)
theorem at3_v5 : W3 m ρ c (Proc.devRef .tc main_v5) = kv_v5 m c :=
  (W3_of m ρ c main_v5 (by decide)).trans (at2_v5 m ρ c)
theorem at3_v6 : W3 m ρ c (Proc.devRef .tc main_v6) = kv_v6 m c :=
  (W3_of m ρ c main_v6 (by decide)).trans (at2_v6 m ρ c)
theorem at3_v13 : W3 m ρ c (Proc.devRef .tc main_v13) = kv_v13 m c :=
  (W3_of m ρ c main_v13 (by decide)).trans (at2_v13 m ρ c)
theorem at3_v19_1 : W3 m ρ c (Proc.devRef .tc main_v19_1) = kv_v19_1 m c :=
  (W3_of m ρ c main_v19_1 (by decide)).trans (at2_v19_1 m ρ c)
theorem at3_v29 : W3 m ρ c (Proc.devRef .tc main_v29) = kv_v29 m c := by
  refine (hostOps1_v29 (W2 m ρ c)).trans ?_
  rw [at2_v19_0 m ρ c, at2_v5 m ρ c, at2_v6 m ρ c]
  rfl
theorem at3_v32 : W3 m ρ c (Proc.devRef .tc main_v32) = kv_v32 m c := by
  refine (hostOps1_v32 (W2 m ρ c)).trans ?_
  rw [at2_arg4 m ρ c]
  rfl
theorem at4_arg2 : W4 m ρ c (Proc.devRef .tc main_arg2) = kv_arg2 m c :=
  (W4_of_ne m ρ c main_arg2 (by decide)).trans (at3_arg2 m ρ c)
theorem at4_arg4 : W4 m ρ c (Proc.devRef .tc main_arg4) = kv_arg4 m c :=
  (W4_of_ne m ρ c main_arg4 (by decide)).trans (at3_arg4 m ρ c)
theorem at4_arg6 : W4 m ρ c (Proc.devRef .tc main_arg6) = kv_arg6 m c :=
  (W4_of_ne m ρ c main_arg6 (by decide)).trans (at3_arg6 m ρ c)
theorem at4_arg7 : W4 m ρ c (Proc.devRef .tc main_arg7) = kv_arg7 m c :=
  (W4_of_ne m ρ c main_arg7 (by decide)).trans (at3_arg7 m ρ c)
theorem at4_arg8 : W4 m ρ c (Proc.devRef .tc main_arg8) = kv_arg8 m c :=
  (W4_of_ne m ρ c main_arg8 (by decide)).trans (at3_arg8 m ρ c)
theorem at4_v12 : W4 m ρ c (Proc.devRef .tc main_v12) = kv_v12 m c :=
  ((W4_arr m ρ c 2).trans (((dat1 (Wr3 m ρ) c).arrAt_in 2 rfl _).trans (A_eq1 (Wr3 m ρ) c 2))).trans (at3_v12 m ρ c)
theorem at4_v5 : W4 m ρ c (Proc.devRef .tc main_v5) = kv_v5 m c :=
  (W4_of_ne m ρ c main_v5 (by decide)).trans (at3_v5 m ρ c)
theorem at4_v6 : W4 m ρ c (Proc.devRef .tc main_v6) = kv_v6 m c :=
  (W4_of_ne m ρ c main_v6 (by decide)).trans (at3_v6 m ρ c)
theorem at4_v13 : W4 m ρ c (Proc.devRef .tc main_v13) = kv_v13 m c :=
  (W4_of_ne m ρ c main_v13 (by decide)).trans (at3_v13 m ρ c)
theorem at4_v33_0 : W4 m ρ c (Proc.devRef .tc main_v33_0) = kv_v33_0 m c := by
  refine (W4_arr m ρ c 4).trans ?_
  refine (final1_4 (Wr3 m ρ) c).trans ?_
  show G1_4 (W3 m ρ c (Proc.devRef .tc main_v29)) (W3 m ρ c (Proc.devRef .tc main_v19_1)) (W3 m ρ c (Proc.devRef .tc main_v12)) (W3 m ρ c (Proc.devRef .tc main_v32)) = kv_v33_0 m c
  rw [at3_v29 m ρ c, at3_v19_1 m ρ c, at3_v12 m ρ c, at3_v32 m ρ c]
  rfl
theorem at4_v33_1 : W4 m ρ c (Proc.devRef .tc main_v33_1) = kv_v33_1 m c := by
  refine (W4_arr m ρ c 5).trans ?_
  refine (final1_5 (Wr3 m ρ) c).trans ?_
  show G1_5 (W3 m ρ c (Proc.devRef .tc main_v29)) (W3 m ρ c (Proc.devRef .tc main_v19_1)) (W3 m ρ c (Proc.devRef .tc main_v12)) (W3 m ρ c (Proc.devRef .tc main_v32)) = kv_v33_1 m c
  rw [at3_v29 m ρ c, at3_v19_1 m ρ c, at3_v12 m ρ c, at3_v32 m ρ c]
  rfl
theorem at5_arg2 : W5 m ρ c (Proc.devRef .tc main_arg2) = kv_arg2 m c :=
  (W5_of m ρ c main_arg2 (by decide)).trans (at4_arg2 m ρ c)
theorem at5_arg4 : W5 m ρ c (Proc.devRef .tc main_arg4) = kv_arg4 m c :=
  (W5_of m ρ c main_arg4 (by decide)).trans (at4_arg4 m ρ c)
theorem at5_arg6 : W5 m ρ c (Proc.devRef .tc main_arg6) = kv_arg6 m c :=
  (W5_of m ρ c main_arg6 (by decide)).trans (at4_arg6 m ρ c)
theorem at5_arg7 : W5 m ρ c (Proc.devRef .tc main_arg7) = kv_arg7 m c :=
  (W5_of m ρ c main_arg7 (by decide)).trans (at4_arg7 m ρ c)
theorem at5_arg8 : W5 m ρ c (Proc.devRef .tc main_arg8) = kv_arg8 m c :=
  (W5_of m ρ c main_arg8 (by decide)).trans (at4_arg8 m ρ c)
theorem at5_v12 : W5 m ρ c (Proc.devRef .tc main_v12) = kv_v12 m c :=
  (W5_of m ρ c main_v12 (by decide)).trans (at4_v12 m ρ c)
theorem at5_v5 : W5 m ρ c (Proc.devRef .tc main_v5) = kv_v5 m c :=
  (W5_of m ρ c main_v5 (by decide)).trans (at4_v5 m ρ c)
theorem at5_v6 : W5 m ρ c (Proc.devRef .tc main_v6) = kv_v6 m c :=
  (W5_of m ρ c main_v6 (by decide)).trans (at4_v6 m ρ c)
theorem at5_v13 : W5 m ρ c (Proc.devRef .tc main_v13) = kv_v13 m c :=
  (W5_of m ρ c main_v13 (by decide)).trans (at4_v13 m ρ c)
theorem at5_v33_1 : W5 m ρ c (Proc.devRef .tc main_v33_1) = kv_v33_1 m c :=
  (W5_of m ρ c main_v33_1 (by decide)).trans (at4_v33_1 m ρ c)
theorem at5_v36 : W5 m ρ c (Proc.devRef .tc main_v36) = kv_v36 m c := by
  refine (hostOps2_v36 (W4 m ρ c)).trans ?_
  rw [at4_v33_0 m ρ c]
  rfl
theorem at6_arg2 : W6 m ρ c (Proc.devRef .tc main_arg2) = kv_arg2 m c :=
  (W6_of_ne m ρ c main_arg2 (by decide)).trans (at5_arg2 m ρ c)
theorem at6_arg4 : W6 m ρ c (Proc.devRef .tc main_arg4) = kv_arg4 m c :=
  (W6_of_ne m ρ c main_arg4 (by decide)).trans (at5_arg4 m ρ c)
theorem at6_arg6 : W6 m ρ c (Proc.devRef .tc main_arg6) = kv_arg6 m c :=
  (W6_of_ne m ρ c main_arg6 (by decide)).trans (at5_arg6 m ρ c)
theorem at6_arg7 : W6 m ρ c (Proc.devRef .tc main_arg7) = kv_arg7 m c :=
  (W6_of_ne m ρ c main_arg7 (by decide)).trans (at5_arg7 m ρ c)
theorem at6_arg8 : W6 m ρ c (Proc.devRef .tc main_arg8) = kv_arg8 m c :=
  (W6_of_ne m ρ c main_arg8 (by decide)).trans (at5_arg8 m ρ c)
theorem at6_v12 : W6 m ρ c (Proc.devRef .tc main_v12) = kv_v12 m c :=
  (W6_of_ne m ρ c main_v12 (by decide)).trans (at5_v12 m ρ c)
theorem at6_v5 : W6 m ρ c (Proc.devRef .tc main_v5) = kv_v5 m c :=
  (W6_of_ne m ρ c main_v5 (by decide)).trans (at5_v5 m ρ c)
theorem at6_v6 : W6 m ρ c (Proc.devRef .tc main_v6) = kv_v6 m c :=
  (W6_of_ne m ρ c main_v6 (by decide)).trans (at5_v6 m ρ c)
theorem at6_v13 : W6 m ρ c (Proc.devRef .tc main_v13) = kv_v13 m c :=
  (W6_of_ne m ρ c main_v13 (by decide)).trans (at5_v13 m ρ c)
theorem at6_v33_1 : W6 m ρ c (Proc.devRef .tc main_v33_1) = kv_v33_1 m c :=
  ((W6_arr m ρ c 0).trans (((dat2 (Wr5 m ρ) c).arrAt_in 0 rfl _).trans (A_eq2 (Wr5 m ρ) c 0))).trans (at5_v33_1 m ρ c)
theorem at6_v36 : W6 m ρ c (Proc.devRef .tc main_v36) = kv_v36 m c :=
  ((W6_arr m ρ c 1).trans (((dat2 (Wr5 m ρ) c).arrAt_in 1 rfl _).trans (A_eq2 (Wr5 m ρ) c 1))).trans (at5_v36 m ρ c)
theorem at6_v37 : W6 m ρ c (Proc.devRef .tc main_v37) = kv_v37 m c := by
  refine (W6_arr m ρ c 2).trans ?_
  refine (final2_2 (Wr5 m ρ) c).trans ?_
  show G2_2 (W5 m ρ c (Proc.devRef .tc main_v33_1)) (W5 m ρ c (Proc.devRef .tc main_v36)) = kv_v37 m c
  rw [at5_v33_1 m ρ c, at5_v36 m ρ c]
  rfl
theorem at7_arg2 : W7 m ρ c (Proc.devRef .tc main_arg2) = kv_arg2 m c :=
  (W7_of m ρ c main_arg2 (by decide)).trans (at6_arg2 m ρ c)
theorem at7_arg4 : W7 m ρ c (Proc.devRef .tc main_arg4) = kv_arg4 m c :=
  (W7_of m ρ c main_arg4 (by decide)).trans (at6_arg4 m ρ c)
theorem at7_arg6 : W7 m ρ c (Proc.devRef .tc main_arg6) = kv_arg6 m c :=
  (W7_of m ρ c main_arg6 (by decide)).trans (at6_arg6 m ρ c)
theorem at7_arg7 : W7 m ρ c (Proc.devRef .tc main_arg7) = kv_arg7 m c :=
  (W7_of m ρ c main_arg7 (by decide)).trans (at6_arg7 m ρ c)
theorem at7_arg8 : W7 m ρ c (Proc.devRef .tc main_arg8) = kv_arg8 m c :=
  (W7_of m ρ c main_arg8 (by decide)).trans (at6_arg8 m ρ c)
theorem at7_v12 : W7 m ρ c (Proc.devRef .tc main_v12) = kv_v12 m c :=
  (W7_of m ρ c main_v12 (by decide)).trans (at6_v12 m ρ c)
theorem at7_v5 : W7 m ρ c (Proc.devRef .tc main_v5) = kv_v5 m c :=
  (W7_of m ρ c main_v5 (by decide)).trans (at6_v5 m ρ c)
theorem at7_v6 : W7 m ρ c (Proc.devRef .tc main_v6) = kv_v6 m c :=
  (W7_of m ρ c main_v6 (by decide)).trans (at6_v6 m ρ c)
theorem at7_v13 : W7 m ρ c (Proc.devRef .tc main_v13) = kv_v13 m c :=
  (W7_of m ρ c main_v13 (by decide)).trans (at6_v13 m ρ c)
theorem at7_v33_1 : W7 m ρ c (Proc.devRef .tc main_v33_1) = kv_v33_1 m c :=
  (W7_of m ρ c main_v33_1 (by decide)).trans (at6_v33_1 m ρ c)
theorem at7_v36 : W7 m ρ c (Proc.devRef .tc main_v36) = kv_v36 m c :=
  (W7_of m ρ c main_v36 (by decide)).trans (at6_v36 m ρ c)
theorem at7_v40 : W7 m ρ c (Proc.devRef .tc main_v40) = kv_v40 m c := by
  refine (hostOps3_v40 (W6 m ρ c)).trans ?_
  rw [at6_v37 m ρ c]
  rfl
theorem at7_v49 : W7 m ρ c (Proc.devRef .tc main_v49) = kv_v49 m c := by
  refine (hostOps3_v49 (W6 m ρ c)).trans ?_
  rw [at6_arg7 m ρ c]
  rfl
theorem at7_v50 : W7 m ρ c (Proc.devRef .tc main_v50) = kv_v50 m c := by
  refine (hostOps3_v50 (W6 m ρ c)).trans ?_
  rw [at6_arg8 m ρ c]
  rfl
theorem at7_v46 : W7 m ρ c (Proc.devRef .tc main_v46) = kv_v46 m c := by
  refine (hostOps3_v46 (W6 m ρ c)).trans ?_
  rw [at6_v13 m ρ c]
  rfl
theorem at7_v51 : W7 m ρ c (Proc.devRef .tc main_v51) = kv_v51 m c := by
  refine (hostOps3_v51 (W6 m ρ c)).trans ?_
  rw [at6_arg6 m ρ c]
  rfl
theorem at8_arg2 : W8 m ρ c (Proc.devRef .tc main_arg2) = kv_arg2 m c :=
  (W8_of_ne m ρ c main_arg2 (by decide)).trans (at7_arg2 m ρ c)
theorem at8_arg4 : W8 m ρ c (Proc.devRef .tc main_arg4) = kv_arg4 m c :=
  (W8_of_ne m ρ c main_arg4 (by decide)).trans (at7_arg4 m ρ c)
theorem at8_arg6 : W8 m ρ c (Proc.devRef .tc main_arg6) = kv_arg6 m c :=
  (W8_of_ne m ρ c main_arg6 (by decide)).trans (at7_arg6 m ρ c)
theorem at8_arg7 : W8 m ρ c (Proc.devRef .tc main_arg7) = kv_arg7 m c :=
  (W8_of_ne m ρ c main_arg7 (by decide)).trans (at7_arg7 m ρ c)
theorem at8_arg8 : W8 m ρ c (Proc.devRef .tc main_arg8) = kv_arg8 m c :=
  (W8_of_ne m ρ c main_arg8 (by decide)).trans (at7_arg8 m ρ c)
theorem at8_v12 : W8 m ρ c (Proc.devRef .tc main_v12) = kv_v12 m c :=
  ((W8_arr m ρ c 7).trans (((dat3 (Wr7 m ρ) c).arrAt_in 7 rfl _).trans (A_eq3 (Wr7 m ρ) c 7))).trans (at7_v12 m ρ c)
theorem at8_v5 : W8 m ρ c (Proc.devRef .tc main_v5) = kv_v5 m c :=
  (W8_of_ne m ρ c main_v5 (by decide)).trans (at7_v5 m ρ c)
theorem at8_v6 : W8 m ρ c (Proc.devRef .tc main_v6) = kv_v6 m c :=
  (W8_of_ne m ρ c main_v6 (by decide)).trans (at7_v6 m ρ c)
theorem at8_v13 : W8 m ρ c (Proc.devRef .tc main_v13) = kv_v13 m c :=
  (W8_of_ne m ρ c main_v13 (by decide)).trans (at7_v13 m ρ c)
theorem at8_v52_0 : W8 m ρ c (Proc.devRef .tc main_v52_0) = kv_v52_0 m c := by
  refine (W8_arr m ρ c 8).trans ?_
  refine (final3_8 (Wr7 m ρ) c).trans ?_
  show G3_8 (W7 m ρ c (Proc.devRef .tc main_v33_1)) (W7 m ρ c (Proc.devRef .tc main_v36)) (W7 m ρ c (Proc.devRef .tc main_v40)) (W7 m ρ c (Proc.devRef .tc main_v49)) (W7 m ρ c (Proc.devRef .tc main_v50)) (W7 m ρ c (Proc.devRef .tc main_v46)) (W7 m ρ c (Proc.devRef .tc main_v12)) = kv_v52_0 m c
  rw [at7_v33_1 m ρ c, at7_v36 m ρ c, at7_v40 m ρ c, at7_v49 m ρ c, at7_v50 m ρ c, at7_v46 m ρ c, at7_v12 m ρ c]
  rfl
theorem at8_v52_1 : W8 m ρ c (Proc.devRef .tc main_v52_1) = kv_v52_1 m c := by
  refine (W8_arr m ρ c 9).trans ?_
  refine (final3_9 (Wr7 m ρ) c).trans ?_
  show G3_9 (W7 m ρ c (Proc.devRef .tc main_v33_1)) (W7 m ρ c (Proc.devRef .tc main_v36)) (W7 m ρ c (Proc.devRef .tc main_v40)) (W7 m ρ c (Proc.devRef .tc main_v49)) (W7 m ρ c (Proc.devRef .tc main_v50)) (W7 m ρ c (Proc.devRef .tc main_v46)) (W7 m ρ c (Proc.devRef .tc main_v51)) = kv_v52_1 m c
  rw [at7_v33_1 m ρ c, at7_v36 m ρ c, at7_v40 m ρ c, at7_v49 m ρ c, at7_v50 m ρ c, at7_v46 m ρ c, at7_v51 m ρ c]
  rfl
theorem at9_arg2 : W9 m ρ c (Proc.devRef .tc main_arg2) = kv_arg2 m c :=
  (W9_of m ρ c main_arg2 (by decide)).trans (at8_arg2 m ρ c)
theorem at9_arg4 : W9 m ρ c (Proc.devRef .tc main_arg4) = kv_arg4 m c :=
  (W9_of m ρ c main_arg4 (by decide)).trans (at8_arg4 m ρ c)
theorem at9_arg6 : W9 m ρ c (Proc.devRef .tc main_arg6) = kv_arg6 m c :=
  (W9_of m ρ c main_arg6 (by decide)).trans (at8_arg6 m ρ c)
theorem at9_arg7 : W9 m ρ c (Proc.devRef .tc main_arg7) = kv_arg7 m c :=
  (W9_of m ρ c main_arg7 (by decide)).trans (at8_arg7 m ρ c)
theorem at9_arg8 : W9 m ρ c (Proc.devRef .tc main_arg8) = kv_arg8 m c :=
  (W9_of m ρ c main_arg8 (by decide)).trans (at8_arg8 m ρ c)
theorem at9_v12 : W9 m ρ c (Proc.devRef .tc main_v12) = kv_v12 m c :=
  (W9_of m ρ c main_v12 (by decide)).trans (at8_v12 m ρ c)
theorem at9_v5 : W9 m ρ c (Proc.devRef .tc main_v5) = kv_v5 m c :=
  (W9_of m ρ c main_v5 (by decide)).trans (at8_v5 m ρ c)
theorem at9_v6 : W9 m ρ c (Proc.devRef .tc main_v6) = kv_v6 m c :=
  (W9_of m ρ c main_v6 (by decide)).trans (at8_v6 m ρ c)
theorem at9_v13 : W9 m ρ c (Proc.devRef .tc main_v13) = kv_v13 m c :=
  (W9_of m ρ c main_v13 (by decide)).trans (at8_v13 m ρ c)
theorem at9_v52_1 : W9 m ρ c (Proc.devRef .tc main_v52_1) = kv_v52_1 m c :=
  (W9_of m ρ c main_v52_1 (by decide)).trans (at8_v52_1 m ρ c)
theorem at9_v62 : W9 m ρ c (Proc.devRef .tc main_v62) = kv_v62 m c := by
  refine (hostOps4_v62 (W8 m ρ c)).trans ?_
  rw [at8_v52_0 m ρ c, at8_v5 m ρ c, at8_v6 m ρ c]
  rfl
theorem at9_v65 : W9 m ρ c (Proc.devRef .tc main_v65) = kv_v65 m c := by
  refine (hostOps4_v65 (W8 m ρ c)).trans ?_
  rw [at8_arg4 m ρ c]
  rfl
theorem at10_arg2 : W10 m ρ c (Proc.devRef .tc main_arg2) = kv_arg2 m c :=
  (W10_of_ne m ρ c main_arg2 (by decide)).trans (at9_arg2 m ρ c)
theorem at10_arg4 : W10 m ρ c (Proc.devRef .tc main_arg4) = kv_arg4 m c :=
  (W10_of_ne m ρ c main_arg4 (by decide)).trans (at9_arg4 m ρ c)
theorem at10_arg6 : W10 m ρ c (Proc.devRef .tc main_arg6) = kv_arg6 m c :=
  (W10_of_ne m ρ c main_arg6 (by decide)).trans (at9_arg6 m ρ c)
theorem at10_arg7 : W10 m ρ c (Proc.devRef .tc main_arg7) = kv_arg7 m c :=
  (W10_of_ne m ρ c main_arg7 (by decide)).trans (at9_arg7 m ρ c)
theorem at10_arg8 : W10 m ρ c (Proc.devRef .tc main_arg8) = kv_arg8 m c :=
  (W10_of_ne m ρ c main_arg8 (by decide)).trans (at9_arg8 m ρ c)
theorem at10_v12 : W10 m ρ c (Proc.devRef .tc main_v12) = kv_v12 m c :=
  ((W10_arr m ρ c 2).trans (((dat4 (Wr9 m ρ) c).arrAt_in 2 rfl _).trans (A_eq4 (Wr9 m ρ) c 2))).trans (at9_v12 m ρ c)
theorem at10_v5 : W10 m ρ c (Proc.devRef .tc main_v5) = kv_v5 m c :=
  (W10_of_ne m ρ c main_v5 (by decide)).trans (at9_v5 m ρ c)
theorem at10_v6 : W10 m ρ c (Proc.devRef .tc main_v6) = kv_v6 m c :=
  (W10_of_ne m ρ c main_v6 (by decide)).trans (at9_v6 m ρ c)
theorem at10_v13 : W10 m ρ c (Proc.devRef .tc main_v13) = kv_v13 m c :=
  (W10_of_ne m ρ c main_v13 (by decide)).trans (at9_v13 m ρ c)
theorem at10_v66_0 : W10 m ρ c (Proc.devRef .tc main_v66_0) = kv_v66_0 m c := by
  refine (W10_arr m ρ c 4).trans ?_
  refine (final4_4 (Wr9 m ρ) c).trans ?_
  show G4_4 (W9 m ρ c (Proc.devRef .tc main_v62)) (W9 m ρ c (Proc.devRef .tc main_v52_1)) (W9 m ρ c (Proc.devRef .tc main_v12)) (W9 m ρ c (Proc.devRef .tc main_v65)) = kv_v66_0 m c
  rw [at9_v62 m ρ c, at9_v52_1 m ρ c, at9_v12 m ρ c, at9_v65 m ρ c]
  rfl
theorem at10_v66_1 : W10 m ρ c (Proc.devRef .tc main_v66_1) = kv_v66_1 m c := by
  refine (W10_arr m ρ c 5).trans ?_
  refine (final4_5 (Wr9 m ρ) c).trans ?_
  show G4_5 (W9 m ρ c (Proc.devRef .tc main_v62)) (W9 m ρ c (Proc.devRef .tc main_v52_1)) (W9 m ρ c (Proc.devRef .tc main_v12)) (W9 m ρ c (Proc.devRef .tc main_v65)) = kv_v66_1 m c
  rw [at9_v62 m ρ c, at9_v52_1 m ρ c, at9_v12 m ρ c, at9_v65 m ρ c]
  rfl
theorem at11_arg2 : W11 m ρ c (Proc.devRef .tc main_arg2) = kv_arg2 m c :=
  (W11_of m ρ c main_arg2 (by decide)).trans (at10_arg2 m ρ c)
theorem at11_arg4 : W11 m ρ c (Proc.devRef .tc main_arg4) = kv_arg4 m c :=
  (W11_of m ρ c main_arg4 (by decide)).trans (at10_arg4 m ρ c)
theorem at11_arg6 : W11 m ρ c (Proc.devRef .tc main_arg6) = kv_arg6 m c :=
  (W11_of m ρ c main_arg6 (by decide)).trans (at10_arg6 m ρ c)
theorem at11_arg7 : W11 m ρ c (Proc.devRef .tc main_arg7) = kv_arg7 m c :=
  (W11_of m ρ c main_arg7 (by decide)).trans (at10_arg7 m ρ c)
theorem at11_arg8 : W11 m ρ c (Proc.devRef .tc main_arg8) = kv_arg8 m c :=
  (W11_of m ρ c main_arg8 (by decide)).trans (at10_arg8 m ρ c)
theorem at11_v12 : W11 m ρ c (Proc.devRef .tc main_v12) = kv_v12 m c :=
  (W11_of m ρ c main_v12 (by decide)).trans (at10_v12 m ρ c)
theorem at11_v5 : W11 m ρ c (Proc.devRef .tc main_v5) = kv_v5 m c :=
  (W11_of m ρ c main_v5 (by decide)).trans (at10_v5 m ρ c)
theorem at11_v6 : W11 m ρ c (Proc.devRef .tc main_v6) = kv_v6 m c :=
  (W11_of m ρ c main_v6 (by decide)).trans (at10_v6 m ρ c)
theorem at11_v13 : W11 m ρ c (Proc.devRef .tc main_v13) = kv_v13 m c :=
  (W11_of m ρ c main_v13 (by decide)).trans (at10_v13 m ρ c)
theorem at11_v66_1 : W11 m ρ c (Proc.devRef .tc main_v66_1) = kv_v66_1 m c :=
  (W11_of m ρ c main_v66_1 (by decide)).trans (at10_v66_1 m ρ c)
theorem at11_v69 : W11 m ρ c (Proc.devRef .tc main_v69) = kv_v69 m c := by
  refine (hostOps5_v69 (W10 m ρ c)).trans ?_
  rw [at10_v66_0 m ρ c]
  rfl
theorem at12_arg2 : W12 m ρ c (Proc.devRef .tc main_arg2) = kv_arg2 m c :=
  (W12_of_ne m ρ c main_arg2 (by decide)).trans (at11_arg2 m ρ c)
theorem at12_arg4 : W12 m ρ c (Proc.devRef .tc main_arg4) = kv_arg4 m c :=
  (W12_of_ne m ρ c main_arg4 (by decide)).trans (at11_arg4 m ρ c)
theorem at12_arg6 : W12 m ρ c (Proc.devRef .tc main_arg6) = kv_arg6 m c :=
  (W12_of_ne m ρ c main_arg6 (by decide)).trans (at11_arg6 m ρ c)
theorem at12_arg7 : W12 m ρ c (Proc.devRef .tc main_arg7) = kv_arg7 m c :=
  (W12_of_ne m ρ c main_arg7 (by decide)).trans (at11_arg7 m ρ c)
theorem at12_arg8 : W12 m ρ c (Proc.devRef .tc main_arg8) = kv_arg8 m c :=
  (W12_of_ne m ρ c main_arg8 (by decide)).trans (at11_arg8 m ρ c)
theorem at12_v12 : W12 m ρ c (Proc.devRef .tc main_v12) = kv_v12 m c :=
  (W12_of_ne m ρ c main_v12 (by decide)).trans (at11_v12 m ρ c)
theorem at12_v5 : W12 m ρ c (Proc.devRef .tc main_v5) = kv_v5 m c :=
  (W12_of_ne m ρ c main_v5 (by decide)).trans (at11_v5 m ρ c)
theorem at12_v6 : W12 m ρ c (Proc.devRef .tc main_v6) = kv_v6 m c :=
  (W12_of_ne m ρ c main_v6 (by decide)).trans (at11_v6 m ρ c)
theorem at12_v13 : W12 m ρ c (Proc.devRef .tc main_v13) = kv_v13 m c :=
  (W12_of_ne m ρ c main_v13 (by decide)).trans (at11_v13 m ρ c)
theorem at12_v66_1 : W12 m ρ c (Proc.devRef .tc main_v66_1) = kv_v66_1 m c :=
  ((W12_arr m ρ c 0).trans (((dat5 (Wr11 m ρ) c).arrAt_in 0 rfl _).trans (A_eq5 (Wr11 m ρ) c 0))).trans (at11_v66_1 m ρ c)
theorem at12_v69 : W12 m ρ c (Proc.devRef .tc main_v69) = kv_v69 m c :=
  ((W12_arr m ρ c 1).trans (((dat5 (Wr11 m ρ) c).arrAt_in 1 rfl _).trans (A_eq5 (Wr11 m ρ) c 1))).trans (at11_v69 m ρ c)
theorem at12_v70 : W12 m ρ c (Proc.devRef .tc main_v70) = kv_v70 m c := by
  refine (W12_arr m ρ c 2).trans ?_
  refine (final5_2 (Wr11 m ρ) c).trans ?_
  show G5_2 (W11 m ρ c (Proc.devRef .tc main_v66_1)) (W11 m ρ c (Proc.devRef .tc main_v69)) = kv_v70 m c
  rw [at11_v66_1 m ρ c, at11_v69 m ρ c]
  rfl

end Cert.KernelIdeal.Hand

end
-- ==== Proof.KI.KVal.lean ====
/-
  The kernel program's value, at the extended reals: one named value for every buffer a region reads or writes — a host
  chain's function, or a region's whole-array function, of the values before it — and, at every boundary of @main where a
  buffer is live, that the fold's contents there are its named value. The last of these is what @main returns.
-/
import proofs.«417336_j40785009443359_3_alg».proof.Proof.Gen.KernelIdeal.Launch
import proofs.«417336_j40785009443359_3_alg».proof.Proof.Gen.KernelIdeal.Skeleton
import proofs.«417336_j40785009443359_3_alg».proof.Proof.Gen.KernelIdeal.Points
import proofs.«417336_j40785009443359_3_alg».proof.Proof.Gen.KernelIdeal.Regions
import proofs.«417336_j40785009443359_3_alg».proof.Proof.KI.KValA
import proofs.«417336_j40785009443359_3_alg».proof.Proof.KI.Fold
import proofs.«417336_j40785009443359_3_alg».proof.Proof.KI.HostVals
import proofs.«417336_j40785009443359_3_alg».proof.Proof.KI.V6
import proofs.«417336_j40785009443359_3_alg».proof.Proof.KI.V7
import proofs.«417336_j40785009443359_3_alg».proof.Proof.KI.V8
import proofs.«417336_j40785009443359_3_alg».proof.Proof.KI.V9
import proofs.«417336_j40785009443359_3_alg».proof.Proof.KI.V10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
variable (c : Dev nD)

/-! ## The named values -/

def kv_v73 : Buf (Elt Ideal) ((c : Thread nD τ).loc main_v73) := hMeanOf (kv_v70 m c)
def kv_v82 : Buf (Elt Ideal) ((c : Thread nD τ).loc main_v82) := hRow1 (kv_arg7 m c)
def kv_v83 : Buf (Elt Ideal) ((c : Thread nD τ).loc main_v83) := hRow1 (kv_arg8 m c)
def kv_v79 : Buf (Elt Ideal) ((c : Thread nD τ).loc main_v79) := hWcat2 (kv_v13 m c)
def kv_v84 : Buf (Elt Ideal) ((c : Thread nD τ).loc main_v84) := hRow2 (kv_arg6 m c)
def kv_v85_0 : Buf (Elt Ideal) ((c : Thread nD τ).loc main_v85_0) := G6_8 (kv_v66_1 m c) (kv_v69 m c) (kv_v73 m c) (kv_v82 m c) (kv_v83 m c) (kv_v79 m c) (kv_v12 m c)
def kv_v85_1 : Buf (Elt Ideal) ((c : Thread nD τ).loc main_v85_1) := G6_9 (kv_v66_1 m c) (kv_v69 m c) (kv_v73 m c) (kv_v82 m c) (kv_v83 m c) (kv_v79 m c) (kv_v84 m c)
def kv_v95 : Buf (Elt Ideal) ((c : Thread nD τ).loc main_v95) := hAgg (kv_v85_0 m c) (kv_v5 m c) (kv_v6 m c)
def kv_v98 : Buf (Elt Ideal) ((c : Thread nD τ).loc main_v98) := hRow2 (kv_arg4 m c)
def kv_v99_0 : Buf (Elt Ideal) ((c : Thread nD τ).loc main_v99_0) := G7_4 (kv_v95 m c) (kv_v85_1 m c) (kv_v12 m c) (kv_v98 m c)
def kv_v99_1 : Buf (Elt Ideal) ((c : Thread nD τ).loc main_v99_1) := G7_5 (kv_v95 m c) (kv_v85_1 m c) (kv_v12 m c) (kv_v98 m c)
def kv_v102 : Buf (Elt Ideal) ((c : Thread nD τ).loc main_v102) := hMeanOf (kv_v99_0 m c)
def kv_v103 : Buf (Elt Ideal) ((c : Thread nD τ).loc main_v103) := G8_2 (kv_v99_1 m c) (kv_v102 m c)
def kv_v106 : Buf (Elt Ideal) ((c : Thread nD τ).loc main_v106) := hMeanOf (kv_v103 m c)
def kv_v111 : Buf (Elt Ideal) ((c : Thread nD τ).loc main_v111) := hRow2 (kv_arg7 m c)
def kv_v112 : Buf (Elt Ideal) ((c : Thread nD τ).loc main_v112) := hRow2 (kv_arg8 m c)
def kv_v113 : Buf (Elt Ideal) ((c : Thread nD τ).loc main_v113) := G9_5 (kv_v99_1 m c) (kv_v102 m c) (kv_v106 m c) (kv_v111 m c) (kv_v112 m c)
def kv_v114 : Buf (Elt Ideal) ((c : Thread nD τ).loc main_v114) := hBatch2d (kv_arg2 m c)
def kv_v115 : Buf (Elt Ideal) ((c : Thread nD τ).loc main_v115) := G10_2 (kv_v113 m c) (kv_v114 m c)
def kv_v116 : Buf (Elt Ideal) ((c : Thread nD τ).loc main_v116) := hPooled (kv_v115 m c)

/-! ## Every live buffer at every boundary -/
theorem at13_arg2 : W13 m ρ c (Proc.devRef .tc main_arg2) = kv_arg2 m c :=
  (W13_of m ρ c main_arg2 (by decide)).trans (at12_arg2 m ρ c)
theorem at13_arg4 : W13 m ρ c (Proc.devRef .tc main_arg4) = kv_arg4 m c :=
  (W13_of m ρ c main_arg4 (by decide)).trans (at12_arg4 m ρ c)
theorem at13_arg7 : W13 m ρ c (Proc.devRef .tc main_arg7) = kv_arg7 m c :=
  (W13_of m ρ c main_arg7 (by decide)).trans (at12_arg7 m ρ c)
theorem at13_arg8 : W13 m ρ c (Proc.devRef .tc main_arg8) = kv_arg8 m c :=
  (W13_of m ρ c main_arg8 (by decide)).trans (at12_arg8 m ρ c)
theorem at13_v12 : W13 m ρ c (Proc.devRef .tc main_v12) = kv_v12 m c :=
  (W13_of m ρ c main_v12 (by decide)).trans (at12_v12 m ρ c)
theorem at13_v5 : W13 m ρ c (Proc.devRef .tc main_v5) = kv_v5 m c :=
  (W13_of m ρ c main_v5 (by decide)).trans (at12_v5 m ρ c)
theorem at13_v6 : W13 m ρ c (Proc.devRef .tc main_v6) = kv_v6 m c :=
  (W13_of m ρ c main_v6 (by decide)).trans (at12_v6 m ρ c)
theorem at13_v66_1 : W13 m ρ c (Proc.devRef .tc main_v66_1) = kv_v66_1 m c :=
  (W13_of m ρ c main_v66_1 (by decide)).trans (at12_v66_1 m ρ c)
theorem at13_v69 : W13 m ρ c (Proc.devRef .tc main_v69) = kv_v69 m c :=
  (W13_of m ρ c main_v69 (by decide)).trans (at12_v69 m ρ c)
theorem at13_v73 : W13 m ρ c (Proc.devRef .tc main_v73) = kv_v73 m c := by
  refine (hostOps6_v73 (W12 m ρ c)).trans ?_
  rw [at12_v70 m ρ c]
  rfl
theorem at13_v82 : W13 m ρ c (Proc.devRef .tc main_v82) = kv_v82 m c := by
  refine (hostOps6_v82 (W12 m ρ c)).trans ?_
  rw [at12_arg7 m ρ c]
  rfl
theorem at13_v83 : W13 m ρ c (Proc.devRef .tc main_v83) = kv_v83 m c := by
  refine (hostOps6_v83 (W12 m ρ c)).trans ?_
  rw [at12_arg8 m ρ c]
  rfl
theorem at13_v79 : W13 m ρ c (Proc.devRef .tc main_v79) = kv_v79 m c := by
  refine (hostOps6_v79 (W12 m ρ c)).trans ?_
  rw [at12_v13 m ρ c]
  rfl
theorem at13_v84 : W13 m ρ c (Proc.devRef .tc main_v84) = kv_v84 m c := by
  refine (hostOps6_v84 (W12 m ρ c)).trans ?_
  rw [at12_arg6 m ρ c]
  rfl
theorem at14_arg2 : W14 m ρ c (Proc.devRef .tc main_arg2) = kv_arg2 m c :=
  (W14_of_ne m ρ c main_arg2 (by decide)).trans (at13_arg2 m ρ c)
theorem at14_arg4 : W14 m ρ c (Proc.devRef .tc main_arg4) = kv_arg4 m c :=
  (W14_of_ne m ρ c main_arg4 (by decide)).trans (at13_arg4 m ρ c)
theorem at14_arg7 : W14 m ρ c (Proc.devRef .tc main_arg7) = kv_arg7 m c :=
  (W14_of_ne m ρ c main_arg7 (by decide)).trans (at13_arg7 m ρ c)
theorem at14_arg8 : W14 m ρ c (Proc.devRef .tc main_arg8) = kv_arg8 m c :=
  (W14_of_ne m ρ c main_arg8 (by decide)).trans (at13_arg8 m ρ c)
theorem at14_v12 : W14 m ρ c (Proc.devRef .tc main_v12) = kv_v12 m c :=
  ((W14_arr m ρ c 7).trans (((dat6 (Wr13 m ρ) c).arrAt_in 7 rfl _).trans (A_eq6 (Wr13 m ρ) c 7))).trans (at13_v12 m ρ c)
theorem at14_v5 : W14 m ρ c (Proc.devRef .tc main_v5) = kv_v5 m c :=
  (W14_of_ne m ρ c main_v5 (by decide)).trans (at13_v5 m ρ c)
theorem at14_v6 : W14 m ρ c (Proc.devRef .tc main_v6) = kv_v6 m c :=
  (W14_of_ne m ρ c main_v6 (by decide)).trans (at13_v6 m ρ c)
theorem at14_v85_0 : W14 m ρ c (Proc.devRef .tc main_v85_0) = kv_v85_0 m c := by
  refine (W14_arr m ρ c 8).trans ?_
  refine (final6_8 (Wr13 m ρ) c).trans ?_
  show G6_8 (W13 m ρ c (Proc.devRef .tc main_v66_1)) (W13 m ρ c (Proc.devRef .tc main_v69)) (W13 m ρ c (Proc.devRef .tc main_v73)) (W13 m ρ c (Proc.devRef .tc main_v82)) (W13 m ρ c (Proc.devRef .tc main_v83)) (W13 m ρ c (Proc.devRef .tc main_v79)) (W13 m ρ c (Proc.devRef .tc main_v12)) = kv_v85_0 m c
  rw [at13_v66_1 m ρ c, at13_v69 m ρ c, at13_v73 m ρ c, at13_v82 m ρ c, at13_v83 m ρ c, at13_v79 m ρ c, at13_v12 m ρ c]
  rfl
theorem at14_v85_1 : W14 m ρ c (Proc.devRef .tc main_v85_1) = kv_v85_1 m c := by
  refine (W14_arr m ρ c 9).trans ?_
  refine (final6_9 (Wr13 m ρ) c).trans ?_
  show G6_9 (W13 m ρ c (Proc.devRef .tc main_v66_1)) (W13 m ρ c (Proc.devRef .tc main_v69)) (W13 m ρ c (Proc.devRef .tc main_v73)) (W13 m ρ c (Proc.devRef .tc main_v82)) (W13 m ρ c (Proc.devRef .tc main_v83)) (W13 m ρ c (Proc.devRef .tc main_v79)) (W13 m ρ c (Proc.devRef .tc main_v84)) = kv_v85_1 m c
  rw [at13_v66_1 m ρ c, at13_v69 m ρ c, at13_v73 m ρ c, at13_v82 m ρ c, at13_v83 m ρ c, at13_v79 m ρ c, at13_v84 m ρ c]
  rfl
theorem at15_arg2 : W15 m ρ c (Proc.devRef .tc main_arg2) = kv_arg2 m c :=
  (W15_of m ρ c main_arg2 (by decide)).trans (at14_arg2 m ρ c)
theorem at15_arg7 : W15 m ρ c (Proc.devRef .tc main_arg7) = kv_arg7 m c :=
  (W15_of m ρ c main_arg7 (by decide)).trans (at14_arg7 m ρ c)
theorem at15_arg8 : W15 m ρ c (Proc.devRef .tc main_arg8) = kv_arg8 m c :=
  (W15_of m ρ c main_arg8 (by decide)).trans (at14_arg8 m ρ c)
theorem at15_v12 : W15 m ρ c (Proc.devRef .tc main_v12) = kv_v12 m c :=
  (W15_of m ρ c main_v12 (by decide)).trans (at14_v12 m ρ c)
theorem at15_v85_1 : W15 m ρ c (Proc.devRef .tc main_v85_1) = kv_v85_1 m c :=
  (W15_of m ρ c main_v85_1 (by decide)).trans (at14_v85_1 m ρ c)
theorem at15_v95 : W15 m ρ c (Proc.devRef .tc main_v95) = kv_v95 m c := by
  refine (hostOps7_v95 (W14 m ρ c)).trans ?_
  rw [at14_v85_0 m ρ c, at14_v5 m ρ c, at14_v6 m ρ c]
  rfl
theorem at15_v98 : W15 m ρ c (Proc.devRef .tc main_v98) = kv_v98 m c := by
  refine (hostOps7_v98 (W14 m ρ c)).trans ?_
  rw [at14_arg4 m ρ c]
  rfl
theorem at16_arg2 : W16 m ρ c (Proc.devRef .tc main_arg2) = kv_arg2 m c :=
  (W16_of_ne m ρ c main_arg2 (by decide)).trans (at15_arg2 m ρ c)
theorem at16_arg7 : W16 m ρ c (Proc.devRef .tc main_arg7) = kv_arg7 m c :=
  (W16_of_ne m ρ c main_arg7 (by decide)).trans (at15_arg7 m ρ c)
theorem at16_arg8 : W16 m ρ c (Proc.devRef .tc main_arg8) = kv_arg8 m c :=
  (W16_of_ne m ρ c main_arg8 (by decide)).trans (at15_arg8 m ρ c)
theorem at16_v99_0 : W16 m ρ c (Proc.devRef .tc main_v99_0) = kv_v99_0 m c := by
  refine (W16_arr m ρ c 4).trans ?_
  refine (final7_4 (Wr15 m ρ) c).trans ?_
  show G7_4 (W15 m ρ c (Proc.devRef .tc main_v95)) (W15 m ρ c (Proc.devRef .tc main_v85_1)) (W15 m ρ c (Proc.devRef .tc main_v12)) (W15 m ρ c (Proc.devRef .tc main_v98)) = kv_v99_0 m c
  rw [at15_v95 m ρ c, at15_v85_1 m ρ c, at15_v12 m ρ c, at15_v98 m ρ c]
  rfl
theorem at16_v99_1 : W16 m ρ c (Proc.devRef .tc main_v99_1) = kv_v99_1 m c := by
  refine (W16_arr m ρ c 5).trans ?_
  refine (final7_5 (Wr15 m ρ) c).trans ?_
  show G7_5 (W15 m ρ c (Proc.devRef .tc main_v95)) (W15 m ρ c (Proc.devRef .tc main_v85_1)) (W15 m ρ c (Proc.devRef .tc main_v12)) (W15 m ρ c (Proc.devRef .tc main_v98)) = kv_v99_1 m c
  rw [at15_v95 m ρ c, at15_v85_1 m ρ c, at15_v12 m ρ c, at15_v98 m ρ c]
  rfl
theorem at17_arg2 : W17 m ρ c (Proc.devRef .tc main_arg2) = kv_arg2 m c :=
  (W17_of m ρ c main_arg2 (by decide)).trans (at16_arg2 m ρ c)
theorem at17_arg7 : W17 m ρ c (Proc.devRef .tc main_arg7) = kv_arg7 m c :=
  (W17_of m ρ c main_arg7 (by decide)).trans (at16_arg7 m ρ c)
theorem at17_arg8 : W17 m ρ c (Proc.devRef .tc main_arg8) = kv_arg8 m c :=
  (W17_of m ρ c main_arg8 (by decide)).trans (at16_arg8 m ρ c)
theorem at17_v99_1 : W17 m ρ c (Proc.devRef .tc main_v99_1) = kv_v99_1 m c :=
  (W17_of m ρ c main_v99_1 (by decide)).trans (at16_v99_1 m ρ c)
theorem at17_v102 : W17 m ρ c (Proc.devRef .tc main_v102) = kv_v102 m c := by
  refine (hostOps8_v102 (W16 m ρ c)).trans ?_
  rw [at16_v99_0 m ρ c]
  rfl
theorem at18_arg2 : W18 m ρ c (Proc.devRef .tc main_arg2) = kv_arg2 m c :=
  (W18_of_ne m ρ c main_arg2 (by decide)).trans (at17_arg2 m ρ c)
theorem at18_arg7 : W18 m ρ c (Proc.devRef .tc main_arg7) = kv_arg7 m c :=
  (W18_of_ne m ρ c main_arg7 (by decide)).trans (at17_arg7 m ρ c)
theorem at18_arg8 : W18 m ρ c (Proc.devRef .tc main_arg8) = kv_arg8 m c :=
  (W18_of_ne m ρ c main_arg8 (by decide)).trans (at17_arg8 m ρ c)
theorem at18_v99_1 : W18 m ρ c (Proc.devRef .tc main_v99_1) = kv_v99_1 m c :=
  ((W18_arr m ρ c 0).trans (((dat8 (Wr17 m ρ) c).arrAt_in 0 rfl _).trans (A_eq8 (Wr17 m ρ) c 0))).trans (at17_v99_1 m ρ c)
theorem at18_v102 : W18 m ρ c (Proc.devRef .tc main_v102) = kv_v102 m c :=
  ((W18_arr m ρ c 1).trans (((dat8 (Wr17 m ρ) c).arrAt_in 1 rfl _).trans (A_eq8 (Wr17 m ρ) c 1))).trans (at17_v102 m ρ c)
theorem at18_v103 : W18 m ρ c (Proc.devRef .tc main_v103) = kv_v103 m c := by
  refine (W18_arr m ρ c 2).trans ?_
  refine (final8_2 (Wr17 m ρ) c).trans ?_
  show G8_2 (W17 m ρ c (Proc.devRef .tc main_v99_1)) (W17 m ρ c (Proc.devRef .tc main_v102)) = kv_v103 m c
  rw [at17_v99_1 m ρ c, at17_v102 m ρ c]
  rfl
theorem at19_arg2 : W19 m ρ c (Proc.devRef .tc main_arg2) = kv_arg2 m c :=
  (W19_of m ρ c main_arg2 (by decide)).trans (at18_arg2 m ρ c)
theorem at19_v99_1 : W19 m ρ c (Proc.devRef .tc main_v99_1) = kv_v99_1 m c :=
  (W19_of m ρ c main_v99_1 (by decide)).trans (at18_v99_1 m ρ c)
theorem at19_v102 : W19 m ρ c (Proc.devRef .tc main_v102) = kv_v102 m c :=
  (W19_of m ρ c main_v102 (by decide)).trans (at18_v102 m ρ c)
theorem at19_v106 : W19 m ρ c (Proc.devRef .tc main_v106) = kv_v106 m c := by
  refine (hostOps9_v106 (W18 m ρ c)).trans ?_
  rw [at18_v103 m ρ c]
  rfl
theorem at19_v111 : W19 m ρ c (Proc.devRef .tc main_v111) = kv_v111 m c := by
  refine (hostOps9_v111 (W18 m ρ c)).trans ?_
  rw [at18_arg7 m ρ c]
  rfl
theorem at19_v112 : W19 m ρ c (Proc.devRef .tc main_v112) = kv_v112 m c := by
  refine (hostOps9_v112 (W18 m ρ c)).trans ?_
  rw [at18_arg8 m ρ c]
  rfl
theorem at20_arg2 : W20 m ρ c (Proc.devRef .tc main_arg2) = kv_arg2 m c :=
  (W20_of_ne m ρ c main_arg2 (by decide)).trans (at19_arg2 m ρ c)
theorem at20_v113 : W20 m ρ c (Proc.devRef .tc main_v113) = kv_v113 m c := by
  refine (W20_arr m ρ c 5).trans ?_
  refine (final9_5 (Wr19 m ρ) c).trans ?_
  show G9_5 (W19 m ρ c (Proc.devRef .tc main_v99_1)) (W19 m ρ c (Proc.devRef .tc main_v102)) (W19 m ρ c (Proc.devRef .tc main_v106)) (W19 m ρ c (Proc.devRef .tc main_v111)) (W19 m ρ c (Proc.devRef .tc main_v112)) = kv_v113 m c
  rw [at19_v99_1 m ρ c, at19_v102 m ρ c, at19_v106 m ρ c, at19_v111 m ρ c, at19_v112 m ρ c]
  rfl
theorem at21_v113 : W21 m ρ c (Proc.devRef .tc main_v113) = kv_v113 m c :=
  (W21_of m ρ c main_v113 (by decide)).trans (at20_v113 m ρ c)
theorem at21_v114 : W21 m ρ c (Proc.devRef .tc main_v114) = kv_v114 m c := by
  refine (hostOps10_v114 (W20 m ρ c)).trans ?_
  rw [at20_arg2 m ρ c]
  rfl
theorem at22_v115 : W22 m ρ c (Proc.devRef .tc main_v115) = kv_v115 m c := by
  refine (W22_arr m ρ c 2).trans ?_
  refine (final10_2 (Wr21 m ρ) c).trans ?_
  show G10_2 (W21 m ρ c (Proc.devRef .tc main_v113)) (W21 m ρ c (Proc.devRef .tc main_v114)) = kv_v115 m c
  rw [at21_v113 m ρ c, at21_v114 m ρ c]
  rfl
theorem at23_v116 : W23 m ρ c (Proc.devRef .tc main_v116) = kv_v116 m c := by
  refine (hostOps11_v116 (W22 m ρ c)).trans ?_
  rw [at22_v115 m ρ c]
  rfl

/-- What @main returns: the pooled sums, as the named value. -/
theorem kernel_out : W23 m ρ c (Proc.devRef .tc main_v116) = kv_v116 m c := at23_v116 m ρ c

end Cert.KernelIdeal.Hand

end
-- ==== Proof.KI.Compose.lean ====
/-
  The composition: the kernel program's named values, layer by layer, are the reference's stages of the same arguments,
  and with that the two programs' runs end with equal results.
-/
import proofs.«417336_j40785009443359_3_alg».proof.Proof.KI.Bridge
import proofs.«417336_j40785009443359_3_alg».proof.Proof.KI.KVal
import proofs.«417336_j40785009443359_3_alg».proof.Proof.KI.Asm
import proofs.«417336_j40785009443359_3_alg».proof.Proof.KI.RefRun

set_option maxRecDepth 16384

noncomputable section

namespace Cert.Bridge

open Idealize.ShloMosaic Idealize.ShloMosaic.ValueIdx Idealize.ShloMosaic.SageSpec Idealize.SL.Sem
open Cert.LibFinite Cert.KernelIdeal.Hand Cert.ReferenceIdeal.Hand

variable (m : (ℓ : Loc Cert.KernelIdeal.nD Cert.KernelIdeal.τ Cert.KernelIdeal.sig) → Buf (Elt Ideal) ℓ)
  (hpre : Cert.Pre_KernelIdeal m) (c : Dev Cert.KernelIdeal.nD)

/-! ## The arguments, typed as arrays of extended reals -/

abbrev a0 : Mat 100000 128 := kv_arg0 m c
abbrev a1 : Edges := kv_arg1 m c
abbrev a2 : IVec (⟨1, ![100000]⟩ : Shape) 32 := kv_arg2 m c
abbrev a3 : Stack3 := kv_arg3 m c
abbrev a4 : Rows3 := kv_arg4 m c
abbrev a5 : Stack3 := kv_arg5 m c
abbrev a6 : Rows3 := kv_arg6 m c
abbrev a7 : Rows3 := kv_arg7 m c
abbrev a8 : Rows3 := kv_arg8 m c

/-- The reference's node features after layers 0, 1 and 2. -/
def X1 : Mat 100000 128 :=
  refLayerAt (F := Ideal) ![0, 0, 0] ![0, 0] Cert.ReferenceIdeal.Gen.slices_S3x128x128_S1x128x128_0_0_0 Cert.ReferenceIdeal.Gen.slices_S3x128_S1x128_0_0
    (a0 m c) (a1 m c) (a3 m c) (a4 m c) (a5 m c) (a6 m c) (a7 m c) (a8 m c)
def X2 : Mat 100000 128 :=
  refLayerAt (F := Ideal) ![1, 0, 0] ![1, 0] Cert.ReferenceIdeal.Gen.slices_S3x128x128_S1x128x128_1_0_0 Cert.ReferenceIdeal.Gen.slices_S3x128_S1x128_1_0
    (X1 m c) (a1 m c) (a3 m c) (a4 m c) (a5 m c) (a6 m c) (a7 m c) (a8 m c)
def X3 : Mat 100000 128 :=
  refLayerAt (F := Ideal) ![2, 0, 0] ![2, 0] Cert.ReferenceIdeal.Gen.slices_S3x128x128_S1x128x128_2_0_0 Cert.ReferenceIdeal.Gen.slices_S3x128_S1x128_2_0
    (X2 m c) (a1 m c) (a3 m c) (a4 m c) (a5 m c) (a6 m c) (a7 m c) (a8 m c)

/-- The inverse root degrees the kernel program holds as a column are the reference's. -/
theorem dv_ok (n : Fin 100000) : kv_v12 m c (ix2 n (0 : Fin 1)) = refDinv (F := Ideal) (a1 m c) (ix1 n) :=
  hDinv2d_apply (a1 m c) n

include hpre in
theorem fin0 : ∀ i, IsReal (a0 m c i) := (args_real m hpre c).1
include hpre in
theorem fin3 : ∀ i, IsReal (a3 m c i) := (args_real m hpre c).2.1
include hpre in
theorem fin4 : ∀ i, IsReal (a4 m c i) := (args_real m hpre c).2.2.1
include hpre in
theorem fin5 : ∀ i, IsReal (a5 m c i) := (args_real m hpre c).2.2.2.1
include hpre in
theorem fin6 : ∀ i, IsReal (a6 m c i) := (args_real m hpre c).2.2.2.2.1
include hpre in
theorem fin7 : ∀ i, IsReal (a7 m c i) := (args_real m hpre c).2.2.2.2.2.1
include hpre in
theorem fin8 : ∀ i, IsReal (a8 m c i) := (args_real m hpre c).2.2.2.2.2.2

/-! ## Layer 0 -/

include hpre in
theorem step0 :
    G3_xn (kv_v33_1 m c) (kv_v36 m c) (kv_v40 m c) (kv_v49 m c) (kv_v50 m c) = X1 m c ∧ ∀ i, IsReal (X1 m c i) := by
  have s := layer_step (a0 m c) (fin0 m hpre c) (kv_v15 m c) _ _
    (mat_real (a3 m c) (fin3 m hpre c)).1 (mat_real (a5 m c) (fin5 m hpre c)).1
    (hWcat0_left (a3 m c) (a5 m c)) (hWcat0_right (a3 m c) (a5 m c))
    (kv_v32 m c) (kv_v18 m c) (kv_v49 m c) (kv_v50 m c) _ _ _ _
    (row_real (a4 m c) (fin4 m hpre c)).1 (row_real (a6 m c) (fin6 m hpre c)).1
    (row_real (a7 m c) (fin7 m hpre c)).1 (row_real (a8 m c) (fin8 m hpre c)).1
    (hRow0_apply (a4 m c)) (hRow0_apply (a6 m c)) (hRow0_apply (a7 m c)) (hRow0_apply (a8 m c))
    (a1 m c) (kv_v12 m c) (dv_ok m c)
  exact ⟨s.1, s.2.2⟩

/-! ## Layer 1 -/

include hpre in
theorem left1 : kv_v52_0 m c = G0_4 (X1 m c) (kv_v46 m c) (kv_v12 m c) := by
  show G3_8 (kv_v33_1 m c) (kv_v36 m c) (kv_v40 m c) (kv_v49 m c) (kv_v50 m c) (kv_v46 m c) (kv_v12 m c) = _
  rw [fused_left, (step0 m hpre c).1]
include hpre in
theorem right1 : kv_v52_1 m c = G0_5 (X1 m c) (kv_v46 m c) (kv_v51 m c) := by
  show G3_9 (kv_v33_1 m c) (kv_v36 m c) (kv_v40 m c) (kv_v49 m c) (kv_v50 m c) (kv_v46 m c) (kv_v51 m c) = _
  rw [fused_right, (step0 m hpre c).1]

include hpre in
theorem step1 :
    G3_xn (kv_v66_1 m c) (kv_v69 m c) (kv_v73 m c) (kv_v82 m c) (kv_v83 m c) = X2 m c ∧ ∀ i, IsReal (X2 m c i) := by
  have s := layer_step (X1 m c) (step0 m hpre c).2 (kv_v46 m c) _ _
    (mat_real (a3 m c) (fin3 m hpre c)).2.1 (mat_real (a5 m c) (fin5 m hpre c)).2.1
    (hWcat1_left (a3 m c) (a5 m c)) (hWcat1_right (a3 m c) (a5 m c))
    (kv_v65 m c) (kv_v51 m c) (kv_v82 m c) (kv_v83 m c) _ _ _ _
    (row_real (a4 m c) (fin4 m hpre c)).2.1 (row_real (a6 m c) (fin6 m hpre c)).2.1
    (row_real (a7 m c) (fin7 m hpre c)).2.1 (row_real (a8 m c) (fin8 m hpre c)).2.1
    (hRow1_apply (a4 m c)) (hRow1_apply (a6 m c)) (hRow1_apply (a7 m c)) (hRow1_apply (a8 m c))
    (a1 m c) (kv_v12 m c) (dv_ok m c)
  refine ⟨?_, s.2.2⟩
  have e := s.1
  rw [← left1 m hpre c, ← right1 m hpre c, ← G4_5_eq, ← G4_4_eq, ← G5_2_eq] at e
  exact e

/-! ## Layer 2 -/

include hpre in
theorem left2 : kv_v85_0 m c = G0_4 (X2 m c) (kv_v79 m c) (kv_v12 m c) := by
  show G6_8 (kv_v66_1 m c) (kv_v69 m c) (kv_v73 m c) (kv_v82 m c) (kv_v83 m c) (kv_v79 m c) (kv_v12 m c) = _
  rw [G6_8_eq, fused_left, (step1 m hpre c).1]
include hpre in
theorem right2 : kv_v85_1 m c = G0_5 (X2 m c) (kv_v79 m c) (kv_v84 m c) := by
  show G6_9 (kv_v66_1 m c) (kv_v69 m c) (kv_v73 m c) (kv_v82 m c) (kv_v83 m c) (kv_v79 m c) (kv_v84 m c) = _
  rw [G6_9_eq, fused_right, (step1 m hpre c).1]

include hpre in
theorem step2 : kv_v113 m c = X3 m c ∧ ∀ i, IsReal (X3 m c i) := by
  have s := layer_step (X2 m c) (step1 m hpre c).2 (kv_v79 m c) _ _
    (mat_real (a3 m c) (fin3 m hpre c)).2.2 (mat_real (a5 m c) (fin5 m hpre c)).2.2
    (hWcat2_left (a3 m c) (a5 m c)) (hWcat2_right (a3 m c) (a5 m c))
    (kv_v98 m c) (kv_v84 m c) (kv_v111 m c) (kv_v112 m c) _ _ _ _
    (row_real (a4 m c) (fin4 m hpre c)).2.2 (row_real (a6 m c) (fin6 m hpre c)).2.2
    (row_real (a7 m c) (fin7 m hpre c)).2.2 (row_real (a8 m c) (fin8 m hpre c)).2.2
    (hRow2_apply (a4 m c)) (hRow2_apply (a6 m c)) (hRow2_apply (a7 m c)) (hRow2_apply (a8 m c))
    (a1 m c) (kv_v12 m c) (dv_ok m c)
  refine ⟨?_, s.2.2⟩
  have e := s.2.1
  rw [← left2 m hpre c, ← right2 m hpre c, ← G7_5_eq, ← G7_4_eq, ← G8_2_eq] at e
  exact e

/-! ## The pooled sums -/

include hpre in
/-- What the kernel program returns is the reference's result of the same arguments. -/
theorem out_eq : kv_v116 m c
    = refOut (F := Ideal) (a0 m c) (a1 m c) (a2 m c) (a3 m c) (a4 m c) (a5 m c) (a6 m c) (a7 m c) (a8 m c) := by
  show hPooled (F := Ideal) (G10_2 (kv_v113 m c) (hBatch2d (F := Ideal) (kv_arg2 m c))) = _
  rw [(step2 m hpre c).1, pool_eq (X3 m c) (step2 m hpre c).2 (a2 m c)]
  rfl

/-! ## The claim -/

/-- At the extended reals, from memories that agree on the arguments, both programs run to the end, leave their
    arguments alone, and return the same array. -/
theorem algebraic : Cert.algebraic_KernelIdeal_ReferenceIdeal := by
  intro m ρ m' ρ' hpre hagree
  refine ⟨fun c => kv_v116 m c, ?_, ?_⟩
  · refine (θ_run _ _ _).mono (fun r h c => ?_) (Cert.KernelIdeal.Hand.run_all m ρ)
    exact ⟨(h c _ (mem_ucH Cert.KernelIdeal.main_v116 (by decide))).trans (kernel_out m ρ c),
      (h c _ (mem_ucH Cert.KernelIdeal.main_arg0 (by decide))).trans (W23_main_arg0 m ρ c),
      (h c _ (mem_ucH Cert.KernelIdeal.main_arg1 (by decide))).trans (W23_main_arg1 m ρ c),
      (h c _ (mem_ucH Cert.KernelIdeal.main_arg2 (by decide))).trans (W23_main_arg2 m ρ c),
      (h c _ (mem_ucH Cert.KernelIdeal.main_arg3 (by decide))).trans (W23_main_arg3 m ρ c),
      (h c _ (mem_ucH Cert.KernelIdeal.main_arg4 (by decide))).trans (W23_main_arg4 m ρ c),
      (h c _ (mem_ucH Cert.KernelIdeal.main_arg5 (by decide))).trans (W23_main_arg5 m ρ c),
      (h c _ (mem_ucH Cert.KernelIdeal.main_arg6 (by decide))).trans (W23_main_arg6 m ρ c),
      (h c _ (mem_ucH Cert.KernelIdeal.main_arg7 (by decide))).trans (W23_main_arg7 m ρ c),
      (h c _ (mem_ucH Cert.KernelIdeal.main_arg8 (by decide))).trans (W23_main_arg8 m ρ c)⟩
  · refine (θ_run _ _ _).mono (fun r h c => ⟨(h c).1.trans ?_, (h c).2⟩) (Cert.ReferenceIdeal.Hand.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (out_eq m hpre c).symm

end Cert.Bridge

end
-- ==== Proof.lean ====
/-
  A three-layer graph convolution with residual branches and batch normalisation over 100000 nodes, pooled per graph:
  a kernel program of eleven pallas_calls among host operations against a plain reference.

  The kernel program's run (at either instance) is one launch over its 23 segments — twelve stretches of host operations,
  eleven regions — whose final state holds every unscoped buffer at a fold of boundary contents: the argument arrays among
  them are as launched (the two frames), and the result is the pooled sums of a composition of the regions' whole-array
  functions and the host chains. The reference is a pure host program; its run names its result as a composition of stages.
  At the extended reals the two compositions agree on finite inputs: every intermediate value is then a real, a node's
  inverse root degree may be taken inside the sum of its incoming messages, column sums over the nodes may be taken tile
  by tile, and the pooling's two-part split of the activations has a zero second part.
-/
import proofs.«417336_j40785009443359_3_alg».proof.Defs
import proofs.«417336_j40785009443359_3_alg».proof.Proof.Gen.Kernel
import proofs.«417336_j40785009443359_3_alg».proof.Proof.Gen.KernelIdeal
import proofs.«417336_j40785009443359_3_alg».proof.Proof.Gen.ReferenceIdeal
import proofs.«417336_j40785009443359_3_alg».proof.Proof.Gen.Pre_finite_inputs
import proofs.«417336_j40785009443359_3_alg».proof.Proof.KB.Asm
import proofs.«417336_j40785009443359_3_alg».proof.Proof.KI.Asm
import proofs.«417336_j40785009443359_3_alg».proof.Proof.KI.RefRun
import proofs.«417336_j40785009443359_3_alg».proof.Proof.KI.Compose
import Idealize.ShloMosaic.PureOps.IdealRules

noncomputable section

namespace Cert.Proof

open Idealize.ShloMosaic Idealize.SL.Sem

/-- The word-level kernel runs to the end and leaves its arguments alone. -/
theorem frame_k : Cert.frame_Kernel := fun m ρ _ => Cert.Kernel.Hand.frameH m ρ
/-- So does the idealized kernel. -/
theorem frame_ki : Cert.frame_KernelIdeal := fun m ρ _ => Cert.KernelIdeal.Hand.frameH m ρ
/-- The one rewrite of the ideal pass: a round trip through bf16 removed in the pooling kernel. -/
theorem preserves : Cert.preserves_Kernel_KernelIdeal := IdealRules.truncf_extf.statement _ .f32 .bf16

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame_ri, preserves, Cert.Bridge.algebraic⟩

end Cert.Proof

end
